-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S16384x1024 : Shape := ⟨2, ![16384, 1024]⟩
abbrev S32768x1024 : Shape := ⟨2, ![32768, 1024]⟩
abbrev S4x1024x1024 : Shape := ⟨3, ![4, 1024, 1024]⟩
abbrev S4 : Shape := ⟨1, ![4]⟩
abbrev S16 : Shape := ⟨1, ![16]⟩
abbrev S8 : Shape := ⟨1, ![8]⟩
abbrev S_ : Shape := ⟨0, ![]⟩
abbrev S1 : Shape := ⟨1, ![1]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S4x1024x1024, .f32⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_8 : BitVec 32 := 8#32
  let v16 : BitVec 32 := Scalar.muli v10 c8_i32_8
  let v17 : BitVec 32 := Scalar.addi c0_i32 v16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9 : BitVec 32 := 4#32
  let v18 : BitVec 32 := Scalar.muli v5 c4_i32_9
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v20 : BitVec 32 := Scalar.muli v8 c1_i32_10
  let v21 : BitVec 32 := Scalar.addi v19 v20
  v21.toNat
def k0_dev2 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v22 : BitVec 32 := Scalar.muli v2 c8_i32_12
  let v23 : BitVec 32 := Scalar.addi c0_i32_13 v22
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_14 : BitVec 32 := 4#32
  let v24 : BitVec 32 := Scalar.muli v11 c4_i32_14
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.muli v8 c1_i32_15
  let v27 : BitVec 32 := Scalar.addi v25 v26
  v27.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_20 : BitVec 32 := 1#32
  let v32 : BitVec 32 := Scalar.muli v14 c1_i32_20
  let v33 : BitVec 32 := Scalar.addi v31 v32
  v33.toNat
def k0_off1 (d0 : Dev nD) (c0_i32_35 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32_32 : BitVec 32 := 16384#32
  let v54 : BitVec 32 := Scalar.muli v2 c16384_i32_32
  let c2_i32_33 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.muli c2_i32_33 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v56 : BitVec 32 := Scalar.addi v55 v9
  let c4096_i32_34 : BitVec 32 := 4096#32
  let v57 : BitVec 32 := Scalar.muli v56 c4096_i32_34
  let v58 : BitVec 32 := Scalar.addi v54 v57
  let v59 : BitVec 32 := Scalar.addi v58 c0_i32_35
  let c0_i32_42 : BitVec 32 := 0#32
  ![v59.toNat, 0]
def k0_off2 (d0 : Dev nD) (c0_i32_31 : BitVec 32) : Fin 2 → Nat :=
  let c2_i32_29 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.muli c2_i32_29 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v51 : BitVec 32 := Scalar.addi v50 v9
  let c4096_i32_30 : BitVec 32 := 4096#32
  let v52 : BitVec 32 := Scalar.muli v51 c4096_i32_30
  let v53 : BitVec 32 := Scalar.addi v52 c0_i32_31
  let c0_i32_43 : BitVec 32 := 0#32
  ![v53.toNat, 0]
def k0_dev4 (d0 : Dev nD) : Nat :=
  let c0_i32_39 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_38 : BitVec 32 := 8#32
  let v60 : BitVec 32 := Scalar.muli v10 c8_i32_38
  let v61 : BitVec 32 := Scalar.addi c0_i32_39 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v62 : BitVec 32 := Scalar.muli v5 c4_i32_40
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v64 : BitVec 32 := Scalar.muli v8 c1_i32_41
  let v65 : BitVec 32 := Scalar.addi v63 v64
  v65.toNat
def k0_dev5 (d0 : Dev nD) : Nat :=
  let c0_i32_53 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_52 : BitVec 32 := 8#32
  let v82 : BitVec 32 := Scalar.muli v10 c8_i32_52
  let v83 : BitVec 32 := Scalar.addi c0_i32_53 v82
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v84 : BitVec 32 := Scalar.muli v5 c4_i32_54
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v86 : BitVec 32 := Scalar.muli v8 c1_i32_55
  let v87 : BitVec 32 := Scalar.addi v85 v86
  v87.toNat
def k0_dev6 (d0 : Dev nD) : Nat :=
  let c0_i32_67 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_66 : BitVec 32 := 8#32
  let v104 : BitVec 32 := Scalar.muli v10 c8_i32_66
  let v105 : BitVec 32 := Scalar.addi c0_i32_67 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v106 : BitVec 32 := Scalar.muli v5 c4_i32_68
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v108 : BitVec 32 := Scalar.muli v8 c1_i32_69
  let v109 : BitVec 32 := Scalar.addi v107 v108
  v109.toNat
def k0_dev7 (d0 : Dev nD) : Nat :=
  let c0_i32_81 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_80 : BitVec 32 := 8#32
  let v126 : BitVec 32 := Scalar.muli v10 c8_i32_80
  let v127 : BitVec 32 := Scalar.addi c0_i32_81 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v128 : BitVec 32 := Scalar.muli v5 c4_i32_82
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v130 : BitVec 32 := Scalar.muli v8 c1_i32_83
  let v131 : BitVec 32 := Scalar.addi v129 v130
  v131.toNat
def k0_dev8 (d0 : Dev nD) : Nat :=
  let c0_i32_95 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_94 : BitVec 32 := 8#32
  let v148 : BitVec 32 := Scalar.muli v10 c8_i32_94
  let v149 : BitVec 32 := Scalar.addi c0_i32_95 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_96 : BitVec 32 := 4#32
  let v150 : BitVec 32 := Scalar.muli v5 c4_i32_96
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v152 : BitVec 32 := Scalar.muli v8 c1_i32_97
  let v153 : BitVec 32 := Scalar.addi v151 v152
  v153.toNat
def k0_dev9 (d0 : Dev nD) : Nat :=
  let c0_i32_108 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_107 : BitVec 32 := 8#32
  let v170 : BitVec 32 := Scalar.muli v10 c8_i32_107
  let v171 : BitVec 32 := Scalar.addi c0_i32_108 v170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v172 : BitVec 32 := Scalar.muli v5 c4_i32_109
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v174 : BitVec 32 := Scalar.muli v8 c1_i32_110
  let v175 : BitVec 32 := Scalar.addi v173 v174
  v175.toNat
def k0_dev10 (d0 : Dev nD) : Nat :=
  let c0_i32_121 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_120 : BitVec 32 := 8#32
  let v192 : BitVec 32 := Scalar.muli v10 c8_i32_120
  let v193 : BitVec 32 := Scalar.addi c0_i32_121 v192
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v194 : BitVec 32 := Scalar.muli v5 c4_i32_122
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v196 : BitVec 32 := Scalar.muli v8 c1_i32_123
  let v197 : BitVec 32 := Scalar.addi v195 v196
  v197.toNat
def k0_dev11 (d0 : Dev nD) : Nat :=
  let c0_i32_134 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_133 : BitVec 32 := 8#32
  let v214 : BitVec 32 := Scalar.muli v10 c8_i32_133
  let v215 : BitVec 32 := Scalar.addi c0_i32_134 v214
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_135 : BitVec 32 := 4#32
  let v216 : BitVec 32 := Scalar.muli v5 c4_i32_135
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v218 : BitVec 32 := Scalar.muli v8 c1_i32_136
  let v219 : BitVec 32 := Scalar.addi v217 v218
  v219.toNat
def k0_dev12 (d0 : Dev nD) : Nat :=
  let c0_i32_148 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_147 : BitVec 32 := 8#32
  let v236 : BitVec 32 := Scalar.muli v10 c8_i32_147
  let v237 : BitVec 32 := Scalar.addi c0_i32_148 v236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_149 : BitVec 32 := 4#32
  let v238 : BitVec 32 := Scalar.muli v5 c4_i32_149
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v240 : BitVec 32 := Scalar.muli v8 c1_i32_150
  let v241 : BitVec 32 := Scalar.addi v239 v240
  v241.toNat
def k0_dev13 (d0 : Dev nD) : Nat :=
  let c0_i32_161 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_160 : BitVec 32 := 8#32
  let v258 : BitVec 32 := Scalar.muli v10 c8_i32_160
  let v259 : BitVec 32 := Scalar.addi c0_i32_161 v258
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_162 : BitVec 32 := 4#32
  let v260 : BitVec 32 := Scalar.muli v5 c4_i32_162
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v262 : BitVec 32 := Scalar.muli v8 c1_i32_163
  let v263 : BitVec 32 := Scalar.addi v261 v262
  v263.toNat
def k0_dev14 (d0 : Dev nD) : Nat :=
  let c0_i32_174 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_173 : BitVec 32 := 8#32
  let v280 : BitVec 32 := Scalar.muli v10 c8_i32_173
  let v281 : BitVec 32 := Scalar.addi c0_i32_174 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v282 : BitVec 32 := Scalar.muli v5 c4_i32_175
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v284 : BitVec 32 := Scalar.muli v8 c1_i32_176
  let v285 : BitVec 32 := Scalar.addi v283 v284
  v285.toNat
def k0_dev15 (d0 : Dev nD) : Nat :=
  let c0_i32_187 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_186 : BitVec 32 := 8#32
  let v302 : BitVec 32 := Scalar.muli v10 c8_i32_186
  let v303 : BitVec 32 := Scalar.addi c0_i32_187 v302
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v304 : BitVec 32 := Scalar.muli v5 c4_i32_188
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v306 : BitVec 32 := Scalar.muli v8 c1_i32_189
  let v307 : BitVec 32 := Scalar.addi v305 v306
  v307.toNat
def k0_dev16 (d0 : Dev nD) : Nat :=
  let c0_i32_200 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_199 : BitVec 32 := 8#32
  let v324 : BitVec 32 := Scalar.muli v10 c8_i32_199
  let v325 : BitVec 32 := Scalar.addi c0_i32_200 v324
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_201 : BitVec 32 := 4#32
  let v326 : BitVec 32 := Scalar.muli v5 c4_i32_201
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v328 : BitVec 32 := Scalar.muli v8 c1_i32_202
  let v329 : BitVec 32 := Scalar.addi v327 v328
  v329.toNat
def k0_dev17 (d0 : Dev nD) : Nat :=
  let c0_i32_213 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_212 : BitVec 32 := 8#32
  let v346 : BitVec 32 := Scalar.muli v10 c8_i32_212
  let v347 : BitVec 32 := Scalar.addi c0_i32_213 v346
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_214 : BitVec 32 := 4#32
  let v348 : BitVec 32 := Scalar.muli v5 c4_i32_214
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v350 : BitVec 32 := Scalar.muli v8 c1_i32_215
  let v351 : BitVec 32 := Scalar.addi v349 v350
  v351.toNat
def k0_dev18 (d0 : Dev nD) : Nat :=
  let c0_i32_226 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_225 : BitVec 32 := 8#32
  let v368 : BitVec 32 := Scalar.muli v10 c8_i32_225
  let v369 : BitVec 32 := Scalar.addi c0_i32_226 v368
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v370 : BitVec 32 := Scalar.muli v5 c4_i32_227
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v372 : BitVec 32 := Scalar.muli v8 c1_i32_228
  let v373 : BitVec 32 := Scalar.addi v371 v372
  v373.toNat
def k0_dev19 (d0 : Dev nD) : Nat :=
  let c0_i32_239 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_238 : BitVec 32 := 8#32
  let v390 : BitVec 32 := Scalar.muli v10 c8_i32_238
  let v391 : BitVec 32 := Scalar.addi c0_i32_239 v390
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_240 : BitVec 32 := 4#32
  let v392 : BitVec 32 := Scalar.muli v5 c4_i32_240
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v394 : BitVec 32 := Scalar.muli v8 c1_i32_241
  let v395 : BitVec 32 := Scalar.addi v393 v394
  v395.toNat
def k0_off3 (d0 : Dev nD) (c0_i32_270 : BitVec 32) : Fin 2 → Nat :=
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_21 v2
  let c16384_i32 : BitVec 32 := 16384#32
  let v35 : BitVec 32 := Scalar.muli v34 c16384_i32
  let c2_i32_22 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.muli c2_i32_22 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v37 : BitVec 32 := Scalar.addi v36 v9
  let c4096_i32 : BitVec 32 := 4096#32
  let v38 : BitVec 32 := Scalar.muli v37 c4096_i32
  let v39 : BitVec 32 := Scalar.addi v35 v38
  let v427 : BitVec 32 := Scalar.addi v39 c0_i32_270
  let c0_i32_277 : BitVec 32 := 0#32
  ![v427.toNat, 0]
def k0_dev20 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_273 : BitVec 32 := 8#32
  let v428 : BitVec 32 := Scalar.muli v2 c8_i32_273
  let v429 : BitVec 32 := Scalar.addi c0_i32_274 v428
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_275 : BitVec 32 := 4#32
  let v430 : BitVec 32 := Scalar.muli v11 c4_i32_275
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v432 : BitVec 32 := Scalar.muli v8 c1_i32_276
  let v433 : BitVec 32 := Scalar.addi v431 v432
  v433.toNat
def k0_dev21 (d0 : Dev nD) : Nat :=
  let c0_i32_282 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_281 : BitVec 32 := 8#32
  let v440 : BitVec 32 := Scalar.muli v2 c8_i32_281
  let v441 : BitVec 32 := Scalar.addi c0_i32_282 v440
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_283 : BitVec 32 := 4#32
  let v442 : BitVec 32 := Scalar.muli v5 c4_i32_283
  let v443 : BitVec 32 := Scalar.addi v441 v442
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_284 : BitVec 32 := 1#32
  let v444 : BitVec 32 := Scalar.muli v14 c1_i32_284
  let v445 : BitVec 32 := Scalar.addi v443 v444
  v445.toNat
def k0_off4 (d0 : Dev nD) (c0_i32_294 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32_293 : BitVec 32 := 16384#32
  let v457 : BitVec 32 := Scalar.muli v2 c16384_i32_293
  let v458 : BitVec 32 := Scalar.addi v457 c0_i32_294
  let c0_i32_297 : BitVec 32 := 0#32
  ![v458.toNat, 0]
def k0_dev22 (d0 : Dev nD) : Nat :=
  let c0_i32_318 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_317 : BitVec 32 := 8#32
  let v480 : BitVec 32 := Scalar.muli v2 c8_i32_317
  let v481 : BitVec 32 := Scalar.addi c0_i32_318 v480
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_319 : BitVec 32 := 4#32
  let v482 : BitVec 32 := Scalar.muli v11 c4_i32_319
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v484 : BitVec 32 := Scalar.muli v8 c1_i32_320
  let v485 : BitVec 32 := Scalar.addi v483 v484
  v485.toNat
def k0_dev23 (d0 : Dev nD) : Nat :=
  let c0_i32_326 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_325 : BitVec 32 := 8#32
  let v492 : BitVec 32 := Scalar.muli v2 c8_i32_325
  let v493 : BitVec 32 := Scalar.addi c0_i32_326 v492
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_327 : BitVec 32 := 4#32
  let v494 : BitVec 32 := Scalar.muli v5 c4_i32_327
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_328 : BitVec 32 := 1#32
  let v496 : BitVec 32 := Scalar.muli v14 c1_i32_328
  let v497 : BitVec 32 := Scalar.addi v495 v496
  v497.toNat
def k0_dev24 (d0 : Dev nD) : Nat :=
  let c0_i32_367 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_366 : BitVec 32 := 8#32
  let v537 : BitVec 32 := Scalar.muli v2 c8_i32_366
  let v538 : BitVec 32 := Scalar.addi c0_i32_367 v537
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_368 : BitVec 32 := 4#32
  let v539 : BitVec 32 := Scalar.muli v11 c4_i32_368
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_369 : BitVec 32 := 1#32
  let v541 : BitVec 32 := Scalar.muli v8 c1_i32_369
  let v542 : BitVec 32 := Scalar.addi v540 v541
  v542.toNat
def k0_dev25 (d0 : Dev nD) : Nat :=
  let c0_i32_375 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_374 : BitVec 32 := 8#32
  let v549 : BitVec 32 := Scalar.muli v2 c8_i32_374
  let v550 : BitVec 32 := Scalar.addi c0_i32_375 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_376 : BitVec 32 := 4#32
  let v551 : BitVec 32 := Scalar.muli v5 c4_i32_376
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_377 : BitVec 32 := 1#32
  let v553 : BitVec 32 := Scalar.muli v14 c1_i32_377
  let v554 : BitVec 32 := Scalar.addi v552 v553
  v554.toNat
def k0_dev26 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v594 : BitVec 32 := Scalar.muli v2 c8_i32_414
  let v595 : BitVec 32 := Scalar.addi c0_i32_415 v594
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_416 : BitVec 32 := 4#32
  let v596 : BitVec 32 := Scalar.muli v11 c4_i32_416
  let v597 : BitVec 32 := Scalar.addi v595 v596
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v598 : BitVec 32 := Scalar.muli v8 c1_i32_417
  let v599 : BitVec 32 := Scalar.addi v597 v598
  v599.toNat
def k0_dev27 (d0 : Dev nD) : Nat :=
  let c0_i32_423 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_422 : BitVec 32 := 8#32
  let v606 : BitVec 32 := Scalar.muli v2 c8_i32_422
  let v607 : BitVec 32 := Scalar.addi c0_i32_423 v606
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_424 : BitVec 32 := 4#32
  let v608 : BitVec 32 := Scalar.muli v5 c4_i32_424
  let v609 : BitVec 32 := Scalar.addi v607 v608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_425 : BitVec 32 := 1#32
  let v610 : BitVec 32 := Scalar.muli v14 c1_i32_425
  let v611 : BitVec 32 := Scalar.addi v609 v610
  v611.toNat
def k0_dev28 (d0 : Dev nD) : Nat :=
  let c0_i32_463 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_462 : BitVec 32 := 8#32
  let v651 : BitVec 32 := Scalar.muli v2 c8_i32_462
  let v652 : BitVec 32 := Scalar.addi c0_i32_463 v651
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_464 : BitVec 32 := 4#32
  let v653 : BitVec 32 := Scalar.muli v11 c4_i32_464
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v655 : BitVec 32 := Scalar.muli v8 c1_i32_465
  let v656 : BitVec 32 := Scalar.addi v654 v655
  v656.toNat
def k0_dev29 (d0 : Dev nD) : Nat :=
  let c0_i32_471 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_470 : BitVec 32 := 8#32
  let v663 : BitVec 32 := Scalar.muli v2 c8_i32_470
  let v664 : BitVec 32 := Scalar.addi c0_i32_471 v663
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_472 : BitVec 32 := 4#32
  let v665 : BitVec 32 := Scalar.muli v5 c4_i32_472
  let v666 : BitVec 32 := Scalar.addi v664 v665
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_473 : BitVec 32 := 1#32
  let v667 : BitVec 32 := Scalar.muli v14 c1_i32_473
  let v668 : BitVec 32 := Scalar.addi v666 v667
  v668.toNat
def k0_dev30 (d0 : Dev nD) : Nat :=
  let c0_i32_511 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_510 : BitVec 32 := 8#32
  let v708 : BitVec 32 := Scalar.muli v2 c8_i32_510
  let v709 : BitVec 32 := Scalar.addi c0_i32_511 v708
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_512 : BitVec 32 := 4#32
  let v710 : BitVec 32 := Scalar.muli v11 c4_i32_512
  let v711 : BitVec 32 := Scalar.addi v709 v710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_513 : BitVec 32 := 1#32
  let v712 : BitVec 32 := Scalar.muli v8 c1_i32_513
  let v713 : BitVec 32 := Scalar.addi v711 v712
  v713.toNat
def k0_dev31 (d0 : Dev nD) : Nat :=
  let c0_i32_519 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_518 : BitVec 32 := 8#32
  let v720 : BitVec 32 := Scalar.muli v2 c8_i32_518
  let v721 : BitVec 32 := Scalar.addi c0_i32_519 v720
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_520 : BitVec 32 := 4#32
  let v722 : BitVec 32 := Scalar.muli v5 c4_i32_520
  let v723 : BitVec 32 := Scalar.addi v721 v722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_521 : BitVec 32 := 1#32
  let v724 : BitVec 32 := Scalar.muli v14 c1_i32_521
  let v725 : BitVec 32 := Scalar.addi v723 v724
  v725.toNat
def k0_dev32 (d0 : Dev nD) : Nat :=
  let c0_i32_559 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_558 : BitVec 32 := 8#32
  let v765 : BitVec 32 := Scalar.muli v2 c8_i32_558
  let v766 : BitVec 32 := Scalar.addi c0_i32_559 v765
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_560 : BitVec 32 := 4#32
  let v767 : BitVec 32 := Scalar.muli v11 c4_i32_560
  let v768 : BitVec 32 := Scalar.addi v766 v767
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_561 : BitVec 32 := 1#32
  let v769 : BitVec 32 := Scalar.muli v8 c1_i32_561
  let v770 : BitVec 32 := Scalar.addi v768 v769
  v770.toNat
def k0_dev33 (d0 : Dev nD) : Nat :=
  let c0_i32_567 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_566 : BitVec 32 := 8#32
  let v777 : BitVec 32 := Scalar.muli v2 c8_i32_566
  let v778 : BitVec 32 := Scalar.addi c0_i32_567 v777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_568 : BitVec 32 := 4#32
  let v779 : BitVec 32 := Scalar.muli v5 c4_i32_568
  let v780 : BitVec 32 := Scalar.addi v778 v779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_569 : BitVec 32 := 1#32
  let v781 : BitVec 32 := Scalar.muli v14 c1_i32_569
  let v782 : BitVec 32 := Scalar.addi v780 v781
  v782.toNat
def k0_dev34 (d0 : Dev nD) : Nat :=
  let c0_i32_607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_606 : BitVec 32 := 8#32
  let v822 : BitVec 32 := Scalar.muli v2 c8_i32_606
  let v823 : BitVec 32 := Scalar.addi c0_i32_607 v822
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_608 : BitVec 32 := 4#32
  let v824 : BitVec 32 := Scalar.muli v11 c4_i32_608
  let v825 : BitVec 32 := Scalar.addi v823 v824
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_609 : BitVec 32 := 1#32
  let v826 : BitVec 32 := Scalar.muli v8 c1_i32_609
  let v827 : BitVec 32 := Scalar.addi v825 v826
  v827.toNat
def k0_dev35 (d0 : Dev nD) : Nat :=
  let c0_i32_615 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_614 : BitVec 32 := 8#32
  let v834 : BitVec 32 := Scalar.muli v2 c8_i32_614
  let v835 : BitVec 32 := Scalar.addi c0_i32_615 v834
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_616 : BitVec 32 := 4#32
  let v836 : BitVec 32 := Scalar.muli v5 c4_i32_616
  let v837 : BitVec 32 := Scalar.addi v835 v836
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_617 : BitVec 32 := 1#32
  let v838 : BitVec 32 := Scalar.muli v14 c1_i32_617
  let v839 : BitVec 32 := Scalar.addi v837 v838
  v839.toNat
def k0_dev36 (d0 : Dev nD) : Nat :=
  let c0_i32_655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_654 : BitVec 32 := 8#32
  let v879 : BitVec 32 := Scalar.muli v2 c8_i32_654
  let v880 : BitVec 32 := Scalar.addi c0_i32_655 v879
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_656 : BitVec 32 := 4#32
  let v881 : BitVec 32 := Scalar.muli v11 c4_i32_656
  let v882 : BitVec 32 := Scalar.addi v880 v881
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_657 : BitVec 32 := 1#32
  let v883 : BitVec 32 := Scalar.muli v8 c1_i32_657
  let v884 : BitVec 32 := Scalar.addi v882 v883
  v884.toNat
def k0_dev37 (d0 : Dev nD) : Nat :=
  let c0_i32_663 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_662 : BitVec 32 := 8#32
  let v891 : BitVec 32 := Scalar.muli v2 c8_i32_662
  let v892 : BitVec 32 := Scalar.addi c0_i32_663 v891
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_664 : BitVec 32 := 4#32
  let v893 : BitVec 32 := Scalar.muli v5 c4_i32_664
  let v894 : BitVec 32 := Scalar.addi v892 v893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_665 : BitVec 32 := 1#32
  let v895 : BitVec 32 := Scalar.muli v14 c1_i32_665
  let v896 : BitVec 32 := Scalar.addi v894 v895
  v896.toNat
def k0_dev38 (d0 : Dev nD) : Nat :=
  let c0_i32_703 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_702 : BitVec 32 := 8#32
  let v936 : BitVec 32 := Scalar.muli v2 c8_i32_702
  let v937 : BitVec 32 := Scalar.addi c0_i32_703 v936
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_704 : BitVec 32 := 4#32
  let v938 : BitVec 32 := Scalar.muli v11 c4_i32_704
  let v939 : BitVec 32 := Scalar.addi v937 v938
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_705 : BitVec 32 := 1#32
  let v940 : BitVec 32 := Scalar.muli v8 c1_i32_705
  let v941 : BitVec 32 := Scalar.addi v939 v940
  v941.toNat
def k0_dev39 (d0 : Dev nD) : Nat :=
  let c0_i32_711 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_710 : BitVec 32 := 8#32
  let v948 : BitVec 32 := Scalar.muli v2 c8_i32_710
  let v949 : BitVec 32 := Scalar.addi c0_i32_711 v948
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_712 : BitVec 32 := 4#32
  let v950 : BitVec 32 := Scalar.muli v5 c4_i32_712
  let v951 : BitVec 32 := Scalar.addi v949 v950
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_713 : BitVec 32 := 1#32
  let v952 : BitVec 32 := Scalar.muli v14 c1_i32_713
  let v953 : BitVec 32 := Scalar.addi v951 v952
  v953.toNat
def k0_dev40 (d0 : Dev nD) : Nat :=
  let c0_i32_751 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_750 : BitVec 32 := 8#32
  let v993 : BitVec 32 := Scalar.muli v2 c8_i32_750
  let v994 : BitVec 32 := Scalar.addi c0_i32_751 v993
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_752 : BitVec 32 := 4#32
  let v995 : BitVec 32 := Scalar.muli v11 c4_i32_752
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_753 : BitVec 32 := 1#32
  let v997 : BitVec 32 := Scalar.muli v8 c1_i32_753
  let v998 : BitVec 32 := Scalar.addi v996 v997
  v998.toNat
def k0_dev41 (d0 : Dev nD) : Nat :=
  let c0_i32_759 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_758 : BitVec 32 := 8#32
  let v1005 : BitVec 32 := Scalar.muli v2 c8_i32_758
  let v1006 : BitVec 32 := Scalar.addi c0_i32_759 v1005
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_760 : BitVec 32 := 4#32
  let v1007 : BitVec 32 := Scalar.muli v5 c4_i32_760
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_761 : BitVec 32 := 1#32
  let v1009 : BitVec 32 := Scalar.muli v14 c1_i32_761
  let v1010 : BitVec 32 := Scalar.addi v1008 v1009
  v1010.toNat
def k0_dev42 (d0 : Dev nD) : Nat :=
  let c0_i32_799 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_798 : BitVec 32 := 8#32
  let v1050 : BitVec 32 := Scalar.muli v2 c8_i32_798
  let v1051 : BitVec 32 := Scalar.addi c0_i32_799 v1050
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_800 : BitVec 32 := 4#32
  let v1052 : BitVec 32 := Scalar.muli v11 c4_i32_800
  let v1053 : BitVec 32 := Scalar.addi v1051 v1052
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_801 : BitVec 32 := 1#32
  let v1054 : BitVec 32 := Scalar.muli v8 c1_i32_801
  let v1055 : BitVec 32 := Scalar.addi v1053 v1054
  v1055.toNat
def k0_dev43 (d0 : Dev nD) : Nat :=
  let c0_i32_807 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_806 : BitVec 32 := 8#32
  let v1062 : BitVec 32 := Scalar.muli v2 c8_i32_806
  let v1063 : BitVec 32 := Scalar.addi c0_i32_807 v1062
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_808 : BitVec 32 := 4#32
  let v1064 : BitVec 32 := Scalar.muli v5 c4_i32_808
  let v1065 : BitVec 32 := Scalar.addi v1063 v1064
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_809 : BitVec 32 := 1#32
  let v1066 : BitVec 32 := Scalar.muli v14 c1_i32_809
  let v1067 : BitVec 32 := Scalar.addi v1065 v1066
  v1067.toNat
def k0_dev44 (d0 : Dev nD) : Nat :=
  let c0_i32_847 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_846 : BitVec 32 := 8#32
  let v1107 : BitVec 32 := Scalar.muli v2 c8_i32_846
  let v1108 : BitVec 32 := Scalar.addi c0_i32_847 v1107
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_848 : BitVec 32 := 4#32
  let v1109 : BitVec 32 := Scalar.muli v11 c4_i32_848
  let v1110 : BitVec 32 := Scalar.addi v1108 v1109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v1111 : BitVec 32 := Scalar.muli v8 c1_i32_849
  let v1112 : BitVec 32 := Scalar.addi v1110 v1111
  v1112.toNat
def k0_dev45 (d0 : Dev nD) : Nat :=
  let c0_i32_855 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_854 : BitVec 32 := 8#32
  let v1119 : BitVec 32 := Scalar.muli v2 c8_i32_854
  let v1120 : BitVec 32 := Scalar.addi c0_i32_855 v1119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_856 : BitVec 32 := 4#32
  let v1121 : BitVec 32 := Scalar.muli v5 c4_i32_856
  let v1122 : BitVec 32 := Scalar.addi v1120 v1121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_857 : BitVec 32 := 1#32
  let v1123 : BitVec 32 := Scalar.muli v14 c1_i32_857
  let v1124 : BitVec 32 := Scalar.addi v1122 v1123
  v1124.toNat
def k0_dev46 (d0 : Dev nD) : Nat :=
  let c0_i32_895 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_894 : BitVec 32 := 8#32
  let v1164 : BitVec 32 := Scalar.muli v2 c8_i32_894
  let v1165 : BitVec 32 := Scalar.addi c0_i32_895 v1164
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_896 : BitVec 32 := 4#32
  let v1166 : BitVec 32 := Scalar.muli v11 c4_i32_896
  let v1167 : BitVec 32 := Scalar.addi v1165 v1166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_897 : BitVec 32 := 1#32
  let v1168 : BitVec 32 := Scalar.muli v8 c1_i32_897
  let v1169 : BitVec 32 := Scalar.addi v1167 v1168
  v1169.toNat
def k0_dev47 (d0 : Dev nD) : Nat :=
  let c0_i32_903 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_902 : BitVec 32 := 8#32
  let v1176 : BitVec 32 := Scalar.muli v2 c8_i32_902
  let v1177 : BitVec 32 := Scalar.addi c0_i32_903 v1176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_904 : BitVec 32 := 4#32
  let v1178 : BitVec 32 := Scalar.muli v5 c4_i32_904
  let v1179 : BitVec 32 := Scalar.addi v1177 v1178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_905 : BitVec 32 := 1#32
  let v1180 : BitVec 32 := Scalar.muli v14 c1_i32_905
  let v1181 : BitVec 32 := Scalar.addi v1179 v1180
  v1181.toNat
def k0_dev48 (d0 : Dev nD) : Nat :=
  let c0_i32_933 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_932 : BitVec 32 := 8#32
  let v1211 : BitVec 32 := Scalar.muli v2 c8_i32_932
  let v1212 : BitVec 32 := Scalar.addi c0_i32_933 v1211
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_934 : BitVec 32 := 4#32
  let v1213 : BitVec 32 := Scalar.muli v11 c4_i32_934
  let v1214 : BitVec 32 := Scalar.addi v1212 v1213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_935 : BitVec 32 := 1#32
  let v1215 : BitVec 32 := Scalar.muli v8 c1_i32_935
  let v1216 : BitVec 32 := Scalar.addi v1214 v1215
  v1216.toNat
def k0_dev49 (d0 : Dev nD) : Nat :=
  let c0_i32_941 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_940 : BitVec 32 := 8#32
  let v1223 : BitVec 32 := Scalar.muli v2 c8_i32_940
  let v1224 : BitVec 32 := Scalar.addi c0_i32_941 v1223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_942 : BitVec 32 := 4#32
  let v1225 : BitVec 32 := Scalar.muli v5 c4_i32_942
  let v1226 : BitVec 32 := Scalar.addi v1224 v1225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_943 : BitVec 32 := 1#32
  let v1227 : BitVec 32 := Scalar.muli v14 c1_i32_943
  let v1228 : BitVec 32 := Scalar.addi v1226 v1227
  v1228.toNat
def k0_dev50 (d0 : Dev nD) : Nat :=
  let c0_i32_971 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_970 : BitVec 32 := 8#32
  let v1258 : BitVec 32 := Scalar.muli v2 c8_i32_970
  let v1259 : BitVec 32 := Scalar.addi c0_i32_971 v1258
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_972 : BitVec 32 := 4#32
  let v1260 : BitVec 32 := Scalar.muli v11 c4_i32_972
  let v1261 : BitVec 32 := Scalar.addi v1259 v1260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_973 : BitVec 32 := 1#32
  let v1262 : BitVec 32 := Scalar.muli v8 c1_i32_973
  let v1263 : BitVec 32 := Scalar.addi v1261 v1262
  v1263.toNat
def k0_dev51 (d0 : Dev nD) : Nat :=
  let c0_i32_979 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_978 : BitVec 32 := 8#32
  let v1270 : BitVec 32 := Scalar.muli v2 c8_i32_978
  let v1271 : BitVec 32 := Scalar.addi c0_i32_979 v1270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_980 : BitVec 32 := 4#32
  let v1272 : BitVec 32 := Scalar.muli v5 c4_i32_980
  let v1273 : BitVec 32 := Scalar.addi v1271 v1272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_981 : BitVec 32 := 1#32
  let v1274 : BitVec 32 := Scalar.muli v14 c1_i32_981
  let v1275 : BitVec 32 := Scalar.addi v1273 v1274
  v1275.toNat
def k0_off5 (d0 : Dev nD) (c0_i32_1005 : BitVec 32) : Fin 2 → Nat :=
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_21 v2
  let c16384_i32 : BitVec 32 := 16384#32
  let v35 : BitVec 32 := Scalar.muli v34 c16384_i32
  let c2_i32_26 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.muli c2_i32_26 v5
  let c1_i32_27 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v46 : BitVec 32 := Scalar.subi c1_i32_27 v9
  let v47 : BitVec 32 := Scalar.addi v45 v46
  let c4096_i32_28 : BitVec 32 := 4096#32
  let v48 : BitVec 32 := Scalar.muli v47 c4096_i32_28
  let v49 : BitVec 32 := Scalar.addi v35 v48
  let v1304 : BitVec 32 := Scalar.addi v49 c0_i32_1005
  let c0_i32_1012 : BitVec 32 := 0#32
  ![v1304.toNat, 0]
def k0_dev52 (d0 : Dev nD) : Nat :=
  let c0_i32_1009 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1008 : BitVec 32 := 8#32
  let v1305 : BitVec 32 := Scalar.muli v2 c8_i32_1008
  let v1306 : BitVec 32 := Scalar.addi c0_i32_1009 v1305
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_1010 : BitVec 32 := 4#32
  let v1307 : BitVec 32 := Scalar.muli v11 c4_i32_1010
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1309 : BitVec 32 := Scalar.muli v8 c1_i32_1011
  let v1310 : BitVec 32 := Scalar.addi v1308 v1309
  v1310.toNat
def k0_off6 (d0 : Dev nD) (c2048_i32_1022 : BitVec 32) : Fin 2 → Nat :=
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_21 v2
  let c16384_i32 : BitVec 32 := 16384#32
  let v35 : BitVec 32 := Scalar.muli v34 c16384_i32
  let c2_i32_24 : BitVec 32 := 2#32
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_23 v5
  let v41 : BitVec 32 := Scalar.muli c2_i32_24 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v42 : BitVec 32 := Scalar.addi v41 v9
  let c4096_i32_25 : BitVec 32 := 4096#32
  let v43 : BitVec 32 := Scalar.muli v42 c4096_i32_25
  let v44 : BitVec 32 := Scalar.addi v35 v43
  let v1327 : BitVec 32 := Scalar.addi v44 c2048_i32_1022
  let c0_i32_1029 : BitVec 32 := 0#32
  ![v1327.toNat, 0]
def k0_dev53 (d0 : Dev nD) : Nat :=
  let c0_i32_1026 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1025 : BitVec 32 := 8#32
  let v1328 : BitVec 32 := Scalar.muli v2 c8_i32_1025
  let v1329 : BitVec 32 := Scalar.addi c0_i32_1026 v1328
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1027 : BitVec 32 := 4#32
  let v1330 : BitVec 32 := Scalar.muli v5 c4_i32_1027
  let v1331 : BitVec 32 := Scalar.addi v1329 v1330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1028 : BitVec 32 := 1#32
  let v1332 : BitVec 32 := Scalar.muli v14 c1_i32_1028
  let v1333 : BitVec 32 := Scalar.addi v1331 v1332
  v1333.toNat
def k0_dev54 (d0 : Dev nD) : Nat :=
  let c0_i32_1043 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1042 : BitVec 32 := 8#32
  let v1351 : BitVec 32 := Scalar.muli v2 c8_i32_1042
  let v1352 : BitVec 32 := Scalar.addi c0_i32_1043 v1351
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_1044 : BitVec 32 := 4#32
  let v1353 : BitVec 32 := Scalar.muli v11 c4_i32_1044
  let v1354 : BitVec 32 := Scalar.addi v1352 v1353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1045 : BitVec 32 := 1#32
  let v1355 : BitVec 32 := Scalar.muli v8 c1_i32_1045
  let v1356 : BitVec 32 := Scalar.addi v1354 v1355
  v1356.toNat
def k0_dev55 (d0 : Dev nD) : Nat :=
  let c0_i32_1060 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1059 : BitVec 32 := 8#32
  let v1374 : BitVec 32 := Scalar.muli v2 c8_i32_1059
  let v1375 : BitVec 32 := Scalar.addi c0_i32_1060 v1374
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1061 : BitVec 32 := 4#32
  let v1376 : BitVec 32 := Scalar.muli v5 c4_i32_1061
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1062 : BitVec 32 := 1#32
  let v1378 : BitVec 32 := Scalar.muli v14 c1_i32_1062
  let v1379 : BitVec 32 := Scalar.addi v1377 v1378
  v1379.toNat
def k0_dev56 (d0 : Dev nD) : Nat :=
  let c0_i32_1077 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1076 : BitVec 32 := 8#32
  let v1397 : BitVec 32 := Scalar.muli v2 c8_i32_1076
  let v1398 : BitVec 32 := Scalar.addi c0_i32_1077 v1397
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_1078 : BitVec 32 := 4#32
  let v1399 : BitVec 32 := Scalar.muli v11 c4_i32_1078
  let v1400 : BitVec 32 := Scalar.addi v1398 v1399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1079 : BitVec 32 := 1#32
  let v1401 : BitVec 32 := Scalar.muli v8 c1_i32_1079
  let v1402 : BitVec 32 := Scalar.addi v1400 v1401
  v1402.toNat
def k0_dev57 (d0 : Dev nD) : Nat :=
  let c0_i32_1094 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1093 : BitVec 32 := 8#32
  let v1420 : BitVec 32 := Scalar.muli v2 c8_i32_1093
  let v1421 : BitVec 32 := Scalar.addi c0_i32_1094 v1420
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1095 : BitVec 32 := 4#32
  let v1422 : BitVec 32 := Scalar.muli v5 c4_i32_1095
  let v1423 : BitVec 32 := Scalar.addi v1421 v1422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1096 : BitVec 32 := 1#32
  let v1424 : BitVec 32 := Scalar.muli v14 c1_i32_1096
  let v1425 : BitVec 32 := Scalar.addi v1423 v1424
  v1425.toNat
def k0_dev58 (d0 : Dev nD) : Nat :=
  let c0_i32_1111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1110 : BitVec 32 := 8#32
  let v1443 : BitVec 32 := Scalar.muli v2 c8_i32_1110
  let v1444 : BitVec 32 := Scalar.addi c0_i32_1111 v1443
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_1112 : BitVec 32 := 4#32
  let v1445 : BitVec 32 := Scalar.muli v11 c4_i32_1112
  let v1446 : BitVec 32 := Scalar.addi v1444 v1445
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1113 : BitVec 32 := 1#32
  let v1447 : BitVec 32 := Scalar.muli v8 c1_i32_1113
  let v1448 : BitVec 32 := Scalar.addi v1446 v1447
  v1448.toNat
def k0_dev59 (d0 : Dev nD) : Nat :=
  let c0_i32_1128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1127 : BitVec 32 := 8#32
  let v1466 : BitVec 32 := Scalar.muli v2 c8_i32_1127
  let v1467 : BitVec 32 := Scalar.addi c0_i32_1128 v1466
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1129 : BitVec 32 := 4#32
  let v1468 : BitVec 32 := Scalar.muli v5 c4_i32_1129
  let v1469 : BitVec 32 := Scalar.addi v1467 v1468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1130 : BitVec 32 := 1#32
  let v1470 : BitVec 32 := Scalar.muli v14 c1_i32_1130
  let v1471 : BitVec 32 := Scalar.addi v1469 v1470
  v1471.toNat
def k0_dev60 (d0 : Dev nD) : Nat :=
  let c0_i32_1145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1144 : BitVec 32 := 8#32
  let v1489 : BitVec 32 := Scalar.muli v2 c8_i32_1144
  let v1490 : BitVec 32 := Scalar.addi c0_i32_1145 v1489
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_1146 : BitVec 32 := 4#32
  let v1491 : BitVec 32 := Scalar.muli v11 c4_i32_1146
  let v1492 : BitVec 32 := Scalar.addi v1490 v1491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1147 : BitVec 32 := 1#32
  let v1493 : BitVec 32 := Scalar.muli v8 c1_i32_1147
  let v1494 : BitVec 32 := Scalar.addi v1492 v1493
  v1494.toNat
def k0_dev61 (d0 : Dev nD) : Nat :=
  let c0_i32_1162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1161 : BitVec 32 := 8#32
  let v1512 : BitVec 32 := Scalar.muli v2 c8_i32_1161
  let v1513 : BitVec 32 := Scalar.addi c0_i32_1162 v1512
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1163 : BitVec 32 := 4#32
  let v1514 : BitVec 32 := Scalar.muli v5 c4_i32_1163
  let v1515 : BitVec 32 := Scalar.addi v1513 v1514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1164 : BitVec 32 := 1#32
  let v1516 : BitVec 32 := Scalar.muli v14 c1_i32_1164
  let v1517 : BitVec 32 := Scalar.addi v1515 v1516
  v1517.toNat
def k0_dev62 (d0 : Dev nD) : Nat :=
  let c0_i32_1179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1178 : BitVec 32 := 8#32
  let v1535 : BitVec 32 := Scalar.muli v2 c8_i32_1178
  let v1536 : BitVec 32 := Scalar.addi c0_i32_1179 v1535
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_1180 : BitVec 32 := 4#32
  let v1537 : BitVec 32 := Scalar.muli v11 c4_i32_1180
  let v1538 : BitVec 32 := Scalar.addi v1536 v1537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1181 : BitVec 32 := 1#32
  let v1539 : BitVec 32 := Scalar.muli v8 c1_i32_1181
  let v1540 : BitVec 32 := Scalar.addi v1538 v1539
  v1540.toNat
def k0_dev63 (d0 : Dev nD) : Nat :=
  let c0_i32_1196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1195 : BitVec 32 := 8#32
  let v1558 : BitVec 32 := Scalar.muli v2 c8_i32_1195
  let v1559 : BitVec 32 := Scalar.addi c0_i32_1196 v1558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1197 : BitVec 32 := 4#32
  let v1560 : BitVec 32 := Scalar.muli v5 c4_i32_1197
  let v1561 : BitVec 32 := Scalar.addi v1559 v1560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1198 : BitVec 32 := 1#32
  let v1562 : BitVec 32 := Scalar.muli v14 c1_i32_1198
  let v1563 : BitVec 32 := Scalar.addi v1561 v1562
  v1563.toNat
def k0_dev64 (d0 : Dev nD) : Nat :=
  let c0_i32_1213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1212 : BitVec 32 := 8#32
  let v1581 : BitVec 32 := Scalar.muli v2 c8_i32_1212
  let v1582 : BitVec 32 := Scalar.addi c0_i32_1213 v1581
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_1214 : BitVec 32 := 4#32
  let v1583 : BitVec 32 := Scalar.muli v11 c4_i32_1214
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1215 : BitVec 32 := 1#32
  let v1585 : BitVec 32 := Scalar.muli v8 c1_i32_1215
  let v1586 : BitVec 32 := Scalar.addi v1584 v1585
  v1586.toNat
def k0_dev65 (d0 : Dev nD) : Nat :=
  let c0_i32_1230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1229 : BitVec 32 := 8#32
  let v1604 : BitVec 32 := Scalar.muli v2 c8_i32_1229
  let v1605 : BitVec 32 := Scalar.addi c0_i32_1230 v1604
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1231 : BitVec 32 := 4#32
  let v1606 : BitVec 32 := Scalar.muli v5 c4_i32_1231
  let v1607 : BitVec 32 := Scalar.addi v1605 v1606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1232 : BitVec 32 := 1#32
  let v1608 : BitVec 32 := Scalar.muli v14 c1_i32_1232
  let v1609 : BitVec 32 := Scalar.addi v1607 v1608
  v1609.toNat
def k0_dev66 (d0 : Dev nD) : Nat :=
  let c0_i32_1247 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1246 : BitVec 32 := 8#32
  let v1627 : BitVec 32 := Scalar.muli v2 c8_i32_1246
  let v1628 : BitVec 32 := Scalar.addi c0_i32_1247 v1627
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_1248 : BitVec 32 := 4#32
  let v1629 : BitVec 32 := Scalar.muli v11 c4_i32_1248
  let v1630 : BitVec 32 := Scalar.addi v1628 v1629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1249 : BitVec 32 := 1#32
  let v1631 : BitVec 32 := Scalar.muli v8 c1_i32_1249
  let v1632 : BitVec 32 := Scalar.addi v1630 v1631
  v1632.toNat
def k0_dev67 (d0 : Dev nD) : Nat :=
  let c0_i32_1264 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1263 : BitVec 32 := 8#32
  let v1650 : BitVec 32 := Scalar.muli v2 c8_i32_1263
  let v1651 : BitVec 32 := Scalar.addi c0_i32_1264 v1650
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1265 : BitVec 32 := 4#32
  let v1652 : BitVec 32 := Scalar.muli v5 c4_i32_1265
  let v1653 : BitVec 32 := Scalar.addi v1651 v1652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1266 : BitVec 32 := 1#32
  let v1654 : BitVec 32 := Scalar.muli v14 c1_i32_1266
  let v1655 : BitVec 32 := Scalar.addi v1653 v1654
  v1655.toNat

class Facts₀ : Prop where
  hamt_1 : (1#32 : BitVec 32).msb = false
  hamt_3 : (3#32 : BitVec 32).msb = false
  inb_S16_S1_0 : ∀ a, (![0] : Fin 1 → Nat) a + S1.size a ≤ S16.size a
  squeezes_S1_S_ : S1.Squeezes S_
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S4_S1_0 : ∀ a, (![0] : Fin 1 → Nat) a + S1.size a ≤ S4.size a
  inb_S4x1024x1024_S1x1024x1024_0_0_0 : ∀ a, (![0, 0, 0] : Fin 3 → Nat) a + S1x1024x1024.size a ≤ S4x1024x1024.size a
  squeezes_S1x1024x1024_S1024x1024 : S1x1024x1024.Squeezes S1024x1024
  inb_S16384x1024_S1024x1024_0_0 : ∀ a, (![0, 0] : Fin 2 → Nat) a + S1024x1024.size a ≤ S16384x1024.size a
  inb_S4_S1_1 : ∀ a, (![1] : Fin 1 → Nat) a + S1.size a ≤ S4.size a
  inb_S4x1024x1024_S1x1024x1024_1_0_0 : ∀ a, (![1, 0, 0] : Fin 3 → Nat) a + S1x1024x1024.size a ≤ S4x1024x1024.size a
  inb_S16384x1024_S1024x1024_1024_0 : ∀ a, (![1024, 0] : Fin 2 → Nat) a + S1024x1024.size a ≤ S16384x1024.size a
  inb_S4_S1_2 : ∀ a, (![2] : Fin 1 → Nat) a + S1.size a ≤ S4.size a
  inb_S4x1024x1024_S1x1024x1024_2_0_0 : ∀ a, (![2, 0, 0] : Fin 3 → Nat) a + S1x1024x1024.size a ≤ S4x1024x1024.size a
  inb_S16384x1024_S1024x1024_2048_0 : ∀ a, (![2048, 0] : Fin 2 → Nat) a + S1024x1024.size a ≤ S16384x1024.size a
  inb_S4_S1_3 : ∀ a, (![3] : Fin 1 → Nat) a + S1.size a ≤ S4.size a
  inb_S4x1024x1024_S1x1024x1024_3_0_0 : ∀ a, (![3, 0, 0] : Fin 3 → Nat) a + S1x1024x1024.size a ≤ S4x1024x1024.size a
  inb_S16384x1024_S1024x1024_3072_0 : ∀ a, (![3072, 0] : Fin 2 → Nat) a + S1024x1024.size a ≤ S16384x1024.size a
  inb_S16384x1024_S1024x1024_4096_0 : ∀ a, (![4096, 0] : Fin 2 → Nat) a + S1024x1024.size a ≤ S16384x1024.size a
  inb_S16384x1024_S1024x1024_5120_0 : ∀ a, (![5120, 0] : Fin 2 → Nat) a + S1024x1024.size a ≤ S16384x1024.size a
  inb_S16384x1024_S1024x1024_6144_0 : ∀ a, (![6144, 0] : Fin 2 → Nat) a + S1024x1024.size a ≤ S16384x1024.size a
  inb_S16384x1024_S1024x1024_7168_0 : ∀ a, (![7168, 0] : Fin 2 → Nat) a + S1024x1024.size a ≤ S16384x1024.size a
  inb_S16384x1024_S1024x1024_8192_0 : ∀ a, (![8192, 0] : Fin 2 → Nat) a + S1024x1024.size a ≤ S16384x1024.size a
  inb_S16384x1024_S1024x1024_9216_0 : ∀ a, (![9216, 0] : Fin 2 → Nat) a + S1024x1024.size a ≤ S16384x1024.size a
  inb_S16384x1024_S1024x1024_10240_0 : ∀ a, (![10240, 0] : Fin 2 → Nat) a + S1024x1024.size a ≤ S16384x1024.size a
  inb_S16384x1024_S1024x1024_11264_0 : ∀ a, (![11264, 0] : Fin 2 → Nat) a + S1024x1024.size a ≤ S16384x1024.size a
  inb_S16384x1024_S1024x1024_12288_0 : ∀ a, (![12288, 0] : Fin 2 → Nat) a + S1024x1024.size a ≤ S16384x1024.size a
  inb_S16384x1024_S1024x1024_13312_0 : ∀ a, (![13312, 0] : Fin 2 → Nat) a + S1024x1024.size a ≤ S16384x1024.size a
  inb_S16384x1024_S1024x1024_14336_0 : ∀ a, (![14336, 0] : Fin 2 → Nat) a + S1024x1024.size a ≤ S16384x1024.size a
  inb_S16384x1024_S1024x1024_15360_0 : ∀ a, (![15360, 0] : Fin 2 → Nat) a + S1024x1024.size a ≤ S16384x1024.size a
  inb_S8_S1_0 : ∀ a, (![0] : Fin 1 → Nat) a + S1.size a ≤ S8.size a
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  hcc0_scratch1 : 0 + S4.numel ≤ 136
  hcc0_scratch2 : 4 + S4.numel ≤ 136
  hcc0_scratch3 : 8 + S16.numel ≤ 136
  hcc0_scratch4 : 24 + S16.numel ≤ 136
  hcc0_scratch5 : 40 + S16.numel ≤ 136
  hcc0_scratch6 : 56 + S16.numel ≤ 136
  hcc0_scratch7 : 72 + S16.numel ≤ 136
  hcc0_scratch8 : 88 + S16.numel ≤ 136
  hcc0_scratch9 : 104 + S8.numel ≤ 136
  hcc0_scratch10 : 112 + S8.numel ≤ 136
  hcc0_scratch11 : 120 + S8.numel ≤ 136
  hcc0_scratch12 : 128 + S8.numel ≤ 136
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 16), ∀ a, (k0_off1 d0 (BitVec.ofNat 32 (256 * r.val))) a + S256x1024.size a ≤ S32768x1024.size a
  k0_off2_inb : ∀ d0 : Dev nD, ∀ (r : Fin 16), ∀ a, (k0_off2 d0 (BitVec.ofNat 32 (256 * r.val))) a + S256x1024.size a ≤ S16384x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off3_inb : ∀ d0 : Dev nD, ∀ (r : Fin 16), ∀ a, (k0_off3 d0 (BitVec.ofNat 32 (256 * r.val))) a + S256x1024.size a ≤ S32768x1024.size a
  k0_dev20_lt : ∀ d0 : Dev nD, (k0_dev20 d0) < nD
  k0_dev21_lt : ∀ d0 : Dev nD, (k0_dev21 d0) < nD
  k0_off4_inb : ∀ d0 : Dev nD, ∀ (r : Fin 16), ∀ a, (k0_off4 d0 (BitVec.ofNat 32 (1024 * r.val))) a + S1024x1024.size a ≤ S32768x1024.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_off5_inb : ∀ d0 : Dev nD, ∀ (r : Fin 8), ∀ a, (k0_off5 d0 (BitVec.ofNat 32 (256 * r.val))) a + S256x1024.size a ≤ S32768x1024.size a
  k0_dev52_lt : ∀ d0 : Dev nD, (k0_dev52 d0) < nD
  k0_off6_inb : ∀ d0 : Dev nD, ∀ (r : Fin 8), ∀ a, (k0_off6 d0 (BitVec.ofNat 32 (2048 + 256 * r.val))) a + S256x1024.size a ≤ S32768x1024.size a
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD

variable [Facts₀]

abbrev cc0_scratch1 : DmaSems sig S4 := SemArray.consecutive 0 S4 hcc0_scratch1
abbrev cc0_scratch2 : DmaSems sig S4 := SemArray.consecutive 4 S4 hcc0_scratch2
abbrev cc0_scratch3 : DmaSems sig S16 := SemArray.consecutive 8 S16 hcc0_scratch3
abbrev cc0_scratch4 : DmaSems sig S16 := SemArray.consecutive 24 S16 hcc0_scratch4
abbrev cc0_scratch5 : DmaSems sig S16 := SemArray.consecutive 40 S16 hcc0_scratch5
abbrev cc0_scratch6 : DmaSems sig S16 := SemArray.consecutive 56 S16 hcc0_scratch6
abbrev cc0_scratch7 : DmaSems sig S16 := SemArray.consecutive 72 S16 hcc0_scratch7
abbrev cc0_scratch8 : DmaSems sig S16 := SemArray.consecutive 88 S16 hcc0_scratch8
abbrev cc0_scratch9 : DmaSems sig S8 := SemArray.consecutive 104 S8 hcc0_scratch9
abbrev cc0_scratch10 : DmaSems sig S8 := SemArray.consecutive 112 S8 hcc0_scratch10
abbrev cc0_scratch11 : DmaSems sig S8 := SemArray.consecutive 120 S8 hcc0_scratch11
abbrev cc0_scratch12 : DmaSems sig S8 := SemArray.consecutive 128 S8 hcc0_scratch12

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.AGTopo.lean ====
/- The mesh of sixteen devices as a cube of coordinates (x, y, z) with z split into a pair bit and a pair index:
   device c sits at x = c / 8, y = c / 4 % 2, z = c % 4. Each device has three partners, reached by flipping one bit of
   its number: the x partner (bit 3), the y partner (bit 2) and the z partner inside its z pair (bit 0). Every device
   number the kernel computes for a signal or a copy is one of these three partners. -/
import proofs.«900678_g7700000000000679_dist_ag_v7x_xyz2x2x4_x_m16384_n1024_f32_1_alg».proof.Proof.Gen.KernelIdeal

set_option Elab.async false

noncomputable section

namespace Cert.KernelIdeal.AG

open Cert.KernelIdeal Cert.KernelIdeal.Gen
open Idealize.ShloMosaic

/-- The partner across the x axis: bit 3 of the device number flipped. -/
def xP (c : Dev nD) : Dev nD := ⟨c.val ^^^ 8, by revert c; decide⟩
/-- The partner across the y axis: bit 2 flipped. -/
def yP (c : Dev nD) : Dev nD := ⟨c.val ^^^ 4, by revert c; decide⟩
/-- The partner inside the z pair: bit 0 flipped. -/
def zP (c : Dev nD) : Dev nD := ⟨c.val ^^^ 1, by revert c; decide⟩

theorem xP_xP : ∀ c : Dev nD, xP (xP c) = c := by decide
theorem yP_yP : ∀ c : Dev nD, yP (yP c) = c := by decide
theorem zP_zP : ∀ c : Dev nD, zP (zP c) = c := by decide
theorem xP_ne : ∀ c : Dev nD, xP c ≠ c := by decide
theorem yP_ne : ∀ c : Dev nD, yP c ≠ c := by decide
theorem zP_ne : ∀ c : Dev nD, zP c ≠ c := by decide
theorem xP_ne_yP : ∀ c : Dev nD, xP c ≠ yP c := by decide
theorem xP_ne_zP : ∀ c : Dev nD, xP c ≠ zP c := by decide
theorem yP_ne_zP : ∀ c : Dev nD, yP c ≠ zP c := by decide

def xEquiv : Dev nD ≃ Dev nD := ⟨xP, xP, xP_xP, xP_xP⟩
def yEquiv : Dev nD ≃ Dev nD := ⟨yP, yP, yP_yP, yP_yP⟩
def zEquiv : Dev nD ≃ Dev nD := ⟨zP, zP, zP_zP, zP_zP⟩

/-! The device numbers the kernel computes: the first three are the barrier signals to the x, y and z partners; 4 to 19
    the sixteen copies to the x partner; from 20 on they alternate between the y partner (even) and the z partner (odd):
    the sixteen pairs of forwarding copies, then the eight pairs of second-hop copies. -/
theorem dev1_eq : ∀ c : Dev nD, (⟨k0_dev1 c, k0_dev1_lt c⟩ : Dev nD) = xP c := by decide +kernel
theorem dev2_eq : ∀ c : Dev nD, (⟨k0_dev2 c, k0_dev2_lt c⟩ : Dev nD) = yP c := by decide +kernel
theorem dev3_eq : ∀ c : Dev nD, (⟨k0_dev3 c, k0_dev3_lt c⟩ : Dev nD) = zP c := by decide +kernel
theorem dev4_eq : ∀ c : Dev nD, (⟨k0_dev4 c, k0_dev4_lt c⟩ : Dev nD) = xP c := by decide +kernel
theorem dev5_eq : ∀ c : Dev nD, (⟨k0_dev5 c, k0_dev5_lt c⟩ : Dev nD) = xP c := by decide +kernel
theorem dev6_eq : ∀ c : Dev nD, (⟨k0_dev6 c, k0_dev6_lt c⟩ : Dev nD) = xP c := by decide +kernel
theorem dev7_eq : ∀ c : Dev nD, (⟨k0_dev7 c, k0_dev7_lt c⟩ : Dev nD) = xP c := by decide +kernel
theorem dev8_eq : ∀ c : Dev nD, (⟨k0_dev8 c, k0_dev8_lt c⟩ : Dev nD) = xP c := by decide +kernel
theorem dev9_eq : ∀ c : Dev nD, (⟨k0_dev9 c, k0_dev9_lt c⟩ : Dev nD) = xP c := by decide +kernel
theorem dev10_eq : ∀ c : Dev nD, (⟨k0_dev10 c, k0_dev10_lt c⟩ : Dev nD) = xP c := by decide +kernel
theorem dev11_eq : ∀ c : Dev nD, (⟨k0_dev11 c, k0_dev11_lt c⟩ : Dev nD) = xP c := by decide +kernel
theorem dev12_eq : ∀ c : Dev nD, (⟨k0_dev12 c, k0_dev12_lt c⟩ : Dev nD) = xP c := by decide +kernel
theorem dev13_eq : ∀ c : Dev nD, (⟨k0_dev13 c, k0_dev13_lt c⟩ : Dev nD) = xP c := by decide +kernel
theorem dev14_eq : ∀ c : Dev nD, (⟨k0_dev14 c, k0_dev14_lt c⟩ : Dev nD) = xP c := by decide +kernel
theorem dev15_eq : ∀ c : Dev nD, (⟨k0_dev15 c, k0_dev15_lt c⟩ : Dev nD) = xP c := by decide +kernel
theorem dev16_eq : ∀ c : Dev nD, (⟨k0_dev16 c, k0_dev16_lt c⟩ : Dev nD) = xP c := by decide +kernel
theorem dev17_eq : ∀ c : Dev nD, (⟨k0_dev17 c, k0_dev17_lt c⟩ : Dev nD) = xP c := by decide +kernel
theorem dev18_eq : ∀ c : Dev nD, (⟨k0_dev18 c, k0_dev18_lt c⟩ : Dev nD) = xP c := by decide +kernel
theorem dev19_eq : ∀ c : Dev nD, (⟨k0_dev19 c, k0_dev19_lt c⟩ : Dev nD) = xP c := by decide +kernel
theorem dev20_eq : ∀ c : Dev nD, (⟨k0_dev20 c, k0_dev20_lt c⟩ : Dev nD) = yP c := by decide +kernel
theorem dev21_eq : ∀ c : Dev nD, (⟨k0_dev21 c, k0_dev21_lt c⟩ : Dev nD) = zP c := by decide +kernel
theorem dev22_eq : ∀ c : Dev nD, (⟨k0_dev22 c, k0_dev22_lt c⟩ : Dev nD) = yP c := by decide +kernel
theorem dev23_eq : ∀ c : Dev nD, (⟨k0_dev23 c, k0_dev23_lt c⟩ : Dev nD) = zP c := by decide +kernel
theorem dev24_eq : ∀ c : Dev nD, (⟨k0_dev24 c, k0_dev24_lt c⟩ : Dev nD) = yP c := by decide +kernel
theorem dev25_eq : ∀ c : Dev nD, (⟨k0_dev25 c, k0_dev25_lt c⟩ : Dev nD) = zP c := by decide +kernel
theorem dev26_eq : ∀ c : Dev nD, (⟨k0_dev26 c, k0_dev26_lt c⟩ : Dev nD) = yP c := by decide +kernel
theorem dev27_eq : ∀ c : Dev nD, (⟨k0_dev27 c, k0_dev27_lt c⟩ : Dev nD) = zP c := by decide +kernel
theorem dev28_eq : ∀ c : Dev nD, (⟨k0_dev28 c, k0_dev28_lt c⟩ : Dev nD) = yP c := by decide +kernel
theorem dev29_eq : ∀ c : Dev nD, (⟨k0_dev29 c, k0_dev29_lt c⟩ : Dev nD) = zP c := by decide +kernel
theorem dev30_eq : ∀ c : Dev nD, (⟨k0_dev30 c, k0_dev30_lt c⟩ : Dev nD) = yP c := by decide +kernel
theorem dev31_eq : ∀ c : Dev nD, (⟨k0_dev31 c, k0_dev31_lt c⟩ : Dev nD) = zP c := by decide +kernel
theorem dev32_eq : ∀ c : Dev nD, (⟨k0_dev32 c, k0_dev32_lt c⟩ : Dev nD) = yP c := by decide +kernel
theorem dev33_eq : ∀ c : Dev nD, (⟨k0_dev33 c, k0_dev33_lt c⟩ : Dev nD) = zP c := by decide +kernel
theorem dev34_eq : ∀ c : Dev nD, (⟨k0_dev34 c, k0_dev34_lt c⟩ : Dev nD) = yP c := by decide +kernel
theorem dev35_eq : ∀ c : Dev nD, (⟨k0_dev35 c, k0_dev35_lt c⟩ : Dev nD) = zP c := by decide +kernel
theorem dev36_eq : ∀ c : Dev nD, (⟨k0_dev36 c, k0_dev36_lt c⟩ : Dev nD) = yP c := by decide +kernel
theorem dev37_eq : ∀ c : Dev nD, (⟨k0_dev37 c, k0_dev37_lt c⟩ : Dev nD) = zP c := by decide +kernel
theorem dev38_eq : ∀ c : Dev nD, (⟨k0_dev38 c, k0_dev38_lt c⟩ : Dev nD) = yP c := by decide +kernel
theorem dev39_eq : ∀ c : Dev nD, (⟨k0_dev39 c, k0_dev39_lt c⟩ : Dev nD) = zP c := by decide +kernel
theorem dev40_eq : ∀ c : Dev nD, (⟨k0_dev40 c, k0_dev40_lt c⟩ : Dev nD) = yP c := by decide +kernel
theorem dev41_eq : ∀ c : Dev nD, (⟨k0_dev41 c, k0_dev41_lt c⟩ : Dev nD) = zP c := by decide +kernel
theorem dev42_eq : ∀ c : Dev nD, (⟨k0_dev42 c, k0_dev42_lt c⟩ : Dev nD) = yP c := by decide +kernel
theorem dev43_eq : ∀ c : Dev nD, (⟨k0_dev43 c, k0_dev43_lt c⟩ : Dev nD) = zP c := by decide +kernel
theorem dev44_eq : ∀ c : Dev nD, (⟨k0_dev44 c, k0_dev44_lt c⟩ : Dev nD) = yP c := by decide +kernel
theorem dev45_eq : ∀ c : Dev nD, (⟨k0_dev45 c, k0_dev45_lt c⟩ : Dev nD) = zP c := by decide +kernel
theorem dev46_eq : ∀ c : Dev nD, (⟨k0_dev46 c, k0_dev46_lt c⟩ : Dev nD) = yP c := by decide +kernel
theorem dev47_eq : ∀ c : Dev nD, (⟨k0_dev47 c, k0_dev47_lt c⟩ : Dev nD) = zP c := by decide +kernel
theorem dev48_eq : ∀ c : Dev nD, (⟨k0_dev48 c, k0_dev48_lt c⟩ : Dev nD) = yP c := by decide +kernel
theorem dev49_eq : ∀ c : Dev nD, (⟨k0_dev49 c, k0_dev49_lt c⟩ : Dev nD) = zP c := by decide +kernel
theorem dev50_eq : ∀ c : Dev nD, (⟨k0_dev50 c, k0_dev50_lt c⟩ : Dev nD) = yP c := by decide +kernel
theorem dev51_eq : ∀ c : Dev nD, (⟨k0_dev51 c, k0_dev51_lt c⟩ : Dev nD) = zP c := by decide +kernel
theorem dev52_eq : ∀ c : Dev nD, (⟨k0_dev52 c, k0_dev52_lt c⟩ : Dev nD) = yP c := by decide +kernel
theorem dev53_eq : ∀ c : Dev nD, (⟨k0_dev53 c, k0_dev53_lt c⟩ : Dev nD) = zP c := by decide +kernel
theorem dev54_eq : ∀ c : Dev nD, (⟨k0_dev54 c, k0_dev54_lt c⟩ : Dev nD) = yP c := by decide +kernel
theorem dev55_eq : ∀ c : Dev nD, (⟨k0_dev55 c, k0_dev55_lt c⟩ : Dev nD) = zP c := by decide +kernel
theorem dev56_eq : ∀ c : Dev nD, (⟨k0_dev56 c, k0_dev56_lt c⟩ : Dev nD) = yP c := by decide +kernel
theorem dev57_eq : ∀ c : Dev nD, (⟨k0_dev57 c, k0_dev57_lt c⟩ : Dev nD) = zP c := by decide +kernel
theorem dev58_eq : ∀ c : Dev nD, (⟨k0_dev58 c, k0_dev58_lt c⟩ : Dev nD) = yP c := by decide +kernel
theorem dev59_eq : ∀ c : Dev nD, (⟨k0_dev59 c, k0_dev59_lt c⟩ : Dev nD) = zP c := by decide +kernel
theorem dev60_eq : ∀ c : Dev nD, (⟨k0_dev60 c, k0_dev60_lt c⟩ : Dev nD) = yP c := by decide +kernel
theorem dev61_eq : ∀ c : Dev nD, (⟨k0_dev61 c, k0_dev61_lt c⟩ : Dev nD) = zP c := by decide +kernel
theorem dev62_eq : ∀ c : Dev nD, (⟨k0_dev62 c, k0_dev62_lt c⟩ : Dev nD) = yP c := by decide +kernel
theorem dev63_eq : ∀ c : Dev nD, (⟨k0_dev63 c, k0_dev63_lt c⟩ : Dev nD) = zP c := by decide +kernel
theorem dev64_eq : ∀ c : Dev nD, (⟨k0_dev64 c, k0_dev64_lt c⟩ : Dev nD) = yP c := by decide +kernel
theorem dev65_eq : ∀ c : Dev nD, (⟨k0_dev65 c, k0_dev65_lt c⟩ : Dev nD) = zP c := by decide +kernel
theorem dev66_eq : ∀ c : Dev nD, (⟨k0_dev66 c, k0_dev66_lt c⟩ : Dev nD) = yP c := by decide +kernel
theorem dev67_eq : ∀ c : Dev nD, (⟨k0_dev67 c, k0_dev67_lt c⟩ : Dev nD) = zP c := by decide +kernel

end Cert.KernelIdeal.AG

end
-- ==== Proof.AGCore.lean ====
/- The cells, the views and the schedule of the sixteen-device all-gather.

   Every device c holds its half of the array (its x block) and must end with both halves. Its own half goes into the
   result through four rotating buffers, by sixteen local copies in and sixteen out. The other half arrives in four
   quarters: the quarter named by c's own (y, z-pair bit) straight from the x partner, in sixteen chunks; that same
   quarter is forwarded, chunk by chunk, to the y partner and to the z partner, so c receives the y partner's and the z
   partner's quarters the same way; the fourth quarter comes second-hop, its first eight chunks from the y partner and
   its last eight from the z partner. Every copy has a send semaphore on the sender and a receive semaphore on the
   receiver, each used once; the eight semaphores of the local copies are each used four times, in turn. -/
import proofs.«900678_g7700000000000679_dist_ag_v7x_xyz2x2x4_x_m16384_n1024_f32_1_alg».proof.Proof.AGTopo
import proofs.«900678_g7700000000000679_dist_ag_v7x_xyz2x2x4_x_m16384_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names 0, 1, 2) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and the cells -/

abbrev inM : Memref sig .tc .hbm S16384x1024 .f32 := Memref.whole main_arg0
abbrev outM : Memref sig .tc .hbm S32768x1024 .f32 := Memref.whole main_v1
abbrev vbM : Memref sig .tc .vmem S4x1024x1024 .f32 := Memref.whole cc0_scratch0

/-- The runtime's barrier semaphore of collective id 0. -/
abbrev barS : Sem sig := (SemArray.scalar (sig.barrier 0 rfl) : Sems sig S_).sem
abbrev barCell (c : Dev nD) : GSem nD τ sig := ((c : Thread nD τ), .reg barS)
/-- DMA semaphore number k of device c: 0–3 the loads', 4–7 the stores', 8–23 / 24–39 the x copies' send / receive,
    40–55 / 56–71 the y forwards', 72–87 / 88–103 the z forwards', 104–111 / 112–119 the second-hop y copies',
    120–127 / 128–135 the second-hop z copies'. -/
abbrev dcell (c : Dev nD) (k : Fin 136) : GSem nD τ sig := ((c : Thread nD τ), .dma (k : DmaSem sig))

/-- Chunk i of the quarter device c receives from its x partner, spelt as c's own forwarding copies name it. -/
abbrev qMine (c : Dev nD) (i : Fin 16) : Memref sig .tc .hbm S256x1024 .f32 :=
  outM.slice (Rect.unit (s := S32768x1024) (k0_off3 c (BitVec.ofNat 32 (256 * i.val))) S256x1024.size (k0_off3_inb c i)) (fun _ => rfl)
/-- Chunk i of device c's own quarter of its block, the source of its copy to the x partner. -/
abbrev xSrc (c : Dev nD) (i : Fin 16) : Memref sig .tc .hbm S256x1024 .f32 :=
  inM.slice (Rect.unit (s := S16384x1024) (k0_off2 c (BitVec.ofNat 32 (256 * i.val))) S256x1024.size (k0_off2_inb c i)) (fun _ => rfl)
/-- Where that chunk lands in the x partner's result, spelt by the sender c. -/
abbrev xDst (c : Dev nD) (i : Fin 16) : Memref sig .tc .hbm S256x1024 .f32 :=
  outM.slice (Rect.unit (s := S32768x1024) (k0_off1 c (BitVec.ofNat 32 (256 * i.val))) S256x1024.size (k0_off1_inb c i)) (fun _ => rfl)
/-- Chunk j (of the first eight) of the quarter c received from its z partner: the source of its second-hop copy to the y partner. -/
abbrev qZlo (c : Dev nD) (j : Fin 8) : Memref sig .tc .hbm S256x1024 .f32 :=
  outM.slice (Rect.unit (s := S32768x1024) (k0_off5 c (BitVec.ofNat 32 (256 * j.val))) S256x1024.size (k0_off5_inb c j)) (fun _ => rfl)
/-- Chunk 8 + j of the quarter c received from its y partner: the source of its second-hop copy to the z partner. -/
abbrev qYhi (c : Dev nD) (j : Fin 8) : Memref sig .tc .hbm S256x1024 .f32 :=
  outM.slice (Rect.unit (s := S32768x1024) (k0_off6 c (BitVec.ofNat 32 (2048 + 256 * j.val))) S256x1024.size (k0_off6_inb c j)) (fun _ => rfl)
/-- Rows 1024·n … of c's own half of its result: where local chunk n is stored. -/
abbrev stDst (c : Dev nD) (n : Fin 16) : Memref sig .tc .hbm S1024x1024 .f32 :=
  outM.slice (Rect.unit (s := S32768x1024) (k0_off4 c (BitVec.ofNat 32 (1024 * n.val))) S1024x1024.size (k0_off4_inb c n)) (fun _ => rfl)

/-- What a copy into a 256-row chunk of the result credits; into a 1024-row chunk of it; into a rotating buffer. -/
def N256 : ℕ := (qMine (0 : Dev nD) 0).view.dmaCredit
def N1024 : ℕ := (stDst (0 : Dev nD) 0).view.dmaCredit
theorem N256_pos : 0 < N256 := View.dmaCredit_pos _ (by decide)
theorem N1024_pos : 0 < N1024 := View.dmaCredit_pos _ (by decide)
/-- Every 256-row chunk of the result is worth the same, whichever way it is spelt; every 1024-row chunk too. -/
theorem credit_qMine (c : Dev nD) (i : Fin 16) : (qMine c i).view.dmaCredit = N256 := rfl
theorem credit_xDst (c : Dev nD) (i : Fin 16) : (xDst c i).view.dmaCredit = N256 := rfl
theorem credit_qZlo (c : Dev nD) (j : Fin 8) : (qZlo c j).view.dmaCredit = N256 := rfl
theorem credit_qYhi (c : Dev nD) (j : Fin 8) : (qYhi c j).view.dmaCredit = N256 := rfl
theorem credit_stDst (c : Dev nD) (n : Fin 16) : (stDst c n).view.dmaCredit = N1024 := rfl
attribute [irreducible] N256 N1024

end Cert.KernelIdeal.AG

end
-- ==== Proof.AGSched.lean ====
/- The contents each buffer holds along the run, what each landing hands its receiver, and the schedule of rounds.

   The result of device c ends as the whole array: row r of it is row r mod 16384 of the block of the device that owns
   that row for c — c itself on c's own half, and on the other half the device across the x axis whose (y, z-pair bit)
   names the row's quarter and whose z pair is c's. Whatever road a row takes (one hop, two hops, three hops), it is a
   copy of that owner's row. -/
import proofs.«900678_g7700000000000679_dist_ag_v7x_xyz2x2x4_x_m16384_n1024_f32_1_alg».proof.Proof.AGCore
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## More views: the local copies' -/

theorem ld_inb : ∀ (n : Fin 16) a, (![1024 * n.val, 0] : Fin 2 → Nat) a + S1024x1024.size a ≤ S16384x1024.size a := by decide
theorem vs_inb : ∀ (k : Fin 4) a, (![k.val, 0, 0] : Fin 3 → Nat) a + S1x1024x1024.size a ≤ S4x1024x1024.size a := by decide

/-- Rows 1024·n … of the device's own block: the source of local load n. -/
abbrev ldSrc (n : Fin 16) : Memref sig .tc .hbm S1024x1024 .f32 :=
  inM.slice (Rect.unit (s := S16384x1024) ![1024 * n.val, 0] S1024x1024.size (ld_inb n)) (fun _ => rfl)
/-- Rotating buffer k. -/
abbrev vslot (k : Fin 4) : Memref sig .tc .vmem S1024x1024 .f32 :=
  (vbM.slice (Rect.unit (s := S4x1024x1024) ![k.val, 0, 0] S1x1024x1024.size (vs_inb k)) (fun _ => rfl)).squeeze S1024x1024 squeezes_S1x1024x1024_S1024x1024

def NV : ℕ := (vslot 0).view.dmaCredit
theorem NV_pos : 0 < NV := View.dmaCredit_pos _ (by decide)
theorem credit_vslot (k : Fin 4) : (vslot k).view.dmaCredit = NV := rfl
attribute [irreducible] NV

/-! ## Contents -/

/-- Device c's block as launched. -/
abbrev blk (c : Dev nD) : Buf (Elt F) ((c : Thread nD τ).loc main_arg0) := m ((c : Thread nD τ).loc main_arg0)

/-- The device across the x axis from c, in c's z pair, at (y, z-pair bit) = (q / 2, q % 2): the origin of quarter q of c's other half. -/
def org (c : Dev nD) (q : ℕ) : Dev nD := ⟨8 * (1 - c.val / 8) + 4 * (q / 2 % 2) + 2 * (c.val % 4 / 2) + q % 2, by
  have h0 : c.val < 16 := c.isLt; have h1 : c.val / 8 ≤ 1 := by omega
  have h2 : c.val % 4 / 2 ≤ 1 := by omega
  have h3 : q / 2 % 2 ≤ 1 := by omega
  have h4 : q % 2 ≤ 1 := by omega
  have : 8 * (1 - c.val / 8) ≤ 8 := by omega
  show _ < 16; omega⟩

/-- Whose block row r of c's result copies. -/
def owner (c : Dev nD) (r : ℕ) : Dev nD := if r / 16384 = c.val / 8 then c else org c (r % 16384 / 4096)

/-- What device c's result holds at the end: row r is row r mod 16384 of its owner's block. -/
def Xf (c : Dev nD) : Buf (Elt F) ((c : Thread nD τ).loc main_v1) :=
  fun idx => blk m (owner c (idx 0).val) (ValueIdx.ix2 (⟨(idx 0).val % 16384, Nat.mod_lt _ (by decide)⟩ : Fin 16384) (⟨(idx 1).val, (idx 1).isLt⟩ : Fin 1024))

/-- What the rotating buffers hold once local chunk n has been loaded: in every slot, rows 1024·n … of the block (a
    points-to on slot k then says slot k holds chunk n). -/
def VB (c : Dev nD) (n : Fin 16) : Buf (Elt F) ((c : Thread nD τ).loc cc0_scratch0) :=
  fun idx => blk m c (ValueIdx.ix2 (⟨1024 * n.val + (idx 1).val, by have h1 : (idx 1).val < 1024 := (idx 1).isLt; have h2 : n.val < 16 := n.isLt; show _ < 16384; omega⟩ : Fin 16384) (⟨(idx 2).val, (idx 2).isLt⟩ : Fin 1024))

/-! ## The DMA semaphores by role -/

/-- The role of a DMA semaphore: a load's or a store's (by rotating buffer), or the send / receive end of one copy of
    one of the five families (x copy, y forward, z forward, second-hop y, second-hop z; by chunk). -/
inductive Cls where
  | ld (k : Fin 4) | st (k : Fin 4)
  | xs (i : Fin 16) | xr (i : Fin 16)
  | yds (i : Fin 16) | ydr (i : Fin 16)
  | zds (i : Fin 16) | zdr (i : Fin 16)
  | ydgs (j : Fin 8) | ydgr (j : Fin 8)
  | zdgs (j : Fin 8) | zdgr (j : Fin 8)
  deriving DecidableEq

/-- The semaphore's number in the device's pool. -/
def code : Cls → Fin 136
  | .ld k => ⟨k.val, by omega⟩ | .st k => ⟨4 + k.val, by omega⟩
  | .xs i => ⟨8 + i.val, by omega⟩ | .xr i => ⟨24 + i.val, by omega⟩
  | .yds i => ⟨40 + i.val, by omega⟩ | .ydr i => ⟨56 + i.val, by omega⟩
  | .zds i => ⟨72 + i.val, by omega⟩ | .zdr i => ⟨88 + i.val, by omega⟩
  | .ydgs j => ⟨104 + j.val, by omega⟩ | .ydgr j => ⟨112 + j.val, by omega⟩
  | .zdgs j => ⟨120 + j.val, by omega⟩ | .zdgr j => ⟨128 + j.val, by omega⟩

/-- The role of semaphore number k. -/
def decode (k : Fin 136) : Cls :=
  if h : k.val < 4 then .ld ⟨k.val, h⟩ else if h : k.val < 8 then .st ⟨k.val - 4, by omega⟩
  else if h : k.val < 24 then .xs ⟨k.val - 8, by omega⟩ else if h : k.val < 40 then .xr ⟨k.val - 24, by omega⟩
  else if h : k.val < 56 then .yds ⟨k.val - 40, by omega⟩ else if h : k.val < 72 then .ydr ⟨k.val - 56, by omega⟩
  else if h : k.val < 88 then .zds ⟨k.val - 72, by omega⟩ else if h : k.val < 104 then .zdr ⟨k.val - 88, by omega⟩
  else if h : k.val < 112 then .ydgs ⟨k.val - 104, by omega⟩ else if h : k.val < 120 then .ydgr ⟨k.val - 112, by omega⟩
  else if h : k.val < 128 then .zdgs ⟨k.val - 120, by omega⟩ else .zdgr ⟨k.val - 128, by have := k.isLt; omega⟩

theorem decode_code (x : Cls) : decode (code x) = x := by
  cases x <;> rename_i i <;> revert i <;> decide

theorem code_injective : Function.Injective code := fun a b h => by
  have := congrArg decode h; rwa [decode_code, decode_code] at this

/-- The cell of role x on device c. -/
abbrev kcell (c : Dev nD) (x : Cls) : GSem nD τ sig := dcell c (code x)

/-! ## What each landing hands over -/

abbrev qL : PosShare TreeShare := fullShare.left
abbrev qR : PosShare TreeShare := fullShare.right

/-- The local chunk that round r of rotating buffer k moves. -/
def nOf (r : ℕ) (k : Fin 4) : Fin 16 := ⟨(4 * r + k.val) % 16, Nat.mod_lt _ (by decide)⟩

/-- A chunk of device c's memory, through the view of a memref, at share q and contents f. -/
abbrev pts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-- What the units of a DMA semaphore's round hand the device: for a local copy the destination rewritten and the
    source's share back; for a send end the source's share back; for a receive end the chunk landed. -/
def dmaPay (c : Dev nD) : Cls → ℕ → sProp 𝕄
  | .ld k, r => iprop(pts c (vslot k) fullShare (VB m c (nOf r k)) ∗ pts c (ldSrc (nOf r k)) qR (blk m c))
  | .st k, r => iprop(pts c (stDst c (nOf r k)) fullShare (Xf m c) ∗ pts c (vslot k) fullShare (VB m c (nOf r k)))
  | .xs i, _ => pts c (xSrc c i) qL (blk m c)
  | .xr i, _ => pts c (qMine c i) fullShare (Xf m c)
  | .yds i, _ => pts c (qMine c i) qL (Xf m c)
  | .zds i, _ => pts c (qMine c i) qR (Xf m c)
  | .ydr i, _ => pts c (qMine (yP c) i) fullShare (Xf m c)
  | .zdr i, _ => pts c (qMine (zP c) i) fullShare (Xf m c)
  | .ydgs j, _ => pts c (qZlo c j) fullShare (Xf m c)
  | .zdgs j, _ => pts c (qYhi c j) fullShare (Xf m c)
  | .ydgr j, _ => pts c (qZlo (yP c) j) fullShare (Xf m c)
  | .zdgr j, _ => pts c (qYhi (zP c) j) fullShare (Xf m c)

/-- What a partner's entry signal hands device c: the chunks of the partner's result that c's copies will land in, at
    whatever they hold. Duty 0 is the x partner's, 1 the y partner's, 2 the z partner's. -/
def barPay (c : Dev nD) : Fin 3 → sProp 𝕄
  | 0 => bigSep Finset.univ fun i : Fin 16 => iprop(∃ f, pts (F := F) (xP c) (xDst c i) fullShare f)
  | 1 => iprop((bigSep Finset.univ fun i : Fin 16 => iprop(∃ f, pts (F := F) (yP c) (qMine c i) fullShare f))
      ∗ bigSep Finset.univ fun j : Fin 8 => iprop(∃ f, pts (F := F) (yP c) (qZlo c j) fullShare f))
  | 2 => iprop((bigSep Finset.univ fun i : Fin 16 => iprop(∃ f, pts (F := F) (zP c) (qMine c i) fullShare f))
      ∗ bigSep Finset.univ fun j : Fin 8 => iprop(∃ f, pts (F := F) (zP c) (qYhi c j) fullShare f))

/-! ## The schedule -/

/-- Whether the role is a local copy's (four rounds) or a remote copy's end (one round). -/
def Cls.loc : Cls → Bool
  | .ld _ | .st _ => true
  | _ => false

/-- What one use of the semaphore is worth. -/
def Cls.amt : Cls → ℕ
  | .ld _ => NV
  | .st _ => N1024
  | _ => N256

theorem Cls.amt_pos (x : Cls) : 0 < x.amt := by
  cases x
  case ld => exact NV_pos
  case st => exact N1024_pos
  all_goals exact N256_pos

/-- The duties of round r of a TensorCore's semaphore: the barrier's one round of three, a local copy's semaphore's
    four rounds of one, any other DMA semaphore's one round of one. -/
def dutiesOf : SemLoc sig → ℕ → Finset (Fin 3)
  | .reg _, r => if r = 0 then Finset.univ else ∅
  | .dma k, r => if (decode k).loc then (if r < 4 then {0} else ∅) else (if r = 0 then {0} else ∅)

/-- A duty's units. -/
def amountOf' : SemLoc sig → ℕ
  | .reg _ => 1
  | .dma k => (decode k).amt

/-- What a duty's units hand the device. -/
def payOf (c : Dev nD) : SemLoc sig → ℕ → Fin 3 → sProp 𝕄
  | .reg _, _, d => barPay c d
  | .dma k, r, _ => dmaPay m c (decode k) r

/-- The rounds: a device's barrier cell has one round of three unit duties, one per partner; a load's or a store's
    semaphore four rounds of one duty (the buffer's four uses); every other DMA semaphore one round of one duty. -/
def Rd : Rounds.Schedule (GSem nD τ sig) (Fin 3) 𝕄 where
  duties g r := if g.1.2 = .tc then dutiesOf g.2 r else ∅
  unitless _ := False
  amount g _ _ := amountOf' g.2
  payload g r d := payOf m g.1.1 g.2 r d
  amount_pos g _ _ _ := by
    rcases g with ⟨t, s | k⟩
    · exact Nat.one_pos
    · exact Cls.amt_pos _

end Cert.KernelIdeal.AG

end
-- ==== Proof.AGTables.lean ====
/- The schedule read cell by cell: which duties a round has, what each is worth, what it hands over, and what a
   round expects in all. A DMA semaphore's cell is read through its role. -/
import proofs.«900678_g7700000000000679_dist_ag_v7x_xyz2x2x4_x_m16384_n1024_f32_1_alg».proof.Proof.AGSched

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tables
variable (c : Dev nD)

omit [FloatOps F] in
theorem duties_tc (s : SemLoc sig) (r : ℕ) : (Rd (F := F) m).duties ((c : Thread nD τ), s) r = dutiesOf s r := by
  dsimp only [Rd]; exact if_pos rfl

omit [FloatOps F] in
theorem duties_bar : (Rd (F := F) m).duties (barCell c) 0 = Finset.univ := by
  rw [duties_tc, dutiesOf]; exact if_pos rfl
omit [FloatOps F] in
theorem duties_bar_later (r : ℕ) (hr : 1 ≤ r) : (Rd (F := F) m).duties (barCell c) r = ∅ := by
  rw [duties_tc, dutiesOf]; exact if_neg (by omega)
omit [FloatOps F] in
theorem amount_bar (r : ℕ) (d : Fin 3) : (Rd (F := F) m).amount (barCell c) r d = 1 := rfl
omit [FloatOps F] in
theorem payload_bar (r : ℕ) (d : Fin 3) : (Rd (F := F) m).payload (barCell c) r d = barPay c d := rfl
omit [FloatOps F] in
theorem expect_bar : (Rd (F := F) m).expect (barCell c) 0 = 3 := by
  unfold Schedule.expect Schedule.amountOf
  rw [duties_bar, Finset.sum_congr rfl fun d _ => amount_bar m c 0 d, Finset.sum_const, Finset.card_univ, Fintype.card_fin, smul_eq_mul]

/-- A round a cell has: any of the four for a local copy's semaphore, the first for any other. -/
def Cls.live (x : Cls) (r : ℕ) : Prop := if x.loc then r < 4 else r = 0

instance (x : Cls) (r : ℕ) : Decidable (x.live r) := by unfold Cls.live; infer_instance

omit [FloatOps F] in
theorem dutiesOf_code (x : Cls) (r : ℕ) : dutiesOf (.dma (code x) : SemLoc sig) r
    = if x.loc then (if r < 4 then {0} else ∅) else (if r = 0 then {0} else ∅) := by
  rw [dutiesOf, decode_code]
omit [FloatOps F] in
theorem amount_cell (x : Cls) (r : ℕ) (d : Fin 3) : (Rd (F := F) m).amount (kcell c x) r d = x.amt := by
  show (decode (code x)).amt = _; rw [decode_code]
omit [FloatOps F] in
theorem payload_cell (x : Cls) (r : ℕ) (d : Fin 3) : (Rd (F := F) m).payload (kcell c x) r d = dmaPay m c x r := by
  show dmaPay m c (decode (code x)) r = _; rw [decode_code]

omit [FloatOps F] in
theorem duties_live {x : Cls} {r : ℕ} (h : x.live r) : (Rd (F := F) m).duties (kcell c x) r = {0} := by
  rw [duties_tc, dutiesOf_code]; unfold Cls.live at h
  by_cases hl : x.loc = true
  · rw [if_pos hl] at h ⊢; exact if_pos h
  · rw [if_neg hl] at h ⊢; exact if_pos h
omit [FloatOps F] in
theorem expect_live {x : Cls} {r : ℕ} (h : x.live r) : (Rd (F := F) m).expect (kcell c x) r = x.amt := by
  unfold Schedule.expect Schedule.amountOf; rw [duties_live m c h, Finset.sum_singleton, amount_cell]
omit [FloatOps F] in
theorem rest_live {x : Cls} {r : ℕ} (h : x.live r) :
    bigSep ((Rd (F := F) m).duties (kcell c x) r \ ∅) (fun d => (Rd (F := F) m).payload (kcell c x) r d) = dmaPay m c x r := by
  rw [Finset.sdiff_empty, duties_live m c h, bigSep_singleton, payload_cell]
omit [FloatOps F] in
theorem duties_dead {x : Cls} (R : ℕ) (hR : if x.loc then 4 ≤ R else 1 ≤ R) : ∀ r, R ≤ r → (Rd (F := F) m).duties (kcell c x) r = ∅ := by
  intro r hr; rw [duties_tc, dutiesOf_code]
  by_cases hl : x.loc = true
  · rw [if_pos hl] at hR ⊢; exact if_neg (by omega)
  · rw [if_neg hl] at hR ⊢; exact if_neg (by omega)

end Tables

end Cert.KernelIdeal.AG

end
-- ==== Proof.AGState.lean ====
/- What each device owes and holds when the kernel starts, and what it holds when the kernel ends.

   Owed, in the order the device pays: a unit on each partner's barrier cell; the credit of each of the sixteen chunks
   on the x partner's receive cells; then, chunk by chunk, the y partner's and the z partner's forward receive cells;
   then the second-hop receive cells of the y and z partner. A device may wait on a cell only while everything it still
   owes sits on cells of a higher level: the barrier cells are at level 1, the x receive cells at 2, the forward receive
   cells at 3, the second-hop receive cells at 4, and every cell a device credits itself at 0 — the levels rise along the
   order of payment, so every wait of the kernel is below what is owed when it is made. -/
import proofs.«900678_g7700000000000679_dist_ag_v7x_xyz2x2x4_x_m16384_n1024_f32_1_alg».proof.Proof.AGTables

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device owes, in the order it pays -/

/-- The n-th payment of device c: the cell it credits and the units. -/
def ev (c : Dev nD) (n : ℕ) : GSem nD τ sig × ℕ :=
  if n < 3 then (if n = 0 then (barCell (xP c), 1) else if n = 1 then (barCell (yP c), 1) else (barCell (zP c), 1))
  else if n < 19 then (kcell (xP c) (.xr ⟨(n - 3) % 16, Nat.mod_lt _ (by decide)⟩), N256)
  else if n < 51 then
    (if (n - 19) % 2 = 0 then (kcell (yP c) (.ydr ⟨(n - 19) / 2 % 16, Nat.mod_lt _ (by decide)⟩), N256)
      else (kcell (zP c) (.zdr ⟨(n - 19) / 2 % 16, Nat.mod_lt _ (by decide)⟩), N256))
  else
    (if (n - 51) % 2 = 0 then (kcell (yP c) (.ydgr ⟨(n - 51) / 2 % 8, Nat.mod_lt _ (by decide)⟩), N256)
      else (kcell (zP c) (.zdgr ⟨(n - 51) / 2 % 8, Nat.mod_lt _ (by decide)⟩), N256))

/-- What device c still owes before its k-th payment when n payments remain: the later ones, then this one. -/
def owedN (c : Dev nD) : ℕ → ℕ → CellTallies nD τ sig Unit
  | 0, _ => 0
  | n + 1, k => owedN c n (k + 1) + tallyAt (ev c k).1 () (ev c k).2

/-- What device c owes at launch: all sixty-seven payments. -/
def O₀ (c : Dev nD) : CellTallies nD τ sig Unit := owedN c 67 0

/-! ## Levels -/

def clsLv : Cls → ℕ
  | .xr _ => 2
  | .ydr _ | .zdr _ => 3
  | .ydgr _ | .zdgr _ => 4
  | _ => 0

def L (g : GSem nD τ sig) : Finset Unit := if g.1.2 = .tc then {()} else ∅
def lv (g : GSem nD τ sig) (_ : Unit) : ℕ := match g.2 with
  | .reg _ => 1
  | .dma k => clsLv (decode k)

/-- The level of the k-th payment's cell: they rise along the order of payment. -/
def evLv (k : ℕ) : ℕ := if k < 3 then 1 else if k < 19 then 2 else if k < 51 then 3 else 4

theorem L_of_ne (g : GSem nD τ sig) (h : g.1.2 ≠ .tc) : L g = ∅ := if_neg h
theorem L_tc (c : Dev nD) (sm : SemLoc sig) : L ((c : Thread nD τ), sm) = {()} := if_pos rfl

/-! ## The cells' records and what a device holds at the start -/

/-- A TensorCore's cells: its barrier cell (none) and its DMA semaphores by role. -/
abbrev gcell (c : Dev nD) : Option Cls → GSem nD τ sig
  | none => barCell c
  | some x => kcell c x

deriving instance Fintype for Cls

/-- Every cell's invariant, at the names the launch allocated, and that every cell has reached its first round. -/
def records (K : Dev nD × Option Cls → ℕ) : sProp 𝕄 :=
  iprop((bigSep Finset.univ fun ck : Dev nD × Option Cls => cellInv ER (Rd m) (K ck) (gcell ck.1 ck.2))
    ∗ bigSep Finset.univ fun ck : Dev nD × Option Cls => reached ER (gcell ck.1 ck.2) 0)

instance records_persistent (K : Dev nD × Option Cls → ℕ) : BI.Persistent (records m K) := by unfold records; infer_instance

/-- The device's positions on its own cells. -/
def positions (c : Dev nD) : sProp 𝕄 :=
  iprop(atPos ER (barCell c) 0 ∅ 0 ∗ bigSep Finset.univ fun x : Cls => atPos ER (kcell c x) 0 ∅ 0)

/-- The tokens of the duties the device pays: its three barrier signals; per copy it sends, the send end's and the
    receive end's; per use of a local copy's semaphore, that round's. -/
def payToks (c : Dev nD) : sProp 𝕄 :=
  iprop(dutyTok ER (barCell (xP c)) 0 (0 : Fin 3) ∗ dutyTok ER (barCell (yP c)) 0 (1 : Fin 3) ∗ dutyTok ER (barCell (zP c)) 0 (2 : Fin 3)
    ∗ (bigSep Finset.univ fun i : Fin 16 => iprop(dutyTok ER (kcell c (.xs i)) 0 (0 : Fin 3) ∗ dutyTok ER (kcell (xP c) (.xr i)) 0 (0 : Fin 3)))
    ∗ (bigSep Finset.univ fun i : Fin 16 => iprop(dutyTok ER (kcell c (.yds i)) 0 (0 : Fin 3) ∗ dutyTok ER (kcell (yP c) (.ydr i)) 0 (0 : Fin 3)))
    ∗ (bigSep Finset.univ fun i : Fin 16 => iprop(dutyTok ER (kcell c (.zds i)) 0 (0 : Fin 3) ∗ dutyTok ER (kcell (zP c) (.zdr i)) 0 (0 : Fin 3)))
    ∗ (bigSep Finset.univ fun j : Fin 8 => iprop(dutyTok ER (kcell c (.ydgs j)) 0 (0 : Fin 3) ∗ dutyTok ER (kcell (yP c) (.ydgr j)) 0 (0 : Fin 3)))
    ∗ (bigSep Finset.univ fun j : Fin 8 => iprop(dutyTok ER (kcell c (.zdgs j)) 0 (0 : Fin 3) ∗ dutyTok ER (kcell (zP c) (.zdgr j)) 0 (0 : Fin 3)))
    ∗ (bigSep Finset.univ fun kr : Fin 4 × Fin 4 => iprop(dutyTok ER (kcell c (.ld kr.1)) kr.2.val (0 : Fin 3) ∗ dutyTok ER (kcell c (.st kr.1)) kr.2.val (0 : Fin 3))))

/-- The credit tokens for what the partners owe the device's cells. -/
def creds (c : Dev nD) : sProp 𝕄 :=
  iprop(cred (tallyAt (barCell c) () 3)
    ∗ (bigSep Finset.univ fun i : Fin 16 => cred (tallyAt (kcell c (.xr i)) () N256))
    ∗ (bigSep Finset.univ fun i : Fin 16 => cred (tallyAt (kcell c (.ydr i)) () N256))
    ∗ (bigSep Finset.univ fun i : Fin 16 => cred (tallyAt (kcell c (.zdr i)) () N256))
    ∗ (bigSep Finset.univ fun j : Fin 8 => cred (tallyAt (kcell c (.ydgr j)) () N256))
    ∗ (bigSep Finset.univ fun j : Fin 8 => cred (tallyAt (kcell c (.zdgr j)) () N256)))

/-- The ghost state a device starts from. -/
def ghost (K : Dev nD × Option Cls → ℕ) (c : Dev nD) : sProp 𝕄 := iprop(records m K ∗ positions c ∗ payToks c)

/-- Before the kernel: the ghost state at some names, the credit, the level facts, the block as launched, the result and
    the rotating buffers at whatever they hold. -/
def Φ₀ (c : Dev nD) : sProp 𝕄 :=
  iprop((∃ K, ghost m K c) ∗ creds c ∗ levAts L lv
    ∗ (((c : Thread nD τ).loc main_arg0) ↦{fullShare} blk m c)
    ∗ (∃ f, ((c : Thread nD τ).loc main_v1) ↦{fullShare} f)
    ∗ (∃ g, ((c : Thread nD τ).loc cc0_scratch0) ↦{fullShare} g))

/-- After it: the block unchanged, the result holding the whole array, the rotating buffers at something, every DMA
    semaphore's counter back at zero. -/
def Φ₁ (c : Dev nD) : sProp 𝕄 :=
  iprop((((c : Thread nD τ).loc main_arg0) ↦{fullShare} blk m c)
    ∗ (((c : Thread nD τ).loc main_v1) ↦{fullShare} Xf m c)
    ∗ (∃ g, ((c : Thread nD τ).loc cc0_scratch0) ↦{fullShare} g)
    ∗ bigSep Finset.univ fun x : Cls => semVal (kcell c x) 0)

/-- The pipeline's proof data: no window; the invariant before and after the one point; what is owed before and after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.AGLaunch.lean ====
/- The launch of the all-gather on the sixteen devices.

   Every device's 137 cells — its barrier cell and its 136 DMA semaphores — are funded at once: each cell's record at
   round 0, each device's positions on its own cells, and one token per duty of the schedule. The tokens are then dealt
   to the devices that pay the duties: a barrier cell's three go to the device's three partners, a receive cell's goes to
   the partner that sends into it, and the rest stay. The credit for what the partners owe a device's cells comes from the
   launch, payment by payment. The block, the result and the rotating buffers pass into the invariant before the one
   point, and come back after it: the block as launched, the result holding the whole array. -/
import proofs.«900678_g7700000000000679_dist_ag_v7x_xyz2x2x4_x_m16384_n1024_f32_1_alg».proof.Proof.AGState
import proofs.«900678_g7700000000000679_dist_ag_v7x_xyz2x2x4_x_m16384_n1024_f32_1_alg».proof.Proof.Gen.KernelIdeal.Launch
import proofs.«900678_g7700000000000679_dist_ag_v7x_xyz2x2x4_x_m16384_n1024_f32_1_alg».proof.Proof.Gen.KernelIdeal.Points
import proofs.«900678_g7700000000000679_dist_ag_v7x_xyz2x2x4_x_m16384_n1024_f32_1_alg».proof.Proof.Gen.KernelIdeal.Frame
import Idealize.ShloMosaic.Lib.Pipeline.Launch
import Idealize.ShloMosaic.Lib.Pipeline.Kit
import Idealize.ShloMosaic.Lib.Tactic
import Mathlib.Algebra.Group.Nat.Range
import Mathlib.Logic.Equiv.Option

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sums over a run of naturals, over an optional index -/

omit [FloatOps F] in
/-- A product over the first a + b naturals is the one over the first a and the one over the next b. -/
private theorem bigSep_range_add (a b : ℕ) (Φ : ℕ → sProp 𝕄) :
    bigSep (Finset.range (a + b)) Φ = iprop(bigSep (Finset.range a) Φ ∗ bigSep (Finset.range b) fun i => Φ (a + i)) := by
  rw [Finset.range_add, bigSep_union (Finset.disjoint_range_addLeftEmbedding a _), bigSep_map] <;> rfl

omit [FloatOps F] in
/-- A product over the first n naturals, indexed by Fin n. -/
private theorem bigSep_range_fin (n : ℕ) (Φ : ℕ → sProp 𝕄) :
    bigSep (Finset.range n) Φ = bigSep Finset.univ fun i : Fin n => Φ i.val := by
  have h : Finset.range n = Finset.univ.map (Fin.valEmbedding : Fin n ↪ ℕ) := by
    ext k
    rw [Finset.mem_range, Finset.mem_map]
    exact ⟨fun hk => ⟨⟨k, hk⟩, Finset.mem_univ _, rfl⟩, fun ⟨i, _, hi⟩ => hi ▸ i.isLt⟩
  rw [h, bigSep_map] <;> rfl

omit [FloatOps F] in
/-- A product over the first 2 n naturals, pair by pair. -/
private theorem bigSep_range_two (n : ℕ) (Φ : ℕ → sProp 𝕄) :
    bigSep (Finset.range (2 * n)) Φ = bigSep (Finset.range n) fun i => iprop(Φ (2 * i) ∗ Φ (2 * i + 1)) := by
  induction n with
  | zero => rfl
  | succ n ih =>
    have e1 : bigSep (Finset.range (2 * (n + 1))) Φ = iprop(Φ (2 * n + 1) ∗ Φ (2 * n) ∗ bigSep (Finset.range (2 * n)) Φ) := by
      rw [show 2 * (n + 1) = (2 * n + 1) + 1 from by omega, Finset.range_add_one (n := 2 * n + 1), bigSep_insert Finset.notMem_range_self,
        Finset.range_add_one (n := 2 * n), bigSep_insert Finset.notMem_range_self] <;> rfl
    have e2 : (bigSep (Finset.range (n + 1)) fun i => iprop(Φ (2 * i) ∗ Φ (2 * i + 1)))
        = iprop((Φ (2 * n) ∗ Φ (2 * n + 1)) ∗ bigSep (Finset.range n) fun i => iprop(Φ (2 * i) ∗ Φ (2 * i + 1))) := by
      rw [Finset.range_add_one (n := n), bigSep_insert Finset.notMem_range_self] <;> rfl
    rw [e1, e2, ih]
    have h1 : iprop(Φ (2 * n + 1) ∗ Φ (2 * n) ∗ bigSep (Finset.range n) fun i => iprop(Φ (2 * i) ∗ Φ (2 * i + 1)))
        ⊢ iprop((Φ (2 * n) ∗ Φ (2 * n + 1)) ∗ bigSep (Finset.range n) fun i => iprop(Φ (2 * i) ∗ Φ (2 * i + 1))) := by
      iintro ⟨H1, H0, H⟩
      isplitl [H0 H1]
      · isplitl [H0]; · iexact H0
        iexact H1
      · iexact H
    have h2 : iprop((Φ (2 * n) ∗ Φ (2 * n + 1)) ∗ bigSep (Finset.range n) fun i => iprop(Φ (2 * i) ∗ Φ (2 * i + 1)))
        ⊢ iprop(Φ (2 * n + 1) ∗ Φ (2 * n) ∗ bigSep (Finset.range n) fun i => iprop(Φ (2 * i) ∗ Φ (2 * i + 1))) := by
      iintro ⟨⟨H0, H1⟩, H⟩
      isplitl [H1]; · iexact H1
      isplitl [H0]; · iexact H0
      iexact H
    exact BI.Entails.antisymm h1 h2

omit [FloatOps F] in
/-- A product over an optional index: the members' and the one without. -/
private theorem bigSep_univ_option {α : Type} [Fintype α] (Φ : Option α → sProp 𝕄) :
    bigSep Finset.univ Φ = iprop((bigSep Finset.univ fun a => Φ (some a)) ∗ Φ none) := by
  rw [bigSep_univ_equiv (Equiv.optionEquivSumPUnit.{0, 0} α).symm Φ, bigSep_univ_sum, bigSep_univ_of_subsingleton PUnit.unit] <;> rfl

omit [FloatOps F] in
private theorem bigSep_fin3 (Φ : Fin 3 → sProp 𝕄) : bigSep Finset.univ Φ = iprop(Φ 0 ∗ Φ 1 ∗ Φ 2) := bigSep_univ_eq_bigSepL [0, 1, 2] (by decide) (by decide) Φ

/-! ## The kernel's own semaphores, the cells, the tokens -/

/-- The kernel's own semaphores: the 136 DMA semaphores, scoped scratch. -/
abbrev osem : Fin 136 → SemLoc sig := fun k => .dma k

theorem ownSemFacts : Pipeline.OwnSemFacts cfg0.spec osem :=
  ⟨by decide +kernel, fun a b h => SemLoc.dma.inj h, fun k w s => w.elim0⟩

theorem code_decode : ∀ k : Fin 136, code (decode k) = k := by decide +kernel

/-- A device's DMA semaphores by role or by number. -/
def codeEquiv : Cls ≃ Fin 136 := ⟨code, decode, decode_code, code_decode⟩

/-- Every cell: device by device, the barrier cell and the DMA semaphores by role. -/
abbrev acell (ck : Dev nD × Option Cls) : GSem nD τ sig := gcell ck.1 ck.2

theorem acell_injective : Function.Injective (acell : Dev nD × Option Cls → GSem nD τ sig) := by
  rintro ⟨c, o⟩ ⟨c', o'⟩ h
  rcases o with _ | x <;> rcases o' with _ | x'
  · have h1 : c = c' := congrArg (fun g : GSem nD τ sig => g.1.1) h
    subst h1; rfl
  · have h2 : (SemLoc.reg barS : SemLoc sig) = SemLoc.dma (code x') := congrArg Prod.snd h
    cases h2
  · have h2 : (SemLoc.dma (code x) : SemLoc sig) = SemLoc.reg barS := congrArg Prod.snd h
    cases h2
  · have h1 : c = c' := congrArg (fun g : GSem nD τ sig => g.1.1) h
    have h2 : code x = code x' := SemLoc.dma.inj (congrArg Prod.snd h)
    subst h1; rw [code_injective h2]

def allCells : Finset (GSem nD τ sig) := Finset.univ.map ⟨acell, acell_injective⟩

/-- The duties minted on a device's own cells: the barrier's three; the send end's and the receive end's of each copy of
    the five families; the four uses of each load's and each store's semaphore. -/
abbrev TokJ : Type :=
  Fin 3 ⊕ (Fin 16 ⊕ Fin 16) ⊕ (Fin 16 ⊕ Fin 16) ⊕ (Fin 16 ⊕ Fin 16) ⊕ (Fin 8 ⊕ Fin 8) ⊕ (Fin 8 ⊕ Fin 8) ⊕ ((Fin 4 × Fin 4) ⊕ (Fin 4 × Fin 4))

/-- The cell (the barrier's or a role's), the round and the duty of a minted token. -/
def tokJ : TokJ → Option Cls × ℕ × Fin 3
  | .inl d => (none, 0, d)
  | .inr (.inl (.inl i)) => (some (.xs i), 0, 0)
  | .inr (.inl (.inr i)) => (some (.xr i), 0, 0)
  | .inr (.inr (.inl (.inl i))) => (some (.yds i), 0, 0)
  | .inr (.inr (.inl (.inr i))) => (some (.ydr i), 0, 0)
  | .inr (.inr (.inr (.inl (.inl i)))) => (some (.zds i), 0, 0)
  | .inr (.inr (.inr (.inl (.inr i)))) => (some (.zdr i), 0, 0)
  | .inr (.inr (.inr (.inr (.inl (.inl j))))) => (some (.ydgs j), 0, 0)
  | .inr (.inr (.inr (.inr (.inl (.inr j))))) => (some (.ydgr j), 0, 0)
  | .inr (.inr (.inr (.inr (.inr (.inl (.inl j)))))) => (some (.zdgs j), 0, 0)
  | .inr (.inr (.inr (.inr (.inr (.inl (.inr j)))))) => (some (.zdgr j), 0, 0)
  | .inr (.inr (.inr (.inr (.inr (.inr (.inl kr)))))) => (some (.ld kr.1), kr.2.val, 0)
  | .inr (.inr (.inr (.inr (.inr (.inr (.inr kr)))))) => (some (.st kr.1), kr.2.val, 0)

theorem tokJ_injective : Function.Injective tokJ := by decide +kernel

abbrev tokOf (cj : Dev nD × TokJ) : GSem nD τ sig × ℕ × Fin 3 := (gcell cj.1 (tokJ cj.2).1, (tokJ cj.2).2.1, (tokJ cj.2).2.2)

theorem tokOf_injective : Function.Injective (tokOf : Dev nD × TokJ → GSem nD τ sig × ℕ × Fin 3) := by
  rintro ⟨c, j⟩ ⟨c', j'⟩ h
  have h1 : ((c, (tokJ j).1) : Dev nD × Option Cls) = (c', (tokJ j').1) := acell_injective (congrArg (fun x : GSem nD τ sig × ℕ × Fin 3 => x.1) h)
  have hc : c = c' := congrArg Prod.fst h1
  have ho : (tokJ j).1 = (tokJ j').1 := congrArg Prod.snd h1
  have hr : (tokJ j).2 = (tokJ j').2 := congrArg (fun x : GSem nD τ sig × ℕ × Fin 3 => x.2) h
  rw [hc, tokJ_injective (Prod.ext ho hr)]

def allToks : Finset (GSem nD τ sig × ℕ × Fin 3) := Finset.univ.map ⟨tokOf, tokOf_injective⟩

/-- The launch element: the pipeline library's (no staging cell) and the protocol's. -/
def u₀ : UU :=
  (initOf (Pipeline.cells cfgs cellOf_inj) (Pipeline.launchToks cfgs cellOf_inj), initOf allCells allToks)

/-! ## Funding: what the launch element deals each device -/

/-- The tokens of the duties on device c's own cells, as minted. -/
def toks (c : Dev nD) : sProp 𝕄 :=
  bigSep Finset.univ fun j : TokJ => dutyTok ER (gcell c (tokJ j).1) (tokJ j).2.1 (tokJ j).2.2

/-- What the launch element deals device c: its cells' round states, its positions, that its cells have reached their
    first round, the tokens of its cells' duties. -/
def G (c : Dev nD) : sProp 𝕄 :=
  iprop((bigSep Finset.univ fun o : Option Cls => roundState ER (Rd m) (acell (c, o)) 0)
    ∗ (bigSep Finset.univ fun o : Option Cls => iprop(atPos ER (acell (c, o)) 0 ∅ 0 ∗ reached ER (acell (c, o)) 0)) ∗ toks c)

/-- What the global step makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun o : Option Cls => Φ (acell (c, o)) := by
    unfold allCells; rw [bigSep_map, bigSep_univ_prod] <;> rfl
  have hT : bigSep allToks (fun x => (dutyTok ER x.1 x.2.1 x.2.2 : sProp 𝕄)) = bigSep Finset.univ fun c : Dev nD => toks c := by
    unfold allToks; rw [bigSep_map, bigSep_univ_prod] <;> rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to the payers -/

/-- The kernel's own semaphores at zero are its DMA semaphores at zero, role by role. -/
theorem ownSems0_eq (c : Dev nD) : (Pipeline.ownSems0 (Ix := Unit) (Name := ℕ) (U := UU) (Lvl := ℕ) (Val := Elt F) (τ := τ) osem c : sProp 𝕄)
    = bigSep Finset.univ fun x : Cls => semVal (kcell c x) 0 := by
  unfold Pipeline.ownSems0
  rw [bigSep_univ_equiv codeEquiv (fun k : Fin 136 => (semVal (((c : Thread nD τ)), osem k) 0 : sProp 𝕄))] <;> rfl

/-- The launch's one unscoped semaphore is the barrier semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)] <;> rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option Cls => semVal (acell (c, o)) 0 : sProp 𝕄) := by
  exact Entails.of_eq (by rw [ownSems0_eq, unscopedSems0_eq, bigSep_univ_option] <;> rfl)

/-- What a duty's units hand over — chunks of the buffers at their contents — can be kept in a cell's invariant. -/
instance Rd_payload_storable (g : GSem nD τ sig) (r : ℕ) (d : Fin 3) :
    BI.Storable (upEmb : UEmb _ 𝕄) ((Rd (F := F) m).payload g r d) := by
  rcases g with ⟨t, s | k⟩
  · show BI.Storable upEmb (barPay (F := F) t.1 d)
    match d with
    | 0 => unfold barPay; infer_instance
    | 1 => unfold barPay; infer_instance
    | 2 => unfold barPay; infer_instance
  · show BI.Storable upEmb (dmaPay m t.1 (decode k) r)
    generalize decode k = x
    cases x <;> (unfold dmaPay; infer_instance)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option Cls => iprop(∃ κ : ℕ, cellInv ER (Rd m) κ (acell (c, o))))
          ∗ (bigSep Finset.univ fun o : Option Cls => iprop(atPos ER (acell (c, o)) 0 ∅ 0 ∗ reached ER (acell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option Cls => semVal (acell (c, o)) 0) ∗ bigSep Finset.univ fun o : Option Cls => roundState ER (Rd m) (acell (c, o)) 0)
      ⊢ (|={Set.univ}=> bigSep Finset.univ fun o : Option Cls => iprop(∃ κ : ℕ, cellInv ER (Rd m) κ (acell (c, o))) : sProp 𝕄) from by
        rw [← bigSep_sep']
        exact (bigSep_mono fun o _ => (Rounds.body_intro ER (Rd m) (acell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- The minted tokens of a device, family by family. -/
theorem toks_eq (c : Dev nD) : (toks c : sProp 𝕄) = iprop(
    (dutyTok ER (barCell c) 0 (0 : Fin 3) ∗ dutyTok ER (barCell c) 0 (1 : Fin 3) ∗ dutyTok ER (barCell c) 0 (2 : Fin 3))
    ∗ ((bigSep Finset.univ fun i : Fin 16 => dutyTok ER (kcell c (.xs i)) 0 (0 : Fin 3)) ∗ (bigSep Finset.univ fun i : Fin 16 => dutyTok ER (kcell c (.xr i)) 0 (0 : Fin 3)))
    ∗ ((bigSep Finset.univ fun i : Fin 16 => dutyTok ER (kcell c (.yds i)) 0 (0 : Fin 3)) ∗ (bigSep Finset.univ fun i : Fin 16 => dutyTok ER (kcell c (.ydr i)) 0 (0 : Fin 3)))
    ∗ ((bigSep Finset.univ fun i : Fin 16 => dutyTok ER (kcell c (.zds i)) 0 (0 : Fin 3)) ∗ (bigSep Finset.univ fun i : Fin 16 => dutyTok ER (kcell c (.zdr i)) 0 (0 : Fin 3)))
    ∗ ((bigSep Finset.univ fun j : Fin 8 => dutyTok ER (kcell c (.ydgs j)) 0 (0 : Fin 3)) ∗ (bigSep Finset.univ fun j : Fin 8 => dutyTok ER (kcell c (.ydgr j)) 0 (0 : Fin 3)))
    ∗ ((bigSep Finset.univ fun j : Fin 8 => dutyTok ER (kcell c (.zdgs j)) 0 (0 : Fin 3)) ∗ (bigSep Finset.univ fun j : Fin 8 => dutyTok ER (kcell c (.zdgr j)) 0 (0 : Fin 3)))
    ∗ ((bigSep Finset.univ fun kr : Fin 4 × Fin 4 => dutyTok ER (kcell c (.ld kr.1)) kr.2.val (0 : Fin 3))
      ∗ (bigSep Finset.univ fun kr : Fin 4 × Fin 4 => dutyTok ER (kcell c (.st kr.1)) kr.2.val (0 : Fin 3)))) := by
  unfold toks
  rw [bigSep_univ_sum, bigSep_univ_sum, bigSep_univ_sum, bigSep_univ_sum, bigSep_univ_sum, bigSep_univ_sum, bigSep_univ_sum, bigSep_univ_sum,
    bigSep_univ_sum, bigSep_univ_sum, bigSep_univ_sum, bigSep_univ_sum, bigSep_fin3] <;> rfl

/-- The tokens dealt to the payers: a barrier cell's three to the device's x, y and z partners; a receive cell's to the
    partner that sends into it. Each partner map is its own inverse, so each device ends with its partners' tokens. -/
theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv xEquiv (fun c : Dev nD => (dutyTok ER (barCell c) 0 (0 : Fin 3) : sProp 𝕄)),
    bigSep_univ_equiv yEquiv (fun c : Dev nD => (dutyTok ER (barCell c) 0 (1 : Fin 3) : sProp 𝕄)),
    bigSep_univ_equiv zEquiv (fun c : Dev nD => (dutyTok ER (barCell c) 0 (2 : Fin 3) : sProp 𝕄)),
    bigSep_univ_equiv xEquiv (fun c : Dev nD => bigSep Finset.univ fun i : Fin 16 => (dutyTok ER (kcell c (.xr i)) 0 (0 : Fin 3) : sProp 𝕄)),
    bigSep_univ_equiv yEquiv (fun c : Dev nD => bigSep Finset.univ fun i : Fin 16 => (dutyTok ER (kcell c (.ydr i)) 0 (0 : Fin 3) : sProp 𝕄)),
    bigSep_univ_equiv zEquiv (fun c : Dev nD => bigSep Finset.univ fun i : Fin 16 => (dutyTok ER (kcell c (.zdr i)) 0 (0 : Fin 3) : sProp 𝕄)),
    bigSep_univ_equiv yEquiv (fun c : Dev nD => bigSep Finset.univ fun j : Fin 8 => (dutyTok ER (kcell c (.ydgr j)) 0 (0 : Fin 3) : sProp 𝕄)),
    bigSep_univ_equiv zEquiv (fun c : Dev nD => bigSep Finset.univ fun j : Fin 8 => (dutyTok ER (kcell c (.zdgr j)) 0 (0 : Fin 3) : sProp 𝕄))]
  iintro ⟨⟨B0, B1, B2⟩, ⟨XS, XR⟩, ⟨YS, YR⟩, ⟨ZS, ZR⟩, ⟨YGS, YGR⟩, ⟨ZGS, ZGR⟩, LD, ST⟩
  isplitl [B0]; · iexact B0
  isplitl [B1]; · iexact B1
  isplitl [B2]; · iexact B2
  isplitl [XS XR]
  · isplitl [XS]; · iexact XS
    iexact XR
  isplitl [YS YR]
  · isplitl [YS]; · iexact YS
    iexact YR
  isplitl [ZS ZR]
  · isplitl [ZS]; · iexact ZS
    iexact ZR
  isplitl [YGS YGR]
  · isplitl [YGS]; · iexact YGS
    iexact YGR
  isplitl [ZGS ZGR]
  · isplitl [ZGS]; · iexact ZGS
    iexact ZGR
  isplitl [LD]; · iexact LD
  iexact ST

/-- What stays with device c: its positions and the tokens of the duties it pays. -/
def linear (c : Dev nD) : sProp 𝕄 := iprop(positions c ∗ payToks c)

theorem ghost_intro (K : Dev nD × Option Cls → ℕ) (c : Dev nD) : iprop(records m K ∗ linear c) ⊢ G' m c := by
  unfold linear G' ghost
  iintro ⟨HR, HP, HT⟩
  iexists K
  isplitl [HR]; · iexact HR
  isplitl [HP] <;> iassumption

theorem positions_intro (c : Dev nD) :
    iprop((bigSep Finset.univ fun o : Option Cls => (atPos ER (acell (c, o)) 0 ∅ 0 : sProp 𝕄)) ∗ payToks c) ⊢ linear c := by
  unfold linear positions
  rw [bigSep_univ_option]
  iintro ⟨⟨HS, HB⟩, HT⟩
  isplitl [HS HB]
  · isplitl [HB]; · iexact HB
    iexact HS
  iexact HT

private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o : Option Cls => iprop(∃ κ : ℕ, cellInv ER (Rd m) κ (acell (c, o))))
          ∗ (bigSep Finset.univ fun o : Option Cls => iprop(atPos ER (acell (c, o)) 0 ∅ 0 ∗ reached ER (acell (c, o)) 0)) ∗ toks c) : sProp 𝕄)
      ⊢ bigSep Finset.univ (G' m) := by
  rw [bigSep_sep', bigSep_sep', ← bigSep_univ_prod (fun ck : Dev nD × Option Cls => iprop(∃ κ : ℕ, cellInv ER (Rd m) κ (acell ck))),
    bigSep_congr (s := Finset.univ) (fun (c : Dev nD) _ => bigSep_sep' Finset.univ (fun o : Option Cls => (atPos ER (acell (c, o)) 0 ∅ 0 : sProp 𝕄)) (fun o => reached ER (acell (c, o)) 0)),
    bigSep_sep', ← bigSep_univ_prod (fun ck : Dev nD × Option Cls => (reached ER (acell ck) 0 : sProp 𝕄))]
  iintro ⟨HI, ⟨Hat, #HR⟩, Htok⟩
  ihave HK := (BI.bigSep_exists_pi Finset.univ (fun (ck : Dev nD × Option Cls) (κ : ℕ) => (cellInv ER (Rd m) κ (acell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun o : Option Cls => (atPos ER (acell (c, o)) 0 ∅ 0 : sProp 𝕄)) payToks).symm).trans
      (bigSep_mono fun c _ => positions_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

   Every payment of every device goes to one of its three partners, on a semaphore and for units that do not depend on
   the device; each partner map is its own inverse. So the credit the launch deals a device for the n-th payment of
   everyone is the n-th payment's units on its own semaphore of that payment: its partner's. -/

/-- The role of the receive cell the n-th payment credits (3 ≤ n). -/
def evX (n : ℕ) : Cls :=
  if n < 19 then .xr ⟨(n - 3) % 16, Nat.mod_lt _ (by decide)⟩
  else if n < 51 then
    (if (n - 19) % 2 = 0 then .ydr ⟨(n - 19) / 2 % 16, Nat.mod_lt _ (by decide)⟩ else .zdr ⟨(n - 19) / 2 % 16, Nat.mod_lt _ (by decide)⟩)
  else
    (if (n - 51) % 2 = 0 then .ydgr ⟨(n - 51) / 2 % 8, Nat.mod_lt _ (by decide)⟩ else .zdgr ⟨(n - 51) / 2 % 8, Nat.mod_lt _ (by decide)⟩)

/-- The semaphore the n-th payment credits, on the partner it goes to. -/
def evS (n : ℕ) : SemLoc sig := if n < 3 then .reg barS else .dma (code (evX n))

/-- The partner the n-th payment of device d goes to. -/
def evF (n : ℕ) (d : Dev nD) : Dev nD :=
  if n < 3 then (if n = 0 then xP d else if n = 1 then yP d else zP d)
  else if n < 19 then xP d
  else if n < 51 then (if (n - 19) % 2 = 0 then yP d else zP d)
  else (if (n - 51) % 2 = 0 then yP d else zP d)

/-- The n-th payment's units. -/
def evA (n : ℕ) : ℕ := if n < 3 then 1 else N256

theorem ev_eq (d : Dev nD) (n : ℕ) : ev d n = ((((evF n d : Dev nD) : Thread nD τ), evS n), evA n) := by
  unfold ev evF evS evA evX
  split_ifs <;> rfl

theorem evF_evF (n : ℕ) (d : Dev nD) : evF n (evF n d) = d := by
  unfold evF
  split_ifs <;> first | exact xP_xP d | exact yP_yP d | exact zP_zP d

theorem evA_ge (n : ℕ) (h : 3 ≤ n) : evA n = N256 := if_neg (by omega)

theorem evS_x (i : Fin 16) : evS (3 + i.val) = .dma (code (.xr i)) := by
  have hi := i.isLt
  unfold evS evX
  rw [if_neg (by omega), if_pos (by omega)]
  exact congrArg (fun j => (SemLoc.dma (code (Cls.xr j)) : SemLoc sig)) (Fin.ext (show (3 + i.val - 3) % 16 = i.val by omega) : (⟨(3 + i.val - 3) % 16, Nat.mod_lt _ (by decide)⟩ : Fin 16) = i)
theorem evS_y (i : Fin 16) : evS (19 + 2 * i.val) = .dma (code (.ydr i)) := by
  have hi := i.isLt
  unfold evS evX
  rw [if_neg (by omega), if_neg (by omega), if_pos (by omega), if_pos (by omega)]
  exact congrArg (fun j => (SemLoc.dma (code (Cls.ydr j)) : SemLoc sig)) (Fin.ext (show (19 + 2 * i.val - 19) / 2 % 16 = i.val by omega) : (⟨(19 + 2 * i.val - 19) / 2 % 16, Nat.mod_lt _ (by decide)⟩ : Fin 16) = i)
theorem evS_z (i : Fin 16) : evS (19 + (2 * i.val + 1)) = .dma (code (.zdr i)) := by
  have hi := i.isLt
  unfold evS evX
  rw [if_neg (by omega), if_neg (by omega), if_pos (by omega), if_neg (by omega)]
  exact congrArg (fun j => (SemLoc.dma (code (Cls.zdr j)) : SemLoc sig)) (Fin.ext (show (19 + (2 * i.val + 1) - 19) / 2 % 16 = i.val by omega) : (⟨(19 + (2 * i.val + 1) - 19) / 2 % 16, Nat.mod_lt _ (by decide)⟩ : Fin 16) = i)
theorem evS_yg (j : Fin 8) : evS (51 + 2 * j.val) = .dma (code (.ydgr j)) := by
  have hj := j.isLt
  unfold evS evX
  rw [if_neg (by omega), if_neg (by omega), if_neg (by omega), if_pos (by omega)]
  exact congrArg (fun j => (SemLoc.dma (code (Cls.ydgr j)) : SemLoc sig)) (Fin.ext (show (51 + 2 * j.val - 51) / 2 % 8 = j.val by omega) : (⟨(51 + 2 * j.val - 51) / 2 % 8, Nat.mod_lt _ (by decide)⟩ : Fin 8) = j)
theorem evS_zg (j : Fin 8) : evS (51 + (2 * j.val + 1)) = .dma (code (.zdgr j)) := by
  have hj := j.isLt
  unfold evS evX
  rw [if_neg (by omega), if_neg (by omega), if_neg (by omega), if_neg (by omega)]
  exact congrArg (fun j => (SemLoc.dma (code (Cls.zdgr j)) : SemLoc sig)) (Fin.ext (show (51 + (2 * j.val + 1) - 51) / 2 % 8 = j.val by omega) : (⟨(51 + (2 * j.val + 1) - 51) / 2 % 8, Nat.mod_lt _ (by decide)⟩ : Fin 8) = j)

/-- What is owed over a + b payments from the k-th is the last b of them and the first a. -/
theorem owedN_add (d : Dev nD) : ∀ a b k : ℕ, owedN d (a + b) k = owedN d b (k + a) + owedN d a k
  | 0, b, k => by
    rw [Nat.zero_add, Nat.add_zero]
    exact (add_zero _).symm
  | a + 1, b, k => by
    rw [show a + 1 + b = (a + b) + 1 from by omega]
    show owedN d (a + b) (k + 1) + tallyAt (ev d k).1 () (ev d k).2 = owedN d b (k + (a + 1)) + (owedN d a (k + 1) + tallyAt (ev d k).1 () (ev d k).2)
    rw [owedN_add d a b (k + 1), show k + 1 + a = k + (a + 1) from by omega, add_assoc]

/-- The credit the launch deals device c for n payments of everyone from the k-th: per payment, its units on c's own
    semaphore of that payment. -/
theorem cred_run (c : Dev nD) : ∀ n k : ℕ,
    (Pipeline.launchCred (fun d : Dev nD => owedN d n k) c : sProp 𝕄)
      ⊢ bigSep (Finset.range n) fun i => cred (tallyAt ((c : Thread nD τ), evS (k + i)) () (evA (k + i)))
  | 0, k => by
    have h : (Pipeline.launchCred (fun d : Dev nD => owedN d 0 k) c : sProp 𝕄)
        = bigSep (Finset.range 0) fun i => cred (tallyAt ((c : Thread nD τ), evS (k + i)) () (evA (k + i))) := by
      rw [show (fun d : Dev nD => owedN d 0 k) = fun _ => (0 : CellTallies nD τ sig Unit) from rfl, Pipeline.launchCred_zero,
        Finset.range_zero, bigSep_empty] <;> rfl
    exact Entails.of_eq h
  | n + 1, k => by
    have hO : (fun d : Dev nD => owedN d (n + 1) k)
        = fun d => owedN d n (k + 1) + tallyAt ((((evF k d : Dev nD) : Thread nD τ), evS k)) () (evA k) :=
      funext fun d => by
        show owedN d n (k + 1) + tallyAt (ev d k).1 () (ev d k).2 = _
        rw [ev_eq] <;> rfl
    have hassoc (i : ℕ) : (cred (tallyAt ((c : Thread nD τ), evS (k + 1 + i)) () (evA (k + 1 + i))) : sProp 𝕄)
        = cred (tallyAt ((c : Thread nD τ), evS (k + (1 + i))) () (evA (k + (1 + i)))) := by rw [Nat.add_assoc] <;> rfl
    have hstep : (bigSep (Finset.range n) fun i => (cred (tallyAt ((c : Thread nD τ), evS (k + 1 + i)) () (evA (k + 1 + i))) : sProp 𝕄))
        ⊢ bigSep (Finset.range n) fun i => cred (tallyAt ((c : Thread nD τ), evS (k + (1 + i))) () (evA (k + (1 + i)))) :=
      bigSep_mono fun i _ => Entails.of_eq (hassoc i)
    rw [hO, Pipeline.launchCred_add, show n + 1 = 1 + n from Nat.add_comm n 1, bigSep_range_add, Finset.range_one, bigSep_singleton]
    iintro ⟨HO, HD⟩
    isplitl [HD]
    · iapply (Pipeline.launchCred_tallyAt (evS k) (evF k) (evF k) (evF_evF k) (evF_evF k) () (evA k) c); iexact HD
    · iapply hstep
      iapply (cred_run c n (k + 1)); iexact HO

/-- The three barrier signals' credit is three units on the device's barrier cell. -/
theorem seg_bar (c : Dev nD) :
    (bigSep (Finset.range 3) fun i => (cred (tallyAt ((c : Thread nD τ), evS (0 + i)) () (evA (0 + i))) : sProp 𝕄))
      ⊢ cred (tallyAt (barCell c) () 3) := by
  rw [bigSep_range_fin, bigSep_fin3]
  show iprop(cred (tallyAt (barCell c) () 1) ∗ cred (tallyAt (barCell c) () 1) ∗ cred (tallyAt (barCell c) () 1))
    ⊢ (cred (tallyAt (barCell c) () (1 + (1 + 1))) : sProp 𝕄)
  rw [← tallyAt_add, ← tallyAt_add]
  exact (sep_mono_right (cred_add _ _).2).trans (cred_add _ _).2

/-- The sixteen x copies' credit: one chunk's on each x receive cell. -/
theorem seg_x (c : Dev nD) :
    (bigSep (Finset.range 16) fun i => (cred (tallyAt ((c : Thread nD τ), evS (3 + i)) () (evA (3 + i))) : sProp 𝕄))
      ⊢ bigSep Finset.univ fun i : Fin 16 => cred (tallyAt (kcell c (.xr i)) () N256) := by
  have hx (i : Fin 16) : (cred (tallyAt ((c : Thread nD τ), evS (3 + i.val)) () (evA (3 + i.val))) : sProp 𝕄)
      = cred (tallyAt (kcell c (.xr i)) () N256) := by
    rw [evS_x, evA_ge (3 + i.val) (by omega)] <;> rfl
  rw [bigSep_range_fin]
  exact bigSep_mono fun i _ => Entails.of_eq (hx i)

/-- The forwarding copies' credit, alternately from the y and the z partner: one chunk's on each forward receive cell. -/
theorem seg_fwd (c : Dev nD) :
    (bigSep (Finset.range 32) fun i => (cred (tallyAt ((c : Thread nD τ), evS (19 + i)) () (evA (19 + i))) : sProp 𝕄))
      ⊢ iprop((bigSep Finset.univ fun i : Fin 16 => cred (tallyAt (kcell c (.ydr i)) () N256))
        ∗ bigSep Finset.univ fun i : Fin 16 => cred (tallyAt (kcell c (.zdr i)) () N256)) := by
  have hy (i : Fin 16) : (cred (tallyAt ((c : Thread nD τ), evS (19 + 2 * i.val)) () (evA (19 + 2 * i.val))) : sProp 𝕄)
      = cred (tallyAt (kcell c (.ydr i)) () N256) := by
    rw [evS_y, evA_ge (19 + 2 * i.val) (by omega)] <;> rfl
  have hz (i : Fin 16) : (cred (tallyAt ((c : Thread nD τ), evS (19 + (2 * i.val + 1))) () (evA (19 + (2 * i.val + 1)))) : sProp 𝕄)
      = cred (tallyAt (kcell c (.zdr i)) () N256) := by
    rw [evS_z, evA_ge (19 + (2 * i.val + 1)) (by omega)] <;> rfl
  rw [show Finset.range 32 = Finset.range (2 * 16) from rfl, bigSep_range_two, bigSep_range_fin, bigSep_sep']
  exact BIClass.sep_mono (bigSep_mono fun i _ => Entails.of_eq (hy i)) (bigSep_mono fun i _ => Entails.of_eq (hz i))

/-- The second-hop copies' credit, alternately from the y and the z partner: one chunk's on each second-hop receive cell. -/
theorem seg_hop (c : Dev nD) :
    (bigSep (Finset.range 16) fun i => (cred (tallyAt ((c : Thread nD τ), evS (51 + i)) () (evA (51 + i))) : sProp 𝕄))
      ⊢ iprop((bigSep Finset.univ fun j : Fin 8 => cred (tallyAt (kcell c (.ydgr j)) () N256))
        ∗ bigSep Finset.univ fun j : Fin 8 => cred (tallyAt (kcell c (.zdgr j)) () N256)) := by
  have hy (j : Fin 8) : (cred (tallyAt ((c : Thread nD τ), evS (51 + 2 * j.val)) () (evA (51 + 2 * j.val))) : sProp 𝕄)
      = cred (tallyAt (kcell c (.ydgr j)) () N256) := by
    rw [evS_yg, evA_ge (51 + 2 * j.val) (by omega)] <;> rfl
  have hz (j : Fin 8) : (cred (tallyAt ((c : Thread nD τ), evS (51 + (2 * j.val + 1))) () (evA (51 + (2 * j.val + 1)))) : sProp 𝕄)
      = cred (tallyAt (kcell c (.zdgr j)) () N256) := by
    rw [evS_zg, evA_ge (51 + (2 * j.val + 1)) (by omega)] <;> rfl
  rw [show Finset.range 16 = Finset.range (2 * 8) from rfl, bigSep_range_two, bigSep_range_fin, bigSep_sep']
  exact BIClass.sep_mono (bigSep_mono fun j _ => Entails.of_eq (hy j)) (bigSep_mono fun j _ => Entails.of_eq (hz j))

/-- The launch credit of a device is the credit tokens for what its partners owe its cells. -/
theorem creds_intro (c : Dev nD) : (Pipeline.launchCred O₀ c : sProp 𝕄) ⊢ creds c := by
  have hO : (O₀ : Dev nD → CellTallies nD τ sig Unit) = fun d => owedN d 16 51 + owedN d 32 19 + owedN d 16 3 + owedN d 3 0 :=
    funext fun d => by
      show owedN d (3 + (16 + (32 + 16))) 0 = _
      rw [owedN_add, owedN_add, owedN_add] <;> rfl
  rw [hO, Pipeline.launchCred_add, Pipeline.launchCred_add, Pipeline.launchCred_add]
  unfold creds
  iintro ⟨⟨⟨H51, H19⟩, H3⟩, H0⟩
  ihave B := (cred_run (F := F) c 3 0) $$ H0
  ihave X := (cred_run (F := F) c 16 3) $$ H3
  ihave Y := (cred_run (F := F) c 32 19) $$ H19
  ihave Z := (cred_run (F := F) c 16 51) $$ H51
  ihave B' := (seg_bar (F := F) c) $$ B
  ihave X' := (seg_x (F := F) c) $$ X
  ihave Y' := (seg_fwd (F := F) c) $$ Y
  icases Y' with ⟨Yy, Yz⟩
  ihave Z' := (seg_hop (F := F) c) $$ Z
  icases Z' with ⟨Zy, Zz⟩
  isplitl [B']; · iexact B'
  isplitl [X']; · iexact X'
  isplitl [Yy]; · iexact Yy
  isplitl [Yz]; · iexact Yz
  isplitl [Zy]; · iexact Zy
  iexact Zz

/-! ## The theorem's side conditions -/

/-- What a device routes into the invariant before the one point, apart from the rotating buffers: its ghost state at some
    names, its credit, the level facts, its block as launched and its result at whatever it holds. -/
def start (c : Dev nD) : sProp 𝕄 :=
  iprop((∃ K, ghost m K c) ∗ creds c ∗ levAts L lv
    ∗ (((c : Thread nD τ).loc main_arg0) ↦{fullShare} blk m c)
    ∗ (∃ f, ((c : Thread nD τ).loc main_v1) ↦{fullShare} f))

/-- What comes back after the point: the block as launched and the result holding the whole array. -/
def final (c : Dev nD) : sProp 𝕄 :=
  iprop((((c : Thread nD τ).loc main_arg0) ↦{fullShare} blk m c) ∗ (((c : Thread nD τ).loc main_v1) ↦{fullShare} Xf m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Ha]; · iexact Ha
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨⟨HG, Hc, Hlev, Ha, Hv⟩, -, Hr⟩
  isplitl [HG]; · iexact HG
  isplitl [Hc]; · iexact Hc
  isplitl [Hlev]; · iexact Hlev
  isplitl [Ha]; · iexact Ha
  isplitl [Hv]; · iexact Hv
  iexact Hr

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq, ownSems0_eq]
  unfold Φ₁ final
  iintro ⟨Ha, Hv, Hr, Hs⟩
  isplitl [Ha Hv]
  · isplitl [Ha]; · iexact Ha
    iexact Hv
  isplitl [Hs]; · iexact Hs
  iexact Hr

/-- No window is staged: the pipeline waits on no cell. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of sixteen devices, for any float values, from any memory with zero counters, given the body's
    obligation on every device: every weakly fair execution of @main terminates, and every final state has each device's
    result holding the whole array — row r the row r mod 16384 of the block of the device that owns it — and its block as
    launched. -/
theorem run_main (hbody : ∀ c : Dev nD, Pipeline.BodyObligationLoose (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c : Thread nD τ).loc main_v1) = Xf m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := final m) (Z := fun _ => iprop(emp))
    (hX := start_intro m ρ) (hin := phi0_intro m) (hout := phi1_exit m)
    (QY := fun c s => s.mem ((c : Thread nD τ).loc main_v1) = Xf m c ∧ s.mem ((c : Thread nD τ).loc main_arg0) = blk m c)
    (hY := fun c s' => by
      unfold final
      iintro ⟨⟨Ha, Hv⟩, -, HSI⟩
      icombine HSI Hv gives %hv
      icombine HSI Ha gives %ha
      imodintro
      isplitr; · ipureintro; exact ⟨Buf.eq_of_forall_mem_univ hv, Buf.eq_of_forall_mem_univ ha⟩
      iexact HSI)
    (hQ := fun _ h c => (h c).2.2)

/-- info: 'Cert.KernelIdeal.AG.run_main' depends on axioms: [propext, Classical.choice, Quot.sound] -/
#guard_msgs in #print axioms run_main

end Cert.KernelIdeal.AG

end
-- ==== Proof.AGSteps.lean ====
/- One rule per kind of step of a device's body, stated at the cells, views and contents of this kernel: a wait on one of
   the device's own DMA semaphores, a copy to a partner, a local copy, an entry signal, the entry wait, and closing a cell
   whose rounds are over. -/
import proofs.«900678_g7700000000000679_dist_ag_v7x_xyz2x2x4_x_m16384_n1024_f32_1_alg».proof.Proof.AGState

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps

variable (K : Dev nD × Option Cls → ℕ)

local notation "WP" => wp frame (wpE (defs₀ (F := F)) 𝒱₀ _ none) Set.univ

/-- A wait on the device's own DMA semaphore of role x, in round r of its cell: the round's one duty has landed, and the
    device takes what it hands over. -/
theorem wp_wait_cell (c : Dev nD) (x : Cls) (r : ℕ) (hl : x.live r) {κ : ℕ}
    {sp sp' : Space} {s s' : Shape} {e e' : EltTy} {sem : DmaSem sig} (hsem : sem = code x)
    {src : Memref sig .tc sp' s' e'} {dst : Memref sig .tc sp s e} {hsrc : src.view.WordExact} {hdst : dst.view.WordExact}
    (hamt : dst.view.dmaCredit = x.amt)
    {α : Type} {Q : α → sProp 𝕄} {k : PUnit → Prog (TpuEff nD τ sig (Elt F) Λ₀ .tc) α}
    (O : CellTallies nD τ sig Unit) {W : Waits sig Unit} :
    iprop(cellInv ER (Rd m) κ (kcell c x) ∗ cred (tallyAt (kcell c x) () x.amt) ∗ owes (c : Thread nD τ) O W
        ∗ MayWait (c : Thread nD τ) (.dma (code x)) () O ∗ atPos ER (kcell c x) r ∅ 0)
      ⊢ iprop(((owes (c : Thread nD τ) O (insert (SemLoc.dma (code x), ()) W)
              ∗ atPos ER (kcell c x) (r + 1) ∅ 0 ∗ reached ER (kcell c x) (r + 1) ∗ dmaPay m c x r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  have h := Rounds.wp_wait_rest_token (defs := defs₀ (F := F)) 𝒱₀ ER (Rd m) (c : Thread nD τ) none (κ := κ) (Q := Q) (k := k)
      (w := .waitDma2 (code x) src dst hsrc hdst) (k' := x.amt)
      (fun K' => (wpE_waitDma2_eq (defs := defs₀ (F := F)) 𝒱₀ (c : Thread nD τ) none Set.univ K').trans (by rw [hamt])) (Set.mem_univ _) () (O := O) (W := W) (R := r) (m := 0) (T := ∅)
      (by rw [Nat.zero_add, expect_live m c hl])
  rw [rest_live m c hl] at h
  exact h

/-- A copy to a partner d: the device lends the source chunk (share q, contents fs), gives up the destination chunk on d
    (held outright since d's entry signal), pays the receive cell's credit off what it owes and both ends' tokens; it
    gets the send cell's credit token. The send end hands the source back; the receive end hands d the chunk landed. -/
theorem wp_send_cell (c d d' : Dev nD) (hd : d' = d) (xs xr : Cls) (hxs : xs.live 0) (hxr : xr.live 0) (has : xs.amt = N256) (har : xr.amt = N256)
    {src dst : Memref sig .tc .hbm S256x1024 .f32} {hsc : dst.view.ref.isScScratch = false}
    {ss rs : DmaSem sig} (hss : ss = code xs) (hrs : rs = code xr)
    {hsrc : src.view.WordExact} {hdst : dst.view.WordExact} {hsem : DmaTarget.Typed .hbm (.dma rs) (.remote (Dev.tc d' : Thread nD τ) dst (.dma ss) hsc)}
    (hamt : dst.view.dmaCredit = N256)
    {q : PosShare TreeShare} {fs : Buf (Elt F) (src.view.loc (c : Thread nD τ))} {fd : Buf (Elt F) (dst.view.loc (d : Thread nD τ))}
    (hpay₁ : (pts c src q fs : sProp 𝕄) ⊢ dmaPay m c xs 0)
    (hpay₂ : (pts d dst fullShare (dst.view.write (Elt F) fd (src.view.read (Elt F) fs) Finset.univ) : sProp 𝕄) ⊢ dmaPay m d xr 0)
    {κ₁ κ₂ : ℕ} {α : Type} {Q : α → sProp 𝕄} {k : PUnit → Prog (TpuEff nD τ sig (Elt F) Λ₀ .tc) α}
    (O : CellTallies nD τ sig Unit) {W : Waits sig Unit} :
    iprop(cellInv ER (Rd m) κ₁ (kcell c xs) ∗ cellInv ER (Rd m) κ₂ (kcell d xr)
        ∗ pts c src q fs ∗ pts d dst fullShare fd
        ∗ owes (c : Thread nD τ) (O + tallyAt (kcell d xr) () N256) W
        ∗ dutyTok ER (kcell c xs) 0 (0 : Fin 3) ∗ reached ER (kcell c xs) 0
        ∗ dutyTok ER (kcell d xr) 0 (0 : Fin 3) ∗ reached ER (kcell d xr) 0)
      ⊢ iprop(((cred (tallyAt (kcell c xs) () N256) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d' : Thread nD τ) dst (.dma ss) hsc) (.dma rs) hsrc hdst hsem) k) Q) := by
  subst hd; subst hss; subst hrs
  exact Rounds.wp_send_pointsTo (defs := defs₀ (F := F)) 𝒱₀ ER (Rd m) (c : Thread nD τ) none (κ₁ := κ₁) (κ₂ := κ₂)
    (r₁ := 0) (r₂ := 0) (d₁ := (0 : Fin 3)) (d₂ := (0 : Fin 3)) (fd := fd) (q := q) (fs := fs)
    (by rw [duties_live m c hxs]; exact Finset.mem_singleton_self _) (by rw [duties_live m d' hxr]; exact Finset.mem_singleton_self _)
    () () N256 (show dst.view.amount (.dma (code xr)) = N256 from hamt) ((amount_cell m c xs 0 0).trans has) ((amount_cell m d' xr 0 0).trans har) O rfl (W := W)
    (by rw [payload_cell]; exact hpay₁)
    (by rw [payload_cell]; exact hpay₂)

/-- A local copy on the semaphore of role x in its round r: the device lends the source (share q), gives up the
    destination, pays the round's token, and gets the round's credit token; the round hands both back, the destination
    rewritten. -/
theorem wp_copy_cell (c : Dev nD) (x : Cls) (r : ℕ) (hl : x.live r)
    {sp sp' : Space} {s : Shape} {e : EltTy} {src : Memref sig .tc sp s e} {dst : Memref sig .tc sp' s e}
    {sem : DmaSem sig} (hsem' : sem = code x)
    {hsrc : src.view.WordExact} {hdst : dst.view.WordExact} {hsem : DmaTarget.Typed (nD := nD) sp (.dma sem) (.here dst : DmaTarget nD τ sig Proc.tc sp' s e)}
    (hamt : dst.view.dmaCredit = x.amt)
    {q : PosShare TreeShare} {fs : Buf (Elt F) (src.view.loc (c : Thread nD τ))} {fd : Buf (Elt F) (dst.view.loc (c : Thread nD τ))}
    (hpay : iprop((pts c dst fullShare (dst.view.write (Elt F) fd (src.view.read (Elt F) fs) Finset.univ)) ∗ pts c src q fs) ⊢ (dmaPay m c x r : sProp 𝕄))
    {κ : ℕ} {α : Type} {Q : α → sProp 𝕄} {k : PUnit → Prog (TpuEff nD τ sig (Elt F) Λ₀ .tc) α} :
    iprop(cellInv ER (Rd m) κ (kcell c x) ∗ pts c src q fs ∗ pts c dst fullShare fd
        ∗ dutyTok ER (kcell c x) r (0 : Fin 3) ∗ reached ER (kcell c x) r)
      ⊢ iprop((cred (tallyAt (kcell c x) () x.amt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sem) hsrc hdst hsem) k) Q) := by
  subst hsem'
  exact Rounds.wp_copy_pointsTo (defs := defs₀ (F := F)) 𝒱₀ ER (Rd m) (c : Thread nD τ) none (κ := κ) (r := r) (d := (0 : Fin 3)) (fd := fd) (q := q) (fs := fs)
    (by rw [duties_live m c hl]; exact Finset.mem_singleton_self _) () x.amt (show dst.view.amount (.dma (code x)) = x.amt from hamt) (amount_cell m c x r 0)
    (by rw [payload_cell]; exact hpay)

/-- Closing a cell whose rounds are over: its counter, at zero, is the device's again. -/
theorem close_cell (c : Dev nD) (x : Cls) (R : ℕ) (hR : if x.loc then 4 ≤ R else 1 ≤ R) {κ : ℕ} :
    iprop(cellInv ER (Rd m) κ (kcell c x) ∗ atPos ER (kcell c x) R ∅ 0) ⊢ (|={Set.univ}=> semVal (kcell c x) 0 : sProp 𝕄) :=
  Rounds.cell_close ER (Rd m) (Set.mem_univ κ) (fun h => h) (R := R) (duties_dead m c R hR)

/-- An entry signal to partner d's barrier cell, paying its duty j: the device hands over the chunks of its result that d
    will write, and pays the unit off what it owes. -/
theorem wp_signal_bar (c d : Dev nD) (j : Fin 3) {κ : ℕ}
    {α : Type} {Q : α → sProp 𝕄} {k : PUnit → Prog (TpuEff nD τ sig (Elt F) Λ₀ .tc) α}
    (O : CellTallies nD τ sig Unit) {W : Waits sig Unit} :
    iprop(cellInv ER (Rd m) κ (barCell d) ∗ owes (c : Thread nD τ) (O + tallyAt (barCell d) () 1) W ∗ dutyTok ER (barCell d) 0 j
        ∗ barPay (F := F) d j ∗ reached ER (barCell d) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) :=
  Rounds.wp_signal (defs := defs₀ (F := F)) 𝒱₀ ER (Rd m) (c : Thread nD τ) none (dst := (d : Thread nD τ)) (κ := κ) (d := j)
    (by rw [duties_bar]; exact Finset.mem_univ _) (amount_bar m d 0 j) () O rfl

/-- The entry wait: the three partners' signals have landed, and the device takes the chunks of their results they
    handed over. -/
theorem wp_wait_bar (c : Dev nD) {κ : ℕ}
    {α : Type} {Q : α → sProp 𝕄} {k : PUnit → Prog (TpuEff nD τ sig (Elt F) Λ₀ .tc) α}
    (O : CellTallies nD τ sig Unit) {W : Waits sig Unit} :
    iprop(cellInv ER (Rd m) κ (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W)
              ∗ atPos ER (barCell c) 1 ∅ 0 ∗ reached ER (barCell c) 1
              ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  have h := Rounds.wp_wait_rest_token (defs := defs₀ (F := F)) 𝒱₀ ER (Rd m) (c : Thread nD τ) none (κ := κ) (Q := Q) (k := k)
      (w := .semWait barS 3) (k' := 3)
      (wpE_semWait_eq (defs := defs₀ (F := F)) 𝒱₀ (c : Thread nD τ) none Set.univ) (Set.mem_univ _) () (O := O) (W := W) (R := 0) (m := 0) (T := ∅)
      (by rw [Nat.zero_add, expect_bar])
  rw [Finset.sdiff_empty, duties_bar, bigSep_univ_eq_bigSepL [(0 : Fin 3), 1, 2] (by decide) (by decide)] at h
  exact h

end Steps

end Cert.KernelIdeal.AG

end
-- ==== Proof.AGPre.lean ====
/- Small facts used all along a device's run: a product over sixteen, eight or four indices written out as a chain;
   what each role's landing hands over, as a plain equation; one cell's invariant out of the records. -/
import proofs.«900678_g7700000000000679_dist_ag_v7x_xyz2x2x4_x_m16384_n1024_f32_1_alg».proof.Proof.AGSteps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem barPay_0 (c : Dev nD) : barPay (F := F) c 0 = bigSep Finset.univ fun i : Fin 16 => iprop(∃ f, pts (F := F) (xP c) (xDst c i) fullShare f) := rfl
omit [FloatOps F] in
theorem barPay_1 (c : Dev nD) : barPay (F := F) c 1 = iprop((bigSep Finset.univ fun i : Fin 16 => iprop(∃ f, pts (F := F) (yP c) (qMine c i) fullShare f))
      ∗ bigSep Finset.univ fun j : Fin 8 => iprop(∃ f, pts (F := F) (yP c) (qZlo c j) fullShare f)) := rfl
omit [FloatOps F] in
theorem barPay_2 (c : Dev nD) : barPay (F := F) c 2 = iprop((bigSep Finset.univ fun i : Fin 16 => iprop(∃ f, pts (F := F) (zP c) (qMine c i) fullShare f))
      ∗ bigSep Finset.univ fun j : Fin 8 => iprop(∃ f, pts (F := F) (zP c) (qYhi c j) fullShare f)) := rfl

omit [FloatOps F] in
theorem dmaPay_ld (c : Dev nD) (k : Fin 4) (r : ℕ) : dmaPay m c (.ld k) r = iprop(pts c (vslot k) fullShare (VB m c (nOf r k)) ∗ pts c (ldSrc (nOf r k)) qR (blk m c)) := rfl
omit [FloatOps F] in
theorem dmaPay_st (c : Dev nD) (k : Fin 4) (r : ℕ) : dmaPay m c (.st k) r = iprop(pts c (stDst c (nOf r k)) fullShare (Xf m c) ∗ pts c (vslot k) fullShare (VB m c (nOf r k))) := rfl
omit [FloatOps F] in
theorem dmaPay_xs (c : Dev nD) (i : Fin 16) (r : ℕ) : dmaPay m c (.xs i) r = pts c (xSrc c i) qL (blk m c) := rfl
omit [FloatOps F] in
theorem dmaPay_xr (c : Dev nD) (i : Fin 16) (r : ℕ) : dmaPay m c (.xr i) r = pts c (qMine c i) fullShare (Xf m c) := rfl
omit [FloatOps F] in
theorem dmaPay_yds (c : Dev nD) (i : Fin 16) (r : ℕ) : dmaPay m c (.yds i) r = pts c (qMine c i) qL (Xf m c) := rfl
omit [FloatOps F] in
theorem dmaPay_ydr (c : Dev nD) (i : Fin 16) (r : ℕ) : dmaPay m c (.ydr i) r = pts c (qMine (yP c) i) fullShare (Xf m c) := rfl
omit [FloatOps F] in
theorem dmaPay_zds (c : Dev nD) (i : Fin 16) (r : ℕ) : dmaPay m c (.zds i) r = pts c (qMine c i) qR (Xf m c) := rfl
omit [FloatOps F] in
theorem dmaPay_zdr (c : Dev nD) (i : Fin 16) (r : ℕ) : dmaPay m c (.zdr i) r = pts c (qMine (zP c) i) fullShare (Xf m c) := rfl
omit [FloatOps F] in
theorem dmaPay_ydgs (c : Dev nD) (j : Fin 8) (r : ℕ) : dmaPay m c (.ydgs j) r = pts c (qZlo c j) fullShare (Xf m c) := rfl
omit [FloatOps F] in
theorem dmaPay_ydgr (c : Dev nD) (j : Fin 8) (r : ℕ) : dmaPay m c (.ydgr j) r = pts c (qZlo (yP c) j) fullShare (Xf m c) := rfl
omit [FloatOps F] in
theorem dmaPay_zdgs (c : Dev nD) (j : Fin 8) (r : ℕ) : dmaPay m c (.zdgs j) r = pts c (qYhi c j) fullShare (Xf m c) := rfl
omit [FloatOps F] in
theorem dmaPay_zdgr (c : Dev nD) (j : Fin 8) (r : ℕ) : dmaPay m c (.zdgr j) r = pts c (qYhi (zP c) j) fullShare (Xf m c) := rfl

omit [FloatOps F] in
theorem inv_at' (K : Dev nD × Option Cls → ℕ) (ck : Dev nD × Option Cls) :
    (bigSep Finset.univ fun ck : Dev nD × Option Cls => (cellInv ER (Rd m) (K ck) (gcell ck.1 ck.2) : sProp 𝕄)) ⊢ cellInv ER (Rd m) (K ck) (gcell ck.1 ck.2) :=
  bigSep_elim (Finset.mem_univ ck)
omit [FloatOps F] in
theorem reached_at' (ck : Dev nD × Option Cls) :
    (bigSep Finset.univ fun ck : Dev nD × Option Cls => (reached ER (gcell ck.1 ck.2) 0 : sProp 𝕄)) ⊢ reached ER (gcell ck.1 ck.2) 0 :=
  bigSep_elim (Finset.mem_univ ck)
omit [FloatOps F] in
theorem inv_at (K : Dev nD × Option Cls → ℕ) (ck : Dev nD × Option Cls) : records m K ⊢ cellInv ER (Rd m) (K ck) (gcell ck.1 ck.2) := by
  unfold records; iintro ⟨H, -⟩; iapply (inv_at' m K ck); iexact H
omit [FloatOps F] in
theorem reached_at (K : Dev nD × Option Cls → ℕ) (ck : Dev nD × Option Cls) : records m K ⊢ reached ER (gcell ck.1 ck.2) 0 := by
  unfold records; iintro ⟨-, H⟩; iapply (reached_at' (F := F) ck); iexact H

end Cert.KernelIdeal.AG

end
-- ==== Proof.AGRegions.lean ====
/- The chunks as rectangles of rows, and how they tile the buffers.

   Every chunk the kernel names is a band of whole rows of a buffer: its first row is given by the printed offset
   function, its height is the chunk's. Two spellings of a chunk are the same band when their first rows agree, which
   is arithmetic on the device's coordinates (x, y, z-pair bit) and the partner's, one of them flipped. A buffer held
   whole is the separating conjunction of its bands when the bands are pairwise apart and their sizes add up to the
   buffer's. -/
import proofs.«900678_g7700000000000679_dist_ag_v7x_xyz2x2x4_x_m16384_n1024_f32_1_alg».proof.Proof.AGSched
import Idealize.ShloMosaic.Lib.Pipeline.Value
import Idealize.ShloMosaic.Rules.PointsTo
import Idealize.ShloMosaic.Lib.Ring

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace Regions

/-! ## The partners' coordinates -/

/-- The x partner has the other x and the same y and z-pair bit. -/
theorem xP_coord : ∀ c : Dev nD, (xP c).val / 8 = 1 - c.val / 8 ∧ (xP c).val / 4 % 2 = c.val / 4 % 2
    ∧ (xP c).val % 4 % 2 = c.val % 4 % 2 := by decide
/-- The y partner has the other y and the same x and z-pair bit. -/
theorem yP_coord : ∀ c : Dev nD, (yP c).val / 8 = c.val / 8 ∧ (yP c).val / 4 % 2 = 1 - c.val / 4 % 2
    ∧ (yP c).val % 4 % 2 = c.val % 4 % 2 := by decide
/-- The z partner has the other z-pair bit and the same x and y. -/
theorem zP_coord : ∀ c : Dev nD, (zP c).val / 8 = c.val / 8 ∧ (zP c).val / 4 % 2 = c.val / 4 % 2
    ∧ (zP c).val % 4 % 2 = 1 - c.val % 4 % 2 := by decide

/-! ## One chunk under two spellings: the first rows agree -/

/-- Where c's x partner sends its chunk i and the chunk i that c names as its own quarter both start at row
    16384·(1 - x) + 4096·(2y + bz) + 256·i of c's result. -/
theorem off1_xP (c : Dev nD) (i : Fin 16) :
    k0_off1 (xP c) (BitVec.ofNat 32 (256 * i.val)) = k0_off3 c (BitVec.ofNat 32 (256 * i.val)) := by
  rw [k0_off1_eq, k0_off3_eq]
  obtain ⟨h1, h2, h3⟩ := xP_coord c
  have hc : c.val < 16 := c.isLt
  rw [h1, h2, h3]
  congr 1
  omega

/-- Chunk j < 8 of the quarter the z partner names as its own and chunk j of the quarter c got from its z partner both
    start at row 16384·(1 - x) + 4096·(2y + 1 - bz) + 256·j. -/
theorem off3_zP (c : Dev nD) (j : Fin 8) (h : j.val < 16) :
    k0_off3 (zP c) (BitVec.ofNat 32 (256 * (⟨j.val, h⟩ : Fin 16).val)) = k0_off5 c (BitVec.ofNat 32 (256 * j.val)) := by
  rw [k0_off3_eq, k0_off5_eq]
  obtain ⟨h1, h2, h3⟩ := zP_coord c
  have hc : c.val < 16 := c.isLt
  rw [h1, h2, h3]
  congr 1
  dsimp only
  omega

/-- Chunk 8 + j of the quarter the y partner names as its own and chunk 8 + j of the quarter c got from its y partner
    both start at row 16384·(1 - x) + 4096·(2(1 - y) + bz) + 256·(8 + j). -/
theorem off3_yP (c : Dev nD) (j : Fin 8) (h : 8 + j.val < 16) :
    k0_off3 (yP c) (BitVec.ofNat 32 (256 * (⟨8 + j.val, h⟩ : Fin 16).val)) = k0_off6 c (BitVec.ofNat 32 (2048 + 256 * j.val)) := by
  rw [k0_off3_eq, k0_off6_eq]
  obtain ⟨h1, h2, h3⟩ := yP_coord c
  have hc : c.val < 16 := c.isLt
  rw [h1, h2, h3]
  congr 1
  dsimp only
  omega

end Regions
open Regions

theorem xDst_xP (c : Dev nD) (i : Fin 16) : xDst (xP c) i = qMine c i :=
  Memref.slice_unit_congr _ (off1_xP c i) _ _ _ _

theorem qMine_zP (c : Dev nD) (j : Fin 8) : qMine (zP c) ⟨j.val, by omega⟩ = qZlo c j :=
  Memref.slice_unit_congr _ (off3_zP c j _) _ _ _ _

theorem qMine_yP (c : Dev nD) (j : Fin 8) : qMine (yP c) ⟨8 + j.val, by omega⟩ = qYhi c j :=
  Memref.slice_unit_congr _ (off3_yP c j _) _ _ _ _

namespace Regions

/-- Bands of a device's result at equal first rows are the same elements, so holding one is holding the other. -/
theorem pts_out_congr (d : Dev nD) {size off off' : Fin S32768x1024.rank → ℕ} (h : off = off')
    (p : ∀ a, off a + size a ≤ S32768x1024.size a) (p' : ∀ a, off' a + size a ≤ S32768x1024.size a) (hs hs')
    (q : PosShare TreeShare) (f : Buf (Elt F) ((d : Thread nD τ).loc main_v1)) :
    (pts (F := F) d (outM.slice (Rect.unit off size p) hs) q f : sProp 𝕄)
      = pts d (outM.slice (Rect.unit off' size p') hs') q f := by
  subst h; rfl

end Regions

theorem pts_xDst_xP (d c : Dev nD) (i : Fin 16) (q : PosShare TreeShare) (f : Buf (Elt F) ((d : Thread nD τ).loc main_v1)) :
    (pts (F := F) d (xDst (xP c) i) q f : sProp 𝕄) = pts d (qMine c i) q f :=
  pts_out_congr d (off1_xP c i) _ _ _ _ q f

theorem pts_qMine_zP (d c : Dev nD) (j : Fin 8) (q : PosShare TreeShare) (f : Buf (Elt F) ((d : Thread nD τ).loc main_v1)) :
    (pts (F := F) d (qMine (zP c) ⟨j.val, Nat.lt_of_lt_of_le j.isLt (Nat.le_of_ble_eq_true rfl)⟩) q f : sProp 𝕄) = pts d (qZlo c j) q f :=
  pts_out_congr d (off3_zP c j _) _ _ _ _ q f

theorem pts_qMine_yP (d c : Dev nD) (j : Fin 8) (q : PosShare TreeShare) (f : Buf (Elt F) ((d : Thread nD τ).loc main_v1)) :
    (pts (F := F) d (qMine (yP c) ⟨8 + j.val, Nat.add_lt_add_left j.isLt 8⟩) q f : sProp 𝕄) = pts d (qYhi c j) q f :=
  pts_out_congr d (off3_yP c j _) _ _ _ _ q f

/-- The same read from the sender's side: what p sends as chunk i is chunk i of its x partner's own quarter. -/
theorem pts_xDst (d p : Dev nD) (i : Fin 16) (q : PosShare TreeShare) (f : Buf (Elt F) ((d : Thread nD τ).loc main_v1)) :
    (pts (F := F) d (xDst p i) q f : sProp 𝕄) = pts d (qMine (xP p) i) q f := by
  have h := pts_xDst_xP (F := F) d (xP p) i q f
  rw [xP_xP] at h
  exact h

namespace Regions

/-! ## Bands of rows

An element's row is a number; a band is the elements whose row lies in an interval. Bands at intervals apart are
disjoint, a band splits at any row inside it, and a band of k·n rows is k bands of n rows. -/

section Bands

variable {ℓ : Loc nD τ sig} (ρ : Idx ℓ → ℕ)

/-- The elements whose row lies in [lo, hi). -/
def band (lo hi : ℕ) : Finset (Idx ℓ) := Finset.univ.filter fun x => lo ≤ ρ x ∧ ρ x < hi

theorem mem_band {lo hi : ℕ} {x : Idx ℓ} : x ∈ band ρ lo hi ↔ lo ≤ ρ x ∧ ρ x < hi := by
  unfold band; rw [Finset.mem_filter]; exact ⟨fun h => h.2, fun h => ⟨Finset.mem_univ _, h⟩⟩

theorem band_congr {lo hi lo' hi' : ℕ} (h1 : lo = lo') (h2 : hi = hi') : band ρ lo hi = band ρ lo' hi' := by
  subst h1 h2; rfl

theorem band_disjoint {lo hi lo' hi' : ℕ} (h : hi ≤ lo' ∨ hi' ≤ lo) : Disjoint (band ρ lo hi) (band ρ lo' hi') := by
  rw [Finset.disjoint_left]; intro x h1 h2; rw [mem_band] at h1 h2; omega

theorem band_univ {R : ℕ} (h : ∀ x, ρ x < R) : band ρ 0 R = Finset.univ := by
  ext x; rw [mem_band]; exact ⟨fun _ => Finset.mem_univ _, fun _ => ⟨Nat.zero_le _, h x⟩⟩

/-- Holding two sets apart is holding their union. -/
theorem pointsTo_union_eq {I J : Finset (Idx ℓ)} (h : Disjoint I J) (q : PosShare TreeShare) (f : Buf (Elt F) ℓ) :
    (ℓ ↦[I ∪ J]{q} f : sProp 𝕄) = iprop((ℓ ↦[I]{q} f) ∗ ℓ ↦[J]{q} f) :=
  BI.equiv_iff.mp ⟨(pointsTo_union h).1, (pointsTo_union h).2⟩

/-- A band of k·n rows held is its k bands of n rows held, each under whatever name its elements go by. -/
theorem pointsTo_band_tile {k : ℕ} (K : Fin k → Finset (Idx ℓ)) (lo n : ℕ) (hn : 0 < n)
    (hK : ∀ i, K i = band ρ (lo + n * i.val) (lo + n * i.val + n)) (q : PosShare TreeShare) (f : Buf (Elt F) ℓ) :
    (ℓ ↦[band ρ lo (lo + n * k)]{q} f : sProp 𝕄) = bigSep Finset.univ fun i => ℓ ↦[K i]{q} f := by
  have hcov : band ρ lo (lo + n * k) = Finset.univ.biUnion K := by
    ext x; rw [mem_band, Finset.mem_biUnion]; constructor
    · rintro ⟨h1, h2⟩
      have hd : (ρ x - lo) / n < k := Nat.div_lt_of_lt_mul (by omega)
      refine ⟨⟨(ρ x - lo) / n, hd⟩, Finset.mem_univ _, ?_⟩
      rw [hK, mem_band]
      have e1 := Nat.mul_div_le (ρ x - lo) n
      have e2 := Nat.lt_mul_div_succ (ρ x - lo) hn
      rw [Nat.mul_add, Nat.mul_one] at e2
      dsimp only
      omega
    · rintro ⟨i, _, hi⟩
      rw [hK, mem_band] at hi
      have h3 := Nat.mul_le_mul_left n (show i.val + 1 ≤ k from i.isLt)
      rw [Nat.mul_add, Nat.mul_one] at h3
      omega
  rw [hcov]
  refine pointsTo_biUnion _ _ fun i _ j _ hij => ?_
  rw [hK, hK]
  have hne : i.val ≠ j.val := fun e => hij (Fin.ext e)
  apply band_disjoint
  rcases Nat.lt_or_gt_of_ne hne with h | h
  · have h3 := Nat.mul_le_mul_left n (show i.val + 1 ≤ j.val from h)
    rw [Nat.mul_add, Nat.mul_one] at h3; omega
  · have h3 := Nat.mul_le_mul_left n (show j.val + 1 ≤ i.val from h)
    rw [Nat.mul_add, Nat.mul_one] at h3; omega

end Bands

/-! ## The chunks of the result and of the block as bands -/

/-- The row of an element of a device's result. -/
def rowO (d : Dev nD) : Idx ((d : Thread nD τ).loc main_v1) → ℕ := fun idx => (idx 0).val
/-- The row of an element of a device's block. -/
def rowI (d : Dev nD) : Idx ((d : Thread nD τ).loc main_arg0) → ℕ := fun idx => (idx 0).val

theorem rowO_lt (d : Dev nD) (x : Idx ((d : Thread nD τ).loc main_v1)) : rowO d x < 32768 := (x 0).isLt
theorem rowI_lt (d : Dev nD) (x : Idx ((d : Thread nD τ).loc main_arg0)) : rowI d x < 16384 := (x 0).isLt

/-- A slice of n whole rows of the result from row r is the band [r, r + n). -/
theorem out_set (d : Dev nD) {off : Fin S32768x1024.rank → ℕ} {n : ℕ}
    {inb : ∀ a, off a + (![n, 1024] : Fin 2 → ℕ) a ≤ S32768x1024.size a} {hs} (r : ℕ) (hoff : off = ![r, 0]) :
    ((outM.slice (Rect.unit (s := S32768x1024) off ![n, 1024] inb) hs).view.set : Finset (Idx ((d : Thread nD τ).loc main_v1)))
      = band (rowO d) r (r + n) := by
  subst hoff
  ext idx
  rw [mem_band]
  show idx ∈ ((View.whole main_v1).slice (Rect.unit (s := S32768x1024) ![r, 0] ![n, 1024] inb)).set ↔ _
  rw [View.set_slice_whole, Rect.mem_set_unit]
  have hlt : (idx 1).val < 1024 := (idx 1).isLt
  constructor
  · intro h
    have h0 : r ≤ (idx 0).val ∧ (idx 0).val < r + n := h 0
    exact h0
  · intro h
    have h0 : r ≤ (idx 0).val ∧ (idx 0).val < r + n := h
    have h1 : 0 ≤ (idx 1).val ∧ (idx 1).val < 0 + 1024 := ⟨Nat.zero_le _, by omega⟩
    exact Fin.forall_fin_two.mpr ⟨h0, h1⟩

/-- A slice of n whole rows of the block from row r is the band [r, r + n). -/
theorem in_set (d : Dev nD) {off : Fin S16384x1024.rank → ℕ} {n : ℕ}
    {inb : ∀ a, off a + (![n, 1024] : Fin 2 → ℕ) a ≤ S16384x1024.size a} {hs} (r : ℕ) (hoff : off = ![r, 0]) :
    ((inM.slice (Rect.unit (s := S16384x1024) off ![n, 1024] inb) hs).view.set : Finset (Idx ((d : Thread nD τ).loc main_arg0)))
      = band (rowI d) r (r + n) := by
  subst hoff
  ext idx
  rw [mem_band]
  show idx ∈ ((View.whole main_arg0).slice (Rect.unit (s := S16384x1024) ![r, 0] ![n, 1024] inb)).set ↔ _
  rw [View.set_slice_whole, Rect.mem_set_unit]
  have hlt : (idx 1).val < 1024 := (idx 1).isLt
  constructor
  · intro h
    have h0 : r ≤ (idx 0).val ∧ (idx 0).val < r + n := h 0
    exact h0
  · intro h
    have h0 : r ≤ (idx 0).val ∧ (idx 0).val < r + n := h
    have h1 : 0 ≤ (idx 1).val ∧ (idx 1).val < 0 + 1024 := ⟨Nat.zero_le _, by omega⟩
    exact Fin.forall_fin_two.mpr ⟨h0, h1⟩

/-- The first row of the quarter device p names as its own: 16384·(1 - x) + 4096·(2y + bz). -/
def qLo (p : Dev nD) : ℕ := (8192 * (p.val / 4 % 2) + 4096 * (p.val % 4 % 2) + 16384) - 16384 * (p.val / 8)
/-- The first row of the quarter device p got from its z partner: 16384·(1 - x) + 4096·(2y + 1 - bz). -/
def zLo (p : Dev nD) : ℕ := (8192 * (p.val / 4 % 2) + 20480) - (16384 * (p.val / 8) + 4096 * (p.val % 4 % 2))
/-- Row 2048 of the quarter device p got from its y partner: 16384·(1 - x) + 4096·(2(1 - y) + bz) + 2048. -/
def yLo (p : Dev nD) : ℕ := (4096 * (p.val % 4 % 2) + 26624) - (16384 * (p.val / 8) + 8192 * (p.val / 4 % 2))

/-- The five quarters' first rows, cleared of subtraction: with x, y, bz the device's coordinates. -/
theorem qLo_self : ∀ c : Dev nD, qLo c + 16384 * (c.val / 8) = 16384 + 8192 * (c.val / 4 % 2) + 4096 * (c.val % 4 % 2) := by decide
theorem qLo_yP : ∀ c : Dev nD, qLo (yP c) + 16384 * (c.val / 8) + 8192 * (c.val / 4 % 2) = 24576 + 4096 * (c.val % 4 % 2) := by decide
theorem qLo_zP : ∀ c : Dev nD, qLo (zP c) + 16384 * (c.val / 8) + 4096 * (c.val % 4 % 2) = 20480 + 8192 * (c.val / 4 % 2) := by decide
theorem zLo_yP : ∀ c : Dev nD, zLo (yP c) + 16384 * (c.val / 8) + 8192 * (c.val / 4 % 2) + 4096 * (c.val % 4 % 2) = 28672 := by decide
theorem yLo_zP : ∀ c : Dev nD, yLo (zP c) + 16384 * (c.val / 8) + 8192 * (c.val / 4 % 2) + 4096 * (c.val % 4 % 2) = 30720 := by decide

section Tiles

variable (d p : Dev nD) (q : PosShare TreeShare) (f : Buf (Elt F) ((d : Thread nD τ).loc main_v1))

/-- Device p's own half, in d's result: sixteen chunks of 1024 rows. -/
theorem st_tile :
    (((d : Thread nD τ).loc main_v1) ↦[band (rowO d) (16384 * (p.val / 8)) (16384 * (p.val / 8) + 1024 * 16)]{q} f : sProp 𝕄)
      = bigSep Finset.univ fun n : Fin 16 => pts d (stDst p n) q f :=
  pointsTo_band_tile (rowO d) (fun n : Fin 16 => (stDst p n).view.set) _ 1024 (by omega)
    (fun n => out_set d _ (k0_off4_eq p n)) q f

/-- The quarter p names as its own, in d's result: sixteen chunks of 256 rows. -/
theorem qMine_tile :
    (((d : Thread nD τ).loc main_v1) ↦[band (rowO d) (qLo p) (qLo p + 256 * 16)]{q} f : sProp 𝕄)
      = bigSep Finset.univ fun i : Fin 16 => pts d (qMine p i) q f :=
  pointsTo_band_tile (rowO d) (fun i : Fin 16 => (qMine p i).view.set) _ 256 (by omega)
    (fun i => (out_set d _ (k0_off3_eq p i)).trans (by
      have hp : p.val < 16 := p.isLt
      exact band_congr _ (by unfold qLo; omega) (by unfold qLo; omega))) q f

/-- The first half of the quarter p got from its z partner, in d's result: eight chunks of 256 rows. -/
theorem qZlo_tile :
    (((d : Thread nD τ).loc main_v1) ↦[band (rowO d) (zLo p) (zLo p + 256 * 8)]{q} f : sProp 𝕄)
      = bigSep Finset.univ fun j : Fin 8 => pts d (qZlo p j) q f :=
  pointsTo_band_tile (rowO d) (fun j : Fin 8 => (qZlo p j).view.set) _ 256 (by omega)
    (fun j => (out_set d _ (k0_off5_eq p j)).trans (by
      have hp : p.val < 16 := p.isLt
      exact band_congr _ (by unfold zLo; omega) (by unfold zLo; omega))) q f

/-- The second half of the quarter p got from its y partner, in d's result: eight chunks of 256 rows. -/
theorem qYhi_tile :
    (((d : Thread nD τ).loc main_v1) ↦[band (rowO d) (yLo p) (yLo p + 256 * 8)]{q} f : sProp 𝕄)
      = bigSep Finset.univ fun j : Fin 8 => pts d (qYhi p j) q f :=
  pointsTo_band_tile (rowO d) (fun j : Fin 8 => (qYhi p j).view.set) _ 256 (by omega)
    (fun j => (out_set d _ (k0_off6_eq p j)).trans (by
      have hp : p.val < 16 := p.isLt
      exact band_congr _ (by unfold yLo; omega) (by unfold yLo; omega))) q f

end Tiles

end Regions

namespace Regions

/-! ## The rotating buffers and the loads' chunks: blocks along the first axis -/

/-- Rotating buffer k is the elements of the scratch whose first coordinate is k. -/
abbrev vbSet (k : Fin 4) : Finset S4x1024x1024.Idx :=
  (Rect.unit (s := S4x1024x1024) ![k.val, 0, 0] S1x1024x1024.size (vs_inb k)).set
/-- The source of load n is rows 1024·n … of the block. -/
abbrev ldSet (n : Fin 16) : Finset S16384x1024.Idx :=
  (Rect.unit (s := S16384x1024) ![1024 * n.val, 0] S1024x1024.size (ld_inb n)).set

theorem vslot_set (k : Fin 4) : (vslot k).view.set = vbSet k := by
  simp only [Memref.view_squeeze, View.set_reshape]; exact View.set_slice_whole _ _
theorem ldSrc_set (n : Fin 16) : (ldSrc n).view.set = ldSet n := View.set_slice_whole _ _

theorem vbSet_disjoint (k k' : Fin 4) (h : k ≠ k') : Disjoint (vbSet k) (vbSet k') :=
  Ring.lead_disjoint (s := S4x1024x1024) (0 : Fin 3) 1 (fun k : Fin 4 => (![k.val, 0, 0] : Fin 3 → ℕ)) S1x1024x1024.size vs_inb
    (fun k => by simp) rfl k k' h
theorem vbSet_cover : Finset.univ.biUnion vbSet = Finset.univ :=
  Ring.lead_cover (s := S4x1024x1024) (0 : Fin 3) 1 (fun k : Fin 4 => (![k.val, 0, 0] : Fin 3 → ℕ)) S1x1024x1024.size vs_inb
    (fun k => by simp) (fun k a ha => by fin_cases a <;> first | exact absurd rfl ha | rfl) rfl
    (fun a ha => by fin_cases a <;> first | exact absurd rfl ha | rfl) rfl

theorem ldSet_disjoint (n n' : Fin 16) (h : n ≠ n') : Disjoint (ldSet n) (ldSet n') :=
  Ring.lead_disjoint (s := S16384x1024) (0 : Fin 2) 1024 (fun n : Fin 16 => (![1024 * n.val, 0] : Fin 2 → ℕ)) S1024x1024.size ld_inb
    (fun n => by simp) rfl n n' h
theorem ldSet_cover : Finset.univ.biUnion ldSet = Finset.univ :=
  Ring.lead_cover (s := S16384x1024) (0 : Fin 2) 1024 (fun n : Fin 16 => (![1024 * n.val, 0] : Fin 2 → ℕ)) S1024x1024.size ld_inb
    (fun n => by simp) (fun n a ha => by fin_cases a <;> first | exact absurd rfl ha | rfl) rfl
    (fun a ha => by fin_cases a <;> first | exact absurd rfl ha | rfl) rfl

theorem pts_vslot (c : Dev nD) (k : Fin 4) (q : PosShare TreeShare) (g : Buf (Elt F) ((c : Thread nD τ).loc cc0_scratch0)) :
    (pts (F := F) c (vslot k) q g : sProp 𝕄) = (((c : Thread nD τ).loc cc0_scratch0) ↦[vbSet k]{q} g) := by
  show ((((c : Thread nD τ).loc cc0_scratch0) ↦[(vslot k).view.set]{q} g) : sProp 𝕄) = _
  rw [vslot_set]

theorem pts_ldSrc (c : Dev nD) (n : Fin 16) (q : PosShare TreeShare) (f : Buf (Elt F) ((c : Thread nD τ).loc main_arg0)) :
    (pts (F := F) c (ldSrc n) q f : sProp 𝕄) = (((c : Thread nD τ).loc main_arg0) ↦[ldSet n]{q} f) := by
  show ((((c : Thread nD τ).loc main_arg0) ↦[(ldSrc n).view.set]{q} f) : sProp 𝕄) = _
  rw [ldSrc_set]

end Regions

/-- The rotating buffers held whole are the four buffers held. -/
theorem vb_parts (c : Dev nD) (g : Buf (Elt F) ((c : Thread nD τ).loc cc0_scratch0)) :
    ((((c : Thread nD τ).loc cc0_scratch0) ↦{fullShare} g) : sProp 𝕄) ⊣⊢ bigSep Finset.univ fun k : Fin 4 => pts c (vslot k) fullShare g := by
  refine biEntails_of_eq ?_
  rw [BI.bigSep_congr (fun k _ => pts_vslot (F := F) c k fullShare g)]
  exact Ring.pointsTo_blocks (ℓ := (c : Thread nD τ).loc cc0_scratch0) vbSet vbSet_disjoint vbSet_cover g

/-- The block held is the sixteen load sources held. -/
theorem in_loads (c : Dev nD) (q : PosShare TreeShare) (f : Buf (Elt F) ((c : Thread nD τ).loc main_arg0)) :
    ((((c : Thread nD τ).loc main_arg0) ↦{q} f) : sProp 𝕄) ⊣⊢ bigSep Finset.univ fun n : Fin 16 => pts c (ldSrc n) q f := by
  refine biEntails_of_eq ?_
  rw [BI.bigSep_congr (fun n _ => pts_ldSrc (F := F) c n q f)]
  exact Ring.pointsTo_blocks (ℓ := (c : Thread nD τ).loc main_arg0) ldSet ldSet_disjoint ldSet_cover f

/-- The four rotating buffers, each at whatever it holds, join into the scratch whole at some contents. -/
theorem vb_join (c : Dev nD) :
    (bigSep Finset.univ fun k : Fin 4 => iprop(∃ g, pts (F := F) c (vslot k) fullShare g) : sProp 𝕄)
      ⊢ iprop(∃ g, (((c : Thread nD τ).loc cc0_scratch0) ↦{fullShare} g)) := by
  have e : (bigSep Finset.univ fun k : Fin 4 => iprop(∃ g, pts (F := F) c (vslot k) fullShare g) : sProp 𝕄)
      = bigSep Finset.univ fun k : Fin 4 => iprop(∃ g, (((c : Thread nD τ).loc cc0_scratch0) ↦[vbSet k]{fullShare} g)) :=
    BI.bigSep_congr fun k _ => by
      show (iprop(∃ g, (((c : Thread nD τ).loc cc0_scratch0) ↦[(vslot k).view.set]{fullShare} g)) : sProp 𝕄) = _
      rw [vslot_set]
  have hsplit : (bigSep Finset.univ fun k : Fin 4 => iprop(∃ g, (((c : Thread nD τ).loc cc0_scratch0) ↦[vbSet k]{fullShare} g)) : sProp 𝕄)
      = iprop((∃ g, (((c : Thread nD τ).loc cc0_scratch0) ↦[vbSet 0]{fullShare} g))
          ∗ bigSep (Finset.univ.erase (0 : Fin 4)) fun k : Fin 4 => iprop(∃ g, (((c : Thread nD τ).loc cc0_scratch0) ↦[vbSet k]{fullShare} g))) :=
    BI.bigSep_univ_split (0 : Fin 4)
  rw [e]
  refine (Entails.of_eq hsplit).trans ?_
  iintro ⟨⟨%g0, H0⟩, HR⟩
  iapply (Ring.pointsTo_blocks_join_exists (ℓ := (c : Thread nD τ).loc cc0_scratch0) (q := fullShare) vbSet vbSet_disjoint vbSet_cover g0)
  iapply (Entails.of_eq hsplit.symm)
  isplitl [H0]
  · iexists g0; iexact H0
  · iexact HR

/-! ## The quarter of the block that goes to the x partner -/

/-- The elements of c's block in its sixteen chunks for the x partner. -/
def xQuarter (c : Dev nD) : Finset (Idx ((c : Thread nD τ).loc main_arg0)) :=
  Finset.univ.biUnion fun i : Fin 16 => (xSrc c i).view.set

/-- The block held is its sixteen chunks for the x partner held, and the rest of it held. -/
theorem in_quarter (c : Dev nD) (q : PosShare TreeShare) (f : Buf (Elt F) ((c : Thread nD τ).loc main_arg0)) :
    ((((c : Thread nD τ).loc main_arg0) ↦{q} f) : sProp 𝕄) ⊣⊢ iprop((bigSep Finset.univ fun i : Fin 16 => pts c (xSrc c i) q f)
      ∗ (((c : Thread nD τ).loc main_arg0) ↦[Finset.univ \ xQuarter c]{q} f)) := by
  have h2 : ((((c : Thread nD τ).loc main_arg0) ↦[xQuarter c]{q} f) : sProp 𝕄) = bigSep Finset.univ fun i : Fin 16 => pts c (xSrc c i) q f :=
    pointsTo_biUnion _ _ fun i _ j _ hij => by
      have hs : ∀ t : Fin 16, ((xSrc c t).view.set : Finset (Idx ((c : Thread nD τ).loc main_arg0)))
          = band (rowI c) (8192 * (c.val / 4 % 2) + 4096 * (c.val % 4 % 2) + 256 * t.val) (8192 * (c.val / 4 % 2) + 4096 * (c.val % 4 % 2) + 256 * t.val + 256) :=
        fun t => in_set c _ (k0_off2_eq c t)
      rw [hs i, hs j]
      have hne : i.val ≠ j.val := fun e => hij (Fin.ext e)
      exact band_disjoint _ (by omega)
  rw [← h2]
  exact pointsTo_split_subset (Finset.subset_univ _)

/-! ## The result: eighty chunks -/

/-- The result held whole is c's own half in sixteen chunks, the quarter from the x partner, the quarter from the y
    partner and the quarter from the z partner in sixteen chunks each, and the fourth quarter in eight chunks through
    the y partner and eight through the z partner: the six bands are apart and their rows are all the rows. -/
theorem out_parts (c : Dev nD) (f : Buf (Elt F) ((c : Thread nD τ).loc main_v1)) :
    ((((c : Thread nD τ).loc main_v1) ↦{fullShare} f) : sProp 𝕄) ⊣⊢ iprop(
        (bigSep Finset.univ fun n : Fin 16 => pts c (stDst c n) fullShare f)
      ∗ (bigSep Finset.univ fun i : Fin 16 => pts c (qMine c i) fullShare f)
      ∗ (bigSep Finset.univ fun i : Fin 16 => pts c (qMine (yP c) i) fullShare f)
      ∗ (bigSep Finset.univ fun i : Fin 16 => pts c (qMine (zP c) i) fullShare f)
      ∗ (bigSep Finset.univ fun j : Fin 8 => pts c (qZlo (yP c) j) fullShare f)
      ∗ (bigSep Finset.univ fun j : Fin 8 => pts c (qYhi (zP c) j) fullShare f)) := by
  have hc : c.val < 16 := c.isLt
  have e1 := qLo_self c
  have e2 := qLo_yP c
  have e3 := qLo_zP c
  have e4 := zLo_yP c
  have e5 := yLo_zP c
  rw [← st_tile c c fullShare f, ← qMine_tile c c fullShare f, ← qMine_tile c (yP c) fullShare f,
    ← qMine_tile c (zP c) fullShare f, ← qZlo_tile c (yP c) fullShare f, ← qYhi_tile c (zP c) fullShare f]
  have hcov : (Finset.univ : Finset (Idx ((c : Thread nD τ).loc main_v1)))
      = band (rowO c) (16384 * (c.val / 8)) (16384 * (c.val / 8) + 1024 * 16)
        ∪ (band (rowO c) (qLo c) (qLo c + 256 * 16)
        ∪ (band (rowO c) (qLo (yP c)) (qLo (yP c) + 256 * 16)
        ∪ (band (rowO c) (qLo (zP c)) (qLo (zP c) + 256 * 16)
        ∪ (band (rowO c) (zLo (yP c)) (zLo (yP c) + 256 * 8)
        ∪ band (rowO c) (yLo (zP c)) (yLo (zP c) + 256 * 8))))) := by
    ext x
    have hx := rowO_lt c x
    simp only [Finset.mem_union, mem_band, Finset.mem_univ, true_iff]
    omega
  have hd1 : Disjoint (band (rowO c) (16384 * (c.val / 8)) (16384 * (c.val / 8) + 1024 * 16))
        (band (rowO c) (qLo c) (qLo c + 256 * 16)
        ∪ (band (rowO c) (qLo (yP c)) (qLo (yP c) + 256 * 16)
        ∪ (band (rowO c) (qLo (zP c)) (qLo (zP c) + 256 * 16)
        ∪ (band (rowO c) (zLo (yP c)) (zLo (yP c) + 256 * 8)
        ∪ band (rowO c) (yLo (zP c)) (yLo (zP c) + 256 * 8))))) := by
    rw [Finset.disjoint_left]; intro x h1 h2
    simp only [Finset.mem_union, mem_band] at h1 h2
    omega
  have hd2 : Disjoint (band (rowO c) (qLo c) (qLo c + 256 * 16))
        (band (rowO c) (qLo (yP c)) (qLo (yP c) + 256 * 16)
        ∪ (band (rowO c) (qLo (zP c)) (qLo (zP c) + 256 * 16)
        ∪ (band (rowO c) (zLo (yP c)) (zLo (yP c) + 256 * 8)
        ∪ band (rowO c) (yLo (zP c)) (yLo (zP c) + 256 * 8)))) := by
    rw [Finset.disjoint_left]; intro x h1 h2
    simp only [Finset.mem_union, mem_band] at h1 h2
    omega
  have hd3 : Disjoint (band (rowO c) (qLo (yP c)) (qLo (yP c) + 256 * 16))
        (band (rowO c) (qLo (zP c)) (qLo (zP c) + 256 * 16)
        ∪ (band (rowO c) (zLo (yP c)) (zLo (yP c) + 256 * 8)
        ∪ band (rowO c) (yLo (zP c)) (yLo (zP c) + 256 * 8))) := by
    rw [Finset.disjoint_left]; intro x h1 h2
    simp only [Finset.mem_union, mem_band] at h1 h2
    omega
  have hd4 : Disjoint (band (rowO c) (qLo (zP c)) (qLo (zP c) + 256 * 16))
        (band (rowO c) (zLo (yP c)) (zLo (yP c) + 256 * 8)
        ∪ band (rowO c) (yLo (zP c)) (yLo (zP c) + 256 * 8)) := by
    rw [Finset.disjoint_left]; intro x h1 h2
    simp only [Finset.mem_union, mem_band] at h1 h2
    omega
  have hd5 : Disjoint (band (rowO c) (zLo (yP c)) (zLo (yP c) + 256 * 8))
        (band (rowO c) (yLo (zP c)) (yLo (zP c) + 256 * 8)) := by
    rw [Finset.disjoint_left]; intro x h1 h2
    simp only [mem_band] at h1 h2
    omega
  rw [hcov, pointsTo_union_eq hd1, pointsTo_union_eq hd2, pointsTo_union_eq hd3, pointsTo_union_eq hd4,
    pointsTo_union_eq hd5]

end Cert.KernelIdeal.AG

end
-- ==== Proof.AGValues.lean ====
/- What every copy lands.

   A copy writes, on its destination chunk, what it read from its source chunk. Each chunk is a rectangle of rows of a
   buffer, so an element of the destination chunk is the image of one chunk coordinate; the write puts there the
   source's value at the same chunk coordinate. The schedule names the contents of a buffer by one whole-array function
   (the block as launched, the final result, a rotating buffer after a load); here each landing is shown to agree with
   that function on the chunk's element set, which is all a points-to on the chunk says. -/
import proofs.«900678_g7700000000000679_dist_ag_v7x_xyz2x2x4_x_m16384_n1024_f32_1_alg».proof.Proof.AGSched
import Idealize.ShloMosaic.Lib.Pipeline.Value
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A landing, in general -/

/-- A whole-mask write through the destination chunk of what was read through the source chunk holds, on the
    destination chunk's elements, any contents that agree with the source's at every chunk coordinate. -/
theorem lands_congr {sp sp' : Space} {s : Shape} {e : EltTy} (cd : Dev nD)
    (D : Memref sig .tc sp s e) (S : Memref sig .tc sp' s e)
    (fd g : Buf (Elt F) (D.view.loc (cd : Thread nD τ))) (fs : S.view.ty.Contents (Elt F))
    (h : ∀ x : s.Idx, HEq (fs (S.view.emb x)) (g (D.view.emb x))) :
    pts (F := F) cd D fullShare (D.view.write (Elt F) fd (S.view.read (Elt F) fs) Finset.univ) = pts cd D fullShare g := by
  refine pointsTo_congr fun i hi => ?_
  obtain ⟨x, rfl⟩ := View.exists_emb_of_mem_set D.view hi
  rw [View.write_emb_of_mem _ _ (Finset.mem_univ x), View.read_apply]
  exact eq_of_heq ((cast_heq _ _).trans ((cast_heq _ _).trans (h x)))

/-! ## Reading the named contents at an index -/

/-- Two reads of launched blocks agree when the devices and the two coordinates do. -/
theorem blk_at {d d' : Dev nD} (a a' : S16384x1024.Idx) (hd : d = d') (h0 : (a 0).val = (a' 0).val)
    (h1 : (a 1).val = (a' 1).val) : blk m d a = blk m d' a' := by
  subst hd
  have e : a = a' := Shape.idx_ext₂ h0 h1
  rw [e]

/-- The final result at an index: the owner's block at the row modulo 16384. -/
theorem Xf_apply (c : Dev nD) (idx : S32768x1024.Idx) :
    Xf m c idx = blk m (owner c (idx 0).val)
      (ValueIdx.ix2 (⟨(idx 0).val % 16384, Nat.mod_lt _ (by decide)⟩ : Fin 16384) (⟨(idx 1).val, (idx 1).isLt⟩ : Fin 1024)) := rfl

theorem VB_lt (n : Fin 16) (idx : S4x1024x1024.Idx) : 1024 * n.val + (idx 1).val < 16384 := by
  have h1 : (idx 1).val < 1024 := (idx 1).isLt
  have h2 : n.val < 16 := n.isLt
  omega

/-- A rotating buffer after load n at an index: the block at row 1024 n plus the index's row. -/
theorem VB_apply (c : Dev nD) (n : Fin 16) (idx : S4x1024x1024.Idx) :
    VB m c n idx = blk m c
      (ValueIdx.ix2 (⟨1024 * n.val + (idx 1).val, VB_lt n idx⟩ : Fin 16384) (⟨(idx 2).val, (idx 2).isLt⟩ : Fin 1024)) := rfl

/-! ## Owners, by quarter of the result

The owner of a row depends only on which of the eight quarters of 4096 rows the row is in; over the quarter and the
sixteen devices every equation of owners below is a finite check. -/

/-- The owner of the rows of quarter k (of eight) of c's result. -/
def ownerQ (c : Dev nD) (k : ℕ) : Dev nD := if k / 4 = c.val / 8 then c else org c (k % 4)

theorem owner_eq (c : Dev nD) (r : ℕ) : owner c r = ownerQ c (r / 4096) := by
  unfold owner ownerQ
  rw [show r / 4096 / 4 = r / 16384 by omega, show r / 4096 % 4 = r % 16384 / 4096 by omega]

/-- A row of c's own half is c's. -/
theorem owner_self (c : Dev nD) (r : ℕ) (h : r / 16384 = c.val / 8) : owner c r = c := by
  unfold owner; exact if_pos h

/-- The quarter c sends to its x partner is, there, owned by c. -/
theorem ownerQ_x : ∀ c : Dev nD, ownerQ (xP c) (4 * (c.val / 8) + 2 * (c.val / 4 % 2) + c.val % 4 % 2) = c := by
  first | decide | decide +kernel
/-- The quarter c got from its x partner has the same owner on c's y partner and on its z partner. -/
theorem ownerQ_yd : ∀ c : Dev nD, ownerQ (yP c) (4 * (1 - c.val / 8) + 2 * (c.val / 4 % 2) + c.val % 4 % 2)
    = ownerQ c (4 * (1 - c.val / 8) + 2 * (c.val / 4 % 2) + c.val % 4 % 2) := by
  first | decide | decide +kernel
theorem ownerQ_zd : ∀ c : Dev nD, ownerQ (zP c) (4 * (1 - c.val / 8) + 2 * (c.val / 4 % 2) + c.val % 4 % 2)
    = ownerQ c (4 * (1 - c.val / 8) + 2 * (c.val / 4 % 2) + c.val % 4 % 2) := by
  first | decide | decide +kernel
/-- The quarter c got from its z partner has the same owner on c's y partner. -/
theorem ownerQ_ydg : ∀ c : Dev nD, ownerQ (yP c) (4 * (1 - c.val / 8) + 2 * (c.val / 4 % 2) + (1 - c.val % 4 % 2))
    = ownerQ c (4 * (1 - c.val / 8) + 2 * (c.val / 4 % 2) + (1 - c.val % 4 % 2)) := by
  first | decide | decide +kernel
/-- The quarter c got from its y partner has the same owner on c's z partner. -/
theorem ownerQ_zdg : ∀ c : Dev nD, ownerQ (zP c) (4 * (1 - c.val / 8) + 2 * (1 - c.val / 4 % 2) + c.val % 4 % 2)
    = ownerQ c (4 * (1 - c.val / 8) + 2 * (1 - c.val / 4 % 2) + c.val % 4 % 2) := by
  first | decide | decide +kernel

/-! ## Where a chunk coordinate sits in its buffer: the rectangle's offset plus the coordinate -/

theorem xDst_row (c : Dev nD) (i : Fin 16) (x : S256x1024.Idx) :
    (((xDst c i).view.emb x : S32768x1024.Idx) 0).val
      = 16384 * (c.val / 8) + 8192 * (c.val / 4 % 2) + 4096 * (c.val % 4 % 2) + 256 * i.val + (x 0).val := by
  have e : (((xDst c i).view.emb x : S32768x1024.Idx) 0).val
      = (k0_off1 c (BitVec.ofNat 32 (256 * i.val))) 0 + 1 * (x 0).val := rfl
  rw [e, Gen.k0_off1_eq]; simp
theorem xDst_col (c : Dev nD) (i : Fin 16) (x : S256x1024.Idx) :
    (((xDst c i).view.emb x : S32768x1024.Idx) 1).val = (x 1).val := by
  have e : (((xDst c i).view.emb x : S32768x1024.Idx) 1).val
      = (k0_off1 c (BitVec.ofNat 32 (256 * i.val))) 1 + 1 * (x 1).val := rfl
  rw [e, Gen.k0_off1_eq]; simp

theorem xSrc_row (c : Dev nD) (i : Fin 16) (x : S256x1024.Idx) :
    (((xSrc c i).view.emb x : S16384x1024.Idx) 0).val
      = 8192 * (c.val / 4 % 2) + 4096 * (c.val % 4 % 2) + 256 * i.val + (x 0).val := by
  have e : (((xSrc c i).view.emb x : S16384x1024.Idx) 0).val
      = (k0_off2 c (BitVec.ofNat 32 (256 * i.val))) 0 + 1 * (x 0).val := rfl
  rw [e, Gen.k0_off2_eq]; simp
theorem xSrc_col (c : Dev nD) (i : Fin 16) (x : S256x1024.Idx) :
    (((xSrc c i).view.emb x : S16384x1024.Idx) 1).val = (x 1).val := by
  have e : (((xSrc c i).view.emb x : S16384x1024.Idx) 1).val
      = (k0_off2 c (BitVec.ofNat 32 (256 * i.val))) 1 + 1 * (x 1).val := rfl
  rw [e, Gen.k0_off2_eq]; simp

theorem qMine_row (c : Dev nD) (i : Fin 16) (x : S256x1024.Idx) :
    (((qMine c i).view.emb x : S32768x1024.Idx) 0).val
      = (8192 * (c.val / 4 % 2) + 4096 * (c.val % 4 % 2) + 256 * i.val + 16384) - 16384 * (c.val / 8) + (x 0).val := by
  have e : (((qMine c i).view.emb x : S32768x1024.Idx) 0).val
      = (k0_off3 c (BitVec.ofNat 32 (256 * i.val))) 0 + 1 * (x 0).val := rfl
  rw [e, Gen.k0_off3_eq]; simp

theorem qZlo_row (c : Dev nD) (j : Fin 8) (x : S256x1024.Idx) :
    (((qZlo c j).view.emb x : S32768x1024.Idx) 0).val
      = (8192 * (c.val / 4 % 2) + 256 * j.val + 20480) - (16384 * (c.val / 8) + 4096 * (c.val % 4 % 2)) + (x 0).val := by
  have e : (((qZlo c j).view.emb x : S32768x1024.Idx) 0).val
      = (k0_off5 c (BitVec.ofNat 32 (256 * j.val))) 0 + 1 * (x 0).val := rfl
  rw [e, Gen.k0_off5_eq]; simp

theorem qYhi_row (c : Dev nD) (j : Fin 8) (x : S256x1024.Idx) :
    (((qYhi c j).view.emb x : S32768x1024.Idx) 0).val
      = (4096 * (c.val % 4 % 2) + 256 * j.val + 26624) - (16384 * (c.val / 8) + 8192 * (c.val / 4 % 2)) + (x 0).val := by
  have e : (((qYhi c j).view.emb x : S32768x1024.Idx) 0).val
      = (k0_off6 c (BitVec.ofNat 32 (2048 + 256 * j.val))) 0 + 1 * (x 0).val := rfl
  rw [e, Gen.k0_off6_eq]; simp

theorem stDst_row (c : Dev nD) (n : Fin 16) (x : S1024x1024.Idx) :
    (((stDst c n).view.emb x : S32768x1024.Idx) 0).val = 16384 * (c.val / 8) + 1024 * n.val + (x 0).val := by
  have e : (((stDst c n).view.emb x : S32768x1024.Idx) 0).val
      = (k0_off4 c (BitVec.ofNat 32 (1024 * n.val))) 0 + 1 * (x 0).val := rfl
  rw [e, Gen.k0_off4_eq]; simp
theorem stDst_col (c : Dev nD) (n : Fin 16) (x : S1024x1024.Idx) :
    (((stDst c n).view.emb x : S32768x1024.Idx) 1).val = (x 1).val := by
  have e : (((stDst c n).view.emb x : S32768x1024.Idx) 1).val
      = (k0_off4 c (BitVec.ofNat 32 (1024 * n.val))) 1 + 1 * (x 1).val := rfl
  rw [e, Gen.k0_off4_eq]; simp

theorem ldSrc_row (n : Fin 16) (x : S1024x1024.Idx) :
    (((ldSrc n).view.emb x : S16384x1024.Idx) 0).val = 1024 * n.val + (x 0).val := by
  have e : (((ldSrc n).view.emb x : S16384x1024.Idx) 0).val
      = (![1024 * n.val, 0] : Fin 2 → ℕ) 0 + 1 * (x 0).val := rfl
  rw [e]; simp
theorem ldSrc_col (n : Fin 16) (x : S1024x1024.Idx) :
    (((ldSrc n).view.emb x : S16384x1024.Idx) 1).val = (x 1).val := by
  have e : (((ldSrc n).view.emb x : S16384x1024.Idx) 1).val
      = (![1024 * n.val, 0] : Fin 2 → ℕ) 1 + 1 * (x 1).val := rfl
  rw [e]; simp

/-- A rotating buffer is one plane of the three-axis buffer with the unit axis dropped: chunk coordinate (a, b) sits
    at (k, a, b). -/
theorem vslot_emb (k : Fin 4) (x : S1024x1024.Idx) :
    (((vslot k).view.emb x : S4x1024x1024.Idx) 1).val = (x 0).val
      ∧ (((vslot k).view.emb x : S4x1024x1024.Idx) 2).val = (x 1).val := by
  have e' := Shape.reshapeEquiv_cons_one (n := 2) (d := ![1024, 1024]) squeezes_S1x1024x1024_S1024x1024.numel_eq x
  have e1 : ((Shape.reshapeEquiv squeezes_S1x1024x1024_S1024x1024.numel_eq x : S1x1024x1024.Idx) 1).val = (x 0).val :=
    congrArg Fin.val (congrFun e' 1)
  have e2 : ((Shape.reshapeEquiv squeezes_S1x1024x1024_S1024x1024.numel_eq x : S1x1024x1024.Idx) 2).val = (x 1).val :=
    congrArg Fin.val (congrFun e' 2)
  constructor
  · show 0 + 1 * ((Shape.reshapeEquiv squeezes_S1x1024x1024_S1024x1024.numel_eq x : S1x1024x1024.Idx) 1).val = (x 0).val
    omega
  · show 0 + 1 * ((Shape.reshapeEquiv squeezes_S1x1024x1024_S1024x1024.numel_eq x : S1x1024x1024.Idx) 2).val = (x 1).val
    omega

/-! ## The landings -/

/-- A load: the rotating buffer takes rows 1024 n … of the block. -/
theorem ld_lands (c : Dev nD) (n : Fin 16) (k : Fin 4)
    (fd : Buf (Elt F) ((vslot k).view.loc ((c : Dev nD) : Thread nD τ))) :
    pts (F := F) c (vslot k) fullShare ((vslot k).view.write (Elt F) fd ((ldSrc n).view.read (Elt F) (blk m c)) Finset.univ)
      = pts c (vslot k) fullShare (VB m c n) := by
  refine lands_congr c (vslot k) (ldSrc n) fd _ (blk m c) fun x => heq_of_eq ?_
  refine Eq.trans ?_ (VB_apply m c n _).symm
  obtain ⟨h1, h2⟩ := vslot_emb k x
  refine blk_at m _ _ rfl ?_ ?_
  · show _ = 1024 * n.val + (((vslot k).view.emb x : S4x1024x1024.Idx) 1).val
    rw [h1]; exact ldSrc_row n x
  · show _ = (((vslot k).view.emb x : S4x1024x1024.Idx) 2).val
    rw [h2]; exact ldSrc_col n x

/-- The copy to the x partner: there the rows of the chunk are owned by c, and are the chunk's rows of c's block. -/
theorem x_lands (c : Dev nD) (i : Fin 16)
    (fd : Buf (Elt F) ((xDst c i).view.loc ((xP c : Dev nD) : Thread nD τ))) :
    pts (F := F) (xP c) (xDst c i) fullShare ((xDst c i).view.write (Elt F) fd ((xSrc c i).view.read (Elt F) (blk m c)) Finset.univ)
      = pts (xP c) (xDst c i) fullShare (Xf m (xP c)) := by
  refine lands_congr (xP c) (xDst c i) (xSrc c i) fd _ (blk m c) fun x => heq_of_eq ?_
  refine Eq.trans ?_ (Xf_apply m (xP c) _).symm
  have hx : (x 0).val < 256 := (x 0).isLt
  have hi : i.val < 16 := i.isLt
  have hc : c.val < 16 := c.isLt
  refine blk_at m _ _ ?_ ?_ ?_
  · show c = owner (xP c) (((xDst c i).view.emb x : S32768x1024.Idx) 0).val
    rw [owner_eq, xDst_row,
      show (16384 * (c.val / 8) + 8192 * (c.val / 4 % 2) + 4096 * (c.val % 4 % 2) + 256 * i.val + (x 0).val) / 4096
        = 4 * (c.val / 8) + 2 * (c.val / 4 % 2) + c.val % 4 % 2 by omega]
    exact (ownerQ_x c).symm
  · show _ = (((xDst c i).view.emb x : S32768x1024.Idx) 0).val % 16384
    rw [xDst_row]
    refine (xSrc_row c i x).trans ?_
    omega
  · exact (xSrc_col c i x).trans (xDst_col c i x).symm

/-- A store: rows 1024 n … of c's own half of its result take the rotating buffer's rows, which are the block's. -/
theorem st_lands (c : Dev nD) (n : Fin 16) (k : Fin 4)
    (fd : Buf (Elt F) ((stDst c n).view.loc ((c : Dev nD) : Thread nD τ))) :
    pts (F := F) c (stDst c n) fullShare ((stDst c n).view.write (Elt F) fd ((vslot k).view.read (Elt F) (VB m c n)) Finset.univ)
      = pts c (stDst c n) fullShare (Xf m c) := by
  refine lands_congr c (stDst c n) (vslot k) fd _ (VB m c n) fun x => heq_of_eq ?_
  refine (VB_apply m c n _).trans (Eq.trans ?_ (Xf_apply m c _).symm)
  obtain ⟨h1, h2⟩ := vslot_emb k x
  have hx : (x 0).val < 1024 := (x 0).isLt
  have hn : n.val < 16 := n.isLt
  have hc : c.val < 16 := c.isLt
  refine blk_at m _ _ ?_ ?_ ?_
  · show c = owner c (((stDst c n).view.emb x : S32768x1024.Idx) 0).val
    refine (owner_self c _ ?_).symm
    rw [stDst_row]; omega
  · show 1024 * n.val + (((vslot k).view.emb x : S4x1024x1024.Idx) 1).val
      = (((stDst c n).view.emb x : S32768x1024.Idx) 0).val % 16384
    rw [h1, stDst_row]; omega
  · show (((vslot k).view.emb x : S4x1024x1024.Idx) 2).val = (((stDst c n).view.emb x : S32768x1024.Idx) 1).val
    rw [h2, stDst_col]

/-- The forward to the y partner: the rows of the quarter c got from its x partner have one owner on both devices. -/
theorem yd_lands (c : Dev nD) (i : Fin 16)
    (fd : Buf (Elt F) ((qMine c i).view.loc ((yP c : Dev nD) : Thread nD τ))) :
    pts (F := F) (yP c) (qMine c i) fullShare ((qMine c i).view.write (Elt F) fd ((qMine c i).view.read (Elt F) (Xf m c)) Finset.univ)
      = pts (yP c) (qMine c i) fullShare (Xf m (yP c)) := by
  refine lands_congr (yP c) (qMine c i) (qMine c i) fd _ (Xf m c) fun x => heq_of_eq ?_
  refine (Xf_apply m c _).trans (Eq.trans ?_ (Xf_apply m (yP c) _).symm)
  have hx : (x 0).val < 256 := (x 0).isLt
  have hi : i.val < 16 := i.isLt
  have hc : c.val < 16 := c.isLt
  refine blk_at m _ _ ?_ rfl rfl
  show owner c (((qMine c i).view.emb x : S32768x1024.Idx) 0).val
    = owner (yP c) (((qMine c i).view.emb x : S32768x1024.Idx) 0).val
  rw [owner_eq, owner_eq, qMine_row,
    show ((8192 * (c.val / 4 % 2) + 4096 * (c.val % 4 % 2) + 256 * i.val + 16384) - 16384 * (c.val / 8) + (x 0).val) / 4096
      = 4 * (1 - c.val / 8) + 2 * (c.val / 4 % 2) + c.val % 4 % 2 by omega]
  exact (ownerQ_yd c).symm

/-- The forward to the z partner: the same rows have one owner on c and on its z partner. -/
theorem zd_lands (c : Dev nD) (i : Fin 16)
    (fd : Buf (Elt F) ((qMine c i).view.loc ((zP c : Dev nD) : Thread nD τ))) :
    pts (F := F) (zP c) (qMine c i) fullShare ((qMine c i).view.write (Elt F) fd ((qMine c i).view.read (Elt F) (Xf m c)) Finset.univ)
      = pts (zP c) (qMine c i) fullShare (Xf m (zP c)) := by
  refine lands_congr (zP c) (qMine c i) (qMine c i) fd _ (Xf m c) fun x => heq_of_eq ?_
  refine (Xf_apply m c _).trans (Eq.trans ?_ (Xf_apply m (zP c) _).symm)
  have hx : (x 0).val < 256 := (x 0).isLt
  have hi : i.val < 16 := i.isLt
  have hc : c.val < 16 := c.isLt
  refine blk_at m _ _ ?_ rfl rfl
  show owner c (((qMine c i).view.emb x : S32768x1024.Idx) 0).val
    = owner (zP c) (((qMine c i).view.emb x : S32768x1024.Idx) 0).val
  rw [owner_eq, owner_eq, qMine_row,
    show ((8192 * (c.val / 4 % 2) + 4096 * (c.val % 4 % 2) + 256 * i.val + 16384) - 16384 * (c.val / 8) + (x 0).val) / 4096
      = 4 * (1 - c.val / 8) + 2 * (c.val / 4 % 2) + c.val % 4 % 2 by omega]
  exact (ownerQ_zd c).symm

/-- The second hop to the y partner: the first eight chunks of the quarter c got from its z partner. -/
theorem ydg_lands (c : Dev nD) (j : Fin 8)
    (fd : Buf (Elt F) ((qZlo c j).view.loc ((yP c : Dev nD) : Thread nD τ))) :
    pts (F := F) (yP c) (qZlo c j) fullShare ((qZlo c j).view.write (Elt F) fd ((qZlo c j).view.read (Elt F) (Xf m c)) Finset.univ)
      = pts (yP c) (qZlo c j) fullShare (Xf m (yP c)) := by
  refine lands_congr (yP c) (qZlo c j) (qZlo c j) fd _ (Xf m c) fun x => heq_of_eq ?_
  refine (Xf_apply m c _).trans (Eq.trans ?_ (Xf_apply m (yP c) _).symm)
  have hx : (x 0).val < 256 := (x 0).isLt
  have hi : j.val < 8 := j.isLt
  have hc : c.val < 16 := c.isLt
  refine blk_at m _ _ ?_ rfl rfl
  show owner c (((qZlo c j).view.emb x : S32768x1024.Idx) 0).val
    = owner (yP c) (((qZlo c j).view.emb x : S32768x1024.Idx) 0).val
  rw [owner_eq, owner_eq, qZlo_row,
    show ((8192 * (c.val / 4 % 2) + 256 * j.val + 20480) - (16384 * (c.val / 8) + 4096 * (c.val % 4 % 2)) + (x 0).val) / 4096
      = 4 * (1 - c.val / 8) + 2 * (c.val / 4 % 2) + (1 - c.val % 4 % 2) by omega]
  exact (ownerQ_ydg c).symm

/-- The second hop to the z partner: the last eight chunks of the quarter c got from its y partner. -/
theorem zdg_lands (c : Dev nD) (j : Fin 8)
    (fd : Buf (Elt F) ((qYhi c j).view.loc ((zP c : Dev nD) : Thread nD τ))) :
    pts (F := F) (zP c) (qYhi c j) fullShare ((qYhi c j).view.write (Elt F) fd ((qYhi c j).view.read (Elt F) (Xf m c)) Finset.univ)
      = pts (zP c) (qYhi c j) fullShare (Xf m (zP c)) := by
  refine lands_congr (zP c) (qYhi c j) (qYhi c j) fd _ (Xf m c) fun x => heq_of_eq ?_
  refine (Xf_apply m c _).trans (Eq.trans ?_ (Xf_apply m (zP c) _).symm)
  have hx : (x 0).val < 256 := (x 0).isLt
  have hi : j.val < 8 := j.isLt
  have hc : c.val < 16 := c.isLt
  refine blk_at m _ _ ?_ rfl rfl
  show owner c (((qYhi c j).view.emb x : S32768x1024.Idx) 0).val
    = owner (zP c) (((qYhi c j).view.emb x : S32768x1024.Idx) 0).val
  rw [owner_eq, owner_eq, qYhi_row,
    show ((4096 * (c.val % 4 % 2) + 256 * j.val + 26624) - (16384 * (c.val / 8) + 8192 * (c.val / 4 % 2)) + (x 0).val) / 4096
      = 4 * (1 - c.val / 8) + 2 * (1 - c.val / 4 % 2) + c.val % 4 % 2 by omega]
  exact (ownerQ_zdg c).symm

end Cert.KernelIdeal.AG

end
-- ==== Proof.AGPay.lean ====
/- What each copy's landing makes of the chunk it writes is what the schedule says the receive end hands over; and the
   chunks a device hands each partner with its entry signal are the ones that partner's copies name. -/
import proofs.«900678_g7700000000000679_dist_ag_v7x_xyz2x2x4_x_m16384_n1024_f32_1_alg».proof.Proof.AGPre
import proofs.«900678_g7700000000000679_dist_ag_v7x_xyz2x2x4_x_m16384_n1024_f32_1_alg».proof.Proof.AGRegions
import proofs.«900678_g7700000000000679_dist_ag_v7x_xyz2x2x4_x_m16384_n1024_f32_1_alg».proof.Proof.AGValues

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Pay
variable (c : Dev nD)

theorem x_pay (i : Fin 16) (fd : Buf (Elt F) ((xDst c i).view.loc ((xP c : Dev nD) : Thread nD τ))) :
    (pts (xP c) (xDst c i) fullShare ((xDst c i).view.write (Elt F) fd ((xSrc c i).view.read (Elt F) (blk m c)) Finset.univ) : sProp 𝕄)
      ⊢ dmaPay m (xP c) (.xr i) 0 := by
  rw [x_lands, dmaPay_xr, pts_xDst]

theorem yd_pay (i : Fin 16) (fd : Buf (Elt F) ((qMine c i).view.loc ((yP c : Dev nD) : Thread nD τ))) :
    (pts (yP c) (qMine c i) fullShare ((qMine c i).view.write (Elt F) fd ((qMine c i).view.read (Elt F) (Xf m c)) Finset.univ) : sProp 𝕄)
      ⊢ dmaPay m (yP c) (.ydr i) 0 := by
  rw [yd_lands, dmaPay_ydr, yP_yP]

theorem zd_pay (i : Fin 16) (fd : Buf (Elt F) ((qMine c i).view.loc ((zP c : Dev nD) : Thread nD τ))) :
    (pts (zP c) (qMine c i) fullShare ((qMine c i).view.write (Elt F) fd ((qMine c i).view.read (Elt F) (Xf m c)) Finset.univ) : sProp 𝕄)
      ⊢ dmaPay m (zP c) (.zdr i) 0 := by
  rw [zd_lands, dmaPay_zdr, zP_zP]

theorem ydg_pay (j : Fin 8) (fd : Buf (Elt F) ((qZlo c j).view.loc ((yP c : Dev nD) : Thread nD τ))) :
    (pts (yP c) (qZlo c j) fullShare ((qZlo c j).view.write (Elt F) fd ((qZlo c j).view.read (Elt F) (Xf m c)) Finset.univ) : sProp 𝕄)
      ⊢ dmaPay m (yP c) (.ydgr j) 0 := by
  rw [ydg_lands, dmaPay_ydgr, yP_yP]

theorem zdg_pay (j : Fin 8) (fd : Buf (Elt F) ((qYhi c j).view.loc ((zP c : Dev nD) : Thread nD τ))) :
    (pts (zP c) (qYhi c j) fullShare ((qYhi c j).view.write (Elt F) fd ((qYhi c j).view.read (Elt F) (Xf m c)) Finset.univ) : sProp 𝕄)
      ⊢ dmaPay m (zP c) (.zdgr j) 0 := by
  rw [zdg_lands, dmaPay_zdgr, zP_zP]

/-- Local chunk n, loaded into rotating buffer n mod 4 in that buffer's round n / 4. -/
theorem ld_pay (n : Fin 16) (k : Fin 4) (r : ℕ) (hn : nOf r k = n) (fd : Buf (Elt F) ((vslot k).view.loc (c : Thread nD τ))) :
    iprop((pts c (vslot k) fullShare ((vslot k).view.write (Elt F) fd ((ldSrc n).view.read (Elt F) (blk m c)) Finset.univ)) ∗ pts c (ldSrc n) qR (blk m c))
      ⊢ (dmaPay m c (.ld k) r : sProp 𝕄) := by
  rw [ld_lands, dmaPay_ld, hn]

theorem st_pay (n : Fin 16) (k : Fin 4) (r : ℕ) (hn : nOf r k = n) (fd : Buf (Elt F) ((stDst c n).view.loc (c : Thread nD τ))) :
    iprop((pts c (stDst c n) fullShare ((stDst c n).view.write (Elt F) fd ((vslot k).view.read (Elt F) (VB m c n)) Finset.univ)) ∗ pts c (vslot k) fullShare (VB m c n))
      ⊢ (dmaPay m c (.st k) r : sProp 𝕄) := by
  rw [st_lands, dmaPay_st, hn]

/-- The quarter a device gets from its x partner, handed to that partner with the entry signal: in the partner's
    numbering its chunks are the destinations of the partner's sixteen copies. -/
theorem mk_barPay_x (f : Buf (Elt F) ((c : Thread nD τ).loc main_v1)) :
    (bigSep Finset.univ fun i : Fin 16 => pts (F := F) c (qMine c i) fullShare f : sProp 𝕄) ⊢ barPay (xP c) 0 := by
  rw [barPay_0, xP_xP]
  refine bigSep_mono fun i _ => ?_
  exact (Entails.of_eq (pts_xDst_xP c c i fullShare f).symm).trans (BIClass.exists_intro (PROP := sProp 𝕄) f)

omit [FloatOps F] in
theorem mk_barPay_y (f : Buf (Elt F) ((c : Thread nD τ).loc main_v1)) :
    iprop((bigSep Finset.univ fun i : Fin 16 => pts (F := F) c (qMine (yP c) i) fullShare f)
      ∗ bigSep Finset.univ fun j : Fin 8 => pts (F := F) c (qZlo (yP c) j) fullShare f) ⊢ (barPay (yP c) 1 : sProp 𝕄) := by
  rw [barPay_1, yP_yP]
  refine BIClass.sep_mono (bigSep_mono fun i _ => ?_) (bigSep_mono fun j _ => ?_)
  · exact BIClass.exists_intro (PROP := sProp 𝕄) f
  · exact BIClass.exists_intro (PROP := sProp 𝕄) f

omit [FloatOps F] in
theorem mk_barPay_z (f : Buf (Elt F) ((c : Thread nD τ).loc main_v1)) :
    iprop((bigSep Finset.univ fun i : Fin 16 => pts (F := F) c (qMine (zP c) i) fullShare f)
      ∗ bigSep Finset.univ fun j : Fin 8 => pts (F := F) c (qYhi (zP c) j) fullShare f) ⊢ (barPay (zP c) 2 : sProp 𝕄) := by
  rw [barPay_2, zP_zP]
  refine BIClass.sep_mono (bigSep_mono fun i _ => ?_) (bigSep_mono fun j _ => ?_)
  · exact BIClass.exists_intro (PROP := sProp 𝕄) f
  · exact BIClass.exists_intro (PROP := sProp 𝕄) f

end Pay

end Cert.KernelIdeal.AG

end
-- ==== Proof.AGLevels.lean ====
/- Every wait of the kernel is allowed.

   A device pays in a fixed order: a unit on each partner's barrier cell (payments 0 to 2), the credit of its sixteen
   chunks on the x partner's receive cells (3 to 18), the thirty-two forwarded chunks on the y and z partners' forward
   receive cells (19 to 50), the sixteen second-hop chunks on their second-hop receive cells (51 to 66). The cells'
   levels rise along that order: 1, 2, 3, 4. Before payment k the device owes exactly the payments from k on, so
   everything it owes sits at level at least that of payment k. A wait on one of its own cells is therefore allowed as
   soon as that cell's level is strictly below the level of payment k, or when nothing is owed any more. -/
import proofs.«900678_g7700000000000679_dist_ag_v7x_xyz2x2x4_x_m16384_n1024_f32_1_alg».proof.Proof.AGState

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is owed is made of the payments still to come -/

/-- A cell at which something is owed before payment k, with n payments left, is the cell of one of the payments
    k, …, k + n - 1. -/
theorem owed_pos {c : Dev nD} {n k : ℕ} {g : GSem nD τ sig} {u : Unit} (h : 0 < owedN c n k g u) :
    ∃ j, k ≤ j ∧ j < k + n ∧ g = (ev c j).1 := by
  induction n generalizing k with
  | zero => exact absurd h (Nat.lt_irrefl 0)
  | succ n ih =>
    change 0 < (owedN c n (k + 1) + tallyAt (ev c k).1 () (ev c k).2) g u at h
    rw [Pi.add_apply, Finsupp.add_apply, tallyAt_apply] at h
    by_cases hg : g = (ev c k).1 ∧ u = ()
    · exact ⟨k, le_refl k, by omega, hg.1⟩
    · rw [if_neg hg, Nat.add_zero] at h
      obtain ⟨j, h1, h2, h3⟩ := ih (k := k + 1) h
      exact ⟨j, by omega, by omega, h3⟩

/-! ## The levels of the payments' cells -/

/-- Every payment goes to a TensorCore's cell. -/
theorem ev_tc (c : Dev nD) (j : ℕ) : L (ev c j).1 = {()} := by
  unfold ev; split_ifs <;> exact if_pos rfl

/-- A barrier cell sits at level 1. -/
theorem lv_bar (d : Dev nD) (u : Unit) : lv (barCell d) u = 1 := rfl

/-- A DMA semaphore's cell sits at the level of its role. -/
theorem lv_kcell (d : Dev nD) (x : Cls) (u : Unit) : lv (kcell d x) u = clsLv x := by
  show clsLv (decode (code x)) = clsLv x; rw [decode_code]

/-- The cell of payment j sits at level evLv j: a barrier cell for the first three, an x receive cell for the next
    sixteen, a forward receive cell for the next thirty-two, a second-hop receive cell after. -/
theorem ev_lv (c : Dev nD) (j : ℕ) (hj : j < 67) : lv (ev c j).1 () = evLv j := by
  unfold ev evLv
  by_cases h3 : j < 3
  · rw [if_pos h3, if_pos h3]
    by_cases h0 : j = 0
    · rw [if_pos h0]; exact lv_bar _ _
    · rw [if_neg h0]
      by_cases h1 : j = 1
      · rw [if_pos h1]; exact lv_bar _ _
      · rw [if_neg h1]; exact lv_bar _ _
  · rw [if_neg h3, if_neg h3]
    by_cases h19 : j < 19
    · rw [if_pos h19, if_pos h19]; exact lv_kcell _ _ _
    · rw [if_neg h19, if_neg h19]
      by_cases h51 : j < 51
      · rw [if_pos h51, if_pos h51]
        by_cases hp : (j - 19) % 2 = 0
        · rw [if_pos hp]; exact lv_kcell _ _ _
        · rw [if_neg hp]; exact lv_kcell _ _ _
      · rw [if_neg h51, if_neg h51]
        by_cases hp : (j - 51) % 2 = 0
        · rw [if_pos hp]; exact lv_kcell _ _ _
        · rw [if_neg hp]; exact lv_kcell _ _ _

/-- The levels rise along the order of payment. -/
theorem evLv_mono {j k : ℕ} (h : k ≤ j) : evLv k ≤ evLv j := by
  unfold evLv; split_ifs <;> omega

/-! ## The waits -/

omit [FloatOps F] in
/-- a wait on the device's own DMA semaphore of role x, before payment k, with n = 67 - k payments left -/
theorem mayWait_cell (c : Dev nD) (x : Cls) (n k : ℕ) (hnk : n + k = 67) (h : n = 0 ∨ clsLv x < evLv k) :
    (levAts L lv : sProp 𝕄) ⊢ MayWait (c : Thread nD τ) (.dma (code x)) () (owedN c n k) := by
  rcases h with rfl | h
  · have e : owedN c 0 k = 0 := rfl
    rw [e, MayWait_zero]; iintro -; iempintro
  · refine MayOwe.of_cut (L := L) (lev := lv) (clsLv x)
      (fun p hp => by rw [Finset.mem_singleton.mp hp, L_tc]; exact Finset.mem_singleton_self _)
      (fun g u hg => by
        obtain ⟨j, _, _, rfl⟩ := owed_pos hg
        rw [ev_tc]; exact Finset.mem_singleton_self _)
      (fun p hp => by rw [Finset.mem_singleton.mp hp]; exact le_of_eq (lv_kcell c x ()))
      (fun g u hg => by
        obtain ⟨j, hkj, hjn, rfl⟩ := owed_pos hg
        show clsLv x < lv (ev c j).1 ()
        rw [ev_lv c j (by omega)]
        exact lt_of_lt_of_le h (evLv_mono hkj))

omit [FloatOps F] in
/-- the entry wait on the barrier cell, after the three signals, owing the sixty-four copies' credit -/
theorem mayWait_bar (c : Dev nD) : (levAts L lv : sProp 𝕄) ⊢ MayWait (c : Thread nD τ) (.reg barS) () (owedN c 64 3) := by
  refine MayOwe.of_cut (L := L) (lev := lv) 1
    (fun p hp => by rw [Finset.mem_singleton.mp hp, L_tc]; exact Finset.mem_singleton_self _)
    (fun g u hg => by
      obtain ⟨j, _, _, rfl⟩ := owed_pos hg
      rw [ev_tc]; exact Finset.mem_singleton_self _)
    (fun p hp => by rw [Finset.mem_singleton.mp hp]; exact le_of_eq (lv_bar c ()))
    (fun g u hg => by
      obtain ⟨j, hkj, hjn, rfl⟩ := owed_pos hg
      show 1 < lv (ev c j).1 ()
      rw [ev_lv c j (by omega)]
      exact lt_of_lt_of_le (by decide : 1 < evLv 3) (evLv_mono hkj))

end Cert.KernelIdeal.AG

end
-- ==== Proof.AGCls.lean ====
/- A product over all the roles of a device's DMA semaphores, family by family.

   The roles fall into twelve families: the loads and the stores by rotating buffer, the send and the receive ends of
   the x copies, of the y forwards and of the z forwards by chunk, and of the second-hop y and z copies by chunk. A
   role is exactly a family and an index in it, so the roles are in one-to-one correspondence with the disjoint sum of
   the twelve index ranges, and a separating product over all roles is the product of the twelve families' products. -/
import proofs.«900678_g7700000000000679_dist_ag_v7x_xyz2x2x4_x_m16384_n1024_f32_1_alg».proof.Proof.AGState

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A role is a family and an index in it: the roles correspond one to one to the disjoint sum of the twelve index
    ranges, in the order load, store, x send, x receive, y forward send, y forward receive, z forward send, z forward
    receive, second-hop y send, second-hop y receive, second-hop z send, second-hop z receive. -/
def clsEquiv : (Fin 4 ⊕ Fin 4 ⊕ Fin 16 ⊕ Fin 16 ⊕ Fin 16 ⊕ Fin 16 ⊕ Fin 16 ⊕ Fin 16 ⊕ Fin 8 ⊕ Fin 8 ⊕ Fin 8 ⊕ Fin 8) ≃ Cls where
  toFun
    | .inl k => .ld k
    | .inr (.inl k) => .st k
    | .inr (.inr (.inl i)) => .xs i
    | .inr (.inr (.inr (.inl i))) => .xr i
    | .inr (.inr (.inr (.inr (.inl i)))) => .yds i
    | .inr (.inr (.inr (.inr (.inr (.inl i))))) => .ydr i
    | .inr (.inr (.inr (.inr (.inr (.inr (.inl i)))))) => .zds i
    | .inr (.inr (.inr (.inr (.inr (.inr (.inr (.inl i))))))) => .zdr i
    | .inr (.inr (.inr (.inr (.inr (.inr (.inr (.inr (.inl j)))))))) => .ydgs j
    | .inr (.inr (.inr (.inr (.inr (.inr (.inr (.inr (.inr (.inl j))))))))) => .ydgr j
    | .inr (.inr (.inr (.inr (.inr (.inr (.inr (.inr (.inr (.inr (.inl j)))))))))) => .zdgs j
    | .inr (.inr (.inr (.inr (.inr (.inr (.inr (.inr (.inr (.inr (.inr j)))))))))) => .zdgr j
  invFun
    | .ld k => .inl k
    | .st k => .inr (.inl k)
    | .xs i => .inr (.inr (.inl i))
    | .xr i => .inr (.inr (.inr (.inl i)))
    | .yds i => .inr (.inr (.inr (.inr (.inl i))))
    | .ydr i => .inr (.inr (.inr (.inr (.inr (.inl i)))))
    | .zds i => .inr (.inr (.inr (.inr (.inr (.inr (.inl i))))))
    | .zdr i => .inr (.inr (.inr (.inr (.inr (.inr (.inr (.inl i)))))))
    | .ydgs j => .inr (.inr (.inr (.inr (.inr (.inr (.inr (.inr (.inl j))))))))
    | .ydgr j => .inr (.inr (.inr (.inr (.inr (.inr (.inr (.inr (.inr (.inl j)))))))))
    | .zdgs j => .inr (.inr (.inr (.inr (.inr (.inr (.inr (.inr (.inr (.inr (.inl j))))))))))
    | .zdgr j => .inr (.inr (.inr (.inr (.inr (.inr (.inr (.inr (.inr (.inr (.inr j))))))))))
  left_inv s := by
    rcases s with k | k | i | i | i | i | i | i | j | j | j | j <;> rfl
  right_inv x := by cases x <;> rfl

omit [FloatOps F] in
/-- A product over all roles is the product, family by family, over the indices of each family. -/
theorem bigSep_cls (Φ : Cls → sProp 𝕄) : bigSep Finset.univ Φ = iprop((bigSep Finset.univ fun k : Fin 4 => Φ (.ld k))
      ∗ (bigSep Finset.univ fun k : Fin 4 => Φ (.st k))
      ∗ (bigSep Finset.univ fun i : Fin 16 => Φ (.xs i))
      ∗ (bigSep Finset.univ fun i : Fin 16 => Φ (.xr i))
      ∗ (bigSep Finset.univ fun i : Fin 16 => Φ (.yds i))
      ∗ (bigSep Finset.univ fun i : Fin 16 => Φ (.ydr i))
      ∗ (bigSep Finset.univ fun i : Fin 16 => Φ (.zds i))
      ∗ (bigSep Finset.univ fun i : Fin 16 => Φ (.zdr i))
      ∗ (bigSep Finset.univ fun j : Fin 8 => Φ (.ydgs j))
      ∗ (bigSep Finset.univ fun j : Fin 8 => Φ (.ydgr j))
      ∗ (bigSep Finset.univ fun j : Fin 8 => Φ (.zdgs j))
      ∗ (bigSep Finset.univ fun j : Fin 8 => Φ (.zdgr j))) := by
  rw [bigSep_univ_equiv clsEquiv Φ]
  rw [bigSep_univ_sum, bigSep_univ_sum, bigSep_univ_sum, bigSep_univ_sum, bigSep_univ_sum, bigSep_univ_sum,
    bigSep_univ_sum, bigSep_univ_sum, bigSep_univ_sum, bigSep_univ_sum, bigSep_univ_sum]
  rfl

omit [FloatOps F] in
/-- A product over the pairs (rotating buffer, round) is the product over the buffers of the products over the rounds. -/
theorem bigSep_fin4x4 (Φ : Fin 4 × Fin 4 → sProp 𝕄) :
    bigSep Finset.univ Φ = bigSep Finset.univ fun k : Fin 4 => bigSep Finset.univ fun r : Fin 4 => Φ (k, r) :=
  bigSep_univ_prod Φ

end Cert.KernelIdeal.AG

end
-- ==== Proof.AGCredit.lean ====
/- A 256-row chunk of the block is worth what a 256-row chunk of the result is: a copy's credit counts the chunk's shape and
   element type, not which array it lies in. -/
import proofs.«900678_g7700000000000679_dist_ag_v7x_xyz2x2x4_x_m16384_n1024_f32_1_alg».proof.Proof.AGCore

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem credit_xSrc (c : Dev nD) (i : Fin 16) : (xSrc c i).view.dmaCredit = N256 := by
  unfold N256; rfl

end Cert.KernelIdeal.AG

end
-- ==== Proof.AGBody.lean ====
/- A device's whole body, from what it holds at the start to what it holds at the end: the entry handshake, the sixteen
   copies to the x partner, the local chunks through the rotating buffers interleaved with the forwarding of each chunk
   as it lands, the second-hop copies, and the closing waits; then every cell is closed and the buffers are put together
   again. Each step is one of the rules of the steps' module at the step's own cells and chunks. -/
import proofs.«900678_g7700000000000679_dist_ag_v7x_xyz2x2x4_x_m16384_n1024_f32_1_alg».proof.Proof.AGPay
import proofs.«900678_g7700000000000679_dist_ag_v7x_xyz2x2x4_x_m16384_n1024_f32_1_alg».proof.Proof.AGLevels
import proofs.«900678_g7700000000000679_dist_ag_v7x_xyz2x2x4_x_m16384_n1024_f32_1_alg».proof.Proof.AGCls
import proofs.«900678_g7700000000000679_dist_ag_v7x_xyz2x2x4_x_m16384_n1024_f32_1_alg».proof.Proof.AGCredit
import proofs.«900678_g7700000000000679_dist_ag_v7x_xyz2x2x4_x_m16384_n1024_f32_1_alg».proof.Proof.Gen.KernelIdeal.Skeleton
import proofs.«900678_g7700000000000679_dist_ag_v7x_xyz2x2x4_x_m16384_n1024_f32_1_alg».proof.Proof.Gen.KernelIdeal.Points

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 40000000 in
set_option maxRecDepth 65536 in
theorem sound_body (c : Dev nD) (K : Dev nD × Option Cls → ℕ) (Kt : PUnit → sProp 𝕄) :
    iprop((ghost m K c ∗ creds c ∗ levAts L lv
          ∗ (((c : Thread nD τ).loc main_arg0) ↦{fullShare} blk m c)
          ∗ (∃ f, ((c : Thread nD τ).loc main_v1) ↦{fullShare} f)
          ∗ (∃ g, ((c : Thread nD τ).loc cc0_scratch0) ↦{fullShare} g))
        ∗ (∃ W, owes (c : Thread nD τ) (O₀ c) W)
        ∗ ((Φ₁ m c ∗ ∃ W, owes (c : Thread nD τ) 0 W) -∗ Kt ⟨⟩))
      ⊢ wp frame (wpE (defs₀ (F := F)) 𝒱₀ (c : Thread nD τ) none) Set.univ (cc0_body (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12) Kt := by
  unfold ghost positions payToks creds
  iintro ⟨⟨⟨#HRec, ⟨HAb, HApos⟩, ⟨HTbx, HTby, HTbz, HTx, HTyd, HTzd, HTydg, HTzdg, HTloc⟩⟩, ⟨HCb, HCxr, HCydr, HCzdr, HCydgr, HCzdgr⟩, #Hlev, HBin, ⟨%f0, HBout⟩, ⟨%g0, HBvb⟩⟩, ⟨%W0, HO⟩, Hk⟩
  -- the device's positions, role by role
  ihave HApos := (Entails.of_eq (bigSep_cls _)) $$ HApos
  icases HApos with ⟨HA_ld, HA_st, HA_xs, HA_xr, HA_yds, HA_ydr, HA_zds, HA_zdr, HA_ydgs, HA_ydgr, HA_zdgs, HA_zdgr⟩
  ihave HA_ld := (Entails.of_eq (bigSep_fin4 _)) $$ HA_ld
  icases HA_ld with ⟨HA_ld0, HA_ld1, HA_ld2, HA_ld3⟩
  ihave HA_st := (Entails.of_eq (bigSep_fin4 _)) $$ HA_st
  icases HA_st with ⟨HA_st0, HA_st1, HA_st2, HA_st3⟩
  ihave HA_xs := (Entails.of_eq (bigSep_fin16 _)) $$ HA_xs
  icases HA_xs with ⟨HA_xs0, HA_xs1, HA_xs2, HA_xs3, HA_xs4, HA_xs5, HA_xs6, HA_xs7, HA_xs8, HA_xs9, HA_xs10, HA_xs11, HA_xs12, HA_xs13, HA_xs14, HA_xs15⟩
  ihave HA_xr := (Entails.of_eq (bigSep_fin16 _)) $$ HA_xr
  icases HA_xr with ⟨HA_xr0, HA_xr1, HA_xr2, HA_xr3, HA_xr4, HA_xr5, HA_xr6, HA_xr7, HA_xr8, HA_xr9, HA_xr10, HA_xr11, HA_xr12, HA_xr13, HA_xr14, HA_xr15⟩
  ihave HA_yds := (Entails.of_eq (bigSep_fin16 _)) $$ HA_yds
  icases HA_yds with ⟨HA_yds0, HA_yds1, HA_yds2, HA_yds3, HA_yds4, HA_yds5, HA_yds6, HA_yds7, HA_yds8, HA_yds9, HA_yds10, HA_yds11, HA_yds12, HA_yds13, HA_yds14, HA_yds15⟩
  ihave HA_ydr := (Entails.of_eq (bigSep_fin16 _)) $$ HA_ydr
  icases HA_ydr with ⟨HA_ydr0, HA_ydr1, HA_ydr2, HA_ydr3, HA_ydr4, HA_ydr5, HA_ydr6, HA_ydr7, HA_ydr8, HA_ydr9, HA_ydr10, HA_ydr11, HA_ydr12, HA_ydr13, HA_ydr14, HA_ydr15⟩
  ihave HA_zds := (Entails.of_eq (bigSep_fin16 _)) $$ HA_zds
  icases HA_zds with ⟨HA_zds0, HA_zds1, HA_zds2, HA_zds3, HA_zds4, HA_zds5, HA_zds6, HA_zds7, HA_zds8, HA_zds9, HA_zds10, HA_zds11, HA_zds12, HA_zds13, HA_zds14, HA_zds15⟩
  ihave HA_zdr := (Entails.of_eq (bigSep_fin16 _)) $$ HA_zdr
  icases HA_zdr with ⟨HA_zdr0, HA_zdr1, HA_zdr2, HA_zdr3, HA_zdr4, HA_zdr5, HA_zdr6, HA_zdr7, HA_zdr8, HA_zdr9, HA_zdr10, HA_zdr11, HA_zdr12, HA_zdr13, HA_zdr14, HA_zdr15⟩
  ihave HA_ydgs := (Entails.of_eq (bigSep_fin8 _)) $$ HA_ydgs
  icases HA_ydgs with ⟨HA_ydgs0, HA_ydgs1, HA_ydgs2, HA_ydgs3, HA_ydgs4, HA_ydgs5, HA_ydgs6, HA_ydgs7⟩
  ihave HA_ydgr := (Entails.of_eq (bigSep_fin8 _)) $$ HA_ydgr
  icases HA_ydgr with ⟨HA_ydgr0, HA_ydgr1, HA_ydgr2, HA_ydgr3, HA_ydgr4, HA_ydgr5, HA_ydgr6, HA_ydgr7⟩
  ihave HA_zdgs := (Entails.of_eq (bigSep_fin8 _)) $$ HA_zdgs
  icases HA_zdgs with ⟨HA_zdgs0, HA_zdgs1, HA_zdgs2, HA_zdgs3, HA_zdgs4, HA_zdgs5, HA_zdgs6, HA_zdgs7⟩
  ihave HA_zdgr := (Entails.of_eq (bigSep_fin8 _)) $$ HA_zdgr
  icases HA_zdgr with ⟨HA_zdgr0, HA_zdgr1, HA_zdgr2, HA_zdgr3, HA_zdgr4, HA_zdgr5, HA_zdgr6, HA_zdgr7⟩
  -- the tokens of the duties it pays
  ihave HTx := (Entails.of_eq (bigSep_fin16 _)) $$ HTx
  icases HTx with ⟨⟨HT_xs0, HU_xr0⟩, ⟨HT_xs1, HU_xr1⟩, ⟨HT_xs2, HU_xr2⟩, ⟨HT_xs3, HU_xr3⟩, ⟨HT_xs4, HU_xr4⟩, ⟨HT_xs5, HU_xr5⟩, ⟨HT_xs6, HU_xr6⟩, ⟨HT_xs7, HU_xr7⟩, ⟨HT_xs8, HU_xr8⟩, ⟨HT_xs9, HU_xr9⟩, ⟨HT_xs10, HU_xr10⟩, ⟨HT_xs11, HU_xr11⟩, ⟨HT_xs12, HU_xr12⟩, ⟨HT_xs13, HU_xr13⟩, ⟨HT_xs14, HU_xr14⟩, ⟨HT_xs15, HU_xr15⟩⟩
  ihave HTyd := (Entails.of_eq (bigSep_fin16 _)) $$ HTyd
  icases HTyd with ⟨⟨HT_yds0, HU_ydr0⟩, ⟨HT_yds1, HU_ydr1⟩, ⟨HT_yds2, HU_ydr2⟩, ⟨HT_yds3, HU_ydr3⟩, ⟨HT_yds4, HU_ydr4⟩, ⟨HT_yds5, HU_ydr5⟩, ⟨HT_yds6, HU_ydr6⟩, ⟨HT_yds7, HU_ydr7⟩, ⟨HT_yds8, HU_ydr8⟩, ⟨HT_yds9, HU_ydr9⟩, ⟨HT_yds10, HU_ydr10⟩, ⟨HT_yds11, HU_ydr11⟩, ⟨HT_yds12, HU_ydr12⟩, ⟨HT_yds13, HU_ydr13⟩, ⟨HT_yds14, HU_ydr14⟩, ⟨HT_yds15, HU_ydr15⟩⟩
  ihave HTzd := (Entails.of_eq (bigSep_fin16 _)) $$ HTzd
  icases HTzd with ⟨⟨HT_zds0, HU_zdr0⟩, ⟨HT_zds1, HU_zdr1⟩, ⟨HT_zds2, HU_zdr2⟩, ⟨HT_zds3, HU_zdr3⟩, ⟨HT_zds4, HU_zdr4⟩, ⟨HT_zds5, HU_zdr5⟩, ⟨HT_zds6, HU_zdr6⟩, ⟨HT_zds7, HU_zdr7⟩, ⟨HT_zds8, HU_zdr8⟩, ⟨HT_zds9, HU_zdr9⟩, ⟨HT_zds10, HU_zdr10⟩, ⟨HT_zds11, HU_zdr11⟩, ⟨HT_zds12, HU_zdr12⟩, ⟨HT_zds13, HU_zdr13⟩, ⟨HT_zds14, HU_zdr14⟩, ⟨HT_zds15, HU_zdr15⟩⟩
  ihave HTydg := (Entails.of_eq (bigSep_fin8 _)) $$ HTydg
  icases HTydg with ⟨⟨HT_ydgs0, HU_ydgr0⟩, ⟨HT_ydgs1, HU_ydgr1⟩, ⟨HT_ydgs2, HU_ydgr2⟩, ⟨HT_ydgs3, HU_ydgr3⟩, ⟨HT_ydgs4, HU_ydgr4⟩, ⟨HT_ydgs5, HU_ydgr5⟩, ⟨HT_ydgs6, HU_ydgr6⟩, ⟨HT_ydgs7, HU_ydgr7⟩⟩
  ihave HTzdg := (Entails.of_eq (bigSep_fin8 _)) $$ HTzdg
  icases HTzdg with ⟨⟨HT_zdgs0, HU_zdgr0⟩, ⟨HT_zdgs1, HU_zdgr1⟩, ⟨HT_zdgs2, HU_zdgr2⟩, ⟨HT_zdgs3, HU_zdgr3⟩, ⟨HT_zdgs4, HU_zdgr4⟩, ⟨HT_zdgs5, HU_zdgr5⟩, ⟨HT_zdgs6, HU_zdgr6⟩, ⟨HT_zdgs7, HU_zdgr7⟩⟩
  ihave HTloc := (Entails.of_eq ((bigSep_fin4x4 _).trans (bigSep_fin4 _))) $$ HTloc
  icases HTloc with ⟨HTloc0, HTloc1, HTloc2, HTloc3⟩
  ihave HTloc0 := (Entails.of_eq (bigSep_fin4 _)) $$ HTloc0
  icases HTloc0 with ⟨⟨HT_ld0_0, HT_st0_0⟩, ⟨HT_ld0_1, HT_st0_1⟩, ⟨HT_ld0_2, HT_st0_2⟩, ⟨HT_ld0_3, HT_st0_3⟩⟩
  ihave HTloc1 := (Entails.of_eq (bigSep_fin4 _)) $$ HTloc1
  icases HTloc1 with ⟨⟨HT_ld1_0, HT_st1_0⟩, ⟨HT_ld1_1, HT_st1_1⟩, ⟨HT_ld1_2, HT_st1_2⟩, ⟨HT_ld1_3, HT_st1_3⟩⟩
  ihave HTloc2 := (Entails.of_eq (bigSep_fin4 _)) $$ HTloc2
  icases HTloc2 with ⟨⟨HT_ld2_0, HT_st2_0⟩, ⟨HT_ld2_1, HT_st2_1⟩, ⟨HT_ld2_2, HT_st2_2⟩, ⟨HT_ld2_3, HT_st2_3⟩⟩
  ihave HTloc3 := (Entails.of_eq (bigSep_fin4 _)) $$ HTloc3
  icases HTloc3 with ⟨⟨HT_ld3_0, HT_st3_0⟩, ⟨HT_ld3_1, HT_st3_1⟩, ⟨HT_ld3_2, HT_st3_2⟩, ⟨HT_ld3_3, HT_st3_3⟩⟩
  -- the credit tokens for what the partners owe it
  ihave HCxr := (Entails.of_eq (bigSep_fin16 _)) $$ HCxr
  icases HCxr with ⟨HC_xr0, HC_xr1, HC_xr2, HC_xr3, HC_xr4, HC_xr5, HC_xr6, HC_xr7, HC_xr8, HC_xr9, HC_xr10, HC_xr11, HC_xr12, HC_xr13, HC_xr14, HC_xr15⟩
  ihave HCydr := (Entails.of_eq (bigSep_fin16 _)) $$ HCydr
  icases HCydr with ⟨HC_ydr0, HC_ydr1, HC_ydr2, HC_ydr3, HC_ydr4, HC_ydr5, HC_ydr6, HC_ydr7, HC_ydr8, HC_ydr9, HC_ydr10, HC_ydr11, HC_ydr12, HC_ydr13, HC_ydr14, HC_ydr15⟩
  ihave HCzdr := (Entails.of_eq (bigSep_fin16 _)) $$ HCzdr
  icases HCzdr with ⟨HC_zdr0, HC_zdr1, HC_zdr2, HC_zdr3, HC_zdr4, HC_zdr5, HC_zdr6, HC_zdr7, HC_zdr8, HC_zdr9, HC_zdr10, HC_zdr11, HC_zdr12, HC_zdr13, HC_zdr14, HC_zdr15⟩
  ihave HCydgr := (Entails.of_eq (bigSep_fin8 _)) $$ HCydgr
  icases HCydgr with ⟨HC_ydgr0, HC_ydgr1, HC_ydgr2, HC_ydgr3, HC_ydgr4, HC_ydgr5, HC_ydgr6, HC_ydgr7⟩
  ihave HCzdgr := (Entails.of_eq (bigSep_fin8 _)) $$ HCzdgr
  icases HCzdgr with ⟨HC_zdgr0, HC_zdgr1, HC_zdgr2, HC_zdgr3, HC_zdgr4, HC_zdgr5, HC_zdgr6, HC_zdgr7⟩
  -- the invariants and first rounds of the cells it touches
  ihave #HIb := (inv_at m K (c, none)) $$ HRec
  ihave #HJbx := (inv_at m K (xP c, none)) $$ HRec
  ihave #HQbx := (reached_at m K (xP c, none)) $$ HRec
  ihave #HJby := (inv_at m K (yP c, none)) $$ HRec
  ihave #HQby := (reached_at m K (yP c, none)) $$ HRec
  ihave #HJbz := (inv_at m K (zP c, none)) $$ HRec
  ihave #HQbz := (reached_at m K (zP c, none)) $$ HRec
  ihave #HI_ld0 := (inv_at m K (c, some (.ld 0))) $$ HRec
  ihave #HR_ld0 := (reached_at m K (c, some (.ld 0))) $$ HRec
  ihave #HI_ld1 := (inv_at m K (c, some (.ld 1))) $$ HRec
  ihave #HR_ld1 := (reached_at m K (c, some (.ld 1))) $$ HRec
  ihave #HI_ld2 := (inv_at m K (c, some (.ld 2))) $$ HRec
  ihave #HR_ld2 := (reached_at m K (c, some (.ld 2))) $$ HRec
  ihave #HI_ld3 := (inv_at m K (c, some (.ld 3))) $$ HRec
  ihave #HR_ld3 := (reached_at m K (c, some (.ld 3))) $$ HRec
  ihave #HI_st0 := (inv_at m K (c, some (.st 0))) $$ HRec
  ihave #HR_st0 := (reached_at m K (c, some (.st 0))) $$ HRec
  ihave #HI_st1 := (inv_at m K (c, some (.st 1))) $$ HRec
  ihave #HR_st1 := (reached_at m K (c, some (.st 1))) $$ HRec
  ihave #HI_st2 := (inv_at m K (c, some (.st 2))) $$ HRec
  ihave #HR_st2 := (reached_at m K (c, some (.st 2))) $$ HRec
  ihave #HI_st3 := (inv_at m K (c, some (.st 3))) $$ HRec
  ihave #HR_st3 := (reached_at m K (c, some (.st 3))) $$ HRec
  ihave #HI_xs0 := (inv_at m K (c, some (.xs 0))) $$ HRec
  ihave #HR_xs0 := (reached_at m K (c, some (.xs 0))) $$ HRec
  ihave #HI_xs1 := (inv_at m K (c, some (.xs 1))) $$ HRec
  ihave #HR_xs1 := (reached_at m K (c, some (.xs 1))) $$ HRec
  ihave #HI_xs2 := (inv_at m K (c, some (.xs 2))) $$ HRec
  ihave #HR_xs2 := (reached_at m K (c, some (.xs 2))) $$ HRec
  ihave #HI_xs3 := (inv_at m K (c, some (.xs 3))) $$ HRec
  ihave #HR_xs3 := (reached_at m K (c, some (.xs 3))) $$ HRec
  ihave #HI_xs4 := (inv_at m K (c, some (.xs 4))) $$ HRec
  ihave #HR_xs4 := (reached_at m K (c, some (.xs 4))) $$ HRec
  ihave #HI_xs5 := (inv_at m K (c, some (.xs 5))) $$ HRec
  ihave #HR_xs5 := (reached_at m K (c, some (.xs 5))) $$ HRec
  ihave #HI_xs6 := (inv_at m K (c, some (.xs 6))) $$ HRec
  ihave #HR_xs6 := (reached_at m K (c, some (.xs 6))) $$ HRec
  ihave #HI_xs7 := (inv_at m K (c, some (.xs 7))) $$ HRec
  ihave #HR_xs7 := (reached_at m K (c, some (.xs 7))) $$ HRec
  ihave #HI_xs8 := (inv_at m K (c, some (.xs 8))) $$ HRec
  ihave #HR_xs8 := (reached_at m K (c, some (.xs 8))) $$ HRec
  ihave #HI_xs9 := (inv_at m K (c, some (.xs 9))) $$ HRec
  ihave #HR_xs9 := (reached_at m K (c, some (.xs 9))) $$ HRec
  ihave #HI_xs10 := (inv_at m K (c, some (.xs 10))) $$ HRec
  ihave #HR_xs10 := (reached_at m K (c, some (.xs 10))) $$ HRec
  ihave #HI_xs11 := (inv_at m K (c, some (.xs 11))) $$ HRec
  ihave #HR_xs11 := (reached_at m K (c, some (.xs 11))) $$ HRec
  ihave #HI_xs12 := (inv_at m K (c, some (.xs 12))) $$ HRec
  ihave #HR_xs12 := (reached_at m K (c, some (.xs 12))) $$ HRec
  ihave #HI_xs13 := (inv_at m K (c, some (.xs 13))) $$ HRec
  ihave #HR_xs13 := (reached_at m K (c, some (.xs 13))) $$ HRec
  ihave #HI_xs14 := (inv_at m K (c, some (.xs 14))) $$ HRec
  ihave #HR_xs14 := (reached_at m K (c, some (.xs 14))) $$ HRec
  ihave #HI_xs15 := (inv_at m K (c, some (.xs 15))) $$ HRec
  ihave #HR_xs15 := (reached_at m K (c, some (.xs 15))) $$ HRec
  ihave #HI_xr0 := (inv_at m K (c, some (.xr 0))) $$ HRec
  ihave #HI_xr1 := (inv_at m K (c, some (.xr 1))) $$ HRec
  ihave #HI_xr2 := (inv_at m K (c, some (.xr 2))) $$ HRec
  ihave #HI_xr3 := (inv_at m K (c, some (.xr 3))) $$ HRec
  ihave #HI_xr4 := (inv_at m K (c, some (.xr 4))) $$ HRec
  ihave #HI_xr5 := (inv_at m K (c, some (.xr 5))) $$ HRec
  ihave #HI_xr6 := (inv_at m K (c, some (.xr 6))) $$ HRec
  ihave #HI_xr7 := (inv_at m K (c, some (.xr 7))) $$ HRec
  ihave #HI_xr8 := (inv_at m K (c, some (.xr 8))) $$ HRec
  ihave #HI_xr9 := (inv_at m K (c, some (.xr 9))) $$ HRec
  ihave #HI_xr10 := (inv_at m K (c, some (.xr 10))) $$ HRec
  ihave #HI_xr11 := (inv_at m K (c, some (.xr 11))) $$ HRec
  ihave #HI_xr12 := (inv_at m K (c, some (.xr 12))) $$ HRec
  ihave #HI_xr13 := (inv_at m K (c, some (.xr 13))) $$ HRec
  ihave #HI_xr14 := (inv_at m K (c, some (.xr 14))) $$ HRec
  ihave #HI_xr15 := (inv_at m K (c, some (.xr 15))) $$ HRec
  ihave #HI_yds0 := (inv_at m K (c, some (.yds 0))) $$ HRec
  ihave #HR_yds0 := (reached_at m K (c, some (.yds 0))) $$ HRec
  ihave #HI_yds1 := (inv_at m K (c, some (.yds 1))) $$ HRec
  ihave #HR_yds1 := (reached_at m K (c, some (.yds 1))) $$ HRec
  ihave #HI_yds2 := (inv_at m K (c, some (.yds 2))) $$ HRec
  ihave #HR_yds2 := (reached_at m K (c, some (.yds 2))) $$ HRec
  ihave #HI_yds3 := (inv_at m K (c, some (.yds 3))) $$ HRec
  ihave #HR_yds3 := (reached_at m K (c, some (.yds 3))) $$ HRec
  ihave #HI_yds4 := (inv_at m K (c, some (.yds 4))) $$ HRec
  ihave #HR_yds4 := (reached_at m K (c, some (.yds 4))) $$ HRec
  ihave #HI_yds5 := (inv_at m K (c, some (.yds 5))) $$ HRec
  ihave #HR_yds5 := (reached_at m K (c, some (.yds 5))) $$ HRec
  ihave #HI_yds6 := (inv_at m K (c, some (.yds 6))) $$ HRec
  ihave #HR_yds6 := (reached_at m K (c, some (.yds 6))) $$ HRec
  ihave #HI_yds7 := (inv_at m K (c, some (.yds 7))) $$ HRec
  ihave #HR_yds7 := (reached_at m K (c, some (.yds 7))) $$ HRec
  ihave #HI_yds8 := (inv_at m K (c, some (.yds 8))) $$ HRec
  ihave #HR_yds8 := (reached_at m K (c, some (.yds 8))) $$ HRec
  ihave #HI_yds9 := (inv_at m K (c, some (.yds 9))) $$ HRec
  ihave #HR_yds9 := (reached_at m K (c, some (.yds 9))) $$ HRec
  ihave #HI_yds10 := (inv_at m K (c, some (.yds 10))) $$ HRec
  ihave #HR_yds10 := (reached_at m K (c, some (.yds 10))) $$ HRec
  ihave #HI_yds11 := (inv_at m K (c, some (.yds 11))) $$ HRec
  ihave #HR_yds11 := (reached_at m K (c, some (.yds 11))) $$ HRec
  ihave #HI_yds12 := (inv_at m K (c, some (.yds 12))) $$ HRec
  ihave #HR_yds12 := (reached_at m K (c, some (.yds 12))) $$ HRec
  ihave #HI_yds13 := (inv_at m K (c, some (.yds 13))) $$ HRec
  ihave #HR_yds13 := (reached_at m K (c, some (.yds 13))) $$ HRec
  ihave #HI_yds14 := (inv_at m K (c, some (.yds 14))) $$ HRec
  ihave #HR_yds14 := (reached_at m K (c, some (.yds 14))) $$ HRec
  ihave #HI_yds15 := (inv_at m K (c, some (.yds 15))) $$ HRec
  ihave #HR_yds15 := (reached_at m K (c, some (.yds 15))) $$ HRec
  ihave #HI_ydr0 := (inv_at m K (c, some (.ydr 0))) $$ HRec
  ihave #HI_ydr1 := (inv_at m K (c, some (.ydr 1))) $$ HRec
  ihave #HI_ydr2 := (inv_at m K (c, some (.ydr 2))) $$ HRec
  ihave #HI_ydr3 := (inv_at m K (c, some (.ydr 3))) $$ HRec
  ihave #HI_ydr4 := (inv_at m K (c, some (.ydr 4))) $$ HRec
  ihave #HI_ydr5 := (inv_at m K (c, some (.ydr 5))) $$ HRec
  ihave #HI_ydr6 := (inv_at m K (c, some (.ydr 6))) $$ HRec
  ihave #HI_ydr7 := (inv_at m K (c, some (.ydr 7))) $$ HRec
  ihave #HI_ydr8 := (inv_at m K (c, some (.ydr 8))) $$ HRec
  ihave #HI_ydr9 := (inv_at m K (c, some (.ydr 9))) $$ HRec
  ihave #HI_ydr10 := (inv_at m K (c, some (.ydr 10))) $$ HRec
  ihave #HI_ydr11 := (inv_at m K (c, some (.ydr 11))) $$ HRec
  ihave #HI_ydr12 := (inv_at m K (c, some (.ydr 12))) $$ HRec
  ihave #HI_ydr13 := (inv_at m K (c, some (.ydr 13))) $$ HRec
  ihave #HI_ydr14 := (inv_at m K (c, some (.ydr 14))) $$ HRec
  ihave #HI_ydr15 := (inv_at m K (c, some (.ydr 15))) $$ HRec
  ihave #HI_zds0 := (inv_at m K (c, some (.zds 0))) $$ HRec
  ihave #HR_zds0 := (reached_at m K (c, some (.zds 0))) $$ HRec
  ihave #HI_zds1 := (inv_at m K (c, some (.zds 1))) $$ HRec
  ihave #HR_zds1 := (reached_at m K (c, some (.zds 1))) $$ HRec
  ihave #HI_zds2 := (inv_at m K (c, some (.zds 2))) $$ HRec
  ihave #HR_zds2 := (reached_at m K (c, some (.zds 2))) $$ HRec
  ihave #HI_zds3 := (inv_at m K (c, some (.zds 3))) $$ HRec
  ihave #HR_zds3 := (reached_at m K (c, some (.zds 3))) $$ HRec
  ihave #HI_zds4 := (inv_at m K (c, some (.zds 4))) $$ HRec
  ihave #HR_zds4 := (reached_at m K (c, some (.zds 4))) $$ HRec
  ihave #HI_zds5 := (inv_at m K (c, some (.zds 5))) $$ HRec
  ihave #HR_zds5 := (reached_at m K (c, some (.zds 5))) $$ HRec
  ihave #HI_zds6 := (inv_at m K (c, some (.zds 6))) $$ HRec
  ihave #HR_zds6 := (reached_at m K (c, some (.zds 6))) $$ HRec
  ihave #HI_zds7 := (inv_at m K (c, some (.zds 7))) $$ HRec
  ihave #HR_zds7 := (reached_at m K (c, some (.zds 7))) $$ HRec
  ihave #HI_zds8 := (inv_at m K (c, some (.zds 8))) $$ HRec
  ihave #HR_zds8 := (reached_at m K (c, some (.zds 8))) $$ HRec
  ihave #HI_zds9 := (inv_at m K (c, some (.zds 9))) $$ HRec
  ihave #HR_zds9 := (reached_at m K (c, some (.zds 9))) $$ HRec
  ihave #HI_zds10 := (inv_at m K (c, some (.zds 10))) $$ HRec
  ihave #HR_zds10 := (reached_at m K (c, some (.zds 10))) $$ HRec
  ihave #HI_zds11 := (inv_at m K (c, some (.zds 11))) $$ HRec
  ihave #HR_zds11 := (reached_at m K (c, some (.zds 11))) $$ HRec
  ihave #HI_zds12 := (inv_at m K (c, some (.zds 12))) $$ HRec
  ihave #HR_zds12 := (reached_at m K (c, some (.zds 12))) $$ HRec
  ihave #HI_zds13 := (inv_at m K (c, some (.zds 13))) $$ HRec
  ihave #HR_zds13 := (reached_at m K (c, some (.zds 13))) $$ HRec
  ihave #HI_zds14 := (inv_at m K (c, some (.zds 14))) $$ HRec
  ihave #HR_zds14 := (reached_at m K (c, some (.zds 14))) $$ HRec
  ihave #HI_zds15 := (inv_at m K (c, some (.zds 15))) $$ HRec
  ihave #HR_zds15 := (reached_at m K (c, some (.zds 15))) $$ HRec
  ihave #HI_zdr0 := (inv_at m K (c, some (.zdr 0))) $$ HRec
  ihave #HI_zdr1 := (inv_at m K (c, some (.zdr 1))) $$ HRec
  ihave #HI_zdr2 := (inv_at m K (c, some (.zdr 2))) $$ HRec
  ihave #HI_zdr3 := (inv_at m K (c, some (.zdr 3))) $$ HRec
  ihave #HI_zdr4 := (inv_at m K (c, some (.zdr 4))) $$ HRec
  ihave #HI_zdr5 := (inv_at m K (c, some (.zdr 5))) $$ HRec
  ihave #HI_zdr6 := (inv_at m K (c, some (.zdr 6))) $$ HRec
  ihave #HI_zdr7 := (inv_at m K (c, some (.zdr 7))) $$ HRec
  ihave #HI_zdr8 := (inv_at m K (c, some (.zdr 8))) $$ HRec
  ihave #HI_zdr9 := (inv_at m K (c, some (.zdr 9))) $$ HRec
  ihave #HI_zdr10 := (inv_at m K (c, some (.zdr 10))) $$ HRec
  ihave #HI_zdr11 := (inv_at m K (c, some (.zdr 11))) $$ HRec
  ihave #HI_zdr12 := (inv_at m K (c, some (.zdr 12))) $$ HRec
  ihave #HI_zdr13 := (inv_at m K (c, some (.zdr 13))) $$ HRec
  ihave #HI_zdr14 := (inv_at m K (c, some (.zdr 14))) $$ HRec
  ihave #HI_zdr15 := (inv_at m K (c, some (.zdr 15))) $$ HRec
  ihave #HI_ydgs0 := (inv_at m K (c, some (.ydgs 0))) $$ HRec
  ihave #HR_ydgs0 := (reached_at m K (c, some (.ydgs 0))) $$ HRec
  ihave #HI_ydgs1 := (inv_at m K (c, some (.ydgs 1))) $$ HRec
  ihave #HR_ydgs1 := (reached_at m K (c, some (.ydgs 1))) $$ HRec
  ihave #HI_ydgs2 := (inv_at m K (c, some (.ydgs 2))) $$ HRec
  ihave #HR_ydgs2 := (reached_at m K (c, some (.ydgs 2))) $$ HRec
  ihave #HI_ydgs3 := (inv_at m K (c, some (.ydgs 3))) $$ HRec
  ihave #HR_ydgs3 := (reached_at m K (c, some (.ydgs 3))) $$ HRec
  ihave #HI_ydgs4 := (inv_at m K (c, some (.ydgs 4))) $$ HRec
  ihave #HR_ydgs4 := (reached_at m K (c, some (.ydgs 4))) $$ HRec
  ihave #HI_ydgs5 := (inv_at m K (c, some (.ydgs 5))) $$ HRec
  ihave #HR_ydgs5 := (reached_at m K (c, some (.ydgs 5))) $$ HRec
  ihave #HI_ydgs6 := (inv_at m K (c, some (.ydgs 6))) $$ HRec
  ihave #HR_ydgs6 := (reached_at m K (c, some (.ydgs 6))) $$ HRec
  ihave #HI_ydgs7 := (inv_at m K (c, some (.ydgs 7))) $$ HRec
  ihave #HR_ydgs7 := (reached_at m K (c, some (.ydgs 7))) $$ HRec
  ihave #HI_ydgr0 := (inv_at m K (c, some (.ydgr 0))) $$ HRec
  ihave #HI_ydgr1 := (inv_at m K (c, some (.ydgr 1))) $$ HRec
  ihave #HI_ydgr2 := (inv_at m K (c, some (.ydgr 2))) $$ HRec
  ihave #HI_ydgr3 := (inv_at m K (c, some (.ydgr 3))) $$ HRec
  ihave #HI_ydgr4 := (inv_at m K (c, some (.ydgr 4))) $$ HRec
  ihave #HI_ydgr5 := (inv_at m K (c, some (.ydgr 5))) $$ HRec
  ihave #HI_ydgr6 := (inv_at m K (c, some (.ydgr 6))) $$ HRec
  ihave #HI_ydgr7 := (inv_at m K (c, some (.ydgr 7))) $$ HRec
  ihave #HI_zdgs0 := (inv_at m K (c, some (.zdgs 0))) $$ HRec
  ihave #HR_zdgs0 := (reached_at m K (c, some (.zdgs 0))) $$ HRec
  ihave #HI_zdgs1 := (inv_at m K (c, some (.zdgs 1))) $$ HRec
  ihave #HR_zdgs1 := (reached_at m K (c, some (.zdgs 1))) $$ HRec
  ihave #HI_zdgs2 := (inv_at m K (c, some (.zdgs 2))) $$ HRec
  ihave #HR_zdgs2 := (reached_at m K (c, some (.zdgs 2))) $$ HRec
  ihave #HI_zdgs3 := (inv_at m K (c, some (.zdgs 3))) $$ HRec
  ihave #HR_zdgs3 := (reached_at m K (c, some (.zdgs 3))) $$ HRec
  ihave #HI_zdgs4 := (inv_at m K (c, some (.zdgs 4))) $$ HRec
  ihave #HR_zdgs4 := (reached_at m K (c, some (.zdgs 4))) $$ HRec
  ihave #HI_zdgs5 := (inv_at m K (c, some (.zdgs 5))) $$ HRec
  ihave #HR_zdgs5 := (reached_at m K (c, some (.zdgs 5))) $$ HRec
  ihave #HI_zdgs6 := (inv_at m K (c, some (.zdgs 6))) $$ HRec
  ihave #HR_zdgs6 := (reached_at m K (c, some (.zdgs 6))) $$ HRec
  ihave #HI_zdgs7 := (inv_at m K (c, some (.zdgs 7))) $$ HRec
  ihave #HR_zdgs7 := (reached_at m K (c, some (.zdgs 7))) $$ HRec
  ihave #HI_zdgr0 := (inv_at m K (c, some (.zdgr 0))) $$ HRec
  ihave #HI_zdgr1 := (inv_at m K (c, some (.zdgr 1))) $$ HRec
  ihave #HI_zdgr2 := (inv_at m K (c, some (.zdgr 2))) $$ HRec
  ihave #HI_zdgr3 := (inv_at m K (c, some (.zdgr 3))) $$ HRec
  ihave #HI_zdgr4 := (inv_at m K (c, some (.zdgr 4))) $$ HRec
  ihave #HI_zdgr5 := (inv_at m K (c, some (.zdgr 5))) $$ HRec
  ihave #HI_zdgr6 := (inv_at m K (c, some (.zdgr 6))) $$ HRec
  ihave #HI_zdgr7 := (inv_at m K (c, some (.zdgr 7))) $$ HRec
  ihave #HJ_xr0 := (inv_at m K (xP c, some (.xr 0))) $$ HRec
  ihave #HQ_xr0 := (reached_at m K (xP c, some (.xr 0))) $$ HRec
  ihave #HJ_xr1 := (inv_at m K (xP c, some (.xr 1))) $$ HRec
  ihave #HQ_xr1 := (reached_at m K (xP c, some (.xr 1))) $$ HRec
  ihave #HJ_xr2 := (inv_at m K (xP c, some (.xr 2))) $$ HRec
  ihave #HQ_xr2 := (reached_at m K (xP c, some (.xr 2))) $$ HRec
  ihave #HJ_xr3 := (inv_at m K (xP c, some (.xr 3))) $$ HRec
  ihave #HQ_xr3 := (reached_at m K (xP c, some (.xr 3))) $$ HRec
  ihave #HJ_xr4 := (inv_at m K (xP c, some (.xr 4))) $$ HRec
  ihave #HQ_xr4 := (reached_at m K (xP c, some (.xr 4))) $$ HRec
  ihave #HJ_xr5 := (inv_at m K (xP c, some (.xr 5))) $$ HRec
  ihave #HQ_xr5 := (reached_at m K (xP c, some (.xr 5))) $$ HRec
  ihave #HJ_xr6 := (inv_at m K (xP c, some (.xr 6))) $$ HRec
  ihave #HQ_xr6 := (reached_at m K (xP c, some (.xr 6))) $$ HRec
  ihave #HJ_xr7 := (inv_at m K (xP c, some (.xr 7))) $$ HRec
  ihave #HQ_xr7 := (reached_at m K (xP c, some (.xr 7))) $$ HRec
  ihave #HJ_xr8 := (inv_at m K (xP c, some (.xr 8))) $$ HRec
  ihave #HQ_xr8 := (reached_at m K (xP c, some (.xr 8))) $$ HRec
  ihave #HJ_xr9 := (inv_at m K (xP c, some (.xr 9))) $$ HRec
  ihave #HQ_xr9 := (reached_at m K (xP c, some (.xr 9))) $$ HRec
  ihave #HJ_xr10 := (inv_at m K (xP c, some (.xr 10))) $$ HRec
  ihave #HQ_xr10 := (reached_at m K (xP c, some (.xr 10))) $$ HRec
  ihave #HJ_xr11 := (inv_at m K (xP c, some (.xr 11))) $$ HRec
  ihave #HQ_xr11 := (reached_at m K (xP c, some (.xr 11))) $$ HRec
  ihave #HJ_xr12 := (inv_at m K (xP c, some (.xr 12))) $$ HRec
  ihave #HQ_xr12 := (reached_at m K (xP c, some (.xr 12))) $$ HRec
  ihave #HJ_xr13 := (inv_at m K (xP c, some (.xr 13))) $$ HRec
  ihave #HQ_xr13 := (reached_at m K (xP c, some (.xr 13))) $$ HRec
  ihave #HJ_xr14 := (inv_at m K (xP c, some (.xr 14))) $$ HRec
  ihave #HQ_xr14 := (reached_at m K (xP c, some (.xr 14))) $$ HRec
  ihave #HJ_xr15 := (inv_at m K (xP c, some (.xr 15))) $$ HRec
  ihave #HQ_xr15 := (reached_at m K (xP c, some (.xr 15))) $$ HRec
  ihave #HJ_ydr0 := (inv_at m K (yP c, some (.ydr 0))) $$ HRec
  ihave #HQ_ydr0 := (reached_at m K (yP c, some (.ydr 0))) $$ HRec
  ihave #HJ_ydr1 := (inv_at m K (yP c, some (.ydr 1))) $$ HRec
  ihave #HQ_ydr1 := (reached_at m K (yP c, some (.ydr 1))) $$ HRec
  ihave #HJ_ydr2 := (inv_at m K (yP c, some (.ydr 2))) $$ HRec
  ihave #HQ_ydr2 := (reached_at m K (yP c, some (.ydr 2))) $$ HRec
  ihave #HJ_ydr3 := (inv_at m K (yP c, some (.ydr 3))) $$ HRec
  ihave #HQ_ydr3 := (reached_at m K (yP c, some (.ydr 3))) $$ HRec
  ihave #HJ_ydr4 := (inv_at m K (yP c, some (.ydr 4))) $$ HRec
  ihave #HQ_ydr4 := (reached_at m K (yP c, some (.ydr 4))) $$ HRec
  ihave #HJ_ydr5 := (inv_at m K (yP c, some (.ydr 5))) $$ HRec
  ihave #HQ_ydr5 := (reached_at m K (yP c, some (.ydr 5))) $$ HRec
  ihave #HJ_ydr6 := (inv_at m K (yP c, some (.ydr 6))) $$ HRec
  ihave #HQ_ydr6 := (reached_at m K (yP c, some (.ydr 6))) $$ HRec
  ihave #HJ_ydr7 := (inv_at m K (yP c, some (.ydr 7))) $$ HRec
  ihave #HQ_ydr7 := (reached_at m K (yP c, some (.ydr 7))) $$ HRec
  ihave #HJ_ydr8 := (inv_at m K (yP c, some (.ydr 8))) $$ HRec
  ihave #HQ_ydr8 := (reached_at m K (yP c, some (.ydr 8))) $$ HRec
  ihave #HJ_ydr9 := (inv_at m K (yP c, some (.ydr 9))) $$ HRec
  ihave #HQ_ydr9 := (reached_at m K (yP c, some (.ydr 9))) $$ HRec
  ihave #HJ_ydr10 := (inv_at m K (yP c, some (.ydr 10))) $$ HRec
  ihave #HQ_ydr10 := (reached_at m K (yP c, some (.ydr 10))) $$ HRec
  ihave #HJ_ydr11 := (inv_at m K (yP c, some (.ydr 11))) $$ HRec
  ihave #HQ_ydr11 := (reached_at m K (yP c, some (.ydr 11))) $$ HRec
  ihave #HJ_ydr12 := (inv_at m K (yP c, some (.ydr 12))) $$ HRec
  ihave #HQ_ydr12 := (reached_at m K (yP c, some (.ydr 12))) $$ HRec
  ihave #HJ_ydr13 := (inv_at m K (yP c, some (.ydr 13))) $$ HRec
  ihave #HQ_ydr13 := (reached_at m K (yP c, some (.ydr 13))) $$ HRec
  ihave #HJ_ydr14 := (inv_at m K (yP c, some (.ydr 14))) $$ HRec
  ihave #HQ_ydr14 := (reached_at m K (yP c, some (.ydr 14))) $$ HRec
  ihave #HJ_ydr15 := (inv_at m K (yP c, some (.ydr 15))) $$ HRec
  ihave #HQ_ydr15 := (reached_at m K (yP c, some (.ydr 15))) $$ HRec
  ihave #HJ_zdr0 := (inv_at m K (zP c, some (.zdr 0))) $$ HRec
  ihave #HQ_zdr0 := (reached_at m K (zP c, some (.zdr 0))) $$ HRec
  ihave #HJ_zdr1 := (inv_at m K (zP c, some (.zdr 1))) $$ HRec
  ihave #HQ_zdr1 := (reached_at m K (zP c, some (.zdr 1))) $$ HRec
  ihave #HJ_zdr2 := (inv_at m K (zP c, some (.zdr 2))) $$ HRec
  ihave #HQ_zdr2 := (reached_at m K (zP c, some (.zdr 2))) $$ HRec
  ihave #HJ_zdr3 := (inv_at m K (zP c, some (.zdr 3))) $$ HRec
  ihave #HQ_zdr3 := (reached_at m K (zP c, some (.zdr 3))) $$ HRec
  ihave #HJ_zdr4 := (inv_at m K (zP c, some (.zdr 4))) $$ HRec
  ihave #HQ_zdr4 := (reached_at m K (zP c, some (.zdr 4))) $$ HRec
  ihave #HJ_zdr5 := (inv_at m K (zP c, some (.zdr 5))) $$ HRec
  ihave #HQ_zdr5 := (reached_at m K (zP c, some (.zdr 5))) $$ HRec
  ihave #HJ_zdr6 := (inv_at m K (zP c, some (.zdr 6))) $$ HRec
  ihave #HQ_zdr6 := (reached_at m K (zP c, some (.zdr 6))) $$ HRec
  ihave #HJ_zdr7 := (inv_at m K (zP c, some (.zdr 7))) $$ HRec
  ihave #HQ_zdr7 := (reached_at m K (zP c, some (.zdr 7))) $$ HRec
  ihave #HJ_zdr8 := (inv_at m K (zP c, some (.zdr 8))) $$ HRec
  ihave #HQ_zdr8 := (reached_at m K (zP c, some (.zdr 8))) $$ HRec
  ihave #HJ_zdr9 := (inv_at m K (zP c, some (.zdr 9))) $$ HRec
  ihave #HQ_zdr9 := (reached_at m K (zP c, some (.zdr 9))) $$ HRec
  ihave #HJ_zdr10 := (inv_at m K (zP c, some (.zdr 10))) $$ HRec
  ihave #HQ_zdr10 := (reached_at m K (zP c, some (.zdr 10))) $$ HRec
  ihave #HJ_zdr11 := (inv_at m K (zP c, some (.zdr 11))) $$ HRec
  ihave #HQ_zdr11 := (reached_at m K (zP c, some (.zdr 11))) $$ HRec
  ihave #HJ_zdr12 := (inv_at m K (zP c, some (.zdr 12))) $$ HRec
  ihave #HQ_zdr12 := (reached_at m K (zP c, some (.zdr 12))) $$ HRec
  ihave #HJ_zdr13 := (inv_at m K (zP c, some (.zdr 13))) $$ HRec
  ihave #HQ_zdr13 := (reached_at m K (zP c, some (.zdr 13))) $$ HRec
  ihave #HJ_zdr14 := (inv_at m K (zP c, some (.zdr 14))) $$ HRec
  ihave #HQ_zdr14 := (reached_at m K (zP c, some (.zdr 14))) $$ HRec
  ihave #HJ_zdr15 := (inv_at m K (zP c, some (.zdr 15))) $$ HRec
  ihave #HQ_zdr15 := (reached_at m K (zP c, some (.zdr 15))) $$ HRec
  ihave #HJ_ydgr0 := (inv_at m K (yP c, some (.ydgr 0))) $$ HRec
  ihave #HQ_ydgr0 := (reached_at m K (yP c, some (.ydgr 0))) $$ HRec
  ihave #HJ_ydgr1 := (inv_at m K (yP c, some (.ydgr 1))) $$ HRec
  ihave #HQ_ydgr1 := (reached_at m K (yP c, some (.ydgr 1))) $$ HRec
  ihave #HJ_ydgr2 := (inv_at m K (yP c, some (.ydgr 2))) $$ HRec
  ihave #HQ_ydgr2 := (reached_at m K (yP c, some (.ydgr 2))) $$ HRec
  ihave #HJ_ydgr3 := (inv_at m K (yP c, some (.ydgr 3))) $$ HRec
  ihave #HQ_ydgr3 := (reached_at m K (yP c, some (.ydgr 3))) $$ HRec
  ihave #HJ_ydgr4 := (inv_at m K (yP c, some (.ydgr 4))) $$ HRec
  ihave #HQ_ydgr4 := (reached_at m K (yP c, some (.ydgr 4))) $$ HRec
  ihave #HJ_ydgr5 := (inv_at m K (yP c, some (.ydgr 5))) $$ HRec
  ihave #HQ_ydgr5 := (reached_at m K (yP c, some (.ydgr 5))) $$ HRec
  ihave #HJ_ydgr6 := (inv_at m K (yP c, some (.ydgr 6))) $$ HRec
  ihave #HQ_ydgr6 := (reached_at m K (yP c, some (.ydgr 6))) $$ HRec
  ihave #HJ_ydgr7 := (inv_at m K (yP c, some (.ydgr 7))) $$ HRec
  ihave #HQ_ydgr7 := (reached_at m K (yP c, some (.ydgr 7))) $$ HRec
  ihave #HJ_zdgr0 := (inv_at m K (zP c, some (.zdgr 0))) $$ HRec
  ihave #HQ_zdgr0 := (reached_at m K (zP c, some (.zdgr 0))) $$ HRec
  ihave #HJ_zdgr1 := (inv_at m K (zP c, some (.zdgr 1))) $$ HRec
  ihave #HQ_zdgr1 := (reached_at m K (zP c, some (.zdgr 1))) $$ HRec
  ihave #HJ_zdgr2 := (inv_at m K (zP c, some (.zdgr 2))) $$ HRec
  ihave #HQ_zdgr2 := (reached_at m K (zP c, some (.zdgr 2))) $$ HRec
  ihave #HJ_zdgr3 := (inv_at m K (zP c, some (.zdgr 3))) $$ HRec
  ihave #HQ_zdgr3 := (reached_at m K (zP c, some (.zdgr 3))) $$ HRec
  ihave #HJ_zdgr4 := (inv_at m K (zP c, some (.zdgr 4))) $$ HRec
  ihave #HQ_zdgr4 := (reached_at m K (zP c, some (.zdgr 4))) $$ HRec
  ihave #HJ_zdgr5 := (inv_at m K (zP c, some (.zdgr 5))) $$ HRec
  ihave #HQ_zdgr5 := (reached_at m K (zP c, some (.zdgr 5))) $$ HRec
  ihave #HJ_zdgr6 := (inv_at m K (zP c, some (.zdgr 6))) $$ HRec
  ihave #HQ_zdgr6 := (reached_at m K (zP c, some (.zdgr 6))) $$ HRec
  ihave #HJ_zdgr7 := (inv_at m K (zP c, some (.zdgr 7))) $$ HRec
  ihave #HQ_zdgr7 := (reached_at m K (zP c, some (.zdgr 7))) $$ HRec
  -- the result, cut into its eighty chunks: its own half stays; the rest goes to the partners with the entry signals
  ihave HBout := (out_parts c f0).1 $$ HBout
  icases HBout with ⟨HBst, HBqm, HBqy, HBqz, HBqyg, HBqzg⟩
  ihave HPx := (mk_barPay_x c f0) $$ HBqm
  ihave HPy := (mk_barPay_y c f0) $$ [HBqy HBqyg]
  · isplitl [HBqy] <;> iassumption
  ihave HPz := (mk_barPay_z c f0) $$ [HBqz HBqzg]
  · isplitl [HBqz] <;> iassumption
  ihave HBst := (Entails.of_eq (bigSep_fin16 _)) $$ HBst
  icases HBst with ⟨HB_st0, HB_st1, HB_st2, HB_st3, HB_st4, HB_st5, HB_st6, HB_st7, HB_st8, HB_st9, HB_st10, HB_st11, HB_st12, HB_st13, HB_st14, HB_st15⟩
  -- the block: half of its share, by chunks of its own quarter, for the copies to the x partner; half, by local chunks, for the loads
  ihave HBin := (pointsTo_share (PosShare.mem_left_op_right fullShare)).1 $$ HBin
  icases HBin with ⟨HBinL, HBinR⟩
  ihave HBinL := (in_quarter c qL (blk m c)).1 $$ HBinL
  icases HBinL with ⟨HSx, HBinRest⟩
  ihave HSx := (Entails.of_eq (bigSep_fin16 _)) $$ HSx
  icases HSx with ⟨HS_x0, HS_x1, HS_x2, HS_x3, HS_x4, HS_x5, HS_x6, HS_x7, HS_x8, HS_x9, HS_x10, HS_x11, HS_x12, HS_x13, HS_x14, HS_x15⟩
  ihave HBinR := (in_loads c qR (blk m c)).1 $$ HBinR
  ihave HBinR := (Entails.of_eq (bigSep_fin16 _)) $$ HBinR
  icases HBinR with ⟨HS_ld0, HS_ld1, HS_ld2, HS_ld3, HS_ld4, HS_ld5, HS_ld6, HS_ld7, HS_ld8, HS_ld9, HS_ld10, HS_ld11, HS_ld12, HS_ld13, HS_ld14, HS_ld15⟩
  ihave HBvb := (vb_parts c g0).1 $$ HBvb
  ihave HBvb := (Entails.of_eq (bigSep_fin4 _)) $$ HBvb
  icases HBvb with ⟨HV0, HV1, HV2, HV3⟩
  -- the body, opened into its sequence of operations
  simp only [cc0_body_eq_skeleton]; unfold cc0_body_skel
  simp only [k0_part74_eq_skeleton, k0_part75_eq_skeleton]; unfold k0_part74_skel k0_part75_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel
  simp only [semSignalWord, semWaitWord, Prog.lift, Prog.bind_op, Prog.bind_ret, Prog.pure_eq_ret, wp_deviceId, dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq, dev64_eq, dev65_eq, dev66_eq, dev67_eq]
  unfold O₀
  -- step 1: SIG dev1
  iapply (wp_signal_bar m c (xP c) 0 (owedN c 66 1)) $$ [HO HTbx HPx]
  · isplitr; · iexact HJbx
    isplitl [HO]; · iexact HO
    isplitl [HTbx]; · iexact HTbx
    isplitl [HPx]; · iexact HPx
    iexact HQbx
  iintro HO
  -- step 2: SIG dev2
  iapply (wp_signal_bar m c (yP c) 1 (owedN c 65 2)) $$ [HO HTby HPy]
  · isplitr; · iexact HJby
    isplitl [HO]; · iexact HO
    isplitl [HTby]; · iexact HTby
    isplitl [HPy]; · iexact HPy
    iexact HQby
  iintro HO
  -- step 3: SIG dev3
  iapply (wp_signal_bar m c (zP c) 2 (owedN c 64 3)) $$ [HO HTbz HPz]
  · isplitr; · iexact HJbz
    isplitl [HO]; · iexact HO
    isplitl [HTbz]; · iexact HTbz
    isplitl [HPz]; · iexact HPz
    iexact HQbz
  iintro HO
  -- step 4: BARWAIT
  iapply (wp_wait_bar m c (owedN c 64 3)) $$ [HCb HO HAb]
  · isplitr; · iexact HIb
    isplitl [HCb]; · iexact HCb
    isplitl [HO]; · iexact HO
    isplitr; · iapply (mayWait_bar c); iexact Hlev
    iexact HAb
  iintro ⟨HO, HAb, #HRb1, HDx, HDy, HDz⟩
  ihave HDx := (Entails.of_eq ((barPay_0 c).trans (bigSep_fin16 _))) $$ HDx
  icases HDx with ⟨⟨%fdx0, HD_xr0⟩, ⟨%fdx1, HD_xr1⟩, ⟨%fdx2, HD_xr2⟩, ⟨%fdx3, HD_xr3⟩, ⟨%fdx4, HD_xr4⟩, ⟨%fdx5, HD_xr5⟩, ⟨%fdx6, HD_xr6⟩, ⟨%fdx7, HD_xr7⟩, ⟨%fdx8, HD_xr8⟩, ⟨%fdx9, HD_xr9⟩, ⟨%fdx10, HD_xr10⟩, ⟨%fdx11, HD_xr11⟩, ⟨%fdx12, HD_xr12⟩, ⟨%fdx13, HD_xr13⟩, ⟨%fdx14, HD_xr14⟩, ⟨%fdx15, HD_xr15⟩⟩
  ihave HDy := (Entails.of_eq (barPay_1 c)) $$ HDy
  icases HDy with ⟨HDy1, HDy2⟩
  ihave HDy1 := (Entails.of_eq (bigSep_fin16 _)) $$ HDy1
  icases HDy1 with ⟨⟨%fdy0, HD_ydr0⟩, ⟨%fdy1, HD_ydr1⟩, ⟨%fdy2, HD_ydr2⟩, ⟨%fdy3, HD_ydr3⟩, ⟨%fdy4, HD_ydr4⟩, ⟨%fdy5, HD_ydr5⟩, ⟨%fdy6, HD_ydr6⟩, ⟨%fdy7, HD_ydr7⟩, ⟨%fdy8, HD_ydr8⟩, ⟨%fdy9, HD_ydr9⟩, ⟨%fdy10, HD_ydr10⟩, ⟨%fdy11, HD_ydr11⟩, ⟨%fdy12, HD_ydr12⟩, ⟨%fdy13, HD_ydr13⟩, ⟨%fdy14, HD_ydr14⟩, ⟨%fdy15, HD_ydr15⟩⟩
  ihave HDy2 := (Entails.of_eq (bigSep_fin8 _)) $$ HDy2
  icases HDy2 with ⟨⟨%fdyg0, HD_ydgr0⟩, ⟨%fdyg1, HD_ydgr1⟩, ⟨%fdyg2, HD_ydgr2⟩, ⟨%fdyg3, HD_ydgr3⟩, ⟨%fdyg4, HD_ydgr4⟩, ⟨%fdyg5, HD_ydgr5⟩, ⟨%fdyg6, HD_ydgr6⟩, ⟨%fdyg7, HD_ydgr7⟩⟩
  ihave HDz := (Entails.of_eq (barPay_2 c)) $$ HDz
  icases HDz with ⟨HDz1, HDz2⟩
  ihave HDz1 := (Entails.of_eq (bigSep_fin16 _)) $$ HDz1
  icases HDz1 with ⟨⟨%fdz0, HD_zdr0⟩, ⟨%fdz1, HD_zdr1⟩, ⟨%fdz2, HD_zdr2⟩, ⟨%fdz3, HD_zdr3⟩, ⟨%fdz4, HD_zdr4⟩, ⟨%fdz5, HD_zdr5⟩, ⟨%fdz6, HD_zdr6⟩, ⟨%fdz7, HD_zdr7⟩, ⟨%fdz8, HD_zdr8⟩, ⟨%fdz9, HD_zdr9⟩, ⟨%fdz10, HD_zdr10⟩, ⟨%fdz11, HD_zdr11⟩, ⟨%fdz12, HD_zdr12⟩, ⟨%fdz13, HD_zdr13⟩, ⟨%fdz14, HD_zdr14⟩, ⟨%fdz15, HD_zdr15⟩⟩
  ihave HDz2 := (Entails.of_eq (bigSep_fin8 _)) $$ HDz2
  icases HDz2 with ⟨⟨%fdzg0, HD_zdgr0⟩, ⟨%fdzg1, HD_zdgr1⟩, ⟨%fdzg2, HD_zdgr2⟩, ⟨%fdzg3, HD_zdgr3⟩, ⟨%fdzg4, HD_zdgr4⟩, ⟨%fdzg5, HD_zdgr5⟩, ⟨%fdzg6, HD_zdgr6⟩, ⟨%fdzg7, HD_zdgr7⟩⟩
  -- step 5: SEND dev4 ss=arg5,0 rs=arg6,0
  iapply (wp_send_cell m c (xP c) _ (dev4_eq c) (.xs 0) (.xr 0) (by decide) (by decide) (by rfl) (by rfl) (by rfl) (by rfl) (credit_xDst c 0) (by exact BI.Entails.refl _) (x_pay m c 0 _) (owedN c 63 4)) $$ [HS_x0 HD_xr0 HO HT_xs0 HU_xr0]
  · isplitr; · iexact HI_xs0
    isplitr; · iexact HJ_xr0
    isplitl [HS_x0]; · iexact HS_x0
    isplitl [HD_xr0]; · iexact HD_xr0
    isplitl [HO]; · iexact HO
    isplitl [HT_xs0]; · iexact HT_xs0
    isplitr; · iexact HR_xs0
    isplitl [HU_xr0]; · iexact HU_xr0
    iexact HQ_xr0
  iintro ⟨HC_xs0, HO⟩
  -- step 6: SEND dev5 ss=arg5,1 rs=arg6,1
  iapply (wp_send_cell m c (xP c) _ (dev5_eq c) (.xs 1) (.xr 1) (by decide) (by decide) (by rfl) (by rfl) (by rfl) (by rfl) (credit_xDst c 1) (by exact BI.Entails.refl _) (x_pay m c 1 _) (owedN c 62 5)) $$ [HS_x1 HD_xr1 HO HT_xs1 HU_xr1]
  · isplitr; · iexact HI_xs1
    isplitr; · iexact HJ_xr1
    isplitl [HS_x1]; · iexact HS_x1
    isplitl [HD_xr1]; · iexact HD_xr1
    isplitl [HO]; · iexact HO
    isplitl [HT_xs1]; · iexact HT_xs1
    isplitr; · iexact HR_xs1
    isplitl [HU_xr1]; · iexact HU_xr1
    iexact HQ_xr1
  iintro ⟨HC_xs1, HO⟩
  -- step 7: SEND dev6 ss=arg5,2 rs=arg6,2
  iapply (wp_send_cell m c (xP c) _ (dev6_eq c) (.xs 2) (.xr 2) (by decide) (by decide) (by rfl) (by rfl) (by rfl) (by rfl) (credit_xDst c 2) (by exact BI.Entails.refl _) (x_pay m c 2 _) (owedN c 61 6)) $$ [HS_x2 HD_xr2 HO HT_xs2 HU_xr2]
  · isplitr; · iexact HI_xs2
    isplitr; · iexact HJ_xr2
    isplitl [HS_x2]; · iexact HS_x2
    isplitl [HD_xr2]; · iexact HD_xr2
    isplitl [HO]; · iexact HO
    isplitl [HT_xs2]; · iexact HT_xs2
    isplitr; · iexact HR_xs2
    isplitl [HU_xr2]; · iexact HU_xr2
    iexact HQ_xr2
  iintro ⟨HC_xs2, HO⟩
  -- step 8: SEND dev7 ss=arg5,3 rs=arg6,3
  iapply (wp_send_cell m c (xP c) _ (dev7_eq c) (.xs 3) (.xr 3) (by decide) (by decide) (by rfl) (by rfl) (by rfl) (by rfl) (credit_xDst c 3) (by exact BI.Entails.refl _) (x_pay m c 3 _) (owedN c 60 7)) $$ [HS_x3 HD_xr3 HO HT_xs3 HU_xr3]
  · isplitr; · iexact HI_xs3
    isplitr; · iexact HJ_xr3
    isplitl [HS_x3]; · iexact HS_x3
    isplitl [HD_xr3]; · iexact HD_xr3
    isplitl [HO]; · iexact HO
    isplitl [HT_xs3]; · iexact HT_xs3
    isplitr; · iexact HR_xs3
    isplitl [HU_xr3]; · iexact HU_xr3
    iexact HQ_xr3
  iintro ⟨HC_xs3, HO⟩
  -- step 9: SEND dev8 ss=arg5,4 rs=arg6,4
  iapply (wp_send_cell m c (xP c) _ (dev8_eq c) (.xs 4) (.xr 4) (by decide) (by decide) (by rfl) (by rfl) (by rfl) (by rfl) (credit_xDst c 4) (by exact BI.Entails.refl _) (x_pay m c 4 _) (owedN c 59 8)) $$ [HS_x4 HD_xr4 HO HT_xs4 HU_xr4]
  · isplitr; · iexact HI_xs4
    isplitr; · iexact HJ_xr4
    isplitl [HS_x4]; · iexact HS_x4
    isplitl [HD_xr4]; · iexact HD_xr4
    isplitl [HO]; · iexact HO
    isplitl [HT_xs4]; · iexact HT_xs4
    isplitr; · iexact HR_xs4
    isplitl [HU_xr4]; · iexact HU_xr4
    iexact HQ_xr4
  iintro ⟨HC_xs4, HO⟩
  -- step 10: SEND dev9 ss=arg5,5 rs=arg6,5
  iapply (wp_send_cell m c (xP c) _ (dev9_eq c) (.xs 5) (.xr 5) (by decide) (by decide) (by rfl) (by rfl) (by rfl) (by rfl) (credit_xDst c 5) (by exact BI.Entails.refl _) (x_pay m c 5 _) (owedN c 58 9)) $$ [HS_x5 HD_xr5 HO HT_xs5 HU_xr5]
  · isplitr; · iexact HI_xs5
    isplitr; · iexact HJ_xr5
    isplitl [HS_x5]; · iexact HS_x5
    isplitl [HD_xr5]; · iexact HD_xr5
    isplitl [HO]; · iexact HO
    isplitl [HT_xs5]; · iexact HT_xs5
    isplitr; · iexact HR_xs5
    isplitl [HU_xr5]; · iexact HU_xr5
    iexact HQ_xr5
  iintro ⟨HC_xs5, HO⟩
  -- step 11: SEND dev10 ss=arg5,6 rs=arg6,6
  iapply (wp_send_cell m c (xP c) _ (dev10_eq c) (.xs 6) (.xr 6) (by decide) (by decide) (by rfl) (by rfl) (by rfl) (by rfl) (credit_xDst c 6) (by exact BI.Entails.refl _) (x_pay m c 6 _) (owedN c 57 10)) $$ [HS_x6 HD_xr6 HO HT_xs6 HU_xr6]
  · isplitr; · iexact HI_xs6
    isplitr; · iexact HJ_xr6
    isplitl [HS_x6]; · iexact HS_x6
    isplitl [HD_xr6]; · iexact HD_xr6
    isplitl [HO]; · iexact HO
    isplitl [HT_xs6]; · iexact HT_xs6
    isplitr; · iexact HR_xs6
    isplitl [HU_xr6]; · iexact HU_xr6
    iexact HQ_xr6
  iintro ⟨HC_xs6, HO⟩
  -- step 12: SEND dev11 ss=arg5,7 rs=arg6,7
  iapply (wp_send_cell m c (xP c) _ (dev11_eq c) (.xs 7) (.xr 7) (by decide) (by decide) (by rfl) (by rfl) (by rfl) (by rfl) (credit_xDst c 7) (by exact BI.Entails.refl _) (x_pay m c 7 _) (owedN c 56 11)) $$ [HS_x7 HD_xr7 HO HT_xs7 HU_xr7]
  · isplitr; · iexact HI_xs7
    isplitr; · iexact HJ_xr7
    isplitl [HS_x7]; · iexact HS_x7
    isplitl [HD_xr7]; · iexact HD_xr7
    isplitl [HO]; · iexact HO
    isplitl [HT_xs7]; · iexact HT_xs7
    isplitr; · iexact HR_xs7
    isplitl [HU_xr7]; · iexact HU_xr7
    iexact HQ_xr7
  iintro ⟨HC_xs7, HO⟩
  -- step 13: SEND dev12 ss=arg5,8 rs=arg6,8
  iapply (wp_send_cell m c (xP c) _ (dev12_eq c) (.xs 8) (.xr 8) (by decide) (by decide) (by rfl) (by rfl) (by rfl) (by rfl) (credit_xDst c 8) (by exact BI.Entails.refl _) (x_pay m c 8 _) (owedN c 55 12)) $$ [HS_x8 HD_xr8 HO HT_xs8 HU_xr8]
  · isplitr; · iexact HI_xs8
    isplitr; · iexact HJ_xr8
    isplitl [HS_x8]; · iexact HS_x8
    isplitl [HD_xr8]; · iexact HD_xr8
    isplitl [HO]; · iexact HO
    isplitl [HT_xs8]; · iexact HT_xs8
    isplitr; · iexact HR_xs8
    isplitl [HU_xr8]; · iexact HU_xr8
    iexact HQ_xr8
  iintro ⟨HC_xs8, HO⟩
  -- step 14: SEND dev13 ss=arg5,9 rs=arg6,9
  iapply (wp_send_cell m c (xP c) _ (dev13_eq c) (.xs 9) (.xr 9) (by decide) (by decide) (by rfl) (by rfl) (by rfl) (by rfl) (credit_xDst c 9) (by exact BI.Entails.refl _) (x_pay m c 9 _) (owedN c 54 13)) $$ [HS_x9 HD_xr9 HO HT_xs9 HU_xr9]
  · isplitr; · iexact HI_xs9
    isplitr; · iexact HJ_xr9
    isplitl [HS_x9]; · iexact HS_x9
    isplitl [HD_xr9]; · iexact HD_xr9
    isplitl [HO]; · iexact HO
    isplitl [HT_xs9]; · iexact HT_xs9
    isplitr; · iexact HR_xs9
    isplitl [HU_xr9]; · iexact HU_xr9
    iexact HQ_xr9
  iintro ⟨HC_xs9, HO⟩
  -- step 15: SEND dev14 ss=arg5,10 rs=arg6,10
  iapply (wp_send_cell m c (xP c) _ (dev14_eq c) (.xs 10) (.xr 10) (by decide) (by decide) (by rfl) (by rfl) (by rfl) (by rfl) (credit_xDst c 10) (by exact BI.Entails.refl _) (x_pay m c 10 _) (owedN c 53 14)) $$ [HS_x10 HD_xr10 HO HT_xs10 HU_xr10]
  · isplitr; · iexact HI_xs10
    isplitr; · iexact HJ_xr10
    isplitl [HS_x10]; · iexact HS_x10
    isplitl [HD_xr10]; · iexact HD_xr10
    isplitl [HO]; · iexact HO
    isplitl [HT_xs10]; · iexact HT_xs10
    isplitr; · iexact HR_xs10
    isplitl [HU_xr10]; · iexact HU_xr10
    iexact HQ_xr10
  iintro ⟨HC_xs10, HO⟩
  -- step 16: SEND dev15 ss=arg5,11 rs=arg6,11
  iapply (wp_send_cell m c (xP c) _ (dev15_eq c) (.xs 11) (.xr 11) (by decide) (by decide) (by rfl) (by rfl) (by rfl) (by rfl) (credit_xDst c 11) (by exact BI.Entails.refl _) (x_pay m c 11 _) (owedN c 52 15)) $$ [HS_x11 HD_xr11 HO HT_xs11 HU_xr11]
  · isplitr; · iexact HI_xs11
    isplitr; · iexact HJ_xr11
    isplitl [HS_x11]; · iexact HS_x11
    isplitl [HD_xr11]; · iexact HD_xr11
    isplitl [HO]; · iexact HO
    isplitl [HT_xs11]; · iexact HT_xs11
    isplitr; · iexact HR_xs11
    isplitl [HU_xr11]; · iexact HU_xr11
    iexact HQ_xr11
  iintro ⟨HC_xs11, HO⟩
  -- step 17: SEND dev16 ss=arg5,12 rs=arg6,12
  iapply (wp_send_cell m c (xP c) _ (dev16_eq c) (.xs 12) (.xr 12) (by decide) (by decide) (by rfl) (by rfl) (by rfl) (by rfl) (credit_xDst c 12) (by exact BI.Entails.refl _) (x_pay m c 12 _) (owedN c 51 16)) $$ [HS_x12 HD_xr12 HO HT_xs12 HU_xr12]
  · isplitr; · iexact HI_xs12
    isplitr; · iexact HJ_xr12
    isplitl [HS_x12]; · iexact HS_x12
    isplitl [HD_xr12]; · iexact HD_xr12
    isplitl [HO]; · iexact HO
    isplitl [HT_xs12]; · iexact HT_xs12
    isplitr; · iexact HR_xs12
    isplitl [HU_xr12]; · iexact HU_xr12
    iexact HQ_xr12
  iintro ⟨HC_xs12, HO⟩
  -- step 18: SEND dev17 ss=arg5,13 rs=arg6,13
  iapply (wp_send_cell m c (xP c) _ (dev17_eq c) (.xs 13) (.xr 13) (by decide) (by decide) (by rfl) (by rfl) (by rfl) (by rfl) (credit_xDst c 13) (by exact BI.Entails.refl _) (x_pay m c 13 _) (owedN c 50 17)) $$ [HS_x13 HD_xr13 HO HT_xs13 HU_xr13]
  · isplitr; · iexact HI_xs13
    isplitr; · iexact HJ_xr13
    isplitl [HS_x13]; · iexact HS_x13
    isplitl [HD_xr13]; · iexact HD_xr13
    isplitl [HO]; · iexact HO
    isplitl [HT_xs13]; · iexact HT_xs13
    isplitr; · iexact HR_xs13
    isplitl [HU_xr13]; · iexact HU_xr13
    iexact HQ_xr13
  iintro ⟨HC_xs13, HO⟩
  -- step 19: SEND dev18 ss=arg5,14 rs=arg6,14
  iapply (wp_send_cell m c (xP c) _ (dev18_eq c) (.xs 14) (.xr 14) (by decide) (by decide) (by rfl) (by rfl) (by rfl) (by rfl) (credit_xDst c 14) (by exact BI.Entails.refl _) (x_pay m c 14 _) (owedN c 49 18)) $$ [HS_x14 HD_xr14 HO HT_xs14 HU_xr14]
  · isplitr; · iexact HI_xs14
    isplitr; · iexact HJ_xr14
    isplitl [HS_x14]; · iexact HS_x14
    isplitl [HD_xr14]; · iexact HD_xr14
    isplitl [HO]; · iexact HO
    isplitl [HT_xs14]; · iexact HT_xs14
    isplitr; · iexact HR_xs14
    isplitl [HU_xr14]; · iexact HU_xr14
    iexact HQ_xr14
  iintro ⟨HC_xs14, HO⟩
  -- step 20: SEND dev19 ss=arg5,15 rs=arg6,15
  iapply (wp_send_cell m c (xP c) _ (dev19_eq c) (.xs 15) (.xr 15) (by decide) (by decide) (by rfl) (by rfl) (by rfl) (by rfl) (credit_xDst c 15) (by exact BI.Entails.refl _) (x_pay m c 15 _) (owedN c 48 19)) $$ [HS_x15 HD_xr15 HO HT_xs15 HU_xr15]
  · isplitr; · iexact HI_xs15
    isplitr; · iexact HJ_xr15
    isplitl [HS_x15]; · iexact HS_x15
    isplitl [HD_xr15]; · iexact HD_xr15
    isplitl [HO]; · iexact HO
    isplitl [HT_xs15]; · iexact HT_xs15
    isplitr; · iexact HR_xs15
    isplitl [HU_xr15]; · iexact HU_xr15
    iexact HQ_xr15
  iintro ⟨HC_xs15, HO⟩
  -- step 21: COPY sem=arg3,0
  iapply (wp_copy_cell m c (.ld 0) 0 (by decide) (by rfl) (credit_vslot 0) (ld_pay m c 0 0 0 (by rfl) _)) $$ [HS_ld0 HV0 HT_ld0_0]
  · isplitr; · iexact HI_ld0
    isplitl [HS_ld0]; · iexact HS_ld0
    isplitl [HV0]; · iexact HV0
    isplitl [HT_ld0_0]; · iexact HT_ld0_0
    iexact HR_ld0
  iintro HC_ld0
  -- step 22: COPY sem=arg3,1
  iapply (wp_copy_cell m c (.ld 1) 0 (by decide) (by rfl) (credit_vslot 1) (ld_pay m c 1 1 0 (by rfl) _)) $$ [HS_ld1 HV1 HT_ld1_0]
  · isplitr; · iexact HI_ld1
    isplitl [HS_ld1]; · iexact HS_ld1
    isplitl [HV1]; · iexact HV1
    isplitl [HT_ld1_0]; · iexact HT_ld1_0
    iexact HR_ld1
  iintro HC_ld1
  -- step 23: COPY sem=arg3,2
  iapply (wp_copy_cell m c (.ld 2) 0 (by decide) (by rfl) (credit_vslot 2) (ld_pay m c 2 2 0 (by rfl) _)) $$ [HS_ld2 HV2 HT_ld2_0]
  · isplitr; · iexact HI_ld2
    isplitl [HS_ld2]; · iexact HS_ld2
    isplitl [HV2]; · iexact HV2
    isplitl [HT_ld2_0]; · iexact HT_ld2_0
    iexact HR_ld2
  iintro HC_ld2
  -- step 24: WAIT sem=arg6,0
  iapply (wp_wait_cell m c (.xr 0) 0 (by decide) (by rfl) (credit_xDst c 0) (owedN c 48 19)) $$ [HC_xr0 HO HA_xr0]
  · isplitr; · iexact HI_xr0
    isplitl [HC_xr0]; · iexact HC_xr0
    isplitl [HO]; · iexact HO
    isplitr; · iapply (mayWait_cell c (.xr 0) 48 19 rfl (Or.inr (by decide))); iexact Hlev
    iexact HA_xr0
  iintro ⟨HO, HA_xr0, #HR_xr0, Hpay⟩
  ihave HB_qm0 := (Entails.of_eq (dmaPay_xr m c 0 0)) $$ Hpay
  ihave HB_qm0 := (pointsTo_share (PosShare.mem_left_op_right fullShare)).1 $$ HB_qm0
  icases HB_qm0 with ⟨HB_qmL0, HB_qmR0⟩
  -- step 25: SEND dev20 ss=arg7,0 rs=arg8,0
  iapply (wp_send_cell m c (yP c) _ (dev20_eq c) (.yds 0) (.ydr 0) (by decide) (by decide) (by rfl) (by rfl) (by rfl) (by rfl) (credit_qMine c 0) (by exact BI.Entails.refl _) (yd_pay m c 0 _) (owedN c 47 20)) $$ [HB_qmL0 HD_ydr0 HO HT_yds0 HU_ydr0]
  · isplitr; · iexact HI_yds0
    isplitr; · iexact HJ_ydr0
    isplitl [HB_qmL0]; · iexact HB_qmL0
    isplitl [HD_ydr0]; · iexact HD_ydr0
    isplitl [HO]; · iexact HO
    isplitl [HT_yds0]; · iexact HT_yds0
    isplitr; · iexact HR_yds0
    isplitl [HU_ydr0]; · iexact HU_ydr0
    iexact HQ_ydr0
  iintro ⟨HC_yds0, HO⟩
  -- step 26: SEND dev21 ss=arg9,0 rs=arg10,0
  iapply (wp_send_cell m c (zP c) _ (dev21_eq c) (.zds 0) (.zdr 0) (by decide) (by decide) (by rfl) (by rfl) (by rfl) (by rfl) (credit_qMine c 0) (by exact BI.Entails.refl _) (zd_pay m c 0 _) (owedN c 46 21)) $$ [HB_qmR0 HD_zdr0 HO HT_zds0 HU_zdr0]
  · isplitr; · iexact HI_zds0
    isplitr; · iexact HJ_zdr0
    isplitl [HB_qmR0]; · iexact HB_qmR0
    isplitl [HD_zdr0]; · iexact HD_zdr0
    isplitl [HO]; · iexact HO
    isplitl [HT_zds0]; · iexact HT_zds0
    isplitr; · iexact HR_zds0
    isplitl [HU_zdr0]; · iexact HU_zdr0
    iexact HQ_zdr0
  iintro ⟨HC_zds0, HO⟩
  -- step 27: WAIT sem=arg3,0
  iapply (wp_wait_cell m c (.ld 0) 0 (by decide) (by rfl) (credit_vslot 0) (owedN c 46 21)) $$ [HC_ld0 HO HA_ld0]
  · isplitr; · iexact HI_ld0
    isplitl [HC_ld0]; · iexact HC_ld0
    isplitl [HO]; · iexact HO
    isplitr; · iapply (mayWait_cell c (.ld 0) 46 21 rfl (Or.inr (by decide))); iexact Hlev
    iexact HA_ld0
  iintro ⟨HO, HA_ld0, #HR_ld0, Hpay⟩
  ihave Hpay := (Entails.of_eq (dmaPay_ld m c 0 0)) $$ Hpay
  icases Hpay with ⟨HV0, HS_ld0⟩
  -- step 28: COPY sem=arg4,0
  iapply (wp_copy_cell m c (.st 0) 0 (by decide) (by rfl) (credit_stDst c 0) (st_pay m c 0 0 0 (by rfl) _)) $$ [HV0 HB_st0 HT_st0_0]
  · isplitr; · iexact HI_st0
    isplitl [HV0]; · iexact HV0
    isplitl [HB_st0]; · iexact HB_st0
    isplitl [HT_st0_0]; · iexact HT_st0_0
    iexact HR_st0
  iintro HC_st0
  -- step 29: COPY sem=arg3,3
  iapply (wp_copy_cell m c (.ld 3) 0 (by decide) (by rfl) (credit_vslot 3) (ld_pay m c 3 3 0 (by rfl) _)) $$ [HS_ld3 HV3 HT_ld3_0]
  · isplitr; · iexact HI_ld3
    isplitl [HS_ld3]; · iexact HS_ld3
    isplitl [HV3]; · iexact HV3
    isplitl [HT_ld3_0]; · iexact HT_ld3_0
    iexact HR_ld3
  iintro HC_ld3
  -- step 30: WAIT sem=arg6,1
  iapply (wp_wait_cell m c (.xr 1) 0 (by decide) (by rfl) (credit_xDst c 1) (owedN c 46 21)) $$ [HC_xr1 HO HA_xr1]
  · isplitr; · iexact HI_xr1
    isplitl [HC_xr1]; · iexact HC_xr1
    isplitl [HO]; · iexact HO
    isplitr; · iapply (mayWait_cell c (.xr 1) 46 21 rfl (Or.inr (by decide))); iexact Hlev
    iexact HA_xr1
  iintro ⟨HO, HA_xr1, #HR_xr1, Hpay⟩
  ihave HB_qm1 := (Entails.of_eq (dmaPay_xr m c 1 0)) $$ Hpay
  ihave HB_qm1 := (pointsTo_share (PosShare.mem_left_op_right fullShare)).1 $$ HB_qm1
  icases HB_qm1 with ⟨HB_qmL1, HB_qmR1⟩
  -- step 31: SEND dev22 ss=arg7,1 rs=arg8,1
  iapply (wp_send_cell m c (yP c) _ (dev22_eq c) (.yds 1) (.ydr 1) (by decide) (by decide) (by rfl) (by rfl) (by rfl) (by rfl) (credit_qMine c 1) (by exact BI.Entails.refl _) (yd_pay m c 1 _) (owedN c 45 22)) $$ [HB_qmL1 HD_ydr1 HO HT_yds1 HU_ydr1]
  · isplitr; · iexact HI_yds1
    isplitr; · iexact HJ_ydr1
    isplitl [HB_qmL1]; · iexact HB_qmL1
    isplitl [HD_ydr1]; · iexact HD_ydr1
    isplitl [HO]; · iexact HO
    isplitl [HT_yds1]; · iexact HT_yds1
    isplitr; · iexact HR_yds1
    isplitl [HU_ydr1]; · iexact HU_ydr1
    iexact HQ_ydr1
  iintro ⟨HC_yds1, HO⟩
  -- step 32: SEND dev23 ss=arg9,1 rs=arg10,1
  iapply (wp_send_cell m c (zP c) _ (dev23_eq c) (.zds 1) (.zdr 1) (by decide) (by decide) (by rfl) (by rfl) (by rfl) (by rfl) (credit_qMine c 1) (by exact BI.Entails.refl _) (zd_pay m c 1 _) (owedN c 44 23)) $$ [HB_qmR1 HD_zdr1 HO HT_zds1 HU_zdr1]
  · isplitr; · iexact HI_zds1
    isplitr; · iexact HJ_zdr1
    isplitl [HB_qmR1]; · iexact HB_qmR1
    isplitl [HD_zdr1]; · iexact HD_zdr1
    isplitl [HO]; · iexact HO
    isplitl [HT_zds1]; · iexact HT_zds1
    isplitr; · iexact HR_zds1
    isplitl [HU_zdr1]; · iexact HU_zdr1
    iexact HQ_zdr1
  iintro ⟨HC_zds1, HO⟩
  -- step 33: WAIT sem=arg3,1
  iapply (wp_wait_cell m c (.ld 1) 0 (by decide) (by rfl) (credit_vslot 1) (owedN c 44 23)) $$ [HC_ld1 HO HA_ld1]
  · isplitr; · iexact HI_ld1
    isplitl [HC_ld1]; · iexact HC_ld1
    isplitl [HO]; · iexact HO
    isplitr; · iapply (mayWait_cell c (.ld 1) 44 23 rfl (Or.inr (by decide))); iexact Hlev
    iexact HA_ld1
  iintro ⟨HO, HA_ld1, #HR_ld1, Hpay⟩
  ihave Hpay := (Entails.of_eq (dmaPay_ld m c 1 0)) $$ Hpay
  icases Hpay with ⟨HV1, HS_ld1⟩
  -- step 34: COPY sem=arg4,1
  iapply (wp_copy_cell m c (.st 1) 0 (by decide) (by rfl) (credit_stDst c 1) (st_pay m c 1 1 0 (by rfl) _)) $$ [HV1 HB_st1 HT_st1_0]
  · isplitr; · iexact HI_st1
    isplitl [HV1]; · iexact HV1
    isplitl [HB_st1]; · iexact HB_st1
    isplitl [HT_st1_0]; · iexact HT_st1_0
    iexact HR_st1
  iintro HC_st1
  -- step 35: WAIT sem=arg4,0
  iapply (wp_wait_cell m c (.st 0) 0 (by decide) (by rfl) (credit_stDst c 0) (owedN c 44 23)) $$ [HC_st0 HO HA_st0]
  · isplitr; · iexact HI_st0
    isplitl [HC_st0]; · iexact HC_st0
    isplitl [HO]; · iexact HO
    isplitr; · iapply (mayWait_cell c (.st 0) 44 23 rfl (Or.inr (by decide))); iexact Hlev
    iexact HA_st0
  iintro ⟨HO, HA_st0, #HR_st0, Hpay⟩
  ihave Hpay := (Entails.of_eq (dmaPay_st m c 0 0)) $$ Hpay
  icases Hpay with ⟨HB_st0, HV0⟩
  -- step 36: COPY sem=arg3,0
  iapply (wp_copy_cell m c (.ld 0) 1 (by decide) (by rfl) (credit_vslot 0) (ld_pay m c 4 0 1 (by rfl) _)) $$ [HS_ld4 HV0 HT_ld0_1]
  · isplitr; · iexact HI_ld0
    isplitl [HS_ld4]; · iexact HS_ld4
    isplitl [HV0]; · iexact HV0
    isplitl [HT_ld0_1]; · iexact HT_ld0_1
    iexact HR_ld0
  iintro HC_ld0
  -- step 37: WAIT sem=arg6,2
  iapply (wp_wait_cell m c (.xr 2) 0 (by decide) (by rfl) (credit_xDst c 2) (owedN c 44 23)) $$ [HC_xr2 HO HA_xr2]
  · isplitr; · iexact HI_xr2
    isplitl [HC_xr2]; · iexact HC_xr2
    isplitl [HO]; · iexact HO
    isplitr; · iapply (mayWait_cell c (.xr 2) 44 23 rfl (Or.inr (by decide))); iexact Hlev
    iexact HA_xr2
  iintro ⟨HO, HA_xr2, #HR_xr2, Hpay⟩
  ihave HB_qm2 := (Entails.of_eq (dmaPay_xr m c 2 0)) $$ Hpay
  ihave HB_qm2 := (pointsTo_share (PosShare.mem_left_op_right fullShare)).1 $$ HB_qm2
  icases HB_qm2 with ⟨HB_qmL2, HB_qmR2⟩
  -- step 38: SEND dev24 ss=arg7,2 rs=arg8,2
  iapply (wp_send_cell m c (yP c) _ (dev24_eq c) (.yds 2) (.ydr 2) (by decide) (by decide) (by rfl) (by rfl) (by rfl) (by rfl) (credit_qMine c 2) (by exact BI.Entails.refl _) (yd_pay m c 2 _) (owedN c 43 24)) $$ [HB_qmL2 HD_ydr2 HO HT_yds2 HU_ydr2]
  · isplitr; · iexact HI_yds2
    isplitr; · iexact HJ_ydr2
    isplitl [HB_qmL2]; · iexact HB_qmL2
    isplitl [HD_ydr2]; · iexact HD_ydr2
    isplitl [HO]; · iexact HO
    isplitl [HT_yds2]; · iexact HT_yds2
    isplitr; · iexact HR_yds2
    isplitl [HU_ydr2]; · iexact HU_ydr2
    iexact HQ_ydr2
  iintro ⟨HC_yds2, HO⟩
  -- step 39: SEND dev25 ss=arg9,2 rs=arg10,2
  iapply (wp_send_cell m c (zP c) _ (dev25_eq c) (.zds 2) (.zdr 2) (by decide) (by decide) (by rfl) (by rfl) (by rfl) (by rfl) (credit_qMine c 2) (by exact BI.Entails.refl _) (zd_pay m c 2 _) (owedN c 42 25)) $$ [HB_qmR2 HD_zdr2 HO HT_zds2 HU_zdr2]
  · isplitr; · iexact HI_zds2
    isplitr; · iexact HJ_zdr2
    isplitl [HB_qmR2]; · iexact HB_qmR2
    isplitl [HD_zdr2]; · iexact HD_zdr2
    isplitl [HO]; · iexact HO
    isplitl [HT_zds2]; · iexact HT_zds2
    isplitr; · iexact HR_zds2
    isplitl [HU_zdr2]; · iexact HU_zdr2
    iexact HQ_zdr2
  iintro ⟨HC_zds2, HO⟩
  -- step 40: WAIT sem=arg3,2
  iapply (wp_wait_cell m c (.ld 2) 0 (by decide) (by rfl) (credit_vslot 2) (owedN c 42 25)) $$ [HC_ld2 HO HA_ld2]
  · isplitr; · iexact HI_ld2
    isplitl [HC_ld2]; · iexact HC_ld2
    isplitl [HO]; · iexact HO
    isplitr; · iapply (mayWait_cell c (.ld 2) 42 25 rfl (Or.inr (by decide))); iexact Hlev
    iexact HA_ld2
  iintro ⟨HO, HA_ld2, #HR_ld2, Hpay⟩
  ihave Hpay := (Entails.of_eq (dmaPay_ld m c 2 0)) $$ Hpay
  icases Hpay with ⟨HV2, HS_ld2⟩
  -- step 41: COPY sem=arg4,2
  iapply (wp_copy_cell m c (.st 2) 0 (by decide) (by rfl) (credit_stDst c 2) (st_pay m c 2 2 0 (by rfl) _)) $$ [HV2 HB_st2 HT_st2_0]
  · isplitr; · iexact HI_st2
    isplitl [HV2]; · iexact HV2
    isplitl [HB_st2]; · iexact HB_st2
    isplitl [HT_st2_0]; · iexact HT_st2_0
    iexact HR_st2
  iintro HC_st2
  -- step 42: WAIT sem=arg4,1
  iapply (wp_wait_cell m c (.st 1) 0 (by decide) (by rfl) (credit_stDst c 1) (owedN c 42 25)) $$ [HC_st1 HO HA_st1]
  · isplitr; · iexact HI_st1
    isplitl [HC_st1]; · iexact HC_st1
    isplitl [HO]; · iexact HO
    isplitr; · iapply (mayWait_cell c (.st 1) 42 25 rfl (Or.inr (by decide))); iexact Hlev
    iexact HA_st1
  iintro ⟨HO, HA_st1, #HR_st1, Hpay⟩
  ihave Hpay := (Entails.of_eq (dmaPay_st m c 1 0)) $$ Hpay
  icases Hpay with ⟨HB_st1, HV1⟩
  -- step 43: COPY sem=arg3,1
  iapply (wp_copy_cell m c (.ld 1) 1 (by decide) (by rfl) (credit_vslot 1) (ld_pay m c 5 1 1 (by rfl) _)) $$ [HS_ld5 HV1 HT_ld1_1]
  · isplitr; · iexact HI_ld1
    isplitl [HS_ld5]; · iexact HS_ld5
    isplitl [HV1]; · iexact HV1
    isplitl [HT_ld1_1]; · iexact HT_ld1_1
    iexact HR_ld1
  iintro HC_ld1
  -- step 44: WAIT sem=arg6,3
  iapply (wp_wait_cell m c (.xr 3) 0 (by decide) (by rfl) (credit_xDst c 3) (owedN c 42 25)) $$ [HC_xr3 HO HA_xr3]
  · isplitr; · iexact HI_xr3
    isplitl [HC_xr3]; · iexact HC_xr3
    isplitl [HO]; · iexact HO
    isplitr; · iapply (mayWait_cell c (.xr 3) 42 25 rfl (Or.inr (by decide))); iexact Hlev
    iexact HA_xr3
  iintro ⟨HO, HA_xr3, #HR_xr3, Hpay⟩
  ihave HB_qm3 := (Entails.of_eq (dmaPay_xr m c 3 0)) $$ Hpay
  ihave HB_qm3 := (pointsTo_share (PosShare.mem_left_op_right fullShare)).1 $$ HB_qm3
  icases HB_qm3 with ⟨HB_qmL3, HB_qmR3⟩
  -- step 45: SEND dev26 ss=arg7,3 rs=arg8,3
  iapply (wp_send_cell m c (yP c) _ (dev26_eq c) (.yds 3) (.ydr 3) (by decide) (by decide) (by rfl) (by rfl) (by rfl) (by rfl) (credit_qMine c 3) (by exact BI.Entails.refl _) (yd_pay m c 3 _) (owedN c 41 26)) $$ [HB_qmL3 HD_ydr3 HO HT_yds3 HU_ydr3]
  · isplitr; · iexact HI_yds3
    isplitr; · iexact HJ_ydr3
    isplitl [HB_qmL3]; · iexact HB_qmL3
    isplitl [HD_ydr3]; · iexact HD_ydr3
    isplitl [HO]; · iexact HO
    isplitl [HT_yds3]; · iexact HT_yds3
    isplitr; · iexact HR_yds3
    isplitl [HU_ydr3]; · iexact HU_ydr3
    iexact HQ_ydr3
  iintro ⟨HC_yds3, HO⟩
  -- step 46: SEND dev27 ss=arg9,3 rs=arg10,3
  iapply (wp_send_cell m c (zP c) _ (dev27_eq c) (.zds 3) (.zdr 3) (by decide) (by decide) (by rfl) (by rfl) (by rfl) (by rfl) (credit_qMine c 3) (by exact BI.Entails.refl _) (zd_pay m c 3 _) (owedN c 40 27)) $$ [HB_qmR3 HD_zdr3 HO HT_zds3 HU_zdr3]
  · isplitr; · iexact HI_zds3
    isplitr; · iexact HJ_zdr3
    isplitl [HB_qmR3]; · iexact HB_qmR3
    isplitl [HD_zdr3]; · iexact HD_zdr3
    isplitl [HO]; · iexact HO
    isplitl [HT_zds3]; · iexact HT_zds3
    isplitr; · iexact HR_zds3
    isplitl [HU_zdr3]; · iexact HU_zdr3
    iexact HQ_zdr3
  iintro ⟨HC_zds3, HO⟩
  -- step 47: WAIT sem=arg3,3
  iapply (wp_wait_cell m c (.ld 3) 0 (by decide) (by rfl) (credit_vslot 3) (owedN c 40 27)) $$ [HC_ld3 HO HA_ld3]
  · isplitr; · iexact HI_ld3
    isplitl [HC_ld3]; · iexact HC_ld3
    isplitl [HO]; · iexact HO
    isplitr; · iapply (mayWait_cell c (.ld 3) 40 27 rfl (Or.inr (by decide))); iexact Hlev
    iexact HA_ld3
  iintro ⟨HO, HA_ld3, #HR_ld3, Hpay⟩
  ihave Hpay := (Entails.of_eq (dmaPay_ld m c 3 0)) $$ Hpay
  icases Hpay with ⟨HV3, HS_ld3⟩
  -- step 48: COPY sem=arg4,3
  iapply (wp_copy_cell m c (.st 3) 0 (by decide) (by rfl) (credit_stDst c 3) (st_pay m c 3 3 0 (by rfl) _)) $$ [HV3 HB_st3 HT_st3_0]
  · isplitr; · iexact HI_st3
    isplitl [HV3]; · iexact HV3
    isplitl [HB_st3]; · iexact HB_st3
    isplitl [HT_st3_0]; · iexact HT_st3_0
    iexact HR_st3
  iintro HC_st3
  -- step 49: WAIT sem=arg4,2
  iapply (wp_wait_cell m c (.st 2) 0 (by decide) (by rfl) (credit_stDst c 2) (owedN c 40 27)) $$ [HC_st2 HO HA_st2]
  · isplitr; · iexact HI_st2
    isplitl [HC_st2]; · iexact HC_st2
    isplitl [HO]; · iexact HO
    isplitr; · iapply (mayWait_cell c (.st 2) 40 27 rfl (Or.inr (by decide))); iexact Hlev
    iexact HA_st2
  iintro ⟨HO, HA_st2, #HR_st2, Hpay⟩
  ihave Hpay := (Entails.of_eq (dmaPay_st m c 2 0)) $$ Hpay
  icases Hpay with ⟨HB_st2, HV2⟩
  -- step 50: COPY sem=arg3,2
  iapply (wp_copy_cell m c (.ld 2) 1 (by decide) (by rfl) (credit_vslot 2) (ld_pay m c 6 2 1 (by rfl) _)) $$ [HS_ld6 HV2 HT_ld2_1]
  · isplitr; · iexact HI_ld2
    isplitl [HS_ld6]; · iexact HS_ld6
    isplitl [HV2]; · iexact HV2
    isplitl [HT_ld2_1]; · iexact HT_ld2_1
    iexact HR_ld2
  iintro HC_ld2
  -- step 51: WAIT sem=arg6,4
  iapply (wp_wait_cell m c (.xr 4) 0 (by decide) (by rfl) (credit_xDst c 4) (owedN c 40 27)) $$ [HC_xr4 HO HA_xr4]
  · isplitr; · iexact HI_xr4
    isplitl [HC_xr4]; · iexact HC_xr4
    isplitl [HO]; · iexact HO
    isplitr; · iapply (mayWait_cell c (.xr 4) 40 27 rfl (Or.inr (by decide))); iexact Hlev
    iexact HA_xr4
  iintro ⟨HO, HA_xr4, #HR_xr4, Hpay⟩
  ihave HB_qm4 := (Entails.of_eq (dmaPay_xr m c 4 0)) $$ Hpay
  ihave HB_qm4 := (pointsTo_share (PosShare.mem_left_op_right fullShare)).1 $$ HB_qm4
  icases HB_qm4 with ⟨HB_qmL4, HB_qmR4⟩
  -- step 52: SEND dev28 ss=arg7,4 rs=arg8,4
  iapply (wp_send_cell m c (yP c) _ (dev28_eq c) (.yds 4) (.ydr 4) (by decide) (by decide) (by rfl) (by rfl) (by rfl) (by rfl) (credit_qMine c 4) (by exact BI.Entails.refl _) (yd_pay m c 4 _) (owedN c 39 28)) $$ [HB_qmL4 HD_ydr4 HO HT_yds4 HU_ydr4]
  · isplitr; · iexact HI_yds4
    isplitr; · iexact HJ_ydr4
    isplitl [HB_qmL4]; · iexact HB_qmL4
    isplitl [HD_ydr4]; · iexact HD_ydr4
    isplitl [HO]; · iexact HO
    isplitl [HT_yds4]; · iexact HT_yds4
    isplitr; · iexact HR_yds4
    isplitl [HU_ydr4]; · iexact HU_ydr4
    iexact HQ_ydr4
  iintro ⟨HC_yds4, HO⟩
  -- step 53: SEND dev29 ss=arg9,4 rs=arg10,4
  iapply (wp_send_cell m c (zP c) _ (dev29_eq c) (.zds 4) (.zdr 4) (by decide) (by decide) (by rfl) (by rfl) (by rfl) (by rfl) (credit_qMine c 4) (by exact BI.Entails.refl _) (zd_pay m c 4 _) (owedN c 38 29)) $$ [HB_qmR4 HD_zdr4 HO HT_zds4 HU_zdr4]
  · isplitr; · iexact HI_zds4
    isplitr; · iexact HJ_zdr4
    isplitl [HB_qmR4]; · iexact HB_qmR4
    isplitl [HD_zdr4]; · iexact HD_zdr4
    isplitl [HO]; · iexact HO
    isplitl [HT_zds4]; · iexact HT_zds4
    isplitr; · iexact HR_zds4
    isplitl [HU_zdr4]; · iexact HU_zdr4
    iexact HQ_zdr4
  iintro ⟨HC_zds4, HO⟩
  -- step 54: WAIT sem=arg3,0
  iapply (wp_wait_cell m c (.ld 0) 1 (by decide) (by rfl) (credit_vslot 0) (owedN c 38 29)) $$ [HC_ld0 HO HA_ld0]
  · isplitr; · iexact HI_ld0
    isplitl [HC_ld0]; · iexact HC_ld0
    isplitl [HO]; · iexact HO
    isplitr; · iapply (mayWait_cell c (.ld 0) 38 29 rfl (Or.inr (by decide))); iexact Hlev
    iexact HA_ld0
  iintro ⟨HO, HA_ld0, #HR_ld0, Hpay⟩
  ihave Hpay := (Entails.of_eq (dmaPay_ld m c 0 1)) $$ Hpay
  icases Hpay with ⟨HV0, HS_ld4⟩
  -- step 55: COPY sem=arg4,0
  iapply (wp_copy_cell m c (.st 0) 1 (by decide) (by rfl) (credit_stDst c 4) (st_pay m c 4 0 1 (by rfl) _)) $$ [HV0 HB_st4 HT_st0_1]
  · isplitr; · iexact HI_st0
    isplitl [HV0]; · iexact HV0
    isplitl [HB_st4]; · iexact HB_st4
    isplitl [HT_st0_1]; · iexact HT_st0_1
    iexact HR_st0
  iintro HC_st0
  -- step 56: WAIT sem=arg4,3
  iapply (wp_wait_cell m c (.st 3) 0 (by decide) (by rfl) (credit_stDst c 3) (owedN c 38 29)) $$ [HC_st3 HO HA_st3]
  · isplitr; · iexact HI_st3
    isplitl [HC_st3]; · iexact HC_st3
    isplitl [HO]; · iexact HO
    isplitr; · iapply (mayWait_cell c (.st 3) 38 29 rfl (Or.inr (by decide))); iexact Hlev
    iexact HA_st3
  iintro ⟨HO, HA_st3, #HR_st3, Hpay⟩
  ihave Hpay := (Entails.of_eq (dmaPay_st m c 3 0)) $$ Hpay
  icases Hpay with ⟨HB_st3, HV3⟩
  -- step 57: COPY sem=arg3,3
  iapply (wp_copy_cell m c (.ld 3) 1 (by decide) (by rfl) (credit_vslot 3) (ld_pay m c 7 3 1 (by rfl) _)) $$ [HS_ld7 HV3 HT_ld3_1]
  · isplitr; · iexact HI_ld3
    isplitl [HS_ld7]; · iexact HS_ld7
    isplitl [HV3]; · iexact HV3
    isplitl [HT_ld3_1]; · iexact HT_ld3_1
    iexact HR_ld3
  iintro HC_ld3
  -- step 58: WAIT sem=arg6,5
  iapply (wp_wait_cell m c (.xr 5) 0 (by decide) (by rfl) (credit_xDst c 5) (owedN c 38 29)) $$ [HC_xr5 HO HA_xr5]
  · isplitr; · iexact HI_xr5
    isplitl [HC_xr5]; · iexact HC_xr5
    isplitl [HO]; · iexact HO
    isplitr; · iapply (mayWait_cell c (.xr 5) 38 29 rfl (Or.inr (by decide))); iexact Hlev
    iexact HA_xr5
  iintro ⟨HO, HA_xr5, #HR_xr5, Hpay⟩
  ihave HB_qm5 := (Entails.of_eq (dmaPay_xr m c 5 0)) $$ Hpay
  ihave HB_qm5 := (pointsTo_share (PosShare.mem_left_op_right fullShare)).1 $$ HB_qm5
  icases HB_qm5 with ⟨HB_qmL5, HB_qmR5⟩
  -- step 59: SEND dev30 ss=arg7,5 rs=arg8,5
  iapply (wp_send_cell m c (yP c) _ (dev30_eq c) (.yds 5) (.ydr 5) (by decide) (by decide) (by rfl) (by rfl) (by rfl) (by rfl) (credit_qMine c 5) (by exact BI.Entails.refl _) (yd_pay m c 5 _) (owedN c 37 30)) $$ [HB_qmL5 HD_ydr5 HO HT_yds5 HU_ydr5]
  · isplitr; · iexact HI_yds5
    isplitr; · iexact HJ_ydr5
    isplitl [HB_qmL5]; · iexact HB_qmL5
    isplitl [HD_ydr5]; · iexact HD_ydr5
    isplitl [HO]; · iexact HO
    isplitl [HT_yds5]; · iexact HT_yds5
    isplitr; · iexact HR_yds5
    isplitl [HU_ydr5]; · iexact HU_ydr5
    iexact HQ_ydr5
  iintro ⟨HC_yds5, HO⟩
  -- step 60: SEND dev31 ss=arg9,5 rs=arg10,5
  iapply (wp_send_cell m c (zP c) _ (dev31_eq c) (.zds 5) (.zdr 5) (by decide) (by decide) (by rfl) (by rfl) (by rfl) (by rfl) (credit_qMine c 5) (by exact BI.Entails.refl _) (zd_pay m c 5 _) (owedN c 36 31)) $$ [HB_qmR5 HD_zdr5 HO HT_zds5 HU_zdr5]
  · isplitr; · iexact HI_zds5
    isplitr; · iexact HJ_zdr5
    isplitl [HB_qmR5]; · iexact HB_qmR5
    isplitl [HD_zdr5]; · iexact HD_zdr5
    isplitl [HO]; · iexact HO
    isplitl [HT_zds5]; · iexact HT_zds5
    isplitr; · iexact HR_zds5
    isplitl [HU_zdr5]; · iexact HU_zdr5
    iexact HQ_zdr5
  iintro ⟨HC_zds5, HO⟩
  -- step 61: WAIT sem=arg3,1
  iapply (wp_wait_cell m c (.ld 1) 1 (by decide) (by rfl) (credit_vslot 1) (owedN c 36 31)) $$ [HC_ld1 HO HA_ld1]
  · isplitr; · iexact HI_ld1
    isplitl [HC_ld1]; · iexact HC_ld1
    isplitl [HO]; · iexact HO
    isplitr; · iapply (mayWait_cell c (.ld 1) 36 31 rfl (Or.inr (by decide))); iexact Hlev
    iexact HA_ld1
  iintro ⟨HO, HA_ld1, #HR_ld1, Hpay⟩
  ihave Hpay := (Entails.of_eq (dmaPay_ld m c 1 1)) $$ Hpay
  icases Hpay with ⟨HV1, HS_ld5⟩
  -- step 62: COPY sem=arg4,1
  iapply (wp_copy_cell m c (.st 1) 1 (by decide) (by rfl) (credit_stDst c 5) (st_pay m c 5 1 1 (by rfl) _)) $$ [HV1 HB_st5 HT_st1_1]
  · isplitr; · iexact HI_st1
    isplitl [HV1]; · iexact HV1
    isplitl [HB_st5]; · iexact HB_st5
    isplitl [HT_st1_1]; · iexact HT_st1_1
    iexact HR_st1
  iintro HC_st1
  -- step 63: WAIT sem=arg4,0
  iapply (wp_wait_cell m c (.st 0) 1 (by decide) (by rfl) (credit_stDst c 4) (owedN c 36 31)) $$ [HC_st0 HO HA_st0]
  · isplitr; · iexact HI_st0
    isplitl [HC_st0]; · iexact HC_st0
    isplitl [HO]; · iexact HO
    isplitr; · iapply (mayWait_cell c (.st 0) 36 31 rfl (Or.inr (by decide))); iexact Hlev
    iexact HA_st0
  iintro ⟨HO, HA_st0, #HR_st0, Hpay⟩
  ihave Hpay := (Entails.of_eq (dmaPay_st m c 0 1)) $$ Hpay
  icases Hpay with ⟨HB_st4, HV0⟩
  -- step 64: COPY sem=arg3,0
  iapply (wp_copy_cell m c (.ld 0) 2 (by decide) (by rfl) (credit_vslot 0) (ld_pay m c 8 0 2 (by rfl) _)) $$ [HS_ld8 HV0 HT_ld0_2]
  · isplitr; · iexact HI_ld0
    isplitl [HS_ld8]; · iexact HS_ld8
    isplitl [HV0]; · iexact HV0
    isplitl [HT_ld0_2]; · iexact HT_ld0_2
    iexact HR_ld0
  iintro HC_ld0
  -- step 65: WAIT sem=arg6,6
  iapply (wp_wait_cell m c (.xr 6) 0 (by decide) (by rfl) (credit_xDst c 6) (owedN c 36 31)) $$ [HC_xr6 HO HA_xr6]
  · isplitr; · iexact HI_xr6
    isplitl [HC_xr6]; · iexact HC_xr6
    isplitl [HO]; · iexact HO
    isplitr; · iapply (mayWait_cell c (.xr 6) 36 31 rfl (Or.inr (by decide))); iexact Hlev
    iexact HA_xr6
  iintro ⟨HO, HA_xr6, #HR_xr6, Hpay⟩
  ihave HB_qm6 := (Entails.of_eq (dmaPay_xr m c 6 0)) $$ Hpay
  ihave HB_qm6 := (pointsTo_share (PosShare.mem_left_op_right fullShare)).1 $$ HB_qm6
  icases HB_qm6 with ⟨HB_qmL6, HB_qmR6⟩
  -- step 66: SEND dev32 ss=arg7,6 rs=arg8,6
  iapply (wp_send_cell m c (yP c) _ (dev32_eq c) (.yds 6) (.ydr 6) (by decide) (by decide) (by rfl) (by rfl) (by rfl) (by rfl) (credit_qMine c 6) (by exact BI.Entails.refl _) (yd_pay m c 6 _) (owedN c 35 32)) $$ [HB_qmL6 HD_ydr6 HO HT_yds6 HU_ydr6]
  · isplitr; · iexact HI_yds6
    isplitr; · iexact HJ_ydr6
    isplitl [HB_qmL6]; · iexact HB_qmL6
    isplitl [HD_ydr6]; · iexact HD_ydr6
    isplitl [HO]; · iexact HO
    isplitl [HT_yds6]; · iexact HT_yds6
    isplitr; · iexact HR_yds6
    isplitl [HU_ydr6]; · iexact HU_ydr6
    iexact HQ_ydr6
  iintro ⟨HC_yds6, HO⟩
  -- step 67: SEND dev33 ss=arg9,6 rs=arg10,6
  iapply (wp_send_cell m c (zP c) _ (dev33_eq c) (.zds 6) (.zdr 6) (by decide) (by decide) (by rfl) (by rfl) (by rfl) (by rfl) (credit_qMine c 6) (by exact BI.Entails.refl _) (zd_pay m c 6 _) (owedN c 34 33)) $$ [HB_qmR6 HD_zdr6 HO HT_zds6 HU_zdr6]
  · isplitr; · iexact HI_zds6
    isplitr; · iexact HJ_zdr6
    isplitl [HB_qmR6]; · iexact HB_qmR6
    isplitl [HD_zdr6]; · iexact HD_zdr6
    isplitl [HO]; · iexact HO
    isplitl [HT_zds6]; · iexact HT_zds6
    isplitr; · iexact HR_zds6
    isplitl [HU_zdr6]; · iexact HU_zdr6
    iexact HQ_zdr6
  iintro ⟨HC_zds6, HO⟩
  -- step 68: WAIT sem=arg3,2
  iapply (wp_wait_cell m c (.ld 2) 1 (by decide) (by rfl) (credit_vslot 2) (owedN c 34 33)) $$ [HC_ld2 HO HA_ld2]
  · isplitr; · iexact HI_ld2
    isplitl [HC_ld2]; · iexact HC_ld2
    isplitl [HO]; · iexact HO
    isplitr; · iapply (mayWait_cell c (.ld 2) 34 33 rfl (Or.inr (by decide))); iexact Hlev
    iexact HA_ld2
  iintro ⟨HO, HA_ld2, #HR_ld2, Hpay⟩
  ihave Hpay := (Entails.of_eq (dmaPay_ld m c 2 1)) $$ Hpay
  icases Hpay with ⟨HV2, HS_ld6⟩
  -- step 69: COPY sem=arg4,2
  iapply (wp_copy_cell m c (.st 2) 1 (by decide) (by rfl) (credit_stDst c 6) (st_pay m c 6 2 1 (by rfl) _)) $$ [HV2 HB_st6 HT_st2_1]
  · isplitr; · iexact HI_st2
    isplitl [HV2]; · iexact HV2
    isplitl [HB_st6]; · iexact HB_st6
    isplitl [HT_st2_1]; · iexact HT_st2_1
    iexact HR_st2
  iintro HC_st2
  -- step 70: WAIT sem=arg4,1
  iapply (wp_wait_cell m c (.st 1) 1 (by decide) (by rfl) (credit_stDst c 5) (owedN c 34 33)) $$ [HC_st1 HO HA_st1]
  · isplitr; · iexact HI_st1
    isplitl [HC_st1]; · iexact HC_st1
    isplitl [HO]; · iexact HO
    isplitr; · iapply (mayWait_cell c (.st 1) 34 33 rfl (Or.inr (by decide))); iexact Hlev
    iexact HA_st1
  iintro ⟨HO, HA_st1, #HR_st1, Hpay⟩
  ihave Hpay := (Entails.of_eq (dmaPay_st m c 1 1)) $$ Hpay
  icases Hpay with ⟨HB_st5, HV1⟩
  -- step 71: COPY sem=arg3,1
  iapply (wp_copy_cell m c (.ld 1) 2 (by decide) (by rfl) (credit_vslot 1) (ld_pay m c 9 1 2 (by rfl) _)) $$ [HS_ld9 HV1 HT_ld1_2]
  · isplitr; · iexact HI_ld1
    isplitl [HS_ld9]; · iexact HS_ld9
    isplitl [HV1]; · iexact HV1
    isplitl [HT_ld1_2]; · iexact HT_ld1_2
    iexact HR_ld1
  iintro HC_ld1
  -- step 72: WAIT sem=arg6,7
  iapply (wp_wait_cell m c (.xr 7) 0 (by decide) (by rfl) (credit_xDst c 7) (owedN c 34 33)) $$ [HC_xr7 HO HA_xr7]
  · isplitr; · iexact HI_xr7
    isplitl [HC_xr7]; · iexact HC_xr7
    isplitl [HO]; · iexact HO
    isplitr; · iapply (mayWait_cell c (.xr 7) 34 33 rfl (Or.inr (by decide))); iexact Hlev
    iexact HA_xr7
  iintro ⟨HO, HA_xr7, #HR_xr7, Hpay⟩
  ihave HB_qm7 := (Entails.of_eq (dmaPay_xr m c 7 0)) $$ Hpay
  ihave HB_qm7 := (pointsTo_share (PosShare.mem_left_op_right fullShare)).1 $$ HB_qm7
  icases HB_qm7 with ⟨HB_qmL7, HB_qmR7⟩
  -- step 73: SEND dev34 ss=arg7,7 rs=arg8,7
  iapply (wp_send_cell m c (yP c) _ (dev34_eq c) (.yds 7) (.ydr 7) (by decide) (by decide) (by rfl) (by rfl) (by rfl) (by rfl) (credit_qMine c 7) (by exact BI.Entails.refl _) (yd_pay m c 7 _) (owedN c 33 34)) $$ [HB_qmL7 HD_ydr7 HO HT_yds7 HU_ydr7]
  · isplitr; · iexact HI_yds7
    isplitr; · iexact HJ_ydr7
    isplitl [HB_qmL7]; · iexact HB_qmL7
    isplitl [HD_ydr7]; · iexact HD_ydr7
    isplitl [HO]; · iexact HO
    isplitl [HT_yds7]; · iexact HT_yds7
    isplitr; · iexact HR_yds7
    isplitl [HU_ydr7]; · iexact HU_ydr7
    iexact HQ_ydr7
  iintro ⟨HC_yds7, HO⟩
  -- step 74: SEND dev35 ss=arg9,7 rs=arg10,7
  iapply (wp_send_cell m c (zP c) _ (dev35_eq c) (.zds 7) (.zdr 7) (by decide) (by decide) (by rfl) (by rfl) (by rfl) (by rfl) (credit_qMine c 7) (by exact BI.Entails.refl _) (zd_pay m c 7 _) (owedN c 32 35)) $$ [HB_qmR7 HD_zdr7 HO HT_zds7 HU_zdr7]
  · isplitr; · iexact HI_zds7
    isplitr; · iexact HJ_zdr7
    isplitl [HB_qmR7]; · iexact HB_qmR7
    isplitl [HD_zdr7]; · iexact HD_zdr7
    isplitl [HO]; · iexact HO
    isplitl [HT_zds7]; · iexact HT_zds7
    isplitr; · iexact HR_zds7
    isplitl [HU_zdr7]; · iexact HU_zdr7
    iexact HQ_zdr7
  iintro ⟨HC_zds7, HO⟩
  -- step 75: WAIT sem=arg3,3
  iapply (wp_wait_cell m c (.ld 3) 1 (by decide) (by rfl) (credit_vslot 3) (owedN c 32 35)) $$ [HC_ld3 HO HA_ld3]
  · isplitr; · iexact HI_ld3
    isplitl [HC_ld3]; · iexact HC_ld3
    isplitl [HO]; · iexact HO
    isplitr; · iapply (mayWait_cell c (.ld 3) 32 35 rfl (Or.inr (by decide))); iexact Hlev
    iexact HA_ld3
  iintro ⟨HO, HA_ld3, #HR_ld3, Hpay⟩
  ihave Hpay := (Entails.of_eq (dmaPay_ld m c 3 1)) $$ Hpay
  icases Hpay with ⟨HV3, HS_ld7⟩
  -- step 76: COPY sem=arg4,3
  iapply (wp_copy_cell m c (.st 3) 1 (by decide) (by rfl) (credit_stDst c 7) (st_pay m c 7 3 1 (by rfl) _)) $$ [HV3 HB_st7 HT_st3_1]
  · isplitr; · iexact HI_st3
    isplitl [HV3]; · iexact HV3
    isplitl [HB_st7]; · iexact HB_st7
    isplitl [HT_st3_1]; · iexact HT_st3_1
    iexact HR_st3
  iintro HC_st3
  -- step 77: WAIT sem=arg4,2
  iapply (wp_wait_cell m c (.st 2) 1 (by decide) (by rfl) (credit_stDst c 6) (owedN c 32 35)) $$ [HC_st2 HO HA_st2]
  · isplitr; · iexact HI_st2
    isplitl [HC_st2]; · iexact HC_st2
    isplitl [HO]; · iexact HO
    isplitr; · iapply (mayWait_cell c (.st 2) 32 35 rfl (Or.inr (by decide))); iexact Hlev
    iexact HA_st2
  iintro ⟨HO, HA_st2, #HR_st2, Hpay⟩
  ihave Hpay := (Entails.of_eq (dmaPay_st m c 2 1)) $$ Hpay
  icases Hpay with ⟨HB_st6, HV2⟩
  -- step 78: COPY sem=arg3,2
  iapply (wp_copy_cell m c (.ld 2) 2 (by decide) (by rfl) (credit_vslot 2) (ld_pay m c 10 2 2 (by rfl) _)) $$ [HS_ld10 HV2 HT_ld2_2]
  · isplitr; · iexact HI_ld2
    isplitl [HS_ld10]; · iexact HS_ld10
    isplitl [HV2]; · iexact HV2
    isplitl [HT_ld2_2]; · iexact HT_ld2_2
    iexact HR_ld2
  iintro HC_ld2
  -- step 79: WAIT sem=arg6,8
  iapply (wp_wait_cell m c (.xr 8) 0 (by decide) (by rfl) (credit_xDst c 8) (owedN c 32 35)) $$ [HC_xr8 HO HA_xr8]
  · isplitr; · iexact HI_xr8
    isplitl [HC_xr8]; · iexact HC_xr8
    isplitl [HO]; · iexact HO
    isplitr; · iapply (mayWait_cell c (.xr 8) 32 35 rfl (Or.inr (by decide))); iexact Hlev
    iexact HA_xr8
  iintro ⟨HO, HA_xr8, #HR_xr8, Hpay⟩
  ihave HB_qm8 := (Entails.of_eq (dmaPay_xr m c 8 0)) $$ Hpay
  ihave HB_qm8 := (pointsTo_share (PosShare.mem_left_op_right fullShare)).1 $$ HB_qm8
  icases HB_qm8 with ⟨HB_qmL8, HB_qmR8⟩
  -- step 80: SEND dev36 ss=arg7,8 rs=arg8,8
  iapply (wp_send_cell m c (yP c) _ (dev36_eq c) (.yds 8) (.ydr 8) (by decide) (by decide) (by rfl) (by rfl) (by rfl) (by rfl) (credit_qMine c 8) (by exact BI.Entails.refl _) (yd_pay m c 8 _) (owedN c 31 36)) $$ [HB_qmL8 HD_ydr8 HO HT_yds8 HU_ydr8]
  · isplitr; · iexact HI_yds8
    isplitr; · iexact HJ_ydr8
    isplitl [HB_qmL8]; · iexact HB_qmL8
    isplitl [HD_ydr8]; · iexact HD_ydr8
    isplitl [HO]; · iexact HO
    isplitl [HT_yds8]; · iexact HT_yds8
    isplitr; · iexact HR_yds8
    isplitl [HU_ydr8]; · iexact HU_ydr8
    iexact HQ_ydr8
  iintro ⟨HC_yds8, HO⟩
  -- step 81: SEND dev37 ss=arg9,8 rs=arg10,8
  iapply (wp_send_cell m c (zP c) _ (dev37_eq c) (.zds 8) (.zdr 8) (by decide) (by decide) (by rfl) (by rfl) (by rfl) (by rfl) (credit_qMine c 8) (by exact BI.Entails.refl _) (zd_pay m c 8 _) (owedN c 30 37)) $$ [HB_qmR8 HD_zdr8 HO HT_zds8 HU_zdr8]
  · isplitr; · iexact HI_zds8
    isplitr; · iexact HJ_zdr8
    isplitl [HB_qmR8]; · iexact HB_qmR8
    isplitl [HD_zdr8]; · iexact HD_zdr8
    isplitl [HO]; · iexact HO
    isplitl [HT_zds8]; · iexact HT_zds8
    isplitr; · iexact HR_zds8
    isplitl [HU_zdr8]; · iexact HU_zdr8
    iexact HQ_zdr8
  iintro ⟨HC_zds8, HO⟩
  -- step 82: WAIT sem=arg3,0
  iapply (wp_wait_cell m c (.ld 0) 2 (by decide) (by rfl) (credit_vslot 0) (owedN c 30 37)) $$ [HC_ld0 HO HA_ld0]
  · isplitr; · iexact HI_ld0
    isplitl [HC_ld0]; · iexact HC_ld0
    isplitl [HO]; · iexact HO
    isplitr; · iapply (mayWait_cell c (.ld 0) 30 37 rfl (Or.inr (by decide))); iexact Hlev
    iexact HA_ld0
  iintro ⟨HO, HA_ld0, #HR_ld0, Hpay⟩
  ihave Hpay := (Entails.of_eq (dmaPay_ld m c 0 2)) $$ Hpay
  icases Hpay with ⟨HV0, HS_ld8⟩
  -- step 83: COPY sem=arg4,0
  iapply (wp_copy_cell m c (.st 0) 2 (by decide) (by rfl) (credit_stDst c 8) (st_pay m c 8 0 2 (by rfl) _)) $$ [HV0 HB_st8 HT_st0_2]
  · isplitr; · iexact HI_st0
    isplitl [HV0]; · iexact HV0
    isplitl [HB_st8]; · iexact HB_st8
    isplitl [HT_st0_2]; · iexact HT_st0_2
    iexact HR_st0
  iintro HC_st0
  -- step 84: WAIT sem=arg4,3
  iapply (wp_wait_cell m c (.st 3) 1 (by decide) (by rfl) (credit_stDst c 7) (owedN c 30 37)) $$ [HC_st3 HO HA_st3]
  · isplitr; · iexact HI_st3
    isplitl [HC_st3]; · iexact HC_st3
    isplitl [HO]; · iexact HO
    isplitr; · iapply (mayWait_cell c (.st 3) 30 37 rfl (Or.inr (by decide))); iexact Hlev
    iexact HA_st3
  iintro ⟨HO, HA_st3, #HR_st3, Hpay⟩
  ihave Hpay := (Entails.of_eq (dmaPay_st m c 3 1)) $$ Hpay
  icases Hpay with ⟨HB_st7, HV3⟩
  -- step 85: COPY sem=arg3,3
  iapply (wp_copy_cell m c (.ld 3) 2 (by decide) (by rfl) (credit_vslot 3) (ld_pay m c 11 3 2 (by rfl) _)) $$ [HS_ld11 HV3 HT_ld3_2]
  · isplitr; · iexact HI_ld3
    isplitl [HS_ld11]; · iexact HS_ld11
    isplitl [HV3]; · iexact HV3
    isplitl [HT_ld3_2]; · iexact HT_ld3_2
    iexact HR_ld3
  iintro HC_ld3
  -- step 86: WAIT sem=arg6,9
  iapply (wp_wait_cell m c (.xr 9) 0 (by decide) (by rfl) (credit_xDst c 9) (owedN c 30 37)) $$ [HC_xr9 HO HA_xr9]
  · isplitr; · iexact HI_xr9
    isplitl [HC_xr9]; · iexact HC_xr9
    isplitl [HO]; · iexact HO
    isplitr; · iapply (mayWait_cell c (.xr 9) 30 37 rfl (Or.inr (by decide))); iexact Hlev
    iexact HA_xr9
  iintro ⟨HO, HA_xr9, #HR_xr9, Hpay⟩
  ihave HB_qm9 := (Entails.of_eq (dmaPay_xr m c 9 0)) $$ Hpay
  ihave HB_qm9 := (pointsTo_share (PosShare.mem_left_op_right fullShare)).1 $$ HB_qm9
  icases HB_qm9 with ⟨HB_qmL9, HB_qmR9⟩
  -- step 87: SEND dev38 ss=arg7,9 rs=arg8,9
  iapply (wp_send_cell m c (yP c) _ (dev38_eq c) (.yds 9) (.ydr 9) (by decide) (by decide) (by rfl) (by rfl) (by rfl) (by rfl) (credit_qMine c 9) (by exact BI.Entails.refl _) (yd_pay m c 9 _) (owedN c 29 38)) $$ [HB_qmL9 HD_ydr9 HO HT_yds9 HU_ydr9]
  · isplitr; · iexact HI_yds9
    isplitr; · iexact HJ_ydr9
    isplitl [HB_qmL9]; · iexact HB_qmL9
    isplitl [HD_ydr9]; · iexact HD_ydr9
    isplitl [HO]; · iexact HO
    isplitl [HT_yds9]; · iexact HT_yds9
    isplitr; · iexact HR_yds9
    isplitl [HU_ydr9]; · iexact HU_ydr9
    iexact HQ_ydr9
  iintro ⟨HC_yds9, HO⟩
  -- step 88: SEND dev39 ss=arg9,9 rs=arg10,9
  iapply (wp_send_cell m c (zP c) _ (dev39_eq c) (.zds 9) (.zdr 9) (by decide) (by decide) (by rfl) (by rfl) (by rfl) (by rfl) (credit_qMine c 9) (by exact BI.Entails.refl _) (zd_pay m c 9 _) (owedN c 28 39)) $$ [HB_qmR9 HD_zdr9 HO HT_zds9 HU_zdr9]
  · isplitr; · iexact HI_zds9
    isplitr; · iexact HJ_zdr9
    isplitl [HB_qmR9]; · iexact HB_qmR9
    isplitl [HD_zdr9]; · iexact HD_zdr9
    isplitl [HO]; · iexact HO
    isplitl [HT_zds9]; · iexact HT_zds9
    isplitr; · iexact HR_zds9
    isplitl [HU_zdr9]; · iexact HU_zdr9
    iexact HQ_zdr9
  iintro ⟨HC_zds9, HO⟩
  -- step 89: WAIT sem=arg3,1
  iapply (wp_wait_cell m c (.ld 1) 2 (by decide) (by rfl) (credit_vslot 1) (owedN c 28 39)) $$ [HC_ld1 HO HA_ld1]
  · isplitr; · iexact HI_ld1
    isplitl [HC_ld1]; · iexact HC_ld1
    isplitl [HO]; · iexact HO
    isplitr; · iapply (mayWait_cell c (.ld 1) 28 39 rfl (Or.inr (by decide))); iexact Hlev
    iexact HA_ld1
  iintro ⟨HO, HA_ld1, #HR_ld1, Hpay⟩
  ihave Hpay := (Entails.of_eq (dmaPay_ld m c 1 2)) $$ Hpay
  icases Hpay with ⟨HV1, HS_ld9⟩
  -- step 90: COPY sem=arg4,1
  iapply (wp_copy_cell m c (.st 1) 2 (by decide) (by rfl) (credit_stDst c 9) (st_pay m c 9 1 2 (by rfl) _)) $$ [HV1 HB_st9 HT_st1_2]
  · isplitr; · iexact HI_st1
    isplitl [HV1]; · iexact HV1
    isplitl [HB_st9]; · iexact HB_st9
    isplitl [HT_st1_2]; · iexact HT_st1_2
    iexact HR_st1
  iintro HC_st1
  -- step 91: WAIT sem=arg4,0
  iapply (wp_wait_cell m c (.st 0) 2 (by decide) (by rfl) (credit_stDst c 8) (owedN c 28 39)) $$ [HC_st0 HO HA_st0]
  · isplitr; · iexact HI_st0
    isplitl [HC_st0]; · iexact HC_st0
    isplitl [HO]; · iexact HO
    isplitr; · iapply (mayWait_cell c (.st 0) 28 39 rfl (Or.inr (by decide))); iexact Hlev
    iexact HA_st0
  iintro ⟨HO, HA_st0, #HR_st0, Hpay⟩
  ihave Hpay := (Entails.of_eq (dmaPay_st m c 0 2)) $$ Hpay
  icases Hpay with ⟨HB_st8, HV0⟩
  -- step 92: COPY sem=arg3,0
  iapply (wp_copy_cell m c (.ld 0) 3 (by decide) (by rfl) (credit_vslot 0) (ld_pay m c 12 0 3 (by rfl) _)) $$ [HS_ld12 HV0 HT_ld0_3]
  · isplitr; · iexact HI_ld0
    isplitl [HS_ld12]; · iexact HS_ld12
    isplitl [HV0]; · iexact HV0
    isplitl [HT_ld0_3]; · iexact HT_ld0_3
    iexact HR_ld0
  iintro HC_ld0
  -- step 93: WAIT sem=arg6,10
  iapply (wp_wait_cell m c (.xr 10) 0 (by decide) (by rfl) (credit_xDst c 10) (owedN c 28 39)) $$ [HC_xr10 HO HA_xr10]
  · isplitr; · iexact HI_xr10
    isplitl [HC_xr10]; · iexact HC_xr10
    isplitl [HO]; · iexact HO
    isplitr; · iapply (mayWait_cell c (.xr 10) 28 39 rfl (Or.inr (by decide))); iexact Hlev
    iexact HA_xr10
  iintro ⟨HO, HA_xr10, #HR_xr10, Hpay⟩
  ihave HB_qm10 := (Entails.of_eq (dmaPay_xr m c 10 0)) $$ Hpay
  ihave HB_qm10 := (pointsTo_share (PosShare.mem_left_op_right fullShare)).1 $$ HB_qm10
  icases HB_qm10 with ⟨HB_qmL10, HB_qmR10⟩
  -- step 94: SEND dev40 ss=arg7,10 rs=arg8,10
  iapply (wp_send_cell m c (yP c) _ (dev40_eq c) (.yds 10) (.ydr 10) (by decide) (by decide) (by rfl) (by rfl) (by rfl) (by rfl) (credit_qMine c 10) (by exact BI.Entails.refl _) (yd_pay m c 10 _) (owedN c 27 40)) $$ [HB_qmL10 HD_ydr10 HO HT_yds10 HU_ydr10]
  · isplitr; · iexact HI_yds10
    isplitr; · iexact HJ_ydr10
    isplitl [HB_qmL10]; · iexact HB_qmL10
    isplitl [HD_ydr10]; · iexact HD_ydr10
    isplitl [HO]; · iexact HO
    isplitl [HT_yds10]; · iexact HT_yds10
    isplitr; · iexact HR_yds10
    isplitl [HU_ydr10]; · iexact HU_ydr10
    iexact HQ_ydr10
  iintro ⟨HC_yds10, HO⟩
  -- step 95: SEND dev41 ss=arg9,10 rs=arg10,10
  iapply (wp_send_cell m c (zP c) _ (dev41_eq c) (.zds 10) (.zdr 10) (by decide) (by decide) (by rfl) (by rfl) (by rfl) (by rfl) (credit_qMine c 10) (by exact BI.Entails.refl _) (zd_pay m c 10 _) (owedN c 26 41)) $$ [HB_qmR10 HD_zdr10 HO HT_zds10 HU_zdr10]
  · isplitr; · iexact HI_zds10
    isplitr; · iexact HJ_zdr10
    isplitl [HB_qmR10]; · iexact HB_qmR10
    isplitl [HD_zdr10]; · iexact HD_zdr10
    isplitl [HO]; · iexact HO
    isplitl [HT_zds10]; · iexact HT_zds10
    isplitr; · iexact HR_zds10
    isplitl [HU_zdr10]; · iexact HU_zdr10
    iexact HQ_zdr10
  iintro ⟨HC_zds10, HO⟩
  -- step 96: WAIT sem=arg3,2
  iapply (wp_wait_cell m c (.ld 2) 2 (by decide) (by rfl) (credit_vslot 2) (owedN c 26 41)) $$ [HC_ld2 HO HA_ld2]
  · isplitr; · iexact HI_ld2
    isplitl [HC_ld2]; · iexact HC_ld2
    isplitl [HO]; · iexact HO
    isplitr; · iapply (mayWait_cell c (.ld 2) 26 41 rfl (Or.inr (by decide))); iexact Hlev
    iexact HA_ld2
  iintro ⟨HO, HA_ld2, #HR_ld2, Hpay⟩
  ihave Hpay := (Entails.of_eq (dmaPay_ld m c 2 2)) $$ Hpay
  icases Hpay with ⟨HV2, HS_ld10⟩
  -- step 97: COPY sem=arg4,2
  iapply (wp_copy_cell m c (.st 2) 2 (by decide) (by rfl) (credit_stDst c 10) (st_pay m c 10 2 2 (by rfl) _)) $$ [HV2 HB_st10 HT_st2_2]
  · isplitr; · iexact HI_st2
    isplitl [HV2]; · iexact HV2
    isplitl [HB_st10]; · iexact HB_st10
    isplitl [HT_st2_2]; · iexact HT_st2_2
    iexact HR_st2
  iintro HC_st2
  -- step 98: WAIT sem=arg4,1
  iapply (wp_wait_cell m c (.st 1) 2 (by decide) (by rfl) (credit_stDst c 9) (owedN c 26 41)) $$ [HC_st1 HO HA_st1]
  · isplitr; · iexact HI_st1
    isplitl [HC_st1]; · iexact HC_st1
    isplitl [HO]; · iexact HO
    isplitr; · iapply (mayWait_cell c (.st 1) 26 41 rfl (Or.inr (by decide))); iexact Hlev
    iexact HA_st1
  iintro ⟨HO, HA_st1, #HR_st1, Hpay⟩
  ihave Hpay := (Entails.of_eq (dmaPay_st m c 1 2)) $$ Hpay
  icases Hpay with ⟨HB_st9, HV1⟩
  -- step 99: COPY sem=arg3,1
  iapply (wp_copy_cell m c (.ld 1) 3 (by decide) (by rfl) (credit_vslot 1) (ld_pay m c 13 1 3 (by rfl) _)) $$ [HS_ld13 HV1 HT_ld1_3]
  · isplitr; · iexact HI_ld1
    isplitl [HS_ld13]; · iexact HS_ld13
    isplitl [HV1]; · iexact HV1
    isplitl [HT_ld1_3]; · iexact HT_ld1_3
    iexact HR_ld1
  iintro HC_ld1
  -- step 100: WAIT sem=arg6,11
  iapply (wp_wait_cell m c (.xr 11) 0 (by decide) (by rfl) (credit_xDst c 11) (owedN c 26 41)) $$ [HC_xr11 HO HA_xr11]
  · isplitr; · iexact HI_xr11
    isplitl [HC_xr11]; · iexact HC_xr11
    isplitl [HO]; · iexact HO
    isplitr; · iapply (mayWait_cell c (.xr 11) 26 41 rfl (Or.inr (by decide))); iexact Hlev
    iexact HA_xr11
  iintro ⟨HO, HA_xr11, #HR_xr11, Hpay⟩
  ihave HB_qm11 := (Entails.of_eq (dmaPay_xr m c 11 0)) $$ Hpay
  ihave HB_qm11 := (pointsTo_share (PosShare.mem_left_op_right fullShare)).1 $$ HB_qm11
  icases HB_qm11 with ⟨HB_qmL11, HB_qmR11⟩
  -- step 101: SEND dev42 ss=arg7,11 rs=arg8,11
  iapply (wp_send_cell m c (yP c) _ (dev42_eq c) (.yds 11) (.ydr 11) (by decide) (by decide) (by rfl) (by rfl) (by rfl) (by rfl) (credit_qMine c 11) (by exact BI.Entails.refl _) (yd_pay m c 11 _) (owedN c 25 42)) $$ [HB_qmL11 HD_ydr11 HO HT_yds11 HU_ydr11]
  · isplitr; · iexact HI_yds11
    isplitr; · iexact HJ_ydr11
    isplitl [HB_qmL11]; · iexact HB_qmL11
    isplitl [HD_ydr11]; · iexact HD_ydr11
    isplitl [HO]; · iexact HO
    isplitl [HT_yds11]; · iexact HT_yds11
    isplitr; · iexact HR_yds11
    isplitl [HU_ydr11]; · iexact HU_ydr11
    iexact HQ_ydr11
  iintro ⟨HC_yds11, HO⟩
  -- step 102: SEND dev43 ss=arg9,11 rs=arg10,11
  iapply (wp_send_cell m c (zP c) _ (dev43_eq c) (.zds 11) (.zdr 11) (by decide) (by decide) (by rfl) (by rfl) (by rfl) (by rfl) (credit_qMine c 11) (by exact BI.Entails.refl _) (zd_pay m c 11 _) (owedN c 24 43)) $$ [HB_qmR11 HD_zdr11 HO HT_zds11 HU_zdr11]
  · isplitr; · iexact HI_zds11
    isplitr; · iexact HJ_zdr11
    isplitl [HB_qmR11]; · iexact HB_qmR11
    isplitl [HD_zdr11]; · iexact HD_zdr11
    isplitl [HO]; · iexact HO
    isplitl [HT_zds11]; · iexact HT_zds11
    isplitr; · iexact HR_zds11
    isplitl [HU_zdr11]; · iexact HU_zdr11
    iexact HQ_zdr11
  iintro ⟨HC_zds11, HO⟩
  -- step 103: WAIT sem=arg3,3
  iapply (wp_wait_cell m c (.ld 3) 2 (by decide) (by rfl) (credit_vslot 3) (owedN c 24 43)) $$ [HC_ld3 HO HA_ld3]
  · isplitr; · iexact HI_ld3
    isplitl [HC_ld3]; · iexact HC_ld3
    isplitl [HO]; · iexact HO
    isplitr; · iapply (mayWait_cell c (.ld 3) 24 43 rfl (Or.inr (by decide))); iexact Hlev
    iexact HA_ld3
  iintro ⟨HO, HA_ld3, #HR_ld3, Hpay⟩
  ihave Hpay := (Entails.of_eq (dmaPay_ld m c 3 2)) $$ Hpay
  icases Hpay with ⟨HV3, HS_ld11⟩
  -- step 104: COPY sem=arg4,3
  iapply (wp_copy_cell m c (.st 3) 2 (by decide) (by rfl) (credit_stDst c 11) (st_pay m c 11 3 2 (by rfl) _)) $$ [HV3 HB_st11 HT_st3_2]
  · isplitr; · iexact HI_st3
    isplitl [HV3]; · iexact HV3
    isplitl [HB_st11]; · iexact HB_st11
    isplitl [HT_st3_2]; · iexact HT_st3_2
    iexact HR_st3
  iintro HC_st3
  -- step 105: WAIT sem=arg4,2
  iapply (wp_wait_cell m c (.st 2) 2 (by decide) (by rfl) (credit_stDst c 10) (owedN c 24 43)) $$ [HC_st2 HO HA_st2]
  · isplitr; · iexact HI_st2
    isplitl [HC_st2]; · iexact HC_st2
    isplitl [HO]; · iexact HO
    isplitr; · iapply (mayWait_cell c (.st 2) 24 43 rfl (Or.inr (by decide))); iexact Hlev
    iexact HA_st2
  iintro ⟨HO, HA_st2, #HR_st2, Hpay⟩
  ihave Hpay := (Entails.of_eq (dmaPay_st m c 2 2)) $$ Hpay
  icases Hpay with ⟨HB_st10, HV2⟩
  -- step 106: COPY sem=arg3,2
  iapply (wp_copy_cell m c (.ld 2) 3 (by decide) (by rfl) (credit_vslot 2) (ld_pay m c 14 2 3 (by rfl) _)) $$ [HS_ld14 HV2 HT_ld2_3]
  · isplitr; · iexact HI_ld2
    isplitl [HS_ld14]; · iexact HS_ld14
    isplitl [HV2]; · iexact HV2
    isplitl [HT_ld2_3]; · iexact HT_ld2_3
    iexact HR_ld2
  iintro HC_ld2
  -- step 107: WAIT sem=arg6,12
  iapply (wp_wait_cell m c (.xr 12) 0 (by decide) (by rfl) (credit_xDst c 12) (owedN c 24 43)) $$ [HC_xr12 HO HA_xr12]
  · isplitr; · iexact HI_xr12
    isplitl [HC_xr12]; · iexact HC_xr12
    isplitl [HO]; · iexact HO
    isplitr; · iapply (mayWait_cell c (.xr 12) 24 43 rfl (Or.inr (by decide))); iexact Hlev
    iexact HA_xr12
  iintro ⟨HO, HA_xr12, #HR_xr12, Hpay⟩
  ihave HB_qm12 := (Entails.of_eq (dmaPay_xr m c 12 0)) $$ Hpay
  ihave HB_qm12 := (pointsTo_share (PosShare.mem_left_op_right fullShare)).1 $$ HB_qm12
  icases HB_qm12 with ⟨HB_qmL12, HB_qmR12⟩
  -- step 108: SEND dev44 ss=arg7,12 rs=arg8,12
  iapply (wp_send_cell m c (yP c) _ (dev44_eq c) (.yds 12) (.ydr 12) (by decide) (by decide) (by rfl) (by rfl) (by rfl) (by rfl) (credit_qMine c 12) (by exact BI.Entails.refl _) (yd_pay m c 12 _) (owedN c 23 44)) $$ [HB_qmL12 HD_ydr12 HO HT_yds12 HU_ydr12]
  · isplitr; · iexact HI_yds12
    isplitr; · iexact HJ_ydr12
    isplitl [HB_qmL12]; · iexact HB_qmL12
    isplitl [HD_ydr12]; · iexact HD_ydr12
    isplitl [HO]; · iexact HO
    isplitl [HT_yds12]; · iexact HT_yds12
    isplitr; · iexact HR_yds12
    isplitl [HU_ydr12]; · iexact HU_ydr12
    iexact HQ_ydr12
  iintro ⟨HC_yds12, HO⟩
  -- step 109: SEND dev45 ss=arg9,12 rs=arg10,12
  iapply (wp_send_cell m c (zP c) _ (dev45_eq c) (.zds 12) (.zdr 12) (by decide) (by decide) (by rfl) (by rfl) (by rfl) (by rfl) (credit_qMine c 12) (by exact BI.Entails.refl _) (zd_pay m c 12 _) (owedN c 22 45)) $$ [HB_qmR12 HD_zdr12 HO HT_zds12 HU_zdr12]
  · isplitr; · iexact HI_zds12
    isplitr; · iexact HJ_zdr12
    isplitl [HB_qmR12]; · iexact HB_qmR12
    isplitl [HD_zdr12]; · iexact HD_zdr12
    isplitl [HO]; · iexact HO
    isplitl [HT_zds12]; · iexact HT_zds12
    isplitr; · iexact HR_zds12
    isplitl [HU_zdr12]; · iexact HU_zdr12
    iexact HQ_zdr12
  iintro ⟨HC_zds12, HO⟩
  -- step 110: WAIT sem=arg3,0
  iapply (wp_wait_cell m c (.ld 0) 3 (by decide) (by rfl) (credit_vslot 0) (owedN c 22 45)) $$ [HC_ld0 HO HA_ld0]
  · isplitr; · iexact HI_ld0
    isplitl [HC_ld0]; · iexact HC_ld0
    isplitl [HO]; · iexact HO
    isplitr; · iapply (mayWait_cell c (.ld 0) 22 45 rfl (Or.inr (by decide))); iexact Hlev
    iexact HA_ld0
  iintro ⟨HO, HA_ld0, #HR_ld0, Hpay⟩
  ihave Hpay := (Entails.of_eq (dmaPay_ld m c 0 3)) $$ Hpay
  icases Hpay with ⟨HV0, HS_ld12⟩
  -- step 111: COPY sem=arg4,0
  iapply (wp_copy_cell m c (.st 0) 3 (by decide) (by rfl) (credit_stDst c 12) (st_pay m c 12 0 3 (by rfl) _)) $$ [HV0 HB_st12 HT_st0_3]
  · isplitr; · iexact HI_st0
    isplitl [HV0]; · iexact HV0
    isplitl [HB_st12]; · iexact HB_st12
    isplitl [HT_st0_3]; · iexact HT_st0_3
    iexact HR_st0
  iintro HC_st0
  -- step 112: WAIT sem=arg4,3
  iapply (wp_wait_cell m c (.st 3) 2 (by decide) (by rfl) (credit_stDst c 11) (owedN c 22 45)) $$ [HC_st3 HO HA_st3]
  · isplitr; · iexact HI_st3
    isplitl [HC_st3]; · iexact HC_st3
    isplitl [HO]; · iexact HO
    isplitr; · iapply (mayWait_cell c (.st 3) 22 45 rfl (Or.inr (by decide))); iexact Hlev
    iexact HA_st3
  iintro ⟨HO, HA_st3, #HR_st3, Hpay⟩
  ihave Hpay := (Entails.of_eq (dmaPay_st m c 3 2)) $$ Hpay
  icases Hpay with ⟨HB_st11, HV3⟩
  -- step 113: COPY sem=arg3,3
  iapply (wp_copy_cell m c (.ld 3) 3 (by decide) (by rfl) (credit_vslot 3) (ld_pay m c 15 3 3 (by rfl) _)) $$ [HS_ld15 HV3 HT_ld3_3]
  · isplitr; · iexact HI_ld3
    isplitl [HS_ld15]; · iexact HS_ld15
    isplitl [HV3]; · iexact HV3
    isplitl [HT_ld3_3]; · iexact HT_ld3_3
    iexact HR_ld3
  iintro HC_ld3
  -- step 114: WAIT sem=arg6,13
  iapply (wp_wait_cell m c (.xr 13) 0 (by decide) (by rfl) (credit_xDst c 13) (owedN c 22 45)) $$ [HC_xr13 HO HA_xr13]
  · isplitr; · iexact HI_xr13
    isplitl [HC_xr13]; · iexact HC_xr13
    isplitl [HO]; · iexact HO
    isplitr; · iapply (mayWait_cell c (.xr 13) 22 45 rfl (Or.inr (by decide))); iexact Hlev
    iexact HA_xr13
  iintro ⟨HO, HA_xr13, #HR_xr13, Hpay⟩
  ihave HB_qm13 := (Entails.of_eq (dmaPay_xr m c 13 0)) $$ Hpay
  ihave HB_qm13 := (pointsTo_share (PosShare.mem_left_op_right fullShare)).1 $$ HB_qm13
  icases HB_qm13 with ⟨HB_qmL13, HB_qmR13⟩
  -- step 115: SEND dev46 ss=arg7,13 rs=arg8,13
  iapply (wp_send_cell m c (yP c) _ (dev46_eq c) (.yds 13) (.ydr 13) (by decide) (by decide) (by rfl) (by rfl) (by rfl) (by rfl) (credit_qMine c 13) (by exact BI.Entails.refl _) (yd_pay m c 13 _) (owedN c 21 46)) $$ [HB_qmL13 HD_ydr13 HO HT_yds13 HU_ydr13]
  · isplitr; · iexact HI_yds13
    isplitr; · iexact HJ_ydr13
    isplitl [HB_qmL13]; · iexact HB_qmL13
    isplitl [HD_ydr13]; · iexact HD_ydr13
    isplitl [HO]; · iexact HO
    isplitl [HT_yds13]; · iexact HT_yds13
    isplitr; · iexact HR_yds13
    isplitl [HU_ydr13]; · iexact HU_ydr13
    iexact HQ_ydr13
  iintro ⟨HC_yds13, HO⟩
  -- step 116: SEND dev47 ss=arg9,13 rs=arg10,13
  iapply (wp_send_cell m c (zP c) _ (dev47_eq c) (.zds 13) (.zdr 13) (by decide) (by decide) (by rfl) (by rfl) (by rfl) (by rfl) (credit_qMine c 13) (by exact BI.Entails.refl _) (zd_pay m c 13 _) (owedN c 20 47)) $$ [HB_qmR13 HD_zdr13 HO HT_zds13 HU_zdr13]
  · isplitr; · iexact HI_zds13
    isplitr; · iexact HJ_zdr13
    isplitl [HB_qmR13]; · iexact HB_qmR13
    isplitl [HD_zdr13]; · iexact HD_zdr13
    isplitl [HO]; · iexact HO
    isplitl [HT_zds13]; · iexact HT_zds13
    isplitr; · iexact HR_zds13
    isplitl [HU_zdr13]; · iexact HU_zdr13
    iexact HQ_zdr13
  iintro ⟨HC_zds13, HO⟩
  -- step 117: WAIT sem=arg3,1
  iapply (wp_wait_cell m c (.ld 1) 3 (by decide) (by rfl) (credit_vslot 1) (owedN c 20 47)) $$ [HC_ld1 HO HA_ld1]
  · isplitr; · iexact HI_ld1
    isplitl [HC_ld1]; · iexact HC_ld1
    isplitl [HO]; · iexact HO
    isplitr; · iapply (mayWait_cell c (.ld 1) 20 47 rfl (Or.inr (by decide))); iexact Hlev
    iexact HA_ld1
  iintro ⟨HO, HA_ld1, #HR_ld1, Hpay⟩
  ihave Hpay := (Entails.of_eq (dmaPay_ld m c 1 3)) $$ Hpay
  icases Hpay with ⟨HV1, HS_ld13⟩
  -- step 118: COPY sem=arg4,1
  iapply (wp_copy_cell m c (.st 1) 3 (by decide) (by rfl) (credit_stDst c 13) (st_pay m c 13 1 3 (by rfl) _)) $$ [HV1 HB_st13 HT_st1_3]
  · isplitr; · iexact HI_st1
    isplitl [HV1]; · iexact HV1
    isplitl [HB_st13]; · iexact HB_st13
    isplitl [HT_st1_3]; · iexact HT_st1_3
    iexact HR_st1
  iintro HC_st1
  -- step 119: WAIT sem=arg6,14
  iapply (wp_wait_cell m c (.xr 14) 0 (by decide) (by rfl) (credit_xDst c 14) (owedN c 20 47)) $$ [HC_xr14 HO HA_xr14]
  · isplitr; · iexact HI_xr14
    isplitl [HC_xr14]; · iexact HC_xr14
    isplitl [HO]; · iexact HO
    isplitr; · iapply (mayWait_cell c (.xr 14) 20 47 rfl (Or.inr (by decide))); iexact Hlev
    iexact HA_xr14
  iintro ⟨HO, HA_xr14, #HR_xr14, Hpay⟩
  ihave HB_qm14 := (Entails.of_eq (dmaPay_xr m c 14 0)) $$ Hpay
  ihave HB_qm14 := (pointsTo_share (PosShare.mem_left_op_right fullShare)).1 $$ HB_qm14
  icases HB_qm14 with ⟨HB_qmL14, HB_qmR14⟩
  -- step 120: SEND dev48 ss=arg7,14 rs=arg8,14
  iapply (wp_send_cell m c (yP c) _ (dev48_eq c) (.yds 14) (.ydr 14) (by decide) (by decide) (by rfl) (by rfl) (by rfl) (by rfl) (credit_qMine c 14) (by exact BI.Entails.refl _) (yd_pay m c 14 _) (owedN c 19 48)) $$ [HB_qmL14 HD_ydr14 HO HT_yds14 HU_ydr14]
  · isplitr; · iexact HI_yds14
    isplitr; · iexact HJ_ydr14
    isplitl [HB_qmL14]; · iexact HB_qmL14
    isplitl [HD_ydr14]; · iexact HD_ydr14
    isplitl [HO]; · iexact HO
    isplitl [HT_yds14]; · iexact HT_yds14
    isplitr; · iexact HR_yds14
    isplitl [HU_ydr14]; · iexact HU_ydr14
    iexact HQ_ydr14
  iintro ⟨HC_yds14, HO⟩
  -- step 121: SEND dev49 ss=arg9,14 rs=arg10,14
  iapply (wp_send_cell m c (zP c) _ (dev49_eq c) (.zds 14) (.zdr 14) (by decide) (by decide) (by rfl) (by rfl) (by rfl) (by rfl) (credit_qMine c 14) (by exact BI.Entails.refl _) (zd_pay m c 14 _) (owedN c 18 49)) $$ [HB_qmR14 HD_zdr14 HO HT_zds14 HU_zdr14]
  · isplitr; · iexact HI_zds14
    isplitr; · iexact HJ_zdr14
    isplitl [HB_qmR14]; · iexact HB_qmR14
    isplitl [HD_zdr14]; · iexact HD_zdr14
    isplitl [HO]; · iexact HO
    isplitl [HT_zds14]; · iexact HT_zds14
    isplitr; · iexact HR_zds14
    isplitl [HU_zdr14]; · iexact HU_zdr14
    iexact HQ_zdr14
  iintro ⟨HC_zds14, HO⟩
  -- step 122: WAIT sem=arg3,2
  iapply (wp_wait_cell m c (.ld 2) 3 (by decide) (by rfl) (credit_vslot 2) (owedN c 18 49)) $$ [HC_ld2 HO HA_ld2]
  · isplitr; · iexact HI_ld2
    isplitl [HC_ld2]; · iexact HC_ld2
    isplitl [HO]; · iexact HO
    isplitr; · iapply (mayWait_cell c (.ld 2) 18 49 rfl (Or.inr (by decide))); iexact Hlev
    iexact HA_ld2
  iintro ⟨HO, HA_ld2, #HR_ld2, Hpay⟩
  ihave Hpay := (Entails.of_eq (dmaPay_ld m c 2 3)) $$ Hpay
  icases Hpay with ⟨HV2, HS_ld14⟩
  -- step 123: COPY sem=arg4,2
  iapply (wp_copy_cell m c (.st 2) 3 (by decide) (by rfl) (credit_stDst c 14) (st_pay m c 14 2 3 (by rfl) _)) $$ [HV2 HB_st14 HT_st2_3]
  · isplitr; · iexact HI_st2
    isplitl [HV2]; · iexact HV2
    isplitl [HB_st14]; · iexact HB_st14
    isplitl [HT_st2_3]; · iexact HT_st2_3
    iexact HR_st2
  iintro HC_st2
  -- step 124: WAIT sem=arg6,15
  iapply (wp_wait_cell m c (.xr 15) 0 (by decide) (by rfl) (credit_xDst c 15) (owedN c 18 49)) $$ [HC_xr15 HO HA_xr15]
  · isplitr; · iexact HI_xr15
    isplitl [HC_xr15]; · iexact HC_xr15
    isplitl [HO]; · iexact HO
    isplitr; · iapply (mayWait_cell c (.xr 15) 18 49 rfl (Or.inr (by decide))); iexact Hlev
    iexact HA_xr15
  iintro ⟨HO, HA_xr15, #HR_xr15, Hpay⟩
  ihave HB_qm15 := (Entails.of_eq (dmaPay_xr m c 15 0)) $$ Hpay
  ihave HB_qm15 := (pointsTo_share (PosShare.mem_left_op_right fullShare)).1 $$ HB_qm15
  icases HB_qm15 with ⟨HB_qmL15, HB_qmR15⟩
  -- step 125: SEND dev50 ss=arg7,15 rs=arg8,15
  iapply (wp_send_cell m c (yP c) _ (dev50_eq c) (.yds 15) (.ydr 15) (by decide) (by decide) (by rfl) (by rfl) (by rfl) (by rfl) (credit_qMine c 15) (by exact BI.Entails.refl _) (yd_pay m c 15 _) (owedN c 17 50)) $$ [HB_qmL15 HD_ydr15 HO HT_yds15 HU_ydr15]
  · isplitr; · iexact HI_yds15
    isplitr; · iexact HJ_ydr15
    isplitl [HB_qmL15]; · iexact HB_qmL15
    isplitl [HD_ydr15]; · iexact HD_ydr15
    isplitl [HO]; · iexact HO
    isplitl [HT_yds15]; · iexact HT_yds15
    isplitr; · iexact HR_yds15
    isplitl [HU_ydr15]; · iexact HU_ydr15
    iexact HQ_ydr15
  iintro ⟨HC_yds15, HO⟩
  -- step 126: SEND dev51 ss=arg9,15 rs=arg10,15
  iapply (wp_send_cell m c (zP c) _ (dev51_eq c) (.zds 15) (.zdr 15) (by decide) (by decide) (by rfl) (by rfl) (by rfl) (by rfl) (credit_qMine c 15) (by exact BI.Entails.refl _) (zd_pay m c 15 _) (owedN c 16 51)) $$ [HB_qmR15 HD_zdr15 HO HT_zds15 HU_zdr15]
  · isplitr; · iexact HI_zds15
    isplitr; · iexact HJ_zdr15
    isplitl [HB_qmR15]; · iexact HB_qmR15
    isplitl [HD_zdr15]; · iexact HD_zdr15
    isplitl [HO]; · iexact HO
    isplitl [HT_zds15]; · iexact HT_zds15
    isplitr; · iexact HR_zds15
    isplitl [HU_zdr15]; · iexact HU_zdr15
    iexact HQ_zdr15
  iintro ⟨HC_zds15, HO⟩
  -- step 127: WAIT sem=arg3,3
  iapply (wp_wait_cell m c (.ld 3) 3 (by decide) (by rfl) (credit_vslot 3) (owedN c 16 51)) $$ [HC_ld3 HO HA_ld3]
  · isplitr; · iexact HI_ld3
    isplitl [HC_ld3]; · iexact HC_ld3
    isplitl [HO]; · iexact HO
    isplitr; · iapply (mayWait_cell c (.ld 3) 16 51 rfl (Or.inr (by decide))); iexact Hlev
    iexact HA_ld3
  iintro ⟨HO, HA_ld3, #HR_ld3, Hpay⟩
  ihave Hpay := (Entails.of_eq (dmaPay_ld m c 3 3)) $$ Hpay
  icases Hpay with ⟨HV3, HS_ld15⟩
  -- step 128: COPY sem=arg4,3
  iapply (wp_copy_cell m c (.st 3) 3 (by decide) (by rfl) (credit_stDst c 15) (st_pay m c 15 3 3 (by rfl) _)) $$ [HV3 HB_st15 HT_st3_3]
  · isplitr; · iexact HI_st3
    isplitl [HV3]; · iexact HV3
    isplitl [HB_st15]; · iexact HB_st15
    isplitl [HT_st3_3]; · iexact HT_st3_3
    iexact HR_st3
  iintro HC_st3
  -- step 129: WAIT sem=arg10,0
  iapply (wp_wait_cell m c (.zdr 0) 0 (by decide) (by rfl) (credit_qMine c 0) (owedN c 16 51)) $$ [HC_zdr0 HO HA_zdr0]
  · isplitr; · iexact HI_zdr0
    isplitl [HC_zdr0]; · iexact HC_zdr0
    isplitl [HO]; · iexact HO
    isplitr; · iapply (mayWait_cell c (.zdr 0) 16 51 rfl (Or.inr (by decide))); iexact Hlev
    iexact HA_zdr0
  iintro ⟨HO, HA_zdr0, #HR_zdr0, Hpay⟩
  ihave HB_qz0 := (Entails.of_eq (dmaPay_zdr m c 0 0)) $$ Hpay
  ihave HB_qz0 := (Entails.of_eq (pts_qMine_zP c c 0 fullShare _)) $$ HB_qz0
  -- step 130: SEND dev52 ss=arg11,0 rs=arg12,0
  iapply (wp_send_cell m c (yP c) _ (dev52_eq c) (.ydgs 0) (.ydgr 0) (by decide) (by decide) (by rfl) (by rfl) (by rfl) (by rfl) (credit_qZlo c 0) (by exact BI.Entails.refl _) (ydg_pay m c 0 _) (owedN c 15 52)) $$ [HB_qz0 HD_ydgr0 HO HT_ydgs0 HU_ydgr0]
  · isplitr; · iexact HI_ydgs0
    isplitr; · iexact HJ_ydgr0
    isplitl [HB_qz0]; · iexact HB_qz0
    isplitl [HD_ydgr0]; · iexact HD_ydgr0
    isplitl [HO]; · iexact HO
    isplitl [HT_ydgs0]; · iexact HT_ydgs0
    isplitr; · iexact HR_ydgs0
    isplitl [HU_ydgr0]; · iexact HU_ydgr0
    iexact HQ_ydgr0
  iintro ⟨HC_ydgs0, HO⟩
  -- step 131: WAIT sem=arg8,8
  iapply (wp_wait_cell m c (.ydr 8) 0 (by decide) (by rfl) (credit_qMine c 8) (owedN c 15 52)) $$ [HC_ydr8 HO HA_ydr8]
  · isplitr; · iexact HI_ydr8
    isplitl [HC_ydr8]; · iexact HC_ydr8
    isplitl [HO]; · iexact HO
    isplitr; · iapply (mayWait_cell c (.ydr 8) 15 52 rfl (Or.inr (by decide))); iexact Hlev
    iexact HA_ydr8
  iintro ⟨HO, HA_ydr8, #HR_ydr8, Hpay⟩
  ihave HB_qy0 := (Entails.of_eq (dmaPay_ydr m c 8 0)) $$ Hpay
  ihave HB_qy0 := (Entails.of_eq (pts_qMine_yP c c 0 fullShare _)) $$ HB_qy0
  -- step 132: SEND dev53 ss=arg13,0 rs=arg14,0
  iapply (wp_send_cell m c (zP c) _ (dev53_eq c) (.zdgs 0) (.zdgr 0) (by decide) (by decide) (by rfl) (by rfl) (by rfl) (by rfl) (credit_qYhi c 0) (by exact BI.Entails.refl _) (zdg_pay m c 0 _) (owedN c 14 53)) $$ [HB_qy0 HD_zdgr0 HO HT_zdgs0 HU_zdgr0]
  · isplitr; · iexact HI_zdgs0
    isplitr; · iexact HJ_zdgr0
    isplitl [HB_qy0]; · iexact HB_qy0
    isplitl [HD_zdgr0]; · iexact HD_zdgr0
    isplitl [HO]; · iexact HO
    isplitl [HT_zdgs0]; · iexact HT_zdgs0
    isplitr; · iexact HR_zdgs0
    isplitl [HU_zdgr0]; · iexact HU_zdgr0
    iexact HQ_zdgr0
  iintro ⟨HC_zdgs0, HO⟩
  -- step 133: WAIT sem=arg10,1
  iapply (wp_wait_cell m c (.zdr 1) 0 (by decide) (by rfl) (credit_qMine c 1) (owedN c 14 53)) $$ [HC_zdr1 HO HA_zdr1]
  · isplitr; · iexact HI_zdr1
    isplitl [HC_zdr1]; · iexact HC_zdr1
    isplitl [HO]; · iexact HO
    isplitr; · iapply (mayWait_cell c (.zdr 1) 14 53 rfl (Or.inr (by decide))); iexact Hlev
    iexact HA_zdr1
  iintro ⟨HO, HA_zdr1, #HR_zdr1, Hpay⟩
  ihave HB_qz1 := (Entails.of_eq (dmaPay_zdr m c 1 0)) $$ Hpay
  ihave HB_qz1 := (Entails.of_eq (pts_qMine_zP c c 1 fullShare _)) $$ HB_qz1
  -- step 134: SEND dev54 ss=arg11,1 rs=arg12,1
  iapply (wp_send_cell m c (yP c) _ (dev54_eq c) (.ydgs 1) (.ydgr 1) (by decide) (by decide) (by rfl) (by rfl) (by rfl) (by rfl) (credit_qZlo c 1) (by exact BI.Entails.refl _) (ydg_pay m c 1 _) (owedN c 13 54)) $$ [HB_qz1 HD_ydgr1 HO HT_ydgs1 HU_ydgr1]
  · isplitr; · iexact HI_ydgs1
    isplitr; · iexact HJ_ydgr1
    isplitl [HB_qz1]; · iexact HB_qz1
    isplitl [HD_ydgr1]; · iexact HD_ydgr1
    isplitl [HO]; · iexact HO
    isplitl [HT_ydgs1]; · iexact HT_ydgs1
    isplitr; · iexact HR_ydgs1
    isplitl [HU_ydgr1]; · iexact HU_ydgr1
    iexact HQ_ydgr1
  iintro ⟨HC_ydgs1, HO⟩
  -- step 135: WAIT sem=arg8,9
  iapply (wp_wait_cell m c (.ydr 9) 0 (by decide) (by rfl) (credit_qMine c 9) (owedN c 13 54)) $$ [HC_ydr9 HO HA_ydr9]
  · isplitr; · iexact HI_ydr9
    isplitl [HC_ydr9]; · iexact HC_ydr9
    isplitl [HO]; · iexact HO
    isplitr; · iapply (mayWait_cell c (.ydr 9) 13 54 rfl (Or.inr (by decide))); iexact Hlev
    iexact HA_ydr9
  iintro ⟨HO, HA_ydr9, #HR_ydr9, Hpay⟩
  ihave HB_qy1 := (Entails.of_eq (dmaPay_ydr m c 9 0)) $$ Hpay
  ihave HB_qy1 := (Entails.of_eq (pts_qMine_yP c c 1 fullShare _)) $$ HB_qy1
  -- step 136: SEND dev55 ss=arg13,1 rs=arg14,1
  iapply (wp_send_cell m c (zP c) _ (dev55_eq c) (.zdgs 1) (.zdgr 1) (by decide) (by decide) (by rfl) (by rfl) (by rfl) (by rfl) (credit_qYhi c 1) (by exact BI.Entails.refl _) (zdg_pay m c 1 _) (owedN c 12 55)) $$ [HB_qy1 HD_zdgr1 HO HT_zdgs1 HU_zdgr1]
  · isplitr; · iexact HI_zdgs1
    isplitr; · iexact HJ_zdgr1
    isplitl [HB_qy1]; · iexact HB_qy1
    isplitl [HD_zdgr1]; · iexact HD_zdgr1
    isplitl [HO]; · iexact HO
    isplitl [HT_zdgs1]; · iexact HT_zdgs1
    isplitr; · iexact HR_zdgs1
    isplitl [HU_zdgr1]; · iexact HU_zdgr1
    iexact HQ_zdgr1
  iintro ⟨HC_zdgs1, HO⟩
  -- step 137: WAIT sem=arg10,2
  iapply (wp_wait_cell m c (.zdr 2) 0 (by decide) (by rfl) (credit_qMine c 2) (owedN c 12 55)) $$ [HC_zdr2 HO HA_zdr2]
  · isplitr; · iexact HI_zdr2
    isplitl [HC_zdr2]; · iexact HC_zdr2
    isplitl [HO]; · iexact HO
    isplitr; · iapply (mayWait_cell c (.zdr 2) 12 55 rfl (Or.inr (by decide))); iexact Hlev
    iexact HA_zdr2
  iintro ⟨HO, HA_zdr2, #HR_zdr2, Hpay⟩
  ihave HB_qz2 := (Entails.of_eq (dmaPay_zdr m c 2 0)) $$ Hpay
  ihave HB_qz2 := (Entails.of_eq (pts_qMine_zP c c 2 fullShare _)) $$ HB_qz2
  -- step 138: SEND dev56 ss=arg11,2 rs=arg12,2
  iapply (wp_send_cell m c (yP c) _ (dev56_eq c) (.ydgs 2) (.ydgr 2) (by decide) (by decide) (by rfl) (by rfl) (by rfl) (by rfl) (credit_qZlo c 2) (by exact BI.Entails.refl _) (ydg_pay m c 2 _) (owedN c 11 56)) $$ [HB_qz2 HD_ydgr2 HO HT_ydgs2 HU_ydgr2]
  · isplitr; · iexact HI_ydgs2
    isplitr; · iexact HJ_ydgr2
    isplitl [HB_qz2]; · iexact HB_qz2
    isplitl [HD_ydgr2]; · iexact HD_ydgr2
    isplitl [HO]; · iexact HO
    isplitl [HT_ydgs2]; · iexact HT_ydgs2
    isplitr; · iexact HR_ydgs2
    isplitl [HU_ydgr2]; · iexact HU_ydgr2
    iexact HQ_ydgr2
  iintro ⟨HC_ydgs2, HO⟩
  -- step 139: WAIT sem=arg8,10
  iapply (wp_wait_cell m c (.ydr 10) 0 (by decide) (by rfl) (credit_qMine c 10) (owedN c 11 56)) $$ [HC_ydr10 HO HA_ydr10]
  · isplitr; · iexact HI_ydr10
    isplitl [HC_ydr10]; · iexact HC_ydr10
    isplitl [HO]; · iexact HO
    isplitr; · iapply (mayWait_cell c (.ydr 10) 11 56 rfl (Or.inr (by decide))); iexact Hlev
    iexact HA_ydr10
  iintro ⟨HO, HA_ydr10, #HR_ydr10, Hpay⟩
  ihave HB_qy2 := (Entails.of_eq (dmaPay_ydr m c 10 0)) $$ Hpay
  ihave HB_qy2 := (Entails.of_eq (pts_qMine_yP c c 2 fullShare _)) $$ HB_qy2
  -- step 140: SEND dev57 ss=arg13,2 rs=arg14,2
  iapply (wp_send_cell m c (zP c) _ (dev57_eq c) (.zdgs 2) (.zdgr 2) (by decide) (by decide) (by rfl) (by rfl) (by rfl) (by rfl) (credit_qYhi c 2) (by exact BI.Entails.refl _) (zdg_pay m c 2 _) (owedN c 10 57)) $$ [HB_qy2 HD_zdgr2 HO HT_zdgs2 HU_zdgr2]
  · isplitr; · iexact HI_zdgs2
    isplitr; · iexact HJ_zdgr2
    isplitl [HB_qy2]; · iexact HB_qy2
    isplitl [HD_zdgr2]; · iexact HD_zdgr2
    isplitl [HO]; · iexact HO
    isplitl [HT_zdgs2]; · iexact HT_zdgs2
    isplitr; · iexact HR_zdgs2
    isplitl [HU_zdgr2]; · iexact HU_zdgr2
    iexact HQ_zdgr2
  iintro ⟨HC_zdgs2, HO⟩
  -- step 141: WAIT sem=arg10,3
  iapply (wp_wait_cell m c (.zdr 3) 0 (by decide) (by rfl) (credit_qMine c 3) (owedN c 10 57)) $$ [HC_zdr3 HO HA_zdr3]
  · isplitr; · iexact HI_zdr3
    isplitl [HC_zdr3]; · iexact HC_zdr3
    isplitl [HO]; · iexact HO
    isplitr; · iapply (mayWait_cell c (.zdr 3) 10 57 rfl (Or.inr (by decide))); iexact Hlev
    iexact HA_zdr3
  iintro ⟨HO, HA_zdr3, #HR_zdr3, Hpay⟩
  ihave HB_qz3 := (Entails.of_eq (dmaPay_zdr m c 3 0)) $$ Hpay
  ihave HB_qz3 := (Entails.of_eq (pts_qMine_zP c c 3 fullShare _)) $$ HB_qz3
  -- step 142: SEND dev58 ss=arg11,3 rs=arg12,3
  iapply (wp_send_cell m c (yP c) _ (dev58_eq c) (.ydgs 3) (.ydgr 3) (by decide) (by decide) (by rfl) (by rfl) (by rfl) (by rfl) (credit_qZlo c 3) (by exact BI.Entails.refl _) (ydg_pay m c 3 _) (owedN c 9 58)) $$ [HB_qz3 HD_ydgr3 HO HT_ydgs3 HU_ydgr3]
  · isplitr; · iexact HI_ydgs3
    isplitr; · iexact HJ_ydgr3
    isplitl [HB_qz3]; · iexact HB_qz3
    isplitl [HD_ydgr3]; · iexact HD_ydgr3
    isplitl [HO]; · iexact HO
    isplitl [HT_ydgs3]; · iexact HT_ydgs3
    isplitr; · iexact HR_ydgs3
    isplitl [HU_ydgr3]; · iexact HU_ydgr3
    iexact HQ_ydgr3
  iintro ⟨HC_ydgs3, HO⟩
  -- step 143: WAIT sem=arg8,11
  iapply (wp_wait_cell m c (.ydr 11) 0 (by decide) (by rfl) (credit_qMine c 11) (owedN c 9 58)) $$ [HC_ydr11 HO HA_ydr11]
  · isplitr; · iexact HI_ydr11
    isplitl [HC_ydr11]; · iexact HC_ydr11
    isplitl [HO]; · iexact HO
    isplitr; · iapply (mayWait_cell c (.ydr 11) 9 58 rfl (Or.inr (by decide))); iexact Hlev
    iexact HA_ydr11
  iintro ⟨HO, HA_ydr11, #HR_ydr11, Hpay⟩
  ihave HB_qy3 := (Entails.of_eq (dmaPay_ydr m c 11 0)) $$ Hpay
  ihave HB_qy3 := (Entails.of_eq (pts_qMine_yP c c 3 fullShare _)) $$ HB_qy3
  -- step 144: SEND dev59 ss=arg13,3 rs=arg14,3
  iapply (wp_send_cell m c (zP c) _ (dev59_eq c) (.zdgs 3) (.zdgr 3) (by decide) (by decide) (by rfl) (by rfl) (by rfl) (by rfl) (credit_qYhi c 3) (by exact BI.Entails.refl _) (zdg_pay m c 3 _) (owedN c 8 59)) $$ [HB_qy3 HD_zdgr3 HO HT_zdgs3 HU_zdgr3]
  · isplitr; · iexact HI_zdgs3
    isplitr; · iexact HJ_zdgr3
    isplitl [HB_qy3]; · iexact HB_qy3
    isplitl [HD_zdgr3]; · iexact HD_zdgr3
    isplitl [HO]; · iexact HO
    isplitl [HT_zdgs3]; · iexact HT_zdgs3
    isplitr; · iexact HR_zdgs3
    isplitl [HU_zdgr3]; · iexact HU_zdgr3
    iexact HQ_zdgr3
  iintro ⟨HC_zdgs3, HO⟩
  -- step 145: WAIT sem=arg10,4
  iapply (wp_wait_cell m c (.zdr 4) 0 (by decide) (by rfl) (credit_qMine c 4) (owedN c 8 59)) $$ [HC_zdr4 HO HA_zdr4]
  · isplitr; · iexact HI_zdr4
    isplitl [HC_zdr4]; · iexact HC_zdr4
    isplitl [HO]; · iexact HO
    isplitr; · iapply (mayWait_cell c (.zdr 4) 8 59 rfl (Or.inr (by decide))); iexact Hlev
    iexact HA_zdr4
  iintro ⟨HO, HA_zdr4, #HR_zdr4, Hpay⟩
  ihave HB_qz4 := (Entails.of_eq (dmaPay_zdr m c 4 0)) $$ Hpay
  ihave HB_qz4 := (Entails.of_eq (pts_qMine_zP c c 4 fullShare _)) $$ HB_qz4
  -- step 146: SEND dev60 ss=arg11,4 rs=arg12,4
  iapply (wp_send_cell m c (yP c) _ (dev60_eq c) (.ydgs 4) (.ydgr 4) (by decide) (by decide) (by rfl) (by rfl) (by rfl) (by rfl) (credit_qZlo c 4) (by exact BI.Entails.refl _) (ydg_pay m c 4 _) (owedN c 7 60)) $$ [HB_qz4 HD_ydgr4 HO HT_ydgs4 HU_ydgr4]
  · isplitr; · iexact HI_ydgs4
    isplitr; · iexact HJ_ydgr4
    isplitl [HB_qz4]; · iexact HB_qz4
    isplitl [HD_ydgr4]; · iexact HD_ydgr4
    isplitl [HO]; · iexact HO
    isplitl [HT_ydgs4]; · iexact HT_ydgs4
    isplitr; · iexact HR_ydgs4
    isplitl [HU_ydgr4]; · iexact HU_ydgr4
    iexact HQ_ydgr4
  iintro ⟨HC_ydgs4, HO⟩
  -- step 147: WAIT sem=arg8,12
  iapply (wp_wait_cell m c (.ydr 12) 0 (by decide) (by rfl) (credit_qMine c 12) (owedN c 7 60)) $$ [HC_ydr12 HO HA_ydr12]
  · isplitr; · iexact HI_ydr12
    isplitl [HC_ydr12]; · iexact HC_ydr12
    isplitl [HO]; · iexact HO
    isplitr; · iapply (mayWait_cell c (.ydr 12) 7 60 rfl (Or.inr (by decide))); iexact Hlev
    iexact HA_ydr12
  iintro ⟨HO, HA_ydr12, #HR_ydr12, Hpay⟩
  ihave HB_qy4 := (Entails.of_eq (dmaPay_ydr m c 12 0)) $$ Hpay
  ihave HB_qy4 := (Entails.of_eq (pts_qMine_yP c c 4 fullShare _)) $$ HB_qy4
  -- step 148: SEND dev61 ss=arg13,4 rs=arg14,4
  iapply (wp_send_cell m c (zP c) _ (dev61_eq c) (.zdgs 4) (.zdgr 4) (by decide) (by decide) (by rfl) (by rfl) (by rfl) (by rfl) (credit_qYhi c 4) (by exact BI.Entails.refl _) (zdg_pay m c 4 _) (owedN c 6 61)) $$ [HB_qy4 HD_zdgr4 HO HT_zdgs4 HU_zdgr4]
  · isplitr; · iexact HI_zdgs4
    isplitr; · iexact HJ_zdgr4
    isplitl [HB_qy4]; · iexact HB_qy4
    isplitl [HD_zdgr4]; · iexact HD_zdgr4
    isplitl [HO]; · iexact HO
    isplitl [HT_zdgs4]; · iexact HT_zdgs4
    isplitr; · iexact HR_zdgs4
    isplitl [HU_zdgr4]; · iexact HU_zdgr4
    iexact HQ_zdgr4
  iintro ⟨HC_zdgs4, HO⟩
  -- step 149: WAIT sem=arg10,5
  iapply (wp_wait_cell m c (.zdr 5) 0 (by decide) (by rfl) (credit_qMine c 5) (owedN c 6 61)) $$ [HC_zdr5 HO HA_zdr5]
  · isplitr; · iexact HI_zdr5
    isplitl [HC_zdr5]; · iexact HC_zdr5
    isplitl [HO]; · iexact HO
    isplitr; · iapply (mayWait_cell c (.zdr 5) 6 61 rfl (Or.inr (by decide))); iexact Hlev
    iexact HA_zdr5
  iintro ⟨HO, HA_zdr5, #HR_zdr5, Hpay⟩
  ihave HB_qz5 := (Entails.of_eq (dmaPay_zdr m c 5 0)) $$ Hpay
  ihave HB_qz5 := (Entails.of_eq (pts_qMine_zP c c 5 fullShare _)) $$ HB_qz5
  -- step 150: SEND dev62 ss=arg11,5 rs=arg12,5
  iapply (wp_send_cell m c (yP c) _ (dev62_eq c) (.ydgs 5) (.ydgr 5) (by decide) (by decide) (by rfl) (by rfl) (by rfl) (by rfl) (credit_qZlo c 5) (by exact BI.Entails.refl _) (ydg_pay m c 5 _) (owedN c 5 62)) $$ [HB_qz5 HD_ydgr5 HO HT_ydgs5 HU_ydgr5]
  · isplitr; · iexact HI_ydgs5
    isplitr; · iexact HJ_ydgr5
    isplitl [HB_qz5]; · iexact HB_qz5
    isplitl [HD_ydgr5]; · iexact HD_ydgr5
    isplitl [HO]; · iexact HO
    isplitl [HT_ydgs5]; · iexact HT_ydgs5
    isplitr; · iexact HR_ydgs5
    isplitl [HU_ydgr5]; · iexact HU_ydgr5
    iexact HQ_ydgr5
  iintro ⟨HC_ydgs5, HO⟩
  -- step 151: WAIT sem=arg8,13
  iapply (wp_wait_cell m c (.ydr 13) 0 (by decide) (by rfl) (credit_qMine c 13) (owedN c 5 62)) $$ [HC_ydr13 HO HA_ydr13]
  · isplitr; · iexact HI_ydr13
    isplitl [HC_ydr13]; · iexact HC_ydr13
    isplitl [HO]; · iexact HO
    isplitr; · iapply (mayWait_cell c (.ydr 13) 5 62 rfl (Or.inr (by decide))); iexact Hlev
    iexact HA_ydr13
  iintro ⟨HO, HA_ydr13, #HR_ydr13, Hpay⟩
  ihave HB_qy5 := (Entails.of_eq (dmaPay_ydr m c 13 0)) $$ Hpay
  ihave HB_qy5 := (Entails.of_eq (pts_qMine_yP c c 5 fullShare _)) $$ HB_qy5
  -- step 152: SEND dev63 ss=arg13,5 rs=arg14,5
  iapply (wp_send_cell m c (zP c) _ (dev63_eq c) (.zdgs 5) (.zdgr 5) (by decide) (by decide) (by rfl) (by rfl) (by rfl) (by rfl) (credit_qYhi c 5) (by exact BI.Entails.refl _) (zdg_pay m c 5 _) (owedN c 4 63)) $$ [HB_qy5 HD_zdgr5 HO HT_zdgs5 HU_zdgr5]
  · isplitr; · iexact HI_zdgs5
    isplitr; · iexact HJ_zdgr5
    isplitl [HB_qy5]; · iexact HB_qy5
    isplitl [HD_zdgr5]; · iexact HD_zdgr5
    isplitl [HO]; · iexact HO
    isplitl [HT_zdgs5]; · iexact HT_zdgs5
    isplitr; · iexact HR_zdgs5
    isplitl [HU_zdgr5]; · iexact HU_zdgr5
    iexact HQ_zdgr5
  iintro ⟨HC_zdgs5, HO⟩
  -- step 153: WAIT sem=arg10,6
  iapply (wp_wait_cell m c (.zdr 6) 0 (by decide) (by rfl) (credit_qMine c 6) (owedN c 4 63)) $$ [HC_zdr6 HO HA_zdr6]
  · isplitr; · iexact HI_zdr6
    isplitl [HC_zdr6]; · iexact HC_zdr6
    isplitl [HO]; · iexact HO
    isplitr; · iapply (mayWait_cell c (.zdr 6) 4 63 rfl (Or.inr (by decide))); iexact Hlev
    iexact HA_zdr6
  iintro ⟨HO, HA_zdr6, #HR_zdr6, Hpay⟩
  ihave HB_qz6 := (Entails.of_eq (dmaPay_zdr m c 6 0)) $$ Hpay
  ihave HB_qz6 := (Entails.of_eq (pts_qMine_zP c c 6 fullShare _)) $$ HB_qz6
  -- step 154: SEND dev64 ss=arg11,6 rs=arg12,6
  iapply (wp_send_cell m c (yP c) _ (dev64_eq c) (.ydgs 6) (.ydgr 6) (by decide) (by decide) (by rfl) (by rfl) (by rfl) (by rfl) (credit_qZlo c 6) (by exact BI.Entails.refl _) (ydg_pay m c 6 _) (owedN c 3 64)) $$ [HB_qz6 HD_ydgr6 HO HT_ydgs6 HU_ydgr6]
  · isplitr; · iexact HI_ydgs6
    isplitr; · iexact HJ_ydgr6
    isplitl [HB_qz6]; · iexact HB_qz6
    isplitl [HD_ydgr6]; · iexact HD_ydgr6
    isplitl [HO]; · iexact HO
    isplitl [HT_ydgs6]; · iexact HT_ydgs6
    isplitr; · iexact HR_ydgs6
    isplitl [HU_ydgr6]; · iexact HU_ydgr6
    iexact HQ_ydgr6
  iintro ⟨HC_ydgs6, HO⟩
  -- step 155: WAIT sem=arg8,14
  iapply (wp_wait_cell m c (.ydr 14) 0 (by decide) (by rfl) (credit_qMine c 14) (owedN c 3 64)) $$ [HC_ydr14 HO HA_ydr14]
  · isplitr; · iexact HI_ydr14
    isplitl [HC_ydr14]; · iexact HC_ydr14
    isplitl [HO]; · iexact HO
    isplitr; · iapply (mayWait_cell c (.ydr 14) 3 64 rfl (Or.inr (by decide))); iexact Hlev
    iexact HA_ydr14
  iintro ⟨HO, HA_ydr14, #HR_ydr14, Hpay⟩
  ihave HB_qy6 := (Entails.of_eq (dmaPay_ydr m c 14 0)) $$ Hpay
  ihave HB_qy6 := (Entails.of_eq (pts_qMine_yP c c 6 fullShare _)) $$ HB_qy6
  -- step 156: SEND dev65 ss=arg13,6 rs=arg14,6
  iapply (wp_send_cell m c (zP c) _ (dev65_eq c) (.zdgs 6) (.zdgr 6) (by decide) (by decide) (by rfl) (by rfl) (by rfl) (by rfl) (credit_qYhi c 6) (by exact BI.Entails.refl _) (zdg_pay m c 6 _) (owedN c 2 65)) $$ [HB_qy6 HD_zdgr6 HO HT_zdgs6 HU_zdgr6]
  · isplitr; · iexact HI_zdgs6
    isplitr; · iexact HJ_zdgr6
    isplitl [HB_qy6]; · iexact HB_qy6
    isplitl [HD_zdgr6]; · iexact HD_zdgr6
    isplitl [HO]; · iexact HO
    isplitl [HT_zdgs6]; · iexact HT_zdgs6
    isplitr; · iexact HR_zdgs6
    isplitl [HU_zdgr6]; · iexact HU_zdgr6
    iexact HQ_zdgr6
  iintro ⟨HC_zdgs6, HO⟩
  -- step 157: WAIT sem=arg10,7
  iapply (wp_wait_cell m c (.zdr 7) 0 (by decide) (by rfl) (credit_qMine c 7) (owedN c 2 65)) $$ [HC_zdr7 HO HA_zdr7]
  · isplitr; · iexact HI_zdr7
    isplitl [HC_zdr7]; · iexact HC_zdr7
    isplitl [HO]; · iexact HO
    isplitr; · iapply (mayWait_cell c (.zdr 7) 2 65 rfl (Or.inr (by decide))); iexact Hlev
    iexact HA_zdr7
  iintro ⟨HO, HA_zdr7, #HR_zdr7, Hpay⟩
  ihave HB_qz7 := (Entails.of_eq (dmaPay_zdr m c 7 0)) $$ Hpay
  ihave HB_qz7 := (Entails.of_eq (pts_qMine_zP c c 7 fullShare _)) $$ HB_qz7
  -- step 158: SEND dev66 ss=arg11,7 rs=arg12,7
  iapply (wp_send_cell m c (yP c) _ (dev66_eq c) (.ydgs 7) (.ydgr 7) (by decide) (by decide) (by rfl) (by rfl) (by rfl) (by rfl) (credit_qZlo c 7) (by exact BI.Entails.refl _) (ydg_pay m c 7 _) (owedN c 1 66)) $$ [HB_qz7 HD_ydgr7 HO HT_ydgs7 HU_ydgr7]
  · isplitr; · iexact HI_ydgs7
    isplitr; · iexact HJ_ydgr7
    isplitl [HB_qz7]; · iexact HB_qz7
    isplitl [HD_ydgr7]; · iexact HD_ydgr7
    isplitl [HO]; · iexact HO
    isplitl [HT_ydgs7]; · iexact HT_ydgs7
    isplitr; · iexact HR_ydgs7
    isplitl [HU_ydgr7]; · iexact HU_ydgr7
    iexact HQ_ydgr7
  iintro ⟨HC_ydgs7, HO⟩
  -- step 159: WAIT sem=arg8,15
  iapply (wp_wait_cell m c (.ydr 15) 0 (by decide) (by rfl) (credit_qMine c 15) (owedN c 1 66)) $$ [HC_ydr15 HO HA_ydr15]
  · isplitr; · iexact HI_ydr15
    isplitl [HC_ydr15]; · iexact HC_ydr15
    isplitl [HO]; · iexact HO
    isplitr; · iapply (mayWait_cell c (.ydr 15) 1 66 rfl (Or.inr (by decide))); iexact Hlev
    iexact HA_ydr15
  iintro ⟨HO, HA_ydr15, #HR_ydr15, Hpay⟩
  ihave HB_qy7 := (Entails.of_eq (dmaPay_ydr m c 15 0)) $$ Hpay
  ihave HB_qy7 := (Entails.of_eq (pts_qMine_yP c c 7 fullShare _)) $$ HB_qy7
  -- step 160: SEND dev67 ss=arg13,7 rs=arg14,7
  iapply (wp_send_cell m c (zP c) _ (dev67_eq c) (.zdgs 7) (.zdgr 7) (by decide) (by decide) (by rfl) (by rfl) (by rfl) (by rfl) (credit_qYhi c 7) (by exact BI.Entails.refl _) (zdg_pay m c 7 _) (owedN c 0 67)) $$ [HB_qy7 HD_zdgr7 HO HT_zdgs7 HU_zdgr7]
  · isplitr; · iexact HI_zdgs7
    isplitr; · iexact HJ_zdgr7
    isplitl [HB_qy7]; · iexact HB_qy7
    isplitl [HD_zdgr7]; · iexact HD_zdgr7
    isplitl [HO]; · iexact HO
    isplitl [HT_zdgs7]; · iexact HT_zdgs7
    isplitr; · iexact HR_zdgs7
    isplitl [HU_zdgr7]; · iexact HU_zdgr7
    iexact HQ_zdgr7
  iintro ⟨HC_zdgs7, HO⟩
  -- step 161: WAIT sem=arg4,0
  iapply (wp_wait_cell m c (.st 0) 3 (by decide) (by rfl) (credit_stDst c 12) (owedN c 0 67)) $$ [HC_st0 HO HA_st0]
  · isplitr; · iexact HI_st0
    isplitl [HC_st0]; · iexact HC_st0
    isplitl [HO]; · iexact HO
    isplitr; · iapply (mayWait_cell c (.st 0) 0 67 rfl (Or.inl rfl)); iexact Hlev
    iexact HA_st0
  iintro ⟨HO, HA_st0, #HR_st0, Hpay⟩
  ihave Hpay := (Entails.of_eq (dmaPay_st m c 0 3)) $$ Hpay
  icases Hpay with ⟨HB_st12, HV0⟩
  -- step 162: WAIT sem=arg4,1
  iapply (wp_wait_cell m c (.st 1) 3 (by decide) (by rfl) (credit_stDst c 13) (owedN c 0 67)) $$ [HC_st1 HO HA_st1]
  · isplitr; · iexact HI_st1
    isplitl [HC_st1]; · iexact HC_st1
    isplitl [HO]; · iexact HO
    isplitr; · iapply (mayWait_cell c (.st 1) 0 67 rfl (Or.inl rfl)); iexact Hlev
    iexact HA_st1
  iintro ⟨HO, HA_st1, #HR_st1, Hpay⟩
  ihave Hpay := (Entails.of_eq (dmaPay_st m c 1 3)) $$ Hpay
  icases Hpay with ⟨HB_st13, HV1⟩
  -- step 163: WAIT sem=arg4,2
  iapply (wp_wait_cell m c (.st 2) 3 (by decide) (by rfl) (credit_stDst c 14) (owedN c 0 67)) $$ [HC_st2 HO HA_st2]
  · isplitr; · iexact HI_st2
    isplitl [HC_st2]; · iexact HC_st2
    isplitl [HO]; · iexact HO
    isplitr; · iapply (mayWait_cell c (.st 2) 0 67 rfl (Or.inl rfl)); iexact Hlev
    iexact HA_st2
  iintro ⟨HO, HA_st2, #HR_st2, Hpay⟩
  ihave Hpay := (Entails.of_eq (dmaPay_st m c 2 3)) $$ Hpay
  icases Hpay with ⟨HB_st14, HV2⟩
  -- step 164: WAIT sem=arg4,3
  iapply (wp_wait_cell m c (.st 3) 3 (by decide) (by rfl) (credit_stDst c 15) (owedN c 0 67)) $$ [HC_st3 HO HA_st3]
  · isplitr; · iexact HI_st3
    isplitl [HC_st3]; · iexact HC_st3
    isplitl [HO]; · iexact HO
    isplitr; · iapply (mayWait_cell c (.st 3) 0 67 rfl (Or.inl rfl)); iexact Hlev
    iexact HA_st3
  iintro ⟨HO, HA_st3, #HR_st3, Hpay⟩
  ihave Hpay := (Entails.of_eq (dmaPay_st m c 3 3)) $$ Hpay
  icases Hpay with ⟨HB_st15, HV3⟩
  -- step 165: WAIT sem=arg5,0
  iapply (wp_wait_cell m c (.xs 0) 0 (by decide) (by rfl) (credit_xSrc c 0) (owedN c 0 67)) $$ [HC_xs0 HO HA_xs0]
  · isplitr; · iexact HI_xs0
    isplitl [HC_xs0]; · iexact HC_xs0
    isplitl [HO]; · iexact HO
    isplitr; · iapply (mayWait_cell c (.xs 0) 0 67 rfl (Or.inl rfl)); iexact Hlev
    iexact HA_xs0
  iintro ⟨HO, HA_xs0, #HR_xs0, Hpay⟩
  ihave HS_x0 := (Entails.of_eq (dmaPay_xs m c 0 0)) $$ Hpay
  -- step 166: WAIT sem=arg7,0
  iapply (wp_wait_cell m c (.yds 0) 0 (by decide) (by rfl) (credit_qMine c 0) (owedN c 0 67)) $$ [HC_yds0 HO HA_yds0]
  · isplitr; · iexact HI_yds0
    isplitl [HC_yds0]; · iexact HC_yds0
    isplitl [HO]; · iexact HO
    isplitr; · iapply (mayWait_cell c (.yds 0) 0 67 rfl (Or.inl rfl)); iexact Hlev
    iexact HA_yds0
  iintro ⟨HO, HA_yds0, #HR_yds0, Hpay⟩
  ihave HB_qmL0 := (Entails.of_eq (dmaPay_yds m c 0 0)) $$ Hpay
  -- step 167: WAIT sem=arg9,0
  iapply (wp_wait_cell m c (.zds 0) 0 (by decide) (by rfl) (credit_qMine c 0) (owedN c 0 67)) $$ [HC_zds0 HO HA_zds0]
  · isplitr; · iexact HI_zds0
    isplitl [HC_zds0]; · iexact HC_zds0
    isplitl [HO]; · iexact HO
    isplitr; · iapply (mayWait_cell c (.zds 0) 0 67 rfl (Or.inl rfl)); iexact Hlev
    iexact HA_zds0
  iintro ⟨HO, HA_zds0, #HR_zds0, Hpay⟩
  ihave HB_qmR0 := (Entails.of_eq (dmaPay_zds m c 0 0)) $$ Hpay
  -- step 168: WAIT sem=arg5,1
  iapply (wp_wait_cell m c (.xs 1) 0 (by decide) (by rfl) (credit_xSrc c 1) (owedN c 0 67)) $$ [HC_xs1 HO HA_xs1]
  · isplitr; · iexact HI_xs1
    isplitl [HC_xs1]; · iexact HC_xs1
    isplitl [HO]; · iexact HO
    isplitr; · iapply (mayWait_cell c (.xs 1) 0 67 rfl (Or.inl rfl)); iexact Hlev
    iexact HA_xs1
  iintro ⟨HO, HA_xs1, #HR_xs1, Hpay⟩
  ihave HS_x1 := (Entails.of_eq (dmaPay_xs m c 1 0)) $$ Hpay
  -- step 169: WAIT sem=arg7,1
  iapply (wp_wait_cell m c (.yds 1) 0 (by decide) (by rfl) (credit_qMine c 1) (owedN c 0 67)) $$ [HC_yds1 HO HA_yds1]
  · isplitr; · iexact HI_yds1
    isplitl [HC_yds1]; · iexact HC_yds1
    isplitl [HO]; · iexact HO
    isplitr; · iapply (mayWait_cell c (.yds 1) 0 67 rfl (Or.inl rfl)); iexact Hlev
    iexact HA_yds1
  iintro ⟨HO, HA_yds1, #HR_yds1, Hpay⟩
  ihave HB_qmL1 := (Entails.of_eq (dmaPay_yds m c 1 0)) $$ Hpay
  -- step 170: WAIT sem=arg9,1
  iapply (wp_wait_cell m c (.zds 1) 0 (by decide) (by rfl) (credit_qMine c 1) (owedN c 0 67)) $$ [HC_zds1 HO HA_zds1]
  · isplitr; · iexact HI_zds1
    isplitl [HC_zds1]; · iexact HC_zds1
    isplitl [HO]; · iexact HO
    isplitr; · iapply (mayWait_cell c (.zds 1) 0 67 rfl (Or.inl rfl)); iexact Hlev
    iexact HA_zds1
  iintro ⟨HO, HA_zds1, #HR_zds1, Hpay⟩
  ihave HB_qmR1 := (Entails.of_eq (dmaPay_zds m c 1 0)) $$ Hpay
  -- step 171: WAIT sem=arg5,2
  iapply (wp_wait_cell m c (.xs 2) 0 (by decide) (by rfl) (credit_xSrc c 2) (owedN c 0 67)) $$ [HC_xs2 HO HA_xs2]
  · isplitr; · iexact HI_xs2
    isplitl [HC_xs2]; · iexact HC_xs2
    isplitl [HO]; · iexact HO
    isplitr; · iapply (mayWait_cell c (.xs 2) 0 67 rfl (Or.inl rfl)); iexact Hlev
    iexact HA_xs2
  iintro ⟨HO, HA_xs2, #HR_xs2, Hpay⟩
  ihave HS_x2 := (Entails.of_eq (dmaPay_xs m c 2 0)) $$ Hpay
  -- step 172: WAIT sem=arg7,2
  iapply (wp_wait_cell m c (.yds 2) 0 (by decide) (by rfl) (credit_qMine c 2) (owedN c 0 67)) $$ [HC_yds2 HO HA_yds2]
  · isplitr; · iexact HI_yds2
    isplitl [HC_yds2]; · iexact HC_yds2
    isplitl [HO]; · iexact HO
    isplitr; · iapply (mayWait_cell c (.yds 2) 0 67 rfl (Or.inl rfl)); iexact Hlev
    iexact HA_yds2
  iintro ⟨HO, HA_yds2, #HR_yds2, Hpay⟩
  ihave HB_qmL2 := (Entails.of_eq (dmaPay_yds m c 2 0)) $$ Hpay
  -- step 173: WAIT sem=arg9,2
  iapply (wp_wait_cell m c (.zds 2) 0 (by decide) (by rfl) (credit_qMine c 2) (owedN c 0 67)) $$ [HC_zds2 HO HA_zds2]
  · isplitr; · iexact HI_zds2
    isplitl [HC_zds2]; · iexact HC_zds2
    isplitl [HO]; · iexact HO
    isplitr; · iapply (mayWait_cell c (.zds 2) 0 67 rfl (Or.inl rfl)); iexact Hlev
    iexact HA_zds2
  iintro ⟨HO, HA_zds2, #HR_zds2, Hpay⟩
  ihave HB_qmR2 := (Entails.of_eq (dmaPay_zds m c 2 0)) $$ Hpay
  -- step 174: WAIT sem=arg5,3
  iapply (wp_wait_cell m c (.xs 3) 0 (by decide) (by rfl) (credit_xSrc c 3) (owedN c 0 67)) $$ [HC_xs3 HO HA_xs3]
  · isplitr; · iexact HI_xs3
    isplitl [HC_xs3]; · iexact HC_xs3
    isplitl [HO]; · iexact HO
    isplitr; · iapply (mayWait_cell c (.xs 3) 0 67 rfl (Or.inl rfl)); iexact Hlev
    iexact HA_xs3
  iintro ⟨HO, HA_xs3, #HR_xs3, Hpay⟩
  ihave HS_x3 := (Entails.of_eq (dmaPay_xs m c 3 0)) $$ Hpay
  -- step 175: WAIT sem=arg7,3
  iapply (wp_wait_cell m c (.yds 3) 0 (by decide) (by rfl) (credit_qMine c 3) (owedN c 0 67)) $$ [HC_yds3 HO HA_yds3]
  · isplitr; · iexact HI_yds3
    isplitl [HC_yds3]; · iexact HC_yds3
    isplitl [HO]; · iexact HO
    isplitr; · iapply (mayWait_cell c (.yds 3) 0 67 rfl (Or.inl rfl)); iexact Hlev
    iexact HA_yds3
  iintro ⟨HO, HA_yds3, #HR_yds3, Hpay⟩
  ihave HB_qmL3 := (Entails.of_eq (dmaPay_yds m c 3 0)) $$ Hpay
  -- step 176: WAIT sem=arg9,3
  iapply (wp_wait_cell m c (.zds 3) 0 (by decide) (by rfl) (credit_qMine c 3) (owedN c 0 67)) $$ [HC_zds3 HO HA_zds3]
  · isplitr; · iexact HI_zds3
    isplitl [HC_zds3]; · iexact HC_zds3
    isplitl [HO]; · iexact HO
    isplitr; · iapply (mayWait_cell c (.zds 3) 0 67 rfl (Or.inl rfl)); iexact Hlev
    iexact HA_zds3
  iintro ⟨HO, HA_zds3, #HR_zds3, Hpay⟩
  ihave HB_qmR3 := (Entails.of_eq (dmaPay_zds m c 3 0)) $$ Hpay
  -- step 177: WAIT sem=arg5,4
  iapply (wp_wait_cell m c (.xs 4) 0 (by decide) (by rfl) (credit_xSrc c 4) (owedN c 0 67)) $$ [HC_xs4 HO HA_xs4]
  · isplitr; · iexact HI_xs4
    isplitl [HC_xs4]; · iexact HC_xs4
    isplitl [HO]; · iexact HO
    isplitr; · iapply (mayWait_cell c (.xs 4) 0 67 rfl (Or.inl rfl)); iexact Hlev
    iexact HA_xs4
  iintro ⟨HO, HA_xs4, #HR_xs4, Hpay⟩
  ihave HS_x4 := (Entails.of_eq (dmaPay_xs m c 4 0)) $$ Hpay
  -- step 178: WAIT sem=arg7,4
  iapply (wp_wait_cell m c (.yds 4) 0 (by decide) (by rfl) (credit_qMine c 4) (owedN c 0 67)) $$ [HC_yds4 HO HA_yds4]
  · isplitr; · iexact HI_yds4
    isplitl [HC_yds4]; · iexact HC_yds4
    isplitl [HO]; · iexact HO
    isplitr; · iapply (mayWait_cell c (.yds 4) 0 67 rfl (Or.inl rfl)); iexact Hlev
    iexact HA_yds4
  iintro ⟨HO, HA_yds4, #HR_yds4, Hpay⟩
  ihave HB_qmL4 := (Entails.of_eq (dmaPay_yds m c 4 0)) $$ Hpay
  -- step 179: WAIT sem=arg9,4
  iapply (wp_wait_cell m c (.zds 4) 0 (by decide) (by rfl) (credit_qMine c 4) (owedN c 0 67)) $$ [HC_zds4 HO HA_zds4]
  · isplitr; · iexact HI_zds4
    isplitl [HC_zds4]; · iexact HC_zds4
    isplitl [HO]; · iexact HO
    isplitr; · iapply (mayWait_cell c (.zds 4) 0 67 rfl (Or.inl rfl)); iexact Hlev
    iexact HA_zds4
  iintro ⟨HO, HA_zds4, #HR_zds4, Hpay⟩
  ihave HB_qmR4 := (Entails.of_eq (dmaPay_zds m c 4 0)) $$ Hpay
  -- step 180: WAIT sem=arg5,5
  iapply (wp_wait_cell m c (.xs 5) 0 (by decide) (by rfl) (credit_xSrc c 5) (owedN c 0 67)) $$ [HC_xs5 HO HA_xs5]
  · isplitr; · iexact HI_xs5
    isplitl [HC_xs5]; · iexact HC_xs5
    isplitl [HO]; · iexact HO
    isplitr; · iapply (mayWait_cell c (.xs 5) 0 67 rfl (Or.inl rfl)); iexact Hlev
    iexact HA_xs5
  iintro ⟨HO, HA_xs5, #HR_xs5, Hpay⟩
  ihave HS_x5 := (Entails.of_eq (dmaPay_xs m c 5 0)) $$ Hpay
  -- step 181: WAIT sem=arg7,5
  iapply (wp_wait_cell m c (.yds 5) 0 (by decide) (by rfl) (credit_qMine c 5) (owedN c 0 67)) $$ [HC_yds5 HO HA_yds5]
  · isplitr; · iexact HI_yds5
    isplitl [HC_yds5]; · iexact HC_yds5
    isplitl [HO]; · iexact HO
    isplitr; · iapply (mayWait_cell c (.yds 5) 0 67 rfl (Or.inl rfl)); iexact Hlev
    iexact HA_yds5
  iintro ⟨HO, HA_yds5, #HR_yds5, Hpay⟩
  ihave HB_qmL5 := (Entails.of_eq (dmaPay_yds m c 5 0)) $$ Hpay
  -- step 182: WAIT sem=arg9,5
  iapply (wp_wait_cell m c (.zds 5) 0 (by decide) (by rfl) (credit_qMine c 5) (owedN c 0 67)) $$ [HC_zds5 HO HA_zds5]
  · isplitr; · iexact HI_zds5
    isplitl [HC_zds5]; · iexact HC_zds5
    isplitl [HO]; · iexact HO
    isplitr; · iapply (mayWait_cell c (.zds 5) 0 67 rfl (Or.inl rfl)); iexact Hlev
    iexact HA_zds5
  iintro ⟨HO, HA_zds5, #HR_zds5, Hpay⟩
  ihave HB_qmR5 := (Entails.of_eq (dmaPay_zds m c 5 0)) $$ Hpay
  -- step 183: WAIT sem=arg5,6
  iapply (wp_wait_cell m c (.xs 6) 0 (by decide) (by rfl) (credit_xSrc c 6) (owedN c 0 67)) $$ [HC_xs6 HO HA_xs6]
  · isplitr; · iexact HI_xs6
    isplitl [HC_xs6]; · iexact HC_xs6
    isplitl [HO]; · iexact HO
    isplitr; · iapply (mayWait_cell c (.xs 6) 0 67 rfl (Or.inl rfl)); iexact Hlev
    iexact HA_xs6
  iintro ⟨HO, HA_xs6, #HR_xs6, Hpay⟩
  ihave HS_x6 := (Entails.of_eq (dmaPay_xs m c 6 0)) $$ Hpay
  -- step 184: WAIT sem=arg7,6
  iapply (wp_wait_cell m c (.yds 6) 0 (by decide) (by rfl) (credit_qMine c 6) (owedN c 0 67)) $$ [HC_yds6 HO HA_yds6]
  · isplitr; · iexact HI_yds6
    isplitl [HC_yds6]; · iexact HC_yds6
    isplitl [HO]; · iexact HO
    isplitr; · iapply (mayWait_cell c (.yds 6) 0 67 rfl (Or.inl rfl)); iexact Hlev
    iexact HA_yds6
  iintro ⟨HO, HA_yds6, #HR_yds6, Hpay⟩
  ihave HB_qmL6 := (Entails.of_eq (dmaPay_yds m c 6 0)) $$ Hpay
  -- step 185: WAIT sem=arg9,6
  iapply (wp_wait_cell m c (.zds 6) 0 (by decide) (by rfl) (credit_qMine c 6) (owedN c 0 67)) $$ [HC_zds6 HO HA_zds6]
  · isplitr; · iexact HI_zds6
    isplitl [HC_zds6]; · iexact HC_zds6
    isplitl [HO]; · iexact HO
    isplitr; · iapply (mayWait_cell c (.zds 6) 0 67 rfl (Or.inl rfl)); iexact Hlev
    iexact HA_zds6
  iintro ⟨HO, HA_zds6, #HR_zds6, Hpay⟩
  ihave HB_qmR6 := (Entails.of_eq (dmaPay_zds m c 6 0)) $$ Hpay
  -- step 186: WAIT sem=arg5,7
  iapply (wp_wait_cell m c (.xs 7) 0 (by decide) (by rfl) (credit_xSrc c 7) (owedN c 0 67)) $$ [HC_xs7 HO HA_xs7]
  · isplitr; · iexact HI_xs7
    isplitl [HC_xs7]; · iexact HC_xs7
    isplitl [HO]; · iexact HO
    isplitr; · iapply (mayWait_cell c (.xs 7) 0 67 rfl (Or.inl rfl)); iexact Hlev
    iexact HA_xs7
  iintro ⟨HO, HA_xs7, #HR_xs7, Hpay⟩
  ihave HS_x7 := (Entails.of_eq (dmaPay_xs m c 7 0)) $$ Hpay
  -- step 187: WAIT sem=arg7,7
  iapply (wp_wait_cell m c (.yds 7) 0 (by decide) (by rfl) (credit_qMine c 7) (owedN c 0 67)) $$ [HC_yds7 HO HA_yds7]
  · isplitr; · iexact HI_yds7
    isplitl [HC_yds7]; · iexact HC_yds7
    isplitl [HO]; · iexact HO
    isplitr; · iapply (mayWait_cell c (.yds 7) 0 67 rfl (Or.inl rfl)); iexact Hlev
    iexact HA_yds7
  iintro ⟨HO, HA_yds7, #HR_yds7, Hpay⟩
  ihave HB_qmL7 := (Entails.of_eq (dmaPay_yds m c 7 0)) $$ Hpay
  -- step 188: WAIT sem=arg9,7
  iapply (wp_wait_cell m c (.zds 7) 0 (by decide) (by rfl) (credit_qMine c 7) (owedN c 0 67)) $$ [HC_zds7 HO HA_zds7]
  · isplitr; · iexact HI_zds7
    isplitl [HC_zds7]; · iexact HC_zds7
    isplitl [HO]; · iexact HO
    isplitr; · iapply (mayWait_cell c (.zds 7) 0 67 rfl (Or.inl rfl)); iexact Hlev
    iexact HA_zds7
  iintro ⟨HO, HA_zds7, #HR_zds7, Hpay⟩
  ihave HB_qmR7 := (Entails.of_eq (dmaPay_zds m c 7 0)) $$ Hpay
  -- step 189: WAIT sem=arg5,8
  iapply (wp_wait_cell m c (.xs 8) 0 (by decide) (by rfl) (credit_xSrc c 8) (owedN c 0 67)) $$ [HC_xs8 HO HA_xs8]
  · isplitr; · iexact HI_xs8
    isplitl [HC_xs8]; · iexact HC_xs8
    isplitl [HO]; · iexact HO
    isplitr; · iapply (mayWait_cell c (.xs 8) 0 67 rfl (Or.inl rfl)); iexact Hlev
    iexact HA_xs8
  iintro ⟨HO, HA_xs8, #HR_xs8, Hpay⟩
  ihave HS_x8 := (Entails.of_eq (dmaPay_xs m c 8 0)) $$ Hpay
  -- step 190: WAIT sem=arg7,8
  iapply (wp_wait_cell m c (.yds 8) 0 (by decide) (by rfl) (credit_qMine c 8) (owedN c 0 67)) $$ [HC_yds8 HO HA_yds8]
  · isplitr; · iexact HI_yds8
    isplitl [HC_yds8]; · iexact HC_yds8
    isplitl [HO]; · iexact HO
    isplitr; · iapply (mayWait_cell c (.yds 8) 0 67 rfl (Or.inl rfl)); iexact Hlev
    iexact HA_yds8
  iintro ⟨HO, HA_yds8, #HR_yds8, Hpay⟩
  ihave HB_qmL8 := (Entails.of_eq (dmaPay_yds m c 8 0)) $$ Hpay
  -- step 191: WAIT sem=arg9,8
  iapply (wp_wait_cell m c (.zds 8) 0 (by decide) (by rfl) (credit_qMine c 8) (owedN c 0 67)) $$ [HC_zds8 HO HA_zds8]
  · isplitr; · iexact HI_zds8
    isplitl [HC_zds8]; · iexact HC_zds8
    isplitl [HO]; · iexact HO
    isplitr; · iapply (mayWait_cell c (.zds 8) 0 67 rfl (Or.inl rfl)); iexact Hlev
    iexact HA_zds8
  iintro ⟨HO, HA_zds8, #HR_zds8, Hpay⟩
  ihave HB_qmR8 := (Entails.of_eq (dmaPay_zds m c 8 0)) $$ Hpay
  -- step 192: WAIT sem=arg5,9
  iapply (wp_wait_cell m c (.xs 9) 0 (by decide) (by rfl) (credit_xSrc c 9) (owedN c 0 67)) $$ [HC_xs9 HO HA_xs9]
  · isplitr; · iexact HI_xs9
    isplitl [HC_xs9]; · iexact HC_xs9
    isplitl [HO]; · iexact HO
    isplitr; · iapply (mayWait_cell c (.xs 9) 0 67 rfl (Or.inl rfl)); iexact Hlev
    iexact HA_xs9
  iintro ⟨HO, HA_xs9, #HR_xs9, Hpay⟩
  ihave HS_x9 := (Entails.of_eq (dmaPay_xs m c 9 0)) $$ Hpay
  -- step 193: WAIT sem=arg7,9
  iapply (wp_wait_cell m c (.yds 9) 0 (by decide) (by rfl) (credit_qMine c 9) (owedN c 0 67)) $$ [HC_yds9 HO HA_yds9]
  · isplitr; · iexact HI_yds9
    isplitl [HC_yds9]; · iexact HC_yds9
    isplitl [HO]; · iexact HO
    isplitr; · iapply (mayWait_cell c (.yds 9) 0 67 rfl (Or.inl rfl)); iexact Hlev
    iexact HA_yds9
  iintro ⟨HO, HA_yds9, #HR_yds9, Hpay⟩
  ihave HB_qmL9 := (Entails.of_eq (dmaPay_yds m c 9 0)) $$ Hpay
  -- step 194: WAIT sem=arg9,9
  iapply (wp_wait_cell m c (.zds 9) 0 (by decide) (by rfl) (credit_qMine c 9) (owedN c 0 67)) $$ [HC_zds9 HO HA_zds9]
  · isplitr; · iexact HI_zds9
    isplitl [HC_zds9]; · iexact HC_zds9
    isplitl [HO]; · iexact HO
    isplitr; · iapply (mayWait_cell c (.zds 9) 0 67 rfl (Or.inl rfl)); iexact Hlev
    iexact HA_zds9
  iintro ⟨HO, HA_zds9, #HR_zds9, Hpay⟩
  ihave HB_qmR9 := (Entails.of_eq (dmaPay_zds m c 9 0)) $$ Hpay
  -- step 195: WAIT sem=arg5,10
  iapply (wp_wait_cell m c (.xs 10) 0 (by decide) (by rfl) (credit_xSrc c 10) (owedN c 0 67)) $$ [HC_xs10 HO HA_xs10]
  · isplitr; · iexact HI_xs10
    isplitl [HC_xs10]; · iexact HC_xs10
    isplitl [HO]; · iexact HO
    isplitr; · iapply (mayWait_cell c (.xs 10) 0 67 rfl (Or.inl rfl)); iexact Hlev
    iexact HA_xs10
  iintro ⟨HO, HA_xs10, #HR_xs10, Hpay⟩
  ihave HS_x10 := (Entails.of_eq (dmaPay_xs m c 10 0)) $$ Hpay
  -- step 196: WAIT sem=arg7,10
  iapply (wp_wait_cell m c (.yds 10) 0 (by decide) (by rfl) (credit_qMine c 10) (owedN c 0 67)) $$ [HC_yds10 HO HA_yds10]
  · isplitr; · iexact HI_yds10
    isplitl [HC_yds10]; · iexact HC_yds10
    isplitl [HO]; · iexact HO
    isplitr; · iapply (mayWait_cell c (.yds 10) 0 67 rfl (Or.inl rfl)); iexact Hlev
    iexact HA_yds10
  iintro ⟨HO, HA_yds10, #HR_yds10, Hpay⟩
  ihave HB_qmL10 := (Entails.of_eq (dmaPay_yds m c 10 0)) $$ Hpay
  -- step 197: WAIT sem=arg9,10
  iapply (wp_wait_cell m c (.zds 10) 0 (by decide) (by rfl) (credit_qMine c 10) (owedN c 0 67)) $$ [HC_zds10 HO HA_zds10]
  · isplitr; · iexact HI_zds10
    isplitl [HC_zds10]; · iexact HC_zds10
    isplitl [HO]; · iexact HO
    isplitr; · iapply (mayWait_cell c (.zds 10) 0 67 rfl (Or.inl rfl)); iexact Hlev
    iexact HA_zds10
  iintro ⟨HO, HA_zds10, #HR_zds10, Hpay⟩
  ihave HB_qmR10 := (Entails.of_eq (dmaPay_zds m c 10 0)) $$ Hpay
  -- step 198: WAIT sem=arg5,11
  iapply (wp_wait_cell m c (.xs 11) 0 (by decide) (by rfl) (credit_xSrc c 11) (owedN c 0 67)) $$ [HC_xs11 HO HA_xs11]
  · isplitr; · iexact HI_xs11
    isplitl [HC_xs11]; · iexact HC_xs11
    isplitl [HO]; · iexact HO
    isplitr; · iapply (mayWait_cell c (.xs 11) 0 67 rfl (Or.inl rfl)); iexact Hlev
    iexact HA_xs11
  iintro ⟨HO, HA_xs11, #HR_xs11, Hpay⟩
  ihave HS_x11 := (Entails.of_eq (dmaPay_xs m c 11 0)) $$ Hpay
  -- step 199: WAIT sem=arg7,11
  iapply (wp_wait_cell m c (.yds 11) 0 (by decide) (by rfl) (credit_qMine c 11) (owedN c 0 67)) $$ [HC_yds11 HO HA_yds11]
  · isplitr; · iexact HI_yds11
    isplitl [HC_yds11]; · iexact HC_yds11
    isplitl [HO]; · iexact HO
    isplitr; · iapply (mayWait_cell c (.yds 11) 0 67 rfl (Or.inl rfl)); iexact Hlev
    iexact HA_yds11
  iintro ⟨HO, HA_yds11, #HR_yds11, Hpay⟩
  ihave HB_qmL11 := (Entails.of_eq (dmaPay_yds m c 11 0)) $$ Hpay
  -- step 200: WAIT sem=arg9,11
  iapply (wp_wait_cell m c (.zds 11) 0 (by decide) (by rfl) (credit_qMine c 11) (owedN c 0 67)) $$ [HC_zds11 HO HA_zds11]
  · isplitr; · iexact HI_zds11
    isplitl [HC_zds11]; · iexact HC_zds11
    isplitl [HO]; · iexact HO
    isplitr; · iapply (mayWait_cell c (.zds 11) 0 67 rfl (Or.inl rfl)); iexact Hlev
    iexact HA_zds11
  iintro ⟨HO, HA_zds11, #HR_zds11, Hpay⟩
  ihave HB_qmR11 := (Entails.of_eq (dmaPay_zds m c 11 0)) $$ Hpay
  -- step 201: WAIT sem=arg5,12
  iapply (wp_wait_cell m c (.xs 12) 0 (by decide) (by rfl) (credit_xSrc c 12) (owedN c 0 67)) $$ [HC_xs12 HO HA_xs12]
  · isplitr; · iexact HI_xs12
    isplitl [HC_xs12]; · iexact HC_xs12
    isplitl [HO]; · iexact HO
    isplitr; · iapply (mayWait_cell c (.xs 12) 0 67 rfl (Or.inl rfl)); iexact Hlev
    iexact HA_xs12
  iintro ⟨HO, HA_xs12, #HR_xs12, Hpay⟩
  ihave HS_x12 := (Entails.of_eq (dmaPay_xs m c 12 0)) $$ Hpay
  -- step 202: WAIT sem=arg7,12
  iapply (wp_wait_cell m c (.yds 12) 0 (by decide) (by rfl) (credit_qMine c 12) (owedN c 0 67)) $$ [HC_yds12 HO HA_yds12]
  · isplitr; · iexact HI_yds12
    isplitl [HC_yds12]; · iexact HC_yds12
    isplitl [HO]; · iexact HO
    isplitr; · iapply (mayWait_cell c (.yds 12) 0 67 rfl (Or.inl rfl)); iexact Hlev
    iexact HA_yds12
  iintro ⟨HO, HA_yds12, #HR_yds12, Hpay⟩
  ihave HB_qmL12 := (Entails.of_eq (dmaPay_yds m c 12 0)) $$ Hpay
  -- step 203: WAIT sem=arg9,12
  iapply (wp_wait_cell m c (.zds 12) 0 (by decide) (by rfl) (credit_qMine c 12) (owedN c 0 67)) $$ [HC_zds12 HO HA_zds12]
  · isplitr; · iexact HI_zds12
    isplitl [HC_zds12]; · iexact HC_zds12
    isplitl [HO]; · iexact HO
    isplitr; · iapply (mayWait_cell c (.zds 12) 0 67 rfl (Or.inl rfl)); iexact Hlev
    iexact HA_zds12
  iintro ⟨HO, HA_zds12, #HR_zds12, Hpay⟩
  ihave HB_qmR12 := (Entails.of_eq (dmaPay_zds m c 12 0)) $$ Hpay
  -- step 204: WAIT sem=arg5,13
  iapply (wp_wait_cell m c (.xs 13) 0 (by decide) (by rfl) (credit_xSrc c 13) (owedN c 0 67)) $$ [HC_xs13 HO HA_xs13]
  · isplitr; · iexact HI_xs13
    isplitl [HC_xs13]; · iexact HC_xs13
    isplitl [HO]; · iexact HO
    isplitr; · iapply (mayWait_cell c (.xs 13) 0 67 rfl (Or.inl rfl)); iexact Hlev
    iexact HA_xs13
  iintro ⟨HO, HA_xs13, #HR_xs13, Hpay⟩
  ihave HS_x13 := (Entails.of_eq (dmaPay_xs m c 13 0)) $$ Hpay
  -- step 205: WAIT sem=arg7,13
  iapply (wp_wait_cell m c (.yds 13) 0 (by decide) (by rfl) (credit_qMine c 13) (owedN c 0 67)) $$ [HC_yds13 HO HA_yds13]
  · isplitr; · iexact HI_yds13
    isplitl [HC_yds13]; · iexact HC_yds13
    isplitl [HO]; · iexact HO
    isplitr; · iapply (mayWait_cell c (.yds 13) 0 67 rfl (Or.inl rfl)); iexact Hlev
    iexact HA_yds13
  iintro ⟨HO, HA_yds13, #HR_yds13, Hpay⟩
  ihave HB_qmL13 := (Entails.of_eq (dmaPay_yds m c 13 0)) $$ Hpay
  -- step 206: WAIT sem=arg9,13
  iapply (wp_wait_cell m c (.zds 13) 0 (by decide) (by rfl) (credit_qMine c 13) (owedN c 0 67)) $$ [HC_zds13 HO HA_zds13]
  · isplitr; · iexact HI_zds13
    isplitl [HC_zds13]; · iexact HC_zds13
    isplitl [HO]; · iexact HO
    isplitr; · iapply (mayWait_cell c (.zds 13) 0 67 rfl (Or.inl rfl)); iexact Hlev
    iexact HA_zds13
  iintro ⟨HO, HA_zds13, #HR_zds13, Hpay⟩
  ihave HB_qmR13 := (Entails.of_eq (dmaPay_zds m c 13 0)) $$ Hpay
  -- step 207: WAIT sem=arg5,14
  iapply (wp_wait_cell m c (.xs 14) 0 (by decide) (by rfl) (credit_xSrc c 14) (owedN c 0 67)) $$ [HC_xs14 HO HA_xs14]
  · isplitr; · iexact HI_xs14
    isplitl [HC_xs14]; · iexact HC_xs14
    isplitl [HO]; · iexact HO
    isplitr; · iapply (mayWait_cell c (.xs 14) 0 67 rfl (Or.inl rfl)); iexact Hlev
    iexact HA_xs14
  iintro ⟨HO, HA_xs14, #HR_xs14, Hpay⟩
  ihave HS_x14 := (Entails.of_eq (dmaPay_xs m c 14 0)) $$ Hpay
  -- step 208: WAIT sem=arg7,14
  iapply (wp_wait_cell m c (.yds 14) 0 (by decide) (by rfl) (credit_qMine c 14) (owedN c 0 67)) $$ [HC_yds14 HO HA_yds14]
  · isplitr; · iexact HI_yds14
    isplitl [HC_yds14]; · iexact HC_yds14
    isplitl [HO]; · iexact HO
    isplitr; · iapply (mayWait_cell c (.yds 14) 0 67 rfl (Or.inl rfl)); iexact Hlev
    iexact HA_yds14
  iintro ⟨HO, HA_yds14, #HR_yds14, Hpay⟩
  ihave HB_qmL14 := (Entails.of_eq (dmaPay_yds m c 14 0)) $$ Hpay
  -- step 209: WAIT sem=arg9,14
  iapply (wp_wait_cell m c (.zds 14) 0 (by decide) (by rfl) (credit_qMine c 14) (owedN c 0 67)) $$ [HC_zds14 HO HA_zds14]
  · isplitr; · iexact HI_zds14
    isplitl [HC_zds14]; · iexact HC_zds14
    isplitl [HO]; · iexact HO
    isplitr; · iapply (mayWait_cell c (.zds 14) 0 67 rfl (Or.inl rfl)); iexact Hlev
    iexact HA_zds14
  iintro ⟨HO, HA_zds14, #HR_zds14, Hpay⟩
  ihave HB_qmR14 := (Entails.of_eq (dmaPay_zds m c 14 0)) $$ Hpay
  -- step 210: WAIT sem=arg5,15
  iapply (wp_wait_cell m c (.xs 15) 0 (by decide) (by rfl) (credit_xSrc c 15) (owedN c 0 67)) $$ [HC_xs15 HO HA_xs15]
  · isplitr; · iexact HI_xs15
    isplitl [HC_xs15]; · iexact HC_xs15
    isplitl [HO]; · iexact HO
    isplitr; · iapply (mayWait_cell c (.xs 15) 0 67 rfl (Or.inl rfl)); iexact Hlev
    iexact HA_xs15
  iintro ⟨HO, HA_xs15, #HR_xs15, Hpay⟩
  ihave HS_x15 := (Entails.of_eq (dmaPay_xs m c 15 0)) $$ Hpay
  -- step 211: WAIT sem=arg7,15
  iapply (wp_wait_cell m c (.yds 15) 0 (by decide) (by rfl) (credit_qMine c 15) (owedN c 0 67)) $$ [HC_yds15 HO HA_yds15]
  · isplitr; · iexact HI_yds15
    isplitl [HC_yds15]; · iexact HC_yds15
    isplitl [HO]; · iexact HO
    isplitr; · iapply (mayWait_cell c (.yds 15) 0 67 rfl (Or.inl rfl)); iexact Hlev
    iexact HA_yds15
  iintro ⟨HO, HA_yds15, #HR_yds15, Hpay⟩
  ihave HB_qmL15 := (Entails.of_eq (dmaPay_yds m c 15 0)) $$ Hpay
  -- step 212: WAIT sem=arg9,15
  iapply (wp_wait_cell m c (.zds 15) 0 (by decide) (by rfl) (credit_qMine c 15) (owedN c 0 67)) $$ [HC_zds15 HO HA_zds15]
  · isplitr; · iexact HI_zds15
    isplitl [HC_zds15]; · iexact HC_zds15
    isplitl [HO]; · iexact HO
    isplitr; · iapply (mayWait_cell c (.zds 15) 0 67 rfl (Or.inl rfl)); iexact Hlev
    iexact HA_zds15
  iintro ⟨HO, HA_zds15, #HR_zds15, Hpay⟩
  ihave HB_qmR15 := (Entails.of_eq (dmaPay_zds m c 15 0)) $$ Hpay
  -- step 213: WAIT sem=arg8,0
  iapply (wp_wait_cell m c (.ydr 0) 0 (by decide) (by rfl) (credit_qMine c 0) (owedN c 0 67)) $$ [HC_ydr0 HO HA_ydr0]
  · isplitr; · iexact HI_ydr0
    isplitl [HC_ydr0]; · iexact HC_ydr0
    isplitl [HO]; · iexact HO
    isplitr; · iapply (mayWait_cell c (.ydr 0) 0 67 rfl (Or.inl rfl)); iexact Hlev
    iexact HA_ydr0
  iintro ⟨HO, HA_ydr0, #HR_ydr0, Hpay⟩
  ihave HB_yd0 := (Entails.of_eq (dmaPay_ydr m c 0 0)) $$ Hpay
  -- step 214: WAIT sem=arg10,8
  iapply (wp_wait_cell m c (.zdr 8) 0 (by decide) (by rfl) (credit_qMine c 8) (owedN c 0 67)) $$ [HC_zdr8 HO HA_zdr8]
  · isplitr; · iexact HI_zdr8
    isplitl [HC_zdr8]; · iexact HC_zdr8
    isplitl [HO]; · iexact HO
    isplitr; · iapply (mayWait_cell c (.zdr 8) 0 67 rfl (Or.inl rfl)); iexact Hlev
    iexact HA_zdr8
  iintro ⟨HO, HA_zdr8, #HR_zdr8, Hpay⟩
  ihave HB_zd8 := (Entails.of_eq (dmaPay_zdr m c 8 0)) $$ Hpay
  -- step 215: WAIT sem=arg11,0
  iapply (wp_wait_cell m c (.ydgs 0) 0 (by decide) (by rfl) (credit_qZlo c 0) (owedN c 0 67)) $$ [HC_ydgs0 HO HA_ydgs0]
  · isplitr; · iexact HI_ydgs0
    isplitl [HC_ydgs0]; · iexact HC_ydgs0
    isplitl [HO]; · iexact HO
    isplitr; · iapply (mayWait_cell c (.ydgs 0) 0 67 rfl (Or.inl rfl)); iexact Hlev
    iexact HA_ydgs0
  iintro ⟨HO, HA_ydgs0, #HR_ydgs0, Hpay⟩
  ihave HB_qz0 := (Entails.of_eq (dmaPay_ydgs m c 0 0)) $$ Hpay
  -- step 216: WAIT sem=arg12,0
  iapply (wp_wait_cell m c (.ydgr 0) 0 (by decide) (by rfl) (credit_qZlo c 0) (owedN c 0 67)) $$ [HC_ydgr0 HO HA_ydgr0]
  · isplitr; · iexact HI_ydgr0
    isplitl [HC_ydgr0]; · iexact HC_ydgr0
    isplitl [HO]; · iexact HO
    isplitr; · iapply (mayWait_cell c (.ydgr 0) 0 67 rfl (Or.inl rfl)); iexact Hlev
    iexact HA_ydgr0
  iintro ⟨HO, HA_ydgr0, #HR_ydgr0, Hpay⟩
  ihave HB_ydg0 := (Entails.of_eq (dmaPay_ydgr m c 0 0)) $$ Hpay
  -- step 217: WAIT sem=arg13,0
  iapply (wp_wait_cell m c (.zdgs 0) 0 (by decide) (by rfl) (credit_qYhi c 0) (owedN c 0 67)) $$ [HC_zdgs0 HO HA_zdgs0]
  · isplitr; · iexact HI_zdgs0
    isplitl [HC_zdgs0]; · iexact HC_zdgs0
    isplitl [HO]; · iexact HO
    isplitr; · iapply (mayWait_cell c (.zdgs 0) 0 67 rfl (Or.inl rfl)); iexact Hlev
    iexact HA_zdgs0
  iintro ⟨HO, HA_zdgs0, #HR_zdgs0, Hpay⟩
  ihave HB_qy0 := (Entails.of_eq (dmaPay_zdgs m c 0 0)) $$ Hpay
  -- step 218: WAIT sem=arg14,0
  iapply (wp_wait_cell m c (.zdgr 0) 0 (by decide) (by rfl) (credit_qYhi c 0) (owedN c 0 67)) $$ [HC_zdgr0 HO HA_zdgr0]
  · isplitr; · iexact HI_zdgr0
    isplitl [HC_zdgr0]; · iexact HC_zdgr0
    isplitl [HO]; · iexact HO
    isplitr; · iapply (mayWait_cell c (.zdgr 0) 0 67 rfl (Or.inl rfl)); iexact Hlev
    iexact HA_zdgr0
  iintro ⟨HO, HA_zdgr0, #HR_zdgr0, Hpay⟩
  ihave HB_zdg0 := (Entails.of_eq (dmaPay_zdgr m c 0 0)) $$ Hpay
  -- step 219: WAIT sem=arg8,1
  iapply (wp_wait_cell m c (.ydr 1) 0 (by decide) (by rfl) (credit_qMine c 1) (owedN c 0 67)) $$ [HC_ydr1 HO HA_ydr1]
  · isplitr; · iexact HI_ydr1
    isplitl [HC_ydr1]; · iexact HC_ydr1
    isplitl [HO]; · iexact HO
    isplitr; · iapply (mayWait_cell c (.ydr 1) 0 67 rfl (Or.inl rfl)); iexact Hlev
    iexact HA_ydr1
  iintro ⟨HO, HA_ydr1, #HR_ydr1, Hpay⟩
  ihave HB_yd1 := (Entails.of_eq (dmaPay_ydr m c 1 0)) $$ Hpay
  -- step 220: WAIT sem=arg10,9
  iapply (wp_wait_cell m c (.zdr 9) 0 (by decide) (by rfl) (credit_qMine c 9) (owedN c 0 67)) $$ [HC_zdr9 HO HA_zdr9]
  · isplitr; · iexact HI_zdr9
    isplitl [HC_zdr9]; · iexact HC_zdr9
    isplitl [HO]; · iexact HO
    isplitr; · iapply (mayWait_cell c (.zdr 9) 0 67 rfl (Or.inl rfl)); iexact Hlev
    iexact HA_zdr9
  iintro ⟨HO, HA_zdr9, #HR_zdr9, Hpay⟩
  ihave HB_zd9 := (Entails.of_eq (dmaPay_zdr m c 9 0)) $$ Hpay
  -- step 221: WAIT sem=arg11,1
  iapply (wp_wait_cell m c (.ydgs 1) 0 (by decide) (by rfl) (credit_qZlo c 1) (owedN c 0 67)) $$ [HC_ydgs1 HO HA_ydgs1]
  · isplitr; · iexact HI_ydgs1
    isplitl [HC_ydgs1]; · iexact HC_ydgs1
    isplitl [HO]; · iexact HO
    isplitr; · iapply (mayWait_cell c (.ydgs 1) 0 67 rfl (Or.inl rfl)); iexact Hlev
    iexact HA_ydgs1
  iintro ⟨HO, HA_ydgs1, #HR_ydgs1, Hpay⟩
  ihave HB_qz1 := (Entails.of_eq (dmaPay_ydgs m c 1 0)) $$ Hpay
  -- step 222: WAIT sem=arg12,1
  iapply (wp_wait_cell m c (.ydgr 1) 0 (by decide) (by rfl) (credit_qZlo c 1) (owedN c 0 67)) $$ [HC_ydgr1 HO HA_ydgr1]
  · isplitr; · iexact HI_ydgr1
    isplitl [HC_ydgr1]; · iexact HC_ydgr1
    isplitl [HO]; · iexact HO
    isplitr; · iapply (mayWait_cell c (.ydgr 1) 0 67 rfl (Or.inl rfl)); iexact Hlev
    iexact HA_ydgr1
  iintro ⟨HO, HA_ydgr1, #HR_ydgr1, Hpay⟩
  ihave HB_ydg1 := (Entails.of_eq (dmaPay_ydgr m c 1 0)) $$ Hpay
  -- step 223: WAIT sem=arg13,1
  iapply (wp_wait_cell m c (.zdgs 1) 0 (by decide) (by rfl) (credit_qYhi c 1) (owedN c 0 67)) $$ [HC_zdgs1 HO HA_zdgs1]
  · isplitr; · iexact HI_zdgs1
    isplitl [HC_zdgs1]; · iexact HC_zdgs1
    isplitl [HO]; · iexact HO
    isplitr; · iapply (mayWait_cell c (.zdgs 1) 0 67 rfl (Or.inl rfl)); iexact Hlev
    iexact HA_zdgs1
  iintro ⟨HO, HA_zdgs1, #HR_zdgs1, Hpay⟩
  ihave HB_qy1 := (Entails.of_eq (dmaPay_zdgs m c 1 0)) $$ Hpay
  -- step 224: WAIT sem=arg14,1
  iapply (wp_wait_cell m c (.zdgr 1) 0 (by decide) (by rfl) (credit_qYhi c 1) (owedN c 0 67)) $$ [HC_zdgr1 HO HA_zdgr1]
  · isplitr; · iexact HI_zdgr1
    isplitl [HC_zdgr1]; · iexact HC_zdgr1
    isplitl [HO]; · iexact HO
    isplitr; · iapply (mayWait_cell c (.zdgr 1) 0 67 rfl (Or.inl rfl)); iexact Hlev
    iexact HA_zdgr1
  iintro ⟨HO, HA_zdgr1, #HR_zdgr1, Hpay⟩
  ihave HB_zdg1 := (Entails.of_eq (dmaPay_zdgr m c 1 0)) $$ Hpay
  -- step 225: WAIT sem=arg8,2
  iapply (wp_wait_cell m c (.ydr 2) 0 (by decide) (by rfl) (credit_qMine c 2) (owedN c 0 67)) $$ [HC_ydr2 HO HA_ydr2]
  · isplitr; · iexact HI_ydr2
    isplitl [HC_ydr2]; · iexact HC_ydr2
    isplitl [HO]; · iexact HO
    isplitr; · iapply (mayWait_cell c (.ydr 2) 0 67 rfl (Or.inl rfl)); iexact Hlev
    iexact HA_ydr2
  iintro ⟨HO, HA_ydr2, #HR_ydr2, Hpay⟩
  ihave HB_yd2 := (Entails.of_eq (dmaPay_ydr m c 2 0)) $$ Hpay
  -- step 226: WAIT sem=arg10,10
  iapply (wp_wait_cell m c (.zdr 10) 0 (by decide) (by rfl) (credit_qMine c 10) (owedN c 0 67)) $$ [HC_zdr10 HO HA_zdr10]
  · isplitr; · iexact HI_zdr10
    isplitl [HC_zdr10]; · iexact HC_zdr10
    isplitl [HO]; · iexact HO
    isplitr; · iapply (mayWait_cell c (.zdr 10) 0 67 rfl (Or.inl rfl)); iexact Hlev
    iexact HA_zdr10
  iintro ⟨HO, HA_zdr10, #HR_zdr10, Hpay⟩
  ihave HB_zd10 := (Entails.of_eq (dmaPay_zdr m c 10 0)) $$ Hpay
  -- step 227: WAIT sem=arg11,2
  iapply (wp_wait_cell m c (.ydgs 2) 0 (by decide) (by rfl) (credit_qZlo c 2) (owedN c 0 67)) $$ [HC_ydgs2 HO HA_ydgs2]
  · isplitr; · iexact HI_ydgs2
    isplitl [HC_ydgs2]; · iexact HC_ydgs2
    isplitl [HO]; · iexact HO
    isplitr; · iapply (mayWait_cell c (.ydgs 2) 0 67 rfl (Or.inl rfl)); iexact Hlev
    iexact HA_ydgs2
  iintro ⟨HO, HA_ydgs2, #HR_ydgs2, Hpay⟩
  ihave HB_qz2 := (Entails.of_eq (dmaPay_ydgs m c 2 0)) $$ Hpay
  -- step 228: WAIT sem=arg12,2
  iapply (wp_wait_cell m c (.ydgr 2) 0 (by decide) (by rfl) (credit_qZlo c 2) (owedN c 0 67)) $$ [HC_ydgr2 HO HA_ydgr2]
  · isplitr; · iexact HI_ydgr2
    isplitl [HC_ydgr2]; · iexact HC_ydgr2
    isplitl [HO]; · iexact HO
    isplitr; · iapply (mayWait_cell c (.ydgr 2) 0 67 rfl (Or.inl rfl)); iexact Hlev
    iexact HA_ydgr2
  iintro ⟨HO, HA_ydgr2, #HR_ydgr2, Hpay⟩
  ihave HB_ydg2 := (Entails.of_eq (dmaPay_ydgr m c 2 0)) $$ Hpay
  -- step 229: WAIT sem=arg13,2
  iapply (wp_wait_cell m c (.zdgs 2) 0 (by decide) (by rfl) (credit_qYhi c 2) (owedN c 0 67)) $$ [HC_zdgs2 HO HA_zdgs2]
  · isplitr; · iexact HI_zdgs2
    isplitl [HC_zdgs2]; · iexact HC_zdgs2
    isplitl [HO]; · iexact HO
    isplitr; · iapply (mayWait_cell c (.zdgs 2) 0 67 rfl (Or.inl rfl)); iexact Hlev
    iexact HA_zdgs2
  iintro ⟨HO, HA_zdgs2, #HR_zdgs2, Hpay⟩
  ihave HB_qy2 := (Entails.of_eq (dmaPay_zdgs m c 2 0)) $$ Hpay
  -- step 230: WAIT sem=arg14,2
  iapply (wp_wait_cell m c (.zdgr 2) 0 (by decide) (by rfl) (credit_qYhi c 2) (owedN c 0 67)) $$ [HC_zdgr2 HO HA_zdgr2]
  · isplitr; · iexact HI_zdgr2
    isplitl [HC_zdgr2]; · iexact HC_zdgr2
    isplitl [HO]; · iexact HO
    isplitr; · iapply (mayWait_cell c (.zdgr 2) 0 67 rfl (Or.inl rfl)); iexact Hlev
    iexact HA_zdgr2
  iintro ⟨HO, HA_zdgr2, #HR_zdgr2, Hpay⟩
  ihave HB_zdg2 := (Entails.of_eq (dmaPay_zdgr m c 2 0)) $$ Hpay
  -- step 231: WAIT sem=arg8,3
  iapply (wp_wait_cell m c (.ydr 3) 0 (by decide) (by rfl) (credit_qMine c 3) (owedN c 0 67)) $$ [HC_ydr3 HO HA_ydr3]
  · isplitr; · iexact HI_ydr3
    isplitl [HC_ydr3]; · iexact HC_ydr3
    isplitl [HO]; · iexact HO
    isplitr; · iapply (mayWait_cell c (.ydr 3) 0 67 rfl (Or.inl rfl)); iexact Hlev
    iexact HA_ydr3
  iintro ⟨HO, HA_ydr3, #HR_ydr3, Hpay⟩
  ihave HB_yd3 := (Entails.of_eq (dmaPay_ydr m c 3 0)) $$ Hpay
  -- step 232: WAIT sem=arg10,11
  iapply (wp_wait_cell m c (.zdr 11) 0 (by decide) (by rfl) (credit_qMine c 11) (owedN c 0 67)) $$ [HC_zdr11 HO HA_zdr11]
  · isplitr; · iexact HI_zdr11
    isplitl [HC_zdr11]; · iexact HC_zdr11
    isplitl [HO]; · iexact HO
    isplitr; · iapply (mayWait_cell c (.zdr 11) 0 67 rfl (Or.inl rfl)); iexact Hlev
    iexact HA_zdr11
  iintro ⟨HO, HA_zdr11, #HR_zdr11, Hpay⟩
  ihave HB_zd11 := (Entails.of_eq (dmaPay_zdr m c 11 0)) $$ Hpay
  -- step 233: WAIT sem=arg11,3
  iapply (wp_wait_cell m c (.ydgs 3) 0 (by decide) (by rfl) (credit_qZlo c 3) (owedN c 0 67)) $$ [HC_ydgs3 HO HA_ydgs3]
  · isplitr; · iexact HI_ydgs3
    isplitl [HC_ydgs3]; · iexact HC_ydgs3
    isplitl [HO]; · iexact HO
    isplitr; · iapply (mayWait_cell c (.ydgs 3) 0 67 rfl (Or.inl rfl)); iexact Hlev
    iexact HA_ydgs3
  iintro ⟨HO, HA_ydgs3, #HR_ydgs3, Hpay⟩
  ihave HB_qz3 := (Entails.of_eq (dmaPay_ydgs m c 3 0)) $$ Hpay
  -- step 234: WAIT sem=arg12,3
  iapply (wp_wait_cell m c (.ydgr 3) 0 (by decide) (by rfl) (credit_qZlo c 3) (owedN c 0 67)) $$ [HC_ydgr3 HO HA_ydgr3]
  · isplitr; · iexact HI_ydgr3
    isplitl [HC_ydgr3]; · iexact HC_ydgr3
    isplitl [HO]; · iexact HO
    isplitr; · iapply (mayWait_cell c (.ydgr 3) 0 67 rfl (Or.inl rfl)); iexact Hlev
    iexact HA_ydgr3
  iintro ⟨HO, HA_ydgr3, #HR_ydgr3, Hpay⟩
  ihave HB_ydg3 := (Entails.of_eq (dmaPay_ydgr m c 3 0)) $$ Hpay
  -- step 235: WAIT sem=arg13,3
  iapply (wp_wait_cell m c (.zdgs 3) 0 (by decide) (by rfl) (credit_qYhi c 3) (owedN c 0 67)) $$ [HC_zdgs3 HO HA_zdgs3]
  · isplitr; · iexact HI_zdgs3
    isplitl [HC_zdgs3]; · iexact HC_zdgs3
    isplitl [HO]; · iexact HO
    isplitr; · iapply (mayWait_cell c (.zdgs 3) 0 67 rfl (Or.inl rfl)); iexact Hlev
    iexact HA_zdgs3
  iintro ⟨HO, HA_zdgs3, #HR_zdgs3, Hpay⟩
  ihave HB_qy3 := (Entails.of_eq (dmaPay_zdgs m c 3 0)) $$ Hpay
  -- step 236: WAIT sem=arg14,3
  iapply (wp_wait_cell m c (.zdgr 3) 0 (by decide) (by rfl) (credit_qYhi c 3) (owedN c 0 67)) $$ [HC_zdgr3 HO HA_zdgr3]
  · isplitr; · iexact HI_zdgr3
    isplitl [HC_zdgr3]; · iexact HC_zdgr3
    isplitl [HO]; · iexact HO
    isplitr; · iapply (mayWait_cell c (.zdgr 3) 0 67 rfl (Or.inl rfl)); iexact Hlev
    iexact HA_zdgr3
  iintro ⟨HO, HA_zdgr3, #HR_zdgr3, Hpay⟩
  ihave HB_zdg3 := (Entails.of_eq (dmaPay_zdgr m c 3 0)) $$ Hpay
  -- step 237: WAIT sem=arg8,4
  iapply (wp_wait_cell m c (.ydr 4) 0 (by decide) (by rfl) (credit_qMine c 4) (owedN c 0 67)) $$ [HC_ydr4 HO HA_ydr4]
  · isplitr; · iexact HI_ydr4
    isplitl [HC_ydr4]; · iexact HC_ydr4
    isplitl [HO]; · iexact HO
    isplitr; · iapply (mayWait_cell c (.ydr 4) 0 67 rfl (Or.inl rfl)); iexact Hlev
    iexact HA_ydr4
  iintro ⟨HO, HA_ydr4, #HR_ydr4, Hpay⟩
  ihave HB_yd4 := (Entails.of_eq (dmaPay_ydr m c 4 0)) $$ Hpay
  -- step 238: WAIT sem=arg10,12
  iapply (wp_wait_cell m c (.zdr 12) 0 (by decide) (by rfl) (credit_qMine c 12) (owedN c 0 67)) $$ [HC_zdr12 HO HA_zdr12]
  · isplitr; · iexact HI_zdr12
    isplitl [HC_zdr12]; · iexact HC_zdr12
    isplitl [HO]; · iexact HO
    isplitr; · iapply (mayWait_cell c (.zdr 12) 0 67 rfl (Or.inl rfl)); iexact Hlev
    iexact HA_zdr12
  iintro ⟨HO, HA_zdr12, #HR_zdr12, Hpay⟩
  ihave HB_zd12 := (Entails.of_eq (dmaPay_zdr m c 12 0)) $$ Hpay
  -- step 239: WAIT sem=arg11,4
  iapply (wp_wait_cell m c (.ydgs 4) 0 (by decide) (by rfl) (credit_qZlo c 4) (owedN c 0 67)) $$ [HC_ydgs4 HO HA_ydgs4]
  · isplitr; · iexact HI_ydgs4
    isplitl [HC_ydgs4]; · iexact HC_ydgs4
    isplitl [HO]; · iexact HO
    isplitr; · iapply (mayWait_cell c (.ydgs 4) 0 67 rfl (Or.inl rfl)); iexact Hlev
    iexact HA_ydgs4
  iintro ⟨HO, HA_ydgs4, #HR_ydgs4, Hpay⟩
  ihave HB_qz4 := (Entails.of_eq (dmaPay_ydgs m c 4 0)) $$ Hpay
  -- step 240: WAIT sem=arg12,4
  iapply (wp_wait_cell m c (.ydgr 4) 0 (by decide) (by rfl) (credit_qZlo c 4) (owedN c 0 67)) $$ [HC_ydgr4 HO HA_ydgr4]
  · isplitr; · iexact HI_ydgr4
    isplitl [HC_ydgr4]; · iexact HC_ydgr4
    isplitl [HO]; · iexact HO
    isplitr; · iapply (mayWait_cell c (.ydgr 4) 0 67 rfl (Or.inl rfl)); iexact Hlev
    iexact HA_ydgr4
  iintro ⟨HO, HA_ydgr4, #HR_ydgr4, Hpay⟩
  ihave HB_ydg4 := (Entails.of_eq (dmaPay_ydgr m c 4 0)) $$ Hpay
  -- step 241: WAIT sem=arg13,4
  iapply (wp_wait_cell m c (.zdgs 4) 0 (by decide) (by rfl) (credit_qYhi c 4) (owedN c 0 67)) $$ [HC_zdgs4 HO HA_zdgs4]
  · isplitr; · iexact HI_zdgs4
    isplitl [HC_zdgs4]; · iexact HC_zdgs4
    isplitl [HO]; · iexact HO
    isplitr; · iapply (mayWait_cell c (.zdgs 4) 0 67 rfl (Or.inl rfl)); iexact Hlev
    iexact HA_zdgs4
  iintro ⟨HO, HA_zdgs4, #HR_zdgs4, Hpay⟩
  ihave HB_qy4 := (Entails.of_eq (dmaPay_zdgs m c 4 0)) $$ Hpay
  -- step 242: WAIT sem=arg14,4
  iapply (wp_wait_cell m c (.zdgr 4) 0 (by decide) (by rfl) (credit_qYhi c 4) (owedN c 0 67)) $$ [HC_zdgr4 HO HA_zdgr4]
  · isplitr; · iexact HI_zdgr4
    isplitl [HC_zdgr4]; · iexact HC_zdgr4
    isplitl [HO]; · iexact HO
    isplitr; · iapply (mayWait_cell c (.zdgr 4) 0 67 rfl (Or.inl rfl)); iexact Hlev
    iexact HA_zdgr4
  iintro ⟨HO, HA_zdgr4, #HR_zdgr4, Hpay⟩
  ihave HB_zdg4 := (Entails.of_eq (dmaPay_zdgr m c 4 0)) $$ Hpay
  -- step 243: WAIT sem=arg8,5
  iapply (wp_wait_cell m c (.ydr 5) 0 (by decide) (by rfl) (credit_qMine c 5) (owedN c 0 67)) $$ [HC_ydr5 HO HA_ydr5]
  · isplitr; · iexact HI_ydr5
    isplitl [HC_ydr5]; · iexact HC_ydr5
    isplitl [HO]; · iexact HO
    isplitr; · iapply (mayWait_cell c (.ydr 5) 0 67 rfl (Or.inl rfl)); iexact Hlev
    iexact HA_ydr5
  iintro ⟨HO, HA_ydr5, #HR_ydr5, Hpay⟩
  ihave HB_yd5 := (Entails.of_eq (dmaPay_ydr m c 5 0)) $$ Hpay
  -- step 244: WAIT sem=arg10,13
  iapply (wp_wait_cell m c (.zdr 13) 0 (by decide) (by rfl) (credit_qMine c 13) (owedN c 0 67)) $$ [HC_zdr13 HO HA_zdr13]
  · isplitr; · iexact HI_zdr13
    isplitl [HC_zdr13]; · iexact HC_zdr13
    isplitl [HO]; · iexact HO
    isplitr; · iapply (mayWait_cell c (.zdr 13) 0 67 rfl (Or.inl rfl)); iexact Hlev
    iexact HA_zdr13
  iintro ⟨HO, HA_zdr13, #HR_zdr13, Hpay⟩
  ihave HB_zd13 := (Entails.of_eq (dmaPay_zdr m c 13 0)) $$ Hpay
  -- step 245: WAIT sem=arg11,5
  iapply (wp_wait_cell m c (.ydgs 5) 0 (by decide) (by rfl) (credit_qZlo c 5) (owedN c 0 67)) $$ [HC_ydgs5 HO HA_ydgs5]
  · isplitr; · iexact HI_ydgs5
    isplitl [HC_ydgs5]; · iexact HC_ydgs5
    isplitl [HO]; · iexact HO
    isplitr; · iapply (mayWait_cell c (.ydgs 5) 0 67 rfl (Or.inl rfl)); iexact Hlev
    iexact HA_ydgs5
  iintro ⟨HO, HA_ydgs5, #HR_ydgs5, Hpay⟩
  ihave HB_qz5 := (Entails.of_eq (dmaPay_ydgs m c 5 0)) $$ Hpay
  -- step 246: WAIT sem=arg12,5
  iapply (wp_wait_cell m c (.ydgr 5) 0 (by decide) (by rfl) (credit_qZlo c 5) (owedN c 0 67)) $$ [HC_ydgr5 HO HA_ydgr5]
  · isplitr; · iexact HI_ydgr5
    isplitl [HC_ydgr5]; · iexact HC_ydgr5
    isplitl [HO]; · iexact HO
    isplitr; · iapply (mayWait_cell c (.ydgr 5) 0 67 rfl (Or.inl rfl)); iexact Hlev
    iexact HA_ydgr5
  iintro ⟨HO, HA_ydgr5, #HR_ydgr5, Hpay⟩
  ihave HB_ydg5 := (Entails.of_eq (dmaPay_ydgr m c 5 0)) $$ Hpay
  -- step 247: WAIT sem=arg13,5
  iapply (wp_wait_cell m c (.zdgs 5) 0 (by decide) (by rfl) (credit_qYhi c 5) (owedN c 0 67)) $$ [HC_zdgs5 HO HA_zdgs5]
  · isplitr; · iexact HI_zdgs5
    isplitl [HC_zdgs5]; · iexact HC_zdgs5
    isplitl [HO]; · iexact HO
    isplitr; · iapply (mayWait_cell c (.zdgs 5) 0 67 rfl (Or.inl rfl)); iexact Hlev
    iexact HA_zdgs5
  iintro ⟨HO, HA_zdgs5, #HR_zdgs5, Hpay⟩
  ihave HB_qy5 := (Entails.of_eq (dmaPay_zdgs m c 5 0)) $$ Hpay
  -- step 248: WAIT sem=arg14,5
  iapply (wp_wait_cell m c (.zdgr 5) 0 (by decide) (by rfl) (credit_qYhi c 5) (owedN c 0 67)) $$ [HC_zdgr5 HO HA_zdgr5]
  · isplitr; · iexact HI_zdgr5
    isplitl [HC_zdgr5]; · iexact HC_zdgr5
    isplitl [HO]; · iexact HO
    isplitr; · iapply (mayWait_cell c (.zdgr 5) 0 67 rfl (Or.inl rfl)); iexact Hlev
    iexact HA_zdgr5
  iintro ⟨HO, HA_zdgr5, #HR_zdgr5, Hpay⟩
  ihave HB_zdg5 := (Entails.of_eq (dmaPay_zdgr m c 5 0)) $$ Hpay
  -- step 249: WAIT sem=arg8,6
  iapply (wp_wait_cell m c (.ydr 6) 0 (by decide) (by rfl) (credit_qMine c 6) (owedN c 0 67)) $$ [HC_ydr6 HO HA_ydr6]
  · isplitr; · iexact HI_ydr6
    isplitl [HC_ydr6]; · iexact HC_ydr6
    isplitl [HO]; · iexact HO
    isplitr; · iapply (mayWait_cell c (.ydr 6) 0 67 rfl (Or.inl rfl)); iexact Hlev
    iexact HA_ydr6
  iintro ⟨HO, HA_ydr6, #HR_ydr6, Hpay⟩
  ihave HB_yd6 := (Entails.of_eq (dmaPay_ydr m c 6 0)) $$ Hpay
  -- step 250: WAIT sem=arg10,14
  iapply (wp_wait_cell m c (.zdr 14) 0 (by decide) (by rfl) (credit_qMine c 14) (owedN c 0 67)) $$ [HC_zdr14 HO HA_zdr14]
  · isplitr; · iexact HI_zdr14
    isplitl [HC_zdr14]; · iexact HC_zdr14
    isplitl [HO]; · iexact HO
    isplitr; · iapply (mayWait_cell c (.zdr 14) 0 67 rfl (Or.inl rfl)); iexact Hlev
    iexact HA_zdr14
  iintro ⟨HO, HA_zdr14, #HR_zdr14, Hpay⟩
  ihave HB_zd14 := (Entails.of_eq (dmaPay_zdr m c 14 0)) $$ Hpay
  -- step 251: WAIT sem=arg11,6
  iapply (wp_wait_cell m c (.ydgs 6) 0 (by decide) (by rfl) (credit_qZlo c 6) (owedN c 0 67)) $$ [HC_ydgs6 HO HA_ydgs6]
  · isplitr; · iexact HI_ydgs6
    isplitl [HC_ydgs6]; · iexact HC_ydgs6
    isplitl [HO]; · iexact HO
    isplitr; · iapply (mayWait_cell c (.ydgs 6) 0 67 rfl (Or.inl rfl)); iexact Hlev
    iexact HA_ydgs6
  iintro ⟨HO, HA_ydgs6, #HR_ydgs6, Hpay⟩
  ihave HB_qz6 := (Entails.of_eq (dmaPay_ydgs m c 6 0)) $$ Hpay
  -- step 252: WAIT sem=arg12,6
  iapply (wp_wait_cell m c (.ydgr 6) 0 (by decide) (by rfl) (credit_qZlo c 6) (owedN c 0 67)) $$ [HC_ydgr6 HO HA_ydgr6]
  · isplitr; · iexact HI_ydgr6
    isplitl [HC_ydgr6]; · iexact HC_ydgr6
    isplitl [HO]; · iexact HO
    isplitr; · iapply (mayWait_cell c (.ydgr 6) 0 67 rfl (Or.inl rfl)); iexact Hlev
    iexact HA_ydgr6
  iintro ⟨HO, HA_ydgr6, #HR_ydgr6, Hpay⟩
  ihave HB_ydg6 := (Entails.of_eq (dmaPay_ydgr m c 6 0)) $$ Hpay
  -- step 253: WAIT sem=arg13,6
  iapply (wp_wait_cell m c (.zdgs 6) 0 (by decide) (by rfl) (credit_qYhi c 6) (owedN c 0 67)) $$ [HC_zdgs6 HO HA_zdgs6]
  · isplitr; · iexact HI_zdgs6
    isplitl [HC_zdgs6]; · iexact HC_zdgs6
    isplitl [HO]; · iexact HO
    isplitr; · iapply (mayWait_cell c (.zdgs 6) 0 67 rfl (Or.inl rfl)); iexact Hlev
    iexact HA_zdgs6
  iintro ⟨HO, HA_zdgs6, #HR_zdgs6, Hpay⟩
  ihave HB_qy6 := (Entails.of_eq (dmaPay_zdgs m c 6 0)) $$ Hpay
  -- step 254: WAIT sem=arg14,6
  iapply (wp_wait_cell m c (.zdgr 6) 0 (by decide) (by rfl) (credit_qYhi c 6) (owedN c 0 67)) $$ [HC_zdgr6 HO HA_zdgr6]
  · isplitr; · iexact HI_zdgr6
    isplitl [HC_zdgr6]; · iexact HC_zdgr6
    isplitl [HO]; · iexact HO
    isplitr; · iapply (mayWait_cell c (.zdgr 6) 0 67 rfl (Or.inl rfl)); iexact Hlev
    iexact HA_zdgr6
  iintro ⟨HO, HA_zdgr6, #HR_zdgr6, Hpay⟩
  ihave HB_zdg6 := (Entails.of_eq (dmaPay_zdgr m c 6 0)) $$ Hpay
  -- step 255: WAIT sem=arg8,7
  iapply (wp_wait_cell m c (.ydr 7) 0 (by decide) (by rfl) (credit_qMine c 7) (owedN c 0 67)) $$ [HC_ydr7 HO HA_ydr7]
  · isplitr; · iexact HI_ydr7
    isplitl [HC_ydr7]; · iexact HC_ydr7
    isplitl [HO]; · iexact HO
    isplitr; · iapply (mayWait_cell c (.ydr 7) 0 67 rfl (Or.inl rfl)); iexact Hlev
    iexact HA_ydr7
  iintro ⟨HO, HA_ydr7, #HR_ydr7, Hpay⟩
  ihave HB_yd7 := (Entails.of_eq (dmaPay_ydr m c 7 0)) $$ Hpay
  -- step 256: WAIT sem=arg10,15
  iapply (wp_wait_cell m c (.zdr 15) 0 (by decide) (by rfl) (credit_qMine c 15) (owedN c 0 67)) $$ [HC_zdr15 HO HA_zdr15]
  · isplitr; · iexact HI_zdr15
    isplitl [HC_zdr15]; · iexact HC_zdr15
    isplitl [HO]; · iexact HO
    isplitr; · iapply (mayWait_cell c (.zdr 15) 0 67 rfl (Or.inl rfl)); iexact Hlev
    iexact HA_zdr15
  iintro ⟨HO, HA_zdr15, #HR_zdr15, Hpay⟩
  ihave HB_zd15 := (Entails.of_eq (dmaPay_zdr m c 15 0)) $$ Hpay
  -- step 257: WAIT sem=arg11,7
  iapply (wp_wait_cell m c (.ydgs 7) 0 (by decide) (by rfl) (credit_qZlo c 7) (owedN c 0 67)) $$ [HC_ydgs7 HO HA_ydgs7]
  · isplitr; · iexact HI_ydgs7
    isplitl [HC_ydgs7]; · iexact HC_ydgs7
    isplitl [HO]; · iexact HO
    isplitr; · iapply (mayWait_cell c (.ydgs 7) 0 67 rfl (Or.inl rfl)); iexact Hlev
    iexact HA_ydgs7
  iintro ⟨HO, HA_ydgs7, #HR_ydgs7, Hpay⟩
  ihave HB_qz7 := (Entails.of_eq (dmaPay_ydgs m c 7 0)) $$ Hpay
  -- step 258: WAIT sem=arg12,7
  iapply (wp_wait_cell m c (.ydgr 7) 0 (by decide) (by rfl) (credit_qZlo c 7) (owedN c 0 67)) $$ [HC_ydgr7 HO HA_ydgr7]
  · isplitr; · iexact HI_ydgr7
    isplitl [HC_ydgr7]; · iexact HC_ydgr7
    isplitl [HO]; · iexact HO
    isplitr; · iapply (mayWait_cell c (.ydgr 7) 0 67 rfl (Or.inl rfl)); iexact Hlev
    iexact HA_ydgr7
  iintro ⟨HO, HA_ydgr7, #HR_ydgr7, Hpay⟩
  ihave HB_ydg7 := (Entails.of_eq (dmaPay_ydgr m c 7 0)) $$ Hpay
  -- step 259: WAIT sem=arg13,7
  iapply (wp_wait_cell m c (.zdgs 7) 0 (by decide) (by rfl) (credit_qYhi c 7) (owedN c 0 67)) $$ [HC_zdgs7 HO HA_zdgs7]
  · isplitr; · iexact HI_zdgs7
    isplitl [HC_zdgs7]; · iexact HC_zdgs7
    isplitl [HO]; · iexact HO
    isplitr; · iapply (mayWait_cell c (.zdgs 7) 0 67 rfl (Or.inl rfl)); iexact Hlev
    iexact HA_zdgs7
  iintro ⟨HO, HA_zdgs7, #HR_zdgs7, Hpay⟩
  ihave HB_qy7 := (Entails.of_eq (dmaPay_zdgs m c 7 0)) $$ Hpay
  -- step 260: WAIT sem=arg14,7
  iapply (wp_wait_cell m c (.zdgr 7) 0 (by decide) (by rfl) (credit_qYhi c 7) (owedN c 0 67)) $$ [HC_zdgr7 HO HA_zdgr7]
  · isplitr; · iexact HI_zdgr7
    isplitl [HC_zdgr7]; · iexact HC_zdgr7
    isplitl [HO]; · iexact HO
    isplitr; · iapply (mayWait_cell c (.zdgr 7) 0 67 rfl (Or.inl rfl)); iexact Hlev
    iexact HA_zdgr7
  iintro ⟨HO, HA_zdgr7, #HR_zdgr7, Hpay⟩
  ihave HB_zdg7 := (Entails.of_eq (dmaPay_zdgr m c 7 0)) $$ Hpay
  -- every cell's rounds are over: the counters, at zero, are the device's again
  imod (close_cell m c (.ld 0) 4 (by decide)) $$ [HA_ld0] with HZ_ld0
  · isplitr; · iexact HI_ld0
    iexact HA_ld0
  imod (close_cell m c (.ld 1) 4 (by decide)) $$ [HA_ld1] with HZ_ld1
  · isplitr; · iexact HI_ld1
    iexact HA_ld1
  imod (close_cell m c (.ld 2) 4 (by decide)) $$ [HA_ld2] with HZ_ld2
  · isplitr; · iexact HI_ld2
    iexact HA_ld2
  imod (close_cell m c (.ld 3) 4 (by decide)) $$ [HA_ld3] with HZ_ld3
  · isplitr; · iexact HI_ld3
    iexact HA_ld3
  imod (close_cell m c (.st 0) 4 (by decide)) $$ [HA_st0] with HZ_st0
  · isplitr; · iexact HI_st0
    iexact HA_st0
  imod (close_cell m c (.st 1) 4 (by decide)) $$ [HA_st1] with HZ_st1
  · isplitr; · iexact HI_st1
    iexact HA_st1
  imod (close_cell m c (.st 2) 4 (by decide)) $$ [HA_st2] with HZ_st2
  · isplitr; · iexact HI_st2
    iexact HA_st2
  imod (close_cell m c (.st 3) 4 (by decide)) $$ [HA_st3] with HZ_st3
  · isplitr; · iexact HI_st3
    iexact HA_st3
  imod (close_cell m c (.xs 0) 1 (by decide)) $$ [HA_xs0] with HZ_xs0
  · isplitr; · iexact HI_xs0
    iexact HA_xs0
  imod (close_cell m c (.xs 1) 1 (by decide)) $$ [HA_xs1] with HZ_xs1
  · isplitr; · iexact HI_xs1
    iexact HA_xs1
  imod (close_cell m c (.xs 2) 1 (by decide)) $$ [HA_xs2] with HZ_xs2
  · isplitr; · iexact HI_xs2
    iexact HA_xs2
  imod (close_cell m c (.xs 3) 1 (by decide)) $$ [HA_xs3] with HZ_xs3
  · isplitr; · iexact HI_xs3
    iexact HA_xs3
  imod (close_cell m c (.xs 4) 1 (by decide)) $$ [HA_xs4] with HZ_xs4
  · isplitr; · iexact HI_xs4
    iexact HA_xs4
  imod (close_cell m c (.xs 5) 1 (by decide)) $$ [HA_xs5] with HZ_xs5
  · isplitr; · iexact HI_xs5
    iexact HA_xs5
  imod (close_cell m c (.xs 6) 1 (by decide)) $$ [HA_xs6] with HZ_xs6
  · isplitr; · iexact HI_xs6
    iexact HA_xs6
  imod (close_cell m c (.xs 7) 1 (by decide)) $$ [HA_xs7] with HZ_xs7
  · isplitr; · iexact HI_xs7
    iexact HA_xs7
  imod (close_cell m c (.xs 8) 1 (by decide)) $$ [HA_xs8] with HZ_xs8
  · isplitr; · iexact HI_xs8
    iexact HA_xs8
  imod (close_cell m c (.xs 9) 1 (by decide)) $$ [HA_xs9] with HZ_xs9
  · isplitr; · iexact HI_xs9
    iexact HA_xs9
  imod (close_cell m c (.xs 10) 1 (by decide)) $$ [HA_xs10] with HZ_xs10
  · isplitr; · iexact HI_xs10
    iexact HA_xs10
  imod (close_cell m c (.xs 11) 1 (by decide)) $$ [HA_xs11] with HZ_xs11
  · isplitr; · iexact HI_xs11
    iexact HA_xs11
  imod (close_cell m c (.xs 12) 1 (by decide)) $$ [HA_xs12] with HZ_xs12
  · isplitr; · iexact HI_xs12
    iexact HA_xs12
  imod (close_cell m c (.xs 13) 1 (by decide)) $$ [HA_xs13] with HZ_xs13
  · isplitr; · iexact HI_xs13
    iexact HA_xs13
  imod (close_cell m c (.xs 14) 1 (by decide)) $$ [HA_xs14] with HZ_xs14
  · isplitr; · iexact HI_xs14
    iexact HA_xs14
  imod (close_cell m c (.xs 15) 1 (by decide)) $$ [HA_xs15] with HZ_xs15
  · isplitr; · iexact HI_xs15
    iexact HA_xs15
  imod (close_cell m c (.xr 0) 1 (by decide)) $$ [HA_xr0] with HZ_xr0
  · isplitr; · iexact HI_xr0
    iexact HA_xr0
  imod (close_cell m c (.xr 1) 1 (by decide)) $$ [HA_xr1] with HZ_xr1
  · isplitr; · iexact HI_xr1
    iexact HA_xr1
  imod (close_cell m c (.xr 2) 1 (by decide)) $$ [HA_xr2] with HZ_xr2
  · isplitr; · iexact HI_xr2
    iexact HA_xr2
  imod (close_cell m c (.xr 3) 1 (by decide)) $$ [HA_xr3] with HZ_xr3
  · isplitr; · iexact HI_xr3
    iexact HA_xr3
  imod (close_cell m c (.xr 4) 1 (by decide)) $$ [HA_xr4] with HZ_xr4
  · isplitr; · iexact HI_xr4
    iexact HA_xr4
  imod (close_cell m c (.xr 5) 1 (by decide)) $$ [HA_xr5] with HZ_xr5
  · isplitr; · iexact HI_xr5
    iexact HA_xr5
  imod (close_cell m c (.xr 6) 1 (by decide)) $$ [HA_xr6] with HZ_xr6
  · isplitr; · iexact HI_xr6
    iexact HA_xr6
  imod (close_cell m c (.xr 7) 1 (by decide)) $$ [HA_xr7] with HZ_xr7
  · isplitr; · iexact HI_xr7
    iexact HA_xr7
  imod (close_cell m c (.xr 8) 1 (by decide)) $$ [HA_xr8] with HZ_xr8
  · isplitr; · iexact HI_xr8
    iexact HA_xr8
  imod (close_cell m c (.xr 9) 1 (by decide)) $$ [HA_xr9] with HZ_xr9
  · isplitr; · iexact HI_xr9
    iexact HA_xr9
  imod (close_cell m c (.xr 10) 1 (by decide)) $$ [HA_xr10] with HZ_xr10
  · isplitr; · iexact HI_xr10
    iexact HA_xr10
  imod (close_cell m c (.xr 11) 1 (by decide)) $$ [HA_xr11] with HZ_xr11
  · isplitr; · iexact HI_xr11
    iexact HA_xr11
  imod (close_cell m c (.xr 12) 1 (by decide)) $$ [HA_xr12] with HZ_xr12
  · isplitr; · iexact HI_xr12
    iexact HA_xr12
  imod (close_cell m c (.xr 13) 1 (by decide)) $$ [HA_xr13] with HZ_xr13
  · isplitr; · iexact HI_xr13
    iexact HA_xr13
  imod (close_cell m c (.xr 14) 1 (by decide)) $$ [HA_xr14] with HZ_xr14
  · isplitr; · iexact HI_xr14
    iexact HA_xr14
  imod (close_cell m c (.xr 15) 1 (by decide)) $$ [HA_xr15] with HZ_xr15
  · isplitr; · iexact HI_xr15
    iexact HA_xr15
  imod (close_cell m c (.yds 0) 1 (by decide)) $$ [HA_yds0] with HZ_yds0
  · isplitr; · iexact HI_yds0
    iexact HA_yds0
  imod (close_cell m c (.yds 1) 1 (by decide)) $$ [HA_yds1] with HZ_yds1
  · isplitr; · iexact HI_yds1
    iexact HA_yds1
  imod (close_cell m c (.yds 2) 1 (by decide)) $$ [HA_yds2] with HZ_yds2
  · isplitr; · iexact HI_yds2
    iexact HA_yds2
  imod (close_cell m c (.yds 3) 1 (by decide)) $$ [HA_yds3] with HZ_yds3
  · isplitr; · iexact HI_yds3
    iexact HA_yds3
  imod (close_cell m c (.yds 4) 1 (by decide)) $$ [HA_yds4] with HZ_yds4
  · isplitr; · iexact HI_yds4
    iexact HA_yds4
  imod (close_cell m c (.yds 5) 1 (by decide)) $$ [HA_yds5] with HZ_yds5
  · isplitr; · iexact HI_yds5
    iexact HA_yds5
  imod (close_cell m c (.yds 6) 1 (by decide)) $$ [HA_yds6] with HZ_yds6
  · isplitr; · iexact HI_yds6
    iexact HA_yds6
  imod (close_cell m c (.yds 7) 1 (by decide)) $$ [HA_yds7] with HZ_yds7
  · isplitr; · iexact HI_yds7
    iexact HA_yds7
  imod (close_cell m c (.yds 8) 1 (by decide)) $$ [HA_yds8] with HZ_yds8
  · isplitr; · iexact HI_yds8
    iexact HA_yds8
  imod (close_cell m c (.yds 9) 1 (by decide)) $$ [HA_yds9] with HZ_yds9
  · isplitr; · iexact HI_yds9
    iexact HA_yds9
  imod (close_cell m c (.yds 10) 1 (by decide)) $$ [HA_yds10] with HZ_yds10
  · isplitr; · iexact HI_yds10
    iexact HA_yds10
  imod (close_cell m c (.yds 11) 1 (by decide)) $$ [HA_yds11] with HZ_yds11
  · isplitr; · iexact HI_yds11
    iexact HA_yds11
  imod (close_cell m c (.yds 12) 1 (by decide)) $$ [HA_yds12] with HZ_yds12
  · isplitr; · iexact HI_yds12
    iexact HA_yds12
  imod (close_cell m c (.yds 13) 1 (by decide)) $$ [HA_yds13] with HZ_yds13
  · isplitr; · iexact HI_yds13
    iexact HA_yds13
  imod (close_cell m c (.yds 14) 1 (by decide)) $$ [HA_yds14] with HZ_yds14
  · isplitr; · iexact HI_yds14
    iexact HA_yds14
  imod (close_cell m c (.yds 15) 1 (by decide)) $$ [HA_yds15] with HZ_yds15
  · isplitr; · iexact HI_yds15
    iexact HA_yds15
  imod (close_cell m c (.ydr 0) 1 (by decide)) $$ [HA_ydr0] with HZ_ydr0
  · isplitr; · iexact HI_ydr0
    iexact HA_ydr0
  imod (close_cell m c (.ydr 1) 1 (by decide)) $$ [HA_ydr1] with HZ_ydr1
  · isplitr; · iexact HI_ydr1
    iexact HA_ydr1
  imod (close_cell m c (.ydr 2) 1 (by decide)) $$ [HA_ydr2] with HZ_ydr2
  · isplitr; · iexact HI_ydr2
    iexact HA_ydr2
  imod (close_cell m c (.ydr 3) 1 (by decide)) $$ [HA_ydr3] with HZ_ydr3
  · isplitr; · iexact HI_ydr3
    iexact HA_ydr3
  imod (close_cell m c (.ydr 4) 1 (by decide)) $$ [HA_ydr4] with HZ_ydr4
  · isplitr; · iexact HI_ydr4
    iexact HA_ydr4
  imod (close_cell m c (.ydr 5) 1 (by decide)) $$ [HA_ydr5] with HZ_ydr5
  · isplitr; · iexact HI_ydr5
    iexact HA_ydr5
  imod (close_cell m c (.ydr 6) 1 (by decide)) $$ [HA_ydr6] with HZ_ydr6
  · isplitr; · iexact HI_ydr6
    iexact HA_ydr6
  imod (close_cell m c (.ydr 7) 1 (by decide)) $$ [HA_ydr7] with HZ_ydr7
  · isplitr; · iexact HI_ydr7
    iexact HA_ydr7
  imod (close_cell m c (.ydr 8) 1 (by decide)) $$ [HA_ydr8] with HZ_ydr8
  · isplitr; · iexact HI_ydr8
    iexact HA_ydr8
  imod (close_cell m c (.ydr 9) 1 (by decide)) $$ [HA_ydr9] with HZ_ydr9
  · isplitr; · iexact HI_ydr9
    iexact HA_ydr9
  imod (close_cell m c (.ydr 10) 1 (by decide)) $$ [HA_ydr10] with HZ_ydr10
  · isplitr; · iexact HI_ydr10
    iexact HA_ydr10
  imod (close_cell m c (.ydr 11) 1 (by decide)) $$ [HA_ydr11] with HZ_ydr11
  · isplitr; · iexact HI_ydr11
    iexact HA_ydr11
  imod (close_cell m c (.ydr 12) 1 (by decide)) $$ [HA_ydr12] with HZ_ydr12
  · isplitr; · iexact HI_ydr12
    iexact HA_ydr12
  imod (close_cell m c (.ydr 13) 1 (by decide)) $$ [HA_ydr13] with HZ_ydr13
  · isplitr; · iexact HI_ydr13
    iexact HA_ydr13
  imod (close_cell m c (.ydr 14) 1 (by decide)) $$ [HA_ydr14] with HZ_ydr14
  · isplitr; · iexact HI_ydr14
    iexact HA_ydr14
  imod (close_cell m c (.ydr 15) 1 (by decide)) $$ [HA_ydr15] with HZ_ydr15
  · isplitr; · iexact HI_ydr15
    iexact HA_ydr15
  imod (close_cell m c (.zds 0) 1 (by decide)) $$ [HA_zds0] with HZ_zds0
  · isplitr; · iexact HI_zds0
    iexact HA_zds0
  imod (close_cell m c (.zds 1) 1 (by decide)) $$ [HA_zds1] with HZ_zds1
  · isplitr; · iexact HI_zds1
    iexact HA_zds1
  imod (close_cell m c (.zds 2) 1 (by decide)) $$ [HA_zds2] with HZ_zds2
  · isplitr; · iexact HI_zds2
    iexact HA_zds2
  imod (close_cell m c (.zds 3) 1 (by decide)) $$ [HA_zds3] with HZ_zds3
  · isplitr; · iexact HI_zds3
    iexact HA_zds3
  imod (close_cell m c (.zds 4) 1 (by decide)) $$ [HA_zds4] with HZ_zds4
  · isplitr; · iexact HI_zds4
    iexact HA_zds4
  imod (close_cell m c (.zds 5) 1 (by decide)) $$ [HA_zds5] with HZ_zds5
  · isplitr; · iexact HI_zds5
    iexact HA_zds5
  imod (close_cell m c (.zds 6) 1 (by decide)) $$ [HA_zds6] with HZ_zds6
  · isplitr; · iexact HI_zds6
    iexact HA_zds6
  imod (close_cell m c (.zds 7) 1 (by decide)) $$ [HA_zds7] with HZ_zds7
  · isplitr; · iexact HI_zds7
    iexact HA_zds7
  imod (close_cell m c (.zds 8) 1 (by decide)) $$ [HA_zds8] with HZ_zds8
  · isplitr; · iexact HI_zds8
    iexact HA_zds8
  imod (close_cell m c (.zds 9) 1 (by decide)) $$ [HA_zds9] with HZ_zds9
  · isplitr; · iexact HI_zds9
    iexact HA_zds9
  imod (close_cell m c (.zds 10) 1 (by decide)) $$ [HA_zds10] with HZ_zds10
  · isplitr; · iexact HI_zds10
    iexact HA_zds10
  imod (close_cell m c (.zds 11) 1 (by decide)) $$ [HA_zds11] with HZ_zds11
  · isplitr; · iexact HI_zds11
    iexact HA_zds11
  imod (close_cell m c (.zds 12) 1 (by decide)) $$ [HA_zds12] with HZ_zds12
  · isplitr; · iexact HI_zds12
    iexact HA_zds12
  imod (close_cell m c (.zds 13) 1 (by decide)) $$ [HA_zds13] with HZ_zds13
  · isplitr; · iexact HI_zds13
    iexact HA_zds13
  imod (close_cell m c (.zds 14) 1 (by decide)) $$ [HA_zds14] with HZ_zds14
  · isplitr; · iexact HI_zds14
    iexact HA_zds14
  imod (close_cell m c (.zds 15) 1 (by decide)) $$ [HA_zds15] with HZ_zds15
  · isplitr; · iexact HI_zds15
    iexact HA_zds15
  imod (close_cell m c (.zdr 0) 1 (by decide)) $$ [HA_zdr0] with HZ_zdr0
  · isplitr; · iexact HI_zdr0
    iexact HA_zdr0
  imod (close_cell m c (.zdr 1) 1 (by decide)) $$ [HA_zdr1] with HZ_zdr1
  · isplitr; · iexact HI_zdr1
    iexact HA_zdr1
  imod (close_cell m c (.zdr 2) 1 (by decide)) $$ [HA_zdr2] with HZ_zdr2
  · isplitr; · iexact HI_zdr2
    iexact HA_zdr2
  imod (close_cell m c (.zdr 3) 1 (by decide)) $$ [HA_zdr3] with HZ_zdr3
  · isplitr; · iexact HI_zdr3
    iexact HA_zdr3
  imod (close_cell m c (.zdr 4) 1 (by decide)) $$ [HA_zdr4] with HZ_zdr4
  · isplitr; · iexact HI_zdr4
    iexact HA_zdr4
  imod (close_cell m c (.zdr 5) 1 (by decide)) $$ [HA_zdr5] with HZ_zdr5
  · isplitr; · iexact HI_zdr5
    iexact HA_zdr5
  imod (close_cell m c (.zdr 6) 1 (by decide)) $$ [HA_zdr6] with HZ_zdr6
  · isplitr; · iexact HI_zdr6
    iexact HA_zdr6
  imod (close_cell m c (.zdr 7) 1 (by decide)) $$ [HA_zdr7] with HZ_zdr7
  · isplitr; · iexact HI_zdr7
    iexact HA_zdr7
  imod (close_cell m c (.zdr 8) 1 (by decide)) $$ [HA_zdr8] with HZ_zdr8
  · isplitr; · iexact HI_zdr8
    iexact HA_zdr8
  imod (close_cell m c (.zdr 9) 1 (by decide)) $$ [HA_zdr9] with HZ_zdr9
  · isplitr; · iexact HI_zdr9
    iexact HA_zdr9
  imod (close_cell m c (.zdr 10) 1 (by decide)) $$ [HA_zdr10] with HZ_zdr10
  · isplitr; · iexact HI_zdr10
    iexact HA_zdr10
  imod (close_cell m c (.zdr 11) 1 (by decide)) $$ [HA_zdr11] with HZ_zdr11
  · isplitr; · iexact HI_zdr11
    iexact HA_zdr11
  imod (close_cell m c (.zdr 12) 1 (by decide)) $$ [HA_zdr12] with HZ_zdr12
  · isplitr; · iexact HI_zdr12
    iexact HA_zdr12
  imod (close_cell m c (.zdr 13) 1 (by decide)) $$ [HA_zdr13] with HZ_zdr13
  · isplitr; · iexact HI_zdr13
    iexact HA_zdr13
  imod (close_cell m c (.zdr 14) 1 (by decide)) $$ [HA_zdr14] with HZ_zdr14
  · isplitr; · iexact HI_zdr14
    iexact HA_zdr14
  imod (close_cell m c (.zdr 15) 1 (by decide)) $$ [HA_zdr15] with HZ_zdr15
  · isplitr; · iexact HI_zdr15
    iexact HA_zdr15
  imod (close_cell m c (.ydgs 0) 1 (by decide)) $$ [HA_ydgs0] with HZ_ydgs0
  · isplitr; · iexact HI_ydgs0
    iexact HA_ydgs0
  imod (close_cell m c (.ydgs 1) 1 (by decide)) $$ [HA_ydgs1] with HZ_ydgs1
  · isplitr; · iexact HI_ydgs1
    iexact HA_ydgs1
  imod (close_cell m c (.ydgs 2) 1 (by decide)) $$ [HA_ydgs2] with HZ_ydgs2
  · isplitr; · iexact HI_ydgs2
    iexact HA_ydgs2
  imod (close_cell m c (.ydgs 3) 1 (by decide)) $$ [HA_ydgs3] with HZ_ydgs3
  · isplitr; · iexact HI_ydgs3
    iexact HA_ydgs3
  imod (close_cell m c (.ydgs 4) 1 (by decide)) $$ [HA_ydgs4] with HZ_ydgs4
  · isplitr; · iexact HI_ydgs4
    iexact HA_ydgs4
  imod (close_cell m c (.ydgs 5) 1 (by decide)) $$ [HA_ydgs5] with HZ_ydgs5
  · isplitr; · iexact HI_ydgs5
    iexact HA_ydgs5
  imod (close_cell m c (.ydgs 6) 1 (by decide)) $$ [HA_ydgs6] with HZ_ydgs6
  · isplitr; · iexact HI_ydgs6
    iexact HA_ydgs6
  imod (close_cell m c (.ydgs 7) 1 (by decide)) $$ [HA_ydgs7] with HZ_ydgs7
  · isplitr; · iexact HI_ydgs7
    iexact HA_ydgs7
  imod (close_cell m c (.ydgr 0) 1 (by decide)) $$ [HA_ydgr0] with HZ_ydgr0
  · isplitr; · iexact HI_ydgr0
    iexact HA_ydgr0
  imod (close_cell m c (.ydgr 1) 1 (by decide)) $$ [HA_ydgr1] with HZ_ydgr1
  · isplitr; · iexact HI_ydgr1
    iexact HA_ydgr1
  imod (close_cell m c (.ydgr 2) 1 (by decide)) $$ [HA_ydgr2] with HZ_ydgr2
  · isplitr; · iexact HI_ydgr2
    iexact HA_ydgr2
  imod (close_cell m c (.ydgr 3) 1 (by decide)) $$ [HA_ydgr3] with HZ_ydgr3
  · isplitr; · iexact HI_ydgr3
    iexact HA_ydgr3
  imod (close_cell m c (.ydgr 4) 1 (by decide)) $$ [HA_ydgr4] with HZ_ydgr4
  · isplitr; · iexact HI_ydgr4
    iexact HA_ydgr4
  imod (close_cell m c (.ydgr 5) 1 (by decide)) $$ [HA_ydgr5] with HZ_ydgr5
  · isplitr; · iexact HI_ydgr5
    iexact HA_ydgr5
  imod (close_cell m c (.ydgr 6) 1 (by decide)) $$ [HA_ydgr6] with HZ_ydgr6
  · isplitr; · iexact HI_ydgr6
    iexact HA_ydgr6
  imod (close_cell m c (.ydgr 7) 1 (by decide)) $$ [HA_ydgr7] with HZ_ydgr7
  · isplitr; · iexact HI_ydgr7
    iexact HA_ydgr7
  imod (close_cell m c (.zdgs 0) 1 (by decide)) $$ [HA_zdgs0] with HZ_zdgs0
  · isplitr; · iexact HI_zdgs0
    iexact HA_zdgs0
  imod (close_cell m c (.zdgs 1) 1 (by decide)) $$ [HA_zdgs1] with HZ_zdgs1
  · isplitr; · iexact HI_zdgs1
    iexact HA_zdgs1
  imod (close_cell m c (.zdgs 2) 1 (by decide)) $$ [HA_zdgs2] with HZ_zdgs2
  · isplitr; · iexact HI_zdgs2
    iexact HA_zdgs2
  imod (close_cell m c (.zdgs 3) 1 (by decide)) $$ [HA_zdgs3] with HZ_zdgs3
  · isplitr; · iexact HI_zdgs3
    iexact HA_zdgs3
  imod (close_cell m c (.zdgs 4) 1 (by decide)) $$ [HA_zdgs4] with HZ_zdgs4
  · isplitr; · iexact HI_zdgs4
    iexact HA_zdgs4
  imod (close_cell m c (.zdgs 5) 1 (by decide)) $$ [HA_zdgs5] with HZ_zdgs5
  · isplitr; · iexact HI_zdgs5
    iexact HA_zdgs5
  imod (close_cell m c (.zdgs 6) 1 (by decide)) $$ [HA_zdgs6] with HZ_zdgs6
  · isplitr; · iexact HI_zdgs6
    iexact HA_zdgs6
  imod (close_cell m c (.zdgs 7) 1 (by decide)) $$ [HA_zdgs7] with HZ_zdgs7
  · isplitr; · iexact HI_zdgs7
    iexact HA_zdgs7
  imod (close_cell m c (.zdgr 0) 1 (by decide)) $$ [HA_zdgr0] with HZ_zdgr0
  · isplitr; · iexact HI_zdgr0
    iexact HA_zdgr0
  imod (close_cell m c (.zdgr 1) 1 (by decide)) $$ [HA_zdgr1] with HZ_zdgr1
  · isplitr; · iexact HI_zdgr1
    iexact HA_zdgr1
  imod (close_cell m c (.zdgr 2) 1 (by decide)) $$ [HA_zdgr2] with HZ_zdgr2
  · isplitr; · iexact HI_zdgr2
    iexact HA_zdgr2
  imod (close_cell m c (.zdgr 3) 1 (by decide)) $$ [HA_zdgr3] with HZ_zdgr3
  · isplitr; · iexact HI_zdgr3
    iexact HA_zdgr3
  imod (close_cell m c (.zdgr 4) 1 (by decide)) $$ [HA_zdgr4] with HZ_zdgr4
  · isplitr; · iexact HI_zdgr4
    iexact HA_zdgr4
  imod (close_cell m c (.zdgr 5) 1 (by decide)) $$ [HA_zdgr5] with HZ_zdgr5
  · isplitr; · iexact HI_zdgr5
    iexact HA_zdgr5
  imod (close_cell m c (.zdgr 6) 1 (by decide)) $$ [HA_zdgr6] with HZ_zdgr6
  · isplitr; · iexact HI_zdgr6
    iexact HA_zdgr6
  imod (close_cell m c (.zdgr 7) 1 (by decide)) $$ [HA_zdgr7] with HZ_zdgr7
  · isplitr; · iexact HI_zdgr7
    iexact HA_zdgr7
  -- the chunks of the result, each now holding its rows of the whole array, put together again
  ihave HB_qm0 := (pointsTo_share (PosShare.mem_left_op_right fullShare)).2 $$ [HB_qmL0 HB_qmR0]
  · isplitl [HB_qmL0] <;> iassumption
  ihave HB_qm1 := (pointsTo_share (PosShare.mem_left_op_right fullShare)).2 $$ [HB_qmL1 HB_qmR1]
  · isplitl [HB_qmL1] <;> iassumption
  ihave HB_qm2 := (pointsTo_share (PosShare.mem_left_op_right fullShare)).2 $$ [HB_qmL2 HB_qmR2]
  · isplitl [HB_qmL2] <;> iassumption
  ihave HB_qm3 := (pointsTo_share (PosShare.mem_left_op_right fullShare)).2 $$ [HB_qmL3 HB_qmR3]
  · isplitl [HB_qmL3] <;> iassumption
  ihave HB_qm4 := (pointsTo_share (PosShare.mem_left_op_right fullShare)).2 $$ [HB_qmL4 HB_qmR4]
  · isplitl [HB_qmL4] <;> iassumption
  ihave HB_qm5 := (pointsTo_share (PosShare.mem_left_op_right fullShare)).2 $$ [HB_qmL5 HB_qmR5]
  · isplitl [HB_qmL5] <;> iassumption
  ihave HB_qm6 := (pointsTo_share (PosShare.mem_left_op_right fullShare)).2 $$ [HB_qmL6 HB_qmR6]
  · isplitl [HB_qmL6] <;> iassumption
  ihave HB_qm7 := (pointsTo_share (PosShare.mem_left_op_right fullShare)).2 $$ [HB_qmL7 HB_qmR7]
  · isplitl [HB_qmL7] <;> iassumption
  ihave HB_qm8 := (pointsTo_share (PosShare.mem_left_op_right fullShare)).2 $$ [HB_qmL8 HB_qmR8]
  · isplitl [HB_qmL8] <;> iassumption
  ihave HB_qm9 := (pointsTo_share (PosShare.mem_left_op_right fullShare)).2 $$ [HB_qmL9 HB_qmR9]
  · isplitl [HB_qmL9] <;> iassumption
  ihave HB_qm10 := (pointsTo_share (PosShare.mem_left_op_right fullShare)).2 $$ [HB_qmL10 HB_qmR10]
  · isplitl [HB_qmL10] <;> iassumption
  ihave HB_qm11 := (pointsTo_share (PosShare.mem_left_op_right fullShare)).2 $$ [HB_qmL11 HB_qmR11]
  · isplitl [HB_qmL11] <;> iassumption
  ihave HB_qm12 := (pointsTo_share (PosShare.mem_left_op_right fullShare)).2 $$ [HB_qmL12 HB_qmR12]
  · isplitl [HB_qmL12] <;> iassumption
  ihave HB_qm13 := (pointsTo_share (PosShare.mem_left_op_right fullShare)).2 $$ [HB_qmL13 HB_qmR13]
  · isplitl [HB_qmL13] <;> iassumption
  ihave HB_qm14 := (pointsTo_share (PosShare.mem_left_op_right fullShare)).2 $$ [HB_qmL14 HB_qmR14]
  · isplitl [HB_qmL14] <;> iassumption
  ihave HB_qm15 := (pointsTo_share (PosShare.mem_left_op_right fullShare)).2 $$ [HB_qmL15 HB_qmR15]
  · isplitl [HB_qmL15] <;> iassumption
  ihave HB_yd8 := (Entails.of_eq (pts_qMine_yP c c 0 fullShare _).symm) $$ HB_qy0
  ihave HB_zd0 := (Entails.of_eq (pts_qMine_zP c c 0 fullShare _).symm) $$ HB_qz0
  ihave HB_yd9 := (Entails.of_eq (pts_qMine_yP c c 1 fullShare _).symm) $$ HB_qy1
  ihave HB_zd1 := (Entails.of_eq (pts_qMine_zP c c 1 fullShare _).symm) $$ HB_qz1
  ihave HB_yd10 := (Entails.of_eq (pts_qMine_yP c c 2 fullShare _).symm) $$ HB_qy2
  ihave HB_zd2 := (Entails.of_eq (pts_qMine_zP c c 2 fullShare _).symm) $$ HB_qz2
  ihave HB_yd11 := (Entails.of_eq (pts_qMine_yP c c 3 fullShare _).symm) $$ HB_qy3
  ihave HB_zd3 := (Entails.of_eq (pts_qMine_zP c c 3 fullShare _).symm) $$ HB_qz3
  ihave HB_yd12 := (Entails.of_eq (pts_qMine_yP c c 4 fullShare _).symm) $$ HB_qy4
  ihave HB_zd4 := (Entails.of_eq (pts_qMine_zP c c 4 fullShare _).symm) $$ HB_qz4
  ihave HB_yd13 := (Entails.of_eq (pts_qMine_yP c c 5 fullShare _).symm) $$ HB_qy5
  ihave HB_zd5 := (Entails.of_eq (pts_qMine_zP c c 5 fullShare _).symm) $$ HB_qz5
  ihave HB_yd14 := (Entails.of_eq (pts_qMine_yP c c 6 fullShare _).symm) $$ HB_qy6
  ihave HB_zd6 := (Entails.of_eq (pts_qMine_zP c c 6 fullShare _).symm) $$ HB_qz6
  ihave HB_yd15 := (Entails.of_eq (pts_qMine_yP c c 7 fullShare _).symm) $$ HB_qy7
  ihave HB_zd7 := (Entails.of_eq (pts_qMine_zP c c 7 fullShare _).symm) $$ HB_qz7
  ihave HBst := (Entails.of_eq (bigSep_fin16 (fun n : Fin 16 => pts c (stDst c n) fullShare (Xf m c))).symm) $$ [HB_st0 HB_st1 HB_st2 HB_st3 HB_st4 HB_st5 HB_st6 HB_st7 HB_st8 HB_st9 HB_st10 HB_st11 HB_st12 HB_st13 HB_st14 HB_st15]
  · isplitl [HB_st0]; · iexact HB_st0
    isplitl [HB_st1]; · iexact HB_st1
    isplitl [HB_st2]; · iexact HB_st2
    isplitl [HB_st3]; · iexact HB_st3
    isplitl [HB_st4]; · iexact HB_st4
    isplitl [HB_st5]; · iexact HB_st5
    isplitl [HB_st6]; · iexact HB_st6
    isplitl [HB_st7]; · iexact HB_st7
    isplitl [HB_st8]; · iexact HB_st8
    isplitl [HB_st9]; · iexact HB_st9
    isplitl [HB_st10]; · iexact HB_st10
    isplitl [HB_st11]; · iexact HB_st11
    isplitl [HB_st12]; · iexact HB_st12
    isplitl [HB_st13]; · iexact HB_st13
    isplitl [HB_st14]; · iexact HB_st14
    iexact HB_st15
  ihave HBqm := (Entails.of_eq (bigSep_fin16 (fun i : Fin 16 => pts c (qMine c i) fullShare (Xf m c))).symm) $$ [HB_qm0 HB_qm1 HB_qm2 HB_qm3 HB_qm4 HB_qm5 HB_qm6 HB_qm7 HB_qm8 HB_qm9 HB_qm10 HB_qm11 HB_qm12 HB_qm13 HB_qm14 HB_qm15]
  · isplitl [HB_qm0]; · iexact HB_qm0
    isplitl [HB_qm1]; · iexact HB_qm1
    isplitl [HB_qm2]; · iexact HB_qm2
    isplitl [HB_qm3]; · iexact HB_qm3
    isplitl [HB_qm4]; · iexact HB_qm4
    isplitl [HB_qm5]; · iexact HB_qm5
    isplitl [HB_qm6]; · iexact HB_qm6
    isplitl [HB_qm7]; · iexact HB_qm7
    isplitl [HB_qm8]; · iexact HB_qm8
    isplitl [HB_qm9]; · iexact HB_qm9
    isplitl [HB_qm10]; · iexact HB_qm10
    isplitl [HB_qm11]; · iexact HB_qm11
    isplitl [HB_qm12]; · iexact HB_qm12
    isplitl [HB_qm13]; · iexact HB_qm13
    isplitl [HB_qm14]; · iexact HB_qm14
    iexact HB_qm15
  ihave HBqy := (Entails.of_eq (bigSep_fin16 (fun i : Fin 16 => pts c (qMine (yP c) i) fullShare (Xf m c))).symm) $$ [HB_yd0 HB_yd1 HB_yd2 HB_yd3 HB_yd4 HB_yd5 HB_yd6 HB_yd7 HB_yd8 HB_yd9 HB_yd10 HB_yd11 HB_yd12 HB_yd13 HB_yd14 HB_yd15]
  · isplitl [HB_yd0]; · iexact HB_yd0
    isplitl [HB_yd1]; · iexact HB_yd1
    isplitl [HB_yd2]; · iexact HB_yd2
    isplitl [HB_yd3]; · iexact HB_yd3
    isplitl [HB_yd4]; · iexact HB_yd4
    isplitl [HB_yd5]; · iexact HB_yd5
    isplitl [HB_yd6]; · iexact HB_yd6
    isplitl [HB_yd7]; · iexact HB_yd7
    isplitl [HB_yd8]; · iexact HB_yd8
    isplitl [HB_yd9]; · iexact HB_yd9
    isplitl [HB_yd10]; · iexact HB_yd10
    isplitl [HB_yd11]; · iexact HB_yd11
    isplitl [HB_yd12]; · iexact HB_yd12
    isplitl [HB_yd13]; · iexact HB_yd13
    isplitl [HB_yd14]; · iexact HB_yd14
    iexact HB_yd15
  ihave HBqz := (Entails.of_eq (bigSep_fin16 (fun i : Fin 16 => pts c (qMine (zP c) i) fullShare (Xf m c))).symm) $$ [HB_zd0 HB_zd1 HB_zd2 HB_zd3 HB_zd4 HB_zd5 HB_zd6 HB_zd7 HB_zd8 HB_zd9 HB_zd10 HB_zd11 HB_zd12 HB_zd13 HB_zd14 HB_zd15]
  · isplitl [HB_zd0]; · iexact HB_zd0
    isplitl [HB_zd1]; · iexact HB_zd1
    isplitl [HB_zd2]; · iexact HB_zd2
    isplitl [HB_zd3]; · iexact HB_zd3
    isplitl [HB_zd4]; · iexact HB_zd4
    isplitl [HB_zd5]; · iexact HB_zd5
    isplitl [HB_zd6]; · iexact HB_zd6
    isplitl [HB_zd7]; · iexact HB_zd7
    isplitl [HB_zd8]; · iexact HB_zd8
    isplitl [HB_zd9]; · iexact HB_zd9
    isplitl [HB_zd10]; · iexact HB_zd10
    isplitl [HB_zd11]; · iexact HB_zd11
    isplitl [HB_zd12]; · iexact HB_zd12
    isplitl [HB_zd13]; · iexact HB_zd13
    isplitl [HB_zd14]; · iexact HB_zd14
    iexact HB_zd15
  ihave HBqyg := (Entails.of_eq (bigSep_fin8 (fun j : Fin 8 => pts c (qZlo (yP c) j) fullShare (Xf m c))).symm) $$ [HB_ydg0 HB_ydg1 HB_ydg2 HB_ydg3 HB_ydg4 HB_ydg5 HB_ydg6 HB_ydg7]
  · isplitl [HB_ydg0]; · iexact HB_ydg0
    isplitl [HB_ydg1]; · iexact HB_ydg1
    isplitl [HB_ydg2]; · iexact HB_ydg2
    isplitl [HB_ydg3]; · iexact HB_ydg3
    isplitl [HB_ydg4]; · iexact HB_ydg4
    isplitl [HB_ydg5]; · iexact HB_ydg5
    isplitl [HB_ydg6]; · iexact HB_ydg6
    iexact HB_ydg7
  ihave HBqzg := (Entails.of_eq (bigSep_fin8 (fun j : Fin 8 => pts c (qYhi (zP c) j) fullShare (Xf m c))).symm) $$ [HB_zdg0 HB_zdg1 HB_zdg2 HB_zdg3 HB_zdg4 HB_zdg5 HB_zdg6 HB_zdg7]
  · isplitl [HB_zdg0]; · iexact HB_zdg0
    isplitl [HB_zdg1]; · iexact HB_zdg1
    isplitl [HB_zdg2]; · iexact HB_zdg2
    isplitl [HB_zdg3]; · iexact HB_zdg3
    isplitl [HB_zdg4]; · iexact HB_zdg4
    isplitl [HB_zdg5]; · iexact HB_zdg5
    isplitl [HB_zdg6]; · iexact HB_zdg6
    iexact HB_zdg7
  ihave HBout := (out_parts c (Xf m c)).2 $$ [HBst HBqm HBqy HBqz HBqyg HBqzg]
  · isplitl [HBst]; · iexact HBst
    isplitl [HBqm]; · iexact HBqm
    isplitl [HBqy]; · iexact HBqy
    isplitl [HBqz]; · iexact HBqz
    isplitl [HBqyg]; · iexact HBqyg
    iexact HBqzg
  -- the block's two half shares, each put together from its chunks, joined
  ihave HSx := (Entails.of_eq (bigSep_fin16 (fun i : Fin 16 => pts c (xSrc c i) qL (blk m c))).symm) $$ [HS_x0 HS_x1 HS_x2 HS_x3 HS_x4 HS_x5 HS_x6 HS_x7 HS_x8 HS_x9 HS_x10 HS_x11 HS_x12 HS_x13 HS_x14 HS_x15]
  · isplitl [HS_x0]; · iexact HS_x0
    isplitl [HS_x1]; · iexact HS_x1
    isplitl [HS_x2]; · iexact HS_x2
    isplitl [HS_x3]; · iexact HS_x3
    isplitl [HS_x4]; · iexact HS_x4
    isplitl [HS_x5]; · iexact HS_x5
    isplitl [HS_x6]; · iexact HS_x6
    isplitl [HS_x7]; · iexact HS_x7
    isplitl [HS_x8]; · iexact HS_x8
    isplitl [HS_x9]; · iexact HS_x9
    isplitl [HS_x10]; · iexact HS_x10
    isplitl [HS_x11]; · iexact HS_x11
    isplitl [HS_x12]; · iexact HS_x12
    isplitl [HS_x13]; · iexact HS_x13
    isplitl [HS_x14]; · iexact HS_x14
    iexact HS_x15
  ihave HBinL := (in_quarter c qL (blk m c)).2 $$ [HSx HBinRest]
  · isplitl [HSx] <;> iassumption
  ihave HBinR := (Entails.of_eq (bigSep_fin16 (fun n : Fin 16 => pts c (ldSrc n) qR (blk m c))).symm) $$ [HS_ld0 HS_ld1 HS_ld2 HS_ld3 HS_ld4 HS_ld5 HS_ld6 HS_ld7 HS_ld8 HS_ld9 HS_ld10 HS_ld11 HS_ld12 HS_ld13 HS_ld14 HS_ld15]
  · isplitl [HS_ld0]; · iexact HS_ld0
    isplitl [HS_ld1]; · iexact HS_ld1
    isplitl [HS_ld2]; · iexact HS_ld2
    isplitl [HS_ld3]; · iexact HS_ld3
    isplitl [HS_ld4]; · iexact HS_ld4
    isplitl [HS_ld5]; · iexact HS_ld5
    isplitl [HS_ld6]; · iexact HS_ld6
    isplitl [HS_ld7]; · iexact HS_ld7
    isplitl [HS_ld8]; · iexact HS_ld8
    isplitl [HS_ld9]; · iexact HS_ld9
    isplitl [HS_ld10]; · iexact HS_ld10
    isplitl [HS_ld11]; · iexact HS_ld11
    isplitl [HS_ld12]; · iexact HS_ld12
    isplitl [HS_ld13]; · iexact HS_ld13
    isplitl [HS_ld14]; · iexact HS_ld14
    iexact HS_ld15
  ihave HBinR := (in_loads c qR (blk m c)).2 $$ HBinR
  ihave HBin := (pointsTo_share (PosShare.mem_left_op_right fullShare)).2 $$ [HBinL HBinR]
  · isplitl [HBinL] <;> iassumption
  -- the rotating buffers
  ihave HBvb := (Entails.of_eq (bigSep_fin4 (fun k : Fin 4 => iprop(∃ g, pts (F := F) c (vslot k) fullShare g))).symm) $$ [HV0 HV1 HV2 HV3]
  · isplitl [HV0]; · iexists _; iexact HV0
    isplitl [HV1]; · iexists _; iexact HV1
    isplitl [HV2]; · iexists _; iexact HV2
    iexists _; iexact HV3
  ihave HBvb := (vb_join c) $$ HBvb
  -- the counters, role by role
  ihave HZ_ld := (Entails.of_eq (bigSep_fin4 (fun k : Fin 4 => (semVal (kcell c (.ld k)) 0 : sProp 𝕄))).symm) $$ [HZ_ld0 HZ_ld1 HZ_ld2 HZ_ld3]
  · isplitl [HZ_ld0]; · iexact HZ_ld0
    isplitl [HZ_ld1]; · iexact HZ_ld1
    isplitl [HZ_ld2]; · iexact HZ_ld2
    iexact HZ_ld3
  ihave HZ_st := (Entails.of_eq (bigSep_fin4 (fun k : Fin 4 => (semVal (kcell c (.st k)) 0 : sProp 𝕄))).symm) $$ [HZ_st0 HZ_st1 HZ_st2 HZ_st3]
  · isplitl [HZ_st0]; · iexact HZ_st0
    isplitl [HZ_st1]; · iexact HZ_st1
    isplitl [HZ_st2]; · iexact HZ_st2
    iexact HZ_st3
  ihave HZ_xs := (Entails.of_eq (bigSep_fin16 (fun k : Fin 16 => (semVal (kcell c (.xs k)) 0 : sProp 𝕄))).symm) $$ [HZ_xs0 HZ_xs1 HZ_xs2 HZ_xs3 HZ_xs4 HZ_xs5 HZ_xs6 HZ_xs7 HZ_xs8 HZ_xs9 HZ_xs10 HZ_xs11 HZ_xs12 HZ_xs13 HZ_xs14 HZ_xs15]
  · isplitl [HZ_xs0]; · iexact HZ_xs0
    isplitl [HZ_xs1]; · iexact HZ_xs1
    isplitl [HZ_xs2]; · iexact HZ_xs2
    isplitl [HZ_xs3]; · iexact HZ_xs3
    isplitl [HZ_xs4]; · iexact HZ_xs4
    isplitl [HZ_xs5]; · iexact HZ_xs5
    isplitl [HZ_xs6]; · iexact HZ_xs6
    isplitl [HZ_xs7]; · iexact HZ_xs7
    isplitl [HZ_xs8]; · iexact HZ_xs8
    isplitl [HZ_xs9]; · iexact HZ_xs9
    isplitl [HZ_xs10]; · iexact HZ_xs10
    isplitl [HZ_xs11]; · iexact HZ_xs11
    isplitl [HZ_xs12]; · iexact HZ_xs12
    isplitl [HZ_xs13]; · iexact HZ_xs13
    isplitl [HZ_xs14]; · iexact HZ_xs14
    iexact HZ_xs15
  ihave HZ_xr := (Entails.of_eq (bigSep_fin16 (fun k : Fin 16 => (semVal (kcell c (.xr k)) 0 : sProp 𝕄))).symm) $$ [HZ_xr0 HZ_xr1 HZ_xr2 HZ_xr3 HZ_xr4 HZ_xr5 HZ_xr6 HZ_xr7 HZ_xr8 HZ_xr9 HZ_xr10 HZ_xr11 HZ_xr12 HZ_xr13 HZ_xr14 HZ_xr15]
  · isplitl [HZ_xr0]; · iexact HZ_xr0
    isplitl [HZ_xr1]; · iexact HZ_xr1
    isplitl [HZ_xr2]; · iexact HZ_xr2
    isplitl [HZ_xr3]; · iexact HZ_xr3
    isplitl [HZ_xr4]; · iexact HZ_xr4
    isplitl [HZ_xr5]; · iexact HZ_xr5
    isplitl [HZ_xr6]; · iexact HZ_xr6
    isplitl [HZ_xr7]; · iexact HZ_xr7
    isplitl [HZ_xr8]; · iexact HZ_xr8
    isplitl [HZ_xr9]; · iexact HZ_xr9
    isplitl [HZ_xr10]; · iexact HZ_xr10
    isplitl [HZ_xr11]; · iexact HZ_xr11
    isplitl [HZ_xr12]; · iexact HZ_xr12
    isplitl [HZ_xr13]; · iexact HZ_xr13
    isplitl [HZ_xr14]; · iexact HZ_xr14
    iexact HZ_xr15
  ihave HZ_yds := (Entails.of_eq (bigSep_fin16 (fun k : Fin 16 => (semVal (kcell c (.yds k)) 0 : sProp 𝕄))).symm) $$ [HZ_yds0 HZ_yds1 HZ_yds2 HZ_yds3 HZ_yds4 HZ_yds5 HZ_yds6 HZ_yds7 HZ_yds8 HZ_yds9 HZ_yds10 HZ_yds11 HZ_yds12 HZ_yds13 HZ_yds14 HZ_yds15]
  · isplitl [HZ_yds0]; · iexact HZ_yds0
    isplitl [HZ_yds1]; · iexact HZ_yds1
    isplitl [HZ_yds2]; · iexact HZ_yds2
    isplitl [HZ_yds3]; · iexact HZ_yds3
    isplitl [HZ_yds4]; · iexact HZ_yds4
    isplitl [HZ_yds5]; · iexact HZ_yds5
    isplitl [HZ_yds6]; · iexact HZ_yds6
    isplitl [HZ_yds7]; · iexact HZ_yds7
    isplitl [HZ_yds8]; · iexact HZ_yds8
    isplitl [HZ_yds9]; · iexact HZ_yds9
    isplitl [HZ_yds10]; · iexact HZ_yds10
    isplitl [HZ_yds11]; · iexact HZ_yds11
    isplitl [HZ_yds12]; · iexact HZ_yds12
    isplitl [HZ_yds13]; · iexact HZ_yds13
    isplitl [HZ_yds14]; · iexact HZ_yds14
    iexact HZ_yds15
  ihave HZ_ydr := (Entails.of_eq (bigSep_fin16 (fun k : Fin 16 => (semVal (kcell c (.ydr k)) 0 : sProp 𝕄))).symm) $$ [HZ_ydr0 HZ_ydr1 HZ_ydr2 HZ_ydr3 HZ_ydr4 HZ_ydr5 HZ_ydr6 HZ_ydr7 HZ_ydr8 HZ_ydr9 HZ_ydr10 HZ_ydr11 HZ_ydr12 HZ_ydr13 HZ_ydr14 HZ_ydr15]
  · isplitl [HZ_ydr0]; · iexact HZ_ydr0
    isplitl [HZ_ydr1]; · iexact HZ_ydr1
    isplitl [HZ_ydr2]; · iexact HZ_ydr2
    isplitl [HZ_ydr3]; · iexact HZ_ydr3
    isplitl [HZ_ydr4]; · iexact HZ_ydr4
    isplitl [HZ_ydr5]; · iexact HZ_ydr5
    isplitl [HZ_ydr6]; · iexact HZ_ydr6
    isplitl [HZ_ydr7]; · iexact HZ_ydr7
    isplitl [HZ_ydr8]; · iexact HZ_ydr8
    isplitl [HZ_ydr9]; · iexact HZ_ydr9
    isplitl [HZ_ydr10]; · iexact HZ_ydr10
    isplitl [HZ_ydr11]; · iexact HZ_ydr11
    isplitl [HZ_ydr12]; · iexact HZ_ydr12
    isplitl [HZ_ydr13]; · iexact HZ_ydr13
    isplitl [HZ_ydr14]; · iexact HZ_ydr14
    iexact HZ_ydr15
  ihave HZ_zds := (Entails.of_eq (bigSep_fin16 (fun k : Fin 16 => (semVal (kcell c (.zds k)) 0 : sProp 𝕄))).symm) $$ [HZ_zds0 HZ_zds1 HZ_zds2 HZ_zds3 HZ_zds4 HZ_zds5 HZ_zds6 HZ_zds7 HZ_zds8 HZ_zds9 HZ_zds10 HZ_zds11 HZ_zds12 HZ_zds13 HZ_zds14 HZ_zds15]
  · isplitl [HZ_zds0]; · iexact HZ_zds0
    isplitl [HZ_zds1]; · iexact HZ_zds1
    isplitl [HZ_zds2]; · iexact HZ_zds2
    isplitl [HZ_zds3]; · iexact HZ_zds3
    isplitl [HZ_zds4]; · iexact HZ_zds4
    isplitl [HZ_zds5]; · iexact HZ_zds5
    isplitl [HZ_zds6]; · iexact HZ_zds6
    isplitl [HZ_zds7]; · iexact HZ_zds7
    isplitl [HZ_zds8]; · iexact HZ_zds8
    isplitl [HZ_zds9]; · iexact HZ_zds9
    isplitl [HZ_zds10]; · iexact HZ_zds10
    isplitl [HZ_zds11]; · iexact HZ_zds11
    isplitl [HZ_zds12]; · iexact HZ_zds12
    isplitl [HZ_zds13]; · iexact HZ_zds13
    isplitl [HZ_zds14]; · iexact HZ_zds14
    iexact HZ_zds15
  ihave HZ_zdr := (Entails.of_eq (bigSep_fin16 (fun k : Fin 16 => (semVal (kcell c (.zdr k)) 0 : sProp 𝕄))).symm) $$ [HZ_zdr0 HZ_zdr1 HZ_zdr2 HZ_zdr3 HZ_zdr4 HZ_zdr5 HZ_zdr6 HZ_zdr7 HZ_zdr8 HZ_zdr9 HZ_zdr10 HZ_zdr11 HZ_zdr12 HZ_zdr13 HZ_zdr14 HZ_zdr15]
  · isplitl [HZ_zdr0]; · iexact HZ_zdr0
    isplitl [HZ_zdr1]; · iexact HZ_zdr1
    isplitl [HZ_zdr2]; · iexact HZ_zdr2
    isplitl [HZ_zdr3]; · iexact HZ_zdr3
    isplitl [HZ_zdr4]; · iexact HZ_zdr4
    isplitl [HZ_zdr5]; · iexact HZ_zdr5
    isplitl [HZ_zdr6]; · iexact HZ_zdr6
    isplitl [HZ_zdr7]; · iexact HZ_zdr7
    isplitl [HZ_zdr8]; · iexact HZ_zdr8
    isplitl [HZ_zdr9]; · iexact HZ_zdr9
    isplitl [HZ_zdr10]; · iexact HZ_zdr10
    isplitl [HZ_zdr11]; · iexact HZ_zdr11
    isplitl [HZ_zdr12]; · iexact HZ_zdr12
    isplitl [HZ_zdr13]; · iexact HZ_zdr13
    isplitl [HZ_zdr14]; · iexact HZ_zdr14
    iexact HZ_zdr15
  ihave HZ_ydgs := (Entails.of_eq (bigSep_fin8 (fun k : Fin 8 => (semVal (kcell c (.ydgs k)) 0 : sProp 𝕄))).symm) $$ [HZ_ydgs0 HZ_ydgs1 HZ_ydgs2 HZ_ydgs3 HZ_ydgs4 HZ_ydgs5 HZ_ydgs6 HZ_ydgs7]
  · isplitl [HZ_ydgs0]; · iexact HZ_ydgs0
    isplitl [HZ_ydgs1]; · iexact HZ_ydgs1
    isplitl [HZ_ydgs2]; · iexact HZ_ydgs2
    isplitl [HZ_ydgs3]; · iexact HZ_ydgs3
    isplitl [HZ_ydgs4]; · iexact HZ_ydgs4
    isplitl [HZ_ydgs5]; · iexact HZ_ydgs5
    isplitl [HZ_ydgs6]; · iexact HZ_ydgs6
    iexact HZ_ydgs7
  ihave HZ_ydgr := (Entails.of_eq (bigSep_fin8 (fun k : Fin 8 => (semVal (kcell c (.ydgr k)) 0 : sProp 𝕄))).symm) $$ [HZ_ydgr0 HZ_ydgr1 HZ_ydgr2 HZ_ydgr3 HZ_ydgr4 HZ_ydgr5 HZ_ydgr6 HZ_ydgr7]
  · isplitl [HZ_ydgr0]; · iexact HZ_ydgr0
    isplitl [HZ_ydgr1]; · iexact HZ_ydgr1
    isplitl [HZ_ydgr2]; · iexact HZ_ydgr2
    isplitl [HZ_ydgr3]; · iexact HZ_ydgr3
    isplitl [HZ_ydgr4]; · iexact HZ_ydgr4
    isplitl [HZ_ydgr5]; · iexact HZ_ydgr5
    isplitl [HZ_ydgr6]; · iexact HZ_ydgr6
    iexact HZ_ydgr7
  ihave HZ_zdgs := (Entails.of_eq (bigSep_fin8 (fun k : Fin 8 => (semVal (kcell c (.zdgs k)) 0 : sProp 𝕄))).symm) $$ [HZ_zdgs0 HZ_zdgs1 HZ_zdgs2 HZ_zdgs3 HZ_zdgs4 HZ_zdgs5 HZ_zdgs6 HZ_zdgs7]
  · isplitl [HZ_zdgs0]; · iexact HZ_zdgs0
    isplitl [HZ_zdgs1]; · iexact HZ_zdgs1
    isplitl [HZ_zdgs2]; · iexact HZ_zdgs2
    isplitl [HZ_zdgs3]; · iexact HZ_zdgs3
    isplitl [HZ_zdgs4]; · iexact HZ_zdgs4
    isplitl [HZ_zdgs5]; · iexact HZ_zdgs5
    isplitl [HZ_zdgs6]; · iexact HZ_zdgs6
    iexact HZ_zdgs7
  ihave HZ_zdgr := (Entails.of_eq (bigSep_fin8 (fun k : Fin 8 => (semVal (kcell c (.zdgr k)) 0 : sProp 𝕄))).symm) $$ [HZ_zdgr0 HZ_zdgr1 HZ_zdgr2 HZ_zdgr3 HZ_zdgr4 HZ_zdgr5 HZ_zdgr6 HZ_zdgr7]
  · isplitl [HZ_zdgr0]; · iexact HZ_zdgr0
    isplitl [HZ_zdgr1]; · iexact HZ_zdgr1
    isplitl [HZ_zdgr2]; · iexact HZ_zdgr2
    isplitl [HZ_zdgr3]; · iexact HZ_zdgr3
    isplitl [HZ_zdgr4]; · iexact HZ_zdgr4
    isplitl [HZ_zdgr5]; · iexact HZ_zdgr5
    isplitl [HZ_zdgr6]; · iexact HZ_zdgr6
    iexact HZ_zdgr7
  ihave HZ := (Entails.of_eq (bigSep_cls (fun x : Cls => (semVal (kcell c x) 0 : sProp 𝕄))).symm) $$ [HZ_ld HZ_st HZ_xs HZ_xr HZ_yds HZ_ydr HZ_zds HZ_zdr HZ_ydgs HZ_ydgr HZ_zdgs HZ_zdgr]
  · isplitl [HZ_ld]; · iexact HZ_ld
    isplitl [HZ_st]; · iexact HZ_st
    isplitl [HZ_xs]; · iexact HZ_xs
    isplitl [HZ_xr]; · iexact HZ_xr
    isplitl [HZ_yds]; · iexact HZ_yds
    isplitl [HZ_ydr]; · iexact HZ_ydr
    isplitl [HZ_zds]; · iexact HZ_zds
    isplitl [HZ_zdr]; · iexact HZ_zdr
    isplitl [HZ_ydgs]; · iexact HZ_ydgs
    isplitl [HZ_ydgr]; · iexact HZ_ydgr
    isplitl [HZ_zdgs]; · iexact HZ_zdgs
    iexact HZ_zdgr
  rw [wp_ret]; imodintro
  iapply Hk
  unfold Φ₁
  isplitr [HO]
  · isplitl [HBin]; · iexact HBin
    isplitl [HBout]; · iexact HBout
    isplitl [HBvb]; · iexact HBvb
    iexact HZ
  · iexists _; iexact HO

end Cert.KernelIdeal.AG

end
-- ==== Proof.AGOblig.lean ====
/- The body obligation the launch asks of each device: from the invariant before the kernel's one point and what the device
   owes, its body runs to the invariant after it, owing nothing. There is no staged window: the body's buffers are all in
   the invariant. -/
import proofs.«900678_g7700000000000679_dist_ag_v7x_xyz2x2x4_x_m16384_n1024_f32_1_alg».proof.Proof.AGBody

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
open Idealize.ShloMosaic.Pipeline in
theorem body_obligation (c : Dev nD) : Pipeline.BodyObligationLoose (dats (F := F) m 0 c) (defs₀ (F := F)) 𝒱₀ () Set.univ := fun t => by
  obtain rfl : t = t0_0 := fin_N0 t
  show iprop(Φ₀ m c ∗ (dats m 0 c).owesAt () t0_0.castSucc ∗ emp)
    ⊢ wp frame (wpE (defs₀ (F := F)) 𝒱₀ (c : Thread nD τ) none) Set.univ (cc0_body (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12)
        (fun _ => iprop(Φ₁ m c ∗ (dats m 0 c).owesAt () t0_0.succ ∗ emp))
  unfold Φ₀ Dat.owesAt Pipeline.owesWithin
  iintro ⟨⟨⟨%K, Hg⟩, Hrest⟩, ⟨%W, %hW, HO⟩, -⟩
  iapply (sound_body m c K _)
  isplitl [Hg Hrest]
  · isplitl [Hg]; · iexact Hg
    iexact Hrest
  isplitl [HO]
  · iexists W; iexact HO
  · iintro ⟨H1, ⟨%W', HO'⟩⟩
    isplitl [H1]; · iexact H1
    isplitl [HO']
    · iexists W'
      isplitr; · ipureintro; exact fun _ _ => Or.inl trivial
      iexact HO'
    · iempintro

end Cert.KernelIdeal.AG

end
-- ==== Proof.AGWhole.lean ====
/- When every device's block is its x block of one whole array, what a device's result ends holding is that array: row r
   of the result copies row r mod 16384 of the block of a device whose x coordinate is r / 16384, and that block's row is
   the whole array's row r. -/
import proofs.«900678_g7700000000000679_dist_ag_v7x_xyz2x2x4_x_m16384_n1024_f32_1_alg».proof.Proof.AGSched
import Idealize.ShloMosaic.Lib.Layout

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The owner of row r sits at x = r / 16384. -/
theorem owner_x (c : Dev nD) (r : ℕ) (hr : r < 32768) : (owner c r).val / 8 = r / 16384 := by
  have hc : c.val < 16 := c.isLt
  unfold owner
  split
  · next h => exact h.symm
  · next h =>
    show (8 * (1 - c.val / 8) + 4 * (r % 16384 / 4096 / 2 % 2) + 2 * (c.val % 4 / 2) + r % 16384 / 4096 % 2) / 8 = r / 16384
    have h1 : c.val / 8 ≤ 1 := by omega
    have h2 : r / 16384 ≤ 1 := by omega
    have h3 : r % 16384 / 4096 / 2 % 2 ≤ 1 := by omega
    have h4 : c.val % 4 / 2 ≤ 1 := by omega
    have h5 : r % 16384 / 4096 % 2 ≤ 1 := by omega
    omega

/-- Under the layout of the argument — device d holds x block d / 8 of the whole array X — every device's result ends
    holding X. -/
theorem Xf_whole (c : Dev nD) (X : (⟨2, ![32768, 1024]⟩ : Shape).Idx → Elt F .f32)
    (h : ∀ d : Dev nD, blk m d = Layout.blockN ⟨2, ![16384, 1024]⟩ ⟨2, ![32768, 1024]⟩ (Layout.meshBlock [2, 2, 4] ![[0], []] d) X) :
    Xf m c = X := by
  funext idx
  unfold Xf
  rw [h, Layout.blockN_apply]
  congr 1
  funext b
  apply Fin.ext
  rw [Layout.TilesN.idx_val]
  have hr : (idx 0).val < 32768 := (idx 0).isLt
  have hx := owner_x c (idx 0).val hr
  match b with
  | ⟨0, _⟩ =>
    show Layout.meshLin [2, 2, 4] (owner c (idx 0).val).val [0] * 16384 + (idx 0).val % 16384 = (idx 0).val
    have : Layout.meshLin [2, 2, 4] (owner c (idx 0).val).val [0] = (owner c (idx 0).val).val / 8 := by
      have ho : (owner c (idx 0).val).val < 16 := (owner c (idx 0).val).isLt
      simp [Layout.meshLin, Layout.meshCoord, Layout.cutSize]; omega
    rw [this, hx]; omega
  | ⟨1, _⟩ =>
    show Layout.meshLin [2, 2, 4] (owner c (idx 0).val).val [] * 1024 + (idx 1).val = (idx 1).val
    simp [Layout.meshLin]

end Cert.KernelIdeal.AG

end
-- ==== Proof.AGRef.lean ====
/- The reference on its one device does nothing: its result is its argument array, which ends as it was launched. -/
import proofs.«900678_g7700000000000679_dist_ag_v7x_xyz2x2x4_x_m16384_n1024_f32_1_alg».proof.ReferenceIdeal
import Idealize.ShloMosaic.Lib.StableHlo.Run

noncomputable section

namespace Cert.ReferenceIdeal.Ref

open Cert.ReferenceIdeal
open Idealize.ShloMosaic Idealize.SL.Sem Idealize.ShloMosaic.StableHlo

variable {F : FTy → Type} [FloatOps F]

/-- @main has no operation. -/
theorem main_eq (c : Dev nD) : main (F := F) c = seq ([] : List (HloOp τ sig (Elt F))) := rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates at once, every buffer holding what it held. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq scopedRefs_eq scopedSems_eq defs main (fun _ => []) main_eq (fun _ => trivial) m ρ)

end Cert.ReferenceIdeal.Ref

end
-- ==== Proof.KAGTopo.lean ====
/- The mesh of sixteen devices as a cube of coordinates (x, y, z) with z split into a pair bit and a pair index:
   device c sits at x = c / 8, y = c / 4 % 2, z = c % 4. Each device has three partners, reached by flipping one bit of
   its number: the x partner (bit 3), the y partner (bit 2) and the z partner inside its z pair (bit 0). Every device
   number the kernel computes for a signal or a copy is one of these three partners. -/
import proofs.«900678_g7700000000000679_dist_ag_v7x_xyz2x2x4_x_m16384_n1024_f32_1_alg».proof.Proof.Gen.Kernel

set_option Elab.async false

noncomputable section

namespace Cert.Kernel.AG

open Cert.Kernel Cert.Kernel.Gen
open Idealize.ShloMosaic

/-- The partner across the x axis: bit 3 of the device number flipped. -/
def xP (c : Dev nD) : Dev nD := ⟨c.val ^^^ 8, by revert c; decide⟩
/-- The partner across the y axis: bit 2 flipped. -/
def yP (c : Dev nD) : Dev nD := ⟨c.val ^^^ 4, by revert c; decide⟩
/-- The partner inside the z pair: bit 0 flipped. -/
def zP (c : Dev nD) : Dev nD := ⟨c.val ^^^ 1, by revert c; decide⟩

theorem xP_xP : ∀ c : Dev nD, xP (xP c) = c := by decide
theorem yP_yP : ∀ c : Dev nD, yP (yP c) = c := by decide
theorem zP_zP : ∀ c : Dev nD, zP (zP c) = c := by decide
theorem xP_ne : ∀ c : Dev nD, xP c ≠ c := by decide
theorem yP_ne : ∀ c : Dev nD, yP c ≠ c := by decide
theorem zP_ne : ∀ c : Dev nD, zP c ≠ c := by decide
theorem xP_ne_yP : ∀ c : Dev nD, xP c ≠ yP c := by decide
theorem xP_ne_zP : ∀ c : Dev nD, xP c ≠ zP c := by decide
theorem yP_ne_zP : ∀ c : Dev nD, yP c ≠ zP c := by decide

def xEquiv : Dev nD ≃ Dev nD := ⟨xP, xP, xP_xP, xP_xP⟩
def yEquiv : Dev nD ≃ Dev nD := ⟨yP, yP, yP_yP, yP_yP⟩
def zEquiv : Dev nD ≃ Dev nD := ⟨zP, zP, zP_zP, zP_zP⟩

/-! The device numbers the kernel computes: the first three are the barrier signals to the x, y and z partners; 4 to 19
    the sixteen copies to the x partner; from 20 on they alternate between the y partner (even) and the z partner (odd):
    the sixteen pairs of forwarding copies, then the eight pairs of second-hop copies. -/
theorem dev1_eq : ∀ c : Dev nD, (⟨k0_dev1 c, k0_dev1_lt c⟩ : Dev nD) = xP c := by decide +kernel
theorem dev2_eq : ∀ c : Dev nD, (⟨k0_dev2 c, k0_dev2_lt c⟩ : Dev nD) = yP c := by decide +kernel
theorem dev3_eq : ∀ c : Dev nD, (⟨k0_dev3 c, k0_dev3_lt c⟩ : Dev nD) = zP c := by decide +kernel
theorem dev4_eq : ∀ c : Dev nD, (⟨k0_dev4 c, k0_dev4_lt c⟩ : Dev nD) = xP c := by decide +kernel
theorem dev5_eq : ∀ c : Dev nD, (⟨k0_dev5 c, k0_dev5_lt c⟩ : Dev nD) = xP c := by decide +kernel
theorem dev6_eq : ∀ c : Dev nD, (⟨k0_dev6 c, k0_dev6_lt c⟩ : Dev nD) = xP c := by decide +kernel
theorem dev7_eq : ∀ c : Dev nD, (⟨k0_dev7 c, k0_dev7_lt c⟩ : Dev nD) = xP c := by decide +kernel
theorem dev8_eq : ∀ c : Dev nD, (⟨k0_dev8 c, k0_dev8_lt c⟩ : Dev nD) = xP c := by decide +kernel
theorem dev9_eq : ∀ c : Dev nD, (⟨k0_dev9 c, k0_dev9_lt c⟩ : Dev nD) = xP c := by decide +kernel
theorem dev10_eq : ∀ c : Dev nD, (⟨k0_dev10 c, k0_dev10_lt c⟩ : Dev nD) = xP c := by decide +kernel
theorem dev11_eq : ∀ c : Dev nD, (⟨k0_dev11 c, k0_dev11_lt c⟩ : Dev nD) = xP c := by decide +kernel
theorem dev12_eq : ∀ c : Dev nD, (⟨k0_dev12 c, k0_dev12_lt c⟩ : Dev nD) = xP c := by decide +kernel
theorem dev13_eq : ∀ c : Dev nD, (⟨k0_dev13 c, k0_dev13_lt c⟩ : Dev nD) = xP c := by decide +kernel
theorem dev14_eq : ∀ c : Dev nD, (⟨k0_dev14 c, k0_dev14_lt c⟩ : Dev nD) = xP c := by decide +kernel
theorem dev15_eq : ∀ c : Dev nD, (⟨k0_dev15 c, k0_dev15_lt c⟩ : Dev nD) = xP c := by decide +kernel
theorem dev16_eq : ∀ c : Dev nD, (⟨k0_dev16 c, k0_dev16_lt c⟩ : Dev nD) = xP c := by decide +kernel
theorem dev17_eq : ∀ c : Dev nD, (⟨k0_dev17 c, k0_dev17_lt c⟩ : Dev nD) = xP c := by decide +kernel
theorem dev18_eq : ∀ c : Dev nD, (⟨k0_dev18 c, k0_dev18_lt c⟩ : Dev nD) = xP c := by decide +kernel
theorem dev19_eq : ∀ c : Dev nD, (⟨k0_dev19 c, k0_dev19_lt c⟩ : Dev nD) = xP c := by decide +kernel
theorem dev20_eq : ∀ c : Dev nD, (⟨k0_dev20 c, k0_dev20_lt c⟩ : Dev nD) = yP c := by decide +kernel
theorem dev21_eq : ∀ c : Dev nD, (⟨k0_dev21 c, k0_dev21_lt c⟩ : Dev nD) = zP c := by decide +kernel
theorem dev22_eq : ∀ c : Dev nD, (⟨k0_dev22 c, k0_dev22_lt c⟩ : Dev nD) = yP c := by decide +kernel
theorem dev23_eq : ∀ c : Dev nD, (⟨k0_dev23 c, k0_dev23_lt c⟩ : Dev nD) = zP c := by decide +kernel
theorem dev24_eq : ∀ c : Dev nD, (⟨k0_dev24 c, k0_dev24_lt c⟩ : Dev nD) = yP c := by decide +kernel
theorem dev25_eq : ∀ c : Dev nD, (⟨k0_dev25 c, k0_dev25_lt c⟩ : Dev nD) = zP c := by decide +kernel
theorem dev26_eq : ∀ c : Dev nD, (⟨k0_dev26 c, k0_dev26_lt c⟩ : Dev nD) = yP c := by decide +kernel
theorem dev27_eq : ∀ c : Dev nD, (⟨k0_dev27 c, k0_dev27_lt c⟩ : Dev nD) = zP c := by decide +kernel
theorem dev28_eq : ∀ c : Dev nD, (⟨k0_dev28 c, k0_dev28_lt c⟩ : Dev nD) = yP c := by decide +kernel
theorem dev29_eq : ∀ c : Dev nD, (⟨k0_dev29 c, k0_dev29_lt c⟩ : Dev nD) = zP c := by decide +kernel
theorem dev30_eq : ∀ c : Dev nD, (⟨k0_dev30 c, k0_dev30_lt c⟩ : Dev nD) = yP c := by decide +kernel
theorem dev31_eq : ∀ c : Dev nD, (⟨k0_dev31 c, k0_dev31_lt c⟩ : Dev nD) = zP c := by decide +kernel
theorem dev32_eq : ∀ c : Dev nD, (⟨k0_dev32 c, k0_dev32_lt c⟩ : Dev nD) = yP c := by decide +kernel
theorem dev33_eq : ∀ c : Dev nD, (⟨k0_dev33 c, k0_dev33_lt c⟩ : Dev nD) = zP c := by decide +kernel
theorem dev34_eq : ∀ c : Dev nD, (⟨k0_dev34 c, k0_dev34_lt c⟩ : Dev nD) = yP c := by decide +kernel
theorem dev35_eq : ∀ c : Dev nD, (⟨k0_dev35 c, k0_dev35_lt c⟩ : Dev nD) = zP c := by decide +kernel
theorem dev36_eq : ∀ c : Dev nD, (⟨k0_dev36 c, k0_dev36_lt c⟩ : Dev nD) = yP c := by decide +kernel
theorem dev37_eq : ∀ c : Dev nD, (⟨k0_dev37 c, k0_dev37_lt c⟩ : Dev nD) = zP c := by decide +kernel
theorem dev38_eq : ∀ c : Dev nD, (⟨k0_dev38 c, k0_dev38_lt c⟩ : Dev nD) = yP c := by decide +kernel
theorem dev39_eq : ∀ c : Dev nD, (⟨k0_dev39 c, k0_dev39_lt c⟩ : Dev nD) = zP c := by decide +kernel
theorem dev40_eq : ∀ c : Dev nD, (⟨k0_dev40 c, k0_dev40_lt c⟩ : Dev nD) = yP c := by decide +kernel
theorem dev41_eq : ∀ c : Dev nD, (⟨k0_dev41 c, k0_dev41_lt c⟩ : Dev nD) = zP c := by decide +kernel
theorem dev42_eq : ∀ c : Dev nD, (⟨k0_dev42 c, k0_dev42_lt c⟩ : Dev nD) = yP c := by decide +kernel
theorem dev43_eq : ∀ c : Dev nD, (⟨k0_dev43 c, k0_dev43_lt c⟩ : Dev nD) = zP c := by decide +kernel
theorem dev44_eq : ∀ c : Dev nD, (⟨k0_dev44 c, k0_dev44_lt c⟩ : Dev nD) = yP c := by decide +kernel
theorem dev45_eq : ∀ c : Dev nD, (⟨k0_dev45 c, k0_dev45_lt c⟩ : Dev nD) = zP c := by decide +kernel
theorem dev46_eq : ∀ c : Dev nD, (⟨k0_dev46 c, k0_dev46_lt c⟩ : Dev nD) = yP c := by decide +kernel
theorem dev47_eq : ∀ c : Dev nD, (⟨k0_dev47 c, k0_dev47_lt c⟩ : Dev nD) = zP c := by decide +kernel
theorem dev48_eq : ∀ c : Dev nD, (⟨k0_dev48 c, k0_dev48_lt c⟩ : Dev nD) = yP c := by decide +kernel
theorem dev49_eq : ∀ c : Dev nD, (⟨k0_dev49 c, k0_dev49_lt c⟩ : Dev nD) = zP c := by decide +kernel
theorem dev50_eq : ∀ c : Dev nD, (⟨k0_dev50 c, k0_dev50_lt c⟩ : Dev nD) = yP c := by decide +kernel
theorem dev51_eq : ∀ c : Dev nD, (⟨k0_dev51 c, k0_dev51_lt c⟩ : Dev nD) = zP c := by decide +kernel
theorem dev52_eq : ∀ c : Dev nD, (⟨k0_dev52 c, k0_dev52_lt c⟩ : Dev nD) = yP c := by decide +kernel
theorem dev53_eq : ∀ c : Dev nD, (⟨k0_dev53 c, k0_dev53_lt c⟩ : Dev nD) = zP c := by decide +kernel
theorem dev54_eq : ∀ c : Dev nD, (⟨k0_dev54 c, k0_dev54_lt c⟩ : Dev nD) = yP c := by decide +kernel
theorem dev55_eq : ∀ c : Dev nD, (⟨k0_dev55 c, k0_dev55_lt c⟩ : Dev nD) = zP c := by decide +kernel
theorem dev56_eq : ∀ c : Dev nD, (⟨k0_dev56 c, k0_dev56_lt c⟩ : Dev nD) = yP c := by decide +kernel
theorem dev57_eq : ∀ c : Dev nD, (⟨k0_dev57 c, k0_dev57_lt c⟩ : Dev nD) = zP c := by decide +kernel
theorem dev58_eq : ∀ c : Dev nD, (⟨k0_dev58 c, k0_dev58_lt c⟩ : Dev nD) = yP c := by decide +kernel
theorem dev59_eq : ∀ c : Dev nD, (⟨k0_dev59 c, k0_dev59_lt c⟩ : Dev nD) = zP c := by decide +kernel
theorem dev60_eq : ∀ c : Dev nD, (⟨k0_dev60 c, k0_dev60_lt c⟩ : Dev nD) = yP c := by decide +kernel
theorem dev61_eq : ∀ c : Dev nD, (⟨k0_dev61 c, k0_dev61_lt c⟩ : Dev nD) = zP c := by decide +kernel
theorem dev62_eq : ∀ c : Dev nD, (⟨k0_dev62 c, k0_dev62_lt c⟩ : Dev nD) = yP c := by decide +kernel
theorem dev63_eq : ∀ c : Dev nD, (⟨k0_dev63 c, k0_dev63_lt c⟩ : Dev nD) = zP c := by decide +kernel
theorem dev64_eq : ∀ c : Dev nD, (⟨k0_dev64 c, k0_dev64_lt c⟩ : Dev nD) = yP c := by decide +kernel
theorem dev65_eq : ∀ c : Dev nD, (⟨k0_dev65 c, k0_dev65_lt c⟩ : Dev nD) = zP c := by decide +kernel
theorem dev66_eq : ∀ c : Dev nD, (⟨k0_dev66 c, k0_dev66_lt c⟩ : Dev nD) = yP c := by decide +kernel
theorem dev67_eq : ∀ c : Dev nD, (⟨k0_dev67 c, k0_dev67_lt c⟩ : Dev nD) = zP c := by decide +kernel

end Cert.Kernel.AG

end
-- ==== Proof.KAGCore.lean ====
/- The cells, the views and the schedule of the sixteen-device all-gather.

   Every device c holds its half of the array (its x block) and must end with both halves. Its own half goes into the
   result through four rotating buffers, by sixteen local copies in and sixteen out. The other half arrives in four
   quarters: the quarter named by c's own (y, z-pair bit) straight from the x partner, in sixteen chunks; that same
   quarter is forwarded, chunk by chunk, to the y partner and to the z partner, so c receives the y partner's and the z
   partner's quarters the same way; the fourth quarter comes second-hop, its first eight chunks from the y partner and
   its last eight from the z partner. Every copy has a send semaphore on the sender and a receive semaphore on the
   receiver, each used once; the eight semaphores of the local copies are each used four times, in turn. -/
import proofs.«900678_g7700000000000679_dist_ag_v7x_xyz2x2x4_x_m16384_n1024_f32_1_alg».proof.Proof.KAGTopo
import proofs.«900678_g7700000000000679_dist_ag_v7x_xyz2x2x4_x_m16384_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names 0, 1, 2) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and the cells -/

abbrev inM : Memref sig .tc .hbm S16384x1024 .f32 := Memref.whole main_arg0
abbrev outM : Memref sig .tc .hbm S32768x1024 .f32 := Memref.whole main_v1
abbrev vbM : Memref sig .tc .vmem S4x1024x1024 .f32 := Memref.whole cc0_scratch0

/-- The runtime's barrier semaphore of collective id 0. -/
abbrev barS : Sem sig := (SemArray.scalar (sig.barrier 0 rfl) : Sems sig S_).sem
abbrev barCell (c : Dev nD) : GSem nD τ sig := ((c : Thread nD τ), .reg barS)
/-- DMA semaphore number k of device c: 0–3 the loads', 4–7 the stores', 8–23 / 24–39 the x copies' send / receive,
    40–55 / 56–71 the y forwards', 72–87 / 88–103 the z forwards', 104–111 / 112–119 the second-hop y copies',
    120–127 / 128–135 the second-hop z copies'. -/
abbrev dcell (c : Dev nD) (k : Fin 136) : GSem nD τ sig := ((c : Thread nD τ), .dma (k : DmaSem sig))

/-- Chunk i of the quarter device c receives from its x partner, spelt as c's own forwarding copies name it. -/
abbrev qMine (c : Dev nD) (i : Fin 16) : Memref sig .tc .hbm S256x1024 .f32 :=
  outM.slice (Rect.unit (s := S32768x1024) (k0_off3 c (BitVec.ofNat 32 (256 * i.val))) S256x1024.size (k0_off3_inb c i)) (fun _ => rfl)
/-- Chunk i of device c's own quarter of its block, the source of its copy to the x partner. -/
abbrev xSrc (c : Dev nD) (i : Fin 16) : Memref sig .tc .hbm S256x1024 .f32 :=
  inM.slice (Rect.unit (s := S16384x1024) (k0_off2 c (BitVec.ofNat 32 (256 * i.val))) S256x1024.size (k0_off2_inb c i)) (fun _ => rfl)
/-- Where that chunk lands in the x partner's result, spelt by the sender c. -/
abbrev xDst (c : Dev nD) (i : Fin 16) : Memref sig .tc .hbm S256x1024 .f32 :=
  outM.slice (Rect.unit (s := S32768x1024) (k0_off1 c (BitVec.ofNat 32 (256 * i.val))) S256x1024.size (k0_off1_inb c i)) (fun _ => rfl)
/-- Chunk j (of the first eight) of the quarter c received from its z partner: the source of its second-hop copy to the y partner. -/
abbrev qZlo (c : Dev nD) (j : Fin 8) : Memref sig .tc .hbm S256x1024 .f32 :=
  outM.slice (Rect.unit (s := S32768x1024) (k0_off5 c (BitVec.ofNat 32 (256 * j.val))) S256x1024.size (k0_off5_inb c j)) (fun _ => rfl)
/-- Chunk 8 + j of the quarter c received from its y partner: the source of its second-hop copy to the z partner. -/
abbrev qYhi (c : Dev nD) (j : Fin 8) : Memref sig .tc .hbm S256x1024 .f32 :=
  outM.slice (Rect.unit (s := S32768x1024) (k0_off6 c (BitVec.ofNat 32 (2048 + 256 * j.val))) S256x1024.size (k0_off6_inb c j)) (fun _ => rfl)
/-- Rows 1024·n … of c's own half of its result: where local chunk n is stored. -/
abbrev stDst (c : Dev nD) (n : Fin 16) : Memref sig .tc .hbm S1024x1024 .f32 :=
  outM.slice (Rect.unit (s := S32768x1024) (k0_off4 c (BitVec.ofNat 32 (1024 * n.val))) S1024x1024.size (k0_off4_inb c n)) (fun _ => rfl)

/-- What a copy into a 256-row chunk of the result credits; into a 1024-row chunk of it; into a rotating buffer. -/
def N256 : ℕ := (qMine (0 : Dev nD) 0).view.dmaCredit
def N1024 : ℕ := (stDst (0 : Dev nD) 0).view.dmaCredit
theorem N256_pos : 0 < N256 := View.dmaCredit_pos _ (by decide)
theorem N1024_pos : 0 < N1024 := View.dmaCredit_pos _ (by decide)
/-- Every 256-row chunk of the result is worth the same, whichever way it is spelt; every 1024-row chunk too. -/
theorem credit_qMine (c : Dev nD) (i : Fin 16) : (qMine c i).view.dmaCredit = N256 := rfl
theorem credit_xDst (c : Dev nD) (i : Fin 16) : (xDst c i).view.dmaCredit = N256 := rfl
theorem credit_qZlo (c : Dev nD) (j : Fin 8) : (qZlo c j).view.dmaCredit = N256 := rfl
theorem credit_qYhi (c : Dev nD) (j : Fin 8) : (qYhi c j).view.dmaCredit = N256 := rfl
theorem credit_stDst (c : Dev nD) (n : Fin 16) : (stDst c n).view.dmaCredit = N1024 := rfl
attribute [irreducible] N256 N1024

end Cert.Kernel.AG

end
-- ==== Proof.KAGSched.lean ====
/- The contents each buffer holds along the run, what each landing hands its receiver, and the schedule of rounds.

   The result of device c ends as the whole array: row r of it is row r mod 16384 of the block of the device that owns
   that row for c — c itself on c's own half, and on the other half the device across the x axis whose (y, z-pair bit)
   names the row's quarter and whose z pair is c's. Whatever road a row takes (one hop, two hops, three hops), it is a
   copy of that owner's row. -/
import proofs.«900678_g7700000000000679_dist_ag_v7x_xyz2x2x4_x_m16384_n1024_f32_1_alg».proof.Proof.KAGCore
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## More views: the local copies' -/

theorem ld_inb : ∀ (n : Fin 16) a, (![1024 * n.val, 0] : Fin 2 → Nat) a + S1024x1024.size a ≤ S16384x1024.size a := by decide
theorem vs_inb : ∀ (k : Fin 4) a, (![k.val, 0, 0] : Fin 3 → Nat) a + S1x1024x1024.size a ≤ S4x1024x1024.size a := by decide

/-- Rows 1024·n … of the device's own block: the source of local load n. -/
abbrev ldSrc (n : Fin 16) : Memref sig .tc .hbm S1024x1024 .f32 :=
  inM.slice (Rect.unit (s := S16384x1024) ![1024 * n.val, 0] S1024x1024.size (ld_inb n)) (fun _ => rfl)
/-- Rotating buffer k. -/
abbrev vslot (k : Fin 4) : Memref sig .tc .vmem S1024x1024 .f32 :=
  (vbM.slice (Rect.unit (s := S4x1024x1024) ![k.val, 0, 0] S1x1024x1024.size (vs_inb k)) (fun _ => rfl)).squeeze S1024x1024 squeezes_S1x1024x1024_S1024x1024

def NV : ℕ := (vslot 0).view.dmaCredit
theorem NV_pos : 0 < NV := View.dmaCredit_pos _ (by decide)
theorem credit_vslot (k : Fin 4) : (vslot k).view.dmaCredit = NV := rfl
attribute [irreducible] NV

/-! ## Contents -/

/-- Device c's block as launched. -/
abbrev blk (c : Dev nD) : Buf (Elt F) ((c : Thread nD τ).loc main_arg0) := m ((c : Thread nD τ).loc main_arg0)

/-- The device across the x axis from c, in c's z pair, at (y, z-pair bit) = (q / 2, q % 2): the origin of quarter q of c's other half. -/
def org (c : Dev nD) (q : ℕ) : Dev nD := ⟨8 * (1 - c.val / 8) + 4 * (q / 2 % 2) + 2 * (c.val % 4 / 2) + q % 2, by
  have h0 : c.val < 16 := c.isLt; have h1 : c.val / 8 ≤ 1 := by omega
  have h2 : c.val % 4 / 2 ≤ 1 := by omega
  have h3 : q / 2 % 2 ≤ 1 := by omega
  have h4 : q % 2 ≤ 1 := by omega
  have : 8 * (1 - c.val / 8) ≤ 8 := by omega
  show _ < 16; omega⟩

/-- Whose block row r of c's result copies. -/
def owner (c : Dev nD) (r : ℕ) : Dev nD := if r / 16384 = c.val / 8 then c else org c (r % 16384 / 4096)

/-- What device c's result holds at the end: row r is row r mod 16384 of its owner's block. -/
def Xf (c : Dev nD) : Buf (Elt F) ((c : Thread nD τ).loc main_v1) :=
  fun idx => blk m (owner c (idx 0).val) (ValueIdx.ix2 (⟨(idx 0).val % 16384, Nat.mod_lt _ (by decide)⟩ : Fin 16384) (⟨(idx 1).val, (idx 1).isLt⟩ : Fin 1024))

/-- What the rotating buffers hold once local chunk n has been loaded: in every slot, rows 1024·n … of the block (a
    points-to on slot k then says slot k holds chunk n). -/
def VB (c : Dev nD) (n : Fin 16) : Buf (Elt F) ((c : Thread nD τ).loc cc0_scratch0) :=
  fun idx => blk m c (ValueIdx.ix2 (⟨1024 * n.val + (idx 1).val, by have h1 : (idx 1).val < 1024 := (idx 1).isLt; have h2 : n.val < 16 := n.isLt; show _ < 16384; omega⟩ : Fin 16384) (⟨(idx 2).val, (idx 2).isLt⟩ : Fin 1024))

/-! ## The DMA semaphores by role -/

/-- The role of a DMA semaphore: a load's or a store's (by rotating buffer), or the send / receive end of one copy of
    one of the five families (x copy, y forward, z forward, second-hop y, second-hop z; by chunk). -/
inductive Cls where
  | ld (k : Fin 4) | st (k : Fin 4)
  | xs (i : Fin 16) | xr (i : Fin 16)
  | yds (i : Fin 16) | ydr (i : Fin 16)
  | zds (i : Fin 16) | zdr (i : Fin 16)
  | ydgs (j : Fin 8) | ydgr (j : Fin 8)
  | zdgs (j : Fin 8) | zdgr (j : Fin 8)
  deriving DecidableEq

/-- The semaphore's number in the device's pool. -/
def code : Cls → Fin 136
  | .ld k => ⟨k.val, by omega⟩ | .st k => ⟨4 + k.val, by omega⟩
  | .xs i => ⟨8 + i.val, by omega⟩ | .xr i => ⟨24 + i.val, by omega⟩
  | .yds i => ⟨40 + i.val, by omega⟩ | .ydr i => ⟨56 + i.val, by omega⟩
  | .zds i => ⟨72 + i.val, by omega⟩ | .zdr i => ⟨88 + i.val, by omega⟩
  | .ydgs j => ⟨104 + j.val, by omega⟩ | .ydgr j => ⟨112 + j.val, by omega⟩
  | .zdgs j => ⟨120 + j.val, by omega⟩ | .zdgr j => ⟨128 + j.val, by omega⟩

/-- The role of semaphore number k. -/
def decode (k : Fin 136) : Cls :=
  if h : k.val < 4 then .ld ⟨k.val, h⟩ else if h : k.val < 8 then .st ⟨k.val - 4, by omega⟩
  else if h : k.val < 24 then .xs ⟨k.val - 8, by omega⟩ else if h : k.val < 40 then .xr ⟨k.val - 24, by omega⟩
  else if h : k.val < 56 then .yds ⟨k.val - 40, by omega⟩ else if h : k.val < 72 then .ydr ⟨k.val - 56, by omega⟩
  else if h : k.val < 88 then .zds ⟨k.val - 72, by omega⟩ else if h : k.val < 104 then .zdr ⟨k.val - 88, by omega⟩
  else if h : k.val < 112 then .ydgs ⟨k.val - 104, by omega⟩ else if h : k.val < 120 then .ydgr ⟨k.val - 112, by omega⟩
  else if h : k.val < 128 then .zdgs ⟨k.val - 120, by omega⟩ else .zdgr ⟨k.val - 128, by have := k.isLt; omega⟩

theorem decode_code (x : Cls) : decode (code x) = x := by
  cases x <;> rename_i i <;> revert i <;> decide

theorem code_injective : Function.Injective code := fun a b h => by
  have := congrArg decode h; rwa [decode_code, decode_code] at this

/-- The cell of role x on device c. -/
abbrev kcell (c : Dev nD) (x : Cls) : GSem nD τ sig := dcell c (code x)

/-! ## What each landing hands over -/

abbrev qL : PosShare TreeShare := fullShare.left
abbrev qR : PosShare TreeShare := fullShare.right

/-- The local chunk that round r of rotating buffer k moves. -/
def nOf (r : ℕ) (k : Fin 4) : Fin 16 := ⟨(4 * r + k.val) % 16, Nat.mod_lt _ (by decide)⟩

/-- A chunk of device c's memory, through the view of a memref, at share q and contents f. -/
abbrev pts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-- What the units of a DMA semaphore's round hand the device: for a local copy the destination rewritten and the
    source's share back; for a send end the source's share back; for a receive end the chunk landed. -/
def dmaPay (c : Dev nD) : Cls → ℕ → sProp 𝕄
  | .ld k, r => iprop(pts c (vslot k) fullShare (VB m c (nOf r k)) ∗ pts c (ldSrc (nOf r k)) qR (blk m c))
  | .st k, r => iprop(pts c (stDst c (nOf r k)) fullShare (Xf m c) ∗ pts c (vslot k) fullShare (VB m c (nOf r k)))
  | .xs i, _ => pts c (xSrc c i) qL (blk m c)
  | .xr i, _ => pts c (qMine c i) fullShare (Xf m c)
  | .yds i, _ => pts c (qMine c i) qL (Xf m c)
  | .zds i, _ => pts c (qMine c i) qR (Xf m c)
  | .ydr i, _ => pts c (qMine (yP c) i) fullShare (Xf m c)
  | .zdr i, _ => pts c (qMine (zP c) i) fullShare (Xf m c)
  | .ydgs j, _ => pts c (qZlo c j) fullShare (Xf m c)
  | .zdgs j, _ => pts c (qYhi c j) fullShare (Xf m c)
  | .ydgr j, _ => pts c (qZlo (yP c) j) fullShare (Xf m c)
  | .zdgr j, _ => pts c (qYhi (zP c) j) fullShare (Xf m c)

/-- What a partner's entry signal hands device c: the chunks of the partner's result that c's copies will land in, at
    whatever they hold. Duty 0 is the x partner's, 1 the y partner's, 2 the z partner's. -/
def barPay (c : Dev nD) : Fin 3 → sProp 𝕄
  | 0 => bigSep Finset.univ fun i : Fin 16 => iprop(∃ f, pts (F := F) (xP c) (xDst c i) fullShare f)
  | 1 => iprop((bigSep Finset.univ fun i : Fin 16 => iprop(∃ f, pts (F := F) (yP c) (qMine c i) fullShare f))
      ∗ bigSep Finset.univ fun j : Fin 8 => iprop(∃ f, pts (F := F) (yP c) (qZlo c j) fullShare f))
  | 2 => iprop((bigSep Finset.univ fun i : Fin 16 => iprop(∃ f, pts (F := F) (zP c) (qMine c i) fullShare f))
      ∗ bigSep Finset.univ fun j : Fin 8 => iprop(∃ f, pts (F := F) (zP c) (qYhi c j) fullShare f))

/-! ## The schedule -/

/-- Whether the role is a local copy's (four rounds) or a remote copy's end (one round). -/
def Cls.loc : Cls → Bool
  | .ld _ | .st _ => true
  | _ => false

/-- What one use of the semaphore is worth. -/
def Cls.amt : Cls → ℕ
  | .ld _ => NV
  | .st _ => N1024
  | _ => N256

theorem Cls.amt_pos (x : Cls) : 0 < x.amt := by
  cases x
  case ld => exact NV_pos
  case st => exact N1024_pos
  all_goals exact N256_pos

/-- The duties of round r of a TensorCore's semaphore: the barrier's one round of three, a local copy's semaphore's
    four rounds of one, any other DMA semaphore's one round of one. -/
def dutiesOf : SemLoc sig → ℕ → Finset (Fin 3)
  | .reg _, r => if r = 0 then Finset.univ else ∅
  | .dma k, r => if (decode k).loc then (if r < 4 then {0} else ∅) else (if r = 0 then {0} else ∅)

/-- A duty's units. -/
def amountOf' : SemLoc sig → ℕ
  | .reg _ => 1
  | .dma k => (decode k).amt

/-- What a duty's units hand the device. -/
def payOf (c : Dev nD) : SemLoc sig → ℕ → Fin 3 → sProp 𝕄
  | .reg _, _, d => barPay c d
  | .dma k, r, _ => dmaPay m c (decode k) r

/-- The rounds: a device's barrier cell has one round of three unit duties, one per partner; a load's or a store's
    semaphore four rounds of one duty (the buffer's four uses); every other DMA semaphore one round of one duty. -/
def Rd : Rounds.Schedule (GSem nD τ sig) (Fin 3) 𝕄 where
  duties g r := if g.1.2 = .tc then dutiesOf g.2 r else ∅
  unitless _ := False
  amount g _ _ := amountOf' g.2
  payload g r d := payOf m g.1.1 g.2 r d
  amount_pos g _ _ _ := by
    rcases g with ⟨t, s | k⟩
    · exact Nat.one_pos
    · exact Cls.amt_pos _

end Cert.Kernel.AG

end
-- ==== Proof.KAGTables.lean ====
/- The schedule read cell by cell: which duties a round has, what each is worth, what it hands over, and what a
   round expects in all. A DMA semaphore's cell is read through its role. -/
import proofs.«900678_g7700000000000679_dist_ag_v7x_xyz2x2x4_x_m16384_n1024_f32_1_alg».proof.Proof.KAGSched

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tables
variable (c : Dev nD)

omit [FloatOps F] in
theorem duties_tc (s : SemLoc sig) (r : ℕ) : (Rd (F := F) m).duties ((c : Thread nD τ), s) r = dutiesOf s r := by
  dsimp only [Rd]; exact if_pos rfl

omit [FloatOps F] in
theorem duties_bar : (Rd (F := F) m).duties (barCell c) 0 = Finset.univ := by
  rw [duties_tc, dutiesOf]; exact if_pos rfl
omit [FloatOps F] in
theorem duties_bar_later (r : ℕ) (hr : 1 ≤ r) : (Rd (F := F) m).duties (barCell c) r = ∅ := by
  rw [duties_tc, dutiesOf]; exact if_neg (by omega)
omit [FloatOps F] in
theorem amount_bar (r : ℕ) (d : Fin 3) : (Rd (F := F) m).amount (barCell c) r d = 1 := rfl
omit [FloatOps F] in
theorem payload_bar (r : ℕ) (d : Fin 3) : (Rd (F := F) m).payload (barCell c) r d = barPay c d := rfl
omit [FloatOps F] in
theorem expect_bar : (Rd (F := F) m).expect (barCell c) 0 = 3 := by
  unfold Schedule.expect Schedule.amountOf
  rw [duties_bar, Finset.sum_congr rfl fun d _ => amount_bar m c 0 d, Finset.sum_const, Finset.card_univ, Fintype.card_fin, smul_eq_mul]

/-- A round a cell has: any of the four for a local copy's semaphore, the first for any other. -/
def Cls.live (x : Cls) (r : ℕ) : Prop := if x.loc then r < 4 else r = 0

instance (x : Cls) (r : ℕ) : Decidable (x.live r) := by unfold Cls.live; infer_instance

omit [FloatOps F] in
theorem dutiesOf_code (x : Cls) (r : ℕ) : dutiesOf (.dma (code x) : SemLoc sig) r
    = if x.loc then (if r < 4 then {0} else ∅) else (if r = 0 then {0} else ∅) := by
  rw [dutiesOf, decode_code]
omit [FloatOps F] in
theorem amount_cell (x : Cls) (r : ℕ) (d : Fin 3) : (Rd (F := F) m).amount (kcell c x) r d = x.amt := by
  show (decode (code x)).amt = _; rw [decode_code]
omit [FloatOps F] in
theorem payload_cell (x : Cls) (r : ℕ) (d : Fin 3) : (Rd (F := F) m).payload (kcell c x) r d = dmaPay m c x r := by
  show dmaPay m c (decode (code x)) r = _; rw [decode_code]

omit [FloatOps F] in
theorem duties_live {x : Cls} {r : ℕ} (h : x.live r) : (Rd (F := F) m).duties (kcell c x) r = {0} := by
  rw [duties_tc, dutiesOf_code]; unfold Cls.live at h
  by_cases hl : x.loc = true
  · rw [if_pos hl] at h ⊢; exact if_pos h
  · rw [if_neg hl] at h ⊢; exact if_pos h
omit [FloatOps F] in
theorem expect_live {x : Cls} {r : ℕ} (h : x.live r) : (Rd (F := F) m).expect (kcell c x) r = x.amt := by
  unfold Schedule.expect Schedule.amountOf; rw [duties_live m c h, Finset.sum_singleton, amount_cell]
omit [FloatOps F] in
theorem rest_live {x : Cls} {r : ℕ} (h : x.live r) :
    bigSep ((Rd (F := F) m).duties (kcell c x) r \ ∅) (fun d => (Rd (F := F) m).payload (kcell c x) r d) = dmaPay m c x r := by
  rw [Finset.sdiff_empty, duties_live m c h, bigSep_singleton, payload_cell]
omit [FloatOps F] in
theorem duties_dead {x : Cls} (R : ℕ) (hR : if x.loc then 4 ≤ R else 1 ≤ R) : ∀ r, R ≤ r → (Rd (F := F) m).duties (kcell c x) r = ∅ := by
  intro r hr; rw [duties_tc, dutiesOf_code]
  by_cases hl : x.loc = true
  · rw [if_pos hl] at hR ⊢; exact if_neg (by omega)
  · rw [if_neg hl] at hR ⊢; exact if_neg (by omega)

end Tables

end Cert.Kernel.AG

end
-- ==== Proof.KAGState.lean ====
/- What each device owes and holds when the kernel starts, and what it holds when the kernel ends.

   Owed, in the order the device pays: a unit on each partner's barrier cell; the credit of each of the sixteen chunks
   on the x partner's receive cells; then, chunk by chunk, the y partner's and the z partner's forward receive cells;
   then the second-hop receive cells of the y and z partner. A device may wait on a cell only while everything it still
   owes sits on cells of a higher level: the barrier cells are at level 1, the x receive cells at 2, the forward receive
   cells at 3, the second-hop receive cells at 4, and every cell a device credits itself at 0 — the levels rise along the
   order of payment, so every wait of the kernel is below what is owed when it is made. -/
import proofs.«900678_g7700000000000679_dist_ag_v7x_xyz2x2x4_x_m16384_n1024_f32_1_alg».proof.Proof.KAGTables

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device owes, in the order it pays -/

/-- The n-th payment of device c: the cell it credits and the units. -/
def ev (c : Dev nD) (n : ℕ) : GSem nD τ sig × ℕ :=
  if n < 3 then (if n = 0 then (barCell (xP c), 1) else if n = 1 then (barCell (yP c), 1) else (barCell (zP c), 1))
  else if n < 19 then (kcell (xP c) (.xr ⟨(n - 3) % 16, Nat.mod_lt _ (by decide)⟩), N256)
  else if n < 51 then
    (if (n - 19) % 2 = 0 then (kcell (yP c) (.ydr ⟨(n - 19) / 2 % 16, Nat.mod_lt _ (by decide)⟩), N256)
      else (kcell (zP c) (.zdr ⟨(n - 19) / 2 % 16, Nat.mod_lt _ (by decide)⟩), N256))
  else
    (if (n - 51) % 2 = 0 then (kcell (yP c) (.ydgr ⟨(n - 51) / 2 % 8, Nat.mod_lt _ (by decide)⟩), N256)
      else (kcell (zP c) (.zdgr ⟨(n - 51) / 2 % 8, Nat.mod_lt _ (by decide)⟩), N256))

/-- What device c still owes before its k-th payment when n payments remain: the later ones, then this one. -/
def owedN (c : Dev nD) : ℕ → ℕ → CellTallies nD τ sig Unit
  | 0, _ => 0
  | n + 1, k => owedN c n (k + 1) + tallyAt (ev c k).1 () (ev c k).2

/-- What device c owes at launch: all sixty-seven payments. -/
def O₀ (c : Dev nD) : CellTallies nD τ sig Unit := owedN c 67 0

/-! ## Levels -/

def clsLv : Cls → ℕ
  | .xr _ => 2
  | .ydr _ | .zdr _ => 3
  | .ydgr _ | .zdgr _ => 4
  | _ => 0

def L (g : GSem nD τ sig) : Finset Unit := if g.1.2 = .tc then {()} else ∅
def lv (g : GSem nD τ sig) (_ : Unit) : ℕ := match g.2 with
  | .reg _ => 1
  | .dma k => clsLv (decode k)

/-- The level of the k-th payment's cell: they rise along the order of payment. -/
def evLv (k : ℕ) : ℕ := if k < 3 then 1 else if k < 19 then 2 else if k < 51 then 3 else 4

theorem L_of_ne (g : GSem nD τ sig) (h : g.1.2 ≠ .tc) : L g = ∅ := if_neg h
theorem L_tc (c : Dev nD) (sm : SemLoc sig) : L ((c : Thread nD τ), sm) = {()} := if_pos rfl

/-! ## The cells' records and what a device holds at the start -/

/-- A TensorCore's cells: its barrier cell (none) and its DMA semaphores by role. -/
abbrev gcell (c : Dev nD) : Option Cls → GSem nD τ sig
  | none => barCell c
  | some x => kcell c x

deriving instance Fintype for Cls

/-- Every cell's invariant, at the names the launch allocated, and that every cell has reached its first round. -/
def records (K : Dev nD × Option Cls → ℕ) : sProp 𝕄 :=
  iprop((bigSep Finset.univ fun ck : Dev nD × Option Cls => cellInv ER (Rd m) (K ck) (gcell ck.1 ck.2))
    ∗ bigSep Finset.univ fun ck : Dev nD × Option Cls => reached ER (gcell ck.1 ck.2) 0)

instance records_persistent (K : Dev nD × Option Cls → ℕ) : BI.Persistent (records m K) := by unfold records; infer_instance

/-- The device's positions on its own cells. -/
def positions (c : Dev nD) : sProp 𝕄 :=
  iprop(atPos ER (barCell c) 0 ∅ 0 ∗ bigSep Finset.univ fun x : Cls => atPos ER (kcell c x) 0 ∅ 0)

/-- The tokens of the duties the device pays: its three barrier signals; per copy it sends, the send end's and the
    receive end's; per use of a local copy's semaphore, that round's. -/
def payToks (c : Dev nD) : sProp 𝕄 :=
  iprop(dutyTok ER (barCell (xP c)) 0 (0 : Fin 3) ∗ dutyTok ER (barCell (yP c)) 0 (1 : Fin 3) ∗ dutyTok ER (barCell (zP c)) 0 (2 : Fin 3)
    ∗ (bigSep Finset.univ fun i : Fin 16 => iprop(dutyTok ER (kcell c (.xs i)) 0 (0 : Fin 3) ∗ dutyTok ER (kcell (xP c) (.xr i)) 0 (0 : Fin 3)))
    ∗ (bigSep Finset.univ fun i : Fin 16 => iprop(dutyTok ER (kcell c (.yds i)) 0 (0 : Fin 3) ∗ dutyTok ER (kcell (yP c) (.ydr i)) 0 (0 : Fin 3)))
    ∗ (bigSep Finset.univ fun i : Fin 16 => iprop(dutyTok ER (kcell c (.zds i)) 0 (0 : Fin 3) ∗ dutyTok ER (kcell (zP c) (.zdr i)) 0 (0 : Fin 3)))
    ∗ (bigSep Finset.univ fun j : Fin 8 => iprop(dutyTok ER (kcell c (.ydgs j)) 0 (0 : Fin 3) ∗ dutyTok ER (kcell (yP c) (.ydgr j)) 0 (0 : Fin 3)))
    ∗ (bigSep Finset.univ fun j : Fin 8 => iprop(dutyTok ER (kcell c (.zdgs j)) 0 (0 : Fin 3) ∗ dutyTok ER (kcell (zP c) (.zdgr j)) 0 (0 : Fin 3)))
    ∗ (bigSep Finset.univ fun kr : Fin 4 × Fin 4 => iprop(dutyTok ER (kcell c (.ld kr.1)) kr.2.val (0 : Fin 3) ∗ dutyTok ER (kcell c (.st kr.1)) kr.2.val (0 : Fin 3))))

/-- The credit tokens for what the partners owe the device's cells. -/
def creds (c : Dev nD) : sProp 𝕄 :=
  iprop(cred (tallyAt (barCell c) () 3)
    ∗ (bigSep Finset.univ fun i : Fin 16 => cred (tallyAt (kcell c (.xr i)) () N256))
    ∗ (bigSep Finset.univ fun i : Fin 16 => cred (tallyAt (kcell c (.ydr i)) () N256))
    ∗ (bigSep Finset.univ fun i : Fin 16 => cred (tallyAt (kcell c (.zdr i)) () N256))
    ∗ (bigSep Finset.univ fun j : Fin 8 => cred (tallyAt (kcell c (.ydgr j)) () N256))
    ∗ (bigSep Finset.univ fun j : Fin 8 => cred (tallyAt (kcell c (.zdgr j)) () N256)))

/-- The ghost state a device starts from. -/
def ghost (K : Dev nD × Option Cls → ℕ) (c : Dev nD) : sProp 𝕄 := iprop(records m K ∗ positions c ∗ payToks c)

/-- Before the kernel: the ghost state at some names, the credit, the level facts, the block as launched, the result and
    the rotating buffers at whatever they hold. -/
def Φ₀ (c : Dev nD) : sProp 𝕄 :=
  iprop((∃ K, ghost m K c) ∗ creds c ∗ levAts L lv
    ∗ (((c : Thread nD τ).loc main_arg0) ↦{fullShare} blk m c)
    ∗ (∃ f, ((c : Thread nD τ).loc main_v1) ↦{fullShare} f)
    ∗ (∃ g, ((c : Thread nD τ).loc cc0_scratch0) ↦{fullShare} g))

/-- After it: the block unchanged, the result holding the whole array, the rotating buffers at something, every DMA
    semaphore's counter back at zero. -/
def Φ₁ (c : Dev nD) : sProp 𝕄 :=
  iprop((((c : Thread nD τ).loc main_arg0) ↦{fullShare} blk m c)
    ∗ (((c : Thread nD τ).loc main_v1) ↦{fullShare} Xf m c)
    ∗ (∃ g, ((c : Thread nD τ).loc cc0_scratch0) ↦{fullShare} g)
    ∗ bigSep Finset.univ fun x : Cls => semVal (kcell c x) 0)

/-- The pipeline's proof data: no window; the invariant before and after the one point; what is owed before and after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.KAGLaunch.lean ====
/- The launch of the all-gather on the sixteen devices.

   Every device's 137 cells — its barrier cell and its 136 DMA semaphores — are funded at once: each cell's record at
   round 0, each device's positions on its own cells, and one token per duty of the schedule. The tokens are then dealt
   to the devices that pay the duties: a barrier cell's three go to the device's three partners, a receive cell's goes to
   the partner that sends into it, and the rest stay. The credit for what the partners owe a device's cells comes from the
   launch, payment by payment. The block, the result and the rotating buffers pass into the invariant before the one
   point, and come back after it: the block as launched, the result holding the whole array. -/
import proofs.«900678_g7700000000000679_dist_ag_v7x_xyz2x2x4_x_m16384_n1024_f32_1_alg».proof.Proof.KAGState
import proofs.«900678_g7700000000000679_dist_ag_v7x_xyz2x2x4_x_m16384_n1024_f32_1_alg».proof.Proof.Gen.Kernel.Launch
import proofs.«900678_g7700000000000679_dist_ag_v7x_xyz2x2x4_x_m16384_n1024_f32_1_alg».proof.Proof.Gen.Kernel.Points
import proofs.«900678_g7700000000000679_dist_ag_v7x_xyz2x2x4_x_m16384_n1024_f32_1_alg».proof.Proof.Gen.Kernel.Frame
import Idealize.ShloMosaic.Lib.Pipeline.Launch
import Idealize.ShloMosaic.Lib.Pipeline.Kit
import Idealize.ShloMosaic.Lib.Tactic
import Mathlib.Algebra.Group.Nat.Range
import Mathlib.Logic.Equiv.Option

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sums over a run of naturals, over an optional index -/

omit [FloatOps F] in
/-- A product over the first a + b naturals is the one over the first a and the one over the next b. -/
private theorem bigSep_range_add (a b : ℕ) (Φ : ℕ → sProp 𝕄) :
    bigSep (Finset.range (a + b)) Φ = iprop(bigSep (Finset.range a) Φ ∗ bigSep (Finset.range b) fun i => Φ (a + i)) := by
  rw [Finset.range_add, bigSep_union (Finset.disjoint_range_addLeftEmbedding a _), bigSep_map] <;> rfl

omit [FloatOps F] in
/-- A product over the first n naturals, indexed by Fin n. -/
private theorem bigSep_range_fin (n : ℕ) (Φ : ℕ → sProp 𝕄) :
    bigSep (Finset.range n) Φ = bigSep Finset.univ fun i : Fin n => Φ i.val := by
  have h : Finset.range n = Finset.univ.map (Fin.valEmbedding : Fin n ↪ ℕ) := by
    ext k
    rw [Finset.mem_range, Finset.mem_map]
    exact ⟨fun hk => ⟨⟨k, hk⟩, Finset.mem_univ _, rfl⟩, fun ⟨i, _, hi⟩ => hi ▸ i.isLt⟩
  rw [h, bigSep_map] <;> rfl

omit [FloatOps F] in
/-- A product over the first 2 n naturals, pair by pair. -/
private theorem bigSep_range_two (n : ℕ) (Φ : ℕ → sProp 𝕄) :
    bigSep (Finset.range (2 * n)) Φ = bigSep (Finset.range n) fun i => iprop(Φ (2 * i) ∗ Φ (2 * i + 1)) := by
  induction n with
  | zero => rfl
  | succ n ih =>
    have e1 : bigSep (Finset.range (2 * (n + 1))) Φ = iprop(Φ (2 * n + 1) ∗ Φ (2 * n) ∗ bigSep (Finset.range (2 * n)) Φ) := by
      rw [show 2 * (n + 1) = (2 * n + 1) + 1 from by omega, Finset.range_add_one (n := 2 * n + 1), bigSep_insert Finset.notMem_range_self,
        Finset.range_add_one (n := 2 * n), bigSep_insert Finset.notMem_range_self] <;> rfl
    have e2 : (bigSep (Finset.range (n + 1)) fun i => iprop(Φ (2 * i) ∗ Φ (2 * i + 1)))
        = iprop((Φ (2 * n) ∗ Φ (2 * n + 1)) ∗ bigSep (Finset.range n) fun i => iprop(Φ (2 * i) ∗ Φ (2 * i + 1))) := by
      rw [Finset.range_add_one (n := n), bigSep_insert Finset.notMem_range_self] <;> rfl
    rw [e1, e2, ih]
    have h1 : iprop(Φ (2 * n + 1) ∗ Φ (2 * n) ∗ bigSep (Finset.range n) fun i => iprop(Φ (2 * i) ∗ Φ (2 * i + 1)))
        ⊢ iprop((Φ (2 * n) ∗ Φ (2 * n + 1)) ∗ bigSep (Finset.range n) fun i => iprop(Φ (2 * i) ∗ Φ (2 * i + 1))) := by
      iintro ⟨H1, H0, H⟩
      isplitl [H0 H1]
      · isplitl [H0]; · iexact H0
        iexact H1
      · iexact H
    have h2 : iprop((Φ (2 * n) ∗ Φ (2 * n + 1)) ∗ bigSep (Finset.range n) fun i => iprop(Φ (2 * i) ∗ Φ (2 * i + 1)))
        ⊢ iprop(Φ (2 * n + 1) ∗ Φ (2 * n) ∗ bigSep (Finset.range n) fun i => iprop(Φ (2 * i) ∗ Φ (2 * i + 1))) := by
      iintro ⟨⟨H0, H1⟩, H⟩
      isplitl [H1]; · iexact H1
      isplitl [H0]; · iexact H0
      iexact H
    exact BI.Entails.antisymm h1 h2

omit [FloatOps F] in
/-- A product over an optional index: the members' and the one without. -/
private theorem bigSep_univ_option {α : Type} [Fintype α] (Φ : Option α → sProp 𝕄) :
    bigSep Finset.univ Φ = iprop((bigSep Finset.univ fun a => Φ (some a)) ∗ Φ none) := by
  rw [bigSep_univ_equiv (Equiv.optionEquivSumPUnit.{0, 0} α).symm Φ, bigSep_univ_sum, bigSep_univ_of_subsingleton PUnit.unit] <;> rfl

omit [FloatOps F] in
private theorem bigSep_fin3 (Φ : Fin 3 → sProp 𝕄) : bigSep Finset.univ Φ = iprop(Φ 0 ∗ Φ 1 ∗ Φ 2) := bigSep_univ_eq_bigSepL [0, 1, 2] (by decide) (by decide) Φ

/-! ## The kernel's own semaphores, the cells, the tokens -/

/-- The kernel's own semaphores: the 136 DMA semaphores, scoped scratch. -/
abbrev osem : Fin 136 → SemLoc sig := fun k => .dma k

theorem ownSemFacts : Pipeline.OwnSemFacts cfg0.spec osem :=
  ⟨by decide +kernel, fun a b h => SemLoc.dma.inj h, fun k w s => w.elim0⟩

theorem code_decode : ∀ k : Fin 136, code (decode k) = k := by decide +kernel

/-- A device's DMA semaphores by role or by number. -/
def codeEquiv : Cls ≃ Fin 136 := ⟨code, decode, decode_code, code_decode⟩

/-- Every cell: device by device, the barrier cell and the DMA semaphores by role. -/
abbrev acell (ck : Dev nD × Option Cls) : GSem nD τ sig := gcell ck.1 ck.2

theorem acell_injective : Function.Injective (acell : Dev nD × Option Cls → GSem nD τ sig) := by
  rintro ⟨c, o⟩ ⟨c', o'⟩ h
  rcases o with _ | x <;> rcases o' with _ | x'
  · have h1 : c = c' := congrArg (fun g : GSem nD τ sig => g.1.1) h
    subst h1; rfl
  · have h2 : (SemLoc.reg barS : SemLoc sig) = SemLoc.dma (code x') := congrArg Prod.snd h
    cases h2
  · have h2 : (SemLoc.dma (code x) : SemLoc sig) = SemLoc.reg barS := congrArg Prod.snd h
    cases h2
  · have h1 : c = c' := congrArg (fun g : GSem nD τ sig => g.1.1) h
    have h2 : code x = code x' := SemLoc.dma.inj (congrArg Prod.snd h)
    subst h1; rw [code_injective h2]

def allCells : Finset (GSem nD τ sig) := Finset.univ.map ⟨acell, acell_injective⟩

/-- The duties minted on a device's own cells: the barrier's three; the send end's and the receive end's of each copy of
    the five families; the four uses of each load's and each store's semaphore. -/
abbrev TokJ : Type :=
  Fin 3 ⊕ (Fin 16 ⊕ Fin 16) ⊕ (Fin 16 ⊕ Fin 16) ⊕ (Fin 16 ⊕ Fin 16) ⊕ (Fin 8 ⊕ Fin 8) ⊕ (Fin 8 ⊕ Fin 8) ⊕ ((Fin 4 × Fin 4) ⊕ (Fin 4 × Fin 4))

/-- The cell (the barrier's or a role's), the round and the duty of a minted token. -/
def tokJ : TokJ → Option Cls × ℕ × Fin 3
  | .inl d => (none, 0, d)
  | .inr (.inl (.inl i)) => (some (.xs i), 0, 0)
  | .inr (.inl (.inr i)) => (some (.xr i), 0, 0)
  | .inr (.inr (.inl (.inl i))) => (some (.yds i), 0, 0)
  | .inr (.inr (.inl (.inr i))) => (some (.ydr i), 0, 0)
  | .inr (.inr (.inr (.inl (.inl i)))) => (some (.zds i), 0, 0)
  | .inr (.inr (.inr (.inl (.inr i)))) => (some (.zdr i), 0, 0)
  | .inr (.inr (.inr (.inr (.inl (.inl j))))) => (some (.ydgs j), 0, 0)
  | .inr (.inr (.inr (.inr (.inl (.inr j))))) => (some (.ydgr j), 0, 0)
  | .inr (.inr (.inr (.inr (.inr (.inl (.inl j)))))) => (some (.zdgs j), 0, 0)
  | .inr (.inr (.inr (.inr (.inr (.inl (.inr j)))))) => (some (.zdgr j), 0, 0)
  | .inr (.inr (.inr (.inr (.inr (.inr (.inl kr)))))) => (some (.ld kr.1), kr.2.val, 0)
  | .inr (.inr (.inr (.inr (.inr (.inr (.inr kr)))))) => (some (.st kr.1), kr.2.val, 0)

theorem tokJ_injective : Function.Injective tokJ := by decide +kernel

abbrev tokOf (cj : Dev nD × TokJ) : GSem nD τ sig × ℕ × Fin 3 := (gcell cj.1 (tokJ cj.2).1, (tokJ cj.2).2.1, (tokJ cj.2).2.2)

theorem tokOf_injective : Function.Injective (tokOf : Dev nD × TokJ → GSem nD τ sig × ℕ × Fin 3) := by
  rintro ⟨c, j⟩ ⟨c', j'⟩ h
  have h1 : ((c, (tokJ j).1) : Dev nD × Option Cls) = (c', (tokJ j').1) := acell_injective (congrArg (fun x : GSem nD τ sig × ℕ × Fin 3 => x.1) h)
  have hc : c = c' := congrArg Prod.fst h1
  have ho : (tokJ j).1 = (tokJ j').1 := congrArg Prod.snd h1
  have hr : (tokJ j).2 = (tokJ j').2 := congrArg (fun x : GSem nD τ sig × ℕ × Fin 3 => x.2) h
  rw [hc, tokJ_injective (Prod.ext ho hr)]

def allToks : Finset (GSem nD τ sig × ℕ × Fin 3) := Finset.univ.map ⟨tokOf, tokOf_injective⟩

/-- The launch element: the pipeline library's (no staging cell) and the protocol's. -/
def u₀ : UU :=
  (initOf (Pipeline.cells cfgs cellOf_inj) (Pipeline.launchToks cfgs cellOf_inj), initOf allCells allToks)

/-! ## Funding: what the launch element deals each device -/

/-- The tokens of the duties on device c's own cells, as minted. -/
def toks (c : Dev nD) : sProp 𝕄 :=
  bigSep Finset.univ fun j : TokJ => dutyTok ER (gcell c (tokJ j).1) (tokJ j).2.1 (tokJ j).2.2

/-- What the launch element deals device c: its cells' round states, its positions, that its cells have reached their
    first round, the tokens of its cells' duties. -/
def G (c : Dev nD) : sProp 𝕄 :=
  iprop((bigSep Finset.univ fun o : Option Cls => roundState ER (Rd m) (acell (c, o)) 0)
    ∗ (bigSep Finset.univ fun o : Option Cls => iprop(atPos ER (acell (c, o)) 0 ∅ 0 ∗ reached ER (acell (c, o)) 0)) ∗ toks c)

/-- What the global step makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun o : Option Cls => Φ (acell (c, o)) := by
    unfold allCells; rw [bigSep_map, bigSep_univ_prod] <;> rfl
  have hT : bigSep allToks (fun x => (dutyTok ER x.1 x.2.1 x.2.2 : sProp 𝕄)) = bigSep Finset.univ fun c : Dev nD => toks c := by
    unfold allToks; rw [bigSep_map, bigSep_univ_prod] <;> rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to the payers -/

/-- The kernel's own semaphores at zero are its DMA semaphores at zero, role by role. -/
theorem ownSems0_eq (c : Dev nD) : (Pipeline.ownSems0 (Ix := Unit) (Name := ℕ) (U := UU) (Lvl := ℕ) (Val := Elt F) (τ := τ) osem c : sProp 𝕄)
    = bigSep Finset.univ fun x : Cls => semVal (kcell c x) 0 := by
  unfold Pipeline.ownSems0
  rw [bigSep_univ_equiv codeEquiv (fun k : Fin 136 => (semVal (((c : Thread nD τ)), osem k) 0 : sProp 𝕄))] <;> rfl

/-- The launch's one unscoped semaphore is the barrier semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)] <;> rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option Cls => semVal (acell (c, o)) 0 : sProp 𝕄) := by
  exact Entails.of_eq (by rw [ownSems0_eq, unscopedSems0_eq, bigSep_univ_option] <;> rfl)

/-- What a duty's units hand over — chunks of the buffers at their contents — can be kept in a cell's invariant. -/
instance Rd_payload_storable (g : GSem nD τ sig) (r : ℕ) (d : Fin 3) :
    BI.Storable (upEmb : UEmb _ 𝕄) ((Rd (F := F) m).payload g r d) := by
  rcases g with ⟨t, s | k⟩
  · show BI.Storable upEmb (barPay (F := F) t.1 d)
    match d with
    | 0 => unfold barPay; infer_instance
    | 1 => unfold barPay; infer_instance
    | 2 => unfold barPay; infer_instance
  · show BI.Storable upEmb (dmaPay m t.1 (decode k) r)
    generalize decode k = x
    cases x <;> (unfold dmaPay; infer_instance)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option Cls => iprop(∃ κ : ℕ, cellInv ER (Rd m) κ (acell (c, o))))
          ∗ (bigSep Finset.univ fun o : Option Cls => iprop(atPos ER (acell (c, o)) 0 ∅ 0 ∗ reached ER (acell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option Cls => semVal (acell (c, o)) 0) ∗ bigSep Finset.univ fun o : Option Cls => roundState ER (Rd m) (acell (c, o)) 0)
      ⊢ (|={Set.univ}=> bigSep Finset.univ fun o : Option Cls => iprop(∃ κ : ℕ, cellInv ER (Rd m) κ (acell (c, o))) : sProp 𝕄) from by
        rw [← bigSep_sep']
        exact (bigSep_mono fun o _ => (Rounds.body_intro ER (Rd m) (acell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- The minted tokens of a device, family by family. -/
theorem toks_eq (c : Dev nD) : (toks c : sProp 𝕄) = iprop(
    (dutyTok ER (barCell c) 0 (0 : Fin 3) ∗ dutyTok ER (barCell c) 0 (1 : Fin 3) ∗ dutyTok ER (barCell c) 0 (2 : Fin 3))
    ∗ ((bigSep Finset.univ fun i : Fin 16 => dutyTok ER (kcell c (.xs i)) 0 (0 : Fin 3)) ∗ (bigSep Finset.univ fun i : Fin 16 => dutyTok ER (kcell c (.xr i)) 0 (0 : Fin 3)))
    ∗ ((bigSep Finset.univ fun i : Fin 16 => dutyTok ER (kcell c (.yds i)) 0 (0 : Fin 3)) ∗ (bigSep Finset.univ fun i : Fin 16 => dutyTok ER (kcell c (.ydr i)) 0 (0 : Fin 3)))
    ∗ ((bigSep Finset.univ fun i : Fin 16 => dutyTok ER (kcell c (.zds i)) 0 (0 : Fin 3)) ∗ (bigSep Finset.univ fun i : Fin 16 => dutyTok ER (kcell c (.zdr i)) 0 (0 : Fin 3)))
    ∗ ((bigSep Finset.univ fun j : Fin 8 => dutyTok ER (kcell c (.ydgs j)) 0 (0 : Fin 3)) ∗ (bigSep Finset.univ fun j : Fin 8 => dutyTok ER (kcell c (.ydgr j)) 0 (0 : Fin 3)))
    ∗ ((bigSep Finset.univ fun j : Fin 8 => dutyTok ER (kcell c (.zdgs j)) 0 (0 : Fin 3)) ∗ (bigSep Finset.univ fun j : Fin 8 => dutyTok ER (kcell c (.zdgr j)) 0 (0 : Fin 3)))
    ∗ ((bigSep Finset.univ fun kr : Fin 4 × Fin 4 => dutyTok ER (kcell c (.ld kr.1)) kr.2.val (0 : Fin 3))
      ∗ (bigSep Finset.univ fun kr : Fin 4 × Fin 4 => dutyTok ER (kcell c (.st kr.1)) kr.2.val (0 : Fin 3)))) := by
  unfold toks
  rw [bigSep_univ_sum, bigSep_univ_sum, bigSep_univ_sum, bigSep_univ_sum, bigSep_univ_sum, bigSep_univ_sum, bigSep_univ_sum, bigSep_univ_sum,
    bigSep_univ_sum, bigSep_univ_sum, bigSep_univ_sum, bigSep_univ_sum, bigSep_fin3] <;> rfl

/-- The tokens dealt to the payers: a barrier cell's three to the device's x, y and z partners; a receive cell's to the
    partner that sends into it. Each partner map is its own inverse, so each device ends with its partners' tokens. -/
theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv xEquiv (fun c : Dev nD => (dutyTok ER (barCell c) 0 (0 : Fin 3) : sProp 𝕄)),
    bigSep_univ_equiv yEquiv (fun c : Dev nD => (dutyTok ER (barCell c) 0 (1 : Fin 3) : sProp 𝕄)),
    bigSep_univ_equiv zEquiv (fun c : Dev nD => (dutyTok ER (barCell c) 0 (2 : Fin 3) : sProp 𝕄)),
    bigSep_univ_equiv xEquiv (fun c : Dev nD => bigSep Finset.univ fun i : Fin 16 => (dutyTok ER (kcell c (.xr i)) 0 (0 : Fin 3) : sProp 𝕄)),
    bigSep_univ_equiv yEquiv (fun c : Dev nD => bigSep Finset.univ fun i : Fin 16 => (dutyTok ER (kcell c (.ydr i)) 0 (0 : Fin 3) : sProp 𝕄)),
    bigSep_univ_equiv zEquiv (fun c : Dev nD => bigSep Finset.univ fun i : Fin 16 => (dutyTok ER (kcell c (.zdr i)) 0 (0 : Fin 3) : sProp 𝕄)),
    bigSep_univ_equiv yEquiv (fun c : Dev nD => bigSep Finset.univ fun j : Fin 8 => (dutyTok ER (kcell c (.ydgr j)) 0 (0 : Fin 3) : sProp 𝕄)),
    bigSep_univ_equiv zEquiv (fun c : Dev nD => bigSep Finset.univ fun j : Fin 8 => (dutyTok ER (kcell c (.zdgr j)) 0 (0 : Fin 3) : sProp 𝕄))]
  iintro ⟨⟨B0, B1, B2⟩, ⟨XS, XR⟩, ⟨YS, YR⟩, ⟨ZS, ZR⟩, ⟨YGS, YGR⟩, ⟨ZGS, ZGR⟩, LD, ST⟩
  isplitl [B0]; · iexact B0
  isplitl [B1]; · iexact B1
  isplitl [B2]; · iexact B2
  isplitl [XS XR]
  · isplitl [XS]; · iexact XS
    iexact XR
  isplitl [YS YR]
  · isplitl [YS]; · iexact YS
    iexact YR
  isplitl [ZS ZR]
  · isplitl [ZS]; · iexact ZS
    iexact ZR
  isplitl [YGS YGR]
  · isplitl [YGS]; · iexact YGS
    iexact YGR
  isplitl [ZGS ZGR]
  · isplitl [ZGS]; · iexact ZGS
    iexact ZGR
  isplitl [LD]; · iexact LD
  iexact ST

/-- What stays with device c: its positions and the tokens of the duties it pays. -/
def linear (c : Dev nD) : sProp 𝕄 := iprop(positions c ∗ payToks c)

theorem ghost_intro (K : Dev nD × Option Cls → ℕ) (c : Dev nD) : iprop(records m K ∗ linear c) ⊢ G' m c := by
  unfold linear G' ghost
  iintro ⟨HR, HP, HT⟩
  iexists K
  isplitl [HR]; · iexact HR
  isplitl [HP] <;> iassumption

theorem positions_intro (c : Dev nD) :
    iprop((bigSep Finset.univ fun o : Option Cls => (atPos ER (acell (c, o)) 0 ∅ 0 : sProp 𝕄)) ∗ payToks c) ⊢ linear c := by
  unfold linear positions
  rw [bigSep_univ_option]
  iintro ⟨⟨HS, HB⟩, HT⟩
  isplitl [HS HB]
  · isplitl [HB]; · iexact HB
    iexact HS
  iexact HT

private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o : Option Cls => iprop(∃ κ : ℕ, cellInv ER (Rd m) κ (acell (c, o))))
          ∗ (bigSep Finset.univ fun o : Option Cls => iprop(atPos ER (acell (c, o)) 0 ∅ 0 ∗ reached ER (acell (c, o)) 0)) ∗ toks c) : sProp 𝕄)
      ⊢ bigSep Finset.univ (G' m) := by
  rw [bigSep_sep', bigSep_sep', ← bigSep_univ_prod (fun ck : Dev nD × Option Cls => iprop(∃ κ : ℕ, cellInv ER (Rd m) κ (acell ck))),
    bigSep_congr (s := Finset.univ) (fun (c : Dev nD) _ => bigSep_sep' Finset.univ (fun o : Option Cls => (atPos ER (acell (c, o)) 0 ∅ 0 : sProp 𝕄)) (fun o => reached ER (acell (c, o)) 0)),
    bigSep_sep', ← bigSep_univ_prod (fun ck : Dev nD × Option Cls => (reached ER (acell ck) 0 : sProp 𝕄))]
  iintro ⟨HI, ⟨Hat, #HR⟩, Htok⟩
  ihave HK := (BI.bigSep_exists_pi Finset.univ (fun (ck : Dev nD × Option Cls) (κ : ℕ) => (cellInv ER (Rd m) κ (acell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun o : Option Cls => (atPos ER (acell (c, o)) 0 ∅ 0 : sProp 𝕄)) payToks).symm).trans
      (bigSep_mono fun c _ => positions_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

   Every payment of every device goes to one of its three partners, on a semaphore and for units that do not depend on
   the device; each partner map is its own inverse. So the credit the launch deals a device for the n-th payment of
   everyone is the n-th payment's units on its own semaphore of that payment: its partner's. -/

/-- The role of the receive cell the n-th payment credits (3 ≤ n). -/
def evX (n : ℕ) : Cls :=
  if n < 19 then .xr ⟨(n - 3) % 16, Nat.mod_lt _ (by decide)⟩
  else if n < 51 then
    (if (n - 19) % 2 = 0 then .ydr ⟨(n - 19) / 2 % 16, Nat.mod_lt _ (by decide)⟩ else .zdr ⟨(n - 19) / 2 % 16, Nat.mod_lt _ (by decide)⟩)
  else
    (if (n - 51) % 2 = 0 then .ydgr ⟨(n - 51) / 2 % 8, Nat.mod_lt _ (by decide)⟩ else .zdgr ⟨(n - 51) / 2 % 8, Nat.mod_lt _ (by decide)⟩)

/-- The semaphore the n-th payment credits, on the partner it goes to. -/
def evS (n : ℕ) : SemLoc sig := if n < 3 then .reg barS else .dma (code (evX n))

/-- The partner the n-th payment of device d goes to. -/
def evF (n : ℕ) (d : Dev nD) : Dev nD :=
  if n < 3 then (if n = 0 then xP d else if n = 1 then yP d else zP d)
  else if n < 19 then xP d
  else if n < 51 then (if (n - 19) % 2 = 0 then yP d else zP d)
  else (if (n - 51) % 2 = 0 then yP d else zP d)

/-- The n-th payment's units. -/
def evA (n : ℕ) : ℕ := if n < 3 then 1 else N256

theorem ev_eq (d : Dev nD) (n : ℕ) : ev d n = ((((evF n d : Dev nD) : Thread nD τ), evS n), evA n) := by
  unfold ev evF evS evA evX
  split_ifs <;> rfl

theorem evF_evF (n : ℕ) (d : Dev nD) : evF n (evF n d) = d := by
  unfold evF
  split_ifs <;> first | exact xP_xP d | exact yP_yP d | exact zP_zP d

theorem evA_ge (n : ℕ) (h : 3 ≤ n) : evA n = N256 := if_neg (by omega)

theorem evS_x (i : Fin 16) : evS (3 + i.val) = .dma (code (.xr i)) := by
  have hi := i.isLt
  unfold evS evX
  rw [if_neg (by omega), if_pos (by omega)]
  exact congrArg (fun j => (SemLoc.dma (code (Cls.xr j)) : SemLoc sig)) (Fin.ext (show (3 + i.val - 3) % 16 = i.val by omega) : (⟨(3 + i.val - 3) % 16, Nat.mod_lt _ (by decide)⟩ : Fin 16) = i)
theorem evS_y (i : Fin 16) : evS (19 + 2 * i.val) = .dma (code (.ydr i)) := by
  have hi := i.isLt
  unfold evS evX
  rw [if_neg (by omega), if_neg (by omega), if_pos (by omega), if_pos (by omega)]
  exact congrArg (fun j => (SemLoc.dma (code (Cls.ydr j)) : SemLoc sig)) (Fin.ext (show (19 + 2 * i.val - 19) / 2 % 16 = i.val by omega) : (⟨(19 + 2 * i.val - 19) / 2 % 16, Nat.mod_lt _ (by decide)⟩ : Fin 16) = i)
theorem evS_z (i : Fin 16) : evS (19 + (2 * i.val + 1)) = .dma (code (.zdr i)) := by
  have hi := i.isLt
  unfold evS evX
  rw [if_neg (by omega), if_neg (by omega), if_pos (by omega), if_neg (by omega)]
  exact congrArg (fun j => (SemLoc.dma (code (Cls.zdr j)) : SemLoc sig)) (Fin.ext (show (19 + (2 * i.val + 1) - 19) / 2 % 16 = i.val by omega) : (⟨(19 + (2 * i.val + 1) - 19) / 2 % 16, Nat.mod_lt _ (by decide)⟩ : Fin 16) = i)
theorem evS_yg (j : Fin 8) : evS (51 + 2 * j.val) = .dma (code (.ydgr j)) := by
  have hj := j.isLt
  unfold evS evX
  rw [if_neg (by omega), if_neg (by omega), if_neg (by omega), if_pos (by omega)]
  exact congrArg (fun j => (SemLoc.dma (code (Cls.ydgr j)) : SemLoc sig)) (Fin.ext (show (51 + 2 * j.val - 51) / 2 % 8 = j.val by omega) : (⟨(51 + 2 * j.val - 51) / 2 % 8, Nat.mod_lt _ (by decide)⟩ : Fin 8) = j)
theorem evS_zg (j : Fin 8) : evS (51 + (2 * j.val + 1)) = .dma (code (.zdgr j)) := by
  have hj := j.isLt
  unfold evS evX
  rw [if_neg (by omega), if_neg (by omega), if_neg (by omega), if_neg (by omega)]
  exact congrArg (fun j => (SemLoc.dma (code (Cls.zdgr j)) : SemLoc sig)) (Fin.ext (show (51 + (2 * j.val + 1) - 51) / 2 % 8 = j.val by omega) : (⟨(51 + (2 * j.val + 1) - 51) / 2 % 8, Nat.mod_lt _ (by decide)⟩ : Fin 8) = j)

/-- What is owed over a + b payments from the k-th is the last b of them and the first a. -/
theorem owedN_add (d : Dev nD) : ∀ a b k : ℕ, owedN d (a + b) k = owedN d b (k + a) + owedN d a k
  | 0, b, k => by
    rw [Nat.zero_add, Nat.add_zero]
    exact (add_zero _).symm
  | a + 1, b, k => by
    rw [show a + 1 + b = (a + b) + 1 from by omega]
    show owedN d (a + b) (k + 1) + tallyAt (ev d k).1 () (ev d k).2 = owedN d b (k + (a + 1)) + (owedN d a (k + 1) + tallyAt (ev d k).1 () (ev d k).2)
    rw [owedN_add d a b (k + 1), show k + 1 + a = k + (a + 1) from by omega, add_assoc]

/-- The credit the launch deals device c for n payments of everyone from the k-th: per payment, its units on c's own
    semaphore of that payment. -/
theorem cred_run (c : Dev nD) : ∀ n k : ℕ,
    (Pipeline.launchCred (fun d : Dev nD => owedN d n k) c : sProp 𝕄)
      ⊢ bigSep (Finset.range n) fun i => cred (tallyAt ((c : Thread nD τ), evS (k + i)) () (evA (k + i)))
  | 0, k => by
    have h : (Pipeline.launchCred (fun d : Dev nD => owedN d 0 k) c : sProp 𝕄)
        = bigSep (Finset.range 0) fun i => cred (tallyAt ((c : Thread nD τ), evS (k + i)) () (evA (k + i))) := by
      rw [show (fun d : Dev nD => owedN d 0 k) = fun _ => (0 : CellTallies nD τ sig Unit) from rfl, Pipeline.launchCred_zero,
        Finset.range_zero, bigSep_empty] <;> rfl
    exact Entails.of_eq h
  | n + 1, k => by
    have hO : (fun d : Dev nD => owedN d (n + 1) k)
        = fun d => owedN d n (k + 1) + tallyAt ((((evF k d : Dev nD) : Thread nD τ), evS k)) () (evA k) :=
      funext fun d => by
        show owedN d n (k + 1) + tallyAt (ev d k).1 () (ev d k).2 = _
        rw [ev_eq] <;> rfl
    have hassoc (i : ℕ) : (cred (tallyAt ((c : Thread nD τ), evS (k + 1 + i)) () (evA (k + 1 + i))) : sProp 𝕄)
        = cred (tallyAt ((c : Thread nD τ), evS (k + (1 + i))) () (evA (k + (1 + i)))) := by rw [Nat.add_assoc] <;> rfl
    have hstep : (bigSep (Finset.range n) fun i => (cred (tallyAt ((c : Thread nD τ), evS (k + 1 + i)) () (evA (k + 1 + i))) : sProp 𝕄))
        ⊢ bigSep (Finset.range n) fun i => cred (tallyAt ((c : Thread nD τ), evS (k + (1 + i))) () (evA (k + (1 + i)))) :=
      bigSep_mono fun i _ => Entails.of_eq (hassoc i)
    rw [hO, Pipeline.launchCred_add, show n + 1 = 1 + n from Nat.add_comm n 1, bigSep_range_add, Finset.range_one, bigSep_singleton]
    iintro ⟨HO, HD⟩
    isplitl [HD]
    · iapply (Pipeline.launchCred_tallyAt (evS k) (evF k) (evF k) (evF_evF k) (evF_evF k) () (evA k) c); iexact HD
    · iapply hstep
      iapply (cred_run c n (k + 1)); iexact HO

/-- The three barrier signals' credit is three units on the device's barrier cell. -/
theorem seg_bar (c : Dev nD) :
    (bigSep (Finset.range 3) fun i => (cred (tallyAt ((c : Thread nD τ), evS (0 + i)) () (evA (0 + i))) : sProp 𝕄))
      ⊢ cred (tallyAt (barCell c) () 3) := by
  rw [bigSep_range_fin, bigSep_fin3]
  show iprop(cred (tallyAt (barCell c) () 1) ∗ cred (tallyAt (barCell c) () 1) ∗ cred (tallyAt (barCell c) () 1))
    ⊢ (cred (tallyAt (barCell c) () (1 + (1 + 1))) : sProp 𝕄)
  rw [← tallyAt_add, ← tallyAt_add]
  exact (sep_mono_right (cred_add _ _).2).trans (cred_add _ _).2

/-- The sixteen x copies' credit: one chunk's on each x receive cell. -/
theorem seg_x (c : Dev nD) :
    (bigSep (Finset.range 16) fun i => (cred (tallyAt ((c : Thread nD τ), evS (3 + i)) () (evA (3 + i))) : sProp 𝕄))
      ⊢ bigSep Finset.univ fun i : Fin 16 => cred (tallyAt (kcell c (.xr i)) () N256) := by
  have hx (i : Fin 16) : (cred (tallyAt ((c : Thread nD τ), evS (3 + i.val)) () (evA (3 + i.val))) : sProp 𝕄)
      = cred (tallyAt (kcell c (.xr i)) () N256) := by
    rw [evS_x, evA_ge (3 + i.val) (by omega)] <;> rfl
  rw [bigSep_range_fin]
  exact bigSep_mono fun i _ => Entails.of_eq (hx i)

/-- The forwarding copies' credit, alternately from the y and the z partner: one chunk's on each forward receive cell. -/
theorem seg_fwd (c : Dev nD) :
    (bigSep (Finset.range 32) fun i => (cred (tallyAt ((c : Thread nD τ), evS (19 + i)) () (evA (19 + i))) : sProp 𝕄))
      ⊢ iprop((bigSep Finset.univ fun i : Fin 16 => cred (tallyAt (kcell c (.ydr i)) () N256))
        ∗ bigSep Finset.univ fun i : Fin 16 => cred (tallyAt (kcell c (.zdr i)) () N256)) := by
  have hy (i : Fin 16) : (cred (tallyAt ((c : Thread nD τ), evS (19 + 2 * i.val)) () (evA (19 + 2 * i.val))) : sProp 𝕄)
      = cred (tallyAt (kcell c (.ydr i)) () N256) := by
    rw [evS_y, evA_ge (19 + 2 * i.val) (by omega)] <;> rfl
  have hz (i : Fin 16) : (cred (tallyAt ((c : Thread nD τ), evS (19 + (2 * i.val + 1))) () (evA (19 + (2 * i.val + 1)))) : sProp 𝕄)
      = cred (tallyAt (kcell c (.zdr i)) () N256) := by
    rw [evS_z, evA_ge (19 + (2 * i.val + 1)) (by omega)] <;> rfl
  rw [show Finset.range 32 = Finset.range (2 * 16) from rfl, bigSep_range_two, bigSep_range_fin, bigSep_sep']
  exact BIClass.sep_mono (bigSep_mono fun i _ => Entails.of_eq (hy i)) (bigSep_mono fun i _ => Entails.of_eq (hz i))

/-- The second-hop copies' credit, alternately from the y and the z partner: one chunk's on each second-hop receive cell. -/
theorem seg_hop (c : Dev nD) :
    (bigSep (Finset.range 16) fun i => (cred (tallyAt ((c : Thread nD τ), evS (51 + i)) () (evA (51 + i))) : sProp 𝕄))
      ⊢ iprop((bigSep Finset.univ fun j : Fin 8 => cred (tallyAt (kcell c (.ydgr j)) () N256))
        ∗ bigSep Finset.univ fun j : Fin 8 => cred (tallyAt (kcell c (.zdgr j)) () N256)) := by
  have hy (j : Fin 8) : (cred (tallyAt ((c : Thread nD τ), evS (51 + 2 * j.val)) () (evA (51 + 2 * j.val))) : sProp 𝕄)
      = cred (tallyAt (kcell c (.ydgr j)) () N256) := by
    rw [evS_yg, evA_ge (51 + 2 * j.val) (by omega)] <;> rfl
  have hz (j : Fin 8) : (cred (tallyAt ((c : Thread nD τ), evS (51 + (2 * j.val + 1))) () (evA (51 + (2 * j.val + 1)))) : sProp 𝕄)
      = cred (tallyAt (kcell c (.zdgr j)) () N256) := by
    rw [evS_zg, evA_ge (51 + (2 * j.val + 1)) (by omega)] <;> rfl
  rw [show Finset.range 16 = Finset.range (2 * 8) from rfl, bigSep_range_two, bigSep_range_fin, bigSep_sep']
  exact BIClass.sep_mono (bigSep_mono fun j _ => Entails.of_eq (hy j)) (bigSep_mono fun j _ => Entails.of_eq (hz j))

/-- The launch credit of a device is the credit tokens for what its partners owe its cells. -/
theorem creds_intro (c : Dev nD) : (Pipeline.launchCred O₀ c : sProp 𝕄) ⊢ creds c := by
  have hO : (O₀ : Dev nD → CellTallies nD τ sig Unit) = fun d => owedN d 16 51 + owedN d 32 19 + owedN d 16 3 + owedN d 3 0 :=
    funext fun d => by
      show owedN d (3 + (16 + (32 + 16))) 0 = _
      rw [owedN_add, owedN_add, owedN_add] <;> rfl
  rw [hO, Pipeline.launchCred_add, Pipeline.launchCred_add, Pipeline.launchCred_add]
  unfold creds
  iintro ⟨⟨⟨H51, H19⟩, H3⟩, H0⟩
  ihave B := (cred_run (F := F) c 3 0) $$ H0
  ihave X := (cred_run (F := F) c 16 3) $$ H3
  ihave Y := (cred_run (F := F) c 32 19) $$ H19
  ihave Z := (cred_run (F := F) c 16 51) $$ H51
  ihave B' := (seg_bar (F := F) c) $$ B
  ihave X' := (seg_x (F := F) c) $$ X
  ihave Y' := (seg_fwd (F := F) c) $$ Y
  icases Y' with ⟨Yy, Yz⟩
  ihave Z' := (seg_hop (F := F) c) $$ Z
  icases Z' with ⟨Zy, Zz⟩
  isplitl [B']; · iexact B'
  isplitl [X']; · iexact X'
  isplitl [Yy]; · iexact Yy
  isplitl [Yz]; · iexact Yz
  isplitl [Zy]; · iexact Zy
  iexact Zz

/-! ## The theorem's side conditions -/

/-- What a device routes into the invariant before the one point, apart from the rotating buffers: its ghost state at some
    names, its credit, the level facts, its block as launched and its result at whatever it holds. -/
def start (c : Dev nD) : sProp 𝕄 :=
  iprop((∃ K, ghost m K c) ∗ creds c ∗ levAts L lv
    ∗ (((c : Thread nD τ).loc main_arg0) ↦{fullShare} blk m c)
    ∗ (∃ f, ((c : Thread nD τ).loc main_v1) ↦{fullShare} f))

/-- What comes back after the point: the block as launched and the result holding the whole array. -/
def final (c : Dev nD) : sProp 𝕄 :=
  iprop((((c : Thread nD τ).loc main_arg0) ↦{fullShare} blk m c) ∗ (((c : Thread nD τ).loc main_v1) ↦{fullShare} Xf m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Ha]; · iexact Ha
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨⟨HG, Hc, Hlev, Ha, Hv⟩, -, Hr⟩
  isplitl [HG]; · iexact HG
  isplitl [Hc]; · iexact Hc
  isplitl [Hlev]; · iexact Hlev
  isplitl [Ha]; · iexact Ha
  isplitl [Hv]; · iexact Hv
  iexact Hr

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq, ownSems0_eq]
  unfold Φ₁ final
  iintro ⟨Ha, Hv, Hr, Hs⟩
  isplitl [Ha Hv]
  · isplitl [Ha]; · iexact Ha
    iexact Hv
  isplitl [Hs]; · iexact Hs
  iexact Hr

/-- No window is staged: the pipeline waits on no cell. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of sixteen devices, for any float values, from any memory with zero counters, given the body's
    obligation on every device: every weakly fair execution of @main terminates, and every final state has each device's
    result holding the whole array — row r the row r mod 16384 of the block of the device that owns it — and its block as
    launched. -/
theorem run_main (hbody : ∀ c : Dev nD, Pipeline.BodyObligationLoose (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c : Thread nD τ).loc main_v1) = Xf m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := final m) (Z := fun _ => iprop(emp))
    (hX := start_intro m ρ) (hin := phi0_intro m) (hout := phi1_exit m)
    (QY := fun c s => s.mem ((c : Thread nD τ).loc main_v1) = Xf m c ∧ s.mem ((c : Thread nD τ).loc main_arg0) = blk m c)
    (hY := fun c s' => by
      unfold final
      iintro ⟨⟨Ha, Hv⟩, -, HSI⟩
      icombine HSI Hv gives %hv
      icombine HSI Ha gives %ha
      imodintro
      isplitr; · ipureintro; exact ⟨Buf.eq_of_forall_mem_univ hv, Buf.eq_of_forall_mem_univ ha⟩
      iexact HSI)
    (hQ := fun _ h c => (h c).2.2)

/-- info: 'Cert.Kernel.AG.run_main' depends on axioms: [propext, Classical.choice, Quot.sound] -/
#guard_msgs in #print axioms run_main

end Cert.Kernel.AG

end
-- ==== Proof.KAGSteps.lean ====
/- One rule per kind of step of a device's body, stated at the cells, views and contents of this kernel: a wait on one of
   the device's own DMA semaphores, a copy to a partner, a local copy, an entry signal, the entry wait, and closing a cell
   whose rounds are over. -/
import proofs.«900678_g7700000000000679_dist_ag_v7x_xyz2x2x4_x_m16384_n1024_f32_1_alg».proof.Proof.KAGState

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps

variable (K : Dev nD × Option Cls → ℕ)

local notation "WP" => wp frame (wpE (defs₀ (F := F)) 𝒱₀ _ none) Set.univ

/-- A wait on the device's own DMA semaphore of role x, in round r of its cell: the round's one duty has landed, and the
    device takes what it hands over. -/
theorem wp_wait_cell (c : Dev nD) (x : Cls) (r : ℕ) (hl : x.live r) {κ : ℕ}
    {sp sp' : Space} {s s' : Shape} {e e' : EltTy} {sem : DmaSem sig} (hsem : sem = code x)
    {src : Memref sig .tc sp' s' e'} {dst : Memref sig .tc sp s e} {hsrc : src.view.WordExact} {hdst : dst.view.WordExact}
    (hamt : dst.view.dmaCredit = x.amt)
    {α : Type} {Q : α → sProp 𝕄} {k : PUnit → Prog (TpuEff nD τ sig (Elt F) Λ₀ .tc) α}
    (O : CellTallies nD τ sig Unit) {W : Waits sig Unit} :
    iprop(cellInv ER (Rd m) κ (kcell c x) ∗ cred (tallyAt (kcell c x) () x.amt) ∗ owes (c : Thread nD τ) O W
        ∗ MayWait (c : Thread nD τ) (.dma (code x)) () O ∗ atPos ER (kcell c x) r ∅ 0)
      ⊢ iprop(((owes (c : Thread nD τ) O (insert (SemLoc.dma (code x), ()) W)
              ∗ atPos ER (kcell c x) (r + 1) ∅ 0 ∗ reached ER (kcell c x) (r + 1) ∗ dmaPay m c x r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  have h := Rounds.wp_wait_rest_token (defs := defs₀ (F := F)) 𝒱₀ ER (Rd m) (c : Thread nD τ) none (κ := κ) (Q := Q) (k := k)
      (w := .waitDma2 (code x) src dst hsrc hdst) (k' := x.amt)
      (fun K' => (wpE_waitDma2_eq (defs := defs₀ (F := F)) 𝒱₀ (c : Thread nD τ) none Set.univ K').trans (by rw [hamt])) (Set.mem_univ _) () (O := O) (W := W) (R := r) (m := 0) (T := ∅)
      (by rw [Nat.zero_add, expect_live m c hl])
  rw [rest_live m c hl] at h
  exact h

/-- A copy to a partner d: the device lends the source chunk (share q, contents fs), gives up the destination chunk on d
    (held outright since d's entry signal), pays the receive cell's credit off what it owes and both ends' tokens; it
    gets the send cell's credit token. The send end hands the source back; the receive end hands d the chunk landed. -/
theorem wp_send_cell (c d d' : Dev nD) (hd : d' = d) (xs xr : Cls) (hxs : xs.live 0) (hxr : xr.live 0) (has : xs.amt = N256) (har : xr.amt = N256)
    {src dst : Memref sig .tc .hbm S256x1024 .f32} {hsc : dst.view.ref.isScScratch = false}
    {ss rs : DmaSem sig} (hss : ss = code xs) (hrs : rs = code xr)
    {hsrc : src.view.WordExact} {hdst : dst.view.WordExact} {hsem : DmaTarget.Typed .hbm (.dma rs) (.remote (Dev.tc d' : Thread nD τ) dst (.dma ss) hsc)}
    (hamt : dst.view.dmaCredit = N256)
    {q : PosShare TreeShare} {fs : Buf (Elt F) (src.view.loc (c : Thread nD τ))} {fd : Buf (Elt F) (dst.view.loc (d : Thread nD τ))}
    (hpay₁ : (pts c src q fs : sProp 𝕄) ⊢ dmaPay m c xs 0)
    (hpay₂ : (pts d dst fullShare (dst.view.write (Elt F) fd (src.view.read (Elt F) fs) Finset.univ) : sProp 𝕄) ⊢ dmaPay m d xr 0)
    {κ₁ κ₂ : ℕ} {α : Type} {Q : α → sProp 𝕄} {k : PUnit → Prog (TpuEff nD τ sig (Elt F) Λ₀ .tc) α}
    (O : CellTallies nD τ sig Unit) {W : Waits sig Unit} :
    iprop(cellInv ER (Rd m) κ₁ (kcell c xs) ∗ cellInv ER (Rd m) κ₂ (kcell d xr)
        ∗ pts c src q fs ∗ pts d dst fullShare fd
        ∗ owes (c : Thread nD τ) (O + tallyAt (kcell d xr) () N256) W
        ∗ dutyTok ER (kcell c xs) 0 (0 : Fin 3) ∗ reached ER (kcell c xs) 0
        ∗ dutyTok ER (kcell d xr) 0 (0 : Fin 3) ∗ reached ER (kcell d xr) 0)
      ⊢ iprop(((cred (tallyAt (kcell c xs) () N256) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d' : Thread nD τ) dst (.dma ss) hsc) (.dma rs) hsrc hdst hsem) k) Q) := by
  subst hd; subst hss; subst hrs
  exact Rounds.wp_send_pointsTo (defs := defs₀ (F := F)) 𝒱₀ ER (Rd m) (c : Thread nD τ) none (κ₁ := κ₁) (κ₂ := κ₂)
    (r₁ := 0) (r₂ := 0) (d₁ := (0 : Fin 3)) (d₂ := (0 : Fin 3)) (fd := fd) (q := q) (fs := fs)
    (by rw [duties_live m c hxs]; exact Finset.mem_singleton_self _) (by rw [duties_live m d' hxr]; exact Finset.mem_singleton_self _)
    () () N256 (show dst.view.amount (.dma (code xr)) = N256 from hamt) ((amount_cell m c xs 0 0).trans has) ((amount_cell m d' xr 0 0).trans har) O rfl (W := W)
    (by rw [payload_cell]; exact hpay₁)
    (by rw [payload_cell]; exact hpay₂)

/-- A local copy on the semaphore of role x in its round r: the device lends the source (share q), gives up the
    destination, pays the round's token, and gets the round's credit token; the round hands both back, the destination
    rewritten. -/
theorem wp_copy_cell (c : Dev nD) (x : Cls) (r : ℕ) (hl : x.live r)
    {sp sp' : Space} {s : Shape} {e : EltTy} {src : Memref sig .tc sp s e} {dst : Memref sig .tc sp' s e}
    {sem : DmaSem sig} (hsem' : sem = code x)
    {hsrc : src.view.WordExact} {hdst : dst.view.WordExact} {hsem : DmaTarget.Typed (nD := nD) sp (.dma sem) (.here dst : DmaTarget nD τ sig Proc.tc sp' s e)}
    (hamt : dst.view.dmaCredit = x.amt)
    {q : PosShare TreeShare} {fs : Buf (Elt F) (src.view.loc (c : Thread nD τ))} {fd : Buf (Elt F) (dst.view.loc (c : Thread nD τ))}
    (hpay : iprop((pts c dst fullShare (dst.view.write (Elt F) fd (src.view.read (Elt F) fs) Finset.univ)) ∗ pts c src q fs) ⊢ (dmaPay m c x r : sProp 𝕄))
    {κ : ℕ} {α : Type} {Q : α → sProp 𝕄} {k : PUnit → Prog (TpuEff nD τ sig (Elt F) Λ₀ .tc) α} :
    iprop(cellInv ER (Rd m) κ (kcell c x) ∗ pts c src q fs ∗ pts c dst fullShare fd
        ∗ dutyTok ER (kcell c x) r (0 : Fin 3) ∗ reached ER (kcell c x) r)
      ⊢ iprop((cred (tallyAt (kcell c x) () x.amt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sem) hsrc hdst hsem) k) Q) := by
  subst hsem'
  exact Rounds.wp_copy_pointsTo (defs := defs₀ (F := F)) 𝒱₀ ER (Rd m) (c : Thread nD τ) none (κ := κ) (r := r) (d := (0 : Fin 3)) (fd := fd) (q := q) (fs := fs)
    (by rw [duties_live m c hl]; exact Finset.mem_singleton_self _) () x.amt (show dst.view.amount (.dma (code x)) = x.amt from hamt) (amount_cell m c x r 0)
    (by rw [payload_cell]; exact hpay)

/-- Closing a cell whose rounds are over: its counter, at zero, is the device's again. -/
theorem close_cell (c : Dev nD) (x : Cls) (R : ℕ) (hR : if x.loc then 4 ≤ R else 1 ≤ R) {κ : ℕ} :
    iprop(cellInv ER (Rd m) κ (kcell c x) ∗ atPos ER (kcell c x) R ∅ 0) ⊢ (|={Set.univ}=> semVal (kcell c x) 0 : sProp 𝕄) :=
  Rounds.cell_close ER (Rd m) (Set.mem_univ κ) (fun h => h) (R := R) (duties_dead m c R hR)

/-- An entry signal to partner d's barrier cell, paying its duty j: the device hands over the chunks of its result that d
    will write, and pays the unit off what it owes. -/
theorem wp_signal_bar (c d : Dev nD) (j : Fin 3) {κ : ℕ}
    {α : Type} {Q : α → sProp 𝕄} {k : PUnit → Prog (TpuEff nD τ sig (Elt F) Λ₀ .tc) α}
    (O : CellTallies nD τ sig Unit) {W : Waits sig Unit} :
    iprop(cellInv ER (Rd m) κ (barCell d) ∗ owes (c : Thread nD τ) (O + tallyAt (barCell d) () 1) W ∗ dutyTok ER (barCell d) 0 j
        ∗ barPay (F := F) d j ∗ reached ER (barCell d) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) :=
  Rounds.wp_signal (defs := defs₀ (F := F)) 𝒱₀ ER (Rd m) (c : Thread nD τ) none (dst := (d : Thread nD τ)) (κ := κ) (d := j)
    (by rw [duties_bar]; exact Finset.mem_univ _) (amount_bar m d 0 j) () O rfl

/-- The entry wait: the three partners' signals have landed, and the device takes the chunks of their results they
    handed over. -/
theorem wp_wait_bar (c : Dev nD) {κ : ℕ}
    {α : Type} {Q : α → sProp 𝕄} {k : PUnit → Prog (TpuEff nD τ sig (Elt F) Λ₀ .tc) α}
    (O : CellTallies nD τ sig Unit) {W : Waits sig Unit} :
    iprop(cellInv ER (Rd m) κ (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W)
              ∗ atPos ER (barCell c) 1 ∅ 0 ∗ reached ER (barCell c) 1
              ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  have h := Rounds.wp_wait_rest_token (defs := defs₀ (F := F)) 𝒱₀ ER (Rd m) (c : Thread nD τ) none (κ := κ) (Q := Q) (k := k)
      (w := .semWait barS 3) (k' := 3)
      (wpE_semWait_eq (defs := defs₀ (F := F)) 𝒱₀ (c : Thread nD τ) none Set.univ) (Set.mem_univ _) () (O := O) (W := W) (R := 0) (m := 0) (T := ∅)
      (by rw [Nat.zero_add, expect_bar])
  rw [Finset.sdiff_empty, duties_bar, bigSep_univ_eq_bigSepL [(0 : Fin 3), 1, 2] (by decide) (by decide)] at h
  exact h

end Steps

end Cert.Kernel.AG

end
-- ==== Proof.KAGPre.lean ====
/- Small facts used all along a device's run: a product over sixteen, eight or four indices written out as a chain;
   what each role's landing hands over, as a plain equation; one cell's invariant out of the records. -/
import proofs.«900678_g7700000000000679_dist_ag_v7x_xyz2x2x4_x_m16384_n1024_f32_1_alg».proof.Proof.KAGSteps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem barPay_0 (c : Dev nD) : barPay (F := F) c 0 = bigSep Finset.univ fun i : Fin 16 => iprop(∃ f, pts (F := F) (xP c) (xDst c i) fullShare f) := rfl
omit [FloatOps F] in
theorem barPay_1 (c : Dev nD) : barPay (F := F) c 1 = iprop((bigSep Finset.univ fun i : Fin 16 => iprop(∃ f, pts (F := F) (yP c) (qMine c i) fullShare f))
      ∗ bigSep Finset.univ fun j : Fin 8 => iprop(∃ f, pts (F := F) (yP c) (qZlo c j) fullShare f)) := rfl
omit [FloatOps F] in
theorem barPay_2 (c : Dev nD) : barPay (F := F) c 2 = iprop((bigSep Finset.univ fun i : Fin 16 => iprop(∃ f, pts (F := F) (zP c) (qMine c i) fullShare f))
      ∗ bigSep Finset.univ fun j : Fin 8 => iprop(∃ f, pts (F := F) (zP c) (qYhi c j) fullShare f)) := rfl

omit [FloatOps F] in
theorem dmaPay_ld (c : Dev nD) (k : Fin 4) (r : ℕ) : dmaPay m c (.ld k) r = iprop(pts c (vslot k) fullShare (VB m c (nOf r k)) ∗ pts c (ldSrc (nOf r k)) qR (blk m c)) := rfl
omit [FloatOps F] in
theorem dmaPay_st (c : Dev nD) (k : Fin 4) (r : ℕ) : dmaPay m c (.st k) r = iprop(pts c (stDst c (nOf r k)) fullShare (Xf m c) ∗ pts c (vslot k) fullShare (VB m c (nOf r k))) := rfl
omit [FloatOps F] in
theorem dmaPay_xs (c : Dev nD) (i : Fin 16) (r : ℕ) : dmaPay m c (.xs i) r = pts c (xSrc c i) qL (blk m c) := rfl
omit [FloatOps F] in
theorem dmaPay_xr (c : Dev nD) (i : Fin 16) (r : ℕ) : dmaPay m c (.xr i) r = pts c (qMine c i) fullShare (Xf m c) := rfl
omit [FloatOps F] in
theorem dmaPay_yds (c : Dev nD) (i : Fin 16) (r : ℕ) : dmaPay m c (.yds i) r = pts c (qMine c i) qL (Xf m c) := rfl
omit [FloatOps F] in
theorem dmaPay_ydr (c : Dev nD) (i : Fin 16) (r : ℕ) : dmaPay m c (.ydr i) r = pts c (qMine (yP c) i) fullShare (Xf m c) := rfl
omit [FloatOps F] in
theorem dmaPay_zds (c : Dev nD) (i : Fin 16) (r : ℕ) : dmaPay m c (.zds i) r = pts c (qMine c i) qR (Xf m c) := rfl
omit [FloatOps F] in
theorem dmaPay_zdr (c : Dev nD) (i : Fin 16) (r : ℕ) : dmaPay m c (.zdr i) r = pts c (qMine (zP c) i) fullShare (Xf m c) := rfl
omit [FloatOps F] in
theorem dmaPay_ydgs (c : Dev nD) (j : Fin 8) (r : ℕ) : dmaPay m c (.ydgs j) r = pts c (qZlo c j) fullShare (Xf m c) := rfl
omit [FloatOps F] in
theorem dmaPay_ydgr (c : Dev nD) (j : Fin 8) (r : ℕ) : dmaPay m c (.ydgr j) r = pts c (qZlo (yP c) j) fullShare (Xf m c) := rfl
omit [FloatOps F] in
theorem dmaPay_zdgs (c : Dev nD) (j : Fin 8) (r : ℕ) : dmaPay m c (.zdgs j) r = pts c (qYhi c j) fullShare (Xf m c) := rfl
omit [FloatOps F] in
theorem dmaPay_zdgr (c : Dev nD) (j : Fin 8) (r : ℕ) : dmaPay m c (.zdgr j) r = pts c (qYhi (zP c) j) fullShare (Xf m c) := rfl

omit [FloatOps F] in
theorem inv_at' (K : Dev nD × Option Cls → ℕ) (ck : Dev nD × Option Cls) :
    (bigSep Finset.univ fun ck : Dev nD × Option Cls => (cellInv ER (Rd m) (K ck) (gcell ck.1 ck.2) : sProp 𝕄)) ⊢ cellInv ER (Rd m) (K ck) (gcell ck.1 ck.2) :=
  bigSep_elim (Finset.mem_univ ck)
omit [FloatOps F] in
theorem reached_at' (ck : Dev nD × Option Cls) :
    (bigSep Finset.univ fun ck : Dev nD × Option Cls => (reached ER (gcell ck.1 ck.2) 0 : sProp 𝕄)) ⊢ reached ER (gcell ck.1 ck.2) 0 :=
  bigSep_elim (Finset.mem_univ ck)
omit [FloatOps F] in
theorem inv_at (K : Dev nD × Option Cls → ℕ) (ck : Dev nD × Option Cls) : records m K ⊢ cellInv ER (Rd m) (K ck) (gcell ck.1 ck.2) := by
  unfold records; iintro ⟨H, -⟩; iapply (inv_at' m K ck); iexact H
omit [FloatOps F] in
theorem reached_at (K : Dev nD × Option Cls → ℕ) (ck : Dev nD × Option Cls) : records m K ⊢ reached ER (gcell ck.1 ck.2) 0 := by
  unfold records; iintro ⟨-, H⟩; iapply (reached_at' (F := F) ck); iexact H

end Cert.Kernel.AG

end
-- ==== Proof.KAGRegions.lean ====
/- The chunks as rectangles of rows, and how they tile the buffers.

   Every chunk the kernel names is a band of whole rows of a buffer: its first row is given by the printed offset
   function, its height is the chunk's. Two spellings of a chunk are the same band when their first rows agree, which
   is arithmetic on the device's coordinates (x, y, z-pair bit) and the partner's, one of them flipped. A buffer held
   whole is the separating conjunction of its bands when the bands are pairwise apart and their sizes add up to the
   buffer's. -/
import proofs.«900678_g7700000000000679_dist_ag_v7x_xyz2x2x4_x_m16384_n1024_f32_1_alg».proof.Proof.KAGSched
import Idealize.ShloMosaic.Lib.Pipeline.Value
import Idealize.ShloMosaic.Rules.PointsTo
import Idealize.ShloMosaic.Lib.Ring

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace Regions

/-! ## The partners' coordinates -/

/-- The x partner has the other x and the same y and z-pair bit. -/
theorem xP_coord : ∀ c : Dev nD, (xP c).val / 8 = 1 - c.val / 8 ∧ (xP c).val / 4 % 2 = c.val / 4 % 2
    ∧ (xP c).val % 4 % 2 = c.val % 4 % 2 := by decide
/-- The y partner has the other y and the same x and z-pair bit. -/
theorem yP_coord : ∀ c : Dev nD, (yP c).val / 8 = c.val / 8 ∧ (yP c).val / 4 % 2 = 1 - c.val / 4 % 2
    ∧ (yP c).val % 4 % 2 = c.val % 4 % 2 := by decide
/-- The z partner has the other z-pair bit and the same x and y. -/
theorem zP_coord : ∀ c : Dev nD, (zP c).val / 8 = c.val / 8 ∧ (zP c).val / 4 % 2 = c.val / 4 % 2
    ∧ (zP c).val % 4 % 2 = 1 - c.val % 4 % 2 := by decide

/-! ## One chunk under two spellings: the first rows agree -/

/-- Where c's x partner sends its chunk i and the chunk i that c names as its own quarter both start at row
    16384·(1 - x) + 4096·(2y + bz) + 256·i of c's result. -/
theorem off1_xP (c : Dev nD) (i : Fin 16) :
    k0_off1 (xP c) (BitVec.ofNat 32 (256 * i.val)) = k0_off3 c (BitVec.ofNat 32 (256 * i.val)) := by
  rw [k0_off1_eq, k0_off3_eq]
  obtain ⟨h1, h2, h3⟩ := xP_coord c
  have hc : c.val < 16 := c.isLt
  rw [h1, h2, h3]
  congr 1
  omega

/-- Chunk j < 8 of the quarter the z partner names as its own and chunk j of the quarter c got from its z partner both
    start at row 16384·(1 - x) + 4096·(2y + 1 - bz) + 256·j. -/
theorem off3_zP (c : Dev nD) (j : Fin 8) (h : j.val < 16) :
    k0_off3 (zP c) (BitVec.ofNat 32 (256 * (⟨j.val, h⟩ : Fin 16).val)) = k0_off5 c (BitVec.ofNat 32 (256 * j.val)) := by
  rw [k0_off3_eq, k0_off5_eq]
  obtain ⟨h1, h2, h3⟩ := zP_coord c
  have hc : c.val < 16 := c.isLt
  rw [h1, h2, h3]
  congr 1
  dsimp only
  omega

/-- Chunk 8 + j of the quarter the y partner names as its own and chunk 8 + j of the quarter c got from its y partner
    both start at row 16384·(1 - x) + 4096·(2(1 - y) + bz) + 256·(8 + j). -/
theorem off3_yP (c : Dev nD) (j : Fin 8) (h : 8 + j.val < 16) :
    k0_off3 (yP c) (BitVec.ofNat 32 (256 * (⟨8 + j.val, h⟩ : Fin 16).val)) = k0_off6 c (BitVec.ofNat 32 (2048 + 256 * j.val)) := by
  rw [k0_off3_eq, k0_off6_eq]
  obtain ⟨h1, h2, h3⟩ := yP_coord c
  have hc : c.val < 16 := c.isLt
  rw [h1, h2, h3]
  congr 1
  dsimp only
  omega

end Regions
open Regions

theorem xDst_xP (c : Dev nD) (i : Fin 16) : xDst (xP c) i = qMine c i :=
  Memref.slice_unit_congr _ (off1_xP c i) _ _ _ _

theorem qMine_zP (c : Dev nD) (j : Fin 8) : qMine (zP c) ⟨j.val, by omega⟩ = qZlo c j :=
  Memref.slice_unit_congr _ (off3_zP c j _) _ _ _ _

theorem qMine_yP (c : Dev nD) (j : Fin 8) : qMine (yP c) ⟨8 + j.val, by omega⟩ = qYhi c j :=
  Memref.slice_unit_congr _ (off3_yP c j _) _ _ _ _

namespace Regions

/-- Bands of a device's result at equal first rows are the same elements, so holding one is holding the other. -/
theorem pts_out_congr (d : Dev nD) {size off off' : Fin S32768x1024.rank → ℕ} (h : off = off')
    (p : ∀ a, off a + size a ≤ S32768x1024.size a) (p' : ∀ a, off' a + size a ≤ S32768x1024.size a) (hs hs')
    (q : PosShare TreeShare) (f : Buf (Elt F) ((d : Thread nD τ).loc main_v1)) :
    (pts (F := F) d (outM.slice (Rect.unit off size p) hs) q f : sProp 𝕄)
      = pts d (outM.slice (Rect.unit off' size p') hs') q f := by
  subst h; rfl

end Regions

theorem pts_xDst_xP (d c : Dev nD) (i : Fin 16) (q : PosShare TreeShare) (f : Buf (Elt F) ((d : Thread nD τ).loc main_v1)) :
    (pts (F := F) d (xDst (xP c) i) q f : sProp 𝕄) = pts d (qMine c i) q f :=
  pts_out_congr d (off1_xP c i) _ _ _ _ q f

theorem pts_qMine_zP (d c : Dev nD) (j : Fin 8) (q : PosShare TreeShare) (f : Buf (Elt F) ((d : Thread nD τ).loc main_v1)) :
    (pts (F := F) d (qMine (zP c) ⟨j.val, Nat.lt_of_lt_of_le j.isLt (Nat.le_of_ble_eq_true rfl)⟩) q f : sProp 𝕄) = pts d (qZlo c j) q f :=
  pts_out_congr d (off3_zP c j _) _ _ _ _ q f

theorem pts_qMine_yP (d c : Dev nD) (j : Fin 8) (q : PosShare TreeShare) (f : Buf (Elt F) ((d : Thread nD τ).loc main_v1)) :
    (pts (F := F) d (qMine (yP c) ⟨8 + j.val, Nat.add_lt_add_left j.isLt 8⟩) q f : sProp 𝕄) = pts d (qYhi c j) q f :=
  pts_out_congr d (off3_yP c j _) _ _ _ _ q f

/-- The same read from the sender's side: what p sends as chunk i is chunk i of its x partner's own quarter. -/
theorem pts_xDst (d p : Dev nD) (i : Fin 16) (q : PosShare TreeShare) (f : Buf (Elt F) ((d : Thread nD τ).loc main_v1)) :
    (pts (F := F) d (xDst p i) q f : sProp 𝕄) = pts d (qMine (xP p) i) q f := by
  have h := pts_xDst_xP (F := F) d (xP p) i q f
  rw [xP_xP] at h
  exact h

namespace Regions

/-! ## Bands of rows

An element's row is a number; a band is the elements whose row lies in an interval. Bands at intervals apart are
disjoint, a band splits at any row inside it, and a band of k·n rows is k bands of n rows. -/

section Bands

variable {ℓ : Loc nD τ sig} (ρ : Idx ℓ → ℕ)

/-- The elements whose row lies in [lo, hi). -/
def band (lo hi : ℕ) : Finset (Idx ℓ) := Finset.univ.filter fun x => lo ≤ ρ x ∧ ρ x < hi

theorem mem_band {lo hi : ℕ} {x : Idx ℓ} : x ∈ band ρ lo hi ↔ lo ≤ ρ x ∧ ρ x < hi := by
  unfold band; rw [Finset.mem_filter]; exact ⟨fun h => h.2, fun h => ⟨Finset.mem_univ _, h⟩⟩

theorem band_congr {lo hi lo' hi' : ℕ} (h1 : lo = lo') (h2 : hi = hi') : band ρ lo hi = band ρ lo' hi' := by
  subst h1 h2; rfl

theorem band_disjoint {lo hi lo' hi' : ℕ} (h : hi ≤ lo' ∨ hi' ≤ lo) : Disjoint (band ρ lo hi) (band ρ lo' hi') := by
  rw [Finset.disjoint_left]; intro x h1 h2; rw [mem_band] at h1 h2; omega

theorem band_univ {R : ℕ} (h : ∀ x, ρ x < R) : band ρ 0 R = Finset.univ := by
  ext x; rw [mem_band]; exact ⟨fun _ => Finset.mem_univ _, fun _ => ⟨Nat.zero_le _, h x⟩⟩

/-- Holding two sets apart is holding their union. -/
theorem pointsTo_union_eq {I J : Finset (Idx ℓ)} (h : Disjoint I J) (q : PosShare TreeShare) (f : Buf (Elt F) ℓ) :
    (ℓ ↦[I ∪ J]{q} f : sProp 𝕄) = iprop((ℓ ↦[I]{q} f) ∗ ℓ ↦[J]{q} f) :=
  BI.equiv_iff.mp ⟨(pointsTo_union h).1, (pointsTo_union h).2⟩

/-- A band of k·n rows held is its k bands of n rows held, each under whatever name its elements go by. -/
theorem pointsTo_band_tile {k : ℕ} (K : Fin k → Finset (Idx ℓ)) (lo n : ℕ) (hn : 0 < n)
    (hK : ∀ i, K i = band ρ (lo + n * i.val) (lo + n * i.val + n)) (q : PosShare TreeShare) (f : Buf (Elt F) ℓ) :
    (ℓ ↦[band ρ lo (lo + n * k)]{q} f : sProp 𝕄) = bigSep Finset.univ fun i => ℓ ↦[K i]{q} f := by
  have hcov : band ρ lo (lo + n * k) = Finset.univ.biUnion K := by
    ext x; rw [mem_band, Finset.mem_biUnion]; constructor
    · rintro ⟨h1, h2⟩
      have hd : (ρ x - lo) / n < k := Nat.div_lt_of_lt_mul (by omega)
      refine ⟨⟨(ρ x - lo) / n, hd⟩, Finset.mem_univ _, ?_⟩
      rw [hK, mem_band]
      have e1 := Nat.mul_div_le (ρ x - lo) n
      have e2 := Nat.lt_mul_div_succ (ρ x - lo) hn
      rw [Nat.mul_add, Nat.mul_one] at e2
      dsimp only
      omega
    · rintro ⟨i, _, hi⟩
      rw [hK, mem_band] at hi
      have h3 := Nat.mul_le_mul_left n (show i.val + 1 ≤ k from i.isLt)
      rw [Nat.mul_add, Nat.mul_one] at h3
      omega
  rw [hcov]
  refine pointsTo_biUnion _ _ fun i _ j _ hij => ?_
  rw [hK, hK]
  have hne : i.val ≠ j.val := fun e => hij (Fin.ext e)
  apply band_disjoint
  rcases Nat.lt_or_gt_of_ne hne with h | h
  · have h3 := Nat.mul_le_mul_left n (show i.val + 1 ≤ j.val from h)
    rw [Nat.mul_add, Nat.mul_one] at h3; omega
  · have h3 := Nat.mul_le_mul_left n (show j.val + 1 ≤ i.val from h)
    rw [Nat.mul_add, Nat.mul_one] at h3; omega

end Bands

/-! ## The chunks of the result and of the block as bands -/

/-- The row of an element of a device's result. -/
def rowO (d : Dev nD) : Idx ((d : Thread nD τ).loc main_v1) → ℕ := fun idx => (idx 0).val
/-- The row of an element of a device's block. -/
def rowI (d : Dev nD) : Idx ((d : Thread nD τ).loc main_arg0) → ℕ := fun idx => (idx 0).val

theorem rowO_lt (d : Dev nD) (x : Idx ((d : Thread nD τ).loc main_v1)) : rowO d x < 32768 := (x 0).isLt
theorem rowI_lt (d : Dev nD) (x : Idx ((d : Thread nD τ).loc main_arg0)) : rowI d x < 16384 := (x 0).isLt

/-- A slice of n whole rows of the result from row r is the band [r, r + n). -/
theorem out_set (d : Dev nD) {off : Fin S32768x1024.rank → ℕ} {n : ℕ}
    {inb : ∀ a, off a + (![n, 1024] : Fin 2 → ℕ) a ≤ S32768x1024.size a} {hs} (r : ℕ) (hoff : off = ![r, 0]) :
    ((outM.slice (Rect.unit (s := S32768x1024) off ![n, 1024] inb) hs).view.set : Finset (Idx ((d : Thread nD τ).loc main_v1)))
      = band (rowO d) r (r + n) := by
  subst hoff
  ext idx
  rw [mem_band]
  show idx ∈ ((View.whole main_v1).slice (Rect.unit (s := S32768x1024) ![r, 0] ![n, 1024] inb)).set ↔ _
  rw [View.set_slice_whole, Rect.mem_set_unit]
  have hlt : (idx 1).val < 1024 := (idx 1).isLt
  constructor
  · intro h
    have h0 : r ≤ (idx 0).val ∧ (idx 0).val < r + n := h 0
    exact h0
  · intro h
    have h0 : r ≤ (idx 0).val ∧ (idx 0).val < r + n := h
    have h1 : 0 ≤ (idx 1).val ∧ (idx 1).val < 0 + 1024 := ⟨Nat.zero_le _, by omega⟩
    exact Fin.forall_fin_two.mpr ⟨h0, h1⟩

/-- A slice of n whole rows of the block from row r is the band [r, r + n). -/
theorem in_set (d : Dev nD) {off : Fin S16384x1024.rank → ℕ} {n : ℕ}
    {inb : ∀ a, off a + (![n, 1024] : Fin 2 → ℕ) a ≤ S16384x1024.size a} {hs} (r : ℕ) (hoff : off = ![r, 0]) :
    ((inM.slice (Rect.unit (s := S16384x1024) off ![n, 1024] inb) hs).view.set : Finset (Idx ((d : Thread nD τ).loc main_arg0)))
      = band (rowI d) r (r + n) := by
  subst hoff
  ext idx
  rw [mem_band]
  show idx ∈ ((View.whole main_arg0).slice (Rect.unit (s := S16384x1024) ![r, 0] ![n, 1024] inb)).set ↔ _
  rw [View.set_slice_whole, Rect.mem_set_unit]
  have hlt : (idx 1).val < 1024 := (idx 1).isLt
  constructor
  · intro h
    have h0 : r ≤ (idx 0).val ∧ (idx 0).val < r + n := h 0
    exact h0
  · intro h
    have h0 : r ≤ (idx 0).val ∧ (idx 0).val < r + n := h
    have h1 : 0 ≤ (idx 1).val ∧ (idx 1).val < 0 + 1024 := ⟨Nat.zero_le _, by omega⟩
    exact Fin.forall_fin_two.mpr ⟨h0, h1⟩

/-- The first row of the quarter device p names as its own: 16384·(1 - x) + 4096·(2y + bz). -/
def qLo (p : Dev nD) : ℕ := (8192 * (p.val / 4 % 2) + 4096 * (p.val % 4 % 2) + 16384) - 16384 * (p.val / 8)
/-- The first row of the quarter device p got from its z partner: 16384·(1 - x) + 4096·(2y + 1 - bz). -/
def zLo (p : Dev nD) : ℕ := (8192 * (p.val / 4 % 2) + 20480) - (16384 * (p.val / 8) + 4096 * (p.val % 4 % 2))
/-- Row 2048 of the quarter device p got from its y partner: 16384·(1 - x) + 4096·(2(1 - y) + bz) + 2048. -/
def yLo (p : Dev nD) : ℕ := (4096 * (p.val % 4 % 2) + 26624) - (16384 * (p.val / 8) + 8192 * (p.val / 4 % 2))

/-- The five quarters' first rows, cleared of subtraction: with x, y, bz the device's coordinates. -/
theorem qLo_self : ∀ c : Dev nD, qLo c + 16384 * (c.val / 8) = 16384 + 8192 * (c.val / 4 % 2) + 4096 * (c.val % 4 % 2) := by decide
theorem qLo_yP : ∀ c : Dev nD, qLo (yP c) + 16384 * (c.val / 8) + 8192 * (c.val / 4 % 2) = 24576 + 4096 * (c.val % 4 % 2) := by decide
theorem qLo_zP : ∀ c : Dev nD, qLo (zP c) + 16384 * (c.val / 8) + 4096 * (c.val % 4 % 2) = 20480 + 8192 * (c.val / 4 % 2) := by decide
theorem zLo_yP : ∀ c : Dev nD, zLo (yP c) + 16384 * (c.val / 8) + 8192 * (c.val / 4 % 2) + 4096 * (c.val % 4 % 2) = 28672 := by decide
theorem yLo_zP : ∀ c : Dev nD, yLo (zP c) + 16384 * (c.val / 8) + 8192 * (c.val / 4 % 2) + 4096 * (c.val % 4 % 2) = 30720 := by decide

section Tiles

variable (d p : Dev nD) (q : PosShare TreeShare) (f : Buf (Elt F) ((d : Thread nD τ).loc main_v1))

/-- Device p's own half, in d's result: sixteen chunks of 1024 rows. -/
theorem st_tile :
    (((d : Thread nD τ).loc main_v1) ↦[band (rowO d) (16384 * (p.val / 8)) (16384 * (p.val / 8) + 1024 * 16)]{q} f : sProp 𝕄)
      = bigSep Finset.univ fun n : Fin 16 => pts d (stDst p n) q f :=
  pointsTo_band_tile (rowO d) (fun n : Fin 16 => (stDst p n).view.set) _ 1024 (by omega)
    (fun n => out_set d _ (k0_off4_eq p n)) q f

/-- The quarter p names as its own, in d's result: sixteen chunks of 256 rows. -/
theorem qMine_tile :
    (((d : Thread nD τ).loc main_v1) ↦[band (rowO d) (qLo p) (qLo p + 256 * 16)]{q} f : sProp 𝕄)
      = bigSep Finset.univ fun i : Fin 16 => pts d (qMine p i) q f :=
  pointsTo_band_tile (rowO d) (fun i : Fin 16 => (qMine p i).view.set) _ 256 (by omega)
    (fun i => (out_set d _ (k0_off3_eq p i)).trans (by
      have hp : p.val < 16 := p.isLt
      exact band_congr _ (by unfold qLo; omega) (by unfold qLo; omega))) q f

/-- The first half of the quarter p got from its z partner, in d's result: eight chunks of 256 rows. -/
theorem qZlo_tile :
    (((d : Thread nD τ).loc main_v1) ↦[band (rowO d) (zLo p) (zLo p + 256 * 8)]{q} f : sProp 𝕄)
      = bigSep Finset.univ fun j : Fin 8 => pts d (qZlo p j) q f :=
  pointsTo_band_tile (rowO d) (fun j : Fin 8 => (qZlo p j).view.set) _ 256 (by omega)
    (fun j => (out_set d _ (k0_off5_eq p j)).trans (by
      have hp : p.val < 16 := p.isLt
      exact band_congr _ (by unfold zLo; omega) (by unfold zLo; omega))) q f

/-- The second half of the quarter p got from its y partner, in d's result: eight chunks of 256 rows. -/
theorem qYhi_tile :
    (((d : Thread nD τ).loc main_v1) ↦[band (rowO d) (yLo p) (yLo p + 256 * 8)]{q} f : sProp 𝕄)
      = bigSep Finset.univ fun j : Fin 8 => pts d (qYhi p j) q f :=
  pointsTo_band_tile (rowO d) (fun j : Fin 8 => (qYhi p j).view.set) _ 256 (by omega)
    (fun j => (out_set d _ (k0_off6_eq p j)).trans (by
      have hp : p.val < 16 := p.isLt
      exact band_congr _ (by unfold yLo; omega) (by unfold yLo; omega))) q f

end Tiles

end Regions

namespace Regions

/-! ## The rotating buffers and the loads' chunks: blocks along the first axis -/

/-- Rotating buffer k is the elements of the scratch whose first coordinate is k. -/
abbrev vbSet (k : Fin 4) : Finset S4x1024x1024.Idx :=
  (Rect.unit (s := S4x1024x1024) ![k.val, 0, 0] S1x1024x1024.size (vs_inb k)).set
/-- The source of load n is rows 1024·n … of the block. -/
abbrev ldSet (n : Fin 16) : Finset S16384x1024.Idx :=
  (Rect.unit (s := S16384x1024) ![1024 * n.val, 0] S1024x1024.size (ld_inb n)).set

theorem vslot_set (k : Fin 4) : (vslot k).view.set = vbSet k := by
  simp only [Memref.view_squeeze, View.set_reshape]; exact View.set_slice_whole _ _
theorem ldSrc_set (n : Fin 16) : (ldSrc n).view.set = ldSet n := View.set_slice_whole _ _

theorem vbSet_disjoint (k k' : Fin 4) (h : k ≠ k') : Disjoint (vbSet k) (vbSet k') :=
  Ring.lead_disjoint (s := S4x1024x1024) (0 : Fin 3) 1 (fun k : Fin 4 => (![k.val, 0, 0] : Fin 3 → ℕ)) S1x1024x1024.size vs_inb
    (fun k => by simp) rfl k k' h
theorem vbSet_cover : Finset.univ.biUnion vbSet = Finset.univ :=
  Ring.lead_cover (s := S4x1024x1024) (0 : Fin 3) 1 (fun k : Fin 4 => (![k.val, 0, 0] : Fin 3 → ℕ)) S1x1024x1024.size vs_inb
    (fun k => by simp) (fun k a ha => by fin_cases a <;> first | exact absurd rfl ha | rfl) rfl
    (fun a ha => by fin_cases a <;> first | exact absurd rfl ha | rfl) rfl

theorem ldSet_disjoint (n n' : Fin 16) (h : n ≠ n') : Disjoint (ldSet n) (ldSet n') :=
  Ring.lead_disjoint (s := S16384x1024) (0 : Fin 2) 1024 (fun n : Fin 16 => (![1024 * n.val, 0] : Fin 2 → ℕ)) S1024x1024.size ld_inb
    (fun n => by simp) rfl n n' h
theorem ldSet_cover : Finset.univ.biUnion ldSet = Finset.univ :=
  Ring.lead_cover (s := S16384x1024) (0 : Fin 2) 1024 (fun n : Fin 16 => (![1024 * n.val, 0] : Fin 2 → ℕ)) S1024x1024.size ld_inb
    (fun n => by simp) (fun n a ha => by fin_cases a <;> first | exact absurd rfl ha | rfl) rfl
    (fun a ha => by fin_cases a <;> first | exact absurd rfl ha | rfl) rfl

theorem pts_vslot (c : Dev nD) (k : Fin 4) (q : PosShare TreeShare) (g : Buf (Elt F) ((c : Thread nD τ).loc cc0_scratch0)) :
    (pts (F := F) c (vslot k) q g : sProp 𝕄) = (((c : Thread nD τ).loc cc0_scratch0) ↦[vbSet k]{q} g) := by
  show ((((c : Thread nD τ).loc cc0_scratch0) ↦[(vslot k).view.set]{q} g) : sProp 𝕄) = _
  rw [vslot_set]

theorem pts_ldSrc (c : Dev nD) (n : Fin 16) (q : PosShare TreeShare) (f : Buf (Elt F) ((c : Thread nD τ).loc main_arg0)) :
    (pts (F := F) c (ldSrc n) q f : sProp 𝕄) = (((c : Thread nD τ).loc main_arg0) ↦[ldSet n]{q} f) := by
  show ((((c : Thread nD τ).loc main_arg0) ↦[(ldSrc n).view.set]{q} f) : sProp 𝕄) = _
  rw [ldSrc_set]

end Regions

/-- The rotating buffers held whole are the four buffers held. -/
theorem vb_parts (c : Dev nD) (g : Buf (Elt F) ((c : Thread nD τ).loc cc0_scratch0)) :
    ((((c : Thread nD τ).loc cc0_scratch0) ↦{fullShare} g) : sProp 𝕄) ⊣⊢ bigSep Finset.univ fun k : Fin 4 => pts c (vslot k) fullShare g := by
  refine biEntails_of_eq ?_
  rw [BI.bigSep_congr (fun k _ => pts_vslot (F := F) c k fullShare g)]
  exact Ring.pointsTo_blocks (ℓ := (c : Thread nD τ).loc cc0_scratch0) vbSet vbSet_disjoint vbSet_cover g

/-- The block held is the sixteen load sources held. -/
theorem in_loads (c : Dev nD) (q : PosShare TreeShare) (f : Buf (Elt F) ((c : Thread nD τ).loc main_arg0)) :
    ((((c : Thread nD τ).loc main_arg0) ↦{q} f) : sProp 𝕄) ⊣⊢ bigSep Finset.univ fun n : Fin 16 => pts c (ldSrc n) q f := by
  refine biEntails_of_eq ?_
  rw [BI.bigSep_congr (fun n _ => pts_ldSrc (F := F) c n q f)]
  exact Ring.pointsTo_blocks (ℓ := (c : Thread nD τ).loc main_arg0) ldSet ldSet_disjoint ldSet_cover f

/-- The four rotating buffers, each at whatever it holds, join into the scratch whole at some contents. -/
theorem vb_join (c : Dev nD) :
    (bigSep Finset.univ fun k : Fin 4 => iprop(∃ g, pts (F := F) c (vslot k) fullShare g) : sProp 𝕄)
      ⊢ iprop(∃ g, (((c : Thread nD τ).loc cc0_scratch0) ↦{fullShare} g)) := by
  have e : (bigSep Finset.univ fun k : Fin 4 => iprop(∃ g, pts (F := F) c (vslot k) fullShare g) : sProp 𝕄)
      = bigSep Finset.univ fun k : Fin 4 => iprop(∃ g, (((c : Thread nD τ).loc cc0_scratch0) ↦[vbSet k]{fullShare} g)) :=
    BI.bigSep_congr fun k _ => by
      show (iprop(∃ g, (((c : Thread nD τ).loc cc0_scratch0) ↦[(vslot k).view.set]{fullShare} g)) : sProp 𝕄) = _
      rw [vslot_set]
  have hsplit : (bigSep Finset.univ fun k : Fin 4 => iprop(∃ g, (((c : Thread nD τ).loc cc0_scratch0) ↦[vbSet k]{fullShare} g)) : sProp 𝕄)
      = iprop((∃ g, (((c : Thread nD τ).loc cc0_scratch0) ↦[vbSet 0]{fullShare} g))
          ∗ bigSep (Finset.univ.erase (0 : Fin 4)) fun k : Fin 4 => iprop(∃ g, (((c : Thread nD τ).loc cc0_scratch0) ↦[vbSet k]{fullShare} g))) :=
    BI.bigSep_univ_split (0 : Fin 4)
  rw [e]
  refine (Entails.of_eq hsplit).trans ?_
  iintro ⟨⟨%g0, H0⟩, HR⟩
  iapply (Ring.pointsTo_blocks_join_exists (ℓ := (c : Thread nD τ).loc cc0_scratch0) (q := fullShare) vbSet vbSet_disjoint vbSet_cover g0)
  iapply (Entails.of_eq hsplit.symm)
  isplitl [H0]
  · iexists g0; iexact H0
  · iexact HR

/-! ## The quarter of the block that goes to the x partner -/

/-- The elements of c's block in its sixteen chunks for the x partner. -/
def xQuarter (c : Dev nD) : Finset (Idx ((c : Thread nD τ).loc main_arg0)) :=
  Finset.univ.biUnion fun i : Fin 16 => (xSrc c i).view.set

/-- The block held is its sixteen chunks for the x partner held, and the rest of it held. -/
theorem in_quarter (c : Dev nD) (q : PosShare TreeShare) (f : Buf (Elt F) ((c : Thread nD τ).loc main_arg0)) :
    ((((c : Thread nD τ).loc main_arg0) ↦{q} f) : sProp 𝕄) ⊣⊢ iprop((bigSep Finset.univ fun i : Fin 16 => pts c (xSrc c i) q f)
      ∗ (((c : Thread nD τ).loc main_arg0) ↦[Finset.univ \ xQuarter c]{q} f)) := by
  have h2 : ((((c : Thread nD τ).loc main_arg0) ↦[xQuarter c]{q} f) : sProp 𝕄) = bigSep Finset.univ fun i : Fin 16 => pts c (xSrc c i) q f :=
    pointsTo_biUnion _ _ fun i _ j _ hij => by
      have hs : ∀ t : Fin 16, ((xSrc c t).view.set : Finset (Idx ((c : Thread nD τ).loc main_arg0)))
          = band (rowI c) (8192 * (c.val / 4 % 2) + 4096 * (c.val % 4 % 2) + 256 * t.val) (8192 * (c.val / 4 % 2) + 4096 * (c.val % 4 % 2) + 256 * t.val + 256) :=
        fun t => in_set c _ (k0_off2_eq c t)
      rw [hs i, hs j]
      have hne : i.val ≠ j.val := fun e => hij (Fin.ext e)
      exact band_disjoint _ (by omega)
  rw [← h2]
  exact pointsTo_split_subset (Finset.subset_univ _)

/-! ## The result: eighty chunks -/

/-- The result held whole is c's own half in sixteen chunks, the quarter from the x partner, the quarter from the y
    partner and the quarter from the z partner in sixteen chunks each, and the fourth quarter in eight chunks through
    the y partner and eight through the z partner: the six bands are apart and their rows are all the rows. -/
theorem out_parts (c : Dev nD) (f : Buf (Elt F) ((c : Thread nD τ).loc main_v1)) :
    ((((c : Thread nD τ).loc main_v1) ↦{fullShare} f) : sProp 𝕄) ⊣⊢ iprop(
        (bigSep Finset.univ fun n : Fin 16 => pts c (stDst c n) fullShare f)
      ∗ (bigSep Finset.univ fun i : Fin 16 => pts c (qMine c i) fullShare f)
      ∗ (bigSep Finset.univ fun i : Fin 16 => pts c (qMine (yP c) i) fullShare f)
      ∗ (bigSep Finset.univ fun i : Fin 16 => pts c (qMine (zP c) i) fullShare f)
      ∗ (bigSep Finset.univ fun j : Fin 8 => pts c (qZlo (yP c) j) fullShare f)
      ∗ (bigSep Finset.univ fun j : Fin 8 => pts c (qYhi (zP c) j) fullShare f)) := by
  have hc : c.val < 16 := c.isLt
  have e1 := qLo_self c
  have e2 := qLo_yP c
  have e3 := qLo_zP c
  have e4 := zLo_yP c
  have e5 := yLo_zP c
  rw [← st_tile c c fullShare f, ← qMine_tile c c fullShare f, ← qMine_tile c (yP c) fullShare f,
    ← qMine_tile c (zP c) fullShare f, ← qZlo_tile c (yP c) fullShare f, ← qYhi_tile c (zP c) fullShare f]
  have hcov : (Finset.univ : Finset (Idx ((c : Thread nD τ).loc main_v1)))
      = band (rowO c) (16384 * (c.val / 8)) (16384 * (c.val / 8) + 1024 * 16)
        ∪ (band (rowO c) (qLo c) (qLo c + 256 * 16)
        ∪ (band (rowO c) (qLo (yP c)) (qLo (yP c) + 256 * 16)
        ∪ (band (rowO c) (qLo (zP c)) (qLo (zP c) + 256 * 16)
        ∪ (band (rowO c) (zLo (yP c)) (zLo (yP c) + 256 * 8)
        ∪ band (rowO c) (yLo (zP c)) (yLo (zP c) + 256 * 8))))) := by
    ext x
    have hx := rowO_lt c x
    simp only [Finset.mem_union, mem_band, Finset.mem_univ, true_iff]
    omega
  have hd1 : Disjoint (band (rowO c) (16384 * (c.val / 8)) (16384 * (c.val / 8) + 1024 * 16))
        (band (rowO c) (qLo c) (qLo c + 256 * 16)
        ∪ (band (rowO c) (qLo (yP c)) (qLo (yP c) + 256 * 16)
        ∪ (band (rowO c) (qLo (zP c)) (qLo (zP c) + 256 * 16)
        ∪ (band (rowO c) (zLo (yP c)) (zLo (yP c) + 256 * 8)
        ∪ band (rowO c) (yLo (zP c)) (yLo (zP c) + 256 * 8))))) := by
    rw [Finset.disjoint_left]; intro x h1 h2
    simp only [Finset.mem_union, mem_band] at h1 h2
    omega
  have hd2 : Disjoint (band (rowO c) (qLo c) (qLo c + 256 * 16))
        (band (rowO c) (qLo (yP c)) (qLo (yP c) + 256 * 16)
        ∪ (band (rowO c) (qLo (zP c)) (qLo (zP c) + 256 * 16)
        ∪ (band (rowO c) (zLo (yP c)) (zLo (yP c) + 256 * 8)
        ∪ band (rowO c) (yLo (zP c)) (yLo (zP c) + 256 * 8)))) := by
    rw [Finset.disjoint_left]; intro x h1 h2
    simp only [Finset.mem_union, mem_band] at h1 h2
    omega
  have hd3 : Disjoint (band (rowO c) (qLo (yP c)) (qLo (yP c) + 256 * 16))
        (band (rowO c) (qLo (zP c)) (qLo (zP c) + 256 * 16)
        ∪ (band (rowO c) (zLo (yP c)) (zLo (yP c) + 256 * 8)
        ∪ band (rowO c) (yLo (zP c)) (yLo (zP c) + 256 * 8))) := by
    rw [Finset.disjoint_left]; intro x h1 h2
    simp only [Finset.mem_union, mem_band] at h1 h2
    omega
  have hd4 : Disjoint (band (rowO c) (qLo (zP c)) (qLo (zP c) + 256 * 16))
        (band (rowO c) (zLo (yP c)) (zLo (yP c) + 256 * 8)
        ∪ band (rowO c) (yLo (zP c)) (yLo (zP c) + 256 * 8)) := by
    rw [Finset.disjoint_left]; intro x h1 h2
    simp only [Finset.mem_union, mem_band] at h1 h2
    omega
  have hd5 : Disjoint (band (rowO c) (zLo (yP c)) (zLo (yP c) + 256 * 8))
        (band (rowO c) (yLo (zP c)) (yLo (zP c) + 256 * 8)) := by
    rw [Finset.disjoint_left]; intro x h1 h2
    simp only [mem_band] at h1 h2
    omega
  rw [hcov, pointsTo_union_eq hd1, pointsTo_union_eq hd2, pointsTo_union_eq hd3, pointsTo_union_eq hd4,
    pointsTo_union_eq hd5]

end Cert.Kernel.AG

end
-- ==== Proof.KAGValues.lean ====
/- What every copy lands.

   A copy writes, on its destination chunk, what it read from its source chunk. Each chunk is a rectangle of rows of a
   buffer, so an element of the destination chunk is the image of one chunk coordinate; the write puts there the
   source's value at the same chunk coordinate. The schedule names the contents of a buffer by one whole-array function
   (the block as launched, the final result, a rotating buffer after a load); here each landing is shown to agree with
   that function on the chunk's element set, which is all a points-to on the chunk says. -/
import proofs.«900678_g7700000000000679_dist_ag_v7x_xyz2x2x4_x_m16384_n1024_f32_1_alg».proof.Proof.KAGSched
import Idealize.ShloMosaic.Lib.Pipeline.Value
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A landing, in general -/

/-- A whole-mask write through the destination chunk of what was read through the source chunk holds, on the
    destination chunk's elements, any contents that agree with the source's at every chunk coordinate. -/
theorem lands_congr {sp sp' : Space} {s : Shape} {e : EltTy} (cd : Dev nD)
    (D : Memref sig .tc sp s e) (S : Memref sig .tc sp' s e)
    (fd g : Buf (Elt F) (D.view.loc (cd : Thread nD τ))) (fs : S.view.ty.Contents (Elt F))
    (h : ∀ x : s.Idx, HEq (fs (S.view.emb x)) (g (D.view.emb x))) :
    pts (F := F) cd D fullShare (D.view.write (Elt F) fd (S.view.read (Elt F) fs) Finset.univ) = pts cd D fullShare g := by
  refine pointsTo_congr fun i hi => ?_
  obtain ⟨x, rfl⟩ := View.exists_emb_of_mem_set D.view hi
  rw [View.write_emb_of_mem _ _ (Finset.mem_univ x), View.read_apply]
  exact eq_of_heq ((cast_heq _ _).trans ((cast_heq _ _).trans (h x)))

/-! ## Reading the named contents at an index -/

/-- Two reads of launched blocks agree when the devices and the two coordinates do. -/
theorem blk_at {d d' : Dev nD} (a a' : S16384x1024.Idx) (hd : d = d') (h0 : (a 0).val = (a' 0).val)
    (h1 : (a 1).val = (a' 1).val) : blk m d a = blk m d' a' := by
  subst hd
  have e : a = a' := Shape.idx_ext₂ h0 h1
  rw [e]

/-- The final result at an index: the owner's block at the row modulo 16384. -/
theorem Xf_apply (c : Dev nD) (idx : S32768x1024.Idx) :
    Xf m c idx = blk m (owner c (idx 0).val)
      (ValueIdx.ix2 (⟨(idx 0).val % 16384, Nat.mod_lt _ (by decide)⟩ : Fin 16384) (⟨(idx 1).val, (idx 1).isLt⟩ : Fin 1024)) := rfl

theorem VB_lt (n : Fin 16) (idx : S4x1024x1024.Idx) : 1024 * n.val + (idx 1).val < 16384 := by
  have h1 : (idx 1).val < 1024 := (idx 1).isLt
  have h2 : n.val < 16 := n.isLt
  omega

/-- A rotating buffer after load n at an index: the block at row 1024 n plus the index's row. -/
theorem VB_apply (c : Dev nD) (n : Fin 16) (idx : S4x1024x1024.Idx) :
    VB m c n idx = blk m c
      (ValueIdx.ix2 (⟨1024 * n.val + (idx 1).val, VB_lt n idx⟩ : Fin 16384) (⟨(idx 2).val, (idx 2).isLt⟩ : Fin 1024)) := rfl

/-! ## Owners, by quarter of the result

The owner of a row depends only on which of the eight quarters of 4096 rows the row is in; over the quarter and the
sixteen devices every equation of owners below is a finite check. -/

/-- The owner of the rows of quarter k (of eight) of c's result. -/
def ownerQ (c : Dev nD) (k : ℕ) : Dev nD := if k / 4 = c.val / 8 then c else org c (k % 4)

theorem owner_eq (c : Dev nD) (r : ℕ) : owner c r = ownerQ c (r / 4096) := by
  unfold owner ownerQ
  rw [show r / 4096 / 4 = r / 16384 by omega, show r / 4096 % 4 = r % 16384 / 4096 by omega]

/-- A row of c's own half is c's. -/
theorem owner_self (c : Dev nD) (r : ℕ) (h : r / 16384 = c.val / 8) : owner c r = c := by
  unfold owner; exact if_pos h

/-- The quarter c sends to its x partner is, there, owned by c. -/
theorem ownerQ_x : ∀ c : Dev nD, ownerQ (xP c) (4 * (c.val / 8) + 2 * (c.val / 4 % 2) + c.val % 4 % 2) = c := by
  first | decide | decide +kernel
/-- The quarter c got from its x partner has the same owner on c's y partner and on its z partner. -/
theorem ownerQ_yd : ∀ c : Dev nD, ownerQ (yP c) (4 * (1 - c.val / 8) + 2 * (c.val / 4 % 2) + c.val % 4 % 2)
    = ownerQ c (4 * (1 - c.val / 8) + 2 * (c.val / 4 % 2) + c.val % 4 % 2) := by
  first | decide | decide +kernel
theorem ownerQ_zd : ∀ c : Dev nD, ownerQ (zP c) (4 * (1 - c.val / 8) + 2 * (c.val / 4 % 2) + c.val % 4 % 2)
    = ownerQ c (4 * (1 - c.val / 8) + 2 * (c.val / 4 % 2) + c.val % 4 % 2) := by
  first | decide | decide +kernel
/-- The quarter c got from its z partner has the same owner on c's y partner. -/
theorem ownerQ_ydg : ∀ c : Dev nD, ownerQ (yP c) (4 * (1 - c.val / 8) + 2 * (c.val / 4 % 2) + (1 - c.val % 4 % 2))
    = ownerQ c (4 * (1 - c.val / 8) + 2 * (c.val / 4 % 2) + (1 - c.val % 4 % 2)) := by
  first | decide | decide +kernel
/-- The quarter c got from its y partner has the same owner on c's z partner. -/
theorem ownerQ_zdg : ∀ c : Dev nD, ownerQ (zP c) (4 * (1 - c.val / 8) + 2 * (1 - c.val / 4 % 2) + c.val % 4 % 2)
    = ownerQ c (4 * (1 - c.val / 8) + 2 * (1 - c.val / 4 % 2) + c.val % 4 % 2) := by
  first | decide | decide +kernel

/-! ## Where a chunk coordinate sits in its buffer: the rectangle's offset plus the coordinate -/

theorem xDst_row (c : Dev nD) (i : Fin 16) (x : S256x1024.Idx) :
    (((xDst c i).view.emb x : S32768x1024.Idx) 0).val
      = 16384 * (c.val / 8) + 8192 * (c.val / 4 % 2) + 4096 * (c.val % 4 % 2) + 256 * i.val + (x 0).val := by
  have e : (((xDst c i).view.emb x : S32768x1024.Idx) 0).val
      = (k0_off1 c (BitVec.ofNat 32 (256 * i.val))) 0 + 1 * (x 0).val := rfl
  rw [e, Gen.k0_off1_eq]; simp
theorem xDst_col (c : Dev nD) (i : Fin 16) (x : S256x1024.Idx) :
    (((xDst c i).view.emb x : S32768x1024.Idx) 1).val = (x 1).val := by
  have e : (((xDst c i).view.emb x : S32768x1024.Idx) 1).val
      = (k0_off1 c (BitVec.ofNat 32 (256 * i.val))) 1 + 1 * (x 1).val := rfl
  rw [e, Gen.k0_off1_eq]; simp

theorem xSrc_row (c : Dev nD) (i : Fin 16) (x : S256x1024.Idx) :
    (((xSrc c i).view.emb x : S16384x1024.Idx) 0).val
      = 8192 * (c.val / 4 % 2) + 4096 * (c.val % 4 % 2) + 256 * i.val + (x 0).val := by
  have e : (((xSrc c i).view.emb x : S16384x1024.Idx) 0).val
      = (k0_off2 c (BitVec.ofNat 32 (256 * i.val))) 0 + 1 * (x 0).val := rfl
  rw [e, Gen.k0_off2_eq]; simp
theorem xSrc_col (c : Dev nD) (i : Fin 16) (x : S256x1024.Idx) :
    (((xSrc c i).view.emb x : S16384x1024.Idx) 1).val = (x 1).val := by
  have e : (((xSrc c i).view.emb x : S16384x1024.Idx) 1).val
      = (k0_off2 c (BitVec.ofNat 32 (256 * i.val))) 1 + 1 * (x 1).val := rfl
  rw [e, Gen.k0_off2_eq]; simp

theorem qMine_row (c : Dev nD) (i : Fin 16) (x : S256x1024.Idx) :
    (((qMine c i).view.emb x : S32768x1024.Idx) 0).val
      = (8192 * (c.val / 4 % 2) + 4096 * (c.val % 4 % 2) + 256 * i.val + 16384) - 16384 * (c.val / 8) + (x 0).val := by
  have e : (((qMine c i).view.emb x : S32768x1024.Idx) 0).val
      = (k0_off3 c (BitVec.ofNat 32 (256 * i.val))) 0 + 1 * (x 0).val := rfl
  rw [e, Gen.k0_off3_eq]; simp

theorem qZlo_row (c : Dev nD) (j : Fin 8) (x : S256x1024.Idx) :
    (((qZlo c j).view.emb x : S32768x1024.Idx) 0).val
      = (8192 * (c.val / 4 % 2) + 256 * j.val + 20480) - (16384 * (c.val / 8) + 4096 * (c.val % 4 % 2)) + (x 0).val := by
  have e : (((qZlo c j).view.emb x : S32768x1024.Idx) 0).val
      = (k0_off5 c (BitVec.ofNat 32 (256 * j.val))) 0 + 1 * (x 0).val := rfl
  rw [e, Gen.k0_off5_eq]; simp

theorem qYhi_row (c : Dev nD) (j : Fin 8) (x : S256x1024.Idx) :
    (((qYhi c j).view.emb x : S32768x1024.Idx) 0).val
      = (4096 * (c.val % 4 % 2) + 256 * j.val + 26624) - (16384 * (c.val / 8) + 8192 * (c.val / 4 % 2)) + (x 0).val := by
  have e : (((qYhi c j).view.emb x : S32768x1024.Idx) 0).val
      = (k0_off6 c (BitVec.ofNat 32 (2048 + 256 * j.val))) 0 + 1 * (x 0).val := rfl
  rw [e, Gen.k0_off6_eq]; simp

theorem stDst_row (c : Dev nD) (n : Fin 16) (x : S1024x1024.Idx) :
    (((stDst c n).view.emb x : S32768x1024.Idx) 0).val = 16384 * (c.val / 8) + 1024 * n.val + (x 0).val := by
  have e : (((stDst c n).view.emb x : S32768x1024.Idx) 0).val
      = (k0_off4 c (BitVec.ofNat 32 (1024 * n.val))) 0 + 1 * (x 0).val := rfl
  rw [e, Gen.k0_off4_eq]; simp
theorem stDst_col (c : Dev nD) (n : Fin 16) (x : S1024x1024.Idx) :
    (((stDst c n).view.emb x : S32768x1024.Idx) 1).val = (x 1).val := by
  have e : (((stDst c n).view.emb x : S32768x1024.Idx) 1).val
      = (k0_off4 c (BitVec.ofNat 32 (1024 * n.val))) 1 + 1 * (x 1).val := rfl
  rw [e, Gen.k0_off4_eq]; simp

theorem ldSrc_row (n : Fin 16) (x : S1024x1024.Idx) :
    (((ldSrc n).view.emb x : S16384x1024.Idx) 0).val = 1024 * n.val + (x 0).val := by
  have e : (((ldSrc n).view.emb x : S16384x1024.Idx) 0).val
      = (![1024 * n.val, 0] : Fin 2 → ℕ) 0 + 1 * (x 0).val := rfl
  rw [e]; simp
theorem ldSrc_col (n : Fin 16) (x : S1024x1024.Idx) :
    (((ldSrc n).view.emb x : S16384x1024.Idx) 1).val = (x 1).val := by
  have e : (((ldSrc n).view.emb x : S16384x1024.Idx) 1).val
      = (![1024 * n.val, 0] : Fin 2 → ℕ) 1 + 1 * (x 1).val := rfl
  rw [e]; simp

/-- A rotating buffer is one plane of the three-axis buffer with the unit axis dropped: chunk coordinate (a, b) sits
    at (k, a, b). -/
theorem vslot_emb (k : Fin 4) (x : S1024x1024.Idx) :
    (((vslot k).view.emb x : S4x1024x1024.Idx) 1).val = (x 0).val
      ∧ (((vslot k).view.emb x : S4x1024x1024.Idx) 2).val = (x 1).val := by
  have e' := Shape.reshapeEquiv_cons_one (n := 2) (d := ![1024, 1024]) squeezes_S1x1024x1024_S1024x1024.numel_eq x
  have e1 : ((Shape.reshapeEquiv squeezes_S1x1024x1024_S1024x1024.numel_eq x : S1x1024x1024.Idx) 1).val = (x 0).val :=
    congrArg Fin.val (congrFun e' 1)
  have e2 : ((Shape.reshapeEquiv squeezes_S1x1024x1024_S1024x1024.numel_eq x : S1x1024x1024.Idx) 2).val = (x 1).val :=
    congrArg Fin.val (congrFun e' 2)
  constructor
  · show 0 + 1 * ((Shape.reshapeEquiv squeezes_S1x1024x1024_S1024x1024.numel_eq x : S1x1024x1024.Idx) 1).val = (x 0).val
    omega
  · show 0 + 1 * ((Shape.reshapeEquiv squeezes_S1x1024x1024_S1024x1024.numel_eq x : S1x1024x1024.Idx) 2).val = (x 1).val
    omega

/-! ## The landings -/

/-- A load: the rotating buffer takes rows 1024 n … of the block. -/
theorem ld_lands (c : Dev nD) (n : Fin 16) (k : Fin 4)
    (fd : Buf (Elt F) ((vslot k).view.loc ((c : Dev nD) : Thread nD τ))) :
    pts (F := F) c (vslot k) fullShare ((vslot k).view.write (Elt F) fd ((ldSrc n).view.read (Elt F) (blk m c)) Finset.univ)
      = pts c (vslot k) fullShare (VB m c n) := by
  refine lands_congr c (vslot k) (ldSrc n) fd _ (blk m c) fun x => heq_of_eq ?_
  refine Eq.trans ?_ (VB_apply m c n _).symm
  obtain ⟨h1, h2⟩ := vslot_emb k x
  refine blk_at m _ _ rfl ?_ ?_
  · show _ = 1024 * n.val + (((vslot k).view.emb x : S4x1024x1024.Idx) 1).val
    rw [h1]; exact ldSrc_row n x
  · show _ = (((vslot k).view.emb x : S4x1024x1024.Idx) 2).val
    rw [h2]; exact ldSrc_col n x

/-- The copy to the x partner: there the rows of the chunk are owned by c, and are the chunk's rows of c's block. -/
theorem x_lands (c : Dev nD) (i : Fin 16)
    (fd : Buf (Elt F) ((xDst c i).view.loc ((xP c : Dev nD) : Thread nD τ))) :
    pts (F := F) (xP c) (xDst c i) fullShare ((xDst c i).view.write (Elt F) fd ((xSrc c i).view.read (Elt F) (blk m c)) Finset.univ)
      = pts (xP c) (xDst c i) fullShare (Xf m (xP c)) := by
  refine lands_congr (xP c) (xDst c i) (xSrc c i) fd _ (blk m c) fun x => heq_of_eq ?_
  refine Eq.trans ?_ (Xf_apply m (xP c) _).symm
  have hx : (x 0).val < 256 := (x 0).isLt
  have hi : i.val < 16 := i.isLt
  have hc : c.val < 16 := c.isLt
  refine blk_at m _ _ ?_ ?_ ?_
  · show c = owner (xP c) (((xDst c i).view.emb x : S32768x1024.Idx) 0).val
    rw [owner_eq, xDst_row,
      show (16384 * (c.val / 8) + 8192 * (c.val / 4 % 2) + 4096 * (c.val % 4 % 2) + 256 * i.val + (x 0).val) / 4096
        = 4 * (c.val / 8) + 2 * (c.val / 4 % 2) + c.val % 4 % 2 by omega]
    exact (ownerQ_x c).symm
  · show _ = (((xDst c i).view.emb x : S32768x1024.Idx) 0).val % 16384
    rw [xDst_row]
    refine (xSrc_row c i x).trans ?_
    omega
  · exact (xSrc_col c i x).trans (xDst_col c i x).symm

/-- A store: rows 1024 n … of c's own half of its result take the rotating buffer's rows, which are the block's. -/
theorem st_lands (c : Dev nD) (n : Fin 16) (k : Fin 4)
    (fd : Buf (Elt F) ((stDst c n).view.loc ((c : Dev nD) : Thread nD τ))) :
    pts (F := F) c (stDst c n) fullShare ((stDst c n).view.write (Elt F) fd ((vslot k).view.read (Elt F) (VB m c n)) Finset.univ)
      = pts c (stDst c n) fullShare (Xf m c) := by
  refine lands_congr c (stDst c n) (vslot k) fd _ (VB m c n) fun x => heq_of_eq ?_
  refine (VB_apply m c n _).trans (Eq.trans ?_ (Xf_apply m c _).symm)
  obtain ⟨h1, h2⟩ := vslot_emb k x
  have hx : (x 0).val < 1024 := (x 0).isLt
  have hn : n.val < 16 := n.isLt
  have hc : c.val < 16 := c.isLt
  refine blk_at m _ _ ?_ ?_ ?_
  · show c = owner c (((stDst c n).view.emb x : S32768x1024.Idx) 0).val
    refine (owner_self c _ ?_).symm
    rw [stDst_row]; omega
  · show 1024 * n.val + (((vslot k).view.emb x : S4x1024x1024.Idx) 1).val
      = (((stDst c n).view.emb x : S32768x1024.Idx) 0).val % 16384
    rw [h1, stDst_row]; omega
  · show (((vslot k).view.emb x : S4x1024x1024.Idx) 2).val = (((stDst c n).view.emb x : S32768x1024.Idx) 1).val
    rw [h2, stDst_col]

/-- The forward to the y partner: the rows of the quarter c got from its x partner have one owner on both devices. -/
theorem yd_lands (c : Dev nD) (i : Fin 16)
    (fd : Buf (Elt F) ((qMine c i).view.loc ((yP c : Dev nD) : Thread nD τ))) :
    pts (F := F) (yP c) (qMine c i) fullShare ((qMine c i).view.write (Elt F) fd ((qMine c i).view.read (Elt F) (Xf m c)) Finset.univ)
      = pts (yP c) (qMine c i) fullShare (Xf m (yP c)) := by
  refine lands_congr (yP c) (qMine c i) (qMine c i) fd _ (Xf m c) fun x => heq_of_eq ?_
  refine (Xf_apply m c _).trans (Eq.trans ?_ (Xf_apply m (yP c) _).symm)
  have hx : (x 0).val < 256 := (x 0).isLt
  have hi : i.val < 16 := i.isLt
  have hc : c.val < 16 := c.isLt
  refine blk_at m _ _ ?_ rfl rfl
  show owner c (((qMine c i).view.emb x : S32768x1024.Idx) 0).val
    = owner (yP c) (((qMine c i).view.emb x : S32768x1024.Idx) 0).val
  rw [owner_eq, owner_eq, qMine_row,
    show ((8192 * (c.val / 4 % 2) + 4096 * (c.val % 4 % 2) + 256 * i.val + 16384) - 16384 * (c.val / 8) + (x 0).val) / 4096
      = 4 * (1 - c.val / 8) + 2 * (c.val / 4 % 2) + c.val % 4 % 2 by omega]
  exact (ownerQ_yd c).symm

/-- The forward to the z partner: the same rows have one owner on c and on its z partner. -/
theorem zd_lands (c : Dev nD) (i : Fin 16)
    (fd : Buf (Elt F) ((qMine c i).view.loc ((zP c : Dev nD) : Thread nD τ))) :
    pts (F := F) (zP c) (qMine c i) fullShare ((qMine c i).view.write (Elt F) fd ((qMine c i).view.read (Elt F) (Xf m c)) Finset.univ)
      = pts (zP c) (qMine c i) fullShare (Xf m (zP c)) := by
  refine lands_congr (zP c) (qMine c i) (qMine c i) fd _ (Xf m c) fun x => heq_of_eq ?_
  refine (Xf_apply m c _).trans (Eq.trans ?_ (Xf_apply m (zP c) _).symm)
  have hx : (x 0).val < 256 := (x 0).isLt
  have hi : i.val < 16 := i.isLt
  have hc : c.val < 16 := c.isLt
  refine blk_at m _ _ ?_ rfl rfl
  show owner c (((qMine c i).view.emb x : S32768x1024.Idx) 0).val
    = owner (zP c) (((qMine c i).view.emb x : S32768x1024.Idx) 0).val
  rw [owner_eq, owner_eq, qMine_row,
    show ((8192 * (c.val / 4 % 2) + 4096 * (c.val % 4 % 2) + 256 * i.val + 16384) - 16384 * (c.val / 8) + (x 0).val) / 4096
      = 4 * (1 - c.val / 8) + 2 * (c.val / 4 % 2) + c.val % 4 % 2 by omega]
  exact (ownerQ_zd c).symm

/-- The second hop to the y partner: the first eight chunks of the quarter c got from its z partner. -/
theorem ydg_lands (c : Dev nD) (j : Fin 8)
    (fd : Buf (Elt F) ((qZlo c j).view.loc ((yP c : Dev nD) : Thread nD τ))) :
    pts (F := F) (yP c) (qZlo c j) fullShare ((qZlo c j).view.write (Elt F) fd ((qZlo c j).view.read (Elt F) (Xf m c)) Finset.univ)
      = pts (yP c) (qZlo c j) fullShare (Xf m (yP c)) := by
  refine lands_congr (yP c) (qZlo c j) (qZlo c j) fd _ (Xf m c) fun x => heq_of_eq ?_
  refine (Xf_apply m c _).trans (Eq.trans ?_ (Xf_apply m (yP c) _).symm)
  have hx : (x 0).val < 256 := (x 0).isLt
  have hi : j.val < 8 := j.isLt
  have hc : c.val < 16 := c.isLt
  refine blk_at m _ _ ?_ rfl rfl
  show owner c (((qZlo c j).view.emb x : S32768x1024.Idx) 0).val
    = owner (yP c) (((qZlo c j).view.emb x : S32768x1024.Idx) 0).val
  rw [owner_eq, owner_eq, qZlo_row,
    show ((8192 * (c.val / 4 % 2) + 256 * j.val + 20480) - (16384 * (c.val / 8) + 4096 * (c.val % 4 % 2)) + (x 0).val) / 4096
      = 4 * (1 - c.val / 8) + 2 * (c.val / 4 % 2) + (1 - c.val % 4 % 2) by omega]
  exact (ownerQ_ydg c).symm

/-- The second hop to the z partner: the last eight chunks of the quarter c got from its y partner. -/
theorem zdg_lands (c : Dev nD) (j : Fin 8)
    (fd : Buf (Elt F) ((qYhi c j).view.loc ((zP c : Dev nD) : Thread nD τ))) :
    pts (F := F) (zP c) (qYhi c j) fullShare ((qYhi c j).view.write (Elt F) fd ((qYhi c j).view.read (Elt F) (Xf m c)) Finset.univ)
      = pts (zP c) (qYhi c j) fullShare (Xf m (zP c)) := by
  refine lands_congr (zP c) (qYhi c j) (qYhi c j) fd _ (Xf m c) fun x => heq_of_eq ?_
  refine (Xf_apply m c _).trans (Eq.trans ?_ (Xf_apply m (zP c) _).symm)
  have hx : (x 0).val < 256 := (x 0).isLt
  have hi : j.val < 8 := j.isLt
  have hc : c.val < 16 := c.isLt
  refine blk_at m _ _ ?_ rfl rfl
  show owner c (((qYhi c j).view.emb x : S32768x1024.Idx) 0).val
    = owner (zP c) (((qYhi c j).view.emb x : S32768x1024.Idx) 0).val
  rw [owner_eq, owner_eq, qYhi_row,
    show ((4096 * (c.val % 4 % 2) + 256 * j.val + 26624) - (16384 * (c.val / 8) + 8192 * (c.val / 4 % 2)) + (x 0).val) / 4096
      = 4 * (1 - c.val / 8) + 2 * (1 - c.val / 4 % 2) + c.val % 4 % 2 by omega]
  exact (ownerQ_zdg c).symm

end Cert.Kernel.AG

end
-- ==== Proof.KAGPay.lean ====
/- What each copy's landing makes of the chunk it writes is what the schedule says the receive end hands over; and the
   chunks a device hands each partner with its entry signal are the ones that partner's copies name. -/
import proofs.«900678_g7700000000000679_dist_ag_v7x_xyz2x2x4_x_m16384_n1024_f32_1_alg».proof.Proof.KAGPre
import proofs.«900678_g7700000000000679_dist_ag_v7x_xyz2x2x4_x_m16384_n1024_f32_1_alg».proof.Proof.KAGRegions
import proofs.«900678_g7700000000000679_dist_ag_v7x_xyz2x2x4_x_m16384_n1024_f32_1_alg».proof.Proof.KAGValues

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Pay
variable (c : Dev nD)

theorem x_pay (i : Fin 16) (fd : Buf (Elt F) ((xDst c i).view.loc ((xP c : Dev nD) : Thread nD τ))) :
    (pts (xP c) (xDst c i) fullShare ((xDst c i).view.write (Elt F) fd ((xSrc c i).view.read (Elt F) (blk m c)) Finset.univ) : sProp 𝕄)
      ⊢ dmaPay m (xP c) (.xr i) 0 := by
  rw [x_lands, dmaPay_xr, pts_xDst]

theorem yd_pay (i : Fin 16) (fd : Buf (Elt F) ((qMine c i).view.loc ((yP c : Dev nD) : Thread nD τ))) :
    (pts (yP c) (qMine c i) fullShare ((qMine c i).view.write (Elt F) fd ((qMine c i).view.read (Elt F) (Xf m c)) Finset.univ) : sProp 𝕄)
      ⊢ dmaPay m (yP c) (.ydr i) 0 := by
  rw [yd_lands, dmaPay_ydr, yP_yP]

theorem zd_pay (i : Fin 16) (fd : Buf (Elt F) ((qMine c i).view.loc ((zP c : Dev nD) : Thread nD τ))) :
    (pts (zP c) (qMine c i) fullShare ((qMine c i).view.write (Elt F) fd ((qMine c i).view.read (Elt F) (Xf m c)) Finset.univ) : sProp 𝕄)
      ⊢ dmaPay m (zP c) (.zdr i) 0 := by
  rw [zd_lands, dmaPay_zdr, zP_zP]

theorem ydg_pay (j : Fin 8) (fd : Buf (Elt F) ((qZlo c j).view.loc ((yP c : Dev nD) : Thread nD τ))) :
    (pts (yP c) (qZlo c j) fullShare ((qZlo c j).view.write (Elt F) fd ((qZlo c j).view.read (Elt F) (Xf m c)) Finset.univ) : sProp 𝕄)
      ⊢ dmaPay m (yP c) (.ydgr j) 0 := by
  rw [ydg_lands, dmaPay_ydgr, yP_yP]

theorem zdg_pay (j : Fin 8) (fd : Buf (Elt F) ((qYhi c j).view.loc ((zP c : Dev nD) : Thread nD τ))) :
    (pts (zP c) (qYhi c j) fullShare ((qYhi c j).view.write (Elt F) fd ((qYhi c j).view.read (Elt F) (Xf m c)) Finset.univ) : sProp 𝕄)
      ⊢ dmaPay m (zP c) (.zdgr j) 0 := by
  rw [zdg_lands, dmaPay_zdgr, zP_zP]

/-- Local chunk n, loaded into rotating buffer n mod 4 in that buffer's round n / 4. -/
theorem ld_pay (n : Fin 16) (k : Fin 4) (r : ℕ) (hn : nOf r k = n) (fd : Buf (Elt F) ((vslot k).view.loc (c : Thread nD τ))) :
    iprop((pts c (vslot k) fullShare ((vslot k).view.write (Elt F) fd ((ldSrc n).view.read (Elt F) (blk m c)) Finset.univ)) ∗ pts c (ldSrc n) qR (blk m c))
      ⊢ (dmaPay m c (.ld k) r : sProp 𝕄) := by
  rw [ld_lands, dmaPay_ld, hn]

theorem st_pay (n : Fin 16) (k : Fin 4) (r : ℕ) (hn : nOf r k = n) (fd : Buf (Elt F) ((stDst c n).view.loc (c : Thread nD τ))) :
    iprop((pts c (stDst c n) fullShare ((stDst c n).view.write (Elt F) fd ((vslot k).view.read (Elt F) (VB m c n)) Finset.univ)) ∗ pts c (vslot k) fullShare (VB m c n))
      ⊢ (dmaPay m c (.st k) r : sProp 𝕄) := by
  rw [st_lands, dmaPay_st, hn]

/-- The quarter a device gets from its x partner, handed to that partner with the entry signal: in the partner's
    numbering its chunks are the destinations of the partner's sixteen copies. -/
theorem mk_barPay_x (f : Buf (Elt F) ((c : Thread nD τ).loc main_v1)) :
    (bigSep Finset.univ fun i : Fin 16 => pts (F := F) c (qMine c i) fullShare f : sProp 𝕄) ⊢ barPay (xP c) 0 := by
  rw [barPay_0, xP_xP]
  refine bigSep_mono fun i _ => ?_
  exact (Entails.of_eq (pts_xDst_xP c c i fullShare f).symm).trans (BIClass.exists_intro (PROP := sProp 𝕄) f)

omit [FloatOps F] in
theorem mk_barPay_y (f : Buf (Elt F) ((c : Thread nD τ).loc main_v1)) :
    iprop((bigSep Finset.univ fun i : Fin 16 => pts (F := F) c (qMine (yP c) i) fullShare f)
      ∗ bigSep Finset.univ fun j : Fin 8 => pts (F := F) c (qZlo (yP c) j) fullShare f) ⊢ (barPay (yP c) 1 : sProp 𝕄) := by
  rw [barPay_1, yP_yP]
  refine BIClass.sep_mono (bigSep_mono fun i _ => ?_) (bigSep_mono fun j _ => ?_)
  · exact BIClass.exists_intro (PROP := sProp 𝕄) f
  · exact BIClass.exists_intro (PROP := sProp 𝕄) f

omit [FloatOps F] in
theorem mk_barPay_z (f : Buf (Elt F) ((c : Thread nD τ).loc main_v1)) :
    iprop((bigSep Finset.univ fun i : Fin 16 => pts (F := F) c (qMine (zP c) i) fullShare f)
      ∗ bigSep Finset.univ fun j : Fin 8 => pts (F := F) c (qYhi (zP c) j) fullShare f) ⊢ (barPay (zP c) 2 : sProp 𝕄) := by
  rw [barPay_2, zP_zP]
  refine BIClass.sep_mono (bigSep_mono fun i _ => ?_) (bigSep_mono fun j _ => ?_)
  · exact BIClass.exists_intro (PROP := sProp 𝕄) f
  · exact BIClass.exists_intro (PROP := sProp 𝕄) f

end Pay

end Cert.Kernel.AG

end
-- ==== Proof.KAGLevels.lean ====
/- Every wait of the kernel is allowed.

   A device pays in a fixed order: a unit on each partner's barrier cell (payments 0 to 2), the credit of its sixteen
   chunks on the x partner's receive cells (3 to 18), the thirty-two forwarded chunks on the y and z partners' forward
   receive cells (19 to 50), the sixteen second-hop chunks on their second-hop receive cells (51 to 66). The cells'
   levels rise along that order: 1, 2, 3, 4. Before payment k the device owes exactly the payments from k on, so
   everything it owes sits at level at least that of payment k. A wait on one of its own cells is therefore allowed as
   soon as that cell's level is strictly below the level of payment k, or when nothing is owed any more. -/
import proofs.«900678_g7700000000000679_dist_ag_v7x_xyz2x2x4_x_m16384_n1024_f32_1_alg».proof.Proof.KAGState

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is owed is made of the payments still to come -/

/-- A cell at which something is owed before payment k, with n payments left, is the cell of one of the payments
    k, …, k + n - 1. -/
theorem owed_pos {c : Dev nD} {n k : ℕ} {g : GSem nD τ sig} {u : Unit} (h : 0 < owedN c n k g u) :
    ∃ j, k ≤ j ∧ j < k + n ∧ g = (ev c j).1 := by
  induction n generalizing k with
  | zero => exact absurd h (Nat.lt_irrefl 0)
  | succ n ih =>
    change 0 < (owedN c n (k + 1) + tallyAt (ev c k).1 () (ev c k).2) g u at h
    rw [Pi.add_apply, Finsupp.add_apply, tallyAt_apply] at h
    by_cases hg : g = (ev c k).1 ∧ u = ()
    · exact ⟨k, le_refl k, by omega, hg.1⟩
    · rw [if_neg hg, Nat.add_zero] at h
      obtain ⟨j, h1, h2, h3⟩ := ih (k := k + 1) h
      exact ⟨j, by omega, by omega, h3⟩

/-! ## The levels of the payments' cells -/

/-- Every payment goes to a TensorCore's cell. -/
theorem ev_tc (c : Dev nD) (j : ℕ) : L (ev c j).1 = {()} := by
  unfold ev; split_ifs <;> exact if_pos rfl

/-- A barrier cell sits at level 1. -/
theorem lv_bar (d : Dev nD) (u : Unit) : lv (barCell d) u = 1 := rfl

/-- A DMA semaphore's cell sits at the level of its role. -/
theorem lv_kcell (d : Dev nD) (x : Cls) (u : Unit) : lv (kcell d x) u = clsLv x := by
  show clsLv (decode (code x)) = clsLv x; rw [decode_code]

/-- The cell of payment j sits at level evLv j: a barrier cell for the first three, an x receive cell for the next
    sixteen, a forward receive cell for the next thirty-two, a second-hop receive cell after. -/
theorem ev_lv (c : Dev nD) (j : ℕ) (hj : j < 67) : lv (ev c j).1 () = evLv j := by
  unfold ev evLv
  by_cases h3 : j < 3
  · rw [if_pos h3, if_pos h3]
    by_cases h0 : j = 0
    · rw [if_pos h0]; exact lv_bar _ _
    · rw [if_neg h0]
      by_cases h1 : j = 1
      · rw [if_pos h1]; exact lv_bar _ _
      · rw [if_neg h1]; exact lv_bar _ _
  · rw [if_neg h3, if_neg h3]
    by_cases h19 : j < 19
    · rw [if_pos h19, if_pos h19]; exact lv_kcell _ _ _
    · rw [if_neg h19, if_neg h19]
      by_cases h51 : j < 51
      · rw [if_pos h51, if_pos h51]
        by_cases hp : (j - 19) % 2 = 0
        · rw [if_pos hp]; exact lv_kcell _ _ _
        · rw [if_neg hp]; exact lv_kcell _ _ _
      · rw [if_neg h51, if_neg h51]
        by_cases hp : (j - 51) % 2 = 0
        · rw [if_pos hp]; exact lv_kcell _ _ _
        · rw [if_neg hp]; exact lv_kcell _ _ _

/-- The levels rise along the order of payment. -/
theorem evLv_mono {j k : ℕ} (h : k ≤ j) : evLv k ≤ evLv j := by
  unfold evLv; split_ifs <;> omega

/-! ## The waits -/

omit [FloatOps F] in
/-- a wait on the device's own DMA semaphore of role x, before payment k, with n = 67 - k payments left -/
theorem mayWait_cell (c : Dev nD) (x : Cls) (n k : ℕ) (hnk : n + k = 67) (h : n = 0 ∨ clsLv x < evLv k) :
    (levAts L lv : sProp 𝕄) ⊢ MayWait (c : Thread nD τ) (.dma (code x)) () (owedN c n k) := by
  rcases h with rfl | h
  · have e : owedN c 0 k = 0 := rfl
    rw [e, MayWait_zero]; iintro -; iempintro
  · refine MayOwe.of_cut (L := L) (lev := lv) (clsLv x)
      (fun p hp => by rw [Finset.mem_singleton.mp hp, L_tc]; exact Finset.mem_singleton_self _)
      (fun g u hg => by
        obtain ⟨j, _, _, rfl⟩ := owed_pos hg
        rw [ev_tc]; exact Finset.mem_singleton_self _)
      (fun p hp => by rw [Finset.mem_singleton.mp hp]; exact le_of_eq (lv_kcell c x ()))
      (fun g u hg => by
        obtain ⟨j, hkj, hjn, rfl⟩ := owed_pos hg
        show clsLv x < lv (ev c j).1 ()
        rw [ev_lv c j (by omega)]
        exact lt_of_lt_of_le h (evLv_mono hkj))

omit [FloatOps F] in
/-- the entry wait on the barrier cell, after the three signals, owing the sixty-four copies' credit -/
theorem mayWait_bar (c : Dev nD) : (levAts L lv : sProp 𝕄) ⊢ MayWait (c : Thread nD τ) (.reg barS) () (owedN c 64 3) := by
  refine MayOwe.of_cut (L := L) (lev := lv) 1
    (fun p hp => by rw [Finset.mem_singleton.mp hp, L_tc]; exact Finset.mem_singleton_self _)
    (fun g u hg => by
      obtain ⟨j, _, _, rfl⟩ := owed_pos hg
      rw [ev_tc]; exact Finset.mem_singleton_self _)
    (fun p hp => by rw [Finset.mem_singleton.mp hp]; exact le_of_eq (lv_bar c ()))
    (fun g u hg => by
      obtain ⟨j, hkj, hjn, rfl⟩ := owed_pos hg
      show 1 < lv (ev c j).1 ()
      rw [ev_lv c j (by omega)]
      exact lt_of_lt_of_le (by decide : 1 < evLv 3) (evLv_mono hkj))

end Cert.Kernel.AG

end
-- ==== Proof.KAGCls.lean ====
/- A product over all the roles of a device's DMA semaphores, family by family.

   The roles fall into twelve families: the loads and the stores by rotating buffer, the send and the receive ends of
   the x copies, of the y forwards and of the z forwards by chunk, and of the second-hop y and z copies by chunk. A
   role is exactly a family and an index in it, so the roles are in one-to-one correspondence with the disjoint sum of
   the twelve index ranges, and a separating product over all roles is the product of the twelve families' products. -/
import proofs.«900678_g7700000000000679_dist_ag_v7x_xyz2x2x4_x_m16384_n1024_f32_1_alg».proof.Proof.KAGState

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A role is a family and an index in it: the roles correspond one to one to the disjoint sum of the twelve index
    ranges, in the order load, store, x send, x receive, y forward send, y forward receive, z forward send, z forward
    receive, second-hop y send, second-hop y receive, second-hop z send, second-hop z receive. -/
def clsEquiv : (Fin 4 ⊕ Fin 4 ⊕ Fin 16 ⊕ Fin 16 ⊕ Fin 16 ⊕ Fin 16 ⊕ Fin 16 ⊕ Fin 16 ⊕ Fin 8 ⊕ Fin 8 ⊕ Fin 8 ⊕ Fin 8) ≃ Cls where
  toFun
    | .inl k => .ld k
    | .inr (.inl k) => .st k
    | .inr (.inr (.inl i)) => .xs i
    | .inr (.inr (.inr (.inl i))) => .xr i
    | .inr (.inr (.inr (.inr (.inl i)))) => .yds i
    | .inr (.inr (.inr (.inr (.inr (.inl i))))) => .ydr i
    | .inr (.inr (.inr (.inr (.inr (.inr (.inl i)))))) => .zds i
    | .inr (.inr (.inr (.inr (.inr (.inr (.inr (.inl i))))))) => .zdr i
    | .inr (.inr (.inr (.inr (.inr (.inr (.inr (.inr (.inl j)))))))) => .ydgs j
    | .inr (.inr (.inr (.inr (.inr (.inr (.inr (.inr (.inr (.inl j))))))))) => .ydgr j
    | .inr (.inr (.inr (.inr (.inr (.inr (.inr (.inr (.inr (.inr (.inl j)))))))))) => .zdgs j
    | .inr (.inr (.inr (.inr (.inr (.inr (.inr (.inr (.inr (.inr (.inr j)))))))))) => .zdgr j
  invFun
    | .ld k => .inl k
    | .st k => .inr (.inl k)
    | .xs i => .inr (.inr (.inl i))
    | .xr i => .inr (.inr (.inr (.inl i)))
    | .yds i => .inr (.inr (.inr (.inr (.inl i))))
    | .ydr i => .inr (.inr (.inr (.inr (.inr (.inl i)))))
    | .zds i => .inr (.inr (.inr (.inr (.inr (.inr (.inl i))))))
    | .zdr i => .inr (.inr (.inr (.inr (.inr (.inr (.inr (.inl i)))))))
    | .ydgs j => .inr (.inr (.inr (.inr (.inr (.inr (.inr (.inr (.inl j))))))))
    | .ydgr j => .inr (.inr (.inr (.inr (.inr (.inr (.inr (.inr (.inr (.inl j)))))))))
    | .zdgs j => .inr (.inr (.inr (.inr (.inr (.inr (.inr (.inr (.inr (.inr (.inl j))))))))))
    | .zdgr j => .inr (.inr (.inr (.inr (.inr (.inr (.inr (.inr (.inr (.inr (.inr j))))))))))
  left_inv s := by
    rcases s with k | k | i | i | i | i | i | i | j | j | j | j <;> rfl
  right_inv x := by cases x <;> rfl

omit [FloatOps F] in
/-- A product over all roles is the product, family by family, over the indices of each family. -/
theorem bigSep_cls (Φ : Cls → sProp 𝕄) : bigSep Finset.univ Φ = iprop((bigSep Finset.univ fun k : Fin 4 => Φ (.ld k))
      ∗ (bigSep Finset.univ fun k : Fin 4 => Φ (.st k))
      ∗ (bigSep Finset.univ fun i : Fin 16 => Φ (.xs i))
      ∗ (bigSep Finset.univ fun i : Fin 16 => Φ (.xr i))
      ∗ (bigSep Finset.univ fun i : Fin 16 => Φ (.yds i))
      ∗ (bigSep Finset.univ fun i : Fin 16 => Φ (.ydr i))
      ∗ (bigSep Finset.univ fun i : Fin 16 => Φ (.zds i))
      ∗ (bigSep Finset.univ fun i : Fin 16 => Φ (.zdr i))
      ∗ (bigSep Finset.univ fun j : Fin 8 => Φ (.ydgs j))
      ∗ (bigSep Finset.univ fun j : Fin 8 => Φ (.ydgr j))
      ∗ (bigSep Finset.univ fun j : Fin 8 => Φ (.zdgs j))
      ∗ (bigSep Finset.univ fun j : Fin 8 => Φ (.zdgr j))) := by
  rw [bigSep_univ_equiv clsEquiv Φ]
  rw [bigSep_univ_sum, bigSep_univ_sum, bigSep_univ_sum, bigSep_univ_sum, bigSep_univ_sum, bigSep_univ_sum,
    bigSep_univ_sum, bigSep_univ_sum, bigSep_univ_sum, bigSep_univ_sum, bigSep_univ_sum]
  rfl

omit [FloatOps F] in
/-- A product over the pairs (rotating buffer, round) is the product over the buffers of the products over the rounds. -/
theorem bigSep_fin4x4 (Φ : Fin 4 × Fin 4 → sProp 𝕄) :
    bigSep Finset.univ Φ = bigSep Finset.univ fun k : Fin 4 => bigSep Finset.univ fun r : Fin 4 => Φ (k, r) :=
  bigSep_univ_prod Φ

end Cert.Kernel.AG

end
-- ==== Proof.KAGCredit.lean ====
import proofs.«900678_g7700000000000679_dist_ag_v7x_xyz2x2x4_x_m16384_n1024_f32_1_alg».proof.Proof.AGOblig
/- A 256-row chunk of the block is worth what a 256-row chunk of the result is: a copy's credit counts the chunk's shape and
   element type, not which array it lies in. -/
import proofs.«900678_g7700000000000679_dist_ag_v7x_xyz2x2x4_x_m16384_n1024_f32_1_alg».proof.Proof.KAGCore

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem credit_xSrc (c : Dev nD) (i : Fin 16) : (xSrc c i).view.dmaCredit = N256 := by
  unfold N256; rfl

end Cert.Kernel.AG

end
-- ==== Proof.KAGBody.lean ====
/- A device's whole body, from what it holds at the start to what it holds at the end: the entry handshake, the sixteen
   copies to the x partner, the local chunks through the rotating buffers interleaved with the forwarding of each chunk
   as it lands, the second-hop copies, and the closing waits; then every cell is closed and the buffers are put together
   again. Each step is one of the rules of the steps' module at the step's own cells and chunks. -/
import proofs.«900678_g7700000000000679_dist_ag_v7x_xyz2x2x4_x_m16384_n1024_f32_1_alg».proof.Proof.KAGPay
import proofs.«900678_g7700000000000679_dist_ag_v7x_xyz2x2x4_x_m16384_n1024_f32_1_alg».proof.Proof.KAGLevels
import proofs.«900678_g7700000000000679_dist_ag_v7x_xyz2x2x4_x_m16384_n1024_f32_1_alg».proof.Proof.KAGCls
import proofs.«900678_g7700000000000679_dist_ag_v7x_xyz2x2x4_x_m16384_n1024_f32_1_alg».proof.Proof.KAGCredit
import proofs.«900678_g7700000000000679_dist_ag_v7x_xyz2x2x4_x_m16384_n1024_f32_1_alg».proof.Proof.Gen.Kernel.Skeleton
import proofs.«900678_g7700000000000679_dist_ag_v7x_xyz2x2x4_x_m16384_n1024_f32_1_alg».proof.Proof.Gen.Kernel.Points

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 40000000 in
set_option maxRecDepth 65536 in
theorem sound_body (c : Dev nD) (K : Dev nD × Option Cls → ℕ) (Kt : PUnit → sProp 𝕄) :
    iprop((ghost m K c ∗ creds c ∗ levAts L lv
          ∗ (((c : Thread nD τ).loc main_arg0) ↦{fullShare} blk m c)
          ∗ (∃ f, ((c : Thread nD τ).loc main_v1) ↦{fullShare} f)
          ∗ (∃ g, ((c : Thread nD τ).loc cc0_scratch0) ↦{fullShare} g))
        ∗ (∃ W, owes (c : Thread nD τ) (O₀ c) W)
        ∗ ((Φ₁ m c ∗ ∃ W, owes (c : Thread nD τ) 0 W) -∗ Kt ⟨⟩))
      ⊢ wp frame (wpE (defs₀ (F := F)) 𝒱₀ (c : Thread nD τ) none) Set.univ (cc0_body (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12) Kt := by
  unfold ghost positions payToks creds
  iintro ⟨⟨⟨#HRec, ⟨HAb, HApos⟩, ⟨HTbx, HTby, HTbz, HTx, HTyd, HTzd, HTydg, HTzdg, HTloc⟩⟩, ⟨HCb, HCxr, HCydr, HCzdr, HCydgr, HCzdgr⟩, #Hlev, HBin, ⟨%f0, HBout⟩, ⟨%g0, HBvb⟩⟩, ⟨%W0, HO⟩, Hk⟩
  -- the device's positions, role by role
  ihave HApos := (Entails.of_eq (bigSep_cls _)) $$ HApos
  icases HApos with ⟨HA_ld, HA_st, HA_xs, HA_xr, HA_yds, HA_ydr, HA_zds, HA_zdr, HA_ydgs, HA_ydgr, HA_zdgs, HA_zdgr⟩
  ihave HA_ld := (Entails.of_eq (bigSep_fin4 _)) $$ HA_ld
  icases HA_ld with ⟨HA_ld0, HA_ld1, HA_ld2, HA_ld3⟩
  ihave HA_st := (Entails.of_eq (bigSep_fin4 _)) $$ HA_st
  icases HA_st with ⟨HA_st0, HA_st1, HA_st2, HA_st3⟩
  ihave HA_xs := (Entails.of_eq (bigSep_fin16 _)) $$ HA_xs
  icases HA_xs with ⟨HA_xs0, HA_xs1, HA_xs2, HA_xs3, HA_xs4, HA_xs5, HA_xs6, HA_xs7, HA_xs8, HA_xs9, HA_xs10, HA_xs11, HA_xs12, HA_xs13, HA_xs14, HA_xs15⟩
  ihave HA_xr := (Entails.of_eq (bigSep_fin16 _)) $$ HA_xr
  icases HA_xr with ⟨HA_xr0, HA_xr1, HA_xr2, HA_xr3, HA_xr4, HA_xr5, HA_xr6, HA_xr7, HA_xr8, HA_xr9, HA_xr10, HA_xr11, HA_xr12, HA_xr13, HA_xr14, HA_xr15⟩
  ihave HA_yds := (Entails.of_eq (bigSep_fin16 _)) $$ HA_yds
  icases HA_yds with ⟨HA_yds0, HA_yds1, HA_yds2, HA_yds3, HA_yds4, HA_yds5, HA_yds6, HA_yds7, HA_yds8, HA_yds9, HA_yds10, HA_yds11, HA_yds12, HA_yds13, HA_yds14, HA_yds15⟩
  ihave HA_ydr := (Entails.of_eq (bigSep_fin16 _)) $$ HA_ydr
  icases HA_ydr with ⟨HA_ydr0, HA_ydr1, HA_ydr2, HA_ydr3, HA_ydr4, HA_ydr5, HA_ydr6, HA_ydr7, HA_ydr8, HA_ydr9, HA_ydr10, HA_ydr11, HA_ydr12, HA_ydr13, HA_ydr14, HA_ydr15⟩
  ihave HA_zds := (Entails.of_eq (bigSep_fin16 _)) $$ HA_zds
  icases HA_zds with ⟨HA_zds0, HA_zds1, HA_zds2, HA_zds3, HA_zds4, HA_zds5, HA_zds6, HA_zds7, HA_zds8, HA_zds9, HA_zds10, HA_zds11, HA_zds12, HA_zds13, HA_zds14, HA_zds15⟩
  ihave HA_zdr := (Entails.of_eq (bigSep_fin16 _)) $$ HA_zdr
  icases HA_zdr with ⟨HA_zdr0, HA_zdr1, HA_zdr2, HA_zdr3, HA_zdr4, HA_zdr5, HA_zdr6, HA_zdr7, HA_zdr8, HA_zdr9, HA_zdr10, HA_zdr11, HA_zdr12, HA_zdr13, HA_zdr14, HA_zdr15⟩
  ihave HA_ydgs := (Entails.of_eq (bigSep_fin8 _)) $$ HA_ydgs
  icases HA_ydgs with ⟨HA_ydgs0, HA_ydgs1, HA_ydgs2, HA_ydgs3, HA_ydgs4, HA_ydgs5, HA_ydgs6, HA_ydgs7⟩
  ihave HA_ydgr := (Entails.of_eq (bigSep_fin8 _)) $$ HA_ydgr
  icases HA_ydgr with ⟨HA_ydgr0, HA_ydgr1, HA_ydgr2, HA_ydgr3, HA_ydgr4, HA_ydgr5, HA_ydgr6, HA_ydgr7⟩
  ihave HA_zdgs := (Entails.of_eq (bigSep_fin8 _)) $$ HA_zdgs
  icases HA_zdgs with ⟨HA_zdgs0, HA_zdgs1, HA_zdgs2, HA_zdgs3, HA_zdgs4, HA_zdgs5, HA_zdgs6, HA_zdgs7⟩
  ihave HA_zdgr := (Entails.of_eq (bigSep_fin8 _)) $$ HA_zdgr
  icases HA_zdgr with ⟨HA_zdgr0, HA_zdgr1, HA_zdgr2, HA_zdgr3, HA_zdgr4, HA_zdgr5, HA_zdgr6, HA_zdgr7⟩
  -- the tokens of the duties it pays
  ihave HTx := (Entails.of_eq (bigSep_fin16 _)) $$ HTx
  icases HTx with ⟨⟨HT_xs0, HU_xr0⟩, ⟨HT_xs1, HU_xr1⟩, ⟨HT_xs2, HU_xr2⟩, ⟨HT_xs3, HU_xr3⟩, ⟨HT_xs4, HU_xr4⟩, ⟨HT_xs5, HU_xr5⟩, ⟨HT_xs6, HU_xr6⟩, ⟨HT_xs7, HU_xr7⟩, ⟨HT_xs8, HU_xr8⟩, ⟨HT_xs9, HU_xr9⟩, ⟨HT_xs10, HU_xr10⟩, ⟨HT_xs11, HU_xr11⟩, ⟨HT_xs12, HU_xr12⟩, ⟨HT_xs13, HU_xr13⟩, ⟨HT_xs14, HU_xr14⟩, ⟨HT_xs15, HU_xr15⟩⟩
  ihave HTyd := (Entails.of_eq (bigSep_fin16 _)) $$ HTyd
  icases HTyd with ⟨⟨HT_yds0, HU_ydr0⟩, ⟨HT_yds1, HU_ydr1⟩, ⟨HT_yds2, HU_ydr2⟩, ⟨HT_yds3, HU_ydr3⟩, ⟨HT_yds4, HU_ydr4⟩, ⟨HT_yds5, HU_ydr5⟩, ⟨HT_yds6, HU_ydr6⟩, ⟨HT_yds7, HU_ydr7⟩, ⟨HT_yds8, HU_ydr8⟩, ⟨HT_yds9, HU_ydr9⟩, ⟨HT_yds10, HU_ydr10⟩, ⟨HT_yds11, HU_ydr11⟩, ⟨HT_yds12, HU_ydr12⟩, ⟨HT_yds13, HU_ydr13⟩, ⟨HT_yds14, HU_ydr14⟩, ⟨HT_yds15, HU_ydr15⟩⟩
  ihave HTzd := (Entails.of_eq (bigSep_fin16 _)) $$ HTzd
  icases HTzd with ⟨⟨HT_zds0, HU_zdr0⟩, ⟨HT_zds1, HU_zdr1⟩, ⟨HT_zds2, HU_zdr2⟩, ⟨HT_zds3, HU_zdr3⟩, ⟨HT_zds4, HU_zdr4⟩, ⟨HT_zds5, HU_zdr5⟩, ⟨HT_zds6, HU_zdr6⟩, ⟨HT_zds7, HU_zdr7⟩, ⟨HT_zds8, HU_zdr8⟩, ⟨HT_zds9, HU_zdr9⟩, ⟨HT_zds10, HU_zdr10⟩, ⟨HT_zds11, HU_zdr11⟩, ⟨HT_zds12, HU_zdr12⟩, ⟨HT_zds13, HU_zdr13⟩, ⟨HT_zds14, HU_zdr14⟩, ⟨HT_zds15, HU_zdr15⟩⟩
  ihave HTydg := (Entails.of_eq (bigSep_fin8 _)) $$ HTydg
  icases HTydg with ⟨⟨HT_ydgs0, HU_ydgr0⟩, ⟨HT_ydgs1, HU_ydgr1⟩, ⟨HT_ydgs2, HU_ydgr2⟩, ⟨HT_ydgs3, HU_ydgr3⟩, ⟨HT_ydgs4, HU_ydgr4⟩, ⟨HT_ydgs5, HU_ydgr5⟩, ⟨HT_ydgs6, HU_ydgr6⟩, ⟨HT_ydgs7, HU_ydgr7⟩⟩
  ihave HTzdg := (Entails.of_eq (bigSep_fin8 _)) $$ HTzdg
  icases HTzdg with ⟨⟨HT_zdgs0, HU_zdgr0⟩, ⟨HT_zdgs1, HU_zdgr1⟩, ⟨HT_zdgs2, HU_zdgr2⟩, ⟨HT_zdgs3, HU_zdgr3⟩, ⟨HT_zdgs4, HU_zdgr4⟩, ⟨HT_zdgs5, HU_zdgr5⟩, ⟨HT_zdgs6, HU_zdgr6⟩, ⟨HT_zdgs7, HU_zdgr7⟩⟩
  ihave HTloc := (Entails.of_eq ((bigSep_fin4x4 _).trans (bigSep_fin4 _))) $$ HTloc
  icases HTloc with ⟨HTloc0, HTloc1, HTloc2, HTloc3⟩
  ihave HTloc0 := (Entails.of_eq (bigSep_fin4 _)) $$ HTloc0
  icases HTloc0 with ⟨⟨HT_ld0_0, HT_st0_0⟩, ⟨HT_ld0_1, HT_st0_1⟩, ⟨HT_ld0_2, HT_st0_2⟩, ⟨HT_ld0_3, HT_st0_3⟩⟩
  ihave HTloc1 := (Entails.of_eq (bigSep_fin4 _)) $$ HTloc1
  icases HTloc1 with ⟨⟨HT_ld1_0, HT_st1_0⟩, ⟨HT_ld1_1, HT_st1_1⟩, ⟨HT_ld1_2, HT_st1_2⟩, ⟨HT_ld1_3, HT_st1_3⟩⟩
  ihave HTloc2 := (Entails.of_eq (bigSep_fin4 _)) $$ HTloc2
  icases HTloc2 with ⟨⟨HT_ld2_0, HT_st2_0⟩, ⟨HT_ld2_1, HT_st2_1⟩, ⟨HT_ld2_2, HT_st2_2⟩, ⟨HT_ld2_3, HT_st2_3⟩⟩
  ihave HTloc3 := (Entails.of_eq (bigSep_fin4 _)) $$ HTloc3
  icases HTloc3 with ⟨⟨HT_ld3_0, HT_st3_0⟩, ⟨HT_ld3_1, HT_st3_1⟩, ⟨HT_ld3_2, HT_st3_2⟩, ⟨HT_ld3_3, HT_st3_3⟩⟩
  -- the credit tokens for what the partners owe it
  ihave HCxr := (Entails.of_eq (bigSep_fin16 _)) $$ HCxr
  icases HCxr with ⟨HC_xr0, HC_xr1, HC_xr2, HC_xr3, HC_xr4, HC_xr5, HC_xr6, HC_xr7, HC_xr8, HC_xr9, HC_xr10, HC_xr11, HC_xr12, HC_xr13, HC_xr14, HC_xr15⟩
  ihave HCydr := (Entails.of_eq (bigSep_fin16 _)) $$ HCydr
  icases HCydr with ⟨HC_ydr0, HC_ydr1, HC_ydr2, HC_ydr3, HC_ydr4, HC_ydr5, HC_ydr6, HC_ydr7, HC_ydr8, HC_ydr9, HC_ydr10, HC_ydr11, HC_ydr12, HC_ydr13, HC_ydr14, HC_ydr15⟩
  ihave HCzdr := (Entails.of_eq (bigSep_fin16 _)) $$ HCzdr
  icases HCzdr with ⟨HC_zdr0, HC_zdr1, HC_zdr2, HC_zdr3, HC_zdr4, HC_zdr5, HC_zdr6, HC_zdr7, HC_zdr8, HC_zdr9, HC_zdr10, HC_zdr11, HC_zdr12, HC_zdr13, HC_zdr14, HC_zdr15⟩
  ihave HCydgr := (Entails.of_eq (bigSep_fin8 _)) $$ HCydgr
  icases HCydgr with ⟨HC_ydgr0, HC_ydgr1, HC_ydgr2, HC_ydgr3, HC_ydgr4, HC_ydgr5, HC_ydgr6, HC_ydgr7⟩
  ihave HCzdgr := (Entails.of_eq (bigSep_fin8 _)) $$ HCzdgr
  icases HCzdgr with ⟨HC_zdgr0, HC_zdgr1, HC_zdgr2, HC_zdgr3, HC_zdgr4, HC_zdgr5, HC_zdgr6, HC_zdgr7⟩
  -- the invariants and first rounds of the cells it touches
  ihave #HIb := (inv_at m K (c, none)) $$ HRec
  ihave #HJbx := (inv_at m K (xP c, none)) $$ HRec
  ihave #HQbx := (reached_at m K (xP c, none)) $$ HRec
  ihave #HJby := (inv_at m K (yP c, none)) $$ HRec
  ihave #HQby := (reached_at m K (yP c, none)) $$ HRec
  ihave #HJbz := (inv_at m K (zP c, none)) $$ HRec
  ihave #HQbz := (reached_at m K (zP c, none)) $$ HRec
  ihave #HI_ld0 := (inv_at m K (c, some (.ld 0))) $$ HRec
  ihave #HR_ld0 := (reached_at m K (c, some (.ld 0))) $$ HRec
  ihave #HI_ld1 := (inv_at m K (c, some (.ld 1))) $$ HRec
  ihave #HR_ld1 := (reached_at m K (c, some (.ld 1))) $$ HRec
  ihave #HI_ld2 := (inv_at m K (c, some (.ld 2))) $$ HRec
  ihave #HR_ld2 := (reached_at m K (c, some (.ld 2))) $$ HRec
  ihave #HI_ld3 := (inv_at m K (c, some (.ld 3))) $$ HRec
  ihave #HR_ld3 := (reached_at m K (c, some (.ld 3))) $$ HRec
  ihave #HI_st0 := (inv_at m K (c, some (.st 0))) $$ HRec
  ihave #HR_st0 := (reached_at m K (c, some (.st 0))) $$ HRec
  ihave #HI_st1 := (inv_at m K (c, some (.st 1))) $$ HRec
  ihave #HR_st1 := (reached_at m K (c, some (.st 1))) $$ HRec
  ihave #HI_st2 := (inv_at m K (c, some (.st 2))) $$ HRec
  ihave #HR_st2 := (reached_at m K (c, some (.st 2))) $$ HRec
  ihave #HI_st3 := (inv_at m K (c, some (.st 3))) $$ HRec
  ihave #HR_st3 := (reached_at m K (c, some (.st 3))) $$ HRec
  ihave #HI_xs0 := (inv_at m K (c, some (.xs 0))) $$ HRec
  ihave #HR_xs0 := (reached_at m K (c, some (.xs 0))) $$ HRec
  ihave #HI_xs1 := (inv_at m K (c, some (.xs 1))) $$ HRec
  ihave #HR_xs1 := (reached_at m K (c, some (.xs 1))) $$ HRec
  ihave #HI_xs2 := (inv_at m K (c, some (.xs 2))) $$ HRec
  ihave #HR_xs2 := (reached_at m K (c, some (.xs 2))) $$ HRec
  ihave #HI_xs3 := (inv_at m K (c, some (.xs 3))) $$ HRec
  ihave #HR_xs3 := (reached_at m K (c, some (.xs 3))) $$ HRec
  ihave #HI_xs4 := (inv_at m K (c, some (.xs 4))) $$ HRec
  ihave #HR_xs4 := (reached_at m K (c, some (.xs 4))) $$ HRec
  ihave #HI_xs5 := (inv_at m K (c, some (.xs 5))) $$ HRec
  ihave #HR_xs5 := (reached_at m K (c, some (.xs 5))) $$ HRec
  ihave #HI_xs6 := (inv_at m K (c, some (.xs 6))) $$ HRec
  ihave #HR_xs6 := (reached_at m K (c, some (.xs 6))) $$ HRec
  ihave #HI_xs7 := (inv_at m K (c, some (.xs 7))) $$ HRec
  ihave #HR_xs7 := (reached_at m K (c, some (.xs 7))) $$ HRec
  ihave #HI_xs8 := (inv_at m K (c, some (.xs 8))) $$ HRec
  ihave #HR_xs8 := (reached_at m K (c, some (.xs 8))) $$ HRec
  ihave #HI_xs9 := (inv_at m K (c, some (.xs 9))) $$ HRec
  ihave #HR_xs9 := (reached_at m K (c, some (.xs 9))) $$ HRec
  ihave #HI_xs10 := (inv_at m K (c, some (.xs 10))) $$ HRec
  ihave #HR_xs10 := (reached_at m K (c, some (.xs 10))) $$ HRec
  ihave #HI_xs11 := (inv_at m K (c, some (.xs 11))) $$ HRec
  ihave #HR_xs11 := (reached_at m K (c, some (.xs 11))) $$ HRec
  ihave #HI_xs12 := (inv_at m K (c, some (.xs 12))) $$ HRec
  ihave #HR_xs12 := (reached_at m K (c, some (.xs 12))) $$ HRec
  ihave #HI_xs13 := (inv_at m K (c, some (.xs 13))) $$ HRec
  ihave #HR_xs13 := (reached_at m K (c, some (.xs 13))) $$ HRec
  ihave #HI_xs14 := (inv_at m K (c, some (.xs 14))) $$ HRec
  ihave #HR_xs14 := (reached_at m K (c, some (.xs 14))) $$ HRec
  ihave #HI_xs15 := (inv_at m K (c, some (.xs 15))) $$ HRec
  ihave #HR_xs15 := (reached_at m K (c, some (.xs 15))) $$ HRec
  ihave #HI_xr0 := (inv_at m K (c, some (.xr 0))) $$ HRec
  ihave #HI_xr1 := (inv_at m K (c, some (.xr 1))) $$ HRec
  ihave #HI_xr2 := (inv_at m K (c, some (.xr 2))) $$ HRec
  ihave #HI_xr3 := (inv_at m K (c, some (.xr 3))) $$ HRec
  ihave #HI_xr4 := (inv_at m K (c, some (.xr 4))) $$ HRec
  ihave #HI_xr5 := (inv_at m K (c, some (.xr 5))) $$ HRec
  ihave #HI_xr6 := (inv_at m K (c, some (.xr 6))) $$ HRec
  ihave #HI_xr7 := (inv_at m K (c, some (.xr 7))) $$ HRec
  ihave #HI_xr8 := (inv_at m K (c, some (.xr 8))) $$ HRec
  ihave #HI_xr9 := (inv_at m K (c, some (.xr 9))) $$ HRec
  ihave #HI_xr10 := (inv_at m K (c, some (.xr 10))) $$ HRec
  ihave #HI_xr11 := (inv_at m K (c, some (.xr 11))) $$ HRec
  ihave #HI_xr12 := (inv_at m K (c, some (.xr 12))) $$ HRec
  ihave #HI_xr13 := (inv_at m K (c, some (.xr 13))) $$ HRec
  ihave #HI_xr14 := (inv_at m K (c, some (.xr 14))) $$ HRec
  ihave #HI_xr15 := (inv_at m K (c, some (.xr 15))) $$ HRec
  ihave #HI_yds0 := (inv_at m K (c, some (.yds 0))) $$ HRec
  ihave #HR_yds0 := (reached_at m K (c, some (.yds 0))) $$ HRec
  ihave #HI_yds1 := (inv_at m K (c, some (.yds 1))) $$ HRec
  ihave #HR_yds1 := (reached_at m K (c, some (.yds 1))) $$ HRec
  ihave #HI_yds2 := (inv_at m K (c, some (.yds 2))) $$ HRec
  ihave #HR_yds2 := (reached_at m K (c, some (.yds 2))) $$ HRec
  ihave #HI_yds3 := (inv_at m K (c, some (.yds 3))) $$ HRec
  ihave #HR_yds3 := (reached_at m K (c, some (.yds 3))) $$ HRec
  ihave #HI_yds4 := (inv_at m K (c, some (.yds 4))) $$ HRec
  ihave #HR_yds4 := (reached_at m K (c, some (.yds 4))) $$ HRec
  ihave #HI_yds5 := (inv_at m K (c, some (.yds 5))) $$ HRec
  ihave #HR_yds5 := (reached_at m K (c, some (.yds 5))) $$ HRec
  ihave #HI_yds6 := (inv_at m K (c, some (.yds 6))) $$ HRec
  ihave #HR_yds6 := (reached_at m K (c, some (.yds 6))) $$ HRec
  ihave #HI_yds7 := (inv_at m K (c, some (.yds 7))) $$ HRec
  ihave #HR_yds7 := (reached_at m K (c, some (.yds 7))) $$ HRec
  ihave #HI_yds8 := (inv_at m K (c, some (.yds 8))) $$ HRec
  ihave #HR_yds8 := (reached_at m K (c, some (.yds 8))) $$ HRec
  ihave #HI_yds9 := (inv_at m K (c, some (.yds 9))) $$ HRec
  ihave #HR_yds9 := (reached_at m K (c, some (.yds 9))) $$ HRec
  ihave #HI_yds10 := (inv_at m K (c, some (.yds 10))) $$ HRec
  ihave #HR_yds10 := (reached_at m K (c, some (.yds 10))) $$ HRec
  ihave #HI_yds11 := (inv_at m K (c, some (.yds 11))) $$ HRec
  ihave #HR_yds11 := (reached_at m K (c, some (.yds 11))) $$ HRec
  ihave #HI_yds12 := (inv_at m K (c, some (.yds 12))) $$ HRec
  ihave #HR_yds12 := (reached_at m K (c, some (.yds 12))) $$ HRec
  ihave #HI_yds13 := (inv_at m K (c, some (.yds 13))) $$ HRec
  ihave #HR_yds13 := (reached_at m K (c, some (.yds 13))) $$ HRec
  ihave #HI_yds14 := (inv_at m K (c, some (.yds 14))) $$ HRec
  ihave #HR_yds14 := (reached_at m K (c, some (.yds 14))) $$ HRec
  ihave #HI_yds15 := (inv_at m K (c, some (.yds 15))) $$ HRec
  ihave #HR_yds15 := (reached_at m K (c, some (.yds 15))) $$ HRec
  ihave #HI_ydr0 := (inv_at m K (c, some (.ydr 0))) $$ HRec
  ihave #HI_ydr1 := (inv_at m K (c, some (.ydr 1))) $$ HRec
  ihave #HI_ydr2 := (inv_at m K (c, some (.ydr 2))) $$ HRec
  ihave #HI_ydr3 := (inv_at m K (c, some (.ydr 3))) $$ HRec
  ihave #HI_ydr4 := (inv_at m K (c, some (.ydr 4))) $$ HRec
  ihave #HI_ydr5 := (inv_at m K (c, some (.ydr 5))) $$ HRec
  ihave #HI_ydr6 := (inv_at m K (c, some (.ydr 6))) $$ HRec
  ihave #HI_ydr7 := (inv_at m K (c, some (.ydr 7))) $$ HRec
  ihave #HI_ydr8 := (inv_at m K (c, some (.ydr 8))) $$ HRec
  ihave #HI_ydr9 := (inv_at m K (c, some (.ydr 9))) $$ HRec
  ihave #HI_ydr10 := (inv_at m K (c, some (.ydr 10))) $$ HRec
  ihave #HI_ydr11 := (inv_at m K (c, some (.ydr 11))) $$ HRec
  ihave #HI_ydr12 := (inv_at m K (c, some (.ydr 12))) $$ HRec
  ihave #HI_ydr13 := (inv_at m K (c, some (.ydr 13))) $$ HRec
  ihave #HI_ydr14 := (inv_at m K (c, some (.ydr 14))) $$ HRec
  ihave #HI_ydr15 := (inv_at m K (c, some (.ydr 15))) $$ HRec
  ihave #HI_zds0 := (inv_at m K (c, some (.zds 0))) $$ HRec
  ihave #HR_zds0 := (reached_at m K (c, some (.zds 0))) $$ HRec
  ihave #HI_zds1 := (inv_at m K (c, some (.zds 1))) $$ HRec
  ihave #HR_zds1 := (reached_at m K (c, some (.zds 1))) $$ HRec
  ihave #HI_zds2 := (inv_at m K (c, some (.zds 2))) $$ HRec
  ihave #HR_zds2 := (reached_at m K (c, some (.zds 2))) $$ HRec
  ihave #HI_zds3 := (inv_at m K (c, some (.zds 3))) $$ HRec
  ihave #HR_zds3 := (reached_at m K (c, some (.zds 3))) $$ HRec
  ihave #HI_zds4 := (inv_at m K (c, some (.zds 4))) $$ HRec
  ihave #HR_zds4 := (reached_at m K (c, some (.zds 4))) $$ HRec
  ihave #HI_zds5 := (inv_at m K (c, some (.zds 5))) $$ HRec
  ihave #HR_zds5 := (reached_at m K (c, some (.zds 5))) $$ HRec
  ihave #HI_zds6 := (inv_at m K (c, some (.zds 6))) $$ HRec
  ihave #HR_zds6 := (reached_at m K (c, some (.zds 6))) $$ HRec
  ihave #HI_zds7 := (inv_at m K (c, some (.zds 7))) $$ HRec
  ihave #HR_zds7 := (reached_at m K (c, some (.zds 7))) $$ HRec
  ihave #HI_zds8 := (inv_at m K (c, some (.zds 8))) $$ HRec
  ihave #HR_zds8 := (reached_at m K (c, some (.zds 8))) $$ HRec
  ihave #HI_zds9 := (inv_at m K (c, some (.zds 9))) $$ HRec
  ihave #HR_zds9 := (reached_at m K (c, some (.zds 9))) $$ HRec
  ihave #HI_zds10 := (inv_at m K (c, some (.zds 10))) $$ HRec
  ihave #HR_zds10 := (reached_at m K (c, some (.zds 10))) $$ HRec
  ihave #HI_zds11 := (inv_at m K (c, some (.zds 11))) $$ HRec
  ihave #HR_zds11 := (reached_at m K (c, some (.zds 11))) $$ HRec
  ihave #HI_zds12 := (inv_at m K (c, some (.zds 12))) $$ HRec
  ihave #HR_zds12 := (reached_at m K (c, some (.zds 12))) $$ HRec
  ihave #HI_zds13 := (inv_at m K (c, some (.zds 13))) $$ HRec
  ihave #HR_zds13 := (reached_at m K (c, some (.zds 13))) $$ HRec
  ihave #HI_zds14 := (inv_at m K (c, some (.zds 14))) $$ HRec
  ihave #HR_zds14 := (reached_at m K (c, some (.zds 14))) $$ HRec
  ihave #HI_zds15 := (inv_at m K (c, some (.zds 15))) $$ HRec
  ihave #HR_zds15 := (reached_at m K (c, some (.zds 15))) $$ HRec
  ihave #HI_zdr0 := (inv_at m K (c, some (.zdr 0))) $$ HRec
  ihave #HI_zdr1 := (inv_at m K (c, some (.zdr 1))) $$ HRec
  ihave #HI_zdr2 := (inv_at m K (c, some (.zdr 2))) $$ HRec
  ihave #HI_zdr3 := (inv_at m K (c, some (.zdr 3))) $$ HRec
  ihave #HI_zdr4 := (inv_at m K (c, some (.zdr 4))) $$ HRec
  ihave #HI_zdr5 := (inv_at m K (c, some (.zdr 5))) $$ HRec
  ihave #HI_zdr6 := (inv_at m K (c, some (.zdr 6))) $$ HRec
  ihave #HI_zdr7 := (inv_at m K (c, some (.zdr 7))) $$ HRec
  ihave #HI_zdr8 := (inv_at m K (c, some (.zdr 8))) $$ HRec
  ihave #HI_zdr9 := (inv_at m K (c, some (.zdr 9))) $$ HRec
  ihave #HI_zdr10 := (inv_at m K (c, some (.zdr 10))) $$ HRec
  ihave #HI_zdr11 := (inv_at m K (c, some (.zdr 11))) $$ HRec
  ihave #HI_zdr12 := (inv_at m K (c, some (.zdr 12))) $$ HRec
  ihave #HI_zdr13 := (inv_at m K (c, some (.zdr 13))) $$ HRec
  ihave #HI_zdr14 := (inv_at m K (c, some (.zdr 14))) $$ HRec
  ihave #HI_zdr15 := (inv_at m K (c, some (.zdr 15))) $$ HRec
  ihave #HI_ydgs0 := (inv_at m K (c, some (.ydgs 0))) $$ HRec
  ihave #HR_ydgs0 := (reached_at m K (c, some (.ydgs 0))) $$ HRec
  ihave #HI_ydgs1 := (inv_at m K (c, some (.ydgs 1))) $$ HRec
  ihave #HR_ydgs1 := (reached_at m K (c, some (.ydgs 1))) $$ HRec
  ihave #HI_ydgs2 := (inv_at m K (c, some (.ydgs 2))) $$ HRec
  ihave #HR_ydgs2 := (reached_at m K (c, some (.ydgs 2))) $$ HRec
  ihave #HI_ydgs3 := (inv_at m K (c, some (.ydgs 3))) $$ HRec
  ihave #HR_ydgs3 := (reached_at m K (c, some (.ydgs 3))) $$ HRec
  ihave #HI_ydgs4 := (inv_at m K (c, some (.ydgs 4))) $$ HRec
  ihave #HR_ydgs4 := (reached_at m K (c, some (.ydgs 4))) $$ HRec
  ihave #HI_ydgs5 := (inv_at m K (c, some (.ydgs 5))) $$ HRec
  ihave #HR_ydgs5 := (reached_at m K (c, some (.ydgs 5))) $$ HRec
  ihave #HI_ydgs6 := (inv_at m K (c, some (.ydgs 6))) $$ HRec
  ihave #HR_ydgs6 := (reached_at m K (c, some (.ydgs 6))) $$ HRec
  ihave #HI_ydgs7 := (inv_at m K (c, some (.ydgs 7))) $$ HRec
  ihave #HR_ydgs7 := (reached_at m K (c, some (.ydgs 7))) $$ HRec
  ihave #HI_ydgr0 := (inv_at m K (c, some (.ydgr 0))) $$ HRec
  ihave #HI_ydgr1 := (inv_at m K (c, some (.ydgr 1))) $$ HRec
  ihave #HI_ydgr2 := (inv_at m K (c, some (.ydgr 2))) $$ HRec
  ihave #HI_ydgr3 := (inv_at m K (c, some (.ydgr 3))) $$ HRec
  ihave #HI_ydgr4 := (inv_at m K (c, some (.ydgr 4))) $$ HRec
  ihave #HI_ydgr5 := (inv_at m K (c, some (.ydgr 5))) $$ HRec
  ihave #HI_ydgr6 := (inv_at m K (c, some (.ydgr 6))) $$ HRec
  ihave #HI_ydgr7 := (inv_at m K (c, some (.ydgr 7))) $$ HRec
  ihave #HI_zdgs0 := (inv_at m K (c, some (.zdgs 0))) $$ HRec
  ihave #HR_zdgs0 := (reached_at m K (c, some (.zdgs 0))) $$ HRec
  ihave #HI_zdgs1 := (inv_at m K (c, some (.zdgs 1))) $$ HRec
  ihave #HR_zdgs1 := (reached_at m K (c, some (.zdgs 1))) $$ HRec
  ihave #HI_zdgs2 := (inv_at m K (c, some (.zdgs 2))) $$ HRec
  ihave #HR_zdgs2 := (reached_at m K (c, some (.zdgs 2))) $$ HRec
  ihave #HI_zdgs3 := (inv_at m K (c, some (.zdgs 3))) $$ HRec
  ihave #HR_zdgs3 := (reached_at m K (c, some (.zdgs 3))) $$ HRec
  ihave #HI_zdgs4 := (inv_at m K (c, some (.zdgs 4))) $$ HRec
  ihave #HR_zdgs4 := (reached_at m K (c, some (.zdgs 4))) $$ HRec
  ihave #HI_zdgs5 := (inv_at m K (c, some (.zdgs 5))) $$ HRec
  ihave #HR_zdgs5 := (reached_at m K (c, some (.zdgs 5))) $$ HRec
  ihave #HI_zdgs6 := (inv_at m K (c, some (.zdgs 6))) $$ HRec
  ihave #HR_zdgs6 := (reached_at m K (c, some (.zdgs 6))) $$ HRec
  ihave #HI_zdgs7 := (inv_at m K (c, some (.zdgs 7))) $$ HRec
  ihave #HR_zdgs7 := (reached_at m K (c, some (.zdgs 7))) $$ HRec
  ihave #HI_zdgr0 := (inv_at m K (c, some (.zdgr 0))) $$ HRec
  ihave #HI_zdgr1 := (inv_at m K (c, some (.zdgr 1))) $$ HRec
  ihave #HI_zdgr2 := (inv_at m K (c, some (.zdgr 2))) $$ HRec
  ihave #HI_zdgr3 := (inv_at m K (c, some (.zdgr 3))) $$ HRec
  ihave #HI_zdgr4 := (inv_at m K (c, some (.zdgr 4))) $$ HRec
  ihave #HI_zdgr5 := (inv_at m K (c, some (.zdgr 5))) $$ HRec
  ihave #HI_zdgr6 := (inv_at m K (c, some (.zdgr 6))) $$ HRec
  ihave #HI_zdgr7 := (inv_at m K (c, some (.zdgr 7))) $$ HRec
  ihave #HJ_xr0 := (inv_at m K (xP c, some (.xr 0))) $$ HRec
  ihave #HQ_xr0 := (reached_at m K (xP c, some (.xr 0))) $$ HRec
  ihave #HJ_xr1 := (inv_at m K (xP c, some (.xr 1))) $$ HRec
  ihave #HQ_xr1 := (reached_at m K (xP c, some (.xr 1))) $$ HRec
  ihave #HJ_xr2 := (inv_at m K (xP c, some (.xr 2))) $$ HRec
  ihave #HQ_xr2 := (reached_at m K (xP c, some (.xr 2))) $$ HRec
  ihave #HJ_xr3 := (inv_at m K (xP c, some (.xr 3))) $$ HRec
  ihave #HQ_xr3 := (reached_at m K (xP c, some (.xr 3))) $$ HRec
  ihave #HJ_xr4 := (inv_at m K (xP c, some (.xr 4))) $$ HRec
  ihave #HQ_xr4 := (reached_at m K (xP c, some (.xr 4))) $$ HRec
  ihave #HJ_xr5 := (inv_at m K (xP c, some (.xr 5))) $$ HRec
  ihave #HQ_xr5 := (reached_at m K (xP c, some (.xr 5))) $$ HRec
  ihave #HJ_xr6 := (inv_at m K (xP c, some (.xr 6))) $$ HRec
  ihave #HQ_xr6 := (reached_at m K (xP c, some (.xr 6))) $$ HRec
  ihave #HJ_xr7 := (inv_at m K (xP c, some (.xr 7))) $$ HRec
  ihave #HQ_xr7 := (reached_at m K (xP c, some (.xr 7))) $$ HRec
  ihave #HJ_xr8 := (inv_at m K (xP c, some (.xr 8))) $$ HRec
  ihave #HQ_xr8 := (reached_at m K (xP c, some (.xr 8))) $$ HRec
  ihave #HJ_xr9 := (inv_at m K (xP c, some (.xr 9))) $$ HRec
  ihave #HQ_xr9 := (reached_at m K (xP c, some (.xr 9))) $$ HRec
  ihave #HJ_xr10 := (inv_at m K (xP c, some (.xr 10))) $$ HRec
  ihave #HQ_xr10 := (reached_at m K (xP c, some (.xr 10))) $$ HRec
  ihave #HJ_xr11 := (inv_at m K (xP c, some (.xr 11))) $$ HRec
  ihave #HQ_xr11 := (reached_at m K (xP c, some (.xr 11))) $$ HRec
  ihave #HJ_xr12 := (inv_at m K (xP c, some (.xr 12))) $$ HRec
  ihave #HQ_xr12 := (reached_at m K (xP c, some (.xr 12))) $$ HRec
  ihave #HJ_xr13 := (inv_at m K (xP c, some (.xr 13))) $$ HRec
  ihave #HQ_xr13 := (reached_at m K (xP c, some (.xr 13))) $$ HRec
  ihave #HJ_xr14 := (inv_at m K (xP c, some (.xr 14))) $$ HRec
  ihave #HQ_xr14 := (reached_at m K (xP c, some (.xr 14))) $$ HRec
  ihave #HJ_xr15 := (inv_at m K (xP c, some (.xr 15))) $$ HRec
  ihave #HQ_xr15 := (reached_at m K (xP c, some (.xr 15))) $$ HRec
  ihave #HJ_ydr0 := (inv_at m K (yP c, some (.ydr 0))) $$ HRec
  ihave #HQ_ydr0 := (reached_at m K (yP c, some (.ydr 0))) $$ HRec
  ihave #HJ_ydr1 := (inv_at m K (yP c, some (.ydr 1))) $$ HRec
  ihave #HQ_ydr1 := (reached_at m K (yP c, some (.ydr 1))) $$ HRec
  ihave #HJ_ydr2 := (inv_at m K (yP c, some (.ydr 2))) $$ HRec
  ihave #HQ_ydr2 := (reached_at m K (yP c, some (.ydr 2))) $$ HRec
  ihave #HJ_ydr3 := (inv_at m K (yP c, some (.ydr 3))) $$ HRec
  ihave #HQ_ydr3 := (reached_at m K (yP c, some (.ydr 3))) $$ HRec
  ihave #HJ_ydr4 := (inv_at m K (yP c, some (.ydr 4))) $$ HRec
  ihave #HQ_ydr4 := (reached_at m K (yP c, some (.ydr 4))) $$ HRec
  ihave #HJ_ydr5 := (inv_at m K (yP c, some (.ydr 5))) $$ HRec
  ihave #HQ_ydr5 := (reached_at m K (yP c, some (.ydr 5))) $$ HRec
  ihave #HJ_ydr6 := (inv_at m K (yP c, some (.ydr 6))) $$ HRec
  ihave #HQ_ydr6 := (reached_at m K (yP c, some (.ydr 6))) $$ HRec
  ihave #HJ_ydr7 := (inv_at m K (yP c, some (.ydr 7))) $$ HRec
  ihave #HQ_ydr7 := (reached_at m K (yP c, some (.ydr 7))) $$ HRec
  ihave #HJ_ydr8 := (inv_at m K (yP c, some (.ydr 8))) $$ HRec
  ihave #HQ_ydr8 := (reached_at m K (yP c, some (.ydr 8))) $$ HRec
  ihave #HJ_ydr9 := (inv_at m K (yP c, some (.ydr 9))) $$ HRec
  ihave #HQ_ydr9 := (reached_at m K (yP c, some (.ydr 9))) $$ HRec
  ihave #HJ_ydr10 := (inv_at m K (yP c, some (.ydr 10))) $$ HRec
  ihave #HQ_ydr10 := (reached_at m K (yP c, some (.ydr 10))) $$ HRec
  ihave #HJ_ydr11 := (inv_at m K (yP c, some (.ydr 11))) $$ HRec
  ihave #HQ_ydr11 := (reached_at m K (yP c, some (.ydr 11))) $$ HRec
  ihave #HJ_ydr12 := (inv_at m K (yP c, some (.ydr 12))) $$ HRec
  ihave #HQ_ydr12 := (reached_at m K (yP c, some (.ydr 12))) $$ HRec
  ihave #HJ_ydr13 := (inv_at m K (yP c, some (.ydr 13))) $$ HRec
  ihave #HQ_ydr13 := (reached_at m K (yP c, some (.ydr 13))) $$ HRec
  ihave #HJ_ydr14 := (inv_at m K (yP c, some (.ydr 14))) $$ HRec
  ihave #HQ_ydr14 := (reached_at m K (yP c, some (.ydr 14))) $$ HRec
  ihave #HJ_ydr15 := (inv_at m K (yP c, some (.ydr 15))) $$ HRec
  ihave #HQ_ydr15 := (reached_at m K (yP c, some (.ydr 15))) $$ HRec
  ihave #HJ_zdr0 := (inv_at m K (zP c, some (.zdr 0))) $$ HRec
  ihave #HQ_zdr0 := (reached_at m K (zP c, some (.zdr 0))) $$ HRec
  ihave #HJ_zdr1 := (inv_at m K (zP c, some (.zdr 1))) $$ HRec
  ihave #HQ_zdr1 := (reached_at m K (zP c, some (.zdr 1))) $$ HRec
  ihave #HJ_zdr2 := (inv_at m K (zP c, some (.zdr 2))) $$ HRec
  ihave #HQ_zdr2 := (reached_at m K (zP c, some (.zdr 2))) $$ HRec
  ihave #HJ_zdr3 := (inv_at m K (zP c, some (.zdr 3))) $$ HRec
  ihave #HQ_zdr3 := (reached_at m K (zP c, some (.zdr 3))) $$ HRec
  ihave #HJ_zdr4 := (inv_at m K (zP c, some (.zdr 4))) $$ HRec
  ihave #HQ_zdr4 := (reached_at m K (zP c, some (.zdr 4))) $$ HRec
  ihave #HJ_zdr5 := (inv_at m K (zP c, some (.zdr 5))) $$ HRec
  ihave #HQ_zdr5 := (reached_at m K (zP c, some (.zdr 5))) $$ HRec
  ihave #HJ_zdr6 := (inv_at m K (zP c, some (.zdr 6))) $$ HRec
  ihave #HQ_zdr6 := (reached_at m K (zP c, some (.zdr 6))) $$ HRec
  ihave #HJ_zdr7 := (inv_at m K (zP c, some (.zdr 7))) $$ HRec
  ihave #HQ_zdr7 := (reached_at m K (zP c, some (.zdr 7))) $$ HRec
  ihave #HJ_zdr8 := (inv_at m K (zP c, some (.zdr 8))) $$ HRec
  ihave #HQ_zdr8 := (reached_at m K (zP c, some (.zdr 8))) $$ HRec
  ihave #HJ_zdr9 := (inv_at m K (zP c, some (.zdr 9))) $$ HRec
  ihave #HQ_zdr9 := (reached_at m K (zP c, some (.zdr 9))) $$ HRec
  ihave #HJ_zdr10 := (inv_at m K (zP c, some (.zdr 10))) $$ HRec
  ihave #HQ_zdr10 := (reached_at m K (zP c, some (.zdr 10))) $$ HRec
  ihave #HJ_zdr11 := (inv_at m K (zP c, some (.zdr 11))) $$ HRec
  ihave #HQ_zdr11 := (reached_at m K (zP c, some (.zdr 11))) $$ HRec
  ihave #HJ_zdr12 := (inv_at m K (zP c, some (.zdr 12))) $$ HRec
  ihave #HQ_zdr12 := (reached_at m K (zP c, some (.zdr 12))) $$ HRec
  ihave #HJ_zdr13 := (inv_at m K (zP c, some (.zdr 13))) $$ HRec
  ihave #HQ_zdr13 := (reached_at m K (zP c, some (.zdr 13))) $$ HRec
  ihave #HJ_zdr14 := (inv_at m K (zP c, some (.zdr 14))) $$ HRec
  ihave #HQ_zdr14 := (reached_at m K (zP c, some (.zdr 14))) $$ HRec
  ihave #HJ_zdr15 := (inv_at m K (zP c, some (.zdr 15))) $$ HRec
  ihave #HQ_zdr15 := (reached_at m K (zP c, some (.zdr 15))) $$ HRec
  ihave #HJ_ydgr0 := (inv_at m K (yP c, some (.ydgr 0))) $$ HRec
  ihave #HQ_ydgr0 := (reached_at m K (yP c, some (.ydgr 0))) $$ HRec
  ihave #HJ_ydgr1 := (inv_at m K (yP c, some (.ydgr 1))) $$ HRec
  ihave #HQ_ydgr1 := (reached_at m K (yP c, some (.ydgr 1))) $$ HRec
  ihave #HJ_ydgr2 := (inv_at m K (yP c, some (.ydgr 2))) $$ HRec
  ihave #HQ_ydgr2 := (reached_at m K (yP c, some (.ydgr 2))) $$ HRec
  ihave #HJ_ydgr3 := (inv_at m K (yP c, some (.ydgr 3))) $$ HRec
  ihave #HQ_ydgr3 := (reached_at m K (yP c, some (.ydgr 3))) $$ HRec
  ihave #HJ_ydgr4 := (inv_at m K (yP c, some (.ydgr 4))) $$ HRec
  ihave #HQ_ydgr4 := (reached_at m K (yP c, some (.ydgr 4))) $$ HRec
  ihave #HJ_ydgr5 := (inv_at m K (yP c, some (.ydgr 5))) $$ HRec
  ihave #HQ_ydgr5 := (reached_at m K (yP c, some (.ydgr 5))) $$ HRec
  ihave #HJ_ydgr6 := (inv_at m K (yP c, some (.ydgr 6))) $$ HRec
  ihave #HQ_ydgr6 := (reached_at m K (yP c, some (.ydgr 6))) $$ HRec
  ihave #HJ_ydgr7 := (inv_at m K (yP c, some (.ydgr 7))) $$ HRec
  ihave #HQ_ydgr7 := (reached_at m K (yP c, some (.ydgr 7))) $$ HRec
  ihave #HJ_zdgr0 := (inv_at m K (zP c, some (.zdgr 0))) $$ HRec
  ihave #HQ_zdgr0 := (reached_at m K (zP c, some (.zdgr 0))) $$ HRec
  ihave #HJ_zdgr1 := (inv_at m K (zP c, some (.zdgr 1))) $$ HRec
  ihave #HQ_zdgr1 := (reached_at m K (zP c, some (.zdgr 1))) $$ HRec
  ihave #HJ_zdgr2 := (inv_at m K (zP c, some (.zdgr 2))) $$ HRec
  ihave #HQ_zdgr2 := (reached_at m K (zP c, some (.zdgr 2))) $$ HRec
  ihave #HJ_zdgr3 := (inv_at m K (zP c, some (.zdgr 3))) $$ HRec
  ihave #HQ_zdgr3 := (reached_at m K (zP c, some (.zdgr 3))) $$ HRec
  ihave #HJ_zdgr4 := (inv_at m K (zP c, some (.zdgr 4))) $$ HRec
  ihave #HQ_zdgr4 := (reached_at m K (zP c, some (.zdgr 4))) $$ HRec
  ihave #HJ_zdgr5 := (inv_at m K (zP c, some (.zdgr 5))) $$ HRec
  ihave #HQ_zdgr5 := (reached_at m K (zP c, some (.zdgr 5))) $$ HRec
  ihave #HJ_zdgr6 := (inv_at m K (zP c, some (.zdgr 6))) $$ HRec
  ihave #HQ_zdgr6 := (reached_at m K (zP c, some (.zdgr 6))) $$ HRec
  ihave #HJ_zdgr7 := (inv_at m K (zP c, some (.zdgr 7))) $$ HRec
  ihave #HQ_zdgr7 := (reached_at m K (zP c, some (.zdgr 7))) $$ HRec
  -- the result, cut into its eighty chunks: its own half stays; the rest goes to the partners with the entry signals
  ihave HBout := (out_parts c f0).1 $$ HBout
  icases HBout with ⟨HBst, HBqm, HBqy, HBqz, HBqyg, HBqzg⟩
  ihave HPx := (mk_barPay_x c f0) $$ HBqm
  ihave HPy := (mk_barPay_y c f0) $$ [HBqy HBqyg]
  · isplitl [HBqy] <;> iassumption
  ihave HPz := (mk_barPay_z c f0) $$ [HBqz HBqzg]
  · isplitl [HBqz] <;> iassumption
  ihave HBst := (Entails.of_eq (bigSep_fin16 _)) $$ HBst
  icases HBst with ⟨HB_st0, HB_st1, HB_st2, HB_st3, HB_st4, HB_st5, HB_st6, HB_st7, HB_st8, HB_st9, HB_st10, HB_st11, HB_st12, HB_st13, HB_st14, HB_st15⟩
  -- the block: half of its share, by chunks of its own quarter, for the copies to the x partner; half, by local chunks, for the loads
  ihave HBin := (pointsTo_share (PosShare.mem_left_op_right fullShare)).1 $$ HBin
  icases HBin with ⟨HBinL, HBinR⟩
  ihave HBinL := (in_quarter c qL (blk m c)).1 $$ HBinL
  icases HBinL with ⟨HSx, HBinRest⟩
  ihave HSx := (Entails.of_eq (bigSep_fin16 _)) $$ HSx
  icases HSx with ⟨HS_x0, HS_x1, HS_x2, HS_x3, HS_x4, HS_x5, HS_x6, HS_x7, HS_x8, HS_x9, HS_x10, HS_x11, HS_x12, HS_x13, HS_x14, HS_x15⟩
  ihave HBinR := (in_loads c qR (blk m c)).1 $$ HBinR
  ihave HBinR := (Entails.of_eq (bigSep_fin16 _)) $$ HBinR
  icases HBinR with ⟨HS_ld0, HS_ld1, HS_ld2, HS_ld3, HS_ld4, HS_ld5, HS_ld6, HS_ld7, HS_ld8, HS_ld9, HS_ld10, HS_ld11, HS_ld12, HS_ld13, HS_ld14, HS_ld15⟩
  ihave HBvb := (vb_parts c g0).1 $$ HBvb
  ihave HBvb := (Entails.of_eq (bigSep_fin4 _)) $$ HBvb
  icases HBvb with ⟨HV0, HV1, HV2, HV3⟩
  -- the body, opened into its sequence of operations
  simp only [cc0_body_eq_skeleton]; unfold cc0_body_skel
  simp only [k0_part74_eq_skeleton, k0_part75_eq_skeleton]; unfold k0_part74_skel k0_part75_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel
  simp only [semSignalWord, semWaitWord, Prog.lift, Prog.bind_op, Prog.bind_ret, Prog.pure_eq_ret, wp_deviceId, dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq, dev64_eq, dev65_eq, dev66_eq, dev67_eq]
  unfold O₀
  -- step 1: SIG dev1
  iapply (wp_signal_bar m c (xP c) 0 (owedN c 66 1)) $$ [HO HTbx HPx]
  · isplitr; · iexact HJbx
    isplitl [HO]; · iexact HO
    isplitl [HTbx]; · iexact HTbx
    isplitl [HPx]; · iexact HPx
    iexact HQbx
  iintro HO
  -- step 2: SIG dev2
  iapply (wp_signal_bar m c (yP c) 1 (owedN c 65 2)) $$ [HO HTby HPy]
  · isplitr; · iexact HJby
    isplitl [HO]; · iexact HO
    isplitl [HTby]; · iexact HTby
    isplitl [HPy]; · iexact HPy
    iexact HQby
  iintro HO
  -- step 3: SIG dev3
  iapply (wp_signal_bar m c (zP c) 2 (owedN c 64 3)) $$ [HO HTbz HPz]
  · isplitr; · iexact HJbz
    isplitl [HO]; · iexact HO
    isplitl [HTbz]; · iexact HTbz
    isplitl [HPz]; · iexact HPz
    iexact HQbz
  iintro HO
  -- step 4: BARWAIT
  iapply (wp_wait_bar m c (owedN c 64 3)) $$ [HCb HO HAb]
  · isplitr; · iexact HIb
    isplitl [HCb]; · iexact HCb
    isplitl [HO]; · iexact HO
    isplitr; · iapply (mayWait_bar c); iexact Hlev
    iexact HAb
  iintro ⟨HO, HAb, #HRb1, HDx, HDy, HDz⟩
  ihave HDx := (Entails.of_eq ((barPay_0 c).trans (bigSep_fin16 _))) $$ HDx
  icases HDx with ⟨⟨%fdx0, HD_xr0⟩, ⟨%fdx1, HD_xr1⟩, ⟨%fdx2, HD_xr2⟩, ⟨%fdx3, HD_xr3⟩, ⟨%fdx4, HD_xr4⟩, ⟨%fdx5, HD_xr5⟩, ⟨%fdx6, HD_xr6⟩, ⟨%fdx7, HD_xr7⟩, ⟨%fdx8, HD_xr8⟩, ⟨%fdx9, HD_xr9⟩, ⟨%fdx10, HD_xr10⟩, ⟨%fdx11, HD_xr11⟩, ⟨%fdx12, HD_xr12⟩, ⟨%fdx13, HD_xr13⟩, ⟨%fdx14, HD_xr14⟩, ⟨%fdx15, HD_xr15⟩⟩
  ihave HDy := (Entails.of_eq (barPay_1 c)) $$ HDy
  icases HDy with ⟨HDy1, HDy2⟩
  ihave HDy1 := (Entails.of_eq (bigSep_fin16 _)) $$ HDy1
  icases HDy1 with ⟨⟨%fdy0, HD_ydr0⟩, ⟨%fdy1, HD_ydr1⟩, ⟨%fdy2, HD_ydr2⟩, ⟨%fdy3, HD_ydr3⟩, ⟨%fdy4, HD_ydr4⟩, ⟨%fdy5, HD_ydr5⟩, ⟨%fdy6, HD_ydr6⟩, ⟨%fdy7, HD_ydr7⟩, ⟨%fdy8, HD_ydr8⟩, ⟨%fdy9, HD_ydr9⟩, ⟨%fdy10, HD_ydr10⟩, ⟨%fdy11, HD_ydr11⟩, ⟨%fdy12, HD_ydr12⟩, ⟨%fdy13, HD_ydr13⟩, ⟨%fdy14, HD_ydr14⟩, ⟨%fdy15, HD_ydr15⟩⟩
  ihave HDy2 := (Entails.of_eq (bigSep_fin8 _)) $$ HDy2
  icases HDy2 with ⟨⟨%fdyg0, HD_ydgr0⟩, ⟨%fdyg1, HD_ydgr1⟩, ⟨%fdyg2, HD_ydgr2⟩, ⟨%fdyg3, HD_ydgr3⟩, ⟨%fdyg4, HD_ydgr4⟩, ⟨%fdyg5, HD_ydgr5⟩, ⟨%fdyg6, HD_ydgr6⟩, ⟨%fdyg7, HD_ydgr7⟩⟩
  ihave HDz := (Entails.of_eq (barPay_2 c)) $$ HDz
  icases HDz with ⟨HDz1, HDz2⟩
  ihave HDz1 := (Entails.of_eq (bigSep_fin16 _)) $$ HDz1
  icases HDz1 with ⟨⟨%fdz0, HD_zdr0⟩, ⟨%fdz1, HD_zdr1⟩, ⟨%fdz2, HD_zdr2⟩, ⟨%fdz3, HD_zdr3⟩, ⟨%fdz4, HD_zdr4⟩, ⟨%fdz5, HD_zdr5⟩, ⟨%fdz6, HD_zdr6⟩, ⟨%fdz7, HD_zdr7⟩, ⟨%fdz8, HD_zdr8⟩, ⟨%fdz9, HD_zdr9⟩, ⟨%fdz10, HD_zdr10⟩, ⟨%fdz11, HD_zdr11⟩, ⟨%fdz12, HD_zdr12⟩, ⟨%fdz13, HD_zdr13⟩, ⟨%fdz14, HD_zdr14⟩, ⟨%fdz15, HD_zdr15⟩⟩
  ihave HDz2 := (Entails.of_eq (bigSep_fin8 _)) $$ HDz2
  icases HDz2 with ⟨⟨%fdzg0, HD_zdgr0⟩, ⟨%fdzg1, HD_zdgr1⟩, ⟨%fdzg2, HD_zdgr2⟩, ⟨%fdzg3, HD_zdgr3⟩, ⟨%fdzg4, HD_zdgr4⟩, ⟨%fdzg5, HD_zdgr5⟩, ⟨%fdzg6, HD_zdgr6⟩, ⟨%fdzg7, HD_zdgr7⟩⟩
  -- step 5: SEND dev4 ss=arg5,0 rs=arg6,0
  iapply (wp_send_cell m c (xP c) _ (dev4_eq c) (.xs 0) (.xr 0) (by decide) (by decide) (by rfl) (by rfl) (by rfl) (by rfl) (credit_xDst c 0) (by exact BI.Entails.refl _) (x_pay m c 0 _) (owedN c 63 4)) $$ [HS_x0 HD_xr0 HO HT_xs0 HU_xr0]
  · isplitr; · iexact HI_xs0
    isplitr; · iexact HJ_xr0
    isplitl [HS_x0]; · iexact HS_x0
    isplitl [HD_xr0]; · iexact HD_xr0
    isplitl [HO]; · iexact HO
    isplitl [HT_xs0]; · iexact HT_xs0
    isplitr; · iexact HR_xs0
    isplitl [HU_xr0]; · iexact HU_xr0
    iexact HQ_xr0
  iintro ⟨HC_xs0, HO⟩
  -- step 6: SEND dev5 ss=arg5,1 rs=arg6,1
  iapply (wp_send_cell m c (xP c) _ (dev5_eq c) (.xs 1) (.xr 1) (by decide) (by decide) (by rfl) (by rfl) (by rfl) (by rfl) (credit_xDst c 1) (by exact BI.Entails.refl _) (x_pay m c 1 _) (owedN c 62 5)) $$ [HS_x1 HD_xr1 HO HT_xs1 HU_xr1]
  · isplitr; · iexact HI_xs1
    isplitr; · iexact HJ_xr1
    isplitl [HS_x1]; · iexact HS_x1
    isplitl [HD_xr1]; · iexact HD_xr1
    isplitl [HO]; · iexact HO
    isplitl [HT_xs1]; · iexact HT_xs1
    isplitr; · iexact HR_xs1
    isplitl [HU_xr1]; · iexact HU_xr1
    iexact HQ_xr1
  iintro ⟨HC_xs1, HO⟩
  -- step 7: SEND dev6 ss=arg5,2 rs=arg6,2
  iapply (wp_send_cell m c (xP c) _ (dev6_eq c) (.xs 2) (.xr 2) (by decide) (by decide) (by rfl) (by rfl) (by rfl) (by rfl) (credit_xDst c 2) (by exact BI.Entails.refl _) (x_pay m c 2 _) (owedN c 61 6)) $$ [HS_x2 HD_xr2 HO HT_xs2 HU_xr2]
  · isplitr; · iexact HI_xs2
    isplitr; · iexact HJ_xr2
    isplitl [HS_x2]; · iexact HS_x2
    isplitl [HD_xr2]; · iexact HD_xr2
    isplitl [HO]; · iexact HO
    isplitl [HT_xs2]; · iexact HT_xs2
    isplitr; · iexact HR_xs2
    isplitl [HU_xr2]; · iexact HU_xr2
    iexact HQ_xr2
  iintro ⟨HC_xs2, HO⟩
  -- step 8: SEND dev7 ss=arg5,3 rs=arg6,3
  iapply (wp_send_cell m c (xP c) _ (dev7_eq c) (.xs 3) (.xr 3) (by decide) (by decide) (by rfl) (by rfl) (by rfl) (by rfl) (credit_xDst c 3) (by exact BI.Entails.refl _) (x_pay m c 3 _) (owedN c 60 7)) $$ [HS_x3 HD_xr3 HO HT_xs3 HU_xr3]
  · isplitr; · iexact HI_xs3
    isplitr; · iexact HJ_xr3
    isplitl [HS_x3]; · iexact HS_x3
    isplitl [HD_xr3]; · iexact HD_xr3
    isplitl [HO]; · iexact HO
    isplitl [HT_xs3]; · iexact HT_xs3
    isplitr; · iexact HR_xs3
    isplitl [HU_xr3]; · iexact HU_xr3
    iexact HQ_xr3
  iintro ⟨HC_xs3, HO⟩
  -- step 9: SEND dev8 ss=arg5,4 rs=arg6,4
  iapply (wp_send_cell m c (xP c) _ (dev8_eq c) (.xs 4) (.xr 4) (by decide) (by decide) (by rfl) (by rfl) (by rfl) (by rfl) (credit_xDst c 4) (by exact BI.Entails.refl _) (x_pay m c 4 _) (owedN c 59 8)) $$ [HS_x4 HD_xr4 HO HT_xs4 HU_xr4]
  · isplitr; · iexact HI_xs4
    isplitr; · iexact HJ_xr4
    isplitl [HS_x4]; · iexact HS_x4
    isplitl [HD_xr4]; · iexact HD_xr4
    isplitl [HO]; · iexact HO
    isplitl [HT_xs4]; · iexact HT_xs4
    isplitr; · iexact HR_xs4
    isplitl [HU_xr4]; · iexact HU_xr4
    iexact HQ_xr4
  iintro ⟨HC_xs4, HO⟩
  -- step 10: SEND dev9 ss=arg5,5 rs=arg6,5
  iapply (wp_send_cell m c (xP c) _ (dev9_eq c) (.xs 5) (.xr 5) (by decide) (by decide) (by rfl) (by rfl) (by rfl) (by rfl) (credit_xDst c 5) (by exact BI.Entails.refl _) (x_pay m c 5 _) (owedN c 58 9)) $$ [HS_x5 HD_xr5 HO HT_xs5 HU_xr5]
  · isplitr; · iexact HI_xs5
    isplitr; · iexact HJ_xr5
    isplitl [HS_x5]; · iexact HS_x5
    isplitl [HD_xr5]; · iexact HD_xr5
    isplitl [HO]; · iexact HO
    isplitl [HT_xs5]; · iexact HT_xs5
    isplitr; · iexact HR_xs5
    isplitl [HU_xr5]; · iexact HU_xr5
    iexact HQ_xr5
  iintro ⟨HC_xs5, HO⟩
  -- step 11: SEND dev10 ss=arg5,6 rs=arg6,6
  iapply (wp_send_cell m c (xP c) _ (dev10_eq c) (.xs 6) (.xr 6) (by decide) (by decide) (by rfl) (by rfl) (by rfl) (by rfl) (credit_xDst c 6) (by exact BI.Entails.refl _) (x_pay m c 6 _) (owedN c 57 10)) $$ [HS_x6 HD_xr6 HO HT_xs6 HU_xr6]
  · isplitr; · iexact HI_xs6
    isplitr; · iexact HJ_xr6
    isplitl [HS_x6]; · iexact HS_x6
    isplitl [HD_xr6]; · iexact HD_xr6
    isplitl [HO]; · iexact HO
    isplitl [HT_xs6]; · iexact HT_xs6
    isplitr; · iexact HR_xs6
    isplitl [HU_xr6]; · iexact HU_xr6
    iexact HQ_xr6
  iintro ⟨HC_xs6, HO⟩
  -- step 12: SEND dev11 ss=arg5,7 rs=arg6,7
  iapply (wp_send_cell m c (xP c) _ (dev11_eq c) (.xs 7) (.xr 7) (by decide) (by decide) (by rfl) (by rfl) (by rfl) (by rfl) (credit_xDst c 7) (by exact BI.Entails.refl _) (x_pay m c 7 _) (owedN c 56 11)) $$ [HS_x7 HD_xr7 HO HT_xs7 HU_xr7]
  · isplitr; · iexact HI_xs7
    isplitr; · iexact HJ_xr7
    isplitl [HS_x7]; · iexact HS_x7
    isplitl [HD_xr7]; · iexact HD_xr7
    isplitl [HO]; · iexact HO
    isplitl [HT_xs7]; · iexact HT_xs7
    isplitr; · iexact HR_xs7
    isplitl [HU_xr7]; · iexact HU_xr7
    iexact HQ_xr7
  iintro ⟨HC_xs7, HO⟩
  -- step 13: SEND dev12 ss=arg5,8 rs=arg6,8
  iapply (wp_send_cell m c (xP c) _ (dev12_eq c) (.xs 8) (.xr 8) (by decide) (by decide) (by rfl) (by rfl) (by rfl) (by rfl) (credit_xDst c 8) (by exact BI.Entails.refl _) (x_pay m c 8 _) (owedN c 55 12)) $$ [HS_x8 HD_xr8 HO HT_xs8 HU_xr8]
  · isplitr; · iexact HI_xs8
    isplitr; · iexact HJ_xr8
    isplitl [HS_x8]; · iexact HS_x8
    isplitl [HD_xr8]; · iexact HD_xr8
    isplitl [HO]; · iexact HO
    isplitl [HT_xs8]; · iexact HT_xs8
    isplitr; · iexact HR_xs8
    isplitl [HU_xr8]; · iexact HU_xr8
    iexact HQ_xr8
  iintro ⟨HC_xs8, HO⟩
  -- step 14: SEND dev13 ss=arg5,9 rs=arg6,9
  iapply (wp_send_cell m c (xP c) _ (dev13_eq c) (.xs 9) (.xr 9) (by decide) (by decide) (by rfl) (by rfl) (by rfl) (by rfl) (credit_xDst c 9) (by exact BI.Entails.refl _) (x_pay m c 9 _) (owedN c 54 13)) $$ [HS_x9 HD_xr9 HO HT_xs9 HU_xr9]
  · isplitr; · iexact HI_xs9
    isplitr; · iexact HJ_xr9
    isplitl [HS_x9]; · iexact HS_x9
    isplitl [HD_xr9]; · iexact HD_xr9
    isplitl [HO]; · iexact HO
    isplitl [HT_xs9]; · iexact HT_xs9
    isplitr; · iexact HR_xs9
    isplitl [HU_xr9]; · iexact HU_xr9
    iexact HQ_xr9
  iintro ⟨HC_xs9, HO⟩
  -- step 15: SEND dev14 ss=arg5,10 rs=arg6,10
  iapply (wp_send_cell m c (xP c) _ (dev14_eq c) (.xs 10) (.xr 10) (by decide) (by decide) (by rfl) (by rfl) (by rfl) (by rfl) (credit_xDst c 10) (by exact BI.Entails.refl _) (x_pay m c 10 _) (owedN c 53 14)) $$ [HS_x10 HD_xr10 HO HT_xs10 HU_xr10]
  · isplitr; · iexact HI_xs10
    isplitr; · iexact HJ_xr10
    isplitl [HS_x10]; · iexact HS_x10
    isplitl [HD_xr10]; · iexact HD_xr10
    isplitl [HO]; · iexact HO
    isplitl [HT_xs10]; · iexact HT_xs10
    isplitr; · iexact HR_xs10
    isplitl [HU_xr10]; · iexact HU_xr10
    iexact HQ_xr10
  iintro ⟨HC_xs10, HO⟩
  -- step 16: SEND dev15 ss=arg5,11 rs=arg6,11
  iapply (wp_send_cell m c (xP c) _ (dev15_eq c) (.xs 11) (.xr 11) (by decide) (by decide) (by rfl) (by rfl) (by rfl) (by rfl) (credit_xDst c 11) (by exact BI.Entails.refl _) (x_pay m c 11 _) (owedN c 52 15)) $$ [HS_x11 HD_xr11 HO HT_xs11 HU_xr11]
  · isplitr; · iexact HI_xs11
    isplitr; · iexact HJ_xr11
    isplitl [HS_x11]; · iexact HS_x11
    isplitl [HD_xr11]; · iexact HD_xr11
    isplitl [HO]; · iexact HO
    isplitl [HT_xs11]; · iexact HT_xs11
    isplitr; · iexact HR_xs11
    isplitl [HU_xr11]; · iexact HU_xr11
    iexact HQ_xr11
  iintro ⟨HC_xs11, HO⟩
  -- step 17: SEND dev16 ss=arg5,12 rs=arg6,12
  iapply (wp_send_cell m c (xP c) _ (dev16_eq c) (.xs 12) (.xr 12) (by decide) (by decide) (by rfl) (by rfl) (by rfl) (by rfl) (credit_xDst c 12) (by exact BI.Entails.refl _) (x_pay m c 12 _) (owedN c 51 16)) $$ [HS_x12 HD_xr12 HO HT_xs12 HU_xr12]
  · isplitr; · iexact HI_xs12
    isplitr; · iexact HJ_xr12
    isplitl [HS_x12]; · iexact HS_x12
    isplitl [HD_xr12]; · iexact HD_xr12
    isplitl [HO]; · iexact HO
    isplitl [HT_xs12]; · iexact HT_xs12
    isplitr; · iexact HR_xs12
    isplitl [HU_xr12]; · iexact HU_xr12
    iexact HQ_xr12
  iintro ⟨HC_xs12, HO⟩
  -- step 18: SEND dev17 ss=arg5,13 rs=arg6,13
  iapply (wp_send_cell m c (xP c) _ (dev17_eq c) (.xs 13) (.xr 13) (by decide) (by decide) (by rfl) (by rfl) (by rfl) (by rfl) (credit_xDst c 13) (by exact BI.Entails.refl _) (x_pay m c 13 _) (owedN c 50 17)) $$ [HS_x13 HD_xr13 HO HT_xs13 HU_xr13]
  · isplitr; · iexact HI_xs13
    isplitr; · iexact HJ_xr13
    isplitl [HS_x13]; · iexact HS_x13
    isplitl [HD_xr13]; · iexact HD_xr13
    isplitl [HO]; · iexact HO
    isplitl [HT_xs13]; · iexact HT_xs13
    isplitr; · iexact HR_xs13
    isplitl [HU_xr13]; · iexact HU_xr13
    iexact HQ_xr13
  iintro ⟨HC_xs13, HO⟩
  -- step 19: SEND dev18 ss=arg5,14 rs=arg6,14
  iapply (wp_send_cell m c (xP c) _ (dev18_eq c) (.xs 14) (.xr 14) (by decide) (by decide) (by rfl) (by rfl) (by rfl) (by rfl) (credit_xDst c 14) (by exact BI.Entails.refl _) (x_pay m c 14 _) (owedN c 49 18)) $$ [HS_x14 HD_xr14 HO HT_xs14 HU_xr14]
  · isplitr; · iexact HI_xs14
    isplitr; · iexact HJ_xr14
    isplitl [HS_x14]; · iexact HS_x14
    isplitl [HD_xr14]; · iexact HD_xr14
    isplitl [HO]; · iexact HO
    isplitl [HT_xs14]; · iexact HT_xs14
    isplitr; · iexact HR_xs14
    isplitl [HU_xr14]; · iexact HU_xr14
    iexact HQ_xr14
  iintro ⟨HC_xs14, HO⟩
  -- step 20: SEND dev19 ss=arg5,15 rs=arg6,15
  iapply (wp_send_cell m c (xP c) _ (dev19_eq c) (.xs 15) (.xr 15) (by decide) (by decide) (by rfl) (by rfl) (by rfl) (by rfl) (credit_xDst c 15) (by exact BI.Entails.refl _) (x_pay m c 15 _) (owedN c 48 19)) $$ [HS_x15 HD_xr15 HO HT_xs15 HU_xr15]
  · isplitr; · iexact HI_xs15
    isplitr; · iexact HJ_xr15
    isplitl [HS_x15]; · iexact HS_x15
    isplitl [HD_xr15]; · iexact HD_xr15
    isplitl [HO]; · iexact HO
    isplitl [HT_xs15]; · iexact HT_xs15
    isplitr; · iexact HR_xs15
    isplitl [HU_xr15]; · iexact HU_xr15
    iexact HQ_xr15
  iintro ⟨HC_xs15, HO⟩
  -- step 21: COPY sem=arg3,0
  iapply (wp_copy_cell m c (.ld 0) 0 (by decide) (by rfl) (credit_vslot 0) (ld_pay m c 0 0 0 (by rfl) _)) $$ [HS_ld0 HV0 HT_ld0_0]
  · isplitr; · iexact HI_ld0
    isplitl [HS_ld0]; · iexact HS_ld0
    isplitl [HV0]; · iexact HV0
    isplitl [HT_ld0_0]; · iexact HT_ld0_0
    iexact HR_ld0
  iintro HC_ld0
  -- step 22: COPY sem=arg3,1
  iapply (wp_copy_cell m c (.ld 1) 0 (by decide) (by rfl) (credit_vslot 1) (ld_pay m c 1 1 0 (by rfl) _)) $$ [HS_ld1 HV1 HT_ld1_0]
  · isplitr; · iexact HI_ld1
    isplitl [HS_ld1]; · iexact HS_ld1
    isplitl [HV1]; · iexact HV1
    isplitl [HT_ld1_0]; · iexact HT_ld1_0
    iexact HR_ld1
  iintro HC_ld1
  -- step 23: COPY sem=arg3,2
  iapply (wp_copy_cell m c (.ld 2) 0 (by decide) (by rfl) (credit_vslot 2) (ld_pay m c 2 2 0 (by rfl) _)) $$ [HS_ld2 HV2 HT_ld2_0]
  · isplitr; · iexact HI_ld2
    isplitl [HS_ld2]; · iexact HS_ld2
    isplitl [HV2]; · iexact HV2
    isplitl [HT_ld2_0]; · iexact HT_ld2_0
    iexact HR_ld2
  iintro HC_ld2
  -- step 24: WAIT sem=arg6,0
  iapply (wp_wait_cell m c (.xr 0) 0 (by decide) (by rfl) (credit_xDst c 0) (owedN c 48 19)) $$ [HC_xr0 HO HA_xr0]
  · isplitr; · iexact HI_xr0
    isplitl [HC_xr0]; · iexact HC_xr0
    isplitl [HO]; · iexact HO
    isplitr; · iapply (mayWait_cell c (.xr 0) 48 19 rfl (Or.inr (by decide))); iexact Hlev
    iexact HA_xr0
  iintro ⟨HO, HA_xr0, #HR_xr0, Hpay⟩
  ihave HB_qm0 := (Entails.of_eq (dmaPay_xr m c 0 0)) $$ Hpay
  ihave HB_qm0 := (pointsTo_share (PosShare.mem_left_op_right fullShare)).1 $$ HB_qm0
  icases HB_qm0 with ⟨HB_qmL0, HB_qmR0⟩
  -- step 25: SEND dev20 ss=arg7,0 rs=arg8,0
  iapply (wp_send_cell m c (yP c) _ (dev20_eq c) (.yds 0) (.ydr 0) (by decide) (by decide) (by rfl) (by rfl) (by rfl) (by rfl) (credit_qMine c 0) (by exact BI.Entails.refl _) (yd_pay m c 0 _) (owedN c 47 20)) $$ [HB_qmL0 HD_ydr0 HO HT_yds0 HU_ydr0]
  · isplitr; · iexact HI_yds0
    isplitr; · iexact HJ_ydr0
    isplitl [HB_qmL0]; · iexact HB_qmL0
    isplitl [HD_ydr0]; · iexact HD_ydr0
    isplitl [HO]; · iexact HO
    isplitl [HT_yds0]; · iexact HT_yds0
    isplitr; · iexact HR_yds0
    isplitl [HU_ydr0]; · iexact HU_ydr0
    iexact HQ_ydr0
  iintro ⟨HC_yds0, HO⟩
  -- step 26: SEND dev21 ss=arg9,0 rs=arg10,0
  iapply (wp_send_cell m c (zP c) _ (dev21_eq c) (.zds 0) (.zdr 0) (by decide) (by decide) (by rfl) (by rfl) (by rfl) (by rfl) (credit_qMine c 0) (by exact BI.Entails.refl _) (zd_pay m c 0 _) (owedN c 46 21)) $$ [HB_qmR0 HD_zdr0 HO HT_zds0 HU_zdr0]
  · isplitr; · iexact HI_zds0
    isplitr; · iexact HJ_zdr0
    isplitl [HB_qmR0]; · iexact HB_qmR0
    isplitl [HD_zdr0]; · iexact HD_zdr0
    isplitl [HO]; · iexact HO
    isplitl [HT_zds0]; · iexact HT_zds0
    isplitr; · iexact HR_zds0
    isplitl [HU_zdr0]; · iexact HU_zdr0
    iexact HQ_zdr0
  iintro ⟨HC_zds0, HO⟩
  -- step 27: WAIT sem=arg3,0
  iapply (wp_wait_cell m c (.ld 0) 0 (by decide) (by rfl) (credit_vslot 0) (owedN c 46 21)) $$ [HC_ld0 HO HA_ld0]
  · isplitr; · iexact HI_ld0
    isplitl [HC_ld0]; · iexact HC_ld0
    isplitl [HO]; · iexact HO
    isplitr; · iapply (mayWait_cell c (.ld 0) 46 21 rfl (Or.inr (by decide))); iexact Hlev
    iexact HA_ld0
  iintro ⟨HO, HA_ld0, #HR_ld0, Hpay⟩
  ihave Hpay := (Entails.of_eq (dmaPay_ld m c 0 0)) $$ Hpay
  icases Hpay with ⟨HV0, HS_ld0⟩
  -- step 28: COPY sem=arg4,0
  iapply (wp_copy_cell m c (.st 0) 0 (by decide) (by rfl) (credit_stDst c 0) (st_pay m c 0 0 0 (by rfl) _)) $$ [HV0 HB_st0 HT_st0_0]
  · isplitr; · iexact HI_st0
    isplitl [HV0]; · iexact HV0
    isplitl [HB_st0]; · iexact HB_st0
    isplitl [HT_st0_0]; · iexact HT_st0_0
    iexact HR_st0
  iintro HC_st0
  -- step 29: COPY sem=arg3,3
  iapply (wp_copy_cell m c (.ld 3) 0 (by decide) (by rfl) (credit_vslot 3) (ld_pay m c 3 3 0 (by rfl) _)) $$ [HS_ld3 HV3 HT_ld3_0]
  · isplitr; · iexact HI_ld3
    isplitl [HS_ld3]; · iexact HS_ld3
    isplitl [HV3]; · iexact HV3
    isplitl [HT_ld3_0]; · iexact HT_ld3_0
    iexact HR_ld3
  iintro HC_ld3
  -- step 30: WAIT sem=arg6,1
  iapply (wp_wait_cell m c (.xr 1) 0 (by decide) (by rfl) (credit_xDst c 1) (owedN c 46 21)) $$ [HC_xr1 HO HA_xr1]
  · isplitr; · iexact HI_xr1
    isplitl [HC_xr1]; · iexact HC_xr1
    isplitl [HO]; · iexact HO
    isplitr; · iapply (mayWait_cell c (.xr 1) 46 21 rfl (Or.inr (by decide))); iexact Hlev
    iexact HA_xr1
  iintro ⟨HO, HA_xr1, #HR_xr1, Hpay⟩
  ihave HB_qm1 := (Entails.of_eq (dmaPay_xr m c 1 0)) $$ Hpay
  ihave HB_qm1 := (pointsTo_share (PosShare.mem_left_op_right fullShare)).1 $$ HB_qm1
  icases HB_qm1 with ⟨HB_qmL1, HB_qmR1⟩
  -- step 31: SEND dev22 ss=arg7,1 rs=arg8,1
  iapply (wp_send_cell m c (yP c) _ (dev22_eq c) (.yds 1) (.ydr 1) (by decide) (by decide) (by rfl) (by rfl) (by rfl) (by rfl) (credit_qMine c 1) (by exact BI.Entails.refl _) (yd_pay m c 1 _) (owedN c 45 22)) $$ [HB_qmL1 HD_ydr1 HO HT_yds1 HU_ydr1]
  · isplitr; · iexact HI_yds1
    isplitr; · iexact HJ_ydr1
    isplitl [HB_qmL1]; · iexact HB_qmL1
    isplitl [HD_ydr1]; · iexact HD_ydr1
    isplitl [HO]; · iexact HO
    isplitl [HT_yds1]; · iexact HT_yds1
    isplitr; · iexact HR_yds1
    isplitl [HU_ydr1]; · iexact HU_ydr1
    iexact HQ_ydr1
  iintro ⟨HC_yds1, HO⟩
  -- step 32: SEND dev23 ss=arg9,1 rs=arg10,1
  iapply (wp_send_cell m c (zP c) _ (dev23_eq c) (.zds 1) (.zdr 1) (by decide) (by decide) (by rfl) (by rfl) (by rfl) (by rfl) (credit_qMine c 1) (by exact BI.Entails.refl _) (zd_pay m c 1 _) (owedN c 44 23)) $$ [HB_qmR1 HD_zdr1 HO HT_zds1 HU_zdr1]
  · isplitr; · iexact HI_zds1
    isplitr; · iexact HJ_zdr1
    isplitl [HB_qmR1]; · iexact HB_qmR1
    isplitl [HD_zdr1]; · iexact HD_zdr1
    isplitl [HO]; · iexact HO
    isplitl [HT_zds1]; · iexact HT_zds1
    isplitr; · iexact HR_zds1
    isplitl [HU_zdr1]; · iexact HU_zdr1
    iexact HQ_zdr1
  iintro ⟨HC_zds1, HO⟩
  -- step 33: WAIT sem=arg3,1
  iapply (wp_wait_cell m c (.ld 1) 0 (by decide) (by rfl) (credit_vslot 1) (owedN c 44 23)) $$ [HC_ld1 HO HA_ld1]
  · isplitr; · iexact HI_ld1
    isplitl [HC_ld1]; · iexact HC_ld1
    isplitl [HO]; · iexact HO
    isplitr; · iapply (mayWait_cell c (.ld 1) 44 23 rfl (Or.inr (by decide))); iexact Hlev
    iexact HA_ld1
  iintro ⟨HO, HA_ld1, #HR_ld1, Hpay⟩
  ihave Hpay := (Entails.of_eq (dmaPay_ld m c 1 0)) $$ Hpay
  icases Hpay with ⟨HV1, HS_ld1⟩
  -- step 34: COPY sem=arg4,1
  iapply (wp_copy_cell m c (.st 1) 0 (by decide) (by rfl) (credit_stDst c 1) (st_pay m c 1 1 0 (by rfl) _)) $$ [HV1 HB_st1 HT_st1_0]
  · isplitr; · iexact HI_st1
    isplitl [HV1]; · iexact HV1
    isplitl [HB_st1]; · iexact HB_st1
    isplitl [HT_st1_0]; · iexact HT_st1_0
    iexact HR_st1
  iintro HC_st1
  -- step 35: WAIT sem=arg4,0
  iapply (wp_wait_cell m c (.st 0) 0 (by decide) (by rfl) (credit_stDst c 0) (owedN c 44 23)) $$ [HC_st0 HO HA_st0]
  · isplitr; · iexact HI_st0
    isplitl [HC_st0]; · iexact HC_st0
    isplitl [HO]; · iexact HO
    isplitr; · iapply (mayWait_cell c (.st 0) 44 23 rfl (Or.inr (by decide))); iexact Hlev
    iexact HA_st0
  iintro ⟨HO, HA_st0, #HR_st0, Hpay⟩
  ihave Hpay := (Entails.of_eq (dmaPay_st m c 0 0)) $$ Hpay
  icases Hpay with ⟨HB_st0, HV0⟩
  -- step 36: COPY sem=arg3,0
  iapply (wp_copy_cell m c (.ld 0) 1 (by decide) (by rfl) (credit_vslot 0) (ld_pay m c 4 0 1 (by rfl) _)) $$ [HS_ld4 HV0 HT_ld0_1]
  · isplitr; · iexact HI_ld0
    isplitl [HS_ld4]; · iexact HS_ld4
    isplitl [HV0]; · iexact HV0
    isplitl [HT_ld0_1]; · iexact HT_ld0_1
    iexact HR_ld0
  iintro HC_ld0
  -- step 37: WAIT sem=arg6,2
  iapply (wp_wait_cell m c (.xr 2) 0 (by decide) (by rfl) (credit_xDst c 2) (owedN c 44 23)) $$ [HC_xr2 HO HA_xr2]
  · isplitr; · iexact HI_xr2
    isplitl [HC_xr2]; · iexact HC_xr2
    isplitl [HO]; · iexact HO
    isplitr; · iapply (mayWait_cell c (.xr 2) 44 23 rfl (Or.inr (by decide))); iexact Hlev
    iexact HA_xr2
  iintro ⟨HO, HA_xr2, #HR_xr2, Hpay⟩
  ihave HB_qm2 := (Entails.of_eq (dmaPay_xr m c 2 0)) $$ Hpay
  ihave HB_qm2 := (pointsTo_share (PosShare.mem_left_op_right fullShare)).1 $$ HB_qm2
  icases HB_qm2 with ⟨HB_qmL2, HB_qmR2⟩
  -- step 38: SEND dev24 ss=arg7,2 rs=arg8,2
  iapply (wp_send_cell m c (yP c) _ (dev24_eq c) (.yds 2) (.ydr 2) (by decide) (by decide) (by rfl) (by rfl) (by rfl) (by rfl) (credit_qMine c 2) (by exact BI.Entails.refl _) (yd_pay m c 2 _) (owedN c 43 24)) $$ [HB_qmL2 HD_ydr2 HO HT_yds2 HU_ydr2]
  · isplitr; · iexact HI_yds2
    isplitr; · iexact HJ_ydr2
    isplitl [HB_qmL2]; · iexact HB_qmL2
    isplitl [HD_ydr2]; · iexact HD_ydr2
    isplitl [HO]; · iexact HO
    isplitl [HT_yds2]; · iexact HT_yds2
    isplitr; · iexact HR_yds2
    isplitl [HU_ydr2]; · iexact HU_ydr2
    iexact HQ_ydr2
  iintro ⟨HC_yds2, HO⟩
  -- step 39: SEND dev25 ss=arg9,2 rs=arg10,2
  iapply (wp_send_cell m c (zP c) _ (dev25_eq c) (.zds 2) (.zdr 2) (by decide) (by decide) (by rfl) (by rfl) (by rfl) (by rfl) (credit_qMine c 2) (by exact BI.Entails.refl _) (zd_pay m c 2 _) (owedN c 42 25)) $$ [HB_qmR2 HD_zdr2 HO HT_zds2 HU_zdr2]
  · isplitr; · iexact HI_zds2
    isplitr; · iexact HJ_zdr2
    isplitl [HB_qmR2]; · iexact HB_qmR2
    isplitl [HD_zdr2]; · iexact HD_zdr2
    isplitl [HO]; · iexact HO
    isplitl [HT_zds2]; · iexact HT_zds2
    isplitr; · iexact HR_zds2
    isplitl [HU_zdr2]; · iexact HU_zdr2
    iexact HQ_zdr2
  iintro ⟨HC_zds2, HO⟩
  -- step 40: WAIT sem=arg3,2
  iapply (wp_wait_cell m c (.ld 2) 0 (by decide) (by rfl) (credit_vslot 2) (owedN c 42 25)) $$ [HC_ld2 HO HA_ld2]
  · isplitr; · iexact HI_ld2
    isplitl [HC_ld2]; · iexact HC_ld2
    isplitl [HO]; · iexact HO
    isplitr; · iapply (mayWait_cell c (.ld 2) 42 25 rfl (Or.inr (by decide))); iexact Hlev
    iexact HA_ld2
  iintro ⟨HO, HA_ld2, #HR_ld2, Hpay⟩
  ihave Hpay := (Entails.of_eq (dmaPay_ld m c 2 0)) $$ Hpay
  icases Hpay with ⟨HV2, HS_ld2⟩
  -- step 41: COPY sem=arg4,2
  iapply (wp_copy_cell m c (.st 2) 0 (by decide) (by rfl) (credit_stDst c 2) (st_pay m c 2 2 0 (by rfl) _)) $$ [HV2 HB_st2 HT_st2_0]
  · isplitr; · iexact HI_st2
    isplitl [HV2]; · iexact HV2
    isplitl [HB_st2]; · iexact HB_st2
    isplitl [HT_st2_0]; · iexact HT_st2_0
    iexact HR_st2
  iintro HC_st2
  -- step 42: WAIT sem=arg4,1
  iapply (wp_wait_cell m c (.st 1) 0 (by decide) (by rfl) (credit_stDst c 1) (owedN c 42 25)) $$ [HC_st1 HO HA_st1]
  · isplitr; · iexact HI_st1
    isplitl [HC_st1]; · iexact HC_st1
    isplitl [HO]; · iexact HO
    isplitr; · iapply (mayWait_cell c (.st 1) 42 25 rfl (Or.inr (by decide))); iexact Hlev
    iexact HA_st1
  iintro ⟨HO, HA_st1, #HR_st1, Hpay⟩
  ihave Hpay := (Entails.of_eq (dmaPay_st m c 1 0)) $$ Hpay
  icases Hpay with ⟨HB_st1, HV1⟩
  -- step 43: COPY sem=arg3,1
  iapply (wp_copy_cell m c (.ld 1) 1 (by decide) (by rfl) (credit_vslot 1) (ld_pay m c 5 1 1 (by rfl) _)) $$ [HS_ld5 HV1 HT_ld1_1]
  · isplitr; · iexact HI_ld1
    isplitl [HS_ld5]; · iexact HS_ld5
    isplitl [HV1]; · iexact HV1
    isplitl [HT_ld1_1]; · iexact HT_ld1_1
    iexact HR_ld1
  iintro HC_ld1
  -- step 44: WAIT sem=arg6,3
  iapply (wp_wait_cell m c (.xr 3) 0 (by decide) (by rfl) (credit_xDst c 3) (owedN c 42 25)) $$ [HC_xr3 HO HA_xr3]
  · isplitr; · iexact HI_xr3
    isplitl [HC_xr3]; · iexact HC_xr3
    isplitl [HO]; · iexact HO
    isplitr; · iapply (mayWait_cell c (.xr 3) 42 25 rfl (Or.inr (by decide))); iexact Hlev
    iexact HA_xr3
  iintro ⟨HO, HA_xr3, #HR_xr3, Hpay⟩
  ihave HB_qm3 := (Entails.of_eq (dmaPay_xr m c 3 0)) $$ Hpay
  ihave HB_qm3 := (pointsTo_share (PosShare.mem_left_op_right fullShare)).1 $$ HB_qm3
  icases HB_qm3 with ⟨HB_qmL3, HB_qmR3⟩
  -- step 45: SEND dev26 ss=arg7,3 rs=arg8,3
  iapply (wp_send_cell m c (yP c) _ (dev26_eq c) (.yds 3) (.ydr 3) (by decide) (by decide) (by rfl) (by rfl) (by rfl) (by rfl) (credit_qMine c 3) (by exact BI.Entails.refl _) (yd_pay m c 3 _) (owedN c 41 26)) $$ [HB_qmL3 HD_ydr3 HO HT_yds3 HU_ydr3]
  · isplitr; · iexact HI_yds3
    isplitr; · iexact HJ_ydr3
    isplitl [HB_qmL3]; · iexact HB_qmL3
    isplitl [HD_ydr3]; · iexact HD_ydr3
    isplitl [HO]; · iexact HO
    isplitl [HT_yds3]; · iexact HT_yds3
    isplitr; · iexact HR_yds3
    isplitl [HU_ydr3]; · iexact HU_ydr3
    iexact HQ_ydr3
  iintro ⟨HC_yds3, HO⟩
  -- step 46: SEND dev27 ss=arg9,3 rs=arg10,3
  iapply (wp_send_cell m c (zP c) _ (dev27_eq c) (.zds 3) (.zdr 3) (by decide) (by decide) (by rfl) (by rfl) (by rfl) (by rfl) (credit_qMine c 3) (by exact BI.Entails.refl _) (zd_pay m c 3 _) (owedN c 40 27)) $$ [HB_qmR3 HD_zdr3 HO HT_zds3 HU_zdr3]
  · isplitr; · iexact HI_zds3
    isplitr; · iexact HJ_zdr3
    isplitl [HB_qmR3]; · iexact HB_qmR3
    isplitl [HD_zdr3]; · iexact HD_zdr3
    isplitl [HO]; · iexact HO
    isplitl [HT_zds3]; · iexact HT_zds3
    isplitr; · iexact HR_zds3
    isplitl [HU_zdr3]; · iexact HU_zdr3
    iexact HQ_zdr3
  iintro ⟨HC_zds3, HO⟩
  -- step 47: WAIT sem=arg3,3
  iapply (wp_wait_cell m c (.ld 3) 0 (by decide) (by rfl) (credit_vslot 3) (owedN c 40 27)) $$ [HC_ld3 HO HA_ld3]
  · isplitr; · iexact HI_ld3
    isplitl [HC_ld3]; · iexact HC_ld3
    isplitl [HO]; · iexact HO
    isplitr; · iapply (mayWait_cell c (.ld 3) 40 27 rfl (Or.inr (by decide))); iexact Hlev
    iexact HA_ld3
  iintro ⟨HO, HA_ld3, #HR_ld3, Hpay⟩
  ihave Hpay := (Entails.of_eq (dmaPay_ld m c 3 0)) $$ Hpay
  icases Hpay with ⟨HV3, HS_ld3⟩
  -- step 48: COPY sem=arg4,3
  iapply (wp_copy_cell m c (.st 3) 0 (by decide) (by rfl) (credit_stDst c 3) (st_pay m c 3 3 0 (by rfl) _)) $$ [HV3 HB_st3 HT_st3_0]
  · isplitr; · iexact HI_st3
    isplitl [HV3]; · iexact HV3
    isplitl [HB_st3]; · iexact HB_st3
    isplitl [HT_st3_0]; · iexact HT_st3_0
    iexact HR_st3
  iintro HC_st3
  -- step 49: WAIT sem=arg4,2
  iapply (wp_wait_cell m c (.st 2) 0 (by decide) (by rfl) (credit_stDst c 2) (owedN c 40 27)) $$ [HC_st2 HO HA_st2]
  · isplitr; · iexact HI_st2
    isplitl [HC_st2]; · iexact HC_st2
    isplitl [HO]; · iexact HO
    isplitr; · iapply (mayWait_cell c (.st 2) 40 27 rfl (Or.inr (by decide))); iexact Hlev
    iexact HA_st2
  iintro ⟨HO, HA_st2, #HR_st2, Hpay⟩
  ihave Hpay := (Entails.of_eq (dmaPay_st m c 2 0)) $$ Hpay
  icases Hpay with ⟨HB_st2, HV2⟩
  -- step 50: COPY sem=arg3,2
  iapply (wp_copy_cell m c (.ld 2) 1 (by decide) (by rfl) (credit_vslot 2) (ld_pay m c 6 2 1 (by rfl) _)) $$ [HS_ld6 HV2 HT_ld2_1]
  · isplitr; · iexact HI_ld2
    isplitl [HS_ld6]; · iexact HS_ld6
    isplitl [HV2]; · iexact HV2
    isplitl [HT_ld2_1]; · iexact HT_ld2_1
    iexact HR_ld2
  iintro HC_ld2
  -- step 51: WAIT sem=arg6,4
  iapply (wp_wait_cell m c (.xr 4) 0 (by decide) (by rfl) (credit_xDst c 4) (owedN c 40 27)) $$ [HC_xr4 HO HA_xr4]
  · isplitr; · iexact HI_xr4
    isplitl [HC_xr4]; · iexact HC_xr4
    isplitl [HO]; · iexact HO
    isplitr; · iapply (mayWait_cell c (.xr 4) 40 27 rfl (Or.inr (by decide))); iexact Hlev
    iexact HA_xr4
  iintro ⟨HO, HA_xr4, #HR_xr4, Hpay⟩
  ihave HB_qm4 := (Entails.of_eq (dmaPay_xr m c 4 0)) $$ Hpay
  ihave HB_qm4 := (pointsTo_share (PosShare.mem_left_op_right fullShare)).1 $$ HB_qm4
  icases HB_qm4 with ⟨HB_qmL4, HB_qmR4⟩
  -- step 52: SEND dev28 ss=arg7,4 rs=arg8,4
  iapply (wp_send_cell m c (yP c) _ (dev28_eq c) (.yds 4) (.ydr 4) (by decide) (by decide) (by rfl) (by rfl) (by rfl) (by rfl) (credit_qMine c 4) (by exact BI.Entails.refl _) (yd_pay m c 4 _) (owedN c 39 28)) $$ [HB_qmL4 HD_ydr4 HO HT_yds4 HU_ydr4]
  · isplitr; · iexact HI_yds4
    isplitr; · iexact HJ_ydr4
    isplitl [HB_qmL4]; · iexact HB_qmL4
    isplitl [HD_ydr4]; · iexact HD_ydr4
    isplitl [HO]; · iexact HO
    isplitl [HT_yds4]; · iexact HT_yds4
    isplitr; · iexact HR_yds4
    isplitl [HU_ydr4]; · iexact HU_ydr4
    iexact HQ_ydr4
  iintro ⟨HC_yds4, HO⟩
  -- step 53: SEND dev29 ss=arg9,4 rs=arg10,4
  iapply (wp_send_cell m c (zP c) _ (dev29_eq c) (.zds 4) (.zdr 4) (by decide) (by decide) (by rfl) (by rfl) (by rfl) (by rfl) (credit_qMine c 4) (by exact BI.Entails.refl _) (zd_pay m c 4 _) (owedN c 38 29)) $$ [HB_qmR4 HD_zdr4 HO HT_zds4 HU_zdr4]
  · isplitr; · iexact HI_zds4
    isplitr; · iexact HJ_zdr4
    isplitl [HB_qmR4]; · iexact HB_qmR4
    isplitl [HD_zdr4]; · iexact HD_zdr4
    isplitl [HO]; · iexact HO
    isplitl [HT_zds4]; · iexact HT_zds4
    isplitr; · iexact HR_zds4
    isplitl [HU_zdr4]; · iexact HU_zdr4
    iexact HQ_zdr4
  iintro ⟨HC_zds4, HO⟩
  -- step 54: WAIT sem=arg3,0
  iapply (wp_wait_cell m c (.ld 0) 1 (by decide) (by rfl) (credit_vslot 0) (owedN c 38 29)) $$ [HC_ld0 HO HA_ld0]
  · isplitr; · iexact HI_ld0
    isplitl [HC_ld0]; · iexact HC_ld0
    isplitl [HO]; · iexact HO
    isplitr; · iapply (mayWait_cell c (.ld 0) 38 29 rfl (Or.inr (by decide))); iexact Hlev
    iexact HA_ld0
  iintro ⟨HO, HA_ld0, #HR_ld0, Hpay⟩
  ihave Hpay := (Entails.of_eq (dmaPay_ld m c 0 1)) $$ Hpay
  icases Hpay with ⟨HV0, HS_ld4⟩
  -- step 55: COPY sem=arg4,0
  iapply (wp_copy_cell m c (.st 0) 1 (by decide) (by rfl) (credit_stDst c 4) (st_pay m c 4 0 1 (by rfl) _)) $$ [HV0 HB_st4 HT_st0_1]
  · isplitr; · iexact HI_st0
    isplitl [HV0]; · iexact HV0
    isplitl [HB_st4]; · iexact HB_st4
    isplitl [HT_st0_1]; · iexact HT_st0_1
    iexact HR_st0
  iintro HC_st0
  -- step 56: WAIT sem=arg4,3
  iapply (wp_wait_cell m c (.st 3) 0 (by decide) (by rfl) (credit_stDst c 3) (owedN c 38 29)) $$ [HC_st3 HO HA_st3]
  · isplitr; · iexact HI_st3
    isplitl [HC_st3]; · iexact HC_st3
    isplitl [HO]; · iexact HO
    isplitr; · iapply (mayWait_cell c (.st 3) 38 29 rfl (Or.inr (by decide))); iexact Hlev
    iexact HA_st3
  iintro ⟨HO, HA_st3, #HR_st3, Hpay⟩
  ihave Hpay := (Entails.of_eq (dmaPay_st m c 3 0)) $$ Hpay
  icases Hpay with ⟨HB_st3, HV3⟩
  -- step 57: COPY sem=arg3,3
  iapply (wp_copy_cell m c (.ld 3) 1 (by decide) (by rfl) (credit_vslot 3) (ld_pay m c 7 3 1 (by rfl) _)) $$ [HS_ld7 HV3 HT_ld3_1]
  · isplitr; · iexact HI_ld3
    isplitl [HS_ld7]; · iexact HS_ld7
    isplitl [HV3]; · iexact HV3
    isplitl [HT_ld3_1]; · iexact HT_ld3_1
    iexact HR_ld3
  iintro HC_ld3
  -- step 58: WAIT sem=arg6,5
  iapply (wp_wait_cell m c (.xr 5) 0 (by decide) (by rfl) (credit_xDst c 5) (owedN c 38 29)) $$ [HC_xr5 HO HA_xr5]
  · isplitr; · iexact HI_xr5
    isplitl [HC_xr5]; · iexact HC_xr5
    isplitl [HO]; · iexact HO
    isplitr; · iapply (mayWait_cell c (.xr 5) 38 29 rfl (Or.inr (by decide))); iexact Hlev
    iexact HA_xr5
  iintro ⟨HO, HA_xr5, #HR_xr5, Hpay⟩
  ihave HB_qm5 := (Entails.of_eq (dmaPay_xr m c 5 0)) $$ Hpay
  ihave HB_qm5 := (pointsTo_share (PosShare.mem_left_op_right fullShare)).1 $$ HB_qm5
  icases HB_qm5 with ⟨HB_qmL5, HB_qmR5⟩
  -- step 59: SEND dev30 ss=arg7,5 rs=arg8,5
  iapply (wp_send_cell m c (yP c) _ (dev30_eq c) (.yds 5) (.ydr 5) (by decide) (by decide) (by rfl) (by rfl) (by rfl) (by rfl) (credit_qMine c 5) (by exact BI.Entails.refl _) (yd_pay m c 5 _) (owedN c 37 30)) $$ [HB_qmL5 HD_ydr5 HO HT_yds5 HU_ydr5]
  · isplitr; · iexact HI_yds5
    isplitr; · iexact HJ_ydr5
    isplitl [HB_qmL5]; · iexact HB_qmL5
    isplitl [HD_ydr5]; · iexact HD_ydr5
    isplitl [HO]; · iexact HO
    isplitl [HT_yds5]; · iexact HT_yds5
    isplitr; · iexact HR_yds5
    isplitl [HU_ydr5]; · iexact HU_ydr5
    iexact HQ_ydr5
  iintro ⟨HC_yds5, HO⟩
  -- step 60: SEND dev31 ss=arg9,5 rs=arg10,5
  iapply (wp_send_cell m c (zP c) _ (dev31_eq c) (.zds 5) (.zdr 5) (by decide) (by decide) (by rfl) (by rfl) (by rfl) (by rfl) (credit_qMine c 5) (by exact BI.Entails.refl _) (zd_pay m c 5 _) (owedN c 36 31)) $$ [HB_qmR5 HD_zdr5 HO HT_zds5 HU_zdr5]
  · isplitr; · iexact HI_zds5
    isplitr; · iexact HJ_zdr5
    isplitl [HB_qmR5]; · iexact HB_qmR5
    isplitl [HD_zdr5]; · iexact HD_zdr5
    isplitl [HO]; · iexact HO
    isplitl [HT_zds5]; · iexact HT_zds5
    isplitr; · iexact HR_zds5
    isplitl [HU_zdr5]; · iexact HU_zdr5
    iexact HQ_zdr5
  iintro ⟨HC_zds5, HO⟩
  -- step 61: WAIT sem=arg3,1
  iapply (wp_wait_cell m c (.ld 1) 1 (by decide) (by rfl) (credit_vslot 1) (owedN c 36 31)) $$ [HC_ld1 HO HA_ld1]
  · isplitr; · iexact HI_ld1
    isplitl [HC_ld1]; · iexact HC_ld1
    isplitl [HO]; · iexact HO
    isplitr; · iapply (mayWait_cell c (.ld 1) 36 31 rfl (Or.inr (by decide))); iexact Hlev
    iexact HA_ld1
  iintro ⟨HO, HA_ld1, #HR_ld1, Hpay⟩
  ihave Hpay := (Entails.of_eq (dmaPay_ld m c 1 1)) $$ Hpay
  icases Hpay with ⟨HV1, HS_ld5⟩
  -- step 62: COPY sem=arg4,1
  iapply (wp_copy_cell m c (.st 1) 1 (by decide) (by rfl) (credit_stDst c 5) (st_pay m c 5 1 1 (by rfl) _)) $$ [HV1 HB_st5 HT_st1_1]
  · isplitr; · iexact HI_st1
    isplitl [HV1]; · iexact HV1
    isplitl [HB_st5]; · iexact HB_st5
    isplitl [HT_st1_1]; · iexact HT_st1_1
    iexact HR_st1
  iintro HC_st1
  -- step 63: WAIT sem=arg4,0
  iapply (wp_wait_cell m c (.st 0) 1 (by decide) (by rfl) (credit_stDst c 4) (owedN c 36 31)) $$ [HC_st0 HO HA_st0]
  · isplitr; · iexact HI_st0
    isplitl [HC_st0]; · iexact HC_st0
    isplitl [HO]; · iexact HO
    isplitr; · iapply (mayWait_cell c (.st 0) 36 31 rfl (Or.inr (by decide))); iexact Hlev
    iexact HA_st0
  iintro ⟨HO, HA_st0, #HR_st0, Hpay⟩
  ihave Hpay := (Entails.of_eq (dmaPay_st m c 0 1)) $$ Hpay
  icases Hpay with ⟨HB_st4, HV0⟩
  -- step 64: COPY sem=arg3,0
  iapply (wp_copy_cell m c (.ld 0) 2 (by decide) (by rfl) (credit_vslot 0) (ld_pay m c 8 0 2 (by rfl) _)) $$ [HS_ld8 HV0 HT_ld0_2]
  · isplitr; · iexact HI_ld0
    isplitl [HS_ld8]; · iexact HS_ld8
    isplitl [HV0]; · iexact HV0
    isplitl [HT_ld0_2]; · iexact HT_ld0_2
    iexact HR_ld0
  iintro HC_ld0
  -- step 65: WAIT sem=arg6,6
  iapply (wp_wait_cell m c (.xr 6) 0 (by decide) (by rfl) (credit_xDst c 6) (owedN c 36 31)) $$ [HC_xr6 HO HA_xr6]
  · isplitr; · iexact HI_xr6
    isplitl [HC_xr6]; · iexact HC_xr6
    isplitl [HO]; · iexact HO
    isplitr; · iapply (mayWait_cell c (.xr 6) 36 31 rfl (Or.inr (by decide))); iexact Hlev
    iexact HA_xr6
  iintro ⟨HO, HA_xr6, #HR_xr6, Hpay⟩
  ihave HB_qm6 := (Entails.of_eq (dmaPay_xr m c 6 0)) $$ Hpay
  ihave HB_qm6 := (pointsTo_share (PosShare.mem_left_op_right fullShare)).1 $$ HB_qm6
  icases HB_qm6 with ⟨HB_qmL6, HB_qmR6⟩
  -- step 66: SEND dev32 ss=arg7,6 rs=arg8,6
  iapply (wp_send_cell m c (yP c) _ (dev32_eq c) (.yds 6) (.ydr 6) (by decide) (by decide) (by rfl) (by rfl) (by rfl) (by rfl) (credit_qMine c 6) (by exact BI.Entails.refl _) (yd_pay m c 6 _) (owedN c 35 32)) $$ [HB_qmL6 HD_ydr6 HO HT_yds6 HU_ydr6]
  · isplitr; · iexact HI_yds6
    isplitr; · iexact HJ_ydr6
    isplitl [HB_qmL6]; · iexact HB_qmL6
    isplitl [HD_ydr6]; · iexact HD_ydr6
    isplitl [HO]; · iexact HO
    isplitl [HT_yds6]; · iexact HT_yds6
    isplitr; · iexact HR_yds6
    isplitl [HU_ydr6]; · iexact HU_ydr6
    iexact HQ_ydr6
  iintro ⟨HC_yds6, HO⟩
  -- step 67: SEND dev33 ss=arg9,6 rs=arg10,6
  iapply (wp_send_cell m c (zP c) _ (dev33_eq c) (.zds 6) (.zdr 6) (by decide) (by decide) (by rfl) (by rfl) (by rfl) (by rfl) (credit_qMine c 6) (by exact BI.Entails.refl _) (zd_pay m c 6 _) (owedN c 34 33)) $$ [HB_qmR6 HD_zdr6 HO HT_zds6 HU_zdr6]
  · isplitr; · iexact HI_zds6
    isplitr; · iexact HJ_zdr6
    isplitl [HB_qmR6]; · iexact HB_qmR6
    isplitl [HD_zdr6]; · iexact HD_zdr6
    isplitl [HO]; · iexact HO
    isplitl [HT_zds6]; · iexact HT_zds6
    isplitr; · iexact HR_zds6
    isplitl [HU_zdr6]; · iexact HU_zdr6
    iexact HQ_zdr6
  iintro ⟨HC_zds6, HO⟩
  -- step 68: WAIT sem=arg3,2
  iapply (wp_wait_cell m c (.ld 2) 1 (by decide) (by rfl) (credit_vslot 2) (owedN c 34 33)) $$ [HC_ld2 HO HA_ld2]
  · isplitr; · iexact HI_ld2
    isplitl [HC_ld2]; · iexact HC_ld2
    isplitl [HO]; · iexact HO
    isplitr; · iapply (mayWait_cell c (.ld 2) 34 33 rfl (Or.inr (by decide))); iexact Hlev
    iexact HA_ld2
  iintro ⟨HO, HA_ld2, #HR_ld2, Hpay⟩
  ihave Hpay := (Entails.of_eq (dmaPay_ld m c 2 1)) $$ Hpay
  icases Hpay with ⟨HV2, HS_ld6⟩
  -- step 69: COPY sem=arg4,2
  iapply (wp_copy_cell m c (.st 2) 1 (by decide) (by rfl) (credit_stDst c 6) (st_pay m c 6 2 1 (by rfl) _)) $$ [HV2 HB_st6 HT_st2_1]
  · isplitr; · iexact HI_st2
    isplitl [HV2]; · iexact HV2
    isplitl [HB_st6]; · iexact HB_st6
    isplitl [HT_st2_1]; · iexact HT_st2_1
    iexact HR_st2
  iintro HC_st2
  -- step 70: WAIT sem=arg4,1
  iapply (wp_wait_cell m c (.st 1) 1 (by decide) (by rfl) (credit_stDst c 5) (owedN c 34 33)) $$ [HC_st1 HO HA_st1]
  · isplitr; · iexact HI_st1
    isplitl [HC_st1]; · iexact HC_st1
    isplitl [HO]; · iexact HO
    isplitr; · iapply (mayWait_cell c (.st 1) 34 33 rfl (Or.inr (by decide))); iexact Hlev
    iexact HA_st1
  iintro ⟨HO, HA_st1, #HR_st1, Hpay⟩
  ihave Hpay := (Entails.of_eq (dmaPay_st m c 1 1)) $$ Hpay
  icases Hpay with ⟨HB_st5, HV1⟩
  -- step 71: COPY sem=arg3,1
  iapply (wp_copy_cell m c (.ld 1) 2 (by decide) (by rfl) (credit_vslot 1) (ld_pay m c 9 1 2 (by rfl) _)) $$ [HS_ld9 HV1 HT_ld1_2]
  · isplitr; · iexact HI_ld1
    isplitl [HS_ld9]; · iexact HS_ld9
    isplitl [HV1]; · iexact HV1
    isplitl [HT_ld1_2]; · iexact HT_ld1_2
    iexact HR_ld1
  iintro HC_ld1
  -- step 72: WAIT sem=arg6,7
  iapply (wp_wait_cell m c (.xr 7) 0 (by decide) (by rfl) (credit_xDst c 7) (owedN c 34 33)) $$ [HC_xr7 HO HA_xr7]
  · isplitr; · iexact HI_xr7
    isplitl [HC_xr7]; · iexact HC_xr7
    isplitl [HO]; · iexact HO
    isplitr; · iapply (mayWait_cell c (.xr 7) 34 33 rfl (Or.inr (by decide))); iexact Hlev
    iexact HA_xr7
  iintro ⟨HO, HA_xr7, #HR_xr7, Hpay⟩
  ihave HB_qm7 := (Entails.of_eq (dmaPay_xr m c 7 0)) $$ Hpay
  ihave HB_qm7 := (pointsTo_share (PosShare.mem_left_op_right fullShare)).1 $$ HB_qm7
  icases HB_qm7 with ⟨HB_qmL7, HB_qmR7⟩
  -- step 73: SEND dev34 ss=arg7,7 rs=arg8,7
  iapply (wp_send_cell m c (yP c) _ (dev34_eq c) (.yds 7) (.ydr 7) (by decide) (by decide) (by rfl) (by rfl) (by rfl) (by rfl) (credit_qMine c 7) (by exact BI.Entails.refl _) (yd_pay m c 7 _) (owedN c 33 34)) $$ [HB_qmL7 HD_ydr7 HO HT_yds7 HU_ydr7]
  · isplitr; · iexact HI_yds7
    isplitr; · iexact HJ_ydr7
    isplitl [HB_qmL7]; · iexact HB_qmL7
    isplitl [HD_ydr7]; · iexact HD_ydr7
    isplitl [HO]; · iexact HO
    isplitl [HT_yds7]; · iexact HT_yds7
    isplitr; · iexact HR_yds7
    isplitl [HU_ydr7]; · iexact HU_ydr7
    iexact HQ_ydr7
  iintro ⟨HC_yds7, HO⟩
  -- step 74: SEND dev35 ss=arg9,7 rs=arg10,7
  iapply (wp_send_cell m c (zP c) _ (dev35_eq c) (.zds 7) (.zdr 7) (by decide) (by decide) (by rfl) (by rfl) (by rfl) (by rfl) (credit_qMine c 7) (by exact BI.Entails.refl _) (zd_pay m c 7 _) (owedN c 32 35)) $$ [HB_qmR7 HD_zdr7 HO HT_zds7 HU_zdr7]
  · isplitr; · iexact HI_zds7
    isplitr; · iexact HJ_zdr7
    isplitl [HB_qmR7]; · iexact HB_qmR7
    isplitl [HD_zdr7]; · iexact HD_zdr7
    isplitl [HO]; · iexact HO
    isplitl [HT_zds7]; · iexact HT_zds7
    isplitr; · iexact HR_zds7
    isplitl [HU_zdr7]; · iexact HU_zdr7
    iexact HQ_zdr7
  iintro ⟨HC_zds7, HO⟩
  -- step 75: WAIT sem=arg3,3
  iapply (wp_wait_cell m c (.ld 3) 1 (by decide) (by rfl) (credit_vslot 3) (owedN c 32 35)) $$ [HC_ld3 HO HA_ld3]
  · isplitr; · iexact HI_ld3
    isplitl [HC_ld3]; · iexact HC_ld3
    isplitl [HO]; · iexact HO
    isplitr; · iapply (mayWait_cell c (.ld 3) 32 35 rfl (Or.inr (by decide))); iexact Hlev
    iexact HA_ld3
  iintro ⟨HO, HA_ld3, #HR_ld3, Hpay⟩
  ihave Hpay := (Entails.of_eq (dmaPay_ld m c 3 1)) $$ Hpay
  icases Hpay with ⟨HV3, HS_ld7⟩
  -- step 76: COPY sem=arg4,3
  iapply (wp_copy_cell m c (.st 3) 1 (by decide) (by rfl) (credit_stDst c 7) (st_pay m c 7 3 1 (by rfl) _)) $$ [HV3 HB_st7 HT_st3_1]
  · isplitr; · iexact HI_st3
    isplitl [HV3]; · iexact HV3
    isplitl [HB_st7]; · iexact HB_st7
    isplitl [HT_st3_1]; · iexact HT_st3_1
    iexact HR_st3
  iintro HC_st3
  -- step 77: WAIT sem=arg4,2
  iapply (wp_wait_cell m c (.st 2) 1 (by decide) (by rfl) (credit_stDst c 6) (owedN c 32 35)) $$ [HC_st2 HO HA_st2]
  · isplitr; · iexact HI_st2
    isplitl [HC_st2]; · iexact HC_st2
    isplitl [HO]; · iexact HO
    isplitr; · iapply (mayWait_cell c (.st 2) 32 35 rfl (Or.inr (by decide))); iexact Hlev
    iexact HA_st2
  iintro ⟨HO, HA_st2, #HR_st2, Hpay⟩
  ihave Hpay := (Entails.of_eq (dmaPay_st m c 2 1)) $$ Hpay
  icases Hpay with ⟨HB_st6, HV2⟩
  -- step 78: COPY sem=arg3,2
  iapply (wp_copy_cell m c (.ld 2) 2 (by decide) (by rfl) (credit_vslot 2) (ld_pay m c 10 2 2 (by rfl) _)) $$ [HS_ld10 HV2 HT_ld2_2]
  · isplitr; · iexact HI_ld2
    isplitl [HS_ld10]; · iexact HS_ld10
    isplitl [HV2]; · iexact HV2
    isplitl [HT_ld2_2]; · iexact HT_ld2_2
    iexact HR_ld2
  iintro HC_ld2
  -- step 79: WAIT sem=arg6,8
  iapply (wp_wait_cell m c (.xr 8) 0 (by decide) (by rfl) (credit_xDst c 8) (owedN c 32 35)) $$ [HC_xr8 HO HA_xr8]
  · isplitr; · iexact HI_xr8
    isplitl [HC_xr8]; · iexact HC_xr8
    isplitl [HO]; · iexact HO
    isplitr; · iapply (mayWait_cell c (.xr 8) 32 35 rfl (Or.inr (by decide))); iexact Hlev
    iexact HA_xr8
  iintro ⟨HO, HA_xr8, #HR_xr8, Hpay⟩
  ihave HB_qm8 := (Entails.of_eq (dmaPay_xr m c 8 0)) $$ Hpay
  ihave HB_qm8 := (pointsTo_share (PosShare.mem_left_op_right fullShare)).1 $$ HB_qm8
  icases HB_qm8 with ⟨HB_qmL8, HB_qmR8⟩
  -- step 80: SEND dev36 ss=arg7,8 rs=arg8,8
  iapply (wp_send_cell m c (yP c) _ (dev36_eq c) (.yds 8) (.ydr 8) (by decide) (by decide) (by rfl) (by rfl) (by rfl) (by rfl) (credit_qMine c 8) (by exact BI.Entails.refl _) (yd_pay m c 8 _) (owedN c 31 36)) $$ [HB_qmL8 HD_ydr8 HO HT_yds8 HU_ydr8]
  · isplitr; · iexact HI_yds8
    isplitr; · iexact HJ_ydr8
    isplitl [HB_qmL8]; · iexact HB_qmL8
    isplitl [HD_ydr8]; · iexact HD_ydr8
    isplitl [HO]; · iexact HO
    isplitl [HT_yds8]; · iexact HT_yds8
    isplitr; · iexact HR_yds8
    isplitl [HU_ydr8]; · iexact HU_ydr8
    iexact HQ_ydr8
  iintro ⟨HC_yds8, HO⟩
  -- step 81: SEND dev37 ss=arg9,8 rs=arg10,8
  iapply (wp_send_cell m c (zP c) _ (dev37_eq c) (.zds 8) (.zdr 8) (by decide) (by decide) (by rfl) (by rfl) (by rfl) (by rfl) (credit_qMine c 8) (by exact BI.Entails.refl _) (zd_pay m c 8 _) (owedN c 30 37)) $$ [HB_qmR8 HD_zdr8 HO HT_zds8 HU_zdr8]
  · isplitr; · iexact HI_zds8
    isplitr; · iexact HJ_zdr8
    isplitl [HB_qmR8]; · iexact HB_qmR8
    isplitl [HD_zdr8]; · iexact HD_zdr8
    isplitl [HO]; · iexact HO
    isplitl [HT_zds8]; · iexact HT_zds8
    isplitr; · iexact HR_zds8
    isplitl [HU_zdr8]; · iexact HU_zdr8
    iexact HQ_zdr8
  iintro ⟨HC_zds8, HO⟩
  -- step 82: WAIT sem=arg3,0
  iapply (wp_wait_cell m c (.ld 0) 2 (by decide) (by rfl) (credit_vslot 0) (owedN c 30 37)) $$ [HC_ld0 HO HA_ld0]
  · isplitr; · iexact HI_ld0
    isplitl [HC_ld0]; · iexact HC_ld0
    isplitl [HO]; · iexact HO
    isplitr; · iapply (mayWait_cell c (.ld 0) 30 37 rfl (Or.inr (by decide))); iexact Hlev
    iexact HA_ld0
  iintro ⟨HO, HA_ld0, #HR_ld0, Hpay⟩
  ihave Hpay := (Entails.of_eq (dmaPay_ld m c 0 2)) $$ Hpay
  icases Hpay with ⟨HV0, HS_ld8⟩
  -- step 83: COPY sem=arg4,0
  iapply (wp_copy_cell m c (.st 0) 2 (by decide) (by rfl) (credit_stDst c 8) (st_pay m c 8 0 2 (by rfl) _)) $$ [HV0 HB_st8 HT_st0_2]
  · isplitr; · iexact HI_st0
    isplitl [HV0]; · iexact HV0
    isplitl [HB_st8]; · iexact HB_st8
    isplitl [HT_st0_2]; · iexact HT_st0_2
    iexact HR_st0
  iintro HC_st0
  -- step 84: WAIT sem=arg4,3
  iapply (wp_wait_cell m c (.st 3) 1 (by decide) (by rfl) (credit_stDst c 7) (owedN c 30 37)) $$ [HC_st3 HO HA_st3]
  · isplitr; · iexact HI_st3
    isplitl [HC_st3]; · iexact HC_st3
    isplitl [HO]; · iexact HO
    isplitr; · iapply (mayWait_cell c (.st 3) 30 37 rfl (Or.inr (by decide))); iexact Hlev
    iexact HA_st3
  iintro ⟨HO, HA_st3, #HR_st3, Hpay⟩
  ihave Hpay := (Entails.of_eq (dmaPay_st m c 3 1)) $$ Hpay
  icases Hpay with ⟨HB_st7, HV3⟩
  -- step 85: COPY sem=arg3,3
  iapply (wp_copy_cell m c (.ld 3) 2 (by decide) (by rfl) (credit_vslot 3) (ld_pay m c 11 3 2 (by rfl) _)) $$ [HS_ld11 HV3 HT_ld3_2]
  · isplitr; · iexact HI_ld3
    isplitl [HS_ld11]; · iexact HS_ld11
    isplitl [HV3]; · iexact HV3
    isplitl [HT_ld3_2]; · iexact HT_ld3_2
    iexact HR_ld3
  iintro HC_ld3
  -- step 86: WAIT sem=arg6,9
  iapply (wp_wait_cell m c (.xr 9) 0 (by decide) (by rfl) (credit_xDst c 9) (owedN c 30 37)) $$ [HC_xr9 HO HA_xr9]
  · isplitr; · iexact HI_xr9
    isplitl [HC_xr9]; · iexact HC_xr9
    isplitl [HO]; · iexact HO
    isplitr; · iapply (mayWait_cell c (.xr 9) 30 37 rfl (Or.inr (by decide))); iexact Hlev
    iexact HA_xr9
  iintro ⟨HO, HA_xr9, #HR_xr9, Hpay⟩
  ihave HB_qm9 := (Entails.of_eq (dmaPay_xr m c 9 0)) $$ Hpay
  ihave HB_qm9 := (pointsTo_share (PosShare.mem_left_op_right fullShare)).1 $$ HB_qm9
  icases HB_qm9 with ⟨HB_qmL9, HB_qmR9⟩
  -- step 87: SEND dev38 ss=arg7,9 rs=arg8,9
  iapply (wp_send_cell m c (yP c) _ (dev38_eq c) (.yds 9) (.ydr 9) (by decide) (by decide) (by rfl) (by rfl) (by rfl) (by rfl) (credit_qMine c 9) (by exact BI.Entails.refl _) (yd_pay m c 9 _) (owedN c 29 38)) $$ [HB_qmL9 HD_ydr9 HO HT_yds9 HU_ydr9]
  · isplitr; · iexact HI_yds9
    isplitr; · iexact HJ_ydr9
    isplitl [HB_qmL9]; · iexact HB_qmL9
    isplitl [HD_ydr9]; · iexact HD_ydr9
    isplitl [HO]; · iexact HO
    isplitl [HT_yds9]; · iexact HT_yds9
    isplitr; · iexact HR_yds9
    isplitl [HU_ydr9]; · iexact HU_ydr9
    iexact HQ_ydr9
  iintro ⟨HC_yds9, HO⟩
  -- step 88: SEND dev39 ss=arg9,9 rs=arg10,9
  iapply (wp_send_cell m c (zP c) _ (dev39_eq c) (.zds 9) (.zdr 9) (by decide) (by decide) (by rfl) (by rfl) (by rfl) (by rfl) (credit_qMine c 9) (by exact BI.Entails.refl _) (zd_pay m c 9 _) (owedN c 28 39)) $$ [HB_qmR9 HD_zdr9 HO HT_zds9 HU_zdr9]
  · isplitr; · iexact HI_zds9
    isplitr; · iexact HJ_zdr9
    isplitl [HB_qmR9]; · iexact HB_qmR9
    isplitl [HD_zdr9]; · iexact HD_zdr9
    isplitl [HO]; · iexact HO
    isplitl [HT_zds9]; · iexact HT_zds9
    isplitr; · iexact HR_zds9
    isplitl [HU_zdr9]; · iexact HU_zdr9
    iexact HQ_zdr9
  iintro ⟨HC_zds9, HO⟩
  -- step 89: WAIT sem=arg3,1
  iapply (wp_wait_cell m c (.ld 1) 2 (by decide) (by rfl) (credit_vslot 1) (owedN c 28 39)) $$ [HC_ld1 HO HA_ld1]
  · isplitr; · iexact HI_ld1
    isplitl [HC_ld1]; · iexact HC_ld1
    isplitl [HO]; · iexact HO
    isplitr; · iapply (mayWait_cell c (.ld 1) 28 39 rfl (Or.inr (by decide))); iexact Hlev
    iexact HA_ld1
  iintro ⟨HO, HA_ld1, #HR_ld1, Hpay⟩
  ihave Hpay := (Entails.of_eq (dmaPay_ld m c 1 2)) $$ Hpay
  icases Hpay with ⟨HV1, HS_ld9⟩
  -- step 90: COPY sem=arg4,1
  iapply (wp_copy_cell m c (.st 1) 2 (by decide) (by rfl) (credit_stDst c 9) (st_pay m c 9 1 2 (by rfl) _)) $$ [HV1 HB_st9 HT_st1_2]
  · isplitr; · iexact HI_st1
    isplitl [HV1]; · iexact HV1
    isplitl [HB_st9]; · iexact HB_st9
    isplitl [HT_st1_2]; · iexact HT_st1_2
    iexact HR_st1
  iintro HC_st1
  -- step 91: WAIT sem=arg4,0
  iapply (wp_wait_cell m c (.st 0) 2 (by decide) (by rfl) (credit_stDst c 8) (owedN c 28 39)) $$ [HC_st0 HO HA_st0]
  · isplitr; · iexact HI_st0
    isplitl [HC_st0]; · iexact HC_st0
    isplitl [HO]; · iexact HO
    isplitr; · iapply (mayWait_cell c (.st 0) 28 39 rfl (Or.inr (by decide))); iexact Hlev
    iexact HA_st0
  iintro ⟨HO, HA_st0, #HR_st0, Hpay⟩
  ihave Hpay := (Entails.of_eq (dmaPay_st m c 0 2)) $$ Hpay
  icases Hpay with ⟨HB_st8, HV0⟩
  -- step 92: COPY sem=arg3,0
  iapply (wp_copy_cell m c (.ld 0) 3 (by decide) (by rfl) (credit_vslot 0) (ld_pay m c 12 0 3 (by rfl) _)) $$ [HS_ld12 HV0 HT_ld0_3]
  · isplitr; · iexact HI_ld0
    isplitl [HS_ld12]; · iexact HS_ld12
    isplitl [HV0]; · iexact HV0
    isplitl [HT_ld0_3]; · iexact HT_ld0_3
    iexact HR_ld0
  iintro HC_ld0
  -- step 93: WAIT sem=arg6,10
  iapply (wp_wait_cell m c (.xr 10) 0 (by decide) (by rfl) (credit_xDst c 10) (owedN c 28 39)) $$ [HC_xr10 HO HA_xr10]
  · isplitr; · iexact HI_xr10
    isplitl [HC_xr10]; · iexact HC_xr10
    isplitl [HO]; · iexact HO
    isplitr; · iapply (mayWait_cell c (.xr 10) 28 39 rfl (Or.inr (by decide))); iexact Hlev
    iexact HA_xr10
  iintro ⟨HO, HA_xr10, #HR_xr10, Hpay⟩
  ihave HB_qm10 := (Entails.of_eq (dmaPay_xr m c 10 0)) $$ Hpay
  ihave HB_qm10 := (pointsTo_share (PosShare.mem_left_op_right fullShare)).1 $$ HB_qm10
  icases HB_qm10 with ⟨HB_qmL10, HB_qmR10⟩
  -- step 94: SEND dev40 ss=arg7,10 rs=arg8,10
  iapply (wp_send_cell m c (yP c) _ (dev40_eq c) (.yds 10) (.ydr 10) (by decide) (by decide) (by rfl) (by rfl) (by rfl) (by rfl) (credit_qMine c 10) (by exact BI.Entails.refl _) (yd_pay m c 10 _) (owedN c 27 40)) $$ [HB_qmL10 HD_ydr10 HO HT_yds10 HU_ydr10]
  · isplitr; · iexact HI_yds10
    isplitr; · iexact HJ_ydr10
    isplitl [HB_qmL10]; · iexact HB_qmL10
    isplitl [HD_ydr10]; · iexact HD_ydr10
    isplitl [HO]; · iexact HO
    isplitl [HT_yds10]; · iexact HT_yds10
    isplitr; · iexact HR_yds10
    isplitl [HU_ydr10]; · iexact HU_ydr10
    iexact HQ_ydr10
  iintro ⟨HC_yds10, HO⟩
  -- step 95: SEND dev41 ss=arg9,10 rs=arg10,10
  iapply (wp_send_cell m c (zP c) _ (dev41_eq c) (.zds 10) (.zdr 10) (by decide) (by decide) (by rfl) (by rfl) (by rfl) (by rfl) (credit_qMine c 10) (by exact BI.Entails.refl _) (zd_pay m c 10 _) (owedN c 26 41)) $$ [HB_qmR10 HD_zdr10 HO HT_zds10 HU_zdr10]
  · isplitr; · iexact HI_zds10
    isplitr; · iexact HJ_zdr10
    isplitl [HB_qmR10]; · iexact HB_qmR10
    isplitl [HD_zdr10]; · iexact HD_zdr10
    isplitl [HO]; · iexact HO
    isplitl [HT_zds10]; · iexact HT_zds10
    isplitr; · iexact HR_zds10
    isplitl [HU_zdr10]; · iexact HU_zdr10
    iexact HQ_zdr10
  iintro ⟨HC_zds10, HO⟩
  -- step 96: WAIT sem=arg3,2
  iapply (wp_wait_cell m c (.ld 2) 2 (by decide) (by rfl) (credit_vslot 2) (owedN c 26 41)) $$ [HC_ld2 HO HA_ld2]
  · isplitr; · iexact HI_ld2
    isplitl [HC_ld2]; · iexact HC_ld2
    isplitl [HO]; · iexact HO
    isplitr; · iapply (mayWait_cell c (.ld 2) 26 41 rfl (Or.inr (by decide))); iexact Hlev
    iexact HA_ld2
  iintro ⟨HO, HA_ld2, #HR_ld2, Hpay⟩
  ihave Hpay := (Entails.of_eq (dmaPay_ld m c 2 2)) $$ Hpay
  icases Hpay with ⟨HV2, HS_ld10⟩
  -- step 97: COPY sem=arg4,2
  iapply (wp_copy_cell m c (.st 2) 2 (by decide) (by rfl) (credit_stDst c 10) (st_pay m c 10 2 2 (by rfl) _)) $$ [HV2 HB_st10 HT_st2_2]
  · isplitr; · iexact HI_st2
    isplitl [HV2]; · iexact HV2
    isplitl [HB_st10]; · iexact HB_st10
    isplitl [HT_st2_2]; · iexact HT_st2_2
    iexact HR_st2
  iintro HC_st2
  -- step 98: WAIT sem=arg4,1
  iapply (wp_wait_cell m c (.st 1) 2 (by decide) (by rfl) (credit_stDst c 9) (owedN c 26 41)) $$ [HC_st1 HO HA_st1]
  · isplitr; · iexact HI_st1
    isplitl [HC_st1]; · iexact HC_st1
    isplitl [HO]; · iexact HO
    isplitr; · iapply (mayWait_cell c (.st 1) 26 41 rfl (Or.inr (by decide))); iexact Hlev
    iexact HA_st1
  iintro ⟨HO, HA_st1, #HR_st1, Hpay⟩
  ihave Hpay := (Entails.of_eq (dmaPay_st m c 1 2)) $$ Hpay
  icases Hpay with ⟨HB_st9, HV1⟩
  -- step 99: COPY sem=arg3,1
  iapply (wp_copy_cell m c (.ld 1) 3 (by decide) (by rfl) (credit_vslot 1) (ld_pay m c 13 1 3 (by rfl) _)) $$ [HS_ld13 HV1 HT_ld1_3]
  · isplitr; · iexact HI_ld1
    isplitl [HS_ld13]; · iexact HS_ld13
    isplitl [HV1]; · iexact HV1
    isplitl [HT_ld1_3]; · iexact HT_ld1_3
    iexact HR_ld1
  iintro HC_ld1
  -- step 100: WAIT sem=arg6,11
  iapply (wp_wait_cell m c (.xr 11) 0 (by decide) (by rfl) (credit_xDst c 11) (owedN c 26 41)) $$ [HC_xr11 HO HA_xr11]
  · isplitr; · iexact HI_xr11
    isplitl [HC_xr11]; · iexact HC_xr11
    isplitl [HO]; · iexact HO
    isplitr; · iapply (mayWait_cell c (.xr 11) 26 41 rfl (Or.inr (by decide))); iexact Hlev
    iexact HA_xr11
  iintro ⟨HO, HA_xr11, #HR_xr11, Hpay⟩
  ihave HB_qm11 := (Entails.of_eq (dmaPay_xr m c 11 0)) $$ Hpay
  ihave HB_qm11 := (pointsTo_share (PosShare.mem_left_op_right fullShare)).1 $$ HB_qm11
  icases HB_qm11 with ⟨HB_qmL11, HB_qmR11⟩
  -- step 101: SEND dev42 ss=arg7,11 rs=arg8,11
  iapply (wp_send_cell m c (yP c) _ (dev42_eq c) (.yds 11) (.ydr 11) (by decide) (by decide) (by rfl) (by rfl) (by rfl) (by rfl) (credit_qMine c 11) (by exact BI.Entails.refl _) (yd_pay m c 11 _) (owedN c 25 42)) $$ [HB_qmL11 HD_ydr11 HO HT_yds11 HU_ydr11]
  · isplitr; · iexact HI_yds11
    isplitr; · iexact HJ_ydr11
    isplitl [HB_qmL11]; · iexact HB_qmL11
    isplitl [HD_ydr11]; · iexact HD_ydr11
    isplitl [HO]; · iexact HO
    isplitl [HT_yds11]; · iexact HT_yds11
    isplitr; · iexact HR_yds11
    isplitl [HU_ydr11]; · iexact HU_ydr11
    iexact HQ_ydr11
  iintro ⟨HC_yds11, HO⟩
  -- step 102: SEND dev43 ss=arg9,11 rs=arg10,11
  iapply (wp_send_cell m c (zP c) _ (dev43_eq c) (.zds 11) (.zdr 11) (by decide) (by decide) (by rfl) (by rfl) (by rfl) (by rfl) (credit_qMine c 11) (by exact BI.Entails.refl _) (zd_pay m c 11 _) (owedN c 24 43)) $$ [HB_qmR11 HD_zdr11 HO HT_zds11 HU_zdr11]
  · isplitr; · iexact HI_zds11
    isplitr; · iexact HJ_zdr11
    isplitl [HB_qmR11]; · iexact HB_qmR11
    isplitl [HD_zdr11]; · iexact HD_zdr11
    isplitl [HO]; · iexact HO
    isplitl [HT_zds11]; · iexact HT_zds11
    isplitr; · iexact HR_zds11
    isplitl [HU_zdr11]; · iexact HU_zdr11
    iexact HQ_zdr11
  iintro ⟨HC_zds11, HO⟩
  -- step 103: WAIT sem=arg3,3
  iapply (wp_wait_cell m c (.ld 3) 2 (by decide) (by rfl) (credit_vslot 3) (owedN c 24 43)) $$ [HC_ld3 HO HA_ld3]
  · isplitr; · iexact HI_ld3
    isplitl [HC_ld3]; · iexact HC_ld3
    isplitl [HO]; · iexact HO
    isplitr; · iapply (mayWait_cell c (.ld 3) 24 43 rfl (Or.inr (by decide))); iexact Hlev
    iexact HA_ld3
  iintro ⟨HO, HA_ld3, #HR_ld3, Hpay⟩
  ihave Hpay := (Entails.of_eq (dmaPay_ld m c 3 2)) $$ Hpay
  icases Hpay with ⟨HV3, HS_ld11⟩
  -- step 104: COPY sem=arg4,3
  iapply (wp_copy_cell m c (.st 3) 2 (by decide) (by rfl) (credit_stDst c 11) (st_pay m c 11 3 2 (by rfl) _)) $$ [HV3 HB_st11 HT_st3_2]
  · isplitr; · iexact HI_st3
    isplitl [HV3]; · iexact HV3
    isplitl [HB_st11]; · iexact HB_st11
    isplitl [HT_st3_2]; · iexact HT_st3_2
    iexact HR_st3
  iintro HC_st3
  -- step 105: WAIT sem=arg4,2
  iapply (wp_wait_cell m c (.st 2) 2 (by decide) (by rfl) (credit_stDst c 10) (owedN c 24 43)) $$ [HC_st2 HO HA_st2]
  · isplitr; · iexact HI_st2
    isplitl [HC_st2]; · iexact HC_st2
    isplitl [HO]; · iexact HO
    isplitr; · iapply (mayWait_cell c (.st 2) 24 43 rfl (Or.inr (by decide))); iexact Hlev
    iexact HA_st2
  iintro ⟨HO, HA_st2, #HR_st2, Hpay⟩
  ihave Hpay := (Entails.of_eq (dmaPay_st m c 2 2)) $$ Hpay
  icases Hpay with ⟨HB_st10, HV2⟩
  -- step 106: COPY sem=arg3,2
  iapply (wp_copy_cell m c (.ld 2) 3 (by decide) (by rfl) (credit_vslot 2) (ld_pay m c 14 2 3 (by rfl) _)) $$ [HS_ld14 HV2 HT_ld2_3]
  · isplitr; · iexact HI_ld2
    isplitl [HS_ld14]; · iexact HS_ld14
    isplitl [HV2]; · iexact HV2
    isplitl [HT_ld2_3]; · iexact HT_ld2_3
    iexact HR_ld2
  iintro HC_ld2
  -- step 107: WAIT sem=arg6,12
  iapply (wp_wait_cell m c (.xr 12) 0 (by decide) (by rfl) (credit_xDst c 12) (owedN c 24 43)) $$ [HC_xr12 HO HA_xr12]
  · isplitr; · iexact HI_xr12
    isplitl [HC_xr12]; · iexact HC_xr12
    isplitl [HO]; · iexact HO
    isplitr; · iapply (mayWait_cell c (.xr 12) 24 43 rfl (Or.inr (by decide))); iexact Hlev
    iexact HA_xr12
  iintro ⟨HO, HA_xr12, #HR_xr12, Hpay⟩
  ihave HB_qm12 := (Entails.of_eq (dmaPay_xr m c 12 0)) $$ Hpay
  ihave HB_qm12 := (pointsTo_share (PosShare.mem_left_op_right fullShare)).1 $$ HB_qm12
  icases HB_qm12 with ⟨HB_qmL12, HB_qmR12⟩
  -- step 108: SEND dev44 ss=arg7,12 rs=arg8,12
  iapply (wp_send_cell m c (yP c) _ (dev44_eq c) (.yds 12) (.ydr 12) (by decide) (by decide) (by rfl) (by rfl) (by rfl) (by rfl) (credit_qMine c 12) (by exact BI.Entails.refl _) (yd_pay m c 12 _) (owedN c 23 44)) $$ [HB_qmL12 HD_ydr12 HO HT_yds12 HU_ydr12]
  · isplitr; · iexact HI_yds12
    isplitr; · iexact HJ_ydr12
    isplitl [HB_qmL12]; · iexact HB_qmL12
    isplitl [HD_ydr12]; · iexact HD_ydr12
    isplitl [HO]; · iexact HO
    isplitl [HT_yds12]; · iexact HT_yds12
    isplitr; · iexact HR_yds12
    isplitl [HU_ydr12]; · iexact HU_ydr12
    iexact HQ_ydr12
  iintro ⟨HC_yds12, HO⟩
  -- step 109: SEND dev45 ss=arg9,12 rs=arg10,12
  iapply (wp_send_cell m c (zP c) _ (dev45_eq c) (.zds 12) (.zdr 12) (by decide) (by decide) (by rfl) (by rfl) (by rfl) (by rfl) (credit_qMine c 12) (by exact BI.Entails.refl _) (zd_pay m c 12 _) (owedN c 22 45)) $$ [HB_qmR12 HD_zdr12 HO HT_zds12 HU_zdr12]
  · isplitr; · iexact HI_zds12
    isplitr; · iexact HJ_zdr12
    isplitl [HB_qmR12]; · iexact HB_qmR12
    isplitl [HD_zdr12]; · iexact HD_zdr12
    isplitl [HO]; · iexact HO
    isplitl [HT_zds12]; · iexact HT_zds12
    isplitr; · iexact HR_zds12
    isplitl [HU_zdr12]; · iexact HU_zdr12
    iexact HQ_zdr12
  iintro ⟨HC_zds12, HO⟩
  -- step 110: WAIT sem=arg3,0
  iapply (wp_wait_cell m c (.ld 0) 3 (by decide) (by rfl) (credit_vslot 0) (owedN c 22 45)) $$ [HC_ld0 HO HA_ld0]
  · isplitr; · iexact HI_ld0
    isplitl [HC_ld0]; · iexact HC_ld0
    isplitl [HO]; · iexact HO
    isplitr; · iapply (mayWait_cell c (.ld 0) 22 45 rfl (Or.inr (by decide))); iexact Hlev
    iexact HA_ld0
  iintro ⟨HO, HA_ld0, #HR_ld0, Hpay⟩
  ihave Hpay := (Entails.of_eq (dmaPay_ld m c 0 3)) $$ Hpay
  icases Hpay with ⟨HV0, HS_ld12⟩
  -- step 111: COPY sem=arg4,0
  iapply (wp_copy_cell m c (.st 0) 3 (by decide) (by rfl) (credit_stDst c 12) (st_pay m c 12 0 3 (by rfl) _)) $$ [HV0 HB_st12 HT_st0_3]
  · isplitr; · iexact HI_st0
    isplitl [HV0]; · iexact HV0
    isplitl [HB_st12]; · iexact HB_st12
    isplitl [HT_st0_3]; · iexact HT_st0_3
    iexact HR_st0
  iintro HC_st0
  -- step 112: WAIT sem=arg4,3
  iapply (wp_wait_cell m c (.st 3) 2 (by decide) (by rfl) (credit_stDst c 11) (owedN c 22 45)) $$ [HC_st3 HO HA_st3]
  · isplitr; · iexact HI_st3
    isplitl [HC_st3]; · iexact HC_st3
    isplitl [HO]; · iexact HO
    isplitr; · iapply (mayWait_cell c (.st 3) 22 45 rfl (Or.inr (by decide))); iexact Hlev
    iexact HA_st3
  iintro ⟨HO, HA_st3, #HR_st3, Hpay⟩
  ihave Hpay := (Entails.of_eq (dmaPay_st m c 3 2)) $$ Hpay
  icases Hpay with ⟨HB_st11, HV3⟩
  -- step 113: COPY sem=arg3,3
  iapply (wp_copy_cell m c (.ld 3) 3 (by decide) (by rfl) (credit_vslot 3) (ld_pay m c 15 3 3 (by rfl) _)) $$ [HS_ld15 HV3 HT_ld3_3]
  · isplitr; · iexact HI_ld3
    isplitl [HS_ld15]; · iexact HS_ld15
    isplitl [HV3]; · iexact HV3
    isplitl [HT_ld3_3]; · iexact HT_ld3_3
    iexact HR_ld3
  iintro HC_ld3
  -- step 114: WAIT sem=arg6,13
  iapply (wp_wait_cell m c (.xr 13) 0 (by decide) (by rfl) (credit_xDst c 13) (owedN c 22 45)) $$ [HC_xr13 HO HA_xr13]
  · isplitr; · iexact HI_xr13
    isplitl [HC_xr13]; · iexact HC_xr13
    isplitl [HO]; · iexact HO
    isplitr; · iapply (mayWait_cell c (.xr 13) 22 45 rfl (Or.inr (by decide))); iexact Hlev
    iexact HA_xr13
  iintro ⟨HO, HA_xr13, #HR_xr13, Hpay⟩
  ihave HB_qm13 := (Entails.of_eq (dmaPay_xr m c 13 0)) $$ Hpay
  ihave HB_qm13 := (pointsTo_share (PosShare.mem_left_op_right fullShare)).1 $$ HB_qm13
  icases HB_qm13 with ⟨HB_qmL13, HB_qmR13⟩
  -- step 115: SEND dev46 ss=arg7,13 rs=arg8,13
  iapply (wp_send_cell m c (yP c) _ (dev46_eq c) (.yds 13) (.ydr 13) (by decide) (by decide) (by rfl) (by rfl) (by rfl) (by rfl) (credit_qMine c 13) (by exact BI.Entails.refl _) (yd_pay m c 13 _) (owedN c 21 46)) $$ [HB_qmL13 HD_ydr13 HO HT_yds13 HU_ydr13]
  · isplitr; · iexact HI_yds13
    isplitr; · iexact HJ_ydr13
    isplitl [HB_qmL13]; · iexact HB_qmL13
    isplitl [HD_ydr13]; · iexact HD_ydr13
    isplitl [HO]; · iexact HO
    isplitl [HT_yds13]; · iexact HT_yds13
    isplitr; · iexact HR_yds13
    isplitl [HU_ydr13]; · iexact HU_ydr13
    iexact HQ_ydr13
  iintro ⟨HC_yds13, HO⟩
  -- step 116: SEND dev47 ss=arg9,13 rs=arg10,13
  iapply (wp_send_cell m c (zP c) _ (dev47_eq c) (.zds 13) (.zdr 13) (by decide) (by decide) (by rfl) (by rfl) (by rfl) (by rfl) (credit_qMine c 13) (by exact BI.Entails.refl _) (zd_pay m c 13 _) (owedN c 20 47)) $$ [HB_qmR13 HD_zdr13 HO HT_zds13 HU_zdr13]
  · isplitr; · iexact HI_zds13
    isplitr; · iexact HJ_zdr13
    isplitl [HB_qmR13]; · iexact HB_qmR13
    isplitl [HD_zdr13]; · iexact HD_zdr13
    isplitl [HO]; · iexact HO
    isplitl [HT_zds13]; · iexact HT_zds13
    isplitr; · iexact HR_zds13
    isplitl [HU_zdr13]; · iexact HU_zdr13
    iexact HQ_zdr13
  iintro ⟨HC_zds13, HO⟩
  -- step 117: WAIT sem=arg3,1
  iapply (wp_wait_cell m c (.ld 1) 3 (by decide) (by rfl) (credit_vslot 1) (owedN c 20 47)) $$ [HC_ld1 HO HA_ld1]
  · isplitr; · iexact HI_ld1
    isplitl [HC_ld1]; · iexact HC_ld1
    isplitl [HO]; · iexact HO
    isplitr; · iapply (mayWait_cell c (.ld 1) 20 47 rfl (Or.inr (by decide))); iexact Hlev
    iexact HA_ld1
  iintro ⟨HO, HA_ld1, #HR_ld1, Hpay⟩
  ihave Hpay := (Entails.of_eq (dmaPay_ld m c 1 3)) $$ Hpay
  icases Hpay with ⟨HV1, HS_ld13⟩
  -- step 118: COPY sem=arg4,1
  iapply (wp_copy_cell m c (.st 1) 3 (by decide) (by rfl) (credit_stDst c 13) (st_pay m c 13 1 3 (by rfl) _)) $$ [HV1 HB_st13 HT_st1_3]
  · isplitr; · iexact HI_st1
    isplitl [HV1]; · iexact HV1
    isplitl [HB_st13]; · iexact HB_st13
    isplitl [HT_st1_3]; · iexact HT_st1_3
    iexact HR_st1
  iintro HC_st1
  -- step 119: WAIT sem=arg6,14
  iapply (wp_wait_cell m c (.xr 14) 0 (by decide) (by rfl) (credit_xDst c 14) (owedN c 20 47)) $$ [HC_xr14 HO HA_xr14]
  · isplitr; · iexact HI_xr14
    isplitl [HC_xr14]; · iexact HC_xr14
    isplitl [HO]; · iexact HO
    isplitr; · iapply (mayWait_cell c (.xr 14) 20 47 rfl (Or.inr (by decide))); iexact Hlev
    iexact HA_xr14
  iintro ⟨HO, HA_xr14, #HR_xr14, Hpay⟩
  ihave HB_qm14 := (Entails.of_eq (dmaPay_xr m c 14 0)) $$ Hpay
  ihave HB_qm14 := (pointsTo_share (PosShare.mem_left_op_right fullShare)).1 $$ HB_qm14
  icases HB_qm14 with ⟨HB_qmL14, HB_qmR14⟩
  -- step 120: SEND dev48 ss=arg7,14 rs=arg8,14
  iapply (wp_send_cell m c (yP c) _ (dev48_eq c) (.yds 14) (.ydr 14) (by decide) (by decide) (by rfl) (by rfl) (by rfl) (by rfl) (credit_qMine c 14) (by exact BI.Entails.refl _) (yd_pay m c 14 _) (owedN c 19 48)) $$ [HB_qmL14 HD_ydr14 HO HT_yds14 HU_ydr14]
  · isplitr; · iexact HI_yds14
    isplitr; · iexact HJ_ydr14
    isplitl [HB_qmL14]; · iexact HB_qmL14
    isplitl [HD_ydr14]; · iexact HD_ydr14
    isplitl [HO]; · iexact HO
    isplitl [HT_yds14]; · iexact HT_yds14
    isplitr; · iexact HR_yds14
    isplitl [HU_ydr14]; · iexact HU_ydr14
    iexact HQ_ydr14
  iintro ⟨HC_yds14, HO⟩
  -- step 121: SEND dev49 ss=arg9,14 rs=arg10,14
  iapply (wp_send_cell m c (zP c) _ (dev49_eq c) (.zds 14) (.zdr 14) (by decide) (by decide) (by rfl) (by rfl) (by rfl) (by rfl) (credit_qMine c 14) (by exact BI.Entails.refl _) (zd_pay m c 14 _) (owedN c 18 49)) $$ [HB_qmR14 HD_zdr14 HO HT_zds14 HU_zdr14]
  · isplitr; · iexact HI_zds14
    isplitr; · iexact HJ_zdr14
    isplitl [HB_qmR14]; · iexact HB_qmR14
    isplitl [HD_zdr14]; · iexact HD_zdr14
    isplitl [HO]; · iexact HO
    isplitl [HT_zds14]; · iexact HT_zds14
    isplitr; · iexact HR_zds14
    isplitl [HU_zdr14]; · iexact HU_zdr14
    iexact HQ_zdr14
  iintro ⟨HC_zds14, HO⟩
  -- step 122: WAIT sem=arg3,2
  iapply (wp_wait_cell m c (.ld 2) 3 (by decide) (by rfl) (credit_vslot 2) (owedN c 18 49)) $$ [HC_ld2 HO HA_ld2]
  · isplitr; · iexact HI_ld2
    isplitl [HC_ld2]; · iexact HC_ld2
    isplitl [HO]; · iexact HO
    isplitr; · iapply (mayWait_cell c (.ld 2) 18 49 rfl (Or.inr (by decide))); iexact Hlev
    iexact HA_ld2
  iintro ⟨HO, HA_ld2, #HR_ld2, Hpay⟩
  ihave Hpay := (Entails.of_eq (dmaPay_ld m c 2 3)) $$ Hpay
  icases Hpay with ⟨HV2, HS_ld14⟩
  -- step 123: COPY sem=arg4,2
  iapply (wp_copy_cell m c (.st 2) 3 (by decide) (by rfl) (credit_stDst c 14) (st_pay m c 14 2 3 (by rfl) _)) $$ [HV2 HB_st14 HT_st2_3]
  · isplitr; · iexact HI_st2
    isplitl [HV2]; · iexact HV2
    isplitl [HB_st14]; · iexact HB_st14
    isplitl [HT_st2_3]; · iexact HT_st2_3
    iexact HR_st2
  iintro HC_st2
  -- step 124: WAIT sem=arg6,15
  iapply (wp_wait_cell m c (.xr 15) 0 (by decide) (by rfl) (credit_xDst c 15) (owedN c 18 49)) $$ [HC_xr15 HO HA_xr15]
  · isplitr; · iexact HI_xr15
    isplitl [HC_xr15]; · iexact HC_xr15
    isplitl [HO]; · iexact HO
    isplitr; · iapply (mayWait_cell c (.xr 15) 18 49 rfl (Or.inr (by decide))); iexact Hlev
    iexact HA_xr15
  iintro ⟨HO, HA_xr15, #HR_xr15, Hpay⟩
  ihave HB_qm15 := (Entails.of_eq (dmaPay_xr m c 15 0)) $$ Hpay
  ihave HB_qm15 := (pointsTo_share (PosShare.mem_left_op_right fullShare)).1 $$ HB_qm15
  icases HB_qm15 with ⟨HB_qmL15, HB_qmR15⟩
  -- step 125: SEND dev50 ss=arg7,15 rs=arg8,15
  iapply (wp_send_cell m c (yP c) _ (dev50_eq c) (.yds 15) (.ydr 15) (by decide) (by decide) (by rfl) (by rfl) (by rfl) (by rfl) (credit_qMine c 15) (by exact BI.Entails.refl _) (yd_pay m c 15 _) (owedN c 17 50)) $$ [HB_qmL15 HD_ydr15 HO HT_yds15 HU_ydr15]
  · isplitr; · iexact HI_yds15
    isplitr; · iexact HJ_ydr15
    isplitl [HB_qmL15]; · iexact HB_qmL15
    isplitl [HD_ydr15]; · iexact HD_ydr15
    isplitl [HO]; · iexact HO
    isplitl [HT_yds15]; · iexact HT_yds15
    isplitr; · iexact HR_yds15
    isplitl [HU_ydr15]; · iexact HU_ydr15
    iexact HQ_ydr15
  iintro ⟨HC_yds15, HO⟩
  -- step 126: SEND dev51 ss=arg9,15 rs=arg10,15
  iapply (wp_send_cell m c (zP c) _ (dev51_eq c) (.zds 15) (.zdr 15) (by decide) (by decide) (by rfl) (by rfl) (by rfl) (by rfl) (credit_qMine c 15) (by exact BI.Entails.refl _) (zd_pay m c 15 _) (owedN c 16 51)) $$ [HB_qmR15 HD_zdr15 HO HT_zds15 HU_zdr15]
  · isplitr; · iexact HI_zds15
    isplitr; · iexact HJ_zdr15
    isplitl [HB_qmR15]; · iexact HB_qmR15
    isplitl [HD_zdr15]; · iexact HD_zdr15
    isplitl [HO]; · iexact HO
    isplitl [HT_zds15]; · iexact HT_zds15
    isplitr; · iexact HR_zds15
    isplitl [HU_zdr15]; · iexact HU_zdr15
    iexact HQ_zdr15
  iintro ⟨HC_zds15, HO⟩
  -- step 127: WAIT sem=arg3,3
  iapply (wp_wait_cell m c (.ld 3) 3 (by decide) (by rfl) (credit_vslot 3) (owedN c 16 51)) $$ [HC_ld3 HO HA_ld3]
  · isplitr; · iexact HI_ld3
    isplitl [HC_ld3]; · iexact HC_ld3
    isplitl [HO]; · iexact HO
    isplitr; · iapply (mayWait_cell c (.ld 3) 16 51 rfl (Or.inr (by decide))); iexact Hlev
    iexact HA_ld3
  iintro ⟨HO, HA_ld3, #HR_ld3, Hpay⟩
  ihave Hpay := (Entails.of_eq (dmaPay_ld m c 3 3)) $$ Hpay
  icases Hpay with ⟨HV3, HS_ld15⟩
  -- step 128: COPY sem=arg4,3
  iapply (wp_copy_cell m c (.st 3) 3 (by decide) (by rfl) (credit_stDst c 15) (st_pay m c 15 3 3 (by rfl) _)) $$ [HV3 HB_st15 HT_st3_3]
  · isplitr; · iexact HI_st3
    isplitl [HV3]; · iexact HV3
    isplitl [HB_st15]; · iexact HB_st15
    isplitl [HT_st3_3]; · iexact HT_st3_3
    iexact HR_st3
  iintro HC_st3
  -- step 129: WAIT sem=arg10,0
  iapply (wp_wait_cell m c (.zdr 0) 0 (by decide) (by rfl) (credit_qMine c 0) (owedN c 16 51)) $$ [HC_zdr0 HO HA_zdr0]
  · isplitr; · iexact HI_zdr0
    isplitl [HC_zdr0]; · iexact HC_zdr0
    isplitl [HO]; · iexact HO
    isplitr; · iapply (mayWait_cell c (.zdr 0) 16 51 rfl (Or.inr (by decide))); iexact Hlev
    iexact HA_zdr0
  iintro ⟨HO, HA_zdr0, #HR_zdr0, Hpay⟩
  ihave HB_qz0 := (Entails.of_eq (dmaPay_zdr m c 0 0)) $$ Hpay
  ihave HB_qz0 := (Entails.of_eq (pts_qMine_zP c c 0 fullShare _)) $$ HB_qz0
  -- step 130: SEND dev52 ss=arg11,0 rs=arg12,0
  iapply (wp_send_cell m c (yP c) _ (dev52_eq c) (.ydgs 0) (.ydgr 0) (by decide) (by decide) (by rfl) (by rfl) (by rfl) (by rfl) (credit_qZlo c 0) (by exact BI.Entails.refl _) (ydg_pay m c 0 _) (owedN c 15 52)) $$ [HB_qz0 HD_ydgr0 HO HT_ydgs0 HU_ydgr0]
  · isplitr; · iexact HI_ydgs0
    isplitr; · iexact HJ_ydgr0
    isplitl [HB_qz0]; · iexact HB_qz0
    isplitl [HD_ydgr0]; · iexact HD_ydgr0
    isplitl [HO]; · iexact HO
    isplitl [HT_ydgs0]; · iexact HT_ydgs0
    isplitr; · iexact HR_ydgs0
    isplitl [HU_ydgr0]; · iexact HU_ydgr0
    iexact HQ_ydgr0
  iintro ⟨HC_ydgs0, HO⟩
  -- step 131: WAIT sem=arg8,8
  iapply (wp_wait_cell m c (.ydr 8) 0 (by decide) (by rfl) (credit_qMine c 8) (owedN c 15 52)) $$ [HC_ydr8 HO HA_ydr8]
  · isplitr; · iexact HI_ydr8
    isplitl [HC_ydr8]; · iexact HC_ydr8
    isplitl [HO]; · iexact HO
    isplitr; · iapply (mayWait_cell c (.ydr 8) 15 52 rfl (Or.inr (by decide))); iexact Hlev
    iexact HA_ydr8
  iintro ⟨HO, HA_ydr8, #HR_ydr8, Hpay⟩
  ihave HB_qy0 := (Entails.of_eq (dmaPay_ydr m c 8 0)) $$ Hpay
  ihave HB_qy0 := (Entails.of_eq (pts_qMine_yP c c 0 fullShare _)) $$ HB_qy0
  -- step 132: SEND dev53 ss=arg13,0 rs=arg14,0
  iapply (wp_send_cell m c (zP c) _ (dev53_eq c) (.zdgs 0) (.zdgr 0) (by decide) (by decide) (by rfl) (by rfl) (by rfl) (by rfl) (credit_qYhi c 0) (by exact BI.Entails.refl _) (zdg_pay m c 0 _) (owedN c 14 53)) $$ [HB_qy0 HD_zdgr0 HO HT_zdgs0 HU_zdgr0]
  · isplitr; · iexact HI_zdgs0
    isplitr; · iexact HJ_zdgr0
    isplitl [HB_qy0]; · iexact HB_qy0
    isplitl [HD_zdgr0]; · iexact HD_zdgr0
    isplitl [HO]; · iexact HO
    isplitl [HT_zdgs0]; · iexact HT_zdgs0
    isplitr; · iexact HR_zdgs0
    isplitl [HU_zdgr0]; · iexact HU_zdgr0
    iexact HQ_zdgr0
  iintro ⟨HC_zdgs0, HO⟩
  -- step 133: WAIT sem=arg10,1
  iapply (wp_wait_cell m c (.zdr 1) 0 (by decide) (by rfl) (credit_qMine c 1) (owedN c 14 53)) $$ [HC_zdr1 HO HA_zdr1]
  · isplitr; · iexact HI_zdr1
    isplitl [HC_zdr1]; · iexact HC_zdr1
    isplitl [HO]; · iexact HO
    isplitr; · iapply (mayWait_cell c (.zdr 1) 14 53 rfl (Or.inr (by decide))); iexact Hlev
    iexact HA_zdr1
  iintro ⟨HO, HA_zdr1, #HR_zdr1, Hpay⟩
  ihave HB_qz1 := (Entails.of_eq (dmaPay_zdr m c 1 0)) $$ Hpay
  ihave HB_qz1 := (Entails.of_eq (pts_qMine_zP c c 1 fullShare _)) $$ HB_qz1
  -- step 134: SEND dev54 ss=arg11,1 rs=arg12,1
  iapply (wp_send_cell m c (yP c) _ (dev54_eq c) (.ydgs 1) (.ydgr 1) (by decide) (by decide) (by rfl) (by rfl) (by rfl) (by rfl) (credit_qZlo c 1) (by exact BI.Entails.refl _) (ydg_pay m c 1 _) (owedN c 13 54)) $$ [HB_qz1 HD_ydgr1 HO HT_ydgs1 HU_ydgr1]
  · isplitr; · iexact HI_ydgs1
    isplitr; · iexact HJ_ydgr1
    isplitl [HB_qz1]; · iexact HB_qz1
    isplitl [HD_ydgr1]; · iexact HD_ydgr1
    isplitl [HO]; · iexact HO
    isplitl [HT_ydgs1]; · iexact HT_ydgs1
    isplitr; · iexact HR_ydgs1
    isplitl [HU_ydgr1]; · iexact HU_ydgr1
    iexact HQ_ydgr1
  iintro ⟨HC_ydgs1, HO⟩
  -- step 135: WAIT sem=arg8,9
  iapply (wp_wait_cell m c (.ydr 9) 0 (by decide) (by rfl) (credit_qMine c 9) (owedN c 13 54)) $$ [HC_ydr9 HO HA_ydr9]
  · isplitr; · iexact HI_ydr9
    isplitl [HC_ydr9]; · iexact HC_ydr9
    isplitl [HO]; · iexact HO
    isplitr; · iapply (mayWait_cell c (.ydr 9) 13 54 rfl (Or.inr (by decide))); iexact Hlev
    iexact HA_ydr9
  iintro ⟨HO, HA_ydr9, #HR_ydr9, Hpay⟩
  ihave HB_qy1 := (Entails.of_eq (dmaPay_ydr m c 9 0)) $$ Hpay
  ihave HB_qy1 := (Entails.of_eq (pts_qMine_yP c c 1 fullShare _)) $$ HB_qy1
  -- step 136: SEND dev55 ss=arg13,1 rs=arg14,1
  iapply (wp_send_cell m c (zP c) _ (dev55_eq c) (.zdgs 1) (.zdgr 1) (by decide) (by decide) (by rfl) (by rfl) (by rfl) (by rfl) (credit_qYhi c 1) (by exact BI.Entails.refl _) (zdg_pay m c 1 _) (owedN c 12 55)) $$ [HB_qy1 HD_zdgr1 HO HT_zdgs1 HU_zdgr1]
  · isplitr; · iexact HI_zdgs1
    isplitr; · iexact HJ_zdgr1
    isplitl [HB_qy1]; · iexact HB_qy1
    isplitl [HD_zdgr1]; · iexact HD_zdgr1
    isplitl [HO]; · iexact HO
    isplitl [HT_zdgs1]; · iexact HT_zdgs1
    isplitr; · iexact HR_zdgs1
    isplitl [HU_zdgr1]; · iexact HU_zdgr1
    iexact HQ_zdgr1
  iintro ⟨HC_zdgs1, HO⟩
  -- step 137: WAIT sem=arg10,2
  iapply (wp_wait_cell m c (.zdr 2) 0 (by decide) (by rfl) (credit_qMine c 2) (owedN c 12 55)) $$ [HC_zdr2 HO HA_zdr2]
  · isplitr; · iexact HI_zdr2
    isplitl [HC_zdr2]; · iexact HC_zdr2
    isplitl [HO]; · iexact HO
    isplitr; · iapply (mayWait_cell c (.zdr 2) 12 55 rfl (Or.inr (by decide))); iexact Hlev
    iexact HA_zdr2
  iintro ⟨HO, HA_zdr2, #HR_zdr2, Hpay⟩
  ihave HB_qz2 := (Entails.of_eq (dmaPay_zdr m c 2 0)) $$ Hpay
  ihave HB_qz2 := (Entails.of_eq (pts_qMine_zP c c 2 fullShare _)) $$ HB_qz2
  -- step 138: SEND dev56 ss=arg11,2 rs=arg12,2
  iapply (wp_send_cell m c (yP c) _ (dev56_eq c) (.ydgs 2) (.ydgr 2) (by decide) (by decide) (by rfl) (by rfl) (by rfl) (by rfl) (credit_qZlo c 2) (by exact BI.Entails.refl _) (ydg_pay m c 2 _) (owedN c 11 56)) $$ [HB_qz2 HD_ydgr2 HO HT_ydgs2 HU_ydgr2]
  · isplitr; · iexact HI_ydgs2
    isplitr; · iexact HJ_ydgr2
    isplitl [HB_qz2]; · iexact HB_qz2
    isplitl [HD_ydgr2]; · iexact HD_ydgr2
    isplitl [HO]; · iexact HO
    isplitl [HT_ydgs2]; · iexact HT_ydgs2
    isplitr; · iexact HR_ydgs2
    isplitl [HU_ydgr2]; · iexact HU_ydgr2
    iexact HQ_ydgr2
  iintro ⟨HC_ydgs2, HO⟩
  -- step 139: WAIT sem=arg8,10
  iapply (wp_wait_cell m c (.ydr 10) 0 (by decide) (by rfl) (credit_qMine c 10) (owedN c 11 56)) $$ [HC_ydr10 HO HA_ydr10]
  · isplitr; · iexact HI_ydr10
    isplitl [HC_ydr10]; · iexact HC_ydr10
    isplitl [HO]; · iexact HO
    isplitr; · iapply (mayWait_cell c (.ydr 10) 11 56 rfl (Or.inr (by decide))); iexact Hlev
    iexact HA_ydr10
  iintro ⟨HO, HA_ydr10, #HR_ydr10, Hpay⟩
  ihave HB_qy2 := (Entails.of_eq (dmaPay_ydr m c 10 0)) $$ Hpay
  ihave HB_qy2 := (Entails.of_eq (pts_qMine_yP c c 2 fullShare _)) $$ HB_qy2
  -- step 140: SEND dev57 ss=arg13,2 rs=arg14,2
  iapply (wp_send_cell m c (zP c) _ (dev57_eq c) (.zdgs 2) (.zdgr 2) (by decide) (by decide) (by rfl) (by rfl) (by rfl) (by rfl) (credit_qYhi c 2) (by exact BI.Entails.refl _) (zdg_pay m c 2 _) (owedN c 10 57)) $$ [HB_qy2 HD_zdgr2 HO HT_zdgs2 HU_zdgr2]
  · isplitr; · iexact HI_zdgs2
    isplitr; · iexact HJ_zdgr2
    isplitl [HB_qy2]; · iexact HB_qy2
    isplitl [HD_zdgr2]; · iexact HD_zdgr2
    isplitl [HO]; · iexact HO
    isplitl [HT_zdgs2]; · iexact HT_zdgs2
    isplitr; · iexact HR_zdgs2
    isplitl [HU_zdgr2]; · iexact HU_zdgr2
    iexact HQ_zdgr2
  iintro ⟨HC_zdgs2, HO⟩
  -- step 141: WAIT sem=arg10,3
  iapply (wp_wait_cell m c (.zdr 3) 0 (by decide) (by rfl) (credit_qMine c 3) (owedN c 10 57)) $$ [HC_zdr3 HO HA_zdr3]
  · isplitr; · iexact HI_zdr3
    isplitl [HC_zdr3]; · iexact HC_zdr3
    isplitl [HO]; · iexact HO
    isplitr; · iapply (mayWait_cell c (.zdr 3) 10 57 rfl (Or.inr (by decide))); iexact Hlev
    iexact HA_zdr3
  iintro ⟨HO, HA_zdr3, #HR_zdr3, Hpay⟩
  ihave HB_qz3 := (Entails.of_eq (dmaPay_zdr m c 3 0)) $$ Hpay
  ihave HB_qz3 := (Entails.of_eq (pts_qMine_zP c c 3 fullShare _)) $$ HB_qz3
  -- step 142: SEND dev58 ss=arg11,3 rs=arg12,3
  iapply (wp_send_cell m c (yP c) _ (dev58_eq c) (.ydgs 3) (.ydgr 3) (by decide) (by decide) (by rfl) (by rfl) (by rfl) (by rfl) (credit_qZlo c 3) (by exact BI.Entails.refl _) (ydg_pay m c 3 _) (owedN c 9 58)) $$ [HB_qz3 HD_ydgr3 HO HT_ydgs3 HU_ydgr3]
  · isplitr; · iexact HI_ydgs3
    isplitr; · iexact HJ_ydgr3
    isplitl [HB_qz3]; · iexact HB_qz3
    isplitl [HD_ydgr3]; · iexact HD_ydgr3
    isplitl [HO]; · iexact HO
    isplitl [HT_ydgs3]; · iexact HT_ydgs3
    isplitr; · iexact HR_ydgs3
    isplitl [HU_ydgr3]; · iexact HU_ydgr3
    iexact HQ_ydgr3
  iintro ⟨HC_ydgs3, HO⟩
  -- step 143: WAIT sem=arg8,11
  iapply (wp_wait_cell m c (.ydr 11) 0 (by decide) (by rfl) (credit_qMine c 11) (owedN c 9 58)) $$ [HC_ydr11 HO HA_ydr11]
  · isplitr; · iexact HI_ydr11
    isplitl [HC_ydr11]; · iexact HC_ydr11
    isplitl [HO]; · iexact HO
    isplitr; · iapply (mayWait_cell c (.ydr 11) 9 58 rfl (Or.inr (by decide))); iexact Hlev
    iexact HA_ydr11
  iintro ⟨HO, HA_ydr11, #HR_ydr11, Hpay⟩
  ihave HB_qy3 := (Entails.of_eq (dmaPay_ydr m c 11 0)) $$ Hpay
  ihave HB_qy3 := (Entails.of_eq (pts_qMine_yP c c 3 fullShare _)) $$ HB_qy3
  -- step 144: SEND dev59 ss=arg13,3 rs=arg14,3
  iapply (wp_send_cell m c (zP c) _ (dev59_eq c) (.zdgs 3) (.zdgr 3) (by decide) (by decide) (by rfl) (by rfl) (by rfl) (by rfl) (credit_qYhi c 3) (by exact BI.Entails.refl _) (zdg_pay m c 3 _) (owedN c 8 59)) $$ [HB_qy3 HD_zdgr3 HO HT_zdgs3 HU_zdgr3]
  · isplitr; · iexact HI_zdgs3
    isplitr; · iexact HJ_zdgr3
    isplitl [HB_qy3]; · iexact HB_qy3
    isplitl [HD_zdgr3]; · iexact HD_zdgr3
    isplitl [HO]; · iexact HO
    isplitl [HT_zdgs3]; · iexact HT_zdgs3
    isplitr; · iexact HR_zdgs3
    isplitl [HU_zdgr3]; · iexact HU_zdgr3
    iexact HQ_zdgr3
  iintro ⟨HC_zdgs3, HO⟩
  -- step 145: WAIT sem=arg10,4
  iapply (wp_wait_cell m c (.zdr 4) 0 (by decide) (by rfl) (credit_qMine c 4) (owedN c 8 59)) $$ [HC_zdr4 HO HA_zdr4]
  · isplitr; · iexact HI_zdr4
    isplitl [HC_zdr4]; · iexact HC_zdr4
    isplitl [HO]; · iexact HO
    isplitr; · iapply (mayWait_cell c (.zdr 4) 8 59 rfl (Or.inr (by decide))); iexact Hlev
    iexact HA_zdr4
  iintro ⟨HO, HA_zdr4, #HR_zdr4, Hpay⟩
  ihave HB_qz4 := (Entails.of_eq (dmaPay_zdr m c 4 0)) $$ Hpay
  ihave HB_qz4 := (Entails.of_eq (pts_qMine_zP c c 4 fullShare _)) $$ HB_qz4
  -- step 146: SEND dev60 ss=arg11,4 rs=arg12,4
  iapply (wp_send_cell m c (yP c) _ (dev60_eq c) (.ydgs 4) (.ydgr 4) (by decide) (by decide) (by rfl) (by rfl) (by rfl) (by rfl) (credit_qZlo c 4) (by exact BI.Entails.refl _) (ydg_pay m c 4 _) (owedN c 7 60)) $$ [HB_qz4 HD_ydgr4 HO HT_ydgs4 HU_ydgr4]
  · isplitr; · iexact HI_ydgs4
    isplitr; · iexact HJ_ydgr4
    isplitl [HB_qz4]; · iexact HB_qz4
    isplitl [HD_ydgr4]; · iexact HD_ydgr4
    isplitl [HO]; · iexact HO
    isplitl [HT_ydgs4]; · iexact HT_ydgs4
    isplitr; · iexact HR_ydgs4
    isplitl [HU_ydgr4]; · iexact HU_ydgr4
    iexact HQ_ydgr4
  iintro ⟨HC_ydgs4, HO⟩
  -- step 147: WAIT sem=arg8,12
  iapply (wp_wait_cell m c (.ydr 12) 0 (by decide) (by rfl) (credit_qMine c 12) (owedN c 7 60)) $$ [HC_ydr12 HO HA_ydr12]
  · isplitr; · iexact HI_ydr12
    isplitl [HC_ydr12]; · iexact HC_ydr12
    isplitl [HO]; · iexact HO
    isplitr; · iapply (mayWait_cell c (.ydr 12) 7 60 rfl (Or.inr (by decide))); iexact Hlev
    iexact HA_ydr12
  iintro ⟨HO, HA_ydr12, #HR_ydr12, Hpay⟩
  ihave HB_qy4 := (Entails.of_eq (dmaPay_ydr m c 12 0)) $$ Hpay
  ihave HB_qy4 := (Entails.of_eq (pts_qMine_yP c c 4 fullShare _)) $$ HB_qy4
  -- step 148: SEND dev61 ss=arg13,4 rs=arg14,4
  iapply (wp_send_cell m c (zP c) _ (dev61_eq c) (.zdgs 4) (.zdgr 4) (by decide) (by decide) (by rfl) (by rfl) (by rfl) (by rfl) (credit_qYhi c 4) (by exact BI.Entails.refl _) (zdg_pay m c 4 _) (owedN c 6 61)) $$ [HB_qy4 HD_zdgr4 HO HT_zdgs4 HU_zdgr4]
  · isplitr; · iexact HI_zdgs4
    isplitr; · iexact HJ_zdgr4
    isplitl [HB_qy4]; · iexact HB_qy4
    isplitl [HD_zdgr4]; · iexact HD_zdgr4
    isplitl [HO]; · iexact HO
    isplitl [HT_zdgs4]; · iexact HT_zdgs4
    isplitr; · iexact HR_zdgs4
    isplitl [HU_zdgr4]; · iexact HU_zdgr4
    iexact HQ_zdgr4
  iintro ⟨HC_zdgs4, HO⟩
  -- step 149: WAIT sem=arg10,5
  iapply (wp_wait_cell m c (.zdr 5) 0 (by decide) (by rfl) (credit_qMine c 5) (owedN c 6 61)) $$ [HC_zdr5 HO HA_zdr5]
  · isplitr; · iexact HI_zdr5
    isplitl [HC_zdr5]; · iexact HC_zdr5
    isplitl [HO]; · iexact HO
    isplitr; · iapply (mayWait_cell c (.zdr 5) 6 61 rfl (Or.inr (by decide))); iexact Hlev
    iexact HA_zdr5
  iintro ⟨HO, HA_zdr5, #HR_zdr5, Hpay⟩
  ihave HB_qz5 := (Entails.of_eq (dmaPay_zdr m c 5 0)) $$ Hpay
  ihave HB_qz5 := (Entails.of_eq (pts_qMine_zP c c 5 fullShare _)) $$ HB_qz5
  -- step 150: SEND dev62 ss=arg11,5 rs=arg12,5
  iapply (wp_send_cell m c (yP c) _ (dev62_eq c) (.ydgs 5) (.ydgr 5) (by decide) (by decide) (by rfl) (by rfl) (by rfl) (by rfl) (credit_qZlo c 5) (by exact BI.Entails.refl _) (ydg_pay m c 5 _) (owedN c 5 62)) $$ [HB_qz5 HD_ydgr5 HO HT_ydgs5 HU_ydgr5]
  · isplitr; · iexact HI_ydgs5
    isplitr; · iexact HJ_ydgr5
    isplitl [HB_qz5]; · iexact HB_qz5
    isplitl [HD_ydgr5]; · iexact HD_ydgr5
    isplitl [HO]; · iexact HO
    isplitl [HT_ydgs5]; · iexact HT_ydgs5
    isplitr; · iexact HR_ydgs5
    isplitl [HU_ydgr5]; · iexact HU_ydgr5
    iexact HQ_ydgr5
  iintro ⟨HC_ydgs5, HO⟩
  -- step 151: WAIT sem=arg8,13
  iapply (wp_wait_cell m c (.ydr 13) 0 (by decide) (by rfl) (credit_qMine c 13) (owedN c 5 62)) $$ [HC_ydr13 HO HA_ydr13]
  · isplitr; · iexact HI_ydr13
    isplitl [HC_ydr13]; · iexact HC_ydr13
    isplitl [HO]; · iexact HO
    isplitr; · iapply (mayWait_cell c (.ydr 13) 5 62 rfl (Or.inr (by decide))); iexact Hlev
    iexact HA_ydr13
  iintro ⟨HO, HA_ydr13, #HR_ydr13, Hpay⟩
  ihave HB_qy5 := (Entails.of_eq (dmaPay_ydr m c 13 0)) $$ Hpay
  ihave HB_qy5 := (Entails.of_eq (pts_qMine_yP c c 5 fullShare _)) $$ HB_qy5
  -- step 152: SEND dev63 ss=arg13,5 rs=arg14,5
  iapply (wp_send_cell m c (zP c) _ (dev63_eq c) (.zdgs 5) (.zdgr 5) (by decide) (by decide) (by rfl) (by rfl) (by rfl) (by rfl) (credit_qYhi c 5) (by exact BI.Entails.refl _) (zdg_pay m c 5 _) (owedN c 4 63)) $$ [HB_qy5 HD_zdgr5 HO HT_zdgs5 HU_zdgr5]
  · isplitr; · iexact HI_zdgs5
    isplitr; · iexact HJ_zdgr5
    isplitl [HB_qy5]; · iexact HB_qy5
    isplitl [HD_zdgr5]; · iexact HD_zdgr5
    isplitl [HO]; · iexact HO
    isplitl [HT_zdgs5]; · iexact HT_zdgs5
    isplitr; · iexact HR_zdgs5
    isplitl [HU_zdgr5]; · iexact HU_zdgr5
    iexact HQ_zdgr5
  iintro ⟨HC_zdgs5, HO⟩
  -- step 153: WAIT sem=arg10,6
  iapply (wp_wait_cell m c (.zdr 6) 0 (by decide) (by rfl) (credit_qMine c 6) (owedN c 4 63)) $$ [HC_zdr6 HO HA_zdr6]
  · isplitr; · iexact HI_zdr6
    isplitl [HC_zdr6]; · iexact HC_zdr6
    isplitl [HO]; · iexact HO
    isplitr; · iapply (mayWait_cell c (.zdr 6) 4 63 rfl (Or.inr (by decide))); iexact Hlev
    iexact HA_zdr6
  iintro ⟨HO, HA_zdr6, #HR_zdr6, Hpay⟩
  ihave HB_qz6 := (Entails.of_eq (dmaPay_zdr m c 6 0)) $$ Hpay
  ihave HB_qz6 := (Entails.of_eq (pts_qMine_zP c c 6 fullShare _)) $$ HB_qz6
  -- step 154: SEND dev64 ss=arg11,6 rs=arg12,6
  iapply (wp_send_cell m c (yP c) _ (dev64_eq c) (.ydgs 6) (.ydgr 6) (by decide) (by decide) (by rfl) (by rfl) (by rfl) (by rfl) (credit_qZlo c 6) (by exact BI.Entails.refl _) (ydg_pay m c 6 _) (owedN c 3 64)) $$ [HB_qz6 HD_ydgr6 HO HT_ydgs6 HU_ydgr6]
  · isplitr; · iexact HI_ydgs6
    isplitr; · iexact HJ_ydgr6
    isplitl [HB_qz6]; · iexact HB_qz6
    isplitl [HD_ydgr6]; · iexact HD_ydgr6
    isplitl [HO]; · iexact HO
    isplitl [HT_ydgs6]; · iexact HT_ydgs6
    isplitr; · iexact HR_ydgs6
    isplitl [HU_ydgr6]; · iexact HU_ydgr6
    iexact HQ_ydgr6
  iintro ⟨HC_ydgs6, HO⟩
  -- step 155: WAIT sem=arg8,14
  iapply (wp_wait_cell m c (.ydr 14) 0 (by decide) (by rfl) (credit_qMine c 14) (owedN c 3 64)) $$ [HC_ydr14 HO HA_ydr14]
  · isplitr; · iexact HI_ydr14
    isplitl [HC_ydr14]; · iexact HC_ydr14
    isplitl [HO]; · iexact HO
    isplitr; · iapply (mayWait_cell c (.ydr 14) 3 64 rfl (Or.inr (by decide))); iexact Hlev
    iexact HA_ydr14
  iintro ⟨HO, HA_ydr14, #HR_ydr14, Hpay⟩
  ihave HB_qy6 := (Entails.of_eq (dmaPay_ydr m c 14 0)) $$ Hpay
  ihave HB_qy6 := (Entails.of_eq (pts_qMine_yP c c 6 fullShare _)) $$ HB_qy6
  -- step 156: SEND dev65 ss=arg13,6 rs=arg14,6
  iapply (wp_send_cell m c (zP c) _ (dev65_eq c) (.zdgs 6) (.zdgr 6) (by decide) (by decide) (by rfl) (by rfl) (by rfl) (by rfl) (credit_qYhi c 6) (by exact BI.Entails.refl _) (zdg_pay m c 6 _) (owedN c 2 65)) $$ [HB_qy6 HD_zdgr6 HO HT_zdgs6 HU_zdgr6]
  · isplitr; · iexact HI_zdgs6
    isplitr; · iexact HJ_zdgr6
    isplitl [HB_qy6]; · iexact HB_qy6
    isplitl [HD_zdgr6]; · iexact HD_zdgr6
    isplitl [HO]; · iexact HO
    isplitl [HT_zdgs6]; · iexact HT_zdgs6
    isplitr; · iexact HR_zdgs6
    isplitl [HU_zdgr6]; · iexact HU_zdgr6
    iexact HQ_zdgr6
  iintro ⟨HC_zdgs6, HO⟩
  -- step 157: WAIT sem=arg10,7
  iapply (wp_wait_cell m c (.zdr 7) 0 (by decide) (by rfl) (credit_qMine c 7) (owedN c 2 65)) $$ [HC_zdr7 HO HA_zdr7]
  · isplitr; · iexact HI_zdr7
    isplitl [HC_zdr7]; · iexact HC_zdr7
    isplitl [HO]; · iexact HO
    isplitr; · iapply (mayWait_cell c (.zdr 7) 2 65 rfl (Or.inr (by decide))); iexact Hlev
    iexact HA_zdr7
  iintro ⟨HO, HA_zdr7, #HR_zdr7, Hpay⟩
  ihave HB_qz7 := (Entails.of_eq (dmaPay_zdr m c 7 0)) $$ Hpay
  ihave HB_qz7 := (Entails.of_eq (pts_qMine_zP c c 7 fullShare _)) $$ HB_qz7
  -- step 158: SEND dev66 ss=arg11,7 rs=arg12,7
  iapply (wp_send_cell m c (yP c) _ (dev66_eq c) (.ydgs 7) (.ydgr 7) (by decide) (by decide) (by rfl) (by rfl) (by rfl) (by rfl) (credit_qZlo c 7) (by exact BI.Entails.refl _) (ydg_pay m c 7 _) (owedN c 1 66)) $$ [HB_qz7 HD_ydgr7 HO HT_ydgs7 HU_ydgr7]
  · isplitr; · iexact HI_ydgs7
    isplitr; · iexact HJ_ydgr7
    isplitl [HB_qz7]; · iexact HB_qz7
    isplitl [HD_ydgr7]; · iexact HD_ydgr7
    isplitl [HO]; · iexact HO
    isplitl [HT_ydgs7]; · iexact HT_ydgs7
    isplitr; · iexact HR_ydgs7
    isplitl [HU_ydgr7]; · iexact HU_ydgr7
    iexact HQ_ydgr7
  iintro ⟨HC_ydgs7, HO⟩
  -- step 159: WAIT sem=arg8,15
  iapply (wp_wait_cell m c (.ydr 15) 0 (by decide) (by rfl) (credit_qMine c 15) (owedN c 1 66)) $$ [HC_ydr15 HO HA_ydr15]
  · isplitr; · iexact HI_ydr15
    isplitl [HC_ydr15]; · iexact HC_ydr15
    isplitl [HO]; · iexact HO
    isplitr; · iapply (mayWait_cell c (.ydr 15) 1 66 rfl (Or.inr (by decide))); iexact Hlev
    iexact HA_ydr15
  iintro ⟨HO, HA_ydr15, #HR_ydr15, Hpay⟩
  ihave HB_qy7 := (Entails.of_eq (dmaPay_ydr m c 15 0)) $$ Hpay
  ihave HB_qy7 := (Entails.of_eq (pts_qMine_yP c c 7 fullShare _)) $$ HB_qy7
  -- step 160: SEND dev67 ss=arg13,7 rs=arg14,7
  iapply (wp_send_cell m c (zP c) _ (dev67_eq c) (.zdgs 7) (.zdgr 7) (by decide) (by decide) (by rfl) (by rfl) (by rfl) (by rfl) (credit_qYhi c 7) (by exact BI.Entails.refl _) (zdg_pay m c 7 _) (owedN c 0 67)) $$ [HB_qy7 HD_zdgr7 HO HT_zdgs7 HU_zdgr7]
  · isplitr; · iexact HI_zdgs7
    isplitr; · iexact HJ_zdgr7
    isplitl [HB_qy7]; · iexact HB_qy7
    isplitl [HD_zdgr7]; · iexact HD_zdgr7
    isplitl [HO]; · iexact HO
    isplitl [HT_zdgs7]; · iexact HT_zdgs7
    isplitr; · iexact HR_zdgs7
    isplitl [HU_zdgr7]; · iexact HU_zdgr7
    iexact HQ_zdgr7
  iintro ⟨HC_zdgs7, HO⟩
  -- step 161: WAIT sem=arg4,0
  iapply (wp_wait_cell m c (.st 0) 3 (by decide) (by rfl) (credit_stDst c 12) (owedN c 0 67)) $$ [HC_st0 HO HA_st0]
  · isplitr; · iexact HI_st0
    isplitl [HC_st0]; · iexact HC_st0
    isplitl [HO]; · iexact HO
    isplitr; · iapply (mayWait_cell c (.st 0) 0 67 rfl (Or.inl rfl)); iexact Hlev
    iexact HA_st0
  iintro ⟨HO, HA_st0, #HR_st0, Hpay⟩
  ihave Hpay := (Entails.of_eq (dmaPay_st m c 0 3)) $$ Hpay
  icases Hpay with ⟨HB_st12, HV0⟩
  -- step 162: WAIT sem=arg4,1
  iapply (wp_wait_cell m c (.st 1) 3 (by decide) (by rfl) (credit_stDst c 13) (owedN c 0 67)) $$ [HC_st1 HO HA_st1]
  · isplitr; · iexact HI_st1
    isplitl [HC_st1]; · iexact HC_st1
    isplitl [HO]; · iexact HO
    isplitr; · iapply (mayWait_cell c (.st 1) 0 67 rfl (Or.inl rfl)); iexact Hlev
    iexact HA_st1
  iintro ⟨HO, HA_st1, #HR_st1, Hpay⟩
  ihave Hpay := (Entails.of_eq (dmaPay_st m c 1 3)) $$ Hpay
  icases Hpay with ⟨HB_st13, HV1⟩
  -- step 163: WAIT sem=arg4,2
  iapply (wp_wait_cell m c (.st 2) 3 (by decide) (by rfl) (credit_stDst c 14) (owedN c 0 67)) $$ [HC_st2 HO HA_st2]
  · isplitr; · iexact HI_st2
    isplitl [HC_st2]; · iexact HC_st2
    isplitl [HO]; · iexact HO
    isplitr; · iapply (mayWait_cell c (.st 2) 0 67 rfl (Or.inl rfl)); iexact Hlev
    iexact HA_st2
  iintro ⟨HO, HA_st2, #HR_st2, Hpay⟩
  ihave Hpay := (Entails.of_eq (dmaPay_st m c 2 3)) $$ Hpay
  icases Hpay with ⟨HB_st14, HV2⟩
  -- step 164: WAIT sem=arg4,3
  iapply (wp_wait_cell m c (.st 3) 3 (by decide) (by rfl) (credit_stDst c 15) (owedN c 0 67)) $$ [HC_st3 HO HA_st3]
  · isplitr; · iexact HI_st3
    isplitl [HC_st3]; · iexact HC_st3
    isplitl [HO]; · iexact HO
    isplitr; · iapply (mayWait_cell c (.st 3) 0 67 rfl (Or.inl rfl)); iexact Hlev
    iexact HA_st3
  iintro ⟨HO, HA_st3, #HR_st3, Hpay⟩
  ihave Hpay := (Entails.of_eq (dmaPay_st m c 3 3)) $$ Hpay
  icases Hpay with ⟨HB_st15, HV3⟩
  -- step 165: WAIT sem=arg5,0
  iapply (wp_wait_cell m c (.xs 0) 0 (by decide) (by rfl) (credit_xSrc c 0) (owedN c 0 67)) $$ [HC_xs0 HO HA_xs0]
  · isplitr; · iexact HI_xs0
    isplitl [HC_xs0]; · iexact HC_xs0
    isplitl [HO]; · iexact HO
    isplitr; · iapply (mayWait_cell c (.xs 0) 0 67 rfl (Or.inl rfl)); iexact Hlev
    iexact HA_xs0
  iintro ⟨HO, HA_xs0, #HR_xs0, Hpay⟩
  ihave HS_x0 := (Entails.of_eq (dmaPay_xs m c 0 0)) $$ Hpay
  -- step 166: WAIT sem=arg7,0
  iapply (wp_wait_cell m c (.yds 0) 0 (by decide) (by rfl) (credit_qMine c 0) (owedN c 0 67)) $$ [HC_yds0 HO HA_yds0]
  · isplitr; · iexact HI_yds0
    isplitl [HC_yds0]; · iexact HC_yds0
    isplitl [HO]; · iexact HO
    isplitr; · iapply (mayWait_cell c (.yds 0) 0 67 rfl (Or.inl rfl)); iexact Hlev
    iexact HA_yds0
  iintro ⟨HO, HA_yds0, #HR_yds0, Hpay⟩
  ihave HB_qmL0 := (Entails.of_eq (dmaPay_yds m c 0 0)) $$ Hpay
  -- step 167: WAIT sem=arg9,0
  iapply (wp_wait_cell m c (.zds 0) 0 (by decide) (by rfl) (credit_qMine c 0) (owedN c 0 67)) $$ [HC_zds0 HO HA_zds0]
  · isplitr; · iexact HI_zds0
    isplitl [HC_zds0]; · iexact HC_zds0
    isplitl [HO]; · iexact HO
    isplitr; · iapply (mayWait_cell c (.zds 0) 0 67 rfl (Or.inl rfl)); iexact Hlev
    iexact HA_zds0
  iintro ⟨HO, HA_zds0, #HR_zds0, Hpay⟩
  ihave HB_qmR0 := (Entails.of_eq (dmaPay_zds m c 0 0)) $$ Hpay
  -- step 168: WAIT sem=arg5,1
  iapply (wp_wait_cell m c (.xs 1) 0 (by decide) (by rfl) (credit_xSrc c 1) (owedN c 0 67)) $$ [HC_xs1 HO HA_xs1]
  · isplitr; · iexact HI_xs1
    isplitl [HC_xs1]; · iexact HC_xs1
    isplitl [HO]; · iexact HO
    isplitr; · iapply (mayWait_cell c (.xs 1) 0 67 rfl (Or.inl rfl)); iexact Hlev
    iexact HA_xs1
  iintro ⟨HO, HA_xs1, #HR_xs1, Hpay⟩
  ihave HS_x1 := (Entails.of_eq (dmaPay_xs m c 1 0)) $$ Hpay
  -- step 169: WAIT sem=arg7,1
  iapply (wp_wait_cell m c (.yds 1) 0 (by decide) (by rfl) (credit_qMine c 1) (owedN c 0 67)) $$ [HC_yds1 HO HA_yds1]
  · isplitr; · iexact HI_yds1
    isplitl [HC_yds1]; · iexact HC_yds1
    isplitl [HO]; · iexact HO
    isplitr; · iapply (mayWait_cell c (.yds 1) 0 67 rfl (Or.inl rfl)); iexact Hlev
    iexact HA_yds1
  iintro ⟨HO, HA_yds1, #HR_yds1, Hpay⟩
  ihave HB_qmL1 := (Entails.of_eq (dmaPay_yds m c 1 0)) $$ Hpay
  -- step 170: WAIT sem=arg9,1
  iapply (wp_wait_cell m c (.zds 1) 0 (by decide) (by rfl) (credit_qMine c 1) (owedN c 0 67)) $$ [HC_zds1 HO HA_zds1]
  · isplitr; · iexact HI_zds1
    isplitl [HC_zds1]; · iexact HC_zds1
    isplitl [HO]; · iexact HO
    isplitr; · iapply (mayWait_cell c (.zds 1) 0 67 rfl (Or.inl rfl)); iexact Hlev
    iexact HA_zds1
  iintro ⟨HO, HA_zds1, #HR_zds1, Hpay⟩
  ihave HB_qmR1 := (Entails.of_eq (dmaPay_zds m c 1 0)) $$ Hpay
  -- step 171: WAIT sem=arg5,2
  iapply (wp_wait_cell m c (.xs 2) 0 (by decide) (by rfl) (credit_xSrc c 2) (owedN c 0 67)) $$ [HC_xs2 HO HA_xs2]
  · isplitr; · iexact HI_xs2
    isplitl [HC_xs2]; · iexact HC_xs2
    isplitl [HO]; · iexact HO
    isplitr; · iapply (mayWait_cell c (.xs 2) 0 67 rfl (Or.inl rfl)); iexact Hlev
    iexact HA_xs2
  iintro ⟨HO, HA_xs2, #HR_xs2, Hpay⟩
  ihave HS_x2 := (Entails.of_eq (dmaPay_xs m c 2 0)) $$ Hpay
  -- step 172: WAIT sem=arg7,2
  iapply (wp_wait_cell m c (.yds 2) 0 (by decide) (by rfl) (credit_qMine c 2) (owedN c 0 67)) $$ [HC_yds2 HO HA_yds2]
  · isplitr; · iexact HI_yds2
    isplitl [HC_yds2]; · iexact HC_yds2
    isplitl [HO]; · iexact HO
    isplitr; · iapply (mayWait_cell c (.yds 2) 0 67 rfl (Or.inl rfl)); iexact Hlev
    iexact HA_yds2
  iintro ⟨HO, HA_yds2, #HR_yds2, Hpay⟩
  ihave HB_qmL2 := (Entails.of_eq (dmaPay_yds m c 2 0)) $$ Hpay
  -- step 173: WAIT sem=arg9,2
  iapply (wp_wait_cell m c (.zds 2) 0 (by decide) (by rfl) (credit_qMine c 2) (owedN c 0 67)) $$ [HC_zds2 HO HA_zds2]
  · isplitr; · iexact HI_zds2
    isplitl [HC_zds2]; · iexact HC_zds2
    isplitl [HO]; · iexact HO
    isplitr; · iapply (mayWait_cell c (.zds 2) 0 67 rfl (Or.inl rfl)); iexact Hlev
    iexact HA_zds2
  iintro ⟨HO, HA_zds2, #HR_zds2, Hpay⟩
  ihave HB_qmR2 := (Entails.of_eq (dmaPay_zds m c 2 0)) $$ Hpay
  -- step 174: WAIT sem=arg5,3
  iapply (wp_wait_cell m c (.xs 3) 0 (by decide) (by rfl) (credit_xSrc c 3) (owedN c 0 67)) $$ [HC_xs3 HO HA_xs3]
  · isplitr; · iexact HI_xs3
    isplitl [HC_xs3]; · iexact HC_xs3
    isplitl [HO]; · iexact HO
    isplitr; · iapply (mayWait_cell c (.xs 3) 0 67 rfl (Or.inl rfl)); iexact Hlev
    iexact HA_xs3
  iintro ⟨HO, HA_xs3, #HR_xs3, Hpay⟩
  ihave HS_x3 := (Entails.of_eq (dmaPay_xs m c 3 0)) $$ Hpay
  -- step 175: WAIT sem=arg7,3
  iapply (wp_wait_cell m c (.yds 3) 0 (by decide) (by rfl) (credit_qMine c 3) (owedN c 0 67)) $$ [HC_yds3 HO HA_yds3]
  · isplitr; · iexact HI_yds3
    isplitl [HC_yds3]; · iexact HC_yds3
    isplitl [HO]; · iexact HO
    isplitr; · iapply (mayWait_cell c (.yds 3) 0 67 rfl (Or.inl rfl)); iexact Hlev
    iexact HA_yds3
  iintro ⟨HO, HA_yds3, #HR_yds3, Hpay⟩
  ihave HB_qmL3 := (Entails.of_eq (dmaPay_yds m c 3 0)) $$ Hpay
  -- step 176: WAIT sem=arg9,3
  iapply (wp_wait_cell m c (.zds 3) 0 (by decide) (by rfl) (credit_qMine c 3) (owedN c 0 67)) $$ [HC_zds3 HO HA_zds3]
  · isplitr; · iexact HI_zds3
    isplitl [HC_zds3]; · iexact HC_zds3
    isplitl [HO]; · iexact HO
    isplitr; · iapply (mayWait_cell c (.zds 3) 0 67 rfl (Or.inl rfl)); iexact Hlev
    iexact HA_zds3
  iintro ⟨HO, HA_zds3, #HR_zds3, Hpay⟩
  ihave HB_qmR3 := (Entails.of_eq (dmaPay_zds m c 3 0)) $$ Hpay
  -- step 177: WAIT sem=arg5,4
  iapply (wp_wait_cell m c (.xs 4) 0 (by decide) (by rfl) (credit_xSrc c 4) (owedN c 0 67)) $$ [HC_xs4 HO HA_xs4]
  · isplitr; · iexact HI_xs4
    isplitl [HC_xs4]; · iexact HC_xs4
    isplitl [HO]; · iexact HO
    isplitr; · iapply (mayWait_cell c (.xs 4) 0 67 rfl (Or.inl rfl)); iexact Hlev
    iexact HA_xs4
  iintro ⟨HO, HA_xs4, #HR_xs4, Hpay⟩
  ihave HS_x4 := (Entails.of_eq (dmaPay_xs m c 4 0)) $$ Hpay
  -- step 178: WAIT sem=arg7,4
  iapply (wp_wait_cell m c (.yds 4) 0 (by decide) (by rfl) (credit_qMine c 4) (owedN c 0 67)) $$ [HC_yds4 HO HA_yds4]
  · isplitr; · iexact HI_yds4
    isplitl [HC_yds4]; · iexact HC_yds4
    isplitl [HO]; · iexact HO
    isplitr; · iapply (mayWait_cell c (.yds 4) 0 67 rfl (Or.inl rfl)); iexact Hlev
    iexact HA_yds4
  iintro ⟨HO, HA_yds4, #HR_yds4, Hpay⟩
  ihave HB_qmL4 := (Entails.of_eq (dmaPay_yds m c 4 0)) $$ Hpay
  -- step 179: WAIT sem=arg9,4
  iapply (wp_wait_cell m c (.zds 4) 0 (by decide) (by rfl) (credit_qMine c 4) (owedN c 0 67)) $$ [HC_zds4 HO HA_zds4]
  · isplitr; · iexact HI_zds4
    isplitl [HC_zds4]; · iexact HC_zds4
    isplitl [HO]; · iexact HO
    isplitr; · iapply (mayWait_cell c (.zds 4) 0 67 rfl (Or.inl rfl)); iexact Hlev
    iexact HA_zds4
  iintro ⟨HO, HA_zds4, #HR_zds4, Hpay⟩
  ihave HB_qmR4 := (Entails.of_eq (dmaPay_zds m c 4 0)) $$ Hpay
  -- step 180: WAIT sem=arg5,5
  iapply (wp_wait_cell m c (.xs 5) 0 (by decide) (by rfl) (credit_xSrc c 5) (owedN c 0 67)) $$ [HC_xs5 HO HA_xs5]
  · isplitr; · iexact HI_xs5
    isplitl [HC_xs5]; · iexact HC_xs5
    isplitl [HO]; · iexact HO
    isplitr; · iapply (mayWait_cell c (.xs 5) 0 67 rfl (Or.inl rfl)); iexact Hlev
    iexact HA_xs5
  iintro ⟨HO, HA_xs5, #HR_xs5, Hpay⟩
  ihave HS_x5 := (Entails.of_eq (dmaPay_xs m c 5 0)) $$ Hpay
  -- step 181: WAIT sem=arg7,5
  iapply (wp_wait_cell m c (.yds 5) 0 (by decide) (by rfl) (credit_qMine c 5) (owedN c 0 67)) $$ [HC_yds5 HO HA_yds5]
  · isplitr; · iexact HI_yds5
    isplitl [HC_yds5]; · iexact HC_yds5
    isplitl [HO]; · iexact HO
    isplitr; · iapply (mayWait_cell c (.yds 5) 0 67 rfl (Or.inl rfl)); iexact Hlev
    iexact HA_yds5
  iintro ⟨HO, HA_yds5, #HR_yds5, Hpay⟩
  ihave HB_qmL5 := (Entails.of_eq (dmaPay_yds m c 5 0)) $$ Hpay
  -- step 182: WAIT sem=arg9,5
  iapply (wp_wait_cell m c (.zds 5) 0 (by decide) (by rfl) (credit_qMine c 5) (owedN c 0 67)) $$ [HC_zds5 HO HA_zds5]
  · isplitr; · iexact HI_zds5
    isplitl [HC_zds5]; · iexact HC_zds5
    isplitl [HO]; · iexact HO
    isplitr; · iapply (mayWait_cell c (.zds 5) 0 67 rfl (Or.inl rfl)); iexact Hlev
    iexact HA_zds5
  iintro ⟨HO, HA_zds5, #HR_zds5, Hpay⟩
  ihave HB_qmR5 := (Entails.of_eq (dmaPay_zds m c 5 0)) $$ Hpay
  -- step 183: WAIT sem=arg5,6
  iapply (wp_wait_cell m c (.xs 6) 0 (by decide) (by rfl) (credit_xSrc c 6) (owedN c 0 67)) $$ [HC_xs6 HO HA_xs6]
  · isplitr; · iexact HI_xs6
    isplitl [HC_xs6]; · iexact HC_xs6
    isplitl [HO]; · iexact HO
    isplitr; · iapply (mayWait_cell c (.xs 6) 0 67 rfl (Or.inl rfl)); iexact Hlev
    iexact HA_xs6
  iintro ⟨HO, HA_xs6, #HR_xs6, Hpay⟩
  ihave HS_x6 := (Entails.of_eq (dmaPay_xs m c 6 0)) $$ Hpay
  -- step 184: WAIT sem=arg7,6
  iapply (wp_wait_cell m c (.yds 6) 0 (by decide) (by rfl) (credit_qMine c 6) (owedN c 0 67)) $$ [HC_yds6 HO HA_yds6]
  · isplitr; · iexact HI_yds6
    isplitl [HC_yds6]; · iexact HC_yds6
    isplitl [HO]; · iexact HO
    isplitr; · iapply (mayWait_cell c (.yds 6) 0 67 rfl (Or.inl rfl)); iexact Hlev
    iexact HA_yds6
  iintro ⟨HO, HA_yds6, #HR_yds6, Hpay⟩
  ihave HB_qmL6 := (Entails.of_eq (dmaPay_yds m c 6 0)) $$ Hpay
  -- step 185: WAIT sem=arg9,6
  iapply (wp_wait_cell m c (.zds 6) 0 (by decide) (by rfl) (credit_qMine c 6) (owedN c 0 67)) $$ [HC_zds6 HO HA_zds6]
  · isplitr; · iexact HI_zds6
    isplitl [HC_zds6]; · iexact HC_zds6
    isplitl [HO]; · iexact HO
    isplitr; · iapply (mayWait_cell c (.zds 6) 0 67 rfl (Or.inl rfl)); iexact Hlev
    iexact HA_zds6
  iintro ⟨HO, HA_zds6, #HR_zds6, Hpay⟩
  ihave HB_qmR6 := (Entails.of_eq (dmaPay_zds m c 6 0)) $$ Hpay
  -- step 186: WAIT sem=arg5,7
  iapply (wp_wait_cell m c (.xs 7) 0 (by decide) (by rfl) (credit_xSrc c 7) (owedN c 0 67)) $$ [HC_xs7 HO HA_xs7]
  · isplitr; · iexact HI_xs7
    isplitl [HC_xs7]; · iexact HC_xs7
    isplitl [HO]; · iexact HO
    isplitr; · iapply (mayWait_cell c (.xs 7) 0 67 rfl (Or.inl rfl)); iexact Hlev
    iexact HA_xs7
  iintro ⟨HO, HA_xs7, #HR_xs7, Hpay⟩
  ihave HS_x7 := (Entails.of_eq (dmaPay_xs m c 7 0)) $$ Hpay
  -- step 187: WAIT sem=arg7,7
  iapply (wp_wait_cell m c (.yds 7) 0 (by decide) (by rfl) (credit_qMine c 7) (owedN c 0 67)) $$ [HC_yds7 HO HA_yds7]
  · isplitr; · iexact HI_yds7
    isplitl [HC_yds7]; · iexact HC_yds7
    isplitl [HO]; · iexact HO
    isplitr; · iapply (mayWait_cell c (.yds 7) 0 67 rfl (Or.inl rfl)); iexact Hlev
    iexact HA_yds7
  iintro ⟨HO, HA_yds7, #HR_yds7, Hpay⟩
  ihave HB_qmL7 := (Entails.of_eq (dmaPay_yds m c 7 0)) $$ Hpay
  -- step 188: WAIT sem=arg9,7
  iapply (wp_wait_cell m c (.zds 7) 0 (by decide) (by rfl) (credit_qMine c 7) (owedN c 0 67)) $$ [HC_zds7 HO HA_zds7]
  · isplitr; · iexact HI_zds7
    isplitl [HC_zds7]; · iexact HC_zds7
    isplitl [HO]; · iexact HO
    isplitr; · iapply (mayWait_cell c (.zds 7) 0 67 rfl (Or.inl rfl)); iexact Hlev
    iexact HA_zds7
  iintro ⟨HO, HA_zds7, #HR_zds7, Hpay⟩
  ihave HB_qmR7 := (Entails.of_eq (dmaPay_zds m c 7 0)) $$ Hpay
  -- step 189: WAIT sem=arg5,8
  iapply (wp_wait_cell m c (.xs 8) 0 (by decide) (by rfl) (credit_xSrc c 8) (owedN c 0 67)) $$ [HC_xs8 HO HA_xs8]
  · isplitr; · iexact HI_xs8
    isplitl [HC_xs8]; · iexact HC_xs8
    isplitl [HO]; · iexact HO
    isplitr; · iapply (mayWait_cell c (.xs 8) 0 67 rfl (Or.inl rfl)); iexact Hlev
    iexact HA_xs8
  iintro ⟨HO, HA_xs8, #HR_xs8, Hpay⟩
  ihave HS_x8 := (Entails.of_eq (dmaPay_xs m c 8 0)) $$ Hpay
  -- step 190: WAIT sem=arg7,8
  iapply (wp_wait_cell m c (.yds 8) 0 (by decide) (by rfl) (credit_qMine c 8) (owedN c 0 67)) $$ [HC_yds8 HO HA_yds8]
  · isplitr; · iexact HI_yds8
    isplitl [HC_yds8]; · iexact HC_yds8
    isplitl [HO]; · iexact HO
    isplitr; · iapply (mayWait_cell c (.yds 8) 0 67 rfl (Or.inl rfl)); iexact Hlev
    iexact HA_yds8
  iintro ⟨HO, HA_yds8, #HR_yds8, Hpay⟩
  ihave HB_qmL8 := (Entails.of_eq (dmaPay_yds m c 8 0)) $$ Hpay
  -- step 191: WAIT sem=arg9,8
  iapply (wp_wait_cell m c (.zds 8) 0 (by decide) (by rfl) (credit_qMine c 8) (owedN c 0 67)) $$ [HC_zds8 HO HA_zds8]
  · isplitr; · iexact HI_zds8
    isplitl [HC_zds8]; · iexact HC_zds8
    isplitl [HO]; · iexact HO
    isplitr; · iapply (mayWait_cell c (.zds 8) 0 67 rfl (Or.inl rfl)); iexact Hlev
    iexact HA_zds8
  iintro ⟨HO, HA_zds8, #HR_zds8, Hpay⟩
  ihave HB_qmR8 := (Entails.of_eq (dmaPay_zds m c 8 0)) $$ Hpay
  -- step 192: WAIT sem=arg5,9
  iapply (wp_wait_cell m c (.xs 9) 0 (by decide) (by rfl) (credit_xSrc c 9) (owedN c 0 67)) $$ [HC_xs9 HO HA_xs9]
  · isplitr; · iexact HI_xs9
    isplitl [HC_xs9]; · iexact HC_xs9
    isplitl [HO]; · iexact HO
    isplitr; · iapply (mayWait_cell c (.xs 9) 0 67 rfl (Or.inl rfl)); iexact Hlev
    iexact HA_xs9
  iintro ⟨HO, HA_xs9, #HR_xs9, Hpay⟩
  ihave HS_x9 := (Entails.of_eq (dmaPay_xs m c 9 0)) $$ Hpay
  -- step 193: WAIT sem=arg7,9
  iapply (wp_wait_cell m c (.yds 9) 0 (by decide) (by rfl) (credit_qMine c 9) (owedN c 0 67)) $$ [HC_yds9 HO HA_yds9]
  · isplitr; · iexact HI_yds9
    isplitl [HC_yds9]; · iexact HC_yds9
    isplitl [HO]; · iexact HO
    isplitr; · iapply (mayWait_cell c (.yds 9) 0 67 rfl (Or.inl rfl)); iexact Hlev
    iexact HA_yds9
  iintro ⟨HO, HA_yds9, #HR_yds9, Hpay⟩
  ihave HB_qmL9 := (Entails.of_eq (dmaPay_yds m c 9 0)) $$ Hpay
  -- step 194: WAIT sem=arg9,9
  iapply (wp_wait_cell m c (.zds 9) 0 (by decide) (by rfl) (credit_qMine c 9) (owedN c 0 67)) $$ [HC_zds9 HO HA_zds9]
  · isplitr; · iexact HI_zds9
    isplitl [HC_zds9]; · iexact HC_zds9
    isplitl [HO]; · iexact HO
    isplitr; · iapply (mayWait_cell c (.zds 9) 0 67 rfl (Or.inl rfl)); iexact Hlev
    iexact HA_zds9
  iintro ⟨HO, HA_zds9, #HR_zds9, Hpay⟩
  ihave HB_qmR9 := (Entails.of_eq (dmaPay_zds m c 9 0)) $$ Hpay
  -- step 195: WAIT sem=arg5,10
  iapply (wp_wait_cell m c (.xs 10) 0 (by decide) (by rfl) (credit_xSrc c 10) (owedN c 0 67)) $$ [HC_xs10 HO HA_xs10]
  · isplitr; · iexact HI_xs10
    isplitl [HC_xs10]; · iexact HC_xs10
    isplitl [HO]; · iexact HO
    isplitr; · iapply (mayWait_cell c (.xs 10) 0 67 rfl (Or.inl rfl)); iexact Hlev
    iexact HA_xs10
  iintro ⟨HO, HA_xs10, #HR_xs10, Hpay⟩
  ihave HS_x10 := (Entails.of_eq (dmaPay_xs m c 10 0)) $$ Hpay
  -- step 196: WAIT sem=arg7,10
  iapply (wp_wait_cell m c (.yds 10) 0 (by decide) (by rfl) (credit_qMine c 10) (owedN c 0 67)) $$ [HC_yds10 HO HA_yds10]
  · isplitr; · iexact HI_yds10
    isplitl [HC_yds10]; · iexact HC_yds10
    isplitl [HO]; · iexact HO
    isplitr; · iapply (mayWait_cell c (.yds 10) 0 67 rfl (Or.inl rfl)); iexact Hlev
    iexact HA_yds10
  iintro ⟨HO, HA_yds10, #HR_yds10, Hpay⟩
  ihave HB_qmL10 := (Entails.of_eq (dmaPay_yds m c 10 0)) $$ Hpay
  -- step 197: WAIT sem=arg9,10
  iapply (wp_wait_cell m c (.zds 10) 0 (by decide) (by rfl) (credit_qMine c 10) (owedN c 0 67)) $$ [HC_zds10 HO HA_zds10]
  · isplitr; · iexact HI_zds10
    isplitl [HC_zds10]; · iexact HC_zds10
    isplitl [HO]; · iexact HO
    isplitr; · iapply (mayWait_cell c (.zds 10) 0 67 rfl (Or.inl rfl)); iexact Hlev
    iexact HA_zds10
  iintro ⟨HO, HA_zds10, #HR_zds10, Hpay⟩
  ihave HB_qmR10 := (Entails.of_eq (dmaPay_zds m c 10 0)) $$ Hpay
  -- step 198: WAIT sem=arg5,11
  iapply (wp_wait_cell m c (.xs 11) 0 (by decide) (by rfl) (credit_xSrc c 11) (owedN c 0 67)) $$ [HC_xs11 HO HA_xs11]
  · isplitr; · iexact HI_xs11
    isplitl [HC_xs11]; · iexact HC_xs11
    isplitl [HO]; · iexact HO
    isplitr; · iapply (mayWait_cell c (.xs 11) 0 67 rfl (Or.inl rfl)); iexact Hlev
    iexact HA_xs11
  iintro ⟨HO, HA_xs11, #HR_xs11, Hpay⟩
  ihave HS_x11 := (Entails.of_eq (dmaPay_xs m c 11 0)) $$ Hpay
  -- step 199: WAIT sem=arg7,11
  iapply (wp_wait_cell m c (.yds 11) 0 (by decide) (by rfl) (credit_qMine c 11) (owedN c 0 67)) $$ [HC_yds11 HO HA_yds11]
  · isplitr; · iexact HI_yds11
    isplitl [HC_yds11]; · iexact HC_yds11
    isplitl [HO]; · iexact HO
    isplitr; · iapply (mayWait_cell c (.yds 11) 0 67 rfl (Or.inl rfl)); iexact Hlev
    iexact HA_yds11
  iintro ⟨HO, HA_yds11, #HR_yds11, Hpay⟩
  ihave HB_qmL11 := (Entails.of_eq (dmaPay_yds m c 11 0)) $$ Hpay
  -- step 200: WAIT sem=arg9,11
  iapply (wp_wait_cell m c (.zds 11) 0 (by decide) (by rfl) (credit_qMine c 11) (owedN c 0 67)) $$ [HC_zds11 HO HA_zds11]
  · isplitr; · iexact HI_zds11
    isplitl [HC_zds11]; · iexact HC_zds11
    isplitl [HO]; · iexact HO
    isplitr; · iapply (mayWait_cell c (.zds 11) 0 67 rfl (Or.inl rfl)); iexact Hlev
    iexact HA_zds11
  iintro ⟨HO, HA_zds11, #HR_zds11, Hpay⟩
  ihave HB_qmR11 := (Entails.of_eq (dmaPay_zds m c 11 0)) $$ Hpay
  -- step 201: WAIT sem=arg5,12
  iapply (wp_wait_cell m c (.xs 12) 0 (by decide) (by rfl) (credit_xSrc c 12) (owedN c 0 67)) $$ [HC_xs12 HO HA_xs12]
  · isplitr; · iexact HI_xs12
    isplitl [HC_xs12]; · iexact HC_xs12
    isplitl [HO]; · iexact HO
    isplitr; · iapply (mayWait_cell c (.xs 12) 0 67 rfl (Or.inl rfl)); iexact Hlev
    iexact HA_xs12
  iintro ⟨HO, HA_xs12, #HR_xs12, Hpay⟩
  ihave HS_x12 := (Entails.of_eq (dmaPay_xs m c 12 0)) $$ Hpay
  -- step 202: WAIT sem=arg7,12
  iapply (wp_wait_cell m c (.yds 12) 0 (by decide) (by rfl) (credit_qMine c 12) (owedN c 0 67)) $$ [HC_yds12 HO HA_yds12]
  · isplitr; · iexact HI_yds12
    isplitl [HC_yds12]; · iexact HC_yds12
    isplitl [HO]; · iexact HO
    isplitr; · iapply (mayWait_cell c (.yds 12) 0 67 rfl (Or.inl rfl)); iexact Hlev
    iexact HA_yds12
  iintro ⟨HO, HA_yds12, #HR_yds12, Hpay⟩
  ihave HB_qmL12 := (Entails.of_eq (dmaPay_yds m c 12 0)) $$ Hpay
  -- step 203: WAIT sem=arg9,12
  iapply (wp_wait_cell m c (.zds 12) 0 (by decide) (by rfl) (credit_qMine c 12) (owedN c 0 67)) $$ [HC_zds12 HO HA_zds12]
  · isplitr; · iexact HI_zds12
    isplitl [HC_zds12]; · iexact HC_zds12
    isplitl [HO]; · iexact HO
    isplitr; · iapply (mayWait_cell c (.zds 12) 0 67 rfl (Or.inl rfl)); iexact Hlev
    iexact HA_zds12
  iintro ⟨HO, HA_zds12, #HR_zds12, Hpay⟩
  ihave HB_qmR12 := (Entails.of_eq (dmaPay_zds m c 12 0)) $$ Hpay
  -- step 204: WAIT sem=arg5,13
  iapply (wp_wait_cell m c (.xs 13) 0 (by decide) (by rfl) (credit_xSrc c 13) (owedN c 0 67)) $$ [HC_xs13 HO HA_xs13]
  · isplitr; · iexact HI_xs13
    isplitl [HC_xs13]; · iexact HC_xs13
    isplitl [HO]; · iexact HO
    isplitr; · iapply (mayWait_cell c (.xs 13) 0 67 rfl (Or.inl rfl)); iexact Hlev
    iexact HA_xs13
  iintro ⟨HO, HA_xs13, #HR_xs13, Hpay⟩
  ihave HS_x13 := (Entails.of_eq (dmaPay_xs m c 13 0)) $$ Hpay
  -- step 205: WAIT sem=arg7,13
  iapply (wp_wait_cell m c (.yds 13) 0 (by decide) (by rfl) (credit_qMine c 13) (owedN c 0 67)) $$ [HC_yds13 HO HA_yds13]
  · isplitr; · iexact HI_yds13
    isplitl [HC_yds13]; · iexact HC_yds13
    isplitl [HO]; · iexact HO
    isplitr; · iapply (mayWait_cell c (.yds 13) 0 67 rfl (Or.inl rfl)); iexact Hlev
    iexact HA_yds13
  iintro ⟨HO, HA_yds13, #HR_yds13, Hpay⟩
  ihave HB_qmL13 := (Entails.of_eq (dmaPay_yds m c 13 0)) $$ Hpay
  -- step 206: WAIT sem=arg9,13
  iapply (wp_wait_cell m c (.zds 13) 0 (by decide) (by rfl) (credit_qMine c 13) (owedN c 0 67)) $$ [HC_zds13 HO HA_zds13]
  · isplitr; · iexact HI_zds13
    isplitl [HC_zds13]; · iexact HC_zds13
    isplitl [HO]; · iexact HO
    isplitr; · iapply (mayWait_cell c (.zds 13) 0 67 rfl (Or.inl rfl)); iexact Hlev
    iexact HA_zds13
  iintro ⟨HO, HA_zds13, #HR_zds13, Hpay⟩
  ihave HB_qmR13 := (Entails.of_eq (dmaPay_zds m c 13 0)) $$ Hpay
  -- step 207: WAIT sem=arg5,14
  iapply (wp_wait_cell m c (.xs 14) 0 (by decide) (by rfl) (credit_xSrc c 14) (owedN c 0 67)) $$ [HC_xs14 HO HA_xs14]
  · isplitr; · iexact HI_xs14
    isplitl [HC_xs14]; · iexact HC_xs14
    isplitl [HO]; · iexact HO
    isplitr; · iapply (mayWait_cell c (.xs 14) 0 67 rfl (Or.inl rfl)); iexact Hlev
    iexact HA_xs14
  iintro ⟨HO, HA_xs14, #HR_xs14, Hpay⟩
  ihave HS_x14 := (Entails.of_eq (dmaPay_xs m c 14 0)) $$ Hpay
  -- step 208: WAIT sem=arg7,14
  iapply (wp_wait_cell m c (.yds 14) 0 (by decide) (by rfl) (credit_qMine c 14) (owedN c 0 67)) $$ [HC_yds14 HO HA_yds14]
  · isplitr; · iexact HI_yds14
    isplitl [HC_yds14]; · iexact HC_yds14
    isplitl [HO]; · iexact HO
    isplitr; · iapply (mayWait_cell c (.yds 14) 0 67 rfl (Or.inl rfl)); iexact Hlev
    iexact HA_yds14
  iintro ⟨HO, HA_yds14, #HR_yds14, Hpay⟩
  ihave HB_qmL14 := (Entails.of_eq (dmaPay_yds m c 14 0)) $$ Hpay
  -- step 209: WAIT sem=arg9,14
  iapply (wp_wait_cell m c (.zds 14) 0 (by decide) (by rfl) (credit_qMine c 14) (owedN c 0 67)) $$ [HC_zds14 HO HA_zds14]
  · isplitr; · iexact HI_zds14
    isplitl [HC_zds14]; · iexact HC_zds14
    isplitl [HO]; · iexact HO
    isplitr; · iapply (mayWait_cell c (.zds 14) 0 67 rfl (Or.inl rfl)); iexact Hlev
    iexact HA_zds14
  iintro ⟨HO, HA_zds14, #HR_zds14, Hpay⟩
  ihave HB_qmR14 := (Entails.of_eq (dmaPay_zds m c 14 0)) $$ Hpay
  -- step 210: WAIT sem=arg5,15
  iapply (wp_wait_cell m c (.xs 15) 0 (by decide) (by rfl) (credit_xSrc c 15) (owedN c 0 67)) $$ [HC_xs15 HO HA_xs15]
  · isplitr; · iexact HI_xs15
    isplitl [HC_xs15]; · iexact HC_xs15
    isplitl [HO]; · iexact HO
    isplitr; · iapply (mayWait_cell c (.xs 15) 0 67 rfl (Or.inl rfl)); iexact Hlev
    iexact HA_xs15
  iintro ⟨HO, HA_xs15, #HR_xs15, Hpay⟩
  ihave HS_x15 := (Entails.of_eq (dmaPay_xs m c 15 0)) $$ Hpay
  -- step 211: WAIT sem=arg7,15
  iapply (wp_wait_cell m c (.yds 15) 0 (by decide) (by rfl) (credit_qMine c 15) (owedN c 0 67)) $$ [HC_yds15 HO HA_yds15]
  · isplitr; · iexact HI_yds15
    isplitl [HC_yds15]; · iexact HC_yds15
    isplitl [HO]; · iexact HO
    isplitr; · iapply (mayWait_cell c (.yds 15) 0 67 rfl (Or.inl rfl)); iexact Hlev
    iexact HA_yds15
  iintro ⟨HO, HA_yds15, #HR_yds15, Hpay⟩
  ihave HB_qmL15 := (Entails.of_eq (dmaPay_yds m c 15 0)) $$ Hpay
  -- step 212: WAIT sem=arg9,15
  iapply (wp_wait_cell m c (.zds 15) 0 (by decide) (by rfl) (credit_qMine c 15) (owedN c 0 67)) $$ [HC_zds15 HO HA_zds15]
  · isplitr; · iexact HI_zds15
    isplitl [HC_zds15]; · iexact HC_zds15
    isplitl [HO]; · iexact HO
    isplitr; · iapply (mayWait_cell c (.zds 15) 0 67 rfl (Or.inl rfl)); iexact Hlev
    iexact HA_zds15
  iintro ⟨HO, HA_zds15, #HR_zds15, Hpay⟩
  ihave HB_qmR15 := (Entails.of_eq (dmaPay_zds m c 15 0)) $$ Hpay
  -- step 213: WAIT sem=arg8,0
  iapply (wp_wait_cell m c (.ydr 0) 0 (by decide) (by rfl) (credit_qMine c 0) (owedN c 0 67)) $$ [HC_ydr0 HO HA_ydr0]
  · isplitr; · iexact HI_ydr0
    isplitl [HC_ydr0]; · iexact HC_ydr0
    isplitl [HO]; · iexact HO
    isplitr; · iapply (mayWait_cell c (.ydr 0) 0 67 rfl (Or.inl rfl)); iexact Hlev
    iexact HA_ydr0
  iintro ⟨HO, HA_ydr0, #HR_ydr0, Hpay⟩
  ihave HB_yd0 := (Entails.of_eq (dmaPay_ydr m c 0 0)) $$ Hpay
  -- step 214: WAIT sem=arg10,8
  iapply (wp_wait_cell m c (.zdr 8) 0 (by decide) (by rfl) (credit_qMine c 8) (owedN c 0 67)) $$ [HC_zdr8 HO HA_zdr8]
  · isplitr; · iexact HI_zdr8
    isplitl [HC_zdr8]; · iexact HC_zdr8
    isplitl [HO]; · iexact HO
    isplitr; · iapply (mayWait_cell c (.zdr 8) 0 67 rfl (Or.inl rfl)); iexact Hlev
    iexact HA_zdr8
  iintro ⟨HO, HA_zdr8, #HR_zdr8, Hpay⟩
  ihave HB_zd8 := (Entails.of_eq (dmaPay_zdr m c 8 0)) $$ Hpay
  -- step 215: WAIT sem=arg11,0
  iapply (wp_wait_cell m c (.ydgs 0) 0 (by decide) (by rfl) (credit_qZlo c 0) (owedN c 0 67)) $$ [HC_ydgs0 HO HA_ydgs0]
  · isplitr; · iexact HI_ydgs0
    isplitl [HC_ydgs0]; · iexact HC_ydgs0
    isplitl [HO]; · iexact HO
    isplitr; · iapply (mayWait_cell c (.ydgs 0) 0 67 rfl (Or.inl rfl)); iexact Hlev
    iexact HA_ydgs0
  iintro ⟨HO, HA_ydgs0, #HR_ydgs0, Hpay⟩
  ihave HB_qz0 := (Entails.of_eq (dmaPay_ydgs m c 0 0)) $$ Hpay
  -- step 216: WAIT sem=arg12,0
  iapply (wp_wait_cell m c (.ydgr 0) 0 (by decide) (by rfl) (credit_qZlo c 0) (owedN c 0 67)) $$ [HC_ydgr0 HO HA_ydgr0]
  · isplitr; · iexact HI_ydgr0
    isplitl [HC_ydgr0]; · iexact HC_ydgr0
    isplitl [HO]; · iexact HO
    isplitr; · iapply (mayWait_cell c (.ydgr 0) 0 67 rfl (Or.inl rfl)); iexact Hlev
    iexact HA_ydgr0
  iintro ⟨HO, HA_ydgr0, #HR_ydgr0, Hpay⟩
  ihave HB_ydg0 := (Entails.of_eq (dmaPay_ydgr m c 0 0)) $$ Hpay
  -- step 217: WAIT sem=arg13,0
  iapply (wp_wait_cell m c (.zdgs 0) 0 (by decide) (by rfl) (credit_qYhi c 0) (owedN c 0 67)) $$ [HC_zdgs0 HO HA_zdgs0]
  · isplitr; · iexact HI_zdgs0
    isplitl [HC_zdgs0]; · iexact HC_zdgs0
    isplitl [HO]; · iexact HO
    isplitr; · iapply (mayWait_cell c (.zdgs 0) 0 67 rfl (Or.inl rfl)); iexact Hlev
    iexact HA_zdgs0
  iintro ⟨HO, HA_zdgs0, #HR_zdgs0, Hpay⟩
  ihave HB_qy0 := (Entails.of_eq (dmaPay_zdgs m c 0 0)) $$ Hpay
  -- step 218: WAIT sem=arg14,0
  iapply (wp_wait_cell m c (.zdgr 0) 0 (by decide) (by rfl) (credit_qYhi c 0) (owedN c 0 67)) $$ [HC_zdgr0 HO HA_zdgr0]
  · isplitr; · iexact HI_zdgr0
    isplitl [HC_zdgr0]; · iexact HC_zdgr0
    isplitl [HO]; · iexact HO
    isplitr; · iapply (mayWait_cell c (.zdgr 0) 0 67 rfl (Or.inl rfl)); iexact Hlev
    iexact HA_zdgr0
  iintro ⟨HO, HA_zdgr0, #HR_zdgr0, Hpay⟩
  ihave HB_zdg0 := (Entails.of_eq (dmaPay_zdgr m c 0 0)) $$ Hpay
  -- step 219: WAIT sem=arg8,1
  iapply (wp_wait_cell m c (.ydr 1) 0 (by decide) (by rfl) (credit_qMine c 1) (owedN c 0 67)) $$ [HC_ydr1 HO HA_ydr1]
  · isplitr; · iexact HI_ydr1
    isplitl [HC_ydr1]; · iexact HC_ydr1
    isplitl [HO]; · iexact HO
    isplitr; · iapply (mayWait_cell c (.ydr 1) 0 67 rfl (Or.inl rfl)); iexact Hlev
    iexact HA_ydr1
  iintro ⟨HO, HA_ydr1, #HR_ydr1, Hpay⟩
  ihave HB_yd1 := (Entails.of_eq (dmaPay_ydr m c 1 0)) $$ Hpay
  -- step 220: WAIT sem=arg10,9
  iapply (wp_wait_cell m c (.zdr 9) 0 (by decide) (by rfl) (credit_qMine c 9) (owedN c 0 67)) $$ [HC_zdr9 HO HA_zdr9]
  · isplitr; · iexact HI_zdr9
    isplitl [HC_zdr9]; · iexact HC_zdr9
    isplitl [HO]; · iexact HO
    isplitr; · iapply (mayWait_cell c (.zdr 9) 0 67 rfl (Or.inl rfl)); iexact Hlev
    iexact HA_zdr9
  iintro ⟨HO, HA_zdr9, #HR_zdr9, Hpay⟩
  ihave HB_zd9 := (Entails.of_eq (dmaPay_zdr m c 9 0)) $$ Hpay
  -- step 221: WAIT sem=arg11,1
  iapply (wp_wait_cell m c (.ydgs 1) 0 (by decide) (by rfl) (credit_qZlo c 1) (owedN c 0 67)) $$ [HC_ydgs1 HO HA_ydgs1]
  · isplitr; · iexact HI_ydgs1
    isplitl [HC_ydgs1]; · iexact HC_ydgs1
    isplitl [HO]; · iexact HO
    isplitr; · iapply (mayWait_cell c (.ydgs 1) 0 67 rfl (Or.inl rfl)); iexact Hlev
    iexact HA_ydgs1
  iintro ⟨HO, HA_ydgs1, #HR_ydgs1, Hpay⟩
  ihave HB_qz1 := (Entails.of_eq (dmaPay_ydgs m c 1 0)) $$ Hpay
  -- step 222: WAIT sem=arg12,1
  iapply (wp_wait_cell m c (.ydgr 1) 0 (by decide) (by rfl) (credit_qZlo c 1) (owedN c 0 67)) $$ [HC_ydgr1 HO HA_ydgr1]
  · isplitr; · iexact HI_ydgr1
    isplitl [HC_ydgr1]; · iexact HC_ydgr1
    isplitl [HO]; · iexact HO
    isplitr; · iapply (mayWait_cell c (.ydgr 1) 0 67 rfl (Or.inl rfl)); iexact Hlev
    iexact HA_ydgr1
  iintro ⟨HO, HA_ydgr1, #HR_ydgr1, Hpay⟩
  ihave HB_ydg1 := (Entails.of_eq (dmaPay_ydgr m c 1 0)) $$ Hpay
  -- step 223: WAIT sem=arg13,1
  iapply (wp_wait_cell m c (.zdgs 1) 0 (by decide) (by rfl) (credit_qYhi c 1) (owedN c 0 67)) $$ [HC_zdgs1 HO HA_zdgs1]
  · isplitr; · iexact HI_zdgs1
    isplitl [HC_zdgs1]; · iexact HC_zdgs1
    isplitl [HO]; · iexact HO
    isplitr; · iapply (mayWait_cell c (.zdgs 1) 0 67 rfl (Or.inl rfl)); iexact Hlev
    iexact HA_zdgs1
  iintro ⟨HO, HA_zdgs1, #HR_zdgs1, Hpay⟩
  ihave HB_qy1 := (Entails.of_eq (dmaPay_zdgs m c 1 0)) $$ Hpay
  -- step 224: WAIT sem=arg14,1
  iapply (wp_wait_cell m c (.zdgr 1) 0 (by decide) (by rfl) (credit_qYhi c 1) (owedN c 0 67)) $$ [HC_zdgr1 HO HA_zdgr1]
  · isplitr; · iexact HI_zdgr1
    isplitl [HC_zdgr1]; · iexact HC_zdgr1
    isplitl [HO]; · iexact HO
    isplitr; · iapply (mayWait_cell c (.zdgr 1) 0 67 rfl (Or.inl rfl)); iexact Hlev
    iexact HA_zdgr1
  iintro ⟨HO, HA_zdgr1, #HR_zdgr1, Hpay⟩
  ihave HB_zdg1 := (Entails.of_eq (dmaPay_zdgr m c 1 0)) $$ Hpay
  -- step 225: WAIT sem=arg8,2
  iapply (wp_wait_cell m c (.ydr 2) 0 (by decide) (by rfl) (credit_qMine c 2) (owedN c 0 67)) $$ [HC_ydr2 HO HA_ydr2]
  · isplitr; · iexact HI_ydr2
    isplitl [HC_ydr2]; · iexact HC_ydr2
    isplitl [HO]; · iexact HO
    isplitr; · iapply (mayWait_cell c (.ydr 2) 0 67 rfl (Or.inl rfl)); iexact Hlev
    iexact HA_ydr2
  iintro ⟨HO, HA_ydr2, #HR_ydr2, Hpay⟩
  ihave HB_yd2 := (Entails.of_eq (dmaPay_ydr m c 2 0)) $$ Hpay
  -- step 226: WAIT sem=arg10,10
  iapply (wp_wait_cell m c (.zdr 10) 0 (by decide) (by rfl) (credit_qMine c 10) (owedN c 0 67)) $$ [HC_zdr10 HO HA_zdr10]
  · isplitr; · iexact HI_zdr10
    isplitl [HC_zdr10]; · iexact HC_zdr10
    isplitl [HO]; · iexact HO
    isplitr; · iapply (mayWait_cell c (.zdr 10) 0 67 rfl (Or.inl rfl)); iexact Hlev
    iexact HA_zdr10
  iintro ⟨HO, HA_zdr10, #HR_zdr10, Hpay⟩
  ihave HB_zd10 := (Entails.of_eq (dmaPay_zdr m c 10 0)) $$ Hpay
  -- step 227: WAIT sem=arg11,2
  iapply (wp_wait_cell m c (.ydgs 2) 0 (by decide) (by rfl) (credit_qZlo c 2) (owedN c 0 67)) $$ [HC_ydgs2 HO HA_ydgs2]
  · isplitr; · iexact HI_ydgs2
    isplitl [HC_ydgs2]; · iexact HC_ydgs2
    isplitl [HO]; · iexact HO
    isplitr; · iapply (mayWait_cell c (.ydgs 2) 0 67 rfl (Or.inl rfl)); iexact Hlev
    iexact HA_ydgs2
  iintro ⟨HO, HA_ydgs2, #HR_ydgs2, Hpay⟩
  ihave HB_qz2 := (Entails.of_eq (dmaPay_ydgs m c 2 0)) $$ Hpay
  -- step 228: WAIT sem=arg12,2
  iapply (wp_wait_cell m c (.ydgr 2) 0 (by decide) (by rfl) (credit_qZlo c 2) (owedN c 0 67)) $$ [HC_ydgr2 HO HA_ydgr2]
  · isplitr; · iexact HI_ydgr2
    isplitl [HC_ydgr2]; · iexact HC_ydgr2
    isplitl [HO]; · iexact HO
    isplitr; · iapply (mayWait_cell c (.ydgr 2) 0 67 rfl (Or.inl rfl)); iexact Hlev
    iexact HA_ydgr2
  iintro ⟨HO, HA_ydgr2, #HR_ydgr2, Hpay⟩
  ihave HB_ydg2 := (Entails.of_eq (dmaPay_ydgr m c 2 0)) $$ Hpay
  -- step 229: WAIT sem=arg13,2
  iapply (wp_wait_cell m c (.zdgs 2) 0 (by decide) (by rfl) (credit_qYhi c 2) (owedN c 0 67)) $$ [HC_zdgs2 HO HA_zdgs2]
  · isplitr; · iexact HI_zdgs2
    isplitl [HC_zdgs2]; · iexact HC_zdgs2
    isplitl [HO]; · iexact HO
    isplitr; · iapply (mayWait_cell c (.zdgs 2) 0 67 rfl (Or.inl rfl)); iexact Hlev
    iexact HA_zdgs2
  iintro ⟨HO, HA_zdgs2, #HR_zdgs2, Hpay⟩
  ihave HB_qy2 := (Entails.of_eq (dmaPay_zdgs m c 2 0)) $$ Hpay
  -- step 230: WAIT sem=arg14,2
  iapply (wp_wait_cell m c (.zdgr 2) 0 (by decide) (by rfl) (credit_qYhi c 2) (owedN c 0 67)) $$ [HC_zdgr2 HO HA_zdgr2]
  · isplitr; · iexact HI_zdgr2
    isplitl [HC_zdgr2]; · iexact HC_zdgr2
    isplitl [HO]; · iexact HO
    isplitr; · iapply (mayWait_cell c (.zdgr 2) 0 67 rfl (Or.inl rfl)); iexact Hlev
    iexact HA_zdgr2
  iintro ⟨HO, HA_zdgr2, #HR_zdgr2, Hpay⟩
  ihave HB_zdg2 := (Entails.of_eq (dmaPay_zdgr m c 2 0)) $$ Hpay
  -- step 231: WAIT sem=arg8,3
  iapply (wp_wait_cell m c (.ydr 3) 0 (by decide) (by rfl) (credit_qMine c 3) (owedN c 0 67)) $$ [HC_ydr3 HO HA_ydr3]
  · isplitr; · iexact HI_ydr3
    isplitl [HC_ydr3]; · iexact HC_ydr3
    isplitl [HO]; · iexact HO
    isplitr; · iapply (mayWait_cell c (.ydr 3) 0 67 rfl (Or.inl rfl)); iexact Hlev
    iexact HA_ydr3
  iintro ⟨HO, HA_ydr3, #HR_ydr3, Hpay⟩
  ihave HB_yd3 := (Entails.of_eq (dmaPay_ydr m c 3 0)) $$ Hpay
  -- step 232: WAIT sem=arg10,11
  iapply (wp_wait_cell m c (.zdr 11) 0 (by decide) (by rfl) (credit_qMine c 11) (owedN c 0 67)) $$ [HC_zdr11 HO HA_zdr11]
  · isplitr; · iexact HI_zdr11
    isplitl [HC_zdr11]; · iexact HC_zdr11
    isplitl [HO]; · iexact HO
    isplitr; · iapply (mayWait_cell c (.zdr 11) 0 67 rfl (Or.inl rfl)); iexact Hlev
    iexact HA_zdr11
  iintro ⟨HO, HA_zdr11, #HR_zdr11, Hpay⟩
  ihave HB_zd11 := (Entails.of_eq (dmaPay_zdr m c 11 0)) $$ Hpay
  -- step 233: WAIT sem=arg11,3
  iapply (wp_wait_cell m c (.ydgs 3) 0 (by decide) (by rfl) (credit_qZlo c 3) (owedN c 0 67)) $$ [HC_ydgs3 HO HA_ydgs3]
  · isplitr; · iexact HI_ydgs3
    isplitl [HC_ydgs3]; · iexact HC_ydgs3
    isplitl [HO]; · iexact HO
    isplitr; · iapply (mayWait_cell c (.ydgs 3) 0 67 rfl (Or.inl rfl)); iexact Hlev
    iexact HA_ydgs3
  iintro ⟨HO, HA_ydgs3, #HR_ydgs3, Hpay⟩
  ihave HB_qz3 := (Entails.of_eq (dmaPay_ydgs m c 3 0)) $$ Hpay
  -- step 234: WAIT sem=arg12,3
  iapply (wp_wait_cell m c (.ydgr 3) 0 (by decide) (by rfl) (credit_qZlo c 3) (owedN c 0 67)) $$ [HC_ydgr3 HO HA_ydgr3]
  · isplitr; · iexact HI_ydgr3
    isplitl [HC_ydgr3]; · iexact HC_ydgr3
    isplitl [HO]; · iexact HO
    isplitr; · iapply (mayWait_cell c (.ydgr 3) 0 67 rfl (Or.inl rfl)); iexact Hlev
    iexact HA_ydgr3
  iintro ⟨HO, HA_ydgr3, #HR_ydgr3, Hpay⟩
  ihave HB_ydg3 := (Entails.of_eq (dmaPay_ydgr m c 3 0)) $$ Hpay
  -- step 235: WAIT sem=arg13,3
  iapply (wp_wait_cell m c (.zdgs 3) 0 (by decide) (by rfl) (credit_qYhi c 3) (owedN c 0 67)) $$ [HC_zdgs3 HO HA_zdgs3]
  · isplitr; · iexact HI_zdgs3
    isplitl [HC_zdgs3]; · iexact HC_zdgs3
    isplitl [HO]; · iexact HO
    isplitr; · iapply (mayWait_cell c (.zdgs 3) 0 67 rfl (Or.inl rfl)); iexact Hlev
    iexact HA_zdgs3
  iintro ⟨HO, HA_zdgs3, #HR_zdgs3, Hpay⟩
  ihave HB_qy3 := (Entails.of_eq (dmaPay_zdgs m c 3 0)) $$ Hpay
  -- step 236: WAIT sem=arg14,3
  iapply (wp_wait_cell m c (.zdgr 3) 0 (by decide) (by rfl) (credit_qYhi c 3) (owedN c 0 67)) $$ [HC_zdgr3 HO HA_zdgr3]
  · isplitr; · iexact HI_zdgr3
    isplitl [HC_zdgr3]; · iexact HC_zdgr3
    isplitl [HO]; · iexact HO
    isplitr; · iapply (mayWait_cell c (.zdgr 3) 0 67 rfl (Or.inl rfl)); iexact Hlev
    iexact HA_zdgr3
  iintro ⟨HO, HA_zdgr3, #HR_zdgr3, Hpay⟩
  ihave HB_zdg3 := (Entails.of_eq (dmaPay_zdgr m c 3 0)) $$ Hpay
  -- step 237: WAIT sem=arg8,4
  iapply (wp_wait_cell m c (.ydr 4) 0 (by decide) (by rfl) (credit_qMine c 4) (owedN c 0 67)) $$ [HC_ydr4 HO HA_ydr4]
  · isplitr; · iexact HI_ydr4
    isplitl [HC_ydr4]; · iexact HC_ydr4
    isplitl [HO]; · iexact HO
    isplitr; · iapply (mayWait_cell c (.ydr 4) 0 67 rfl (Or.inl rfl)); iexact Hlev
    iexact HA_ydr4
  iintro ⟨HO, HA_ydr4, #HR_ydr4, Hpay⟩
  ihave HB_yd4 := (Entails.of_eq (dmaPay_ydr m c 4 0)) $$ Hpay
  -- step 238: WAIT sem=arg10,12
  iapply (wp_wait_cell m c (.zdr 12) 0 (by decide) (by rfl) (credit_qMine c 12) (owedN c 0 67)) $$ [HC_zdr12 HO HA_zdr12]
  · isplitr; · iexact HI_zdr12
    isplitl [HC_zdr12]; · iexact HC_zdr12
    isplitl [HO]; · iexact HO
    isplitr; · iapply (mayWait_cell c (.zdr 12) 0 67 rfl (Or.inl rfl)); iexact Hlev
    iexact HA_zdr12
  iintro ⟨HO, HA_zdr12, #HR_zdr12, Hpay⟩
  ihave HB_zd12 := (Entails.of_eq (dmaPay_zdr m c 12 0)) $$ Hpay
  -- step 239: WAIT sem=arg11,4
  iapply (wp_wait_cell m c (.ydgs 4) 0 (by decide) (by rfl) (credit_qZlo c 4) (owedN c 0 67)) $$ [HC_ydgs4 HO HA_ydgs4]
  · isplitr; · iexact HI_ydgs4
    isplitl [HC_ydgs4]; · iexact HC_ydgs4
    isplitl [HO]; · iexact HO
    isplitr; · iapply (mayWait_cell c (.ydgs 4) 0 67 rfl (Or.inl rfl)); iexact Hlev
    iexact HA_ydgs4
  iintro ⟨HO, HA_ydgs4, #HR_ydgs4, Hpay⟩
  ihave HB_qz4 := (Entails.of_eq (dmaPay_ydgs m c 4 0)) $$ Hpay
  -- step 240: WAIT sem=arg12,4
  iapply (wp_wait_cell m c (.ydgr 4) 0 (by decide) (by rfl) (credit_qZlo c 4) (owedN c 0 67)) $$ [HC_ydgr4 HO HA_ydgr4]
  · isplitr; · iexact HI_ydgr4
    isplitl [HC_ydgr4]; · iexact HC_ydgr4
    isplitl [HO]; · iexact HO
    isplitr; · iapply (mayWait_cell c (.ydgr 4) 0 67 rfl (Or.inl rfl)); iexact Hlev
    iexact HA_ydgr4
  iintro ⟨HO, HA_ydgr4, #HR_ydgr4, Hpay⟩
  ihave HB_ydg4 := (Entails.of_eq (dmaPay_ydgr m c 4 0)) $$ Hpay
  -- step 241: WAIT sem=arg13,4
  iapply (wp_wait_cell m c (.zdgs 4) 0 (by decide) (by rfl) (credit_qYhi c 4) (owedN c 0 67)) $$ [HC_zdgs4 HO HA_zdgs4]
  · isplitr; · iexact HI_zdgs4
    isplitl [HC_zdgs4]; · iexact HC_zdgs4
    isplitl [HO]; · iexact HO
    isplitr; · iapply (mayWait_cell c (.zdgs 4) 0 67 rfl (Or.inl rfl)); iexact Hlev
    iexact HA_zdgs4
  iintro ⟨HO, HA_zdgs4, #HR_zdgs4, Hpay⟩
  ihave HB_qy4 := (Entails.of_eq (dmaPay_zdgs m c 4 0)) $$ Hpay
  -- step 242: WAIT sem=arg14,4
  iapply (wp_wait_cell m c (.zdgr 4) 0 (by decide) (by rfl) (credit_qYhi c 4) (owedN c 0 67)) $$ [HC_zdgr4 HO HA_zdgr4]
  · isplitr; · iexact HI_zdgr4
    isplitl [HC_zdgr4]; · iexact HC_zdgr4
    isplitl [HO]; · iexact HO
    isplitr; · iapply (mayWait_cell c (.zdgr 4) 0 67 rfl (Or.inl rfl)); iexact Hlev
    iexact HA_zdgr4
  iintro ⟨HO, HA_zdgr4, #HR_zdgr4, Hpay⟩
  ihave HB_zdg4 := (Entails.of_eq (dmaPay_zdgr m c 4 0)) $$ Hpay
  -- step 243: WAIT sem=arg8,5
  iapply (wp_wait_cell m c (.ydr 5) 0 (by decide) (by rfl) (credit_qMine c 5) (owedN c 0 67)) $$ [HC_ydr5 HO HA_ydr5]
  · isplitr; · iexact HI_ydr5
    isplitl [HC_ydr5]; · iexact HC_ydr5
    isplitl [HO]; · iexact HO
    isplitr; · iapply (mayWait_cell c (.ydr 5) 0 67 rfl (Or.inl rfl)); iexact Hlev
    iexact HA_ydr5
  iintro ⟨HO, HA_ydr5, #HR_ydr5, Hpay⟩
  ihave HB_yd5 := (Entails.of_eq (dmaPay_ydr m c 5 0)) $$ Hpay
  -- step 244: WAIT sem=arg10,13
  iapply (wp_wait_cell m c (.zdr 13) 0 (by decide) (by rfl) (credit_qMine c 13) (owedN c 0 67)) $$ [HC_zdr13 HO HA_zdr13]
  · isplitr; · iexact HI_zdr13
    isplitl [HC_zdr13]; · iexact HC_zdr13
    isplitl [HO]; · iexact HO
    isplitr; · iapply (mayWait_cell c (.zdr 13) 0 67 rfl (Or.inl rfl)); iexact Hlev
    iexact HA_zdr13
  iintro ⟨HO, HA_zdr13, #HR_zdr13, Hpay⟩
  ihave HB_zd13 := (Entails.of_eq (dmaPay_zdr m c 13 0)) $$ Hpay
  -- step 245: WAIT sem=arg11,5
  iapply (wp_wait_cell m c (.ydgs 5) 0 (by decide) (by rfl) (credit_qZlo c 5) (owedN c 0 67)) $$ [HC_ydgs5 HO HA_ydgs5]
  · isplitr; · iexact HI_ydgs5
    isplitl [HC_ydgs5]; · iexact HC_ydgs5
    isplitl [HO]; · iexact HO
    isplitr; · iapply (mayWait_cell c (.ydgs 5) 0 67 rfl (Or.inl rfl)); iexact Hlev
    iexact HA_ydgs5
  iintro ⟨HO, HA_ydgs5, #HR_ydgs5, Hpay⟩
  ihave HB_qz5 := (Entails.of_eq (dmaPay_ydgs m c 5 0)) $$ Hpay
  -- step 246: WAIT sem=arg12,5
  iapply (wp_wait_cell m c (.ydgr 5) 0 (by decide) (by rfl) (credit_qZlo c 5) (owedN c 0 67)) $$ [HC_ydgr5 HO HA_ydgr5]
  · isplitr; · iexact HI_ydgr5
    isplitl [HC_ydgr5]; · iexact HC_ydgr5
    isplitl [HO]; · iexact HO
    isplitr; · iapply (mayWait_cell c (.ydgr 5) 0 67 rfl (Or.inl rfl)); iexact Hlev
    iexact HA_ydgr5
  iintro ⟨HO, HA_ydgr5, #HR_ydgr5, Hpay⟩
  ihave HB_ydg5 := (Entails.of_eq (dmaPay_ydgr m c 5 0)) $$ Hpay
  -- step 247: WAIT sem=arg13,5
  iapply (wp_wait_cell m c (.zdgs 5) 0 (by decide) (by rfl) (credit_qYhi c 5) (owedN c 0 67)) $$ [HC_zdgs5 HO HA_zdgs5]
  · isplitr; · iexact HI_zdgs5
    isplitl [HC_zdgs5]; · iexact HC_zdgs5
    isplitl [HO]; · iexact HO
    isplitr; · iapply (mayWait_cell c (.zdgs 5) 0 67 rfl (Or.inl rfl)); iexact Hlev
    iexact HA_zdgs5
  iintro ⟨HO, HA_zdgs5, #HR_zdgs5, Hpay⟩
  ihave HB_qy5 := (Entails.of_eq (dmaPay_zdgs m c 5 0)) $$ Hpay
  -- step 248: WAIT sem=arg14,5
  iapply (wp_wait_cell m c (.zdgr 5) 0 (by decide) (by rfl) (credit_qYhi c 5) (owedN c 0 67)) $$ [HC_zdgr5 HO HA_zdgr5]
  · isplitr; · iexact HI_zdgr5
    isplitl [HC_zdgr5]; · iexact HC_zdgr5
    isplitl [HO]; · iexact HO
    isplitr; · iapply (mayWait_cell c (.zdgr 5) 0 67 rfl (Or.inl rfl)); iexact Hlev
    iexact HA_zdgr5
  iintro ⟨HO, HA_zdgr5, #HR_zdgr5, Hpay⟩
  ihave HB_zdg5 := (Entails.of_eq (dmaPay_zdgr m c 5 0)) $$ Hpay
  -- step 249: WAIT sem=arg8,6
  iapply (wp_wait_cell m c (.ydr 6) 0 (by decide) (by rfl) (credit_qMine c 6) (owedN c 0 67)) $$ [HC_ydr6 HO HA_ydr6]
  · isplitr; · iexact HI_ydr6
    isplitl [HC_ydr6]; · iexact HC_ydr6
    isplitl [HO]; · iexact HO
    isplitr; · iapply (mayWait_cell c (.ydr 6) 0 67 rfl (Or.inl rfl)); iexact Hlev
    iexact HA_ydr6
  iintro ⟨HO, HA_ydr6, #HR_ydr6, Hpay⟩
  ihave HB_yd6 := (Entails.of_eq (dmaPay_ydr m c 6 0)) $$ Hpay
  -- step 250: WAIT sem=arg10,14
  iapply (wp_wait_cell m c (.zdr 14) 0 (by decide) (by rfl) (credit_qMine c 14) (owedN c 0 67)) $$ [HC_zdr14 HO HA_zdr14]
  · isplitr; · iexact HI_zdr14
    isplitl [HC_zdr14]; · iexact HC_zdr14
    isplitl [HO]; · iexact HO
    isplitr; · iapply (mayWait_cell c (.zdr 14) 0 67 rfl (Or.inl rfl)); iexact Hlev
    iexact HA_zdr14
  iintro ⟨HO, HA_zdr14, #HR_zdr14, Hpay⟩
  ihave HB_zd14 := (Entails.of_eq (dmaPay_zdr m c 14 0)) $$ Hpay
  -- step 251: WAIT sem=arg11,6
  iapply (wp_wait_cell m c (.ydgs 6) 0 (by decide) (by rfl) (credit_qZlo c 6) (owedN c 0 67)) $$ [HC_ydgs6 HO HA_ydgs6]
  · isplitr; · iexact HI_ydgs6
    isplitl [HC_ydgs6]; · iexact HC_ydgs6
    isplitl [HO]; · iexact HO
    isplitr; · iapply (mayWait_cell c (.ydgs 6) 0 67 rfl (Or.inl rfl)); iexact Hlev
    iexact HA_ydgs6
  iintro ⟨HO, HA_ydgs6, #HR_ydgs6, Hpay⟩
  ihave HB_qz6 := (Entails.of_eq (dmaPay_ydgs m c 6 0)) $$ Hpay
  -- step 252: WAIT sem=arg12,6
  iapply (wp_wait_cell m c (.ydgr 6) 0 (by decide) (by rfl) (credit_qZlo c 6) (owedN c 0 67)) $$ [HC_ydgr6 HO HA_ydgr6]
  · isplitr; · iexact HI_ydgr6
    isplitl [HC_ydgr6]; · iexact HC_ydgr6
    isplitl [HO]; · iexact HO
    isplitr; · iapply (mayWait_cell c (.ydgr 6) 0 67 rfl (Or.inl rfl)); iexact Hlev
    iexact HA_ydgr6
  iintro ⟨HO, HA_ydgr6, #HR_ydgr6, Hpay⟩
  ihave HB_ydg6 := (Entails.of_eq (dmaPay_ydgr m c 6 0)) $$ Hpay
  -- step 253: WAIT sem=arg13,6
  iapply (wp_wait_cell m c (.zdgs 6) 0 (by decide) (by rfl) (credit_qYhi c 6) (owedN c 0 67)) $$ [HC_zdgs6 HO HA_zdgs6]
  · isplitr; · iexact HI_zdgs6
    isplitl [HC_zdgs6]; · iexact HC_zdgs6
    isplitl [HO]; · iexact HO
    isplitr; · iapply (mayWait_cell c (.zdgs 6) 0 67 rfl (Or.inl rfl)); iexact Hlev
    iexact HA_zdgs6
  iintro ⟨HO, HA_zdgs6, #HR_zdgs6, Hpay⟩
  ihave HB_qy6 := (Entails.of_eq (dmaPay_zdgs m c 6 0)) $$ Hpay
  -- step 254: WAIT sem=arg14,6
  iapply (wp_wait_cell m c (.zdgr 6) 0 (by decide) (by rfl) (credit_qYhi c 6) (owedN c 0 67)) $$ [HC_zdgr6 HO HA_zdgr6]
  · isplitr; · iexact HI_zdgr6
    isplitl [HC_zdgr6]; · iexact HC_zdgr6
    isplitl [HO]; · iexact HO
    isplitr; · iapply (mayWait_cell c (.zdgr 6) 0 67 rfl (Or.inl rfl)); iexact Hlev
    iexact HA_zdgr6
  iintro ⟨HO, HA_zdgr6, #HR_zdgr6, Hpay⟩
  ihave HB_zdg6 := (Entails.of_eq (dmaPay_zdgr m c 6 0)) $$ Hpay
  -- step 255: WAIT sem=arg8,7
  iapply (wp_wait_cell m c (.ydr 7) 0 (by decide) (by rfl) (credit_qMine c 7) (owedN c 0 67)) $$ [HC_ydr7 HO HA_ydr7]
  · isplitr; · iexact HI_ydr7
    isplitl [HC_ydr7]; · iexact HC_ydr7
    isplitl [HO]; · iexact HO
    isplitr; · iapply (mayWait_cell c (.ydr 7) 0 67 rfl (Or.inl rfl)); iexact Hlev
    iexact HA_ydr7
  iintro ⟨HO, HA_ydr7, #HR_ydr7, Hpay⟩
  ihave HB_yd7 := (Entails.of_eq (dmaPay_ydr m c 7 0)) $$ Hpay
  -- step 256: WAIT sem=arg10,15
  iapply (wp_wait_cell m c (.zdr 15) 0 (by decide) (by rfl) (credit_qMine c 15) (owedN c 0 67)) $$ [HC_zdr15 HO HA_zdr15]
  · isplitr; · iexact HI_zdr15
    isplitl [HC_zdr15]; · iexact HC_zdr15
    isplitl [HO]; · iexact HO
    isplitr; · iapply (mayWait_cell c (.zdr 15) 0 67 rfl (Or.inl rfl)); iexact Hlev
    iexact HA_zdr15
  iintro ⟨HO, HA_zdr15, #HR_zdr15, Hpay⟩
  ihave HB_zd15 := (Entails.of_eq (dmaPay_zdr m c 15 0)) $$ Hpay
  -- step 257: WAIT sem=arg11,7
  iapply (wp_wait_cell m c (.ydgs 7) 0 (by decide) (by rfl) (credit_qZlo c 7) (owedN c 0 67)) $$ [HC_ydgs7 HO HA_ydgs7]
  · isplitr; · iexact HI_ydgs7
    isplitl [HC_ydgs7]; · iexact HC_ydgs7
    isplitl [HO]; · iexact HO
    isplitr; · iapply (mayWait_cell c (.ydgs 7) 0 67 rfl (Or.inl rfl)); iexact Hlev
    iexact HA_ydgs7
  iintro ⟨HO, HA_ydgs7, #HR_ydgs7, Hpay⟩
  ihave HB_qz7 := (Entails.of_eq (dmaPay_ydgs m c 7 0)) $$ Hpay
  -- step 258: WAIT sem=arg12,7
  iapply (wp_wait_cell m c (.ydgr 7) 0 (by decide) (by rfl) (credit_qZlo c 7) (owedN c 0 67)) $$ [HC_ydgr7 HO HA_ydgr7]
  · isplitr; · iexact HI_ydgr7
    isplitl [HC_ydgr7]; · iexact HC_ydgr7
    isplitl [HO]; · iexact HO
    isplitr; · iapply (mayWait_cell c (.ydgr 7) 0 67 rfl (Or.inl rfl)); iexact Hlev
    iexact HA_ydgr7
  iintro ⟨HO, HA_ydgr7, #HR_ydgr7, Hpay⟩
  ihave HB_ydg7 := (Entails.of_eq (dmaPay_ydgr m c 7 0)) $$ Hpay
  -- step 259: WAIT sem=arg13,7
  iapply (wp_wait_cell m c (.zdgs 7) 0 (by decide) (by rfl) (credit_qYhi c 7) (owedN c 0 67)) $$ [HC_zdgs7 HO HA_zdgs7]
  · isplitr; · iexact HI_zdgs7
    isplitl [HC_zdgs7]; · iexact HC_zdgs7
    isplitl [HO]; · iexact HO
    isplitr; · iapply (mayWait_cell c (.zdgs 7) 0 67 rfl (Or.inl rfl)); iexact Hlev
    iexact HA_zdgs7
  iintro ⟨HO, HA_zdgs7, #HR_zdgs7, Hpay⟩
  ihave HB_qy7 := (Entails.of_eq (dmaPay_zdgs m c 7 0)) $$ Hpay
  -- step 260: WAIT sem=arg14,7
  iapply (wp_wait_cell m c (.zdgr 7) 0 (by decide) (by rfl) (credit_qYhi c 7) (owedN c 0 67)) $$ [HC_zdgr7 HO HA_zdgr7]
  · isplitr; · iexact HI_zdgr7
    isplitl [HC_zdgr7]; · iexact HC_zdgr7
    isplitl [HO]; · iexact HO
    isplitr; · iapply (mayWait_cell c (.zdgr 7) 0 67 rfl (Or.inl rfl)); iexact Hlev
    iexact HA_zdgr7
  iintro ⟨HO, HA_zdgr7, #HR_zdgr7, Hpay⟩
  ihave HB_zdg7 := (Entails.of_eq (dmaPay_zdgr m c 7 0)) $$ Hpay
  -- every cell's rounds are over: the counters, at zero, are the device's again
  imod (close_cell m c (.ld 0) 4 (by decide)) $$ [HA_ld0] with HZ_ld0
  · isplitr; · iexact HI_ld0
    iexact HA_ld0
  imod (close_cell m c (.ld 1) 4 (by decide)) $$ [HA_ld1] with HZ_ld1
  · isplitr; · iexact HI_ld1
    iexact HA_ld1
  imod (close_cell m c (.ld 2) 4 (by decide)) $$ [HA_ld2] with HZ_ld2
  · isplitr; · iexact HI_ld2
    iexact HA_ld2
  imod (close_cell m c (.ld 3) 4 (by decide)) $$ [HA_ld3] with HZ_ld3
  · isplitr; · iexact HI_ld3
    iexact HA_ld3
  imod (close_cell m c (.st 0) 4 (by decide)) $$ [HA_st0] with HZ_st0
  · isplitr; · iexact HI_st0
    iexact HA_st0
  imod (close_cell m c (.st 1) 4 (by decide)) $$ [HA_st1] with HZ_st1
  · isplitr; · iexact HI_st1
    iexact HA_st1
  imod (close_cell m c (.st 2) 4 (by decide)) $$ [HA_st2] with HZ_st2
  · isplitr; · iexact HI_st2
    iexact HA_st2
  imod (close_cell m c (.st 3) 4 (by decide)) $$ [HA_st3] with HZ_st3
  · isplitr; · iexact HI_st3
    iexact HA_st3
  imod (close_cell m c (.xs 0) 1 (by decide)) $$ [HA_xs0] with HZ_xs0
  · isplitr; · iexact HI_xs0
    iexact HA_xs0
  imod (close_cell m c (.xs 1) 1 (by decide)) $$ [HA_xs1] with HZ_xs1
  · isplitr; · iexact HI_xs1
    iexact HA_xs1
  imod (close_cell m c (.xs 2) 1 (by decide)) $$ [HA_xs2] with HZ_xs2
  · isplitr; · iexact HI_xs2
    iexact HA_xs2
  imod (close_cell m c (.xs 3) 1 (by decide)) $$ [HA_xs3] with HZ_xs3
  · isplitr; · iexact HI_xs3
    iexact HA_xs3
  imod (close_cell m c (.xs 4) 1 (by decide)) $$ [HA_xs4] with HZ_xs4
  · isplitr; · iexact HI_xs4
    iexact HA_xs4
  imod (close_cell m c (.xs 5) 1 (by decide)) $$ [HA_xs5] with HZ_xs5
  · isplitr; · iexact HI_xs5
    iexact HA_xs5
  imod (close_cell m c (.xs 6) 1 (by decide)) $$ [HA_xs6] with HZ_xs6
  · isplitr; · iexact HI_xs6
    iexact HA_xs6
  imod (close_cell m c (.xs 7) 1 (by decide)) $$ [HA_xs7] with HZ_xs7
  · isplitr; · iexact HI_xs7
    iexact HA_xs7
  imod (close_cell m c (.xs 8) 1 (by decide)) $$ [HA_xs8] with HZ_xs8
  · isplitr; · iexact HI_xs8
    iexact HA_xs8
  imod (close_cell m c (.xs 9) 1 (by decide)) $$ [HA_xs9] with HZ_xs9
  · isplitr; · iexact HI_xs9
    iexact HA_xs9
  imod (close_cell m c (.xs 10) 1 (by decide)) $$ [HA_xs10] with HZ_xs10
  · isplitr; · iexact HI_xs10
    iexact HA_xs10
  imod (close_cell m c (.xs 11) 1 (by decide)) $$ [HA_xs11] with HZ_xs11
  · isplitr; · iexact HI_xs11
    iexact HA_xs11
  imod (close_cell m c (.xs 12) 1 (by decide)) $$ [HA_xs12] with HZ_xs12
  · isplitr; · iexact HI_xs12
    iexact HA_xs12
  imod (close_cell m c (.xs 13) 1 (by decide)) $$ [HA_xs13] with HZ_xs13
  · isplitr; · iexact HI_xs13
    iexact HA_xs13
  imod (close_cell m c (.xs 14) 1 (by decide)) $$ [HA_xs14] with HZ_xs14
  · isplitr; · iexact HI_xs14
    iexact HA_xs14
  imod (close_cell m c (.xs 15) 1 (by decide)) $$ [HA_xs15] with HZ_xs15
  · isplitr; · iexact HI_xs15
    iexact HA_xs15
  imod (close_cell m c (.xr 0) 1 (by decide)) $$ [HA_xr0] with HZ_xr0
  · isplitr; · iexact HI_xr0
    iexact HA_xr0
  imod (close_cell m c (.xr 1) 1 (by decide)) $$ [HA_xr1] with HZ_xr1
  · isplitr; · iexact HI_xr1
    iexact HA_xr1
  imod (close_cell m c (.xr 2) 1 (by decide)) $$ [HA_xr2] with HZ_xr2
  · isplitr; · iexact HI_xr2
    iexact HA_xr2
  imod (close_cell m c (.xr 3) 1 (by decide)) $$ [HA_xr3] with HZ_xr3
  · isplitr; · iexact HI_xr3
    iexact HA_xr3
  imod (close_cell m c (.xr 4) 1 (by decide)) $$ [HA_xr4] with HZ_xr4
  · isplitr; · iexact HI_xr4
    iexact HA_xr4
  imod (close_cell m c (.xr 5) 1 (by decide)) $$ [HA_xr5] with HZ_xr5
  · isplitr; · iexact HI_xr5
    iexact HA_xr5
  imod (close_cell m c (.xr 6) 1 (by decide)) $$ [HA_xr6] with HZ_xr6
  · isplitr; · iexact HI_xr6
    iexact HA_xr6
  imod (close_cell m c (.xr 7) 1 (by decide)) $$ [HA_xr7] with HZ_xr7
  · isplitr; · iexact HI_xr7
    iexact HA_xr7
  imod (close_cell m c (.xr 8) 1 (by decide)) $$ [HA_xr8] with HZ_xr8
  · isplitr; · iexact HI_xr8
    iexact HA_xr8
  imod (close_cell m c (.xr 9) 1 (by decide)) $$ [HA_xr9] with HZ_xr9
  · isplitr; · iexact HI_xr9
    iexact HA_xr9
  imod (close_cell m c (.xr 10) 1 (by decide)) $$ [HA_xr10] with HZ_xr10
  · isplitr; · iexact HI_xr10
    iexact HA_xr10
  imod (close_cell m c (.xr 11) 1 (by decide)) $$ [HA_xr11] with HZ_xr11
  · isplitr; · iexact HI_xr11
    iexact HA_xr11
  imod (close_cell m c (.xr 12) 1 (by decide)) $$ [HA_xr12] with HZ_xr12
  · isplitr; · iexact HI_xr12
    iexact HA_xr12
  imod (close_cell m c (.xr 13) 1 (by decide)) $$ [HA_xr13] with HZ_xr13
  · isplitr; · iexact HI_xr13
    iexact HA_xr13
  imod (close_cell m c (.xr 14) 1 (by decide)) $$ [HA_xr14] with HZ_xr14
  · isplitr; · iexact HI_xr14
    iexact HA_xr14
  imod (close_cell m c (.xr 15) 1 (by decide)) $$ [HA_xr15] with HZ_xr15
  · isplitr; · iexact HI_xr15
    iexact HA_xr15
  imod (close_cell m c (.yds 0) 1 (by decide)) $$ [HA_yds0] with HZ_yds0
  · isplitr; · iexact HI_yds0
    iexact HA_yds0
  imod (close_cell m c (.yds 1) 1 (by decide)) $$ [HA_yds1] with HZ_yds1
  · isplitr; · iexact HI_yds1
    iexact HA_yds1
  imod (close_cell m c (.yds 2) 1 (by decide)) $$ [HA_yds2] with HZ_yds2
  · isplitr; · iexact HI_yds2
    iexact HA_yds2
  imod (close_cell m c (.yds 3) 1 (by decide)) $$ [HA_yds3] with HZ_yds3
  · isplitr; · iexact HI_yds3
    iexact HA_yds3
  imod (close_cell m c (.yds 4) 1 (by decide)) $$ [HA_yds4] with HZ_yds4
  · isplitr; · iexact HI_yds4
    iexact HA_yds4
  imod (close_cell m c (.yds 5) 1 (by decide)) $$ [HA_yds5] with HZ_yds5
  · isplitr; · iexact HI_yds5
    iexact HA_yds5
  imod (close_cell m c (.yds 6) 1 (by decide)) $$ [HA_yds6] with HZ_yds6
  · isplitr; · iexact HI_yds6
    iexact HA_yds6
  imod (close_cell m c (.yds 7) 1 (by decide)) $$ [HA_yds7] with HZ_yds7
  · isplitr; · iexact HI_yds7
    iexact HA_yds7
  imod (close_cell m c (.yds 8) 1 (by decide)) $$ [HA_yds8] with HZ_yds8
  · isplitr; · iexact HI_yds8
    iexact HA_yds8
  imod (close_cell m c (.yds 9) 1 (by decide)) $$ [HA_yds9] with HZ_yds9
  · isplitr; · iexact HI_yds9
    iexact HA_yds9
  imod (close_cell m c (.yds 10) 1 (by decide)) $$ [HA_yds10] with HZ_yds10
  · isplitr; · iexact HI_yds10
    iexact HA_yds10
  imod (close_cell m c (.yds 11) 1 (by decide)) $$ [HA_yds11] with HZ_yds11
  · isplitr; · iexact HI_yds11
    iexact HA_yds11
  imod (close_cell m c (.yds 12) 1 (by decide)) $$ [HA_yds12] with HZ_yds12
  · isplitr; · iexact HI_yds12
    iexact HA_yds12
  imod (close_cell m c (.yds 13) 1 (by decide)) $$ [HA_yds13] with HZ_yds13
  · isplitr; · iexact HI_yds13
    iexact HA_yds13
  imod (close_cell m c (.yds 14) 1 (by decide)) $$ [HA_yds14] with HZ_yds14
  · isplitr; · iexact HI_yds14
    iexact HA_yds14
  imod (close_cell m c (.yds 15) 1 (by decide)) $$ [HA_yds15] with HZ_yds15
  · isplitr; · iexact HI_yds15
    iexact HA_yds15
  imod (close_cell m c (.ydr 0) 1 (by decide)) $$ [HA_ydr0] with HZ_ydr0
  · isplitr; · iexact HI_ydr0
    iexact HA_ydr0
  imod (close_cell m c (.ydr 1) 1 (by decide)) $$ [HA_ydr1] with HZ_ydr1
  · isplitr; · iexact HI_ydr1
    iexact HA_ydr1
  imod (close_cell m c (.ydr 2) 1 (by decide)) $$ [HA_ydr2] with HZ_ydr2
  · isplitr; · iexact HI_ydr2
    iexact HA_ydr2
  imod (close_cell m c (.ydr 3) 1 (by decide)) $$ [HA_ydr3] with HZ_ydr3
  · isplitr; · iexact HI_ydr3
    iexact HA_ydr3
  imod (close_cell m c (.ydr 4) 1 (by decide)) $$ [HA_ydr4] with HZ_ydr4
  · isplitr; · iexact HI_ydr4
    iexact HA_ydr4
  imod (close_cell m c (.ydr 5) 1 (by decide)) $$ [HA_ydr5] with HZ_ydr5
  · isplitr; · iexact HI_ydr5
    iexact HA_ydr5
  imod (close_cell m c (.ydr 6) 1 (by decide)) $$ [HA_ydr6] with HZ_ydr6
  · isplitr; · iexact HI_ydr6
    iexact HA_ydr6
  imod (close_cell m c (.ydr 7) 1 (by decide)) $$ [HA_ydr7] with HZ_ydr7
  · isplitr; · iexact HI_ydr7
    iexact HA_ydr7
  imod (close_cell m c (.ydr 8) 1 (by decide)) $$ [HA_ydr8] with HZ_ydr8
  · isplitr; · iexact HI_ydr8
    iexact HA_ydr8
  imod (close_cell m c (.ydr 9) 1 (by decide)) $$ [HA_ydr9] with HZ_ydr9
  · isplitr; · iexact HI_ydr9
    iexact HA_ydr9
  imod (close_cell m c (.ydr 10) 1 (by decide)) $$ [HA_ydr10] with HZ_ydr10
  · isplitr; · iexact HI_ydr10
    iexact HA_ydr10
  imod (close_cell m c (.ydr 11) 1 (by decide)) $$ [HA_ydr11] with HZ_ydr11
  · isplitr; · iexact HI_ydr11
    iexact HA_ydr11
  imod (close_cell m c (.ydr 12) 1 (by decide)) $$ [HA_ydr12] with HZ_ydr12
  · isplitr; · iexact HI_ydr12
    iexact HA_ydr12
  imod (close_cell m c (.ydr 13) 1 (by decide)) $$ [HA_ydr13] with HZ_ydr13
  · isplitr; · iexact HI_ydr13
    iexact HA_ydr13
  imod (close_cell m c (.ydr 14) 1 (by decide)) $$ [HA_ydr14] with HZ_ydr14
  · isplitr; · iexact HI_ydr14
    iexact HA_ydr14
  imod (close_cell m c (.ydr 15) 1 (by decide)) $$ [HA_ydr15] with HZ_ydr15
  · isplitr; · iexact HI_ydr15
    iexact HA_ydr15
  imod (close_cell m c (.zds 0) 1 (by decide)) $$ [HA_zds0] with HZ_zds0
  · isplitr; · iexact HI_zds0
    iexact HA_zds0
  imod (close_cell m c (.zds 1) 1 (by decide)) $$ [HA_zds1] with HZ_zds1
  · isplitr; · iexact HI_zds1
    iexact HA_zds1
  imod (close_cell m c (.zds 2) 1 (by decide)) $$ [HA_zds2] with HZ_zds2
  · isplitr; · iexact HI_zds2
    iexact HA_zds2
  imod (close_cell m c (.zds 3) 1 (by decide)) $$ [HA_zds3] with HZ_zds3
  · isplitr; · iexact HI_zds3
    iexact HA_zds3
  imod (close_cell m c (.zds 4) 1 (by decide)) $$ [HA_zds4] with HZ_zds4
  · isplitr; · iexact HI_zds4
    iexact HA_zds4
  imod (close_cell m c (.zds 5) 1 (by decide)) $$ [HA_zds5] with HZ_zds5
  · isplitr; · iexact HI_zds5
    iexact HA_zds5
  imod (close_cell m c (.zds 6) 1 (by decide)) $$ [HA_zds6] with HZ_zds6
  · isplitr; · iexact HI_zds6
    iexact HA_zds6
  imod (close_cell m c (.zds 7) 1 (by decide)) $$ [HA_zds7] with HZ_zds7
  · isplitr; · iexact HI_zds7
    iexact HA_zds7
  imod (close_cell m c (.zds 8) 1 (by decide)) $$ [HA_zds8] with HZ_zds8
  · isplitr; · iexact HI_zds8
    iexact HA_zds8
  imod (close_cell m c (.zds 9) 1 (by decide)) $$ [HA_zds9] with HZ_zds9
  · isplitr; · iexact HI_zds9
    iexact HA_zds9
  imod (close_cell m c (.zds 10) 1 (by decide)) $$ [HA_zds10] with HZ_zds10
  · isplitr; · iexact HI_zds10
    iexact HA_zds10
  imod (close_cell m c (.zds 11) 1 (by decide)) $$ [HA_zds11] with HZ_zds11
  · isplitr; · iexact HI_zds11
    iexact HA_zds11
  imod (close_cell m c (.zds 12) 1 (by decide)) $$ [HA_zds12] with HZ_zds12
  · isplitr; · iexact HI_zds12
    iexact HA_zds12
  imod (close_cell m c (.zds 13) 1 (by decide)) $$ [HA_zds13] with HZ_zds13
  · isplitr; · iexact HI_zds13
    iexact HA_zds13
  imod (close_cell m c (.zds 14) 1 (by decide)) $$ [HA_zds14] with HZ_zds14
  · isplitr; · iexact HI_zds14
    iexact HA_zds14
  imod (close_cell m c (.zds 15) 1 (by decide)) $$ [HA_zds15] with HZ_zds15
  · isplitr; · iexact HI_zds15
    iexact HA_zds15
  imod (close_cell m c (.zdr 0) 1 (by decide)) $$ [HA_zdr0] with HZ_zdr0
  · isplitr; · iexact HI_zdr0
    iexact HA_zdr0
  imod (close_cell m c (.zdr 1) 1 (by decide)) $$ [HA_zdr1] with HZ_zdr1
  · isplitr; · iexact HI_zdr1
    iexact HA_zdr1
  imod (close_cell m c (.zdr 2) 1 (by decide)) $$ [HA_zdr2] with HZ_zdr2
  · isplitr; · iexact HI_zdr2
    iexact HA_zdr2
  imod (close_cell m c (.zdr 3) 1 (by decide)) $$ [HA_zdr3] with HZ_zdr3
  · isplitr; · iexact HI_zdr3
    iexact HA_zdr3
  imod (close_cell m c (.zdr 4) 1 (by decide)) $$ [HA_zdr4] with HZ_zdr4
  · isplitr; · iexact HI_zdr4
    iexact HA_zdr4
  imod (close_cell m c (.zdr 5) 1 (by decide)) $$ [HA_zdr5] with HZ_zdr5
  · isplitr; · iexact HI_zdr5
    iexact HA_zdr5
  imod (close_cell m c (.zdr 6) 1 (by decide)) $$ [HA_zdr6] with HZ_zdr6
  · isplitr; · iexact HI_zdr6
    iexact HA_zdr6
  imod (close_cell m c (.zdr 7) 1 (by decide)) $$ [HA_zdr7] with HZ_zdr7
  · isplitr; · iexact HI_zdr7
    iexact HA_zdr7
  imod (close_cell m c (.zdr 8) 1 (by decide)) $$ [HA_zdr8] with HZ_zdr8
  · isplitr; · iexact HI_zdr8
    iexact HA_zdr8
  imod (close_cell m c (.zdr 9) 1 (by decide)) $$ [HA_zdr9] with HZ_zdr9
  · isplitr; · iexact HI_zdr9
    iexact HA_zdr9
  imod (close_cell m c (.zdr 10) 1 (by decide)) $$ [HA_zdr10] with HZ_zdr10
  · isplitr; · iexact HI_zdr10
    iexact HA_zdr10
  imod (close_cell m c (.zdr 11) 1 (by decide)) $$ [HA_zdr11] with HZ_zdr11
  · isplitr; · iexact HI_zdr11
    iexact HA_zdr11
  imod (close_cell m c (.zdr 12) 1 (by decide)) $$ [HA_zdr12] with HZ_zdr12
  · isplitr; · iexact HI_zdr12
    iexact HA_zdr12
  imod (close_cell m c (.zdr 13) 1 (by decide)) $$ [HA_zdr13] with HZ_zdr13
  · isplitr; · iexact HI_zdr13
    iexact HA_zdr13
  imod (close_cell m c (.zdr 14) 1 (by decide)) $$ [HA_zdr14] with HZ_zdr14
  · isplitr; · iexact HI_zdr14
    iexact HA_zdr14
  imod (close_cell m c (.zdr 15) 1 (by decide)) $$ [HA_zdr15] with HZ_zdr15
  · isplitr; · iexact HI_zdr15
    iexact HA_zdr15
  imod (close_cell m c (.ydgs 0) 1 (by decide)) $$ [HA_ydgs0] with HZ_ydgs0
  · isplitr; · iexact HI_ydgs0
    iexact HA_ydgs0
  imod (close_cell m c (.ydgs 1) 1 (by decide)) $$ [HA_ydgs1] with HZ_ydgs1
  · isplitr; · iexact HI_ydgs1
    iexact HA_ydgs1
  imod (close_cell m c (.ydgs 2) 1 (by decide)) $$ [HA_ydgs2] with HZ_ydgs2
  · isplitr; · iexact HI_ydgs2
    iexact HA_ydgs2
  imod (close_cell m c (.ydgs 3) 1 (by decide)) $$ [HA_ydgs3] with HZ_ydgs3
  · isplitr; · iexact HI_ydgs3
    iexact HA_ydgs3
  imod (close_cell m c (.ydgs 4) 1 (by decide)) $$ [HA_ydgs4] with HZ_ydgs4
  · isplitr; · iexact HI_ydgs4
    iexact HA_ydgs4
  imod (close_cell m c (.ydgs 5) 1 (by decide)) $$ [HA_ydgs5] with HZ_ydgs5
  · isplitr; · iexact HI_ydgs5
    iexact HA_ydgs5
  imod (close_cell m c (.ydgs 6) 1 (by decide)) $$ [HA_ydgs6] with HZ_ydgs6
  · isplitr; · iexact HI_ydgs6
    iexact HA_ydgs6
  imod (close_cell m c (.ydgs 7) 1 (by decide)) $$ [HA_ydgs7] with HZ_ydgs7
  · isplitr; · iexact HI_ydgs7
    iexact HA_ydgs7
  imod (close_cell m c (.ydgr 0) 1 (by decide)) $$ [HA_ydgr0] with HZ_ydgr0
  · isplitr; · iexact HI_ydgr0
    iexact HA_ydgr0
  imod (close_cell m c (.ydgr 1) 1 (by decide)) $$ [HA_ydgr1] with HZ_ydgr1
  · isplitr; · iexact HI_ydgr1
    iexact HA_ydgr1
  imod (close_cell m c (.ydgr 2) 1 (by decide)) $$ [HA_ydgr2] with HZ_ydgr2
  · isplitr; · iexact HI_ydgr2
    iexact HA_ydgr2
  imod (close_cell m c (.ydgr 3) 1 (by decide)) $$ [HA_ydgr3] with HZ_ydgr3
  · isplitr; · iexact HI_ydgr3
    iexact HA_ydgr3
  imod (close_cell m c (.ydgr 4) 1 (by decide)) $$ [HA_ydgr4] with HZ_ydgr4
  · isplitr; · iexact HI_ydgr4
    iexact HA_ydgr4
  imod (close_cell m c (.ydgr 5) 1 (by decide)) $$ [HA_ydgr5] with HZ_ydgr5
  · isplitr; · iexact HI_ydgr5
    iexact HA_ydgr5
  imod (close_cell m c (.ydgr 6) 1 (by decide)) $$ [HA_ydgr6] with HZ_ydgr6
  · isplitr; · iexact HI_ydgr6
    iexact HA_ydgr6
  imod (close_cell m c (.ydgr 7) 1 (by decide)) $$ [HA_ydgr7] with HZ_ydgr7
  · isplitr; · iexact HI_ydgr7
    iexact HA_ydgr7
  imod (close_cell m c (.zdgs 0) 1 (by decide)) $$ [HA_zdgs0] with HZ_zdgs0
  · isplitr; · iexact HI_zdgs0
    iexact HA_zdgs0
  imod (close_cell m c (.zdgs 1) 1 (by decide)) $$ [HA_zdgs1] with HZ_zdgs1
  · isplitr; · iexact HI_zdgs1
    iexact HA_zdgs1
  imod (close_cell m c (.zdgs 2) 1 (by decide)) $$ [HA_zdgs2] with HZ_zdgs2
  · isplitr; · iexact HI_zdgs2
    iexact HA_zdgs2
  imod (close_cell m c (.zdgs 3) 1 (by decide)) $$ [HA_zdgs3] with HZ_zdgs3
  · isplitr; · iexact HI_zdgs3
    iexact HA_zdgs3
  imod (close_cell m c (.zdgs 4) 1 (by decide)) $$ [HA_zdgs4] with HZ_zdgs4
  · isplitr; · iexact HI_zdgs4
    iexact HA_zdgs4
  imod (close_cell m c (.zdgs 5) 1 (by decide)) $$ [HA_zdgs5] with HZ_zdgs5
  · isplitr; · iexact HI_zdgs5
    iexact HA_zdgs5
  imod (close_cell m c (.zdgs 6) 1 (by decide)) $$ [HA_zdgs6] with HZ_zdgs6
  · isplitr; · iexact HI_zdgs6
    iexact HA_zdgs6
  imod (close_cell m c (.zdgs 7) 1 (by decide)) $$ [HA_zdgs7] with HZ_zdgs7
  · isplitr; · iexact HI_zdgs7
    iexact HA_zdgs7
  imod (close_cell m c (.zdgr 0) 1 (by decide)) $$ [HA_zdgr0] with HZ_zdgr0
  · isplitr; · iexact HI_zdgr0
    iexact HA_zdgr0
  imod (close_cell m c (.zdgr 1) 1 (by decide)) $$ [HA_zdgr1] with HZ_zdgr1
  · isplitr; · iexact HI_zdgr1
    iexact HA_zdgr1
  imod (close_cell m c (.zdgr 2) 1 (by decide)) $$ [HA_zdgr2] with HZ_zdgr2
  · isplitr; · iexact HI_zdgr2
    iexact HA_zdgr2
  imod (close_cell m c (.zdgr 3) 1 (by decide)) $$ [HA_zdgr3] with HZ_zdgr3
  · isplitr; · iexact HI_zdgr3
    iexact HA_zdgr3
  imod (close_cell m c (.zdgr 4) 1 (by decide)) $$ [HA_zdgr4] with HZ_zdgr4
  · isplitr; · iexact HI_zdgr4
    iexact HA_zdgr4
  imod (close_cell m c (.zdgr 5) 1 (by decide)) $$ [HA_zdgr5] with HZ_zdgr5
  · isplitr; · iexact HI_zdgr5
    iexact HA_zdgr5
  imod (close_cell m c (.zdgr 6) 1 (by decide)) $$ [HA_zdgr6] with HZ_zdgr6
  · isplitr; · iexact HI_zdgr6
    iexact HA_zdgr6
  imod (close_cell m c (.zdgr 7) 1 (by decide)) $$ [HA_zdgr7] with HZ_zdgr7
  · isplitr; · iexact HI_zdgr7
    iexact HA_zdgr7
  -- the chunks of the result, each now holding its rows of the whole array, put together again
  ihave HB_qm0 := (pointsTo_share (PosShare.mem_left_op_right fullShare)).2 $$ [HB_qmL0 HB_qmR0]
  · isplitl [HB_qmL0] <;> iassumption
  ihave HB_qm1 := (pointsTo_share (PosShare.mem_left_op_right fullShare)).2 $$ [HB_qmL1 HB_qmR1]
  · isplitl [HB_qmL1] <;> iassumption
  ihave HB_qm2 := (pointsTo_share (PosShare.mem_left_op_right fullShare)).2 $$ [HB_qmL2 HB_qmR2]
  · isplitl [HB_qmL2] <;> iassumption
  ihave HB_qm3 := (pointsTo_share (PosShare.mem_left_op_right fullShare)).2 $$ [HB_qmL3 HB_qmR3]
  · isplitl [HB_qmL3] <;> iassumption
  ihave HB_qm4 := (pointsTo_share (PosShare.mem_left_op_right fullShare)).2 $$ [HB_qmL4 HB_qmR4]
  · isplitl [HB_qmL4] <;> iassumption
  ihave HB_qm5 := (pointsTo_share (PosShare.mem_left_op_right fullShare)).2 $$ [HB_qmL5 HB_qmR5]
  · isplitl [HB_qmL5] <;> iassumption
  ihave HB_qm6 := (pointsTo_share (PosShare.mem_left_op_right fullShare)).2 $$ [HB_qmL6 HB_qmR6]
  · isplitl [HB_qmL6] <;> iassumption
  ihave HB_qm7 := (pointsTo_share (PosShare.mem_left_op_right fullShare)).2 $$ [HB_qmL7 HB_qmR7]
  · isplitl [HB_qmL7] <;> iassumption
  ihave HB_qm8 := (pointsTo_share (PosShare.mem_left_op_right fullShare)).2 $$ [HB_qmL8 HB_qmR8]
  · isplitl [HB_qmL8] <;> iassumption
  ihave HB_qm9 := (pointsTo_share (PosShare.mem_left_op_right fullShare)).2 $$ [HB_qmL9 HB_qmR9]
  · isplitl [HB_qmL9] <;> iassumption
  ihave HB_qm10 := (pointsTo_share (PosShare.mem_left_op_right fullShare)).2 $$ [HB_qmL10 HB_qmR10]
  · isplitl [HB_qmL10] <;> iassumption
  ihave HB_qm11 := (pointsTo_share (PosShare.mem_left_op_right fullShare)).2 $$ [HB_qmL11 HB_qmR11]
  · isplitl [HB_qmL11] <;> iassumption
  ihave HB_qm12 := (pointsTo_share (PosShare.mem_left_op_right fullShare)).2 $$ [HB_qmL12 HB_qmR12]
  · isplitl [HB_qmL12] <;> iassumption
  ihave HB_qm13 := (pointsTo_share (PosShare.mem_left_op_right fullShare)).2 $$ [HB_qmL13 HB_qmR13]
  · isplitl [HB_qmL13] <;> iassumption
  ihave HB_qm14 := (pointsTo_share (PosShare.mem_left_op_right fullShare)).2 $$ [HB_qmL14 HB_qmR14]
  · isplitl [HB_qmL14] <;> iassumption
  ihave HB_qm15 := (pointsTo_share (PosShare.mem_left_op_right fullShare)).2 $$ [HB_qmL15 HB_qmR15]
  · isplitl [HB_qmL15] <;> iassumption
  ihave HB_yd8 := (Entails.of_eq (pts_qMine_yP c c 0 fullShare _).symm) $$ HB_qy0
  ihave HB_zd0 := (Entails.of_eq (pts_qMine_zP c c 0 fullShare _).symm) $$ HB_qz0
  ihave HB_yd9 := (Entails.of_eq (pts_qMine_yP c c 1 fullShare _).symm) $$ HB_qy1
  ihave HB_zd1 := (Entails.of_eq (pts_qMine_zP c c 1 fullShare _).symm) $$ HB_qz1
  ihave HB_yd10 := (Entails.of_eq (pts_qMine_yP c c 2 fullShare _).symm) $$ HB_qy2
  ihave HB_zd2 := (Entails.of_eq (pts_qMine_zP c c 2 fullShare _).symm) $$ HB_qz2
  ihave HB_yd11 := (Entails.of_eq (pts_qMine_yP c c 3 fullShare _).symm) $$ HB_qy3
  ihave HB_zd3 := (Entails.of_eq (pts_qMine_zP c c 3 fullShare _).symm) $$ HB_qz3
  ihave HB_yd12 := (Entails.of_eq (pts_qMine_yP c c 4 fullShare _).symm) $$ HB_qy4
  ihave HB_zd4 := (Entails.of_eq (pts_qMine_zP c c 4 fullShare _).symm) $$ HB_qz4
  ihave HB_yd13 := (Entails.of_eq (pts_qMine_yP c c 5 fullShare _).symm) $$ HB_qy5
  ihave HB_zd5 := (Entails.of_eq (pts_qMine_zP c c 5 fullShare _).symm) $$ HB_qz5
  ihave HB_yd14 := (Entails.of_eq (pts_qMine_yP c c 6 fullShare _).symm) $$ HB_qy6
  ihave HB_zd6 := (Entails.of_eq (pts_qMine_zP c c 6 fullShare _).symm) $$ HB_qz6
  ihave HB_yd15 := (Entails.of_eq (pts_qMine_yP c c 7 fullShare _).symm) $$ HB_qy7
  ihave HB_zd7 := (Entails.of_eq (pts_qMine_zP c c 7 fullShare _).symm) $$ HB_qz7
  ihave HBst := (Entails.of_eq (bigSep_fin16 (fun n : Fin 16 => pts c (stDst c n) fullShare (Xf m c))).symm) $$ [HB_st0 HB_st1 HB_st2 HB_st3 HB_st4 HB_st5 HB_st6 HB_st7 HB_st8 HB_st9 HB_st10 HB_st11 HB_st12 HB_st13 HB_st14 HB_st15]
  · isplitl [HB_st0]; · iexact HB_st0
    isplitl [HB_st1]; · iexact HB_st1
    isplitl [HB_st2]; · iexact HB_st2
    isplitl [HB_st3]; · iexact HB_st3
    isplitl [HB_st4]; · iexact HB_st4
    isplitl [HB_st5]; · iexact HB_st5
    isplitl [HB_st6]; · iexact HB_st6
    isplitl [HB_st7]; · iexact HB_st7
    isplitl [HB_st8]; · iexact HB_st8
    isplitl [HB_st9]; · iexact HB_st9
    isplitl [HB_st10]; · iexact HB_st10
    isplitl [HB_st11]; · iexact HB_st11
    isplitl [HB_st12]; · iexact HB_st12
    isplitl [HB_st13]; · iexact HB_st13
    isplitl [HB_st14]; · iexact HB_st14
    iexact HB_st15
  ihave HBqm := (Entails.of_eq (bigSep_fin16 (fun i : Fin 16 => pts c (qMine c i) fullShare (Xf m c))).symm) $$ [HB_qm0 HB_qm1 HB_qm2 HB_qm3 HB_qm4 HB_qm5 HB_qm6 HB_qm7 HB_qm8 HB_qm9 HB_qm10 HB_qm11 HB_qm12 HB_qm13 HB_qm14 HB_qm15]
  · isplitl [HB_qm0]; · iexact HB_qm0
    isplitl [HB_qm1]; · iexact HB_qm1
    isplitl [HB_qm2]; · iexact HB_qm2
    isplitl [HB_qm3]; · iexact HB_qm3
    isplitl [HB_qm4]; · iexact HB_qm4
    isplitl [HB_qm5]; · iexact HB_qm5
    isplitl [HB_qm6]; · iexact HB_qm6
    isplitl [HB_qm7]; · iexact HB_qm7
    isplitl [HB_qm8]; · iexact HB_qm8
    isplitl [HB_qm9]; · iexact HB_qm9
    isplitl [HB_qm10]; · iexact HB_qm10
    isplitl [HB_qm11]; · iexact HB_qm11
    isplitl [HB_qm12]; · iexact HB_qm12
    isplitl [HB_qm13]; · iexact HB_qm13
    isplitl [HB_qm14]; · iexact HB_qm14
    iexact HB_qm15
  ihave HBqy := (Entails.of_eq (bigSep_fin16 (fun i : Fin 16 => pts c (qMine (yP c) i) fullShare (Xf m c))).symm) $$ [HB_yd0 HB_yd1 HB_yd2 HB_yd3 HB_yd4 HB_yd5 HB_yd6 HB_yd7 HB_yd8 HB_yd9 HB_yd10 HB_yd11 HB_yd12 HB_yd13 HB_yd14 HB_yd15]
  · isplitl [HB_yd0]; · iexact HB_yd0
    isplitl [HB_yd1]; · iexact HB_yd1
    isplitl [HB_yd2]; · iexact HB_yd2
    isplitl [HB_yd3]; · iexact HB_yd3
    isplitl [HB_yd4]; · iexact HB_yd4
    isplitl [HB_yd5]; · iexact HB_yd5
    isplitl [HB_yd6]; · iexact HB_yd6
    isplitl [HB_yd7]; · iexact HB_yd7
    isplitl [HB_yd8]; · iexact HB_yd8
    isplitl [HB_yd9]; · iexact HB_yd9
    isplitl [HB_yd10]; · iexact HB_yd10
    isplitl [HB_yd11]; · iexact HB_yd11
    isplitl [HB_yd12]; · iexact HB_yd12
    isplitl [HB_yd13]; · iexact HB_yd13
    isplitl [HB_yd14]; · iexact HB_yd14
    iexact HB_yd15
  ihave HBqz := (Entails.of_eq (bigSep_fin16 (fun i : Fin 16 => pts c (qMine (zP c) i) fullShare (Xf m c))).symm) $$ [HB_zd0 HB_zd1 HB_zd2 HB_zd3 HB_zd4 HB_zd5 HB_zd6 HB_zd7 HB_zd8 HB_zd9 HB_zd10 HB_zd11 HB_zd12 HB_zd13 HB_zd14 HB_zd15]
  · isplitl [HB_zd0]; · iexact HB_zd0
    isplitl [HB_zd1]; · iexact HB_zd1
    isplitl [HB_zd2]; · iexact HB_zd2
    isplitl [HB_zd3]; · iexact HB_zd3
    isplitl [HB_zd4]; · iexact HB_zd4
    isplitl [HB_zd5]; · iexact HB_zd5
    isplitl [HB_zd6]; · iexact HB_zd6
    isplitl [HB_zd7]; · iexact HB_zd7
    isplitl [HB_zd8]; · iexact HB_zd8
    isplitl [HB_zd9]; · iexact HB_zd9
    isplitl [HB_zd10]; · iexact HB_zd10
    isplitl [HB_zd11]; · iexact HB_zd11
    isplitl [HB_zd12]; · iexact HB_zd12
    isplitl [HB_zd13]; · iexact HB_zd13
    isplitl [HB_zd14]; · iexact HB_zd14
    iexact HB_zd15
  ihave HBqyg := (Entails.of_eq (bigSep_fin8 (fun j : Fin 8 => pts c (qZlo (yP c) j) fullShare (Xf m c))).symm) $$ [HB_ydg0 HB_ydg1 HB_ydg2 HB_ydg3 HB_ydg4 HB_ydg5 HB_ydg6 HB_ydg7]
  · isplitl [HB_ydg0]; · iexact HB_ydg0
    isplitl [HB_ydg1]; · iexact HB_ydg1
    isplitl [HB_ydg2]; · iexact HB_ydg2
    isplitl [HB_ydg3]; · iexact HB_ydg3
    isplitl [HB_ydg4]; · iexact HB_ydg4
    isplitl [HB_ydg5]; · iexact HB_ydg5
    isplitl [HB_ydg6]; · iexact HB_ydg6
    iexact HB_ydg7
  ihave HBqzg := (Entails.of_eq (bigSep_fin8 (fun j : Fin 8 => pts c (qYhi (zP c) j) fullShare (Xf m c))).symm) $$ [HB_zdg0 HB_zdg1 HB_zdg2 HB_zdg3 HB_zdg4 HB_zdg5 HB_zdg6 HB_zdg7]
  · isplitl [HB_zdg0]; · iexact HB_zdg0
    isplitl [HB_zdg1]; · iexact HB_zdg1
    isplitl [HB_zdg2]; · iexact HB_zdg2
    isplitl [HB_zdg3]; · iexact HB_zdg3
    isplitl [HB_zdg4]; · iexact HB_zdg4
    isplitl [HB_zdg5]; · iexact HB_zdg5
    isplitl [HB_zdg6]; · iexact HB_zdg6
    iexact HB_zdg7
  ihave HBout := (out_parts c (Xf m c)).2 $$ [HBst HBqm HBqy HBqz HBqyg HBqzg]
  · isplitl [HBst]; · iexact HBst
    isplitl [HBqm]; · iexact HBqm
    isplitl [HBqy]; · iexact HBqy
    isplitl [HBqz]; · iexact HBqz
    isplitl [HBqyg]; · iexact HBqyg
    iexact HBqzg
  -- the block's two half shares, each put together from its chunks, joined
  ihave HSx := (Entails.of_eq (bigSep_fin16 (fun i : Fin 16 => pts c (xSrc c i) qL (blk m c))).symm) $$ [HS_x0 HS_x1 HS_x2 HS_x3 HS_x4 HS_x5 HS_x6 HS_x7 HS_x8 HS_x9 HS_x10 HS_x11 HS_x12 HS_x13 HS_x14 HS_x15]
  · isplitl [HS_x0]; · iexact HS_x0
    isplitl [HS_x1]; · iexact HS_x1
    isplitl [HS_x2]; · iexact HS_x2
    isplitl [HS_x3]; · iexact HS_x3
    isplitl [HS_x4]; · iexact HS_x4
    isplitl [HS_x5]; · iexact HS_x5
    isplitl [HS_x6]; · iexact HS_x6
    isplitl [HS_x7]; · iexact HS_x7
    isplitl [HS_x8]; · iexact HS_x8
    isplitl [HS_x9]; · iexact HS_x9
    isplitl [HS_x10]; · iexact HS_x10
    isplitl [HS_x11]; · iexact HS_x11
    isplitl [HS_x12]; · iexact HS_x12
    isplitl [HS_x13]; · iexact HS_x13
    isplitl [HS_x14]; · iexact HS_x14
    iexact HS_x15
  ihave HBinL := (in_quarter c qL (blk m c)).2 $$ [HSx HBinRest]
  · isplitl [HSx] <;> iassumption
  ihave HBinR := (Entails.of_eq (bigSep_fin16 (fun n : Fin 16 => pts c (ldSrc n) qR (blk m c))).symm) $$ [HS_ld0 HS_ld1 HS_ld2 HS_ld3 HS_ld4 HS_ld5 HS_ld6 HS_ld7 HS_ld8 HS_ld9 HS_ld10 HS_ld11 HS_ld12 HS_ld13 HS_ld14 HS_ld15]
  · isplitl [HS_ld0]; · iexact HS_ld0
    isplitl [HS_ld1]; · iexact HS_ld1
    isplitl [HS_ld2]; · iexact HS_ld2
    isplitl [HS_ld3]; · iexact HS_ld3
    isplitl [HS_ld4]; · iexact HS_ld4
    isplitl [HS_ld5]; · iexact HS_ld5
    isplitl [HS_ld6]; · iexact HS_ld6
    isplitl [HS_ld7]; · iexact HS_ld7
    isplitl [HS_ld8]; · iexact HS_ld8
    isplitl [HS_ld9]; · iexact HS_ld9
    isplitl [HS_ld10]; · iexact HS_ld10
    isplitl [HS_ld11]; · iexact HS_ld11
    isplitl [HS_ld12]; · iexact HS_ld12
    isplitl [HS_ld13]; · iexact HS_ld13
    isplitl [HS_ld14]; · iexact HS_ld14
    iexact HS_ld15
  ihave HBinR := (in_loads c qR (blk m c)).2 $$ HBinR
  ihave HBin := (pointsTo_share (PosShare.mem_left_op_right fullShare)).2 $$ [HBinL HBinR]
  · isplitl [HBinL] <;> iassumption
  -- the rotating buffers
  ihave HBvb := (Entails.of_eq (bigSep_fin4 (fun k : Fin 4 => iprop(∃ g, pts (F := F) c (vslot k) fullShare g))).symm) $$ [HV0 HV1 HV2 HV3]
  · isplitl [HV0]; · iexists _; iexact HV0
    isplitl [HV1]; · iexists _; iexact HV1
    isplitl [HV2]; · iexists _; iexact HV2
    iexists _; iexact HV3
  ihave HBvb := (vb_join c) $$ HBvb
  -- the counters, role by role
  ihave HZ_ld := (Entails.of_eq (bigSep_fin4 (fun k : Fin 4 => (semVal (kcell c (.ld k)) 0 : sProp 𝕄))).symm) $$ [HZ_ld0 HZ_ld1 HZ_ld2 HZ_ld3]
  · isplitl [HZ_ld0]; · iexact HZ_ld0
    isplitl [HZ_ld1]; · iexact HZ_ld1
    isplitl [HZ_ld2]; · iexact HZ_ld2
    iexact HZ_ld3
  ihave HZ_st := (Entails.of_eq (bigSep_fin4 (fun k : Fin 4 => (semVal (kcell c (.st k)) 0 : sProp 𝕄))).symm) $$ [HZ_st0 HZ_st1 HZ_st2 HZ_st3]
  · isplitl [HZ_st0]; · iexact HZ_st0
    isplitl [HZ_st1]; · iexact HZ_st1
    isplitl [HZ_st2]; · iexact HZ_st2
    iexact HZ_st3
  ihave HZ_xs := (Entails.of_eq (bigSep_fin16 (fun k : Fin 16 => (semVal (kcell c (.xs k)) 0 : sProp 𝕄))).symm) $$ [HZ_xs0 HZ_xs1 HZ_xs2 HZ_xs3 HZ_xs4 HZ_xs5 HZ_xs6 HZ_xs7 HZ_xs8 HZ_xs9 HZ_xs10 HZ_xs11 HZ_xs12 HZ_xs13 HZ_xs14 HZ_xs15]
  · isplitl [HZ_xs0]; · iexact HZ_xs0
    isplitl [HZ_xs1]; · iexact HZ_xs1
    isplitl [HZ_xs2]; · iexact HZ_xs2
    isplitl [HZ_xs3]; · iexact HZ_xs3
    isplitl [HZ_xs4]; · iexact HZ_xs4
    isplitl [HZ_xs5]; · iexact HZ_xs5
    isplitl [HZ_xs6]; · iexact HZ_xs6
    isplitl [HZ_xs7]; · iexact HZ_xs7
    isplitl [HZ_xs8]; · iexact HZ_xs8
    isplitl [HZ_xs9]; · iexact HZ_xs9
    isplitl [HZ_xs10]; · iexact HZ_xs10
    isplitl [HZ_xs11]; · iexact HZ_xs11
    isplitl [HZ_xs12]; · iexact HZ_xs12
    isplitl [HZ_xs13]; · iexact HZ_xs13
    isplitl [HZ_xs14]; · iexact HZ_xs14
    iexact HZ_xs15
  ihave HZ_xr := (Entails.of_eq (bigSep_fin16 (fun k : Fin 16 => (semVal (kcell c (.xr k)) 0 : sProp 𝕄))).symm) $$ [HZ_xr0 HZ_xr1 HZ_xr2 HZ_xr3 HZ_xr4 HZ_xr5 HZ_xr6 HZ_xr7 HZ_xr8 HZ_xr9 HZ_xr10 HZ_xr11 HZ_xr12 HZ_xr13 HZ_xr14 HZ_xr15]
  · isplitl [HZ_xr0]; · iexact HZ_xr0
    isplitl [HZ_xr1]; · iexact HZ_xr1
    isplitl [HZ_xr2]; · iexact HZ_xr2
    isplitl [HZ_xr3]; · iexact HZ_xr3
    isplitl [HZ_xr4]; · iexact HZ_xr4
    isplitl [HZ_xr5]; · iexact HZ_xr5
    isplitl [HZ_xr6]; · iexact HZ_xr6
    isplitl [HZ_xr7]; · iexact HZ_xr7
    isplitl [HZ_xr8]; · iexact HZ_xr8
    isplitl [HZ_xr9]; · iexact HZ_xr9
    isplitl [HZ_xr10]; · iexact HZ_xr10
    isplitl [HZ_xr11]; · iexact HZ_xr11
    isplitl [HZ_xr12]; · iexact HZ_xr12
    isplitl [HZ_xr13]; · iexact HZ_xr13
    isplitl [HZ_xr14]; · iexact HZ_xr14
    iexact HZ_xr15
  ihave HZ_yds := (Entails.of_eq (bigSep_fin16 (fun k : Fin 16 => (semVal (kcell c (.yds k)) 0 : sProp 𝕄))).symm) $$ [HZ_yds0 HZ_yds1 HZ_yds2 HZ_yds3 HZ_yds4 HZ_yds5 HZ_yds6 HZ_yds7 HZ_yds8 HZ_yds9 HZ_yds10 HZ_yds11 HZ_yds12 HZ_yds13 HZ_yds14 HZ_yds15]
  · isplitl [HZ_yds0]; · iexact HZ_yds0
    isplitl [HZ_yds1]; · iexact HZ_yds1
    isplitl [HZ_yds2]; · iexact HZ_yds2
    isplitl [HZ_yds3]; · iexact HZ_yds3
    isplitl [HZ_yds4]; · iexact HZ_yds4
    isplitl [HZ_yds5]; · iexact HZ_yds5
    isplitl [HZ_yds6]; · iexact HZ_yds6
    isplitl [HZ_yds7]; · iexact HZ_yds7
    isplitl [HZ_yds8]; · iexact HZ_yds8
    isplitl [HZ_yds9]; · iexact HZ_yds9
    isplitl [HZ_yds10]; · iexact HZ_yds10
    isplitl [HZ_yds11]; · iexact HZ_yds11
    isplitl [HZ_yds12]; · iexact HZ_yds12
    isplitl [HZ_yds13]; · iexact HZ_yds13
    isplitl [HZ_yds14]; · iexact HZ_yds14
    iexact HZ_yds15
  ihave HZ_ydr := (Entails.of_eq (bigSep_fin16 (fun k : Fin 16 => (semVal (kcell c (.ydr k)) 0 : sProp 𝕄))).symm) $$ [HZ_ydr0 HZ_ydr1 HZ_ydr2 HZ_ydr3 HZ_ydr4 HZ_ydr5 HZ_ydr6 HZ_ydr7 HZ_ydr8 HZ_ydr9 HZ_ydr10 HZ_ydr11 HZ_ydr12 HZ_ydr13 HZ_ydr14 HZ_ydr15]
  · isplitl [HZ_ydr0]; · iexact HZ_ydr0
    isplitl [HZ_ydr1]; · iexact HZ_ydr1
    isplitl [HZ_ydr2]; · iexact HZ_ydr2
    isplitl [HZ_ydr3]; · iexact HZ_ydr3
    isplitl [HZ_ydr4]; · iexact HZ_ydr4
    isplitl [HZ_ydr5]; · iexact HZ_ydr5
    isplitl [HZ_ydr6]; · iexact HZ_ydr6
    isplitl [HZ_ydr7]; · iexact HZ_ydr7
    isplitl [HZ_ydr8]; · iexact HZ_ydr8
    isplitl [HZ_ydr9]; · iexact HZ_ydr9
    isplitl [HZ_ydr10]; · iexact HZ_ydr10
    isplitl [HZ_ydr11]; · iexact HZ_ydr11
    isplitl [HZ_ydr12]; · iexact HZ_ydr12
    isplitl [HZ_ydr13]; · iexact HZ_ydr13
    isplitl [HZ_ydr14]; · iexact HZ_ydr14
    iexact HZ_ydr15
  ihave HZ_zds := (Entails.of_eq (bigSep_fin16 (fun k : Fin 16 => (semVal (kcell c (.zds k)) 0 : sProp 𝕄))).symm) $$ [HZ_zds0 HZ_zds1 HZ_zds2 HZ_zds3 HZ_zds4 HZ_zds5 HZ_zds6 HZ_zds7 HZ_zds8 HZ_zds9 HZ_zds10 HZ_zds11 HZ_zds12 HZ_zds13 HZ_zds14 HZ_zds15]
  · isplitl [HZ_zds0]; · iexact HZ_zds0
    isplitl [HZ_zds1]; · iexact HZ_zds1
    isplitl [HZ_zds2]; · iexact HZ_zds2
    isplitl [HZ_zds3]; · iexact HZ_zds3
    isplitl [HZ_zds4]; · iexact HZ_zds4
    isplitl [HZ_zds5]; · iexact HZ_zds5
    isplitl [HZ_zds6]; · iexact HZ_zds6
    isplitl [HZ_zds7]; · iexact HZ_zds7
    isplitl [HZ_zds8]; · iexact HZ_zds8
    isplitl [HZ_zds9]; · iexact HZ_zds9
    isplitl [HZ_zds10]; · iexact HZ_zds10
    isplitl [HZ_zds11]; · iexact HZ_zds11
    isplitl [HZ_zds12]; · iexact HZ_zds12
    isplitl [HZ_zds13]; · iexact HZ_zds13
    isplitl [HZ_zds14]; · iexact HZ_zds14
    iexact HZ_zds15
  ihave HZ_zdr := (Entails.of_eq (bigSep_fin16 (fun k : Fin 16 => (semVal (kcell c (.zdr k)) 0 : sProp 𝕄))).symm) $$ [HZ_zdr0 HZ_zdr1 HZ_zdr2 HZ_zdr3 HZ_zdr4 HZ_zdr5 HZ_zdr6 HZ_zdr7 HZ_zdr8 HZ_zdr9 HZ_zdr10 HZ_zdr11 HZ_zdr12 HZ_zdr13 HZ_zdr14 HZ_zdr15]
  · isplitl [HZ_zdr0]; · iexact HZ_zdr0
    isplitl [HZ_zdr1]; · iexact HZ_zdr1
    isplitl [HZ_zdr2]; · iexact HZ_zdr2
    isplitl [HZ_zdr3]; · iexact HZ_zdr3
    isplitl [HZ_zdr4]; · iexact HZ_zdr4
    isplitl [HZ_zdr5]; · iexact HZ_zdr5
    isplitl [HZ_zdr6]; · iexact HZ_zdr6
    isplitl [HZ_zdr7]; · iexact HZ_zdr7
    isplitl [HZ_zdr8]; · iexact HZ_zdr8
    isplitl [HZ_zdr9]; · iexact HZ_zdr9
    isplitl [HZ_zdr10]; · iexact HZ_zdr10
    isplitl [HZ_zdr11]; · iexact HZ_zdr11
    isplitl [HZ_zdr12]; · iexact HZ_zdr12
    isplitl [HZ_zdr13]; · iexact HZ_zdr13
    isplitl [HZ_zdr14]; · iexact HZ_zdr14
    iexact HZ_zdr15
  ihave HZ_ydgs := (Entails.of_eq (bigSep_fin8 (fun k : Fin 8 => (semVal (kcell c (.ydgs k)) 0 : sProp 𝕄))).symm) $$ [HZ_ydgs0 HZ_ydgs1 HZ_ydgs2 HZ_ydgs3 HZ_ydgs4 HZ_ydgs5 HZ_ydgs6 HZ_ydgs7]
  · isplitl [HZ_ydgs0]; · iexact HZ_ydgs0
    isplitl [HZ_ydgs1]; · iexact HZ_ydgs1
    isplitl [HZ_ydgs2]; · iexact HZ_ydgs2
    isplitl [HZ_ydgs3]; · iexact HZ_ydgs3
    isplitl [HZ_ydgs4]; · iexact HZ_ydgs4
    isplitl [HZ_ydgs5]; · iexact HZ_ydgs5
    isplitl [HZ_ydgs6]; · iexact HZ_ydgs6
    iexact HZ_ydgs7
  ihave HZ_ydgr := (Entails.of_eq (bigSep_fin8 (fun k : Fin 8 => (semVal (kcell c (.ydgr k)) 0 : sProp 𝕄))).symm) $$ [HZ_ydgr0 HZ_ydgr1 HZ_ydgr2 HZ_ydgr3 HZ_ydgr4 HZ_ydgr5 HZ_ydgr6 HZ_ydgr7]
  · isplitl [HZ_ydgr0]; · iexact HZ_ydgr0
    isplitl [HZ_ydgr1]; · iexact HZ_ydgr1
    isplitl [HZ_ydgr2]; · iexact HZ_ydgr2
    isplitl [HZ_ydgr3]; · iexact HZ_ydgr3
    isplitl [HZ_ydgr4]; · iexact HZ_ydgr4
    isplitl [HZ_ydgr5]; · iexact HZ_ydgr5
    isplitl [HZ_ydgr6]; · iexact HZ_ydgr6
    iexact HZ_ydgr7
  ihave HZ_zdgs := (Entails.of_eq (bigSep_fin8 (fun k : Fin 8 => (semVal (kcell c (.zdgs k)) 0 : sProp 𝕄))).symm) $$ [HZ_zdgs0 HZ_zdgs1 HZ_zdgs2 HZ_zdgs3 HZ_zdgs4 HZ_zdgs5 HZ_zdgs6 HZ_zdgs7]
  · isplitl [HZ_zdgs0]; · iexact HZ_zdgs0
    isplitl [HZ_zdgs1]; · iexact HZ_zdgs1
    isplitl [HZ_zdgs2]; · iexact HZ_zdgs2
    isplitl [HZ_zdgs3]; · iexact HZ_zdgs3
    isplitl [HZ_zdgs4]; · iexact HZ_zdgs4
    isplitl [HZ_zdgs5]; · iexact HZ_zdgs5
    isplitl [HZ_zdgs6]; · iexact HZ_zdgs6
    iexact HZ_zdgs7
  ihave HZ_zdgr := (Entails.of_eq (bigSep_fin8 (fun k : Fin 8 => (semVal (kcell c (.zdgr k)) 0 : sProp 𝕄))).symm) $$ [HZ_zdgr0 HZ_zdgr1 HZ_zdgr2 HZ_zdgr3 HZ_zdgr4 HZ_zdgr5 HZ_zdgr6 HZ_zdgr7]
  · isplitl [HZ_zdgr0]; · iexact HZ_zdgr0
    isplitl [HZ_zdgr1]; · iexact HZ_zdgr1
    isplitl [HZ_zdgr2]; · iexact HZ_zdgr2
    isplitl [HZ_zdgr3]; · iexact HZ_zdgr3
    isplitl [HZ_zdgr4]; · iexact HZ_zdgr4
    isplitl [HZ_zdgr5]; · iexact HZ_zdgr5
    isplitl [HZ_zdgr6]; · iexact HZ_zdgr6
    iexact HZ_zdgr7
  ihave HZ := (Entails.of_eq (bigSep_cls (fun x : Cls => (semVal (kcell c x) 0 : sProp 𝕄))).symm) $$ [HZ_ld HZ_st HZ_xs HZ_xr HZ_yds HZ_ydr HZ_zds HZ_zdr HZ_ydgs HZ_ydgr HZ_zdgs HZ_zdgr]
  · isplitl [HZ_ld]; · iexact HZ_ld
    isplitl [HZ_st]; · iexact HZ_st
    isplitl [HZ_xs]; · iexact HZ_xs
    isplitl [HZ_xr]; · iexact HZ_xr
    isplitl [HZ_yds]; · iexact HZ_yds
    isplitl [HZ_ydr]; · iexact HZ_ydr
    isplitl [HZ_zds]; · iexact HZ_zds
    isplitl [HZ_zdr]; · iexact HZ_zdr
    isplitl [HZ_ydgs]; · iexact HZ_ydgs
    isplitl [HZ_ydgr]; · iexact HZ_ydgr
    isplitl [HZ_zdgs]; · iexact HZ_zdgs
    iexact HZ_zdgr
  rw [wp_ret]; imodintro
  iapply Hk
  unfold Φ₁
  isplitr [HO]
  · isplitl [HBin]; · iexact HBin
    isplitl [HBout]; · iexact HBout
    isplitl [HBvb]; · iexact HBvb
    iexact HZ
  · iexists _; iexact HO

end Cert.Kernel.AG

end
-- ==== Proof.KAGOblig.lean ====
/- The body obligation the launch asks of each device: from the invariant before the kernel's one point and what the device
   owes, its body runs to the invariant after it, owing nothing. There is no staged window: the body's buffers are all in
   the invariant. -/
import proofs.«900678_g7700000000000679_dist_ag_v7x_xyz2x2x4_x_m16384_n1024_f32_1_alg».proof.Proof.KAGBody

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
open Idealize.ShloMosaic.Pipeline in
theorem body_obligation (c : Dev nD) : Pipeline.BodyObligationLoose (dats (F := F) m 0 c) (defs₀ (F := F)) 𝒱₀ () Set.univ := fun t => by
  obtain rfl : t = t0_0 := fin_N0 t
  show iprop(Φ₀ m c ∗ (dats m 0 c).owesAt () t0_0.castSucc ∗ emp)
    ⊢ wp frame (wpE (defs₀ (F := F)) 𝒱₀ (c : Thread nD τ) none) Set.univ (cc0_body (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12)
        (fun _ => iprop(Φ₁ m c ∗ (dats m 0 c).owesAt () t0_0.succ ∗ emp))
  unfold Φ₀ Dat.owesAt Pipeline.owesWithin
  iintro ⟨⟨⟨%K, Hg⟩, Hrest⟩, ⟨%W, %hW, HO⟩, -⟩
  iapply (sound_body m c K _)
  isplitl [Hg Hrest]
  · isplitl [Hg]; · iexact Hg
    iexact Hrest
  isplitl [HO]
  · iexists W; iexact HO
  · iintro ⟨H1, ⟨%W', HO'⟩⟩
    isplitl [H1]; · iexact H1
    isplitl [HO']
    · iexists W'
      isplitr; · ipureintro; exact fun _ _ => Or.inl trivial
      iexact HO'
    · iempintro

end Cert.Kernel.AG

end
-- ==== Proof.lean ====
/- The five claims of the sixteen-device all-gather against its one-device reference.

   The kernel's run is proved once, for the idealized program and generic in the float instance: on every device the body
   obligation (the handshake, the copies and their waits, every cell closed) is discharged step by step, the launch turns it
   into a run of the whole mesh that terminates with every device's result holding, row by row, the block rows of the rows'
   owners, and the argument blocks unchanged. The word-level program's run is the same text over the program as printed.
   The frames drop the values. The reference returns its argument. For the equivalence, every device's block is its x block
   of the reference's whole array, so every owner's row is the whole array's row and every device's result is the whole
   array, which is the reference's result. Nothing was idealized, so the sanctioned-idealization claim is empty. -/
import proofs.«900678_g7700000000000679_dist_ag_v7x_xyz2x2x4_x_m16384_n1024_f32_1_alg».proof.Defs
import proofs.«900678_g7700000000000679_dist_ag_v7x_xyz2x2x4_x_m16384_n1024_f32_1_alg».proof.Proof.Gen.Kernel
import proofs.«900678_g7700000000000679_dist_ag_v7x_xyz2x2x4_x_m16384_n1024_f32_1_alg».proof.Proof.Gen.Kernel.Skeleton
import proofs.«900678_g7700000000000679_dist_ag_v7x_xyz2x2x4_x_m16384_n1024_f32_1_alg».proof.Proof.Gen.Kernel.Launch
import proofs.«900678_g7700000000000679_dist_ag_v7x_xyz2x2x4_x_m16384_n1024_f32_1_alg».proof.Proof.Gen.Kernel.Points
import proofs.«900678_g7700000000000679_dist_ag_v7x_xyz2x2x4_x_m16384_n1024_f32_1_alg».proof.Proof.Gen.Kernel.Frame
import proofs.«900678_g7700000000000679_dist_ag_v7x_xyz2x2x4_x_m16384_n1024_f32_1_alg».proof.Proof.Gen.KernelIdeal
import proofs.«900678_g7700000000000679_dist_ag_v7x_xyz2x2x4_x_m16384_n1024_f32_1_alg».proof.Proof.Gen.KernelIdeal.Skeleton
import proofs.«900678_g7700000000000679_dist_ag_v7x_xyz2x2x4_x_m16384_n1024_f32_1_alg».proof.Proof.Gen.KernelIdeal.Launch
import proofs.«900678_g7700000000000679_dist_ag_v7x_xyz2x2x4_x_m16384_n1024_f32_1_alg».proof.Proof.Gen.KernelIdeal.Points
import proofs.«900678_g7700000000000679_dist_ag_v7x_xyz2x2x4_x_m16384_n1024_f32_1_alg».proof.Proof.Gen.KernelIdeal.Frame
import proofs.«900678_g7700000000000679_dist_ag_v7x_xyz2x2x4_x_m16384_n1024_f32_1_alg».proof.Proof.Gen.ReferenceIdeal
import proofs.«900678_g7700000000000679_dist_ag_v7x_xyz2x2x4_x_m16384_n1024_f32_1_alg».proof.Proof.Gen.Pre_finite_inputs_Kernel
import proofs.«900678_g7700000000000679_dist_ag_v7x_xyz2x2x4_x_m16384_n1024_f32_1_alg».proof.Proof.Gen.Pre_finite_inputs_ReferenceIdeal
import proofs.«900678_g7700000000000679_dist_ag_v7x_xyz2x2x4_x_m16384_n1024_f32_1_alg».proof.Proof.AGLaunch
import proofs.«900678_g7700000000000679_dist_ag_v7x_xyz2x2x4_x_m16384_n1024_f32_1_alg».proof.Proof.AGOblig
import proofs.«900678_g7700000000000679_dist_ag_v7x_xyz2x2x4_x_m16384_n1024_f32_1_alg».proof.Proof.AGWhole
import proofs.«900678_g7700000000000679_dist_ag_v7x_xyz2x2x4_x_m16384_n1024_f32_1_alg».proof.Proof.AGRef
import proofs.«900678_g7700000000000679_dist_ag_v7x_xyz2x2x4_x_m16384_n1024_f32_1_alg».proof.Proof.KAGLaunch
import proofs.«900678_g7700000000000679_dist_ag_v7x_xyz2x2x4_x_m16384_n1024_f32_1_alg».proof.Proof.KAGOblig
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m g _ => (θ_run (Cert.Kernel.defs (F := Bits)) _ _).mono (fun _ h c => (h c).2)
    (Cert.Kernel.AG.run_main (F := Bits) m (Cert.Kernel.AG.body_obligation m) g),
  fun m g _ => (θ_run (Cert.KernelIdeal.defs (F := Ideal)) _ _).mono (fun _ h c => (h c).2)
    (Cert.KernelIdeal.AG.run_main (F := Ideal) m (Cert.KernelIdeal.AG.body_obligation m) g),
  fun m g _ => Cert.ReferenceIdeal.Ref.run_main (F := Ideal) m g,
  trivial,
  fun m g m' g' _ hagree => ⟨m' (((0 : Dev Cert.ReferenceIdeal.nD).tc : Thread Cert.ReferenceIdeal.nD Cert.ReferenceIdeal.τ).loc Cert.ReferenceIdeal.main_arg0),
    (θ_run (Cert.KernelIdeal.defs (F := Ideal)) _ _).mono
      (fun _ h c => ⟨(h c).1.trans (Cert.KernelIdeal.AG.Xf_whole (F := Ideal) m c _ hagree), (h c).2⟩)
      (Cert.KernelIdeal.AG.run_main (F := Ideal) m (Cert.KernelIdeal.AG.body_obligation m) g),
    (θ_run (Cert.ReferenceIdeal.defs (F := Ideal)) _ _).mono (fun _ h => ⟨h 0, h 0⟩)
      (Cert.ReferenceIdeal.Ref.run_main (F := Ideal) m' g')⟩⟩

end Cert.Proof

end
